-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v251) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1475 : Shape := ⟨3, ![16, 2048, 1475]⟩
abbrev S2x12288 : Shape := ⟨2, ![2, 12288]⟩
abbrev S1475x512 : Shape := ⟨2, ![1475, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S64x3 : Shape := ⟨2, ![64, 3]⟩
abbrev S3 : Shape := ⟨1, ![3]⟩
abbrev S6144x6144 : Shape := ⟨2, ![6144, 6144]⟩
abbrev S6144 : Shape := ⟨1, ![6144]⟩
abbrev S_ : Shape := ⟨0, ![]⟩

class Facts : Prop where
  bcast_S_S16x2048x1475 : S_.BroadcastsInDim S16x2048x1475 (![] : Fin 0 → Fin S16x2048x1475.rank)
  reducesTo_S16x2048x1475_S_d0_1_2 : S16x2048x1475.ReducesTo [0, 1, 2] S_
  h_S_ : 0 < S_.numel
  bcast_S_S1475x512 : S_.BroadcastsInDim S1475x512 (![] : Fin 0 → Fin S1475x512.rank)
  reducesTo_S1475x512_S_d0_1 : S1475x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_
  bcast_S_S6144x6144 : S_.BroadcastsInDim S6144x6144 (![] : Fin 0 → Fin S6144x6144.rank)
  reducesTo_S6144x6144_S_d0_1 : S6144x6144.ReducesTo [0, 1] S_
  bcast_S_S6144 : S_.BroadcastsInDim S6144 (![] : Fin 0 → Fin S6144.rank)
  reducesTo_S6144_S_d0 : S6144.ReducesTo [0] S_
  bcast_S_S2x12288 : S_.BroadcastsInDim S2x12288 (![] : Fin 0 → Fin S2x12288.rank)
  reducesTo_S2x12288_S_d0_1 : S2x12288.ReducesTo [0, 1] S_

variable [Facts]

def fn_part4 {F : FTy → Type} [FloatOps F] (main_arg1 : IVec S2x12288 32) (main_arg15 : FVec F S6144 .f32) (main_v63 : IVec S_ 1) (main_v67 : IVec S_ 1) : IVec S_ 1 :=
  let main_v68 : IVec S_ 1 := andi main_v63 main_v67
  let main_v69 : FVec F S6144 .f32 := Host.absf main_arg15
  let main_cst_26 : FVec F S_ .f32 := constant S_ .f32 0x7F800000#32
  let main_v70 : FVec F S6144 .f32 := broadcastInDim S6144 ![] bcast_S_S6144 main_cst_26
  let main_v71 : IVec S6144 1 := cmpf .olt main_v69 main_v70
  let main_c_27 : IVec S_ 1 := constantI S_ 1 1#1
  let main_v72 : IVec S_ 1 := (fun x v => Host.reduce IntOp.andi x v reducesTo_S6144_S_d0 h_S_) main_v71 main_c_27
  let main_v73 : IVec S_ 1 := andi main_v68 main_v72
  let main_c_28 : IVec S_ 32 := constantI S_ 32 0#32
  let main_v74 : IVec S2x12288 32 := broadcastInDim S2x12288 ![] bcast_S_S2x12288 main_c_28
  let main_v75 : IVec S2x12288 1 := cmpi .sge main_arg1 main_v74
  let main_c_29 : IVec S_ 1 := constantI S_ 1 1#1
  let main_v76 : IVec S_ 1 := (fun x v => Host.reduce IntOp.andi x v reducesTo_S2x12288_S_d0_1 h_S_) main_v75 main_c_29
  let main_v77 : IVec S_ 1 := andi main_v73 main_v76
  let main_c_30 : IVec S_ 32 := constantI S_ 32 2048#32
  let main_v78 : IVec S2x12288 32 := broadcastInDim S2x12288 ![] bcast_S_S2x12288 main_c_30
  let main_v79 : IVec S2x12288 1 := cmpi .slt main_arg1 main_v78
  let main_c_31 : IVec S_ 1 := constantI S_ 1 1#1
  let main_v80 : IVec S_ 1 := (fun x v => Host.reduce IntOp.andi x v reducesTo_S2x12288_S_d0_1 h_S_) main_v79 main_c_31
  let main_v81 : IVec S_ 1 := andi main_v77 main_v80
  main_v81

def fn_part3 {F : FTy → Type} [FloatOps F] (main_arg1 : IVec S2x12288 32) (main_arg12 : FVec F S64x3 .f32) (main_arg13 : FVec F S3 .f32) (main_arg14 : FVec F S6144x6144 .f32) (main_arg15 : FVec F S6144 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x3 .f32 := Host.absf main_arg12
  let main_cst_20 : FVec F S_ .f32 := constant S_ .f32 0x7F800000#32
  let main_v55 : FVec F S64x3 .f32 := broadcastInDim S64x3 ![] bcast_S_S64x3 main_cst_20
  let main_v56 : IVec S64x3 1 := cmpf .olt main_v54 main_v55
  let main_c_21 : IVec S_ 1 := constantI S_ 1 1#1
  let main_v57 : IVec S_ 1 := (fun x v => Host.reduce IntOp.andi x v reducesTo_S64x3_S_d0_1 h_S_) main_v56 main_c_21
  let main_v58 : IVec S_ 1 := andi main_v53 main_v57
  let main_v59 : FVec F S3 .f32 := Host.absf main_arg13
  let main_cst_22 : FVec F S_ .f32 := constant S_ .f32 0x7F800000#32
  let main_v60 : FVec F S3 .f32 := broadcastInDim S3 ![] bcast_S_S3 main_cst_22
  let main_v61 : IVec S3 1 := cmpf .olt main_v59 main_v60
  let main_c_23 : IVec S_ 1 := constantI S_ 1 1#1
  let main_v62 : IVec S_ 1 := (fun x v => Host.reduce IntOp.andi x v reducesTo_S3_S_d0 h_S_) main_v61 main_c_23
  let main_v63 : IVec S_ 1 := andi main_v58 main_v62
  let main_v64 : FVec F S6144x6144 .f32 := Host.absf main_arg14
  let main_cst_24 : FVec F S_ .f32 := constant S_ .f32 0x7F800000#32
  let main_v65 : FVec F S6144x6144 .f32 := broadcastInDim S6144x6144 ![] bcast_S_S6144x6144 main_cst_24
  let main_v66 : IVec S6144x6144 1 := cmpf .olt main_v64 main_v65
  let main_c_25 : IVec S_ 1 := constantI S_ 1 1#1
  let main_v67 : IVec S_ 1 := (fun x v => Host.reduce IntOp.andi x v reducesTo_S6144x6144_S_d0_1 h_S_) main_v66 main_c_25
  fn_part4 (F := F) main_arg1 main_arg15 main_v63 main_v67

def fn_part2 {F : FTy → Type} [FloatOps F] (main_arg1 : IVec S2x12288 32) (main_arg8 : FVec F S256x256 .f32) (main_arg9 : FVec F S256 .f32) (main_arg10 : FVec F S256x64 .f32) (main_arg11 : FVec F S64 .f32) (main_arg12 : FVec F S64x3 .f32) (main_arg13 : FVec F S3 .f32) (main_arg14 : FVec F S6144x6144 .f32) (main_arg15 : FVec F S6144 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x64 .f32 := Host.absf main_arg10
  let main_cst_16 : FVec F S_ .f32 := constant S_ .f32 0x7F800000#32
  let main_v45 : FVec F S256x64 .f32 := broadcastInDim S256x64 ![] bcast_S_S256x64 main_cst_16
  let main_v46 : IVec S256x64 1 := cmpf .olt main_v44 main_v45
  let main_c_17 : IVec S_ 1 := constantI S_ 1 1#1
  let main_v47 : IVec S_ 1 := (fun x v => Host.reduce IntOp.andi x v reducesTo_S256x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg1 main_arg12 main_arg13 main_arg14 main_arg15 main_v48 main_v49 main_v50

def fn_part1 {F : FTy → Type} [FloatOps F] (main_arg1 : IVec S2x12288 32) (main_arg5 : FVec F S512 .f32) (main_arg6 : FVec F S512x256 .f32) (main_arg7 : FVec F S256 .f32) (main_arg8 : FVec F S256x256 .f32) (main_arg9 : FVec F S256 .f32) (main_arg10 : FVec F S256x64 .f32) (main_arg11 : FVec F S64 .f32) (main_arg12 : FVec F S64x3 .f32) (main_arg13 : FVec F S3 .f32) (main_arg14 : FVec F S6144x6144 .f32) (main_arg15 : FVec F S6144 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x256 .f32 := Host.absf main_arg6
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_arg8 main_arg9 main_arg10 main_arg11 main_arg12 main_arg13 main_arg14 main_arg15 main_v33

def fn {F : FTy → Type} [FloatOps F] (main_arg0 : FVec F S16x2048x1475 .f32) (main_arg1 : IVec S2x12288 32) (main_arg2 : FVec F S1475x512 .f32) (main_arg3 : FVec F S512 .f32) (main_arg4 : FVec F S512x512 .f32) (main_arg5 : FVec F S512 .f32) (main_arg6 : FVec F S512x256 .f32) (main_arg7 : FVec F S256 .f32) (main_arg8 : FVec F S256x256 .f32) (main_arg9 : FVec F S256 .f32) (main_arg10 : FVec F S256x64 .f32) (main_arg11 : FVec F S64 .f32) (main_arg12 : FVec F S64x3 .f32) (main_arg13 : FVec F S3 .f32) (main_arg14 : FVec F S6144x6144 .f32) (main_arg15 : FVec F S6144 .f32) : IVec S_ 1 :=
  let main_v0 : FVec F S16x2048x1475 .f32 := Host.absf main_arg0
  let main_cst : FVec F S_ .f32 := constant S_ .f32 0x7F800000#32
  let main_v1 : FVec F S16x2048x1475 .f32 := broadcastInDim S16x2048x1475 ![] bcast_S_S16x2048x1475 main_cst
  let main_v2 : IVec S16x2048x1475 1 := cmpf .olt main_v0 main_v1
  let main_c : IVec S_ 1 := constantI S_ 1 1#1
  let main_v3 : IVec S_ 1 := (fun x v => Host.reduce IntOp.andi x v reducesTo_S16x2048x1475_S_d0_1_2 h_S_) main_v2 main_c
  let main_v4 : FVec F S1475x512 .f32 := Host.absf main_arg2
  let main_cst_0 : FVec F S_ .f32 := constant S_ .f32 0x7F800000#32
  let main_v5 : FVec F S1475x512 .f32 := broadcastInDim S1475x512 ![] bcast_S_S1475x512 main_cst_0
  let main_v6 : IVec S1475x512 1 := cmpf .olt main_v4 main_v5
  let main_c_1 : IVec S_ 1 := constantI S_ 1 1#1
  let main_v7 : IVec S_ 1 := (fun x v => Host.reduce IntOp.andi x v reducesTo_S1475x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg1 main_arg5 main_arg6 main_arg7 main_arg8 main_arg9 main_arg10 main_arg11 main_arg12 main_arg13 main_arg14 main_arg15 main_v13 main_v16
-- ==== Kernel.lean ====
abbrev S16x2048x1475 : Shape := ⟨3, ![16, 2048, 1475]⟩
abbrev S2x12288 : Shape := ⟨2, ![2, 12288]⟩
abbrev S1475x512 : Shape := ⟨2, ![1475, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S64x3 : Shape := ⟨2, ![64, 3]⟩
abbrev S3 : Shape := ⟨1, ![3]⟩
abbrev S6144x6144 : Shape := ⟨2, ![6144, 6144]⟩
abbrev S6144 : Shape := ⟨1, ![6144]⟩
abbrev S1x12288 : Shape := ⟨2, ![1, 12288]⟩
abbrev S12288 : Shape := ⟨1, ![12288]⟩
abbrev S_ : Shape := ⟨0, ![]⟩
abbrev S2048 : Shape := ⟨1, ![2048]⟩
abbrev S12288x1 : Shape := ⟨2, ![12288, 1]⟩
abbrev S2048x2048 : Shape := ⟨2, ![2048, 2048]⟩
abbrev S12288x2 : Shape := ⟨2, ![12288, 2]⟩
abbrev S2048x1 : Shape := ⟨2, ![2048, 1]⟩
abbrev S1x2048 : Shape := ⟨2, ![1, 2048]⟩
abbrev S16x2048x512 : Shape := ⟨3, ![16, 2048, 512]⟩
abbrev S1x2048x1475 : Shape := ⟨3, ![1, 2048, 1475]⟩
abbrev S1x2048x512 : Shape := ⟨3, ![1, 2048, 512]⟩
abbrev S2048x1475 : Shape := ⟨2, ![2048, 1475]⟩
abbrev S2048x512 : Shape := ⟨2, ![2048, 512]⟩
abbrev S1x512 : Shape := ⟨2, ![1, 512]⟩
abbrev S16x2048x256 : Shape := ⟨3, ![16, 2048, 256]⟩
abbrev S1x2048x256 : Shape := ⟨3, ![1, 2048, 256]⟩
abbrev S2048x256 : Shape := ⟨2, ![2048, 256]⟩
abbrev S1x256 : Shape := ⟨2, ![1, 256]⟩
abbrev S16x2048x64 : Shape := ⟨3, ![16, 2048, 64]⟩
abbrev S1x2048x64 : Shape := ⟨3, ![1, 2048, 64]⟩
abbrev S2048x64 : Shape := ⟨2, ![2048, 64]⟩
abbrev S1x64 : Shape := ⟨2, ![1, 64]⟩
abbrev S16x2048x3 : Shape := ⟨3, ![16, 2048, 3]⟩
abbrev S1x2048x3 : Shape := ⟨3, ![1, 2048, 3]⟩
abbrev S2048x3 : Shape := ⟨2, ![2048, 3]⟩
abbrev S1x3 : Shape := ⟨2, ![1, 3]⟩
abbrev S16x6144 : Shape := ⟨2, ![16, 6144]⟩
abbrev S1x6144 : Shape := ⟨2, ![1, 6144]⟩
abbrev S16x2048 : Shape := ⟨2, ![16, 2048]⟩

abbrev nBuf : Space → Nat
  | .hbm => 97
  | .vmem => 81
  | .smem => 0
  | _ => 0

abbrev bufTy : (tb : Table) → Fin (tcTables nBuf tb) → BufTy
  | .hbm, ⟨0, _⟩ => ⟨S16x2048x1475, .f32⟩
  | .hbm, ⟨1, _⟩ => ⟨S2x12288, .i32⟩
  | .hbm, ⟨2, _⟩ => ⟨S1475x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x64, .f32⟩
  | .hbm, ⟨11, _⟩ => ⟨S64, .f32⟩
  | .hbm, ⟨12, _⟩ => ⟨S64x3, .f32⟩
  | .hbm, ⟨13, _⟩ => ⟨S3, .f32⟩
  | .hbm, ⟨14, _⟩ => ⟨S6144x6144, .f32⟩
  | .hbm, ⟨15, _⟩ => ⟨S6144, .f32⟩
  | .hbm, ⟨16, _⟩ => ⟨S1x12288, .i32⟩
  | .hbm, ⟨17, _⟩ => ⟨S12288, .i32⟩
  | .hbm, ⟨18, _⟩ => ⟨S1x12288, .i32⟩
  | .hbm, ⟨19, _⟩ => ⟨S12288, .i32⟩
  | .hbm, ⟨20, _⟩ => ⟨S_, .f32⟩
  | .hbm, ⟨21, _⟩ => ⟨S2048, .f32⟩
  | .hbm, ⟨22, _⟩ => ⟨S_, .i32⟩
  | .hbm, ⟨23, _⟩ => ⟨S12288, .i32⟩
  | .hbm, ⟨24, _⟩ => ⟨S12288, .i1⟩
  | .hbm, ⟨25, _⟩ => ⟨S_, .i32⟩
  | .hbm, ⟨26, _⟩ => ⟨S12288, .i32⟩
  | .hbm, ⟨27, _⟩ => ⟨S12288, .i32⟩
  | .hbm, ⟨28, _⟩ => ⟨S12288, .i32⟩
  | .hbm, ⟨29, _⟩ => ⟨S12288x1, .i32⟩
  | .hbm, ⟨30, _⟩ => ⟨S_, .f32⟩
  | .hbm, ⟨31, _⟩ => ⟨S12288, .f32⟩
  | .hbm, ⟨32, _⟩ => ⟨S2048, .f32⟩
  | .hbm, ⟨33, _⟩ => ⟨S_, .f32⟩
  | .hbm, ⟨34, _⟩ => ⟨S2048, .f32⟩
  | .hbm, ⟨35, _⟩ => ⟨S2048, .f32⟩
  | .hbm, ⟨36, _⟩ => ⟨S2048, .f32⟩
  | .hbm, ⟨37, _⟩ => ⟨S_, .f32⟩
  | .hbm, ⟨38, _⟩ => ⟨S2048, .f32⟩
  | .hbm, ⟨39, _⟩ => ⟨S2048, .f32⟩
  | .hbm, ⟨40, _⟩ => ⟨S_, .f32⟩
  | .hbm, ⟨41, _⟩ => ⟨S2048x2048, .f32⟩
  | .hbm, ⟨42, _⟩ => ⟨S_, .i32⟩
  | .hbm, ⟨43, _⟩ => ⟨S12288, .i32⟩
  | .hbm, ⟨44, _⟩ => ⟨S12288, .i1⟩
  | .hbm, ⟨45, _⟩ => ⟨S_, .i32⟩
  | .hbm, ⟨46, _⟩ => ⟨S12288, .i32⟩
  | .hbm, ⟨47, _⟩ => ⟨S12288, .i32⟩
  | .hbm, ⟨48, _⟩ => ⟨S12288, .i32⟩
  | .hbm, ⟨49, _⟩ => ⟨S_, .i32⟩
  | .hbm, ⟨50, _⟩ => ⟨S12288, .i32⟩
  | .hbm, ⟨51, _⟩ => ⟨S12288, .i1⟩
  | .hbm, ⟨52, _⟩ => ⟨S_, .i32⟩
  | .hbm, ⟨53, _⟩ => ⟨S12288, .i32⟩
  | .hbm, ⟨54, _⟩ => ⟨S12288, .i32⟩
  | .hbm, ⟨55, _⟩ => ⟨S12288, .i32⟩
  | .hbm, ⟨56, _⟩ => ⟨S12288x1, .i32⟩
  | .hbm, ⟨57, _⟩ => ⟨S12288x1, .i32⟩
  | .hbm, ⟨58, _⟩ => ⟨S12288x2, .i32⟩
  | .hbm, ⟨59, _⟩ => ⟨S_, .f32⟩
  | .hbm, ⟨60, _⟩ => ⟨S12288, .f32⟩
  | .hbm, ⟨61, _⟩ => ⟨S2048x2048, .f32⟩
  | .hbm, ⟨62, _⟩ => ⟨S2048x1, .f32⟩
  | .hbm, ⟨63, _⟩ => ⟨S2048x2048, .f32⟩
  | .hbm, ⟨64, _⟩ => ⟨S2048x2048, .f32⟩
  | .hbm, ⟨65, _⟩ => ⟨S1x2048, .f32⟩
  | .hbm, ⟨66, _⟩ => ⟨S2048x2048, .f32⟩
  | .hbm, ⟨67, _⟩ => ⟨S2048x2048, .f32⟩
  | .hbm, ⟨68, _⟩ => ⟨S2048x2048, .bf16⟩
  | .hbm, ⟨69, _⟩ => ⟨S16x2048x512, .bf16⟩
  | .hbm, ⟨70, _⟩ => ⟨S1x512, .f32⟩
  | .hbm, ⟨71, _⟩ => ⟨S2048x1, .f32⟩
  | .hbm, ⟨72, _⟩ => ⟨S16x2048x512, .bf16⟩
  | .hbm, ⟨73, _⟩ => ⟨S16x2048x512, .bf16⟩
  | .hbm, ⟨74, _⟩ => ⟨S1x512, .f32⟩
  | .hbm, ⟨75, _⟩ => ⟨S2048x1, .f32⟩
  | .hbm, ⟨76, _⟩ => ⟨S16x2048x512, .bf16⟩
  | .hbm, ⟨77, _⟩ => ⟨S16x2048x256, .bf16⟩
  | .hbm, ⟨78, _⟩ => ⟨S1x256, .f32⟩
  | .hbm, ⟨79, _⟩ => ⟨S2048x1, .f32⟩
  | .hbm, ⟨80, _⟩ => ⟨S16x2048x256, .bf16⟩
  | .hbm, ⟨81, _⟩ => ⟨S16x2048x256, .bf16⟩
  | .hbm, ⟨82, _⟩ => ⟨S1x256, .f32⟩
  | .hbm, ⟨83, _⟩ => ⟨S2048x1, .f32⟩
  | .hbm, ⟨84, _⟩ => ⟨S16x2048x256, .bf16⟩
  | .hbm, ⟨85, _⟩ => ⟨S16x2048x64, .bf16⟩
  | .hbm, ⟨86, _⟩ => ⟨S1x64, .f32⟩
  | .hbm, ⟨87, _⟩ => ⟨S2048x1, .f32⟩
  | .hbm, ⟨88, _⟩ => ⟨S16x2048x64, .bf16⟩
  | .hbm, ⟨89, _⟩ => ⟨S16x2048x3, .bf16⟩
  | .hbm, ⟨90, _⟩ => ⟨S1x3, .f32⟩
  | .hbm, ⟨91, _⟩ => ⟨S2048x1, .f32⟩
  | .hbm, ⟨92, _⟩ => ⟨S16x2048x3, .f32⟩
  | .hbm, ⟨93, _⟩ => ⟨S16x6144, .f32⟩
  | .hbm, ⟨94, _⟩ => ⟨S1x6144, .f32⟩
  | .hbm, ⟨95, _⟩ => ⟨S16x6144, .f32⟩
  | .hbm, ⟨96, _⟩ => ⟨S16x2048x3, .f32⟩
  | .local _ .vmem, ⟨0, _⟩ => ⟨S1x2048x1475, .f32⟩
  | .local _ .vmem, ⟨1, _⟩ => ⟨S1x2048x1475, .f32⟩
  | .local _ .vmem, ⟨2, _⟩ => ⟨S1475x512, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S2048x2048, .bf16⟩
  | .local _ .vmem, ⟨8, _⟩ => ⟨S1x512, .f32⟩
  | .local _ .vmem, ⟨9, _⟩ => ⟨S2048x1, .f32⟩
  | .local _ .vmem, ⟨10, _⟩ => ⟨S1x2048x512, .bf16⟩
  | .local _ .vmem, ⟨11, _⟩ => ⟨S1x2048x512, .bf16⟩
  | .local _ .vmem, ⟨12, _⟩ => ⟨S1x2048x512, .bf16⟩
  | .local _ .vmem, ⟨13, _⟩ => ⟨S1x2048x512, .bf16⟩
  | .local _ .vmem, ⟨14, _⟩ => ⟨S512x512, .f32⟩
  | .local _ .vmem, ⟨15, _⟩ => ⟨S1x2048x512, .bf16⟩
  | .local _ .vmem, ⟨16, _⟩ => ⟨S1x2048x512, .bf16⟩
  | .local _ .vmem, ⟨17, _⟩ => ⟨S1x2048x512, .bf16⟩
  | .local _ .vmem, ⟨18, _⟩ => ⟨S1x2048x512, .bf16⟩
  | .local _ .vmem, ⟨19, _⟩ => ⟨S2048x2048, .bf16⟩
  | .local _ .vmem, ⟨20, _⟩ => ⟨S1x512, .f32⟩
  | .local _ .vmem, ⟨21, _⟩ => ⟨S2048x1, .f32⟩
  | .local _ .vmem, ⟨22, _⟩ => ⟨S1x2048x512, .bf16⟩
  | .local _ .vmem, ⟨23, _⟩ => ⟨S1x2048x512, .bf16⟩
  | .local _ .vmem, ⟨24, _⟩ => ⟨S1x2048x512, .bf16⟩
  | .local _ .vmem, ⟨25, _⟩ => ⟨S1x2048x512, .bf16⟩
  | .local _ .vmem, ⟨26, _⟩ => ⟨S512x256, .f32⟩
  | .local _ .vmem, ⟨27, _⟩ => ⟨S1x2048x256, .bf16⟩
  | .local _ .vmem, ⟨28, _⟩ => ⟨S1x2048x256, .bf16⟩
  | .local _ .vmem, ⟨29, _⟩ => ⟨S1x2048x256, .bf16⟩
  | .local _ .vmem, ⟨30, _⟩ => ⟨S1x2048x256, .bf16⟩
  | .local _ .vmem, ⟨31, _⟩ => ⟨S2048x2048, .bf16⟩
  | .local _ .vmem, ⟨32, _⟩ => ⟨S1x256, .f32⟩
  | .local _ .vmem, ⟨33, _⟩ => ⟨S2048x1, .f32⟩
  | .local _ .vmem, ⟨34, _⟩ => ⟨S1x2048x256, .bf16⟩
  | .local _ .vmem, ⟨35, _⟩ => ⟨S1x2048x256, .bf16⟩
  | .local _ .vmem, ⟨36, _⟩ => ⟨S1x2048x256, .bf16⟩
  | .local _ .vmem, ⟨37, _⟩ => ⟨S1x2048x256, .bf16⟩
  | .local _ .vmem, ⟨38, _⟩ => ⟨S256x256, .f32⟩
  | .local _ .vmem, ⟨39, _⟩ => ⟨S1x2048x256, .bf16⟩
  | .local _ .vmem, ⟨40, _⟩ => ⟨S1x2048x256, .bf16⟩
  | .local _ .vmem, ⟨41, _⟩ => ⟨S1x2048x256, .bf16⟩
  | .local _ .vmem, ⟨42, _⟩ => ⟨S1x2048x256, .bf16⟩
  | .local _ .vmem, ⟨43, _⟩ => ⟨S2048x2048, .bf16⟩
  | .local _ .vmem, ⟨44, _⟩ => ⟨S1x256, .f32⟩
  | .local _ .vmem, ⟨45, _⟩ => ⟨S2048x1, .f32⟩
  | .local _ .vmem, ⟨46, _⟩ => ⟨S1x2048x256, .bf16⟩
  | .local _ .vmem, ⟨47, _⟩ => ⟨S1x2048x256, .bf16⟩
  | .local _ .vmem, ⟨48, _⟩ => ⟨S1x2048x256, .bf16⟩
  | .local _ .vmem, ⟨49, _⟩ => ⟨S1x2048x256, .bf16⟩
  | .local _ .vmem, ⟨50, _⟩ => ⟨S256x64, .f32⟩
  | .local _ .vmem, ⟨51, _⟩ => ⟨S1x2048x64, .bf16⟩
  | .local _ .vmem, ⟨52, _⟩ => ⟨S1x2048x64, .bf16⟩
  | .local _ .vmem, ⟨53, _⟩ => ⟨S1x2048x64, .bf16⟩
  | .local _ .vmem, ⟨54, _⟩ => ⟨S1x2048x64, .bf16⟩
  | .local _ .vmem, ⟨55, _⟩ => ⟨S2048x2048, .bf16⟩
  | .local _ .vmem, ⟨56, _⟩ => ⟨S1x64, .f32⟩
  | .local _ .vmem, ⟨57, _⟩ => ⟨S2048x1, .f32⟩
  | .local _ .vmem, ⟨58, _⟩ => ⟨S1x2048x64, .bf16⟩
  | .local _ .vmem, ⟨59, _⟩ => ⟨S1x2048x64, .bf16⟩
  | .local _ .vmem, ⟨60, _⟩ => ⟨S1x2048x64, .bf16⟩
  | .local _ .vmem, ⟨61, _⟩ => ⟨S1x2048x64, .bf16⟩
  | .local _ .vmem, ⟨62, _⟩ => ⟨S64x3, .f32⟩
  | .local _ .vmem, ⟨63, _⟩ => ⟨S1x2048x3, .bf16⟩
  | .local _ .vmem, ⟨64, _⟩ => ⟨S1x2048x3, .bf16⟩
  | .local _ .vmem, ⟨65, _⟩ => ⟨S1x2048x3, .bf16⟩
  | .local _ .vmem, ⟨66, _⟩ => ⟨S1x2048x3, .bf16⟩
  | .local _ .vmem, ⟨67, _⟩ => ⟨S2048x2048, .bf16⟩
  | .local _ .vmem, ⟨68, _⟩ => ⟨S1x3, .f32⟩
  | .local _ .vmem, ⟨69, _⟩ => ⟨S2048x1, .f32⟩
  | .local _ .vmem, ⟨70, _⟩ => ⟨S1x2048x3, .f32⟩
  | .local _ .vmem, ⟨71, _⟩ => ⟨S1x2048x3, .f32⟩
  | .local _ .vmem, ⟨72, _⟩ => ⟨S16x2048, .f32⟩
  | .local _ .vmem, ⟨73, _⟩ => ⟨S16x2048, .f32⟩
  | .local _ .vmem, ⟨74, _⟩ => ⟨S2048x2048, .f32⟩
  | .local _ .vmem, ⟨75, _⟩ => ⟨S2048x2048, .f32⟩
  | .local _ .vmem, ⟨76, _⟩ => ⟨S1x2048, .f32⟩
  | .local _ .vmem, ⟨77, _⟩ => ⟨S1x2048, .f32⟩
  | .local _ .vmem, ⟨78, _⟩ => ⟨S16x2048, .f32⟩
  | .local _ .vmem, ⟨79, _⟩ => ⟨S16x2048, .f32⟩
  | .local _ .vmem, ⟨80, _⟩ => ⟨S16x2048, .f32⟩
  | _, _ => ⟨S16x2048x1475, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_c : Ref sig .tc := ⟨.hbm, 22, rfl⟩
abbrev main_v5 : Ref sig .tc := ⟨.hbm, 23, rfl⟩
abbrev main_v6 : Ref sig .tc := ⟨.hbm, 24, rfl⟩
abbrev main_c_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_3 : Ref sig .tc := ⟨.hbm, 37, rfl⟩
abbrev main_v16 : Ref sig .tc := ⟨.hbm, 38, rfl⟩
abbrev main_v17 : Ref sig .tc := ⟨.hbm, 39, rfl⟩
abbrev main_cst_4 : Ref sig .tc := ⟨.hbm, 40, rfl⟩
abbrev main_v18 : Ref sig .tc := ⟨.hbm, 41, rfl⟩
abbrev main_c_5 : Ref sig .tc := ⟨.hbm, 42, rfl⟩
abbrev main_v19 : Ref sig .tc := ⟨.hbm, 43, rfl⟩
abbrev main_v20 : Ref sig .tc := ⟨.hbm, 44, rfl⟩
abbrev main_c_6 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_7 : Ref sig .tc := ⟨.hbm, 49, rfl⟩
abbrev main_v24 : Ref sig .tc := ⟨.hbm, 50, rfl⟩
abbrev main_v25 : Ref sig .tc := ⟨.hbm, 51, rfl⟩
abbrev main_c_8 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_9 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg4_0 : Ref sig .tc := ⟨.vmem, 34, rfl⟩
abbrev cc5_stg4_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg2_1 : Ref sig .tc := ⟨.vmem, 40, rfl⟩
abbrev cc7_stg0_0 : Ref sig .tc := ⟨.vmem, 41, rfl⟩
abbrev cc7_stg0_1 : Ref sig .tc := ⟨.vmem, 42, rfl⟩
abbrev cc7_stg1_0 : Ref sig .tc := ⟨.vmem, 43, rfl⟩
abbrev cc7_stg2_0 : Ref sig .tc := ⟨.vmem, 44, rfl⟩
abbrev cc7_stg3_0 : Ref sig .tc := ⟨.vmem, 45, rfl⟩
abbrev cc7_stg4_0 : Ref sig .tc := ⟨.vmem, 46, rfl⟩
abbrev cc7_stg4_1 : Ref sig .tc := ⟨.vmem, 47, rfl⟩
abbrev cc8_stg0_0 : Ref sig .tc := ⟨.vmem, 48, rfl⟩
abbrev cc8_stg0_1 : Ref sig .tc := ⟨.vmem, 49, rfl⟩
abbrev cc8_stg1_0 : Ref sig .tc := ⟨.vmem, 50, rfl⟩
abbrev cc8_stg2_0 : Ref sig .tc := ⟨.vmem, 51, rfl⟩
abbrev cc8_stg2_1 : Ref sig .tc := ⟨.vmem, 52, rfl⟩
abbrev cc9_stg0_0 : Ref sig .tc := ⟨.vmem, 53, rfl⟩
abbrev cc9_stg0_1 : Ref sig .tc := ⟨.vmem, 54, rfl⟩
abbrev cc9_stg1_0 : Ref sig .tc := ⟨.vmem, 55, rfl⟩
abbrev cc9_stg2_0 : Ref sig .tc := ⟨.vmem, 56, rfl⟩
abbrev cc9_stg3_0 : Ref sig .tc := ⟨.vmem, 57, rfl⟩
abbrev cc9_stg4_0 : Ref sig .tc := ⟨.vmem, 58, rfl⟩
abbrev cc9_stg4_1 : Ref sig .tc := ⟨.vmem, 59, rfl⟩
abbrev cc10_stg0_0 : Ref sig .tc := ⟨.vmem, 60, rfl⟩
abbrev cc10_stg0_1 : Ref sig .tc := ⟨.vmem, 61, rfl⟩
abbrev cc10_stg1_0 : Ref sig .tc := ⟨.vmem, 62, rfl⟩
abbrev cc10_stg2_0 : Ref sig .tc := ⟨.vmem, 63, rfl⟩
abbrev cc10_stg2_1 : Ref sig .tc := ⟨.vmem, 64, rfl⟩
abbrev cc11_stg0_0 : Ref sig .tc := ⟨.vmem, 65, rfl⟩
abbrev cc11_stg0_1 : Ref sig .tc := ⟨.vmem, 66, rfl⟩
abbrev cc11_stg1_0 : Ref sig .tc := ⟨.vmem, 67, rfl⟩
abbrev cc11_stg2_0 : Ref sig .tc := ⟨.vmem, 68, rfl⟩
abbrev cc11_stg3_0 : Ref sig .tc := ⟨.vmem, 69, rfl⟩
abbrev cc11_stg4_0 : Ref sig .tc := ⟨.vmem, 70, rfl⟩
abbrev cc11_stg4_1 : Ref sig .tc := ⟨.vmem, 71, rfl⟩
abbrev cc12_stg0_0 : Ref sig .tc := ⟨.vmem, 72, rfl⟩
abbrev cc12_stg0_1 : Ref sig .tc := ⟨.vmem, 73, rfl⟩
abbrev cc12_stg1_0 : Ref sig .tc := ⟨.vmem, 74, rfl⟩
abbrev cc12_stg1_1 : Ref sig .tc := ⟨.vmem, 75, rfl⟩
abbrev cc12_stg2_0 : Ref sig .tc := ⟨.vmem, 76, rfl⟩
abbrev cc12_stg2_1 : Ref sig .tc := ⟨.vmem, 77, rfl⟩
abbrev cc12_stg3_0 : Ref sig .tc := ⟨.vmem, 78, rfl⟩
abbrev cc12_stg3_1 : Ref sig .tc := ⟨.vmem, 79, rfl⟩
abbrev cc12_scratch0 : Ref sig .tc := ⟨.vmem, 80, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem4_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem4_0 : DmaSem sig := 34
abbrev cc5_sem4_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem2_1 : DmaSem sig := 40
abbrev cc7_sem0_0 : DmaSem sig := 41
abbrev cc7_sem0_1 : DmaSem sig := 42
abbrev cc7_sem1_0 : DmaSem sig := 43
abbrev cc7_sem2_0 : DmaSem sig := 44
abbrev cc7_sem3_0 : DmaSem sig := 45
abbrev cc7_sem4_0 : DmaSem sig := 46
abbrev cc7_sem4_1 : DmaSem sig := 47
abbrev cc8_sem0_0 : DmaSem sig := 48
abbrev cc8_sem0_1 : DmaSem sig := 49
abbrev cc8_sem1_0 : DmaSem sig := 50
abbrev cc8_sem2_0 : DmaSem sig := 51
abbrev cc8_sem2_1 : DmaSem sig := 52
abbrev cc9_sem0_0 : DmaSem sig := 53
abbrev cc9_sem0_1 : DmaSem sig := 54
abbrev cc9_sem1_0 : DmaSem sig := 55
abbrev cc9_sem2_0 : DmaSem sig := 56
abbrev cc9_sem3_0 : DmaSem sig := 57
abbrev cc9_sem4_0 : DmaSem sig := 58
abbrev cc9_sem4_1 : DmaSem sig := 59
abbrev cc10_sem0_0 : DmaSem sig := 60
abbrev cc10_sem0_1 : DmaSem sig := 61
abbrev cc10_sem1_0 : DmaSem sig := 62
abbrev cc10_sem2_0 : DmaSem sig := 63
abbrev cc10_sem2_1 : DmaSem sig := 64
abbrev cc11_sem0_0 : DmaSem sig := 65
abbrev cc11_sem0_1 : DmaSem sig := 66
abbrev cc11_sem1_0 : DmaSem sig := 67
abbrev cc11_sem2_0 : DmaSem sig := 68
abbrev cc11_sem3_0 : DmaSem sig := 69
abbrev cc11_sem4_0 : DmaSem sig := 70
abbrev cc11_sem4_1 : DmaSem sig := 71
abbrev cc12_sem0_0 : DmaSem sig := 72
abbrev cc12_sem0_1 : DmaSem sig := 73
abbrev cc12_sem1_0 : DmaSem sig := 74
abbrev cc12_sem1_1 : DmaSem sig := 75
abbrev cc12_sem2_0 : DmaSem sig := 76
abbrev cc12_sem2_1 : DmaSem sig := 77
abbrev cc12_sem3_0 : DmaSem sig := 78
abbrev cc12_sem3_1 : DmaSem sig := 79

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1475 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1475x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x2048x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x2048x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x2048x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![16], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x2048x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S2048x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S2048x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1x2048x512 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![16], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S1x2048x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1x2048x256 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![16], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x2048x256 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S2048x2048 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S2048x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S1x2048x256 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![16], ![false]⟩

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S1x2048x256 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S1x2048x256 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![16], ![false]⟩

def cc7_transform_0 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S1x2048x256 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S2048x2048 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S2048x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S1x2048x256 .bf16 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![16], ![false]⟩

def cc8_transform_0 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage8_0 : Fin 2 → Memref sig .tc .vmem S1x2048x256 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S256x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S1x2048x64 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![16], ![false]⟩

def cc9_transform_0 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage9_0 : Fin 2 → Memref sig .tc .vmem S1x2048x64 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S2048x2048 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S2048x1 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S1x2048x64 .bf16 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![16], ![false]⟩

def cc10_transform_0 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage10_0 : Fin 2 → Memref sig .tc .vmem S1x2048x64 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S64x3 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S1x2048x3 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![16], ![false]⟩

def cc11_transform_0 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage11_0 : Fin 2 → Memref sig .tc .vmem S1x2048x3 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S2048x2048 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x3 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S2048x1 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 2 → Memref sig .tc .vmem S1x2048x3 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev grid12 : Pipeline.Grid := ⟨2, ![3, 3], ![false, false]⟩

def k12_cond2 (i : grid12.Coords) : BitVec 1 :=
  let arg1 : BitVec 32 := BitVec.ofNat 32 (i 1).val
  let c2_i32 : BitVec 32 := 2#32
  let v14 : BitVec 1 := Scalar.cmpi .eq arg1 c2_i32
  let v15 : BitVec 32 := Scalar.extui v14
  let c0_i32_8 : BitVec 32 := 0#32
  let v16 : BitVec 1 := Scalar.cmpi .ne v15 c0_i32_8
  v16

def cc12_transform_0 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc12_transform_1 (i : grid12.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc12_transform_2 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc12_transform_3 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage12_0 : Fin 2 → Memref sig .tc .vmem S16x2048 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![false, true]

abbrev stage12_1 : Fin 2 → Memref sig .tc .vmem S2048x2048 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true, true]

abbrev stage12_2 : Fin 2 → Memref sig .tc .vmem S1x2048 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true, false]

abbrev stage12_3 : Fin 2 → Memref sig .tc .vmem S16x2048 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true, false]

class Facts₀ : Prop where
  slices_S2x12288_S1x12288_0_0 : S2x12288.Slices ![0, 0] S1x12288
  shapeCasts_S1x12288_S12288 : S1x12288.ShapeCasts S12288
  slices_S2x12288_S1x12288_1_0 : S2x12288.Slices ![1, 0] S1x12288
  bcast_S_S2048 : S_.BroadcastsInDim S2048 (![] : Fin 0 → Fin S2048.rank)
  bcast_S_S12288 : S_.BroadcastsInDim S12288 (![] : Fin 0 → Fin S12288.rank)
  bcast_S12288_S12288x1_0 : S12288.BroadcastsInDim S12288x1 (![0] : Fin 1 → Fin S12288x1.rank)
  bcast_S_S2048x2048 : S_.BroadcastsInDim S2048x2048 (![] : Fin 0 → Fin S2048x2048.rank)
  concatenates_S12288x1_S12288x1_S12288x2_d1 : Shape.Concatenates [S12288x1, S12288x1] S12288x2 1
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  bitsLt_bf16_f32 : FTy.bits .bf16 < FTy.bits .f32
  inb_S1x2048x1475_S1x2048x1475_0_0_0 : ∀ a, (![0, 0, 0] : Fin 3 → Nat) a + S1x2048x1475.size a ≤ S1x2048x1475.size a
  h_S1x2048x1475 : 0 < S1x2048x1475.numel
  shapeCasts_S1x2048x1475_S2048x1475 : S1x2048x1475.ShapeCasts S2048x1475
  inb_S1475x512_S1475x512_0_0 : ∀ a, (![0, 0] : Fin 2 → Nat) a + S1475x512.size a ≤ S1475x512.size a
  h_S1475x512 : 0 < S1475x512.numel
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  shapeCasts_S2048x512_S1x2048x512 : S2048x512.ShapeCasts S1x2048x512
  packedbf16_S1x2048x512_S1x2048x512_0_0_0 : (Rect.unit (s := S1x2048x512) ![0, 0, 0] S1x2048x512.size inb_S1x2048x512_S1x2048x512_0_0_0).PackedRows (EltTy.packing .bf16)
  shapeCasts_S512_S1x512 : S512.ShapeCasts S1x512
  shapeCasts_S2048_S2048x1 : S2048.ShapeCasts S2048x1
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x512 : S2048x1.Broadcasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S512x512_S512x512_0_0 : ∀ a, (![0, 0] : Fin 2 → Nat) a + S512x512.size a ≤ S512x512.size a
  h_S512x512 : 0 < S512x512.numel
  inb_S512x256_S512x256_0_0 : ∀ a, (![0, 0] : Fin 2 → Nat) a + S512x256.size a ≤ S512x256.size a
  h_S512x256 : 0 < S512x256.numel
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  shapeCasts_S2048x256_S1x2048x256 : S2048x256.ShapeCasts S1x2048x256
  packedbf16_S1x2048x256_S1x2048x256_0_0_0 : (Rect.unit (s := S1x2048x256) ![0, 0, 0] S1x2048x256.size inb_S1x2048x256_S1x2048x256_0_0_0).PackedRows (EltTy.packing .bf16)
  shapeCasts_S256_S1x256 : S256.ShapeCasts S1x256
  broadcasts_S2048x1_S2048x256 : S2048x1.Broadcasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x256_S256x256_0_0 : ∀ a, (![0, 0] : Fin 2 → Nat) a + S256x256.size a ≤ S256x256.size a
  h_S256x256 : 0 < S256x256.numel
  inb_S256x64_S256x64_0_0 : ∀ a, (![0, 0] : Fin 2 → Nat) a + S256x64.size a ≤ S256x64.size a
  h_S256x64 : 0 < S256x64.numel
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  shapeCasts_S2048x64_S1x2048x64 : S2048x64.ShapeCasts S1x2048x64
  packedbf16_S1x2048x64_S1x2048x64_0_0_0 : (Rect.unit (s := S1x2048x64) ![0, 0, 0] S1x2048x64.size inb_S1x2048x64_S1x2048x64_0_0_0).PackedRows (EltTy.packing .bf16)
  shapeCasts_S64_S1x64 : S64.ShapeCasts S1x64
  broadcasts_S2048x1_S2048x64 : S2048x1.Broadcasts S2048x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S64x3_S64x3_0_0 : ∀ a, (![0, 0] : Fin 2 → Nat) a + S64x3.size a ≤ S64x3.size a
  h_S64x3 : 0 < S64x3.numel
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  shapeCasts_S2048x3_S1x2048x3 : S2048x3.ShapeCasts S1x2048x3
  packedbf16_S1x2048x3_S1x2048x3_0_0_0 : (Rect.unit (s := S1x2048x3) ![0, 0, 0] S1x2048x3.size inb_S1x2048x3_S1x2048x3_0_0_0).PackedRows (EltTy.packing .bf16)
  shapeCasts_S3_S1x3 : S3.ShapeCasts S1x3
  broadcasts_S2048x1_S2048x3 : S2048x1.Broadcasts S2048x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S2048x3 : S1x3.Broadcasts S2048x3
  shapeCasts_S16x2048x3_S16x6144 : S16x2048x3.ShapeCasts S16x6144
  shapeCasts_S6144_S1x6144 : S6144.ShapeCasts S1x6144
  inb_S16x2048_S16x2048_0_0 : ∀ a, (![0, 0] : Fin 2 → Nat) a + S16x2048.size a ≤ S16x2048.size a
  h_S16x2048 : 0 < S16x2048.numel
  shapeCasts_S16x2048_S16x2048 : S16x2048.ShapeCasts S16x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S16x2048 : S1x2048.Broadcasts S16x2048
  shapeCasts_S16x6144_S16x2048x3 : S16x6144.ShapeCasts S16x2048x3
  scatter_S2048_S12288x1_S12288_n_0_0_1_wf : ScatterDims.WF S2048 S12288x1 S12288 [] [0] [0] 1
  scatter_S2048x2048_S12288x2_S12288_n_01_01_1_wf : ScatterDims.WF S2048x2048 S12288x2 S12288 [] [0, 1] [0, 1] 1
  dot_S2048x1475_S1475x512_S2048x512_1_0_0_1_n_n_wf : DotDims.WF S2048x1475 S1475x512 S2048x512 [1] [0] [0] [1] [] []
  dot_S2048x2048_S2048x512_S2048x512_1_0_0_1_n_n_wf : DotDims.WF S2048x2048 S2048x512 S2048x512 [1] [0] [0] [1] [] []
  dot_S2048x512_S512x512_S2048x512_1_0_0_1_n_n_wf : DotDims.WF S2048x512 S512x512 S2048x512 [1] [0] [0] [1] [] []
  dot_S2048x512_S512x256_S2048x256_1_0_0_1_n_n_wf : DotDims.WF S2048x512 S512x256 S2048x256 [1] [0] [0] [1] [] []
  dot_S2048x2048_S2048x256_S2048x256_1_0_0_1_n_n_wf : DotDims.WF S2048x2048 S2048x256 S2048x256 [1] [0] [0] [1] [] []
  dot_S2048x256_S256x256_S2048x256_1_0_0_1_n_n_wf : DotDims.WF S2048x256 S256x256 S2048x256 [1] [0] [0] [1] [] []
  dot_S2048x256_S256x64_S2048x64_1_0_0_1_n_n_wf : DotDims.WF S2048x256 S256x64 S2048x64 [1] [0] [0] [1] [] []
  dot_S2048x2048_S2048x64_S2048x64_1_0_0_1_n_n_wf : DotDims.WF S2048x2048 S2048x64 S2048x64 [1] [0] [0] [1] [] []
  dot_S2048x64_S64x3_S2048x3_1_0_0_1_n_n_wf : DotDims.WF S2048x64 S64x3 S2048x3 [1] [0] [0] [1] [] []
  dot_S2048x2048_S2048x3_S2048x3_1_0_0_1_n_n_wf : DotDims.WF S2048x2048 S2048x3 S2048x3 [1] [0] [0] [1] [] []
  dot_S16x2048_S2048x2048_S16x2048_1_0_0_1_n_n_wf : DotDims.WF S16x2048 S2048x2048 S16x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1475.size a ≤ S16x2048x1475.size a
  hwx0_0 : ∀ i : grid0.Coords, EltTy.bits .f32 = 32 ∨ (Rect.block (s := S16x2048x1475) S1x2048x1475.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1475x512.size a ≤ S1475x512.size a
  hwx0_1 : ∀ i : grid0.Coords, EltTy.bits .f32 = 32 ∨ (Rect.block (s := S1475x512) S1475x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x512.size a ≤ S16x2048x512.size a
  hwx0_2 : ∀ i : grid0.Coords, EltTy.bits .bf16 = 32 ∨ (Rect.block (s := S16x2048x512) S1x2048x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x512.size a ≤ S16x2048x512.size a
  hwx1_0 : ∀ i : grid1.Coords, EltTy.bits .bf16 = 32 ∨ (Rect.block (s := S16x2048x512) S1x2048x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2048x1.size a ≤ S2048x1.size a
  hwx1_3 : ∀ i : grid1.Coords, EltTy.bits .f32 = 32 ∨ (Rect.block (s := S2048x1) S2048x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048x512.size a ≤ S16x2048x512.size a
  hwx1_4 : ∀ i : grid1.Coords, EltTy.bits .bf16 = 32 ∨ (Rect.block (s := S16x2048x512) S1x2048x512.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x2048x512.size a ≤ S16x2048x512.size a
  hwx2_0 : ∀ i : grid2.Coords, EltTy.bits .bf16 = 32 ∨ (Rect.block (s := S16x2048x512) S1x2048x512.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x2048x512.size a ≤ S16x2048x512.size a
  hwx2_2 : ∀ i : grid2.Coords, EltTy.bits .bf16 = 32 ∨ (Rect.block (s := S16x2048x512) S1x2048x512.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x2048x512.size a ≤ S16x2048x512.size a
  hwx3_0 : ∀ i : grid3.Coords, EltTy.bits .bf16 = 32 ∨ (Rect.block (s := S16x2048x512) S1x2048x512.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S2048x2048.size a ≤ S2048x2048.size a
  hwx3_1 : ∀ i : grid3.Coords, EltTy.bits .bf16 = 32 ∨ (Rect.block (s := S2048x2048) S2048x2048.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S2048x1.size a ≤ S2048x1.size a
  hwx3_3 : ∀ i : grid3.Coords, EltTy.bits .f32 = 32 ∨ (Rect.block (s := S2048x1) S2048x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x2048x512.size a ≤ S16x2048x512.size a
  hwx3_4 : ∀ i : grid3.Coords, EltTy.bits .bf16 = 32 ∨ (Rect.block (s := S16x2048x512) S1x2048x512.size (cc3_transform_4 i) (hinb3_4 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x2048x512.size a ≤ S16x2048x512.size a
  hwx4_0 : ∀ i : grid4.Coords, EltTy.bits .bf16 = 32 ∨ (Rect.block (s := S16x2048x512) S1x2048x512.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x256.size a ≤ S512x256.size a
  hwx4_1 : ∀ i : grid4.Coords, EltTy.bits .f32 = 32 ∨ (Rect.block (s := S512x256) S512x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x2048x256.size a ≤ S16x2048x256.size a
  hwx4_2 : ∀ i : grid4.Coords, EltTy.bits .bf16 = 32 ∨ (Rect.block (s := S16x2048x256) S1x2048x256.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x2048x256.size a ≤ S16x2048x256.size a
  hwx5_0 : ∀ i : grid5.Coords, EltTy.bits .bf16 = 32 ∨ (Rect.block (s := S16x2048x256) S1x2048x256.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S2048x2048.size a ≤ S2048x2048.size a
  hwx5_1 : ∀ i : grid5.Coords, EltTy.bits .bf16 = 32 ∨ (Rect.block (s := S2048x2048) S2048x2048.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S2048x1.size a ≤ S2048x1.size a
  hwx5_3 : ∀ i : grid5.Coords, EltTy.bits .f32 = 32 ∨ (Rect.block (s := S2048x1) S2048x1.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S1x2048x256.size a ≤ S16x2048x256.size a
  hwx5_4 : ∀ i : grid5.Coords, EltTy.bits .bf16 = 32 ∨ (Rect.block (s := S16x2048x256) S1x2048x256.size (cc5_transform_4 i) (hinb5_4 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1x2048x256.size a ≤ S16x2048x256.size a
  hwx6_0 : ∀ i : grid6.Coords, EltTy.bits .bf16 = 32 ∨ (Rect.block (s := S16x2048x256) S1x2048x256.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x256.size a ≤ S256x256.size a
  hwx6_1 : ∀ i : grid6.Coords, EltTy.bits .f32 = 32 ∨ (Rect.block (s := S256x256) S256x256.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1x2048x256.size a ≤ S16x2048x256.size a
  hwx6_2 : ∀ i : grid6.Coords, EltTy.bits .bf16 = 32 ∨ (Rect.block (s := S16x2048x256) S1x2048x256.size (cc6_transform_2 i) (hinb6_2 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1x2048x256.size a ≤ S16x2048x256.size a
  hwx7_0 : ∀ i : grid7.Coords, EltTy.bits .bf16 = 32 ∨ (Rect.block (s := S16x2048x256) S1x2048x256.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S2048x2048.size a ≤ S2048x2048.size a
  hwx7_1 : ∀ i : grid7.Coords, EltTy.bits .bf16 = 32 ∨ (Rect.block (s := S2048x2048) S2048x2048.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x256.size a ≤ S1x256.size a
  hwx7_2 : ∀ i : grid7.Coords, EltTy.bits .f32 = 32 ∨ (Rect.block (s := S1x256) S1x256.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S2048x1.size a ≤ S2048x1.size a
  hwx7_3 : ∀ i : grid7.Coords, EltTy.bits .f32 = 32 ∨ (Rect.block (s := S2048x1) S2048x1.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S1x2048x256.size a ≤ S16x2048x256.size a
  hwx7_4 : ∀ i : grid7.Coords, EltTy.bits .bf16 = 32 ∨ (Rect.block (s := S16x2048x256) S1x2048x256.size (cc7_transform_4 i) (hinb7_4 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1x2048x256.size a ≤ S16x2048x256.size a
  hwx8_0 : ∀ i : grid8.Coords, EltTy.bits .bf16 = 32 ∨ (Rect.block (s := S16x2048x256) S1x2048x256.size (cc8_transform_0 i) (hinb8_0 i)).WholeWords (EltTy.packing .bf16)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S256x64.size a ≤ S256x64.size a
  hwx8_1 : ∀ i : grid8.Coords, EltTy.bits .f32 = 32 ∨ (Rect.block (s := S256x64) S256x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1x2048x64.size a ≤ S16x2048x64.size a
  hwx8_2 : ∀ i : grid8.Coords, EltTy.bits .bf16 = 32 ∨ (Rect.block (s := S16x2048x64) S1x2048x64.size (cc8_transform_2 i) (hinb8_2 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1x2048x64.size a ≤ S16x2048x64.size a
  hwx9_0 : ∀ i : grid9.Coords, EltTy.bits .bf16 = 32 ∨ (Rect.block (s := S16x2048x64) S1x2048x64.size (cc9_transform_0 i) (hinb9_0 i)).WholeWords (EltTy.packing .bf16)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S2048x2048.size a ≤ S2048x2048.size a
  hwx9_1 : ∀ i : grid9.Coords, EltTy.bits .bf16 = 32 ∨ (Rect.block (s := S2048x2048) S2048x2048.size (cc9_transform_1 i) (hinb9_1 i)).WholeWords (EltTy.packing .bf16)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S2048x1.size a ≤ S2048x1.size a
  hwx9_3 : ∀ i : grid9.Coords, EltTy.bits .f32 = 32 ∨ (Rect.block (s := S2048x1) S2048x1.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S1x2048x64.size a ≤ S16x2048x64.size a
  hwx9_4 : ∀ i : grid9.Coords, EltTy.bits .bf16 = 32 ∨ (Rect.block (s := S16x2048x64) S1x2048x64.size (cc9_transform_4 i) (hinb9_4 i)).WholeWords (EltTy.packing .bf16)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1x2048x64.size a ≤ S16x2048x64.size a
  hwx10_0 : ∀ i : grid10.Coords, EltTy.bits .bf16 = 32 ∨ (Rect.block (s := S16x2048x64) S1x2048x64.size (cc10_transform_0 i) (hinb10_0 i)).WholeWords (EltTy.packing .bf16)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S64x3.size a ≤ S64x3.size a
  hwx10_1 : ∀ i : grid10.Coords, EltTy.bits .f32 = 32 ∨ (Rect.block (s := S64x3) S64x3.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S1x2048x3.size a ≤ S16x2048x3.size a
  hwx10_2 : ∀ i : grid10.Coords, EltTy.bits .bf16 = 32 ∨ (Rect.block (s := S16x2048x3) S1x2048x3.size (cc10_transform_2 i) (hinb10_2 i)).WholeWords (EltTy.packing .bf16)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S1x2048x3.size a ≤ S16x2048x3.size a
  hwx11_0 : ∀ i : grid11.Coords, EltTy.bits .bf16 = 32 ∨ (Rect.block (s := S16x2048x3) S1x2048x3.size (cc11_transform_0 i) (hinb11_0 i)).WholeWords (EltTy.packing .bf16)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S2048x2048.size a ≤ S2048x2048.size a
  hwx11_1 : ∀ i : grid11.Coords, EltTy.bits .bf16 = 32 ∨ (Rect.block (s := S2048x2048) S2048x2048.size (cc11_transform_1 i) (hinb11_1 i)).WholeWords (EltTy.packing .bf16)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x3.size a ≤ S1x3.size a
  hwx11_2 : ∀ i : grid11.Coords, EltTy.bits .f32 = 32 ∨ (Rect.block (s := S1x3) S1x3.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S2048x1.size a ≤ S2048x1.size a
  hwx11_3 : ∀ i : grid11.Coords, EltTy.bits .f32 = 32 ∨ (Rect.block (s := S2048x1) S2048x1.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S1x2048x3.size a ≤ S16x2048x3.size a
  hwx11_4 : ∀ i : grid11.Coords, EltTy.bits .f32 = 32 ∨ (Rect.block (s := S16x2048x3) S1x2048x3.size (cc11_transform_4 i) (hinb11_4 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S16x2048.size a ≤ S16x6144.size a
  hwx12_0 : ∀ i : grid12.Coords, EltTy.bits .f32 = 32 ∨ (Rect.block (s := S16x6144) S16x2048.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S2048x2048.size a ≤ S6144x6144.size a
  hwx12_1 : ∀ i : grid12.Coords, EltTy.bits .f32 = 32 ∨ (Rect.block (s := S6144x6144) S2048x2048.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S1x2048.size a ≤ S1x6144.size a
  hwx12_2 : ∀ i : grid12.Coords, EltTy.bits .f32 = 32 ∨ (Rect.block (s := S1x6144) S1x2048.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S16x2048.size a ≤ S16x6144.size a
  hwx12_3 : ∀ i : grid12.Coords, EltTy.bits .f32 = 32 ∨ (Rect.block (s := S16x6144) S16x2048.size (cc12_transform_3 i) (hinb12_3 i)).WholeWords (EltTy.packing .f32)

variable [Facts₀]

def scatter_S2048_S12288x1_S12288_n_0_0_1 : ScatterDims S2048 S12288x1 S12288 where
  updateWindowDims := []
  insertedWindowDims := [0]
  scatterDimsToOperandDims := [0]
  indexVectorDim := 1
  wf := scatter_S2048_S12288x1_S12288_n_0_0_1_wf
def scatter_S2048x2048_S12288x2_S12288_n_01_01_1 : ScatterDims S2048x2048 S12288x2 S12288 where
  updateWindowDims := []
  insertedWindowDims := [0, 1]
  scatterDimsToOperandDims := [0, 1]
  indexVectorDim := 1
  wf := scatter_S2048x2048_S12288x2_S12288_n_01_01_1_wf
def dot_S2048x1475_S1475x512_S2048x512_1_0_0_1_n_n : DotDims S2048x1475 S1475x512 S2048x512 where
  lhsContracting := [1]
  rhsContracting := [0]
  lhsNonContracting := [0]
  rhsNonContracting := [1]
  lhsBatch := []
  rhsBatch := []
  wf := dot_S2048x1475_S1475x512_S2048x512_1_0_0_1_n_n_wf
def dot_S2048x2048_S2048x512_S2048x512_1_0_0_1_n_n : DotDims S2048x2048 S2048x512 S2048x512 where
  lhsContracting := [1]
  rhsContracting := [0]
  lhsNonContracting := [0]
  rhsNonContracting := [1]
  lhsBatch := []
  rhsBatch := []
  wf := dot_S2048x2048_S2048x512_S2048x512_1_0_0_1_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf
def dot_S2048x2048_S2048x256_S2048x256_1_0_0_1_n_n : DotDims S2048x2048 S2048x256 S2048x256 where
  lhsContracting := [1]
  rhsContracting := [0]
  lhsNonContracting := [0]
  rhsNonContracting := [1]
  lhsBatch := []
  rhsBatch := []
  wf := dot_S2048x2048_S2048x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf
def dot_S2048x64_S64x3_S2048x3_1_0_0_1_n_n : DotDims S2048x64 S64x3 S2048x3 where
  lhsContracting := [1]
  rhsContracting := [0]
  lhsNonContracting := [0]
  rhsNonContracting := [1]
  lhsBatch := []
  rhsBatch := []
  wf := dot_S2048x64_S64x3_S2048x3_1_0_0_1_n_n_wf
def dot_S2048x2048_S2048x3_S2048x3_1_0_0_1_n_n : DotDims S2048x2048 S2048x3 S2048x3 where
  lhsContracting := [1]
  rhsContracting := [0]
  lhsNonContracting := [0]
  rhsNonContracting := [1]
  lhsBatch := []
  rhsBatch := []
  wf := dot_S2048x2048_S2048x3_S2048x3_1_0_0_1_n_n_wf
def dot_S16x2048_S2048x2048_S16x2048_1_0_0_1_n_n : DotDims S16x2048 S2048x2048 S16x2048 where
  lhsContracting := [1]
  rhsContracting := [0]
  lhsNonContracting := [0]
  rhsNonContracting := [1]
  lhsBatch := []
  rhsBatch := []
  wf := dot_S16x2048_S2048x2048_S16x2048_1_0_0_1_n_n_wf

abbrev win0_0 : Pipeline.Window sig grid0 :=
  Pipeline.Window.ofSpec (Memref.whole main_arg0) S1x2048x1475.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1475x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v41) S1x2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S1x2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S2048x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S2048x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x2048x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S1x2048x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S1x2048x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v45) S1x2048x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S2048x2048.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v46) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v47) S2048x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v48) S1x2048x512.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v48) S1x2048x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S512x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v49) S1x2048x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v49) S1x2048x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v40) S2048x2048.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v50) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v51) S2048x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v52) S1x2048x256.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v52) S1x2048x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S256x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v53) S1x2048x256.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v53) S1x2048x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v40) S2048x2048.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v54) S1x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v55) S2048x1.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v56) S1x2048x256.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v56) S1x2048x256.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg10) S256x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v57) S1x2048x64.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v57) S1x2048x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v40) S2048x2048.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v58) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v59) S2048x1.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v60) S1x2048x64.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v60) S1x2048x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg12) S64x3.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v61) S1x2048x3.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v61) S1x2048x3.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v40) S2048x2048.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v62) S1x3.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v63) S2048x1.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v64) S1x2048x3.size cc11_transform_4 reads11_4 true false 2 stage11_4 sem11_4
    hrank11 hreads11_4 hinb11_4 nbuf11_4 (Memref.isWhole_whole _) hwx11_4 hstage11_4

abbrev win11 : Fin 5 → Pipeline.Window sig grid11 := fun | 0 => win11_0 | 1 => win11_1 | 2 => win11_2 | 3 => win11_3 | 4 => win11_4 | ⟨_ + 5, h⟩ => absurd h (Nat.not_lt.2 (Nat.le_add_left _ _))
abbrev spec11 : Fin 5 → Pipeline.WinSpec sig grid11.rank := fun w => (win11 w).toWinSpec

abbrev win12_0 : Pipeline.Window sig grid12 :=
  Pipeline.Window.ofSpec (Memref.whole main_v65) S16x2048.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg14) S2048x2048.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v66) S1x2048.size cc12_transform_2 reads12_2 false false 2 stage12_2 sem12_2
    hrank12 hreads12_2 hinb12_2 nbuf12_2 (Memref.isWhole_whole _) hwx12_2 hstage12_2

abbrev win12_3 : Pipeline.Window sig grid12 :=
  Pipeline.Window.ofSpec (Memref.whole main_v67) S16x2048.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev idle12 : Fin 4 → grid12.Coords → Bool := fun | 0 => fun _ => false | 1 => fun _ => false | 2 => fun _ => false | 3 => fun i => !(k12_cond2 i == 1#1) | ⟨_ + 4, h⟩ => absurd h (Nat.not_lt.2 (Nat.le_add_left _ _))

class Facts : Prop extends Facts₀ where

variable [Facts]
-- ==== ReferenceIdeal.lean ====
abbrev S16x2048x1475 : Shape := ⟨3, ![16, 2048, 1475]⟩
abbrev S2x12288 : Shape := ⟨2, ![2, 12288]⟩
abbrev S1475x512 : Shape := ⟨2, ![1475, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S256x256 : Shape := ⟨2, ![256, 256]⟩
abbrev S256x64 : Shape := ⟨2, ![256, 64]⟩
abbrev S64 : Shape := ⟨1, ![64]⟩
abbrev S64x3 : Shape := ⟨2, ![64, 3]⟩
abbrev S3 : Shape := ⟨1, ![3]⟩
abbrev S6144x6144 : Shape := ⟨2, ![6144, 6144]⟩
abbrev S6144 : Shape := ⟨1, ![6144]⟩
abbrev S1x12288 : Shape := ⟨2, ![1, 12288]⟩
abbrev S12288 : Shape := ⟨1, ![12288]⟩
abbrev S_ : Shape := ⟨0, ![]⟩
abbrev S2048 : Shape := ⟨1, ![2048]⟩
abbrev S12288x1 : Shape := ⟨2, ![12288, 1]⟩
abbrev S16x2048x512 : Shape := ⟨3, ![16, 2048, 512]⟩
abbrev S1 : Shape := ⟨1, ![1]⟩
abbrev S1x1 : Shape := ⟨2, ![1, 1]⟩
abbrev S16x12288x512 : Shape := ⟨3, ![16, 12288, 512]⟩
abbrev S1x12288x1 : Shape := ⟨3, ![1, 12288, 1]⟩
abbrev S1x2048x1 : Shape := ⟨3, ![1, 2048, 1]⟩
abbrev S1x1x512 : Shape := ⟨3, ![1, 1, 512]⟩
abbrev S16x2048x256 : Shape := ⟨3, ![16, 2048, 256]⟩
abbrev S16x12288x256 : Shape := ⟨3, ![16, 12288, 256]⟩
abbrev S1x1x256 : Shape := ⟨3, ![1, 1, 256]⟩
abbrev S16x2048x64 : Shape := ⟨3, ![16, 2048, 64]⟩
abbrev S16x12288x64 : Shape := ⟨3, ![16, 12288, 64]⟩
abbrev S1x1x64 : Shape := ⟨3, ![1, 1, 64]⟩
abbrev S16x2048x3 : Shape := ⟨3, ![16, 2048, 3]⟩
abbrev S16x12288x3 : Shape := ⟨3, ![16, 12288, 3]⟩
abbrev S1x1x3 : Shape := ⟨3, ![1, 1, 3]⟩
abbrev S16x6144 : Shape := ⟨2, ![16, 6144]⟩
abbrev S1x6144 : Shape := ⟨2, ![1, 6144]⟩

abbrev nBuf : Space → Nat
  | .hbm => 455
  | .vmem => 0
  | .smem => 0
  | _ => 0

abbrev hbmTy0_0 (i : Nat) : BufTy := match i % 128 with
  | 0 => ⟨S16x2048x1475, .f32⟩
  | 1 => ⟨S2x12288, .i32⟩
  | 2 => ⟨S1475x512, .f32⟩
  | 3 => ⟨S512, .f32⟩
  | 4 => ⟨S512x512, .f32⟩
  | 5 => ⟨S512, .f32⟩
  | 6 => ⟨S512x256, .f32⟩
  | 7 => ⟨S256, .f32⟩
  | 8 => ⟨S256x256, .f32⟩
  | 9 => ⟨S256, .f32⟩
  | 10 => ⟨S256x64, .f32⟩
  | 11 => ⟨S64, .f32⟩
  | 12 => ⟨S64x3, .f32⟩
  | 13 => ⟨S3, .f32⟩
  | 14 => ⟨S6144x6144, .f32⟩
  | 15 => ⟨S6144, .f32⟩
  | 16 => ⟨S1x12288, .i32⟩
  | 17 => ⟨S12288, .i32⟩
  | 18 => ⟨S1x12288, .i32⟩
  | 19 => ⟨S12288, .i32⟩
  | 20 => ⟨S_, .f32⟩
  | 21 => ⟨S2048, .f32⟩
  | 22 => ⟨S_, .i32⟩
  | 23 => ⟨S12288, .i32⟩
  | 24 => ⟨S12288, .i1⟩
  | 25 => ⟨S_, .i32⟩
  | 26 => ⟨S12288, .i32⟩
  | 27 => ⟨S12288, .i32⟩
  | 28 => ⟨S12288, .i32⟩
  | 29 => ⟨S12288x1, .i32⟩
  | 30 => ⟨S_, .f32⟩
  | 31 => ⟨S12288, .f32⟩
  | 32 => ⟨S2048, .f32⟩
  | 33 => ⟨S_, .f32⟩
  | 34 => ⟨S2048, .f32⟩
  | 35 => ⟨S2048, .f32⟩
  | 36 => ⟨S2048, .f32⟩
  | 37 => ⟨S_, .f32⟩
  | 38 => ⟨S2048, .f32⟩
  | 39 => ⟨S2048, .f32⟩
  | 40 => ⟨S16x2048x512, .f32⟩
  | 41 => ⟨S_, .i32⟩
  | 42 => ⟨S12288, .i32⟩
  | 43 => ⟨S12288, .i1⟩
  | 44 => ⟨S_, .i32⟩
  | 45 => ⟨S12288, .i32⟩
  | 46 => ⟨S12288, .i32⟩
  | 47 => ⟨S12288, .i32⟩
  | 48 => ⟨S12288x1, .i32⟩
  | 49 => ⟨S12288, .f32⟩
  | 50 => ⟨S_, .i32⟩
  | 51 => ⟨S12288, .i32⟩
  | 52 => ⟨S12288, .i1⟩
  | 53 => ⟨S_, .i32⟩
  | 54 => ⟨S12288, .i32⟩
  | 55 => ⟨S12288, .i32⟩
  | 56 => ⟨S12288, .i32⟩
  | 57 => ⟨S12288x1, .i32⟩
  | 58 => ⟨S12288, .f32⟩
  | 59 => ⟨S12288, .f32⟩
  | 60 => ⟨S_, .i32⟩
  | 61 => ⟨S12288, .i32⟩
  | 62 => ⟨S12288, .i1⟩
  | 63 => ⟨S_, .i32⟩
  | 64 => ⟨S12288, .i32⟩
  | 65 => ⟨S12288, .i32⟩
  | 66 => ⟨S12288, .i32⟩
  | 67 => ⟨S12288x1, .i32⟩
  | 68 => ⟨S1, .i32⟩
  | 69 => ⟨S_, .i32⟩
  | 70 => ⟨S12288x1, .i32⟩
  | 71 => ⟨S12288x1, .i1⟩
  | 72 => ⟨S1x1, .i32⟩
  | 73 => ⟨S12288x1, .i32⟩
  | 74 => ⟨S12288x1, .i1⟩
  | 75 => ⟨S12288x1, .i1⟩
  | 76 => ⟨S_, .i1⟩
  | 77 => ⟨S12288, .i1⟩
  | 78 => ⟨S16x12288x512, .f32⟩
  | 79 => ⟨S16x12288x512, .i1⟩
  | 80 => ⟨S_, .f32⟩
  | 81 => ⟨S16x12288x512, .f32⟩
  | 82 => ⟨S16x12288x512, .f32⟩
  | 83 => ⟨S1x12288x1, .f32⟩
  | 84 => ⟨S16x12288x512, .f32⟩
  | 85 => ⟨S16x12288x512, .f32⟩
  | 86 => ⟨S_, .f32⟩
  | 87 => ⟨S16x2048x512, .f32⟩
  | 88 => ⟨S_, .i32⟩
  | 89 => ⟨S12288, .i32⟩
  | 90 => ⟨S12288, .i1⟩
  | 91 => ⟨S_, .i32⟩
  | 92 => ⟨S12288, .i32⟩
  | 93 => ⟨S12288, .i32⟩
  | 94 => ⟨S12288, .i32⟩
  | 95 => ⟨S12288x1, .i32⟩
  | 96 => ⟨S16x2048x512, .f32⟩
  | 97 => ⟨S1x2048x1, .f32⟩
  | 98 => ⟨S16x2048x512, .f32⟩
  | 99 => ⟨S16x2048x512, .f32⟩
  | 100 => ⟨S16x2048x512, .f32⟩
  | 101 => ⟨S1x1x512, .f32⟩
  | 102 => ⟨S16x2048x512, .f32⟩
  | 103 => ⟨S16x2048x512, .f32⟩
  | 104 => ⟨S16x2048x512, .f32⟩
  | 105 => ⟨S_, .i32⟩
  | 106 => ⟨S12288, .i32⟩
  | 107 => ⟨S12288, .i1⟩
  | 108 => ⟨S_, .i32⟩
  | 109 => ⟨S12288, .i32⟩
  | 110 => ⟨S12288, .i32⟩
  | 111 => ⟨S12288, .i32⟩
  | 112 => ⟨S12288x1, .i32⟩
  | 113 => ⟨S12288, .f32⟩
  | 114 => ⟨S_, .i32⟩
  | 115 => ⟨S12288, .i32⟩
  | 116 => ⟨S12288, .i1⟩
  | 117 => ⟨S_, .i32⟩
  | 118 => ⟨S12288, .i32⟩
  | 119 => ⟨S12288, .i32⟩
  | 120 => ⟨S12288, .i32⟩
  | 121 => ⟨S12288x1, .i32⟩
  | 122 => ⟨S12288, .f32⟩
  | 123 => ⟨S12288, .f32⟩
  | 124 => ⟨S_, .i32⟩
  | 125 => ⟨S12288, .i32⟩
  | 126 => ⟨S12288, .i1⟩
  | 127 => ⟨S_, .i32⟩
  | _ => ⟨S16x2048x1475, .f32⟩

abbrev hbmTy0_1 (i : Nat) : BufTy := match i % 128 with
  | 0 => ⟨S12288, .i32⟩
  | 1 => ⟨S12288, .i32⟩
  | 2 => ⟨S12288, .i32⟩
  | 3 => ⟨S12288x1, .i32⟩
  | 4 => ⟨S1, .i32⟩
  | 5 => ⟨S_, .i32⟩
  | 6 => ⟨S12288x1, .i32⟩
  | 7 => ⟨S12288x1, .i1⟩
  | 8 => ⟨S1x1, .i32⟩
  | 9 => ⟨S12288x1, .i32⟩
  | 10 => ⟨S12288x1, .i1⟩
  | 11 => ⟨S12288x1, .i1⟩
  | 12 => ⟨S_, .i1⟩
  | 13 => ⟨S12288, .i1⟩
  | 14 => ⟨S16x12288x512, .f32⟩
  | 15 => ⟨S16x12288x512, .i1⟩
  | 16 => ⟨S_, .f32⟩
  | 17 => ⟨S16x12288x512, .f32⟩
  | 18 => ⟨S16x12288x512, .f32⟩
  | 19 => ⟨S1x12288x1, .f32⟩
  | 20 => ⟨S16x12288x512, .f32⟩
  | 21 => ⟨S16x12288x512, .f32⟩
  | 22 => ⟨S_, .f32⟩
  | 23 => ⟨S16x2048x512, .f32⟩
  | 24 => ⟨S_, .i32⟩
  | 25 => ⟨S12288, .i32⟩
  | 26 => ⟨S12288, .i1⟩
  | 27 => ⟨S_, .i32⟩
  | 28 => ⟨S12288, .i32⟩
  | 29 => ⟨S12288, .i32⟩
  | 30 => ⟨S12288, .i32⟩
  | 31 => ⟨S12288x1, .i32⟩
  | 32 => ⟨S16x2048x512, .f32⟩
  | 33 => ⟨S1x2048x1, .f32⟩
  | 34 => ⟨S16x2048x512, .f32⟩
  | 35 => ⟨S16x2048x512, .f32⟩
  | 36 => ⟨S16x2048x512, .f32⟩
  | 37 => ⟨S1x1x512, .f32⟩
  | 38 => ⟨S16x2048x512, .f32⟩
  | 39 => ⟨S16x2048x512, .f32⟩
  | 40 => ⟨S_, .f32⟩
  | 41 => ⟨S16x2048x512, .f32⟩
  | 42 => ⟨S16x2048x512, .i1⟩
  | 43 => ⟨S_, .f32⟩
  | 44 => ⟨S16x2048x512, .f32⟩
  | 45 => ⟨S16x2048x512, .f32⟩
  | 46 => ⟨S16x2048x512, .f32⟩
  | 47 => ⟨S16x2048x256, .f32⟩
  | 48 => ⟨S_, .i32⟩
  | 49 => ⟨S12288, .i32⟩
  | 50 => ⟨S12288, .i1⟩
  | 51 => ⟨S_, .i32⟩
  | 52 => ⟨S12288, .i32⟩
  | 53 => ⟨S12288, .i32⟩
  | 54 => ⟨S12288, .i32⟩
  | 55 => ⟨S12288x1, .i32⟩
  | 56 => ⟨S12288, .f32⟩
  | 57 => ⟨S_, .i32⟩
  | 58 => ⟨S12288, .i32⟩
  | 59 => ⟨S12288, .i1⟩
  | 60 => ⟨S_, .i32⟩
  | 61 => ⟨S12288, .i32⟩
  | 62 => ⟨S12288, .i32⟩
  | 63 => ⟨S12288, .i32⟩
  | 64 => ⟨S12288x1, .i32⟩
  | 65 => ⟨S12288, .f32⟩
  | 66 => ⟨S12288, .f32⟩
  | 67 => ⟨S_, .i32⟩
  | 68 => ⟨S12288, .i32⟩
  | 69 => ⟨S12288, .i1⟩
  | 70 => ⟨S_, .i32⟩
  | 71 => ⟨S12288, .i32⟩
  | 72 => ⟨S12288, .i32⟩
  | 73 => ⟨S12288, .i32⟩
  | 74 => ⟨S12288x1, .i32⟩
  | 75 => ⟨S1, .i32⟩
  | 76 => ⟨S_, .i32⟩
  | 77 => ⟨S12288x1, .i32⟩
  | 78 => ⟨S12288x1, .i1⟩
  | 79 => ⟨S1x1, .i32⟩
  | 80 => ⟨S12288x1, .i32⟩
  | 81 => ⟨S12288x1, .i1⟩
  | 82 => ⟨S12288x1, .i1⟩
  | 83 => ⟨S_, .i1⟩
  | 84 => ⟨S12288, .i1⟩
  | 85 => ⟨S16x12288x256, .f32⟩
  | 86 => ⟨S16x12288x256, .i1⟩
  | 87 => ⟨S_, .f32⟩
  | 88 => ⟨S16x12288x256, .f32⟩
  | 89 => ⟨S16x12288x256, .f32⟩
  | 90 => ⟨S1x12288x1, .f32⟩
  | 91 => ⟨S16x12288x256, .f32⟩
  | 92 => ⟨S16x12288x256, .f32⟩
  | 93 => ⟨S_, .f32⟩
  | 94 => ⟨S16x2048x256, .f32⟩
  | 95 => ⟨S_, .i32⟩
  | 96 => ⟨S12288, .i32⟩
  | 97 => ⟨S12288, .i1⟩
  | 98 => ⟨S_, .i32⟩
  | 99 => ⟨S12288, .i32⟩
  | 100 => ⟨S12288, .i32⟩
  | 101 => ⟨S12288, .i32⟩
  | 102 => ⟨S12288x1, .i32⟩
  | 103 => ⟨S16x2048x256, .f32⟩
  | 104 => ⟨S1x2048x1, .f32⟩
  | 105 => ⟨S16x2048x256, .f32⟩
  | 106 => ⟨S16x2048x256, .f32⟩
  | 107 => ⟨S16x2048x256, .f32⟩
  | 108 => ⟨S1x1x256, .f32⟩
  | 109 => ⟨S16x2048x256, .f32⟩
  | 110 => ⟨S16x2048x256, .f32⟩
  | 111 => ⟨S16x2048x256, .f32⟩
  | 112 => ⟨S_, .i32⟩
  | 113 => ⟨S12288, .i32⟩
  | 114 => ⟨S12288, .i1⟩
  | 115 => ⟨S_, .i32⟩
  | 116 => ⟨S12288, .i32⟩
  | 117 => ⟨S12288, .i32⟩
  | 118 => ⟨S12288, .i32⟩
  | 119 => ⟨S12288x1, .i32⟩
  | 120 => ⟨S12288, .f32⟩
  | 121 => ⟨S_, .i32⟩
  | 122 => ⟨S12288, .i32⟩
  | 123 => ⟨S12288, .i1⟩
  | 124 => ⟨S_, .i32⟩
  | 125 => ⟨S12288, .i32⟩
  | 126 => ⟨S12288, .i32⟩
  | 127 => ⟨S12288, .i32⟩
  | _ => ⟨S16x2048x1475, .f32⟩

abbrev hbmTy0_2 (i : Nat) : BufTy := match i % 128 with
  | 0 => ⟨S12288x1, .i32⟩
  | 1 => ⟨S12288, .f32⟩
  | 2 => ⟨S12288, .f32⟩
  | 3 => ⟨S_, .i32⟩
  | 4 => ⟨S12288, .i32⟩
  | 5 => ⟨S12288, .i1⟩
  | 6 => ⟨S_, .i32⟩
  | 7 => ⟨S12288, .i32⟩
  | 8 => ⟨S12288, .i32⟩
  | 9 => ⟨S12288, .i32⟩
  | 10 => ⟨S12288x1, .i32⟩
  | 11 => ⟨S1, .i32⟩
  | 12 => ⟨S_, .i32⟩
  | 13 => ⟨S12288x1, .i32⟩
  | 14 => ⟨S12288x1, .i1⟩
  | 15 => ⟨S1x1, .i32⟩
  | 16 => ⟨S12288x1, .i32⟩
  | 17 => ⟨S12288x1, .i1⟩
  | 18 => ⟨S12288x1, .i1⟩
  | 19 => ⟨S_, .i1⟩
  | 20 => ⟨S12288, .i1⟩
  | 21 => ⟨S16x12288x256, .f32⟩
  | 22 => ⟨S16x12288x256, .i1⟩
  | 23 => ⟨S_, .f32⟩
  | 24 => ⟨S16x12288x256, .f32⟩
  | 25 => ⟨S16x12288x256, .f32⟩
  | 26 => ⟨S1x12288x1, .f32⟩
  | 27 => ⟨S16x12288x256, .f32⟩
  | 28 => ⟨S16x12288x256, .f32⟩
  | 29 => ⟨S_, .f32⟩
  | 30 => ⟨S16x2048x256, .f32⟩
  | 31 => ⟨S_, .i32⟩
  | 32 => ⟨S12288, .i32⟩
  | 33 => ⟨S12288, .i1⟩
  | 34 => ⟨S_, .i32⟩
  | 35 => ⟨S12288, .i32⟩
  | 36 => ⟨S12288, .i32⟩
  | 37 => ⟨S12288, .i32⟩
  | 38 => ⟨S12288x1, .i32⟩
  | 39 => ⟨S16x2048x256, .f32⟩
  | 40 => ⟨S1x2048x1, .f32⟩
  | 41 => ⟨S16x2048x256, .f32⟩
  | 42 => ⟨S16x2048x256, .f32⟩
  | 43 => ⟨S16x2048x256, .f32⟩
  | 44 => ⟨S1x1x256, .f32⟩
  | 45 => ⟨S16x2048x256, .f32⟩
  | 46 => ⟨S16x2048x256, .f32⟩
  | 47 => ⟨S_, .f32⟩
  | 48 => ⟨S16x2048x256, .f32⟩
  | 49 => ⟨S16x2048x256, .i1⟩
  | 50 => ⟨S_, .f32⟩
  | 51 => ⟨S16x2048x256, .f32⟩
  | 52 => ⟨S16x2048x256, .f32⟩
  | 53 => ⟨S16x2048x256, .f32⟩
  | 54 => ⟨S16x2048x64, .f32⟩
  | 55 => ⟨S_, .i32⟩
  | 56 => ⟨S12288, .i32⟩
  | 57 => ⟨S12288, .i1⟩
  | 58 => ⟨S_, .i32⟩
  | 59 => ⟨S12288, .i32⟩
  | 60 => ⟨S12288, .i32⟩
  | 61 => ⟨S12288, .i32⟩
  | 62 => ⟨S12288x1, .i32⟩
  | 63 => ⟨S12288, .f32⟩
  | 64 => ⟨S_, .i32⟩
  | 65 => ⟨S12288, .i32⟩
  | 66 => ⟨S12288, .i1⟩
  | 67 => ⟨S_, .i32⟩
  | 68 => ⟨S12288, .i32⟩
  | 69 => ⟨S12288, .i32⟩
  | 70 => ⟨S12288, .i32⟩
  | 71 => ⟨S12288x1, .i32⟩
  | 72 => ⟨S12288, .f32⟩
  | 73 => ⟨S12288, .f32⟩
  | 74 => ⟨S_, .i32⟩
  | 75 => ⟨S12288, .i32⟩
  | 76 => ⟨S12288, .i1⟩
  | 77 => ⟨S_, .i32⟩
  | 78 => ⟨S12288, .i32⟩
  | 79 => ⟨S12288, .i32⟩
  | 80 => ⟨S12288, .i32⟩
  | 81 => ⟨S12288x1, .i32⟩
  | 82 => ⟨S1, .i32⟩
  | 83 => ⟨S_, .i32⟩
  | 84 => ⟨S12288x1, .i32⟩
  | 85 => ⟨S12288x1, .i1⟩
  | 86 => ⟨S1x1, .i32⟩
  | 87 => ⟨S12288x1, .i32⟩
  | 88 => ⟨S12288x1, .i1⟩
  | 89 => ⟨S12288x1, .i1⟩
  | 90 => ⟨S_, .i1⟩
  | 91 => ⟨S12288, .i1⟩
  | 92 => ⟨S16x12288x64, .f32⟩
  | 93 => ⟨S16x12288x64, .i1⟩
  | 94 => ⟨S_, .f32⟩
  | 95 => ⟨S16x12288x64, .f32⟩
  | 96 => ⟨S16x12288x64, .f32⟩
  | 97 => ⟨S1x12288x1, .f32⟩
  | 98 => ⟨S16x12288x64, .f32⟩
  | 99 => ⟨S16x12288x64, .f32⟩
  | 100 => ⟨S_, .f32⟩
  | 101 => ⟨S16x2048x64, .f32⟩
  | 102 => ⟨S_, .i32⟩
  | 103 => ⟨S12288, .i32⟩
  | 104 => ⟨S12288, .i1⟩
  | 105 => ⟨S_, .i32⟩
  | 106 => ⟨S12288, .i32⟩
  | 107 => ⟨S12288, .i32⟩
  | 108 => ⟨S12288, .i32⟩
  | 109 => ⟨S12288x1, .i32⟩
  | 110 => ⟨S16x2048x64, .f32⟩
  | 111 => ⟨S1x2048x1, .f32⟩
  | 112 => ⟨S16x2048x64, .f32⟩
  | 113 => ⟨S16x2048x64, .f32⟩
  | 114 => ⟨S16x2048x64, .f32⟩
  | 115 => ⟨S1x1x64, .f32⟩
  | 116 => ⟨S16x2048x64, .f32⟩
  | 117 => ⟨S16x2048x64, .f32⟩
  | 118 => ⟨S16x2048x3, .f32⟩
  | 119 => ⟨S_, .i32⟩
  | 120 => ⟨S12288, .i32⟩
  | 121 => ⟨S12288, .i1⟩
  | 122 => ⟨S_, .i32⟩
  | 123 => ⟨S12288, .i32⟩
  | 124 => ⟨S12288, .i32⟩
  | 125 => ⟨S12288, .i32⟩
  | 126 => ⟨S12288x1, .i32⟩
  | 127 => ⟨S12288, .f32⟩
  | _ => ⟨S16x2048x1475, .f32⟩

abbrev hbmTy0_3 (i : Nat) : BufTy := match i % 128 with
  | 0 => ⟨S_, .i32⟩
  | 1 => ⟨S12288, .i32⟩
  | 2 => ⟨S12288, .i1⟩
  | 3 => ⟨S_, .i32⟩
  | 4 => ⟨S12288, .i32⟩
  | 5 => ⟨S12288, .i32⟩
  | 6 => ⟨S12288, .i32⟩
  | 7 => ⟨S12288x1, .i32⟩
  | 8 => ⟨S12288, .f32⟩
  | 9 => ⟨S12288, .f32⟩
  | 10 => ⟨S_, .i32⟩
  | 11 => ⟨S12288, .i32⟩
  | 12 => ⟨S12288, .i1⟩
  | 13 => ⟨S_, .i32⟩
  | 14 => ⟨S12288, .i32⟩
  | 15 => ⟨S12288, .i32⟩
  | 16 => ⟨S12288, .i32⟩
  | 17 => ⟨S12288x1, .i32⟩
  | 18 => ⟨S1, .i32⟩
  | 19 => ⟨S_, .i32⟩
  | 20 => ⟨S12288x1, .i32⟩
  | 21 => ⟨S12288x1, .i1⟩
  | 22 => ⟨S1x1, .i32⟩
  | 23 => ⟨S12288x1, .i32⟩
  | 24 => ⟨S12288x1, .i1⟩
  | 25 => ⟨S12288x1, .i1⟩
  | 26 => ⟨S_, .i1⟩
  | 27 => ⟨S12288, .i1⟩
  | 28 => ⟨S16x12288x3, .f32⟩
  | 29 => ⟨S16x12288x3, .i1⟩
  | 30 => ⟨S_, .f32⟩
  | 31 => ⟨S16x12288x3, .f32⟩
  | 32 => ⟨S16x12288x3, .f32⟩
  | 33 => ⟨S1x12288x1, .f32⟩
  | 34 => ⟨S16x12288x3, .f32⟩
  | 35 => ⟨S16x12288x3, .f32⟩
  | 36 => ⟨S_, .f32⟩
  | 37 => ⟨S16x2048x3, .f32⟩
  | 38 => ⟨S_, .i32⟩
  | 39 => ⟨S12288, .i32⟩
  | 40 => ⟨S12288, .i1⟩
  | 41 => ⟨S_, .i32⟩
  | 42 => ⟨S12288, .i32⟩
  | 43 => ⟨S12288, .i32⟩
  | 44 => ⟨S12288, .i32⟩
  | 45 => ⟨S12288x1, .i32⟩
  | 46 => ⟨S16x2048x3, .f32⟩
  | 47 => ⟨S1x2048x1, .f32⟩
  | 48 => ⟨S16x2048x3, .f32⟩
  | 49 => ⟨S16x2048x3, .f32⟩
  | 50 => ⟨S16x2048x3, .f32⟩
  | 51 => ⟨S1x1x3, .f32⟩
  | 52 => ⟨S16x2048x3, .f32⟩
  | 53 => ⟨S16x2048x3, .f32⟩
  | 54 => ⟨S_, .f32⟩
  | 55 => ⟨S16x2048x3, .f32⟩
  | 56 => ⟨S16x2048x3, .i1⟩
  | 57 => ⟨S_, .f32⟩
  | 58 => ⟨S16x2048x3, .f32⟩
  | 59 => ⟨S16x2048x3, .f32⟩
  | 60 => ⟨S16x2048x3, .f32⟩
  | 61 => ⟨S16x6144, .f32⟩
  | 62 => ⟨S16x6144, .f32⟩
  | 63 => ⟨S1x6144, .f32⟩
  | 64 => ⟨S16x6144, .f32⟩
  | 65 => ⟨S16x6144, .f32⟩
  | 66 => ⟨S16x6144, .f32⟩
  | 67 => ⟨S16x2048x3, .f32⟩
  | 68 => ⟨S_, .f32⟩
  | 69 => ⟨S16x2048x3, .f32⟩
  | 70 => ⟨S16x2048x3, .f32⟩
  | _ => ⟨S16x2048x1475, .f32⟩

abbrev hbmTy (i : Nat) : BufTy := match i / 128 with
  | 0 => hbmTy0_0 i
  | 1 => hbmTy0_1 i
  | 2 => hbmTy0_2 i
  | 3 => hbmTy0_3 i
  | _ => ⟨S16x2048x1475, .f32⟩

abbrev bufTy : (tb : Table) → Fin (tcTables nBuf tb) → BufTy
  | .hbm, ⟨i, _⟩ => hbmTy i
  | _, _ => ⟨S16x2048x1475, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_c : Ref sig .tc := ⟨.hbm, 22, rfl⟩
abbrev main_v5 : Ref sig .tc := ⟨.hbm, 23, rfl⟩
abbrev main_v6 : Ref sig .tc := ⟨.hbm, 24, rfl⟩
abbrev main_c_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_3 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_c_5 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c_6 : Ref sig .tc := ⟨.hbm, 50, rfl⟩
abbrev main_v26 : Ref sig .tc := ⟨.hbm, 51, rfl⟩
abbrev main_v27 : Ref sig .tc := ⟨.hbm, 52, rfl⟩
abbrev main_c_7 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_call0_c : Ref sig .tc := ⟨.hbm, 60, rfl⟩
abbrev main_call0_v0 : Ref sig .tc := ⟨.hbm, 61, rfl⟩
abbrev main_call0_v1 : Ref sig .tc := ⟨.hbm, 62, rfl⟩
abbrev main_call0_c_0 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_v5 : Ref sig .tc := ⟨.hbm, 67, rfl⟩
abbrev main_call0_c_1 : Ref sig .tc := ⟨.hbm, 68, rfl⟩
abbrev main_call0_c_2 : Ref sig .tc := ⟨.hbm, 69, rfl⟩
abbrev main_call0_v6 : Ref sig .tc := ⟨.hbm, 70, rfl⟩
abbrev main_call0_v7 : Ref sig .tc := ⟨.hbm, 71, rfl⟩
abbrev main_call0_v8 : Ref sig .tc := ⟨.hbm, 72, rfl⟩
abbrev main_call0_v9 : Ref sig .tc := ⟨.hbm, 73, rfl⟩
abbrev main_call0_v10 : Ref sig .tc := ⟨.hbm, 74, rfl⟩
abbrev main_call0_v11 : Ref sig .tc := ⟨.hbm, 75, rfl⟩
abbrev main_call0_c_3 : Ref sig .tc := ⟨.hbm, 76, rfl⟩
abbrev main_call0_v12 : Ref sig .tc := ⟨.hbm, 77, rfl⟩
abbrev main_call0_v13 : Ref sig .tc := ⟨.hbm, 78, rfl⟩
abbrev main_call0_v14 : Ref sig .tc := ⟨.hbm, 79, rfl⟩
abbrev main_call0_cst : Ref sig .tc := ⟨.hbm, 80, rfl⟩
abbrev main_call0_v15 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_cst_8 : Ref sig .tc := ⟨.hbm, 86, rfl⟩
abbrev main_v38 : Ref sig .tc := ⟨.hbm, 87, rfl⟩
abbrev main_c_9 : Ref sig .tc := ⟨.hbm, 88, rfl⟩
abbrev main_v39 : Ref sig .tc := ⟨.hbm, 89, rfl⟩
abbrev main_v40 : Ref sig .tc := ⟨.hbm, 90, rfl⟩
abbrev main_c_10 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_c_11 : Ref sig .tc := ⟨.hbm, 105, rfl⟩
abbrev main_v54 : Ref sig .tc := ⟨.hbm, 106, rfl⟩
abbrev main_v55 : Ref sig .tc := ⟨.hbm, 107, rfl⟩
abbrev main_c_12 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_c_13 : Ref sig .tc := ⟨.hbm, 114, rfl⟩
abbrev main_v61 : Ref sig .tc := ⟨.hbm, 115, rfl⟩
abbrev main_v62 : Ref sig .tc := ⟨.hbm, 116, rfl⟩
abbrev main_c_14 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_call1_c : Ref sig .tc := ⟨.hbm, 124, rfl⟩
abbrev main_call1_v0 : Ref sig .tc := ⟨.hbm, 125, rfl⟩
abbrev main_call1_v1 : Ref sig .tc := ⟨.hbm, 126, rfl⟩
abbrev main_call1_c_0 : Ref sig .tc := ⟨.hbm, 127, rfl⟩
abbrev main_call1_v2 : Ref sig .tc := ⟨.hbm, 128, rfl⟩
abbrev main_call1_v3 : Ref sig .tc := ⟨.hbm, 129, rfl⟩
abbrev main_call1_v4 : Ref sig .tc := ⟨.hbm, 130, rfl⟩
abbrev main_call1_v5 : Ref sig .tc := ⟨.hbm, 131, rfl⟩
abbrev main_call1_c_1 : Ref sig .tc := ⟨.hbm, 132, rfl⟩
abbrev main_call1_c_2 : Ref sig .tc := ⟨.hbm, 133, rfl⟩
abbrev main_call1_v6 : Ref sig .tc := ⟨.hbm, 134, rfl⟩
abbrev main_call1_v7 : Ref sig .tc := ⟨.hbm, 135, rfl⟩
abbrev main_call1_v8 : Ref sig .tc := ⟨.hbm, 136, rfl⟩
abbrev main_call1_v9 : Ref sig .tc := ⟨.hbm, 137, rfl⟩
abbrev main_call1_v10 : Ref sig .tc := ⟨.hbm, 138, rfl⟩
abbrev main_call1_v11 : Ref sig .tc := ⟨.hbm, 139, rfl⟩
abbrev main_call1_c_3 : Ref sig .tc := ⟨.hbm, 140, rfl⟩
abbrev main_call1_v12 : Ref sig .tc := ⟨.hbm, 141, rfl⟩
abbrev main_call1_v13 : Ref sig .tc := ⟨.hbm, 142, rfl⟩
abbrev main_call1_v14 : Ref sig .tc := ⟨.hbm, 143, rfl⟩
abbrev main_call1_cst : Ref sig .tc := ⟨.hbm, 144, rfl⟩
abbrev main_call1_v15 : Ref sig .tc := ⟨.hbm, 145, rfl⟩
abbrev main_v69 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_cst_15 : Ref sig .tc := ⟨.hbm, 150, rfl⟩
abbrev main_v73 : Ref sig .tc := ⟨.hbm, 151, rfl⟩
abbrev main_c_16 : Ref sig .tc := ⟨.hbm, 152, rfl⟩
abbrev main_v74 : Ref sig .tc := ⟨.hbm, 153, rfl⟩
abbrev main_v75 : Ref sig .tc := ⟨.hbm, 154, rfl⟩
abbrev main_c_17 : Ref sig .tc := ⟨.hbm, 155, rfl⟩
abbrev main_v76 : Ref sig .tc := ⟨.hbm, 156, rfl⟩
abbrev main_v77 : Ref sig .tc := ⟨.hbm, 157, rfl⟩
abbrev main_v78 : Ref sig .tc := ⟨.hbm, 158, rfl⟩
abbrev main_v79 : Ref sig .tc := ⟨.hbm, 159, rfl⟩
abbrev main_v80 : Ref sig .tc := ⟨.hbm, 160, rfl⟩
abbrev main_v81 : Ref sig .tc := ⟨.hbm, 161, rfl⟩
abbrev main_v82 : Ref sig .tc := ⟨.hbm, 162, rfl⟩
abbrev main_v83 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_cst_18 : Ref sig .tc := ⟨.hbm, 168, rfl⟩
abbrev main_v88 : Ref sig .tc := ⟨.hbm, 169, rfl⟩
abbrev main_v89 : Ref sig .tc := ⟨.hbm, 170, rfl⟩
abbrev main_cst_19 : Ref sig .tc := ⟨.hbm, 171, rfl⟩
abbrev main_v90 : Ref sig .tc := ⟨.hbm, 172, rfl⟩
abbrev main_v91 : Ref sig .tc := ⟨.hbm, 173, rfl⟩
abbrev main_v92 : Ref sig .tc := ⟨.hbm, 174, rfl⟩
abbrev main_v93 : Ref sig .tc := ⟨.hbm, 175, rfl⟩
abbrev main_c_20 : Ref sig .tc := ⟨.hbm, 176, rfl⟩
abbrev main_v94 : Ref sig .tc := ⟨.hbm, 177, rfl⟩
abbrev main_v95 : Ref sig .tc := ⟨.hbm, 178, rfl⟩
abbrev main_c_21 : Ref sig .tc := ⟨.hbm, 179, rfl⟩
abbrev main_v96 : Ref sig .tc := ⟨.hbm, 180, rfl⟩
abbrev main_v97 : Ref sig .tc := ⟨.hbm, 181, rfl⟩
abbrev main_v98 : Ref sig .tc := ⟨.hbm, 182, rfl⟩
abbrev main_v99 : Ref sig .tc := ⟨.hbm, 183, rfl⟩
abbrev main_v100 : Ref sig .tc := ⟨.hbm, 184, rfl⟩
abbrev main_c_22 : Ref sig .tc := ⟨.hbm, 185, rfl⟩
abbrev main_v101 : Ref sig .tc := ⟨.hbm, 186, rfl⟩
abbrev main_v102 : Ref sig .tc := ⟨.hbm, 187, rfl⟩
abbrev main_c_23 : Ref sig .tc := ⟨.hbm, 188, rfl⟩
abbrev main_v103 : Ref sig .tc := ⟨.hbm, 189, rfl⟩
abbrev main_v104 : Ref sig .tc := ⟨.hbm, 190, rfl⟩
abbrev main_v105 : Ref sig .tc := ⟨.hbm, 191, rfl⟩
abbrev main_v106 : Ref sig .tc := ⟨.hbm, 192, rfl⟩
abbrev main_v107 : Ref sig .tc := ⟨.hbm, 193, rfl⟩
abbrev main_v108 : Ref sig .tc := ⟨.hbm, 194, rfl⟩
abbrev main_call3_c : Ref sig .tc := ⟨.hbm, 195, rfl⟩
abbrev main_call3_v0 : Ref sig .tc := ⟨.hbm, 196, rfl⟩
abbrev main_call3_v1 : Ref sig .tc := ⟨.hbm, 197, rfl⟩
abbrev main_call3_c_0 : Ref sig .tc := ⟨.hbm, 198, rfl⟩
abbrev main_call3_v2 : Ref sig .tc := ⟨.hbm, 199, rfl⟩
abbrev main_call3_v3 : Ref sig .tc := ⟨.hbm, 200, rfl⟩
abbrev main_call3_v4 : Ref sig .tc := ⟨.hbm, 201, rfl⟩
abbrev main_call3_v5 : Ref sig .tc := ⟨.hbm, 202, rfl⟩
abbrev main_call3_c_1 : Ref sig .tc := ⟨.hbm, 203, rfl⟩
abbrev main_call3_c_2 : Ref sig .tc := ⟨.hbm, 204, rfl⟩
abbrev main_call3_v6 : Ref sig .tc := ⟨.hbm, 205, rfl⟩
abbrev main_call3_v7 : Ref sig .tc := ⟨.hbm, 206, rfl⟩
abbrev main_call3_v8 : Ref sig .tc := ⟨.hbm, 207, rfl⟩
abbrev main_call3_v9 : Ref sig .tc := ⟨.hbm, 208, rfl⟩
abbrev main_call3_v10 : Ref sig .tc := ⟨.hbm, 209, rfl⟩
abbrev main_call3_v11 : Ref sig .tc := ⟨.hbm, 210, rfl⟩
abbrev main_call3_c_3 : Ref sig .tc := ⟨.hbm, 211, rfl⟩
abbrev main_call3_v12 : Ref sig .tc := ⟨.hbm, 212, rfl⟩
abbrev main_call3_v13 : Ref sig .tc := ⟨.hbm, 213, rfl⟩
abbrev main_call3_v14 : Ref sig .tc := ⟨.hbm, 214, rfl⟩
abbrev main_call3_cst : Ref sig .tc := ⟨.hbm, 215, rfl⟩
abbrev main_call3_v15 : Ref sig .tc := ⟨.hbm, 216, rfl⟩
abbrev main_v109 : Ref sig .tc := ⟨.hbm, 217, rfl⟩
abbrev main_v110 : Ref sig .tc := ⟨.hbm, 218, rfl⟩
abbrev main_v111 : Ref sig .tc := ⟨.hbm, 219, rfl⟩
abbrev main_v112 : Ref sig .tc := ⟨.hbm, 220, rfl⟩
abbrev main_cst_24 : Ref sig .tc := ⟨.hbm, 221, rfl⟩
abbrev main_v113 : Ref sig .tc := ⟨.hbm, 222, rfl⟩
abbrev main_c_25 : Ref sig .tc := ⟨.hbm, 223, rfl⟩
abbrev main_v114 : Ref sig .tc := ⟨.hbm, 224, rfl⟩
abbrev main_v115 : Ref sig .tc := ⟨.hbm, 225, rfl⟩
abbrev main_c_26 : Ref sig .tc := ⟨.hbm, 226, rfl⟩
abbrev main_v116 : Ref sig .tc := ⟨.hbm, 227, rfl⟩
abbrev main_v117 : Ref sig .tc := ⟨.hbm, 228, rfl⟩
abbrev main_v118 : Ref sig .tc := ⟨.hbm, 229, rfl⟩
abbrev main_v119 : Ref sig .tc := ⟨.hbm, 230, rfl⟩
abbrev main_v120 : Ref sig .tc := ⟨.hbm, 231, rfl⟩
abbrev main_v121 : Ref sig .tc := ⟨.hbm, 232, rfl⟩
abbrev main_v122 : Ref sig .tc := ⟨.hbm, 233, rfl⟩
abbrev main_v123 : Ref sig .tc := ⟨.hbm, 234, rfl⟩
abbrev main_v124 : Ref sig .tc := ⟨.hbm, 235, rfl⟩
abbrev main_v125 : Ref sig .tc := ⟨.hbm, 236, rfl⟩
abbrev main_v126 : Ref sig .tc := ⟨.hbm, 237, rfl⟩
abbrev main_v127 : Ref sig .tc := ⟨.hbm, 238, rfl⟩
abbrev main_v128 : Ref sig .tc := ⟨.hbm, 239, rfl⟩
abbrev main_c_27 : Ref sig .tc := ⟨.hbm, 240, rfl⟩
abbrev main_v129 : Ref sig .tc := ⟨.hbm, 241, rfl⟩
abbrev main_v130 : Ref sig .tc := ⟨.hbm, 242, rfl⟩
abbrev main_c_28 : Ref sig .tc := ⟨.hbm, 243, rfl⟩
abbrev main_v131 : Ref sig .tc := ⟨.hbm, 244, rfl⟩
abbrev main_v132 : Ref sig .tc := ⟨.hbm, 245, rfl⟩
abbrev main_v133 : Ref sig .tc := ⟨.hbm, 246, rfl⟩
abbrev main_v134 : Ref sig .tc := ⟨.hbm, 247, rfl⟩
abbrev main_v135 : Ref sig .tc := ⟨.hbm, 248, rfl⟩
abbrev main_c_29 : Ref sig .tc := ⟨.hbm, 249, rfl⟩
abbrev main_v136 : Ref sig .tc := ⟨.hbm, 250, rfl⟩
abbrev main_v137 : Ref sig .tc := ⟨.hbm, 251, rfl⟩
abbrev main_c_30 : Ref sig .tc := ⟨.hbm, 252, rfl⟩
abbrev main_v138 : Ref sig .tc := ⟨.hbm, 253, rfl⟩
abbrev main_v139 : Ref sig .tc := ⟨.hbm, 254, rfl⟩
abbrev main_v140 : Ref sig .tc := ⟨.hbm, 255, rfl⟩
abbrev main_v141 : Ref sig .tc := ⟨.hbm, 256, rfl⟩
abbrev main_v142 : Ref sig .tc := ⟨.hbm, 257, rfl⟩
abbrev main_v143 : Ref sig .tc := ⟨.hbm, 258, rfl⟩
abbrev main_call4_c : Ref sig .tc := ⟨.hbm, 259, rfl⟩
abbrev main_call4_v0 : Ref sig .tc := ⟨.hbm, 260, rfl⟩
abbrev main_call4_v1 : Ref sig .tc := ⟨.hbm, 261, rfl⟩
abbrev main_call4_c_0 : Ref sig .tc := ⟨.hbm, 262, rfl⟩
abbrev main_call4_v2 : Ref sig .tc := ⟨.hbm, 263, rfl⟩
abbrev main_call4_v3 : Ref sig .tc := ⟨.hbm, 264, rfl⟩
abbrev main_call4_v4 : Ref sig .tc := ⟨.hbm, 265, rfl⟩
abbrev main_call4_v5 : Ref sig .tc := ⟨.hbm, 266, rfl⟩
abbrev main_call4_c_1 : Ref sig .tc := ⟨.hbm, 267, rfl⟩
abbrev main_call4_c_2 : Ref sig .tc := ⟨.hbm, 268, rfl⟩
abbrev main_call4_v6 : Ref sig .tc := ⟨.hbm, 269, rfl⟩
abbrev main_call4_v7 : Ref sig .tc := ⟨.hbm, 270, rfl⟩
abbrev main_call4_v8 : Ref sig .tc := ⟨.hbm, 271, rfl⟩
abbrev main_call4_v9 : Ref sig .tc := ⟨.hbm, 272, rfl⟩
abbrev main_call4_v10 : Ref sig .tc := ⟨.hbm, 273, rfl⟩
abbrev main_call4_v11 : Ref sig .tc := ⟨.hbm, 274, rfl⟩
abbrev main_call4_c_3 : Ref sig .tc := ⟨.hbm, 275, rfl⟩
abbrev main_call4_v12 : Ref sig .tc := ⟨.hbm, 276, rfl⟩
abbrev main_call4_v13 : Ref sig .tc := ⟨.hbm, 277, rfl⟩
abbrev main_call4_v14 : Ref sig .tc := ⟨.hbm, 278, rfl⟩
abbrev main_call4_cst : Ref sig .tc := ⟨.hbm, 279, rfl⟩
abbrev main_call4_v15 : Ref sig .tc := ⟨.hbm, 280, rfl⟩
abbrev main_v144 : Ref sig .tc := ⟨.hbm, 281, rfl⟩
abbrev main_v145 : Ref sig .tc := ⟨.hbm, 282, rfl⟩
abbrev main_v146 : Ref sig .tc := ⟨.hbm, 283, rfl⟩
abbrev main_v147 : Ref sig .tc := ⟨.hbm, 284, rfl⟩
abbrev main_cst_31 : Ref sig .tc := ⟨.hbm, 285, rfl⟩
abbrev main_v148 : Ref sig .tc := ⟨.hbm, 286, rfl⟩
abbrev main_c_32 : Ref sig .tc := ⟨.hbm, 287, rfl⟩
abbrev main_v149 : Ref sig .tc := ⟨.hbm, 288, rfl⟩
abbrev main_v150 : Ref sig .tc := ⟨.hbm, 289, rfl⟩
abbrev main_c_33 : Ref sig .tc := ⟨.hbm, 290, rfl⟩
abbrev main_v151 : Ref sig .tc := ⟨.hbm, 291, rfl⟩
abbrev main_v152 : Ref sig .tc := ⟨.hbm, 292, rfl⟩
abbrev main_v153 : Ref sig .tc := ⟨.hbm, 293, rfl⟩
abbrev main_v154 : Ref sig .tc := ⟨.hbm, 294, rfl⟩
abbrev main_v155 : Ref sig .tc := ⟨.hbm, 295, rfl⟩
abbrev main_v156 : Ref sig .tc := ⟨.hbm, 296, rfl⟩
abbrev main_v157 : Ref sig .tc := ⟨.hbm, 297, rfl⟩
abbrev main_v158 : Ref sig .tc := ⟨.hbm, 298, rfl⟩
abbrev main_v159 : Ref sig .tc := ⟨.hbm, 299, rfl⟩
abbrev main_v160 : Ref sig .tc := ⟨.hbm, 300, rfl⟩
abbrev main_v161 : Ref sig .tc := ⟨.hbm, 301, rfl⟩
abbrev main_v162 : Ref sig .tc := ⟨.hbm, 302, rfl⟩
abbrev main_cst_34 : Ref sig .tc := ⟨.hbm, 303, rfl⟩
abbrev main_v163 : Ref sig .tc := ⟨.hbm, 304, rfl⟩
abbrev main_v164 : Ref sig .tc := ⟨.hbm, 305, rfl⟩
abbrev main_cst_35 : Ref sig .tc := ⟨.hbm, 306, rfl⟩
abbrev main_v165 : Ref sig .tc := ⟨.hbm, 307, rfl⟩
abbrev main_v166 : Ref sig .tc := ⟨.hbm, 308, rfl⟩
abbrev main_v167 : Ref sig .tc := ⟨.hbm, 309, rfl⟩
abbrev main_v168 : Ref sig .tc := ⟨.hbm, 310, rfl⟩
abbrev main_c_36 : Ref sig .tc := ⟨.hbm, 311, rfl⟩
abbrev main_v169 : Ref sig .tc := ⟨.hbm, 312, rfl⟩
abbrev main_v170 : Ref sig .tc := ⟨.hbm, 313, rfl⟩
abbrev main_c_37 : Ref sig .tc := ⟨.hbm, 314, rfl⟩
abbrev main_v171 : Ref sig .tc := ⟨.hbm, 315, rfl⟩
abbrev main_v172 : Ref sig .tc := ⟨.hbm, 316, rfl⟩
abbrev main_v173 : Ref sig .tc := ⟨.hbm, 317, rfl⟩
abbrev main_v174 : Ref sig .tc := ⟨.hbm, 318, rfl⟩
abbrev main_v175 : Ref sig .tc := ⟨.hbm, 319, rfl⟩
abbrev main_c_38 : Ref sig .tc := ⟨.hbm, 320, rfl⟩
abbrev main_v176 : Ref sig .tc := ⟨.hbm, 321, rfl⟩
abbrev main_v177 : Ref sig .tc := ⟨.hbm, 322, rfl⟩
abbrev main_c_39 : Ref sig .tc := ⟨.hbm, 323, rfl⟩
abbrev main_v178 : Ref sig .tc := ⟨.hbm, 324, rfl⟩
abbrev main_v179 : Ref sig .tc := ⟨.hbm, 325, rfl⟩
abbrev main_v180 : Ref sig .tc := ⟨.hbm, 326, rfl⟩
abbrev main_v181 : Ref sig .tc := ⟨.hbm, 327, rfl⟩
abbrev main_v182 : Ref sig .tc := ⟨.hbm, 328, rfl⟩
abbrev main_v183 : Ref sig .tc := ⟨.hbm, 329, rfl⟩
abbrev main_call6_c : Ref sig .tc := ⟨.hbm, 330, rfl⟩
abbrev main_call6_v0 : Ref sig .tc := ⟨.hbm, 331, rfl⟩
abbrev main_call6_v1 : Ref sig .tc := ⟨.hbm, 332, rfl⟩
abbrev main_call6_c_0 : Ref sig .tc := ⟨.hbm, 333, rfl⟩
abbrev main_call6_v2 : Ref sig .tc := ⟨.hbm, 334, rfl⟩
abbrev main_call6_v3 : Ref sig .tc := ⟨.hbm, 335, rfl⟩
abbrev main_call6_v4 : Ref sig .tc := ⟨.hbm, 336, rfl⟩
abbrev main_call6_v5 : Ref sig .tc := ⟨.hbm, 337, rfl⟩
abbrev main_call6_c_1 : Ref sig .tc := ⟨.hbm, 338, rfl⟩
abbrev main_call6_c_2 : Ref sig .tc := ⟨.hbm, 339, rfl⟩
abbrev main_call6_v6 : Ref sig .tc := ⟨.hbm, 340, rfl⟩
abbrev main_call6_v7 : Ref sig .tc := ⟨.hbm, 341, rfl⟩
abbrev main_call6_v8 : Ref sig .tc := ⟨.hbm, 342, rfl⟩
abbrev main_call6_v9 : Ref sig .tc := ⟨.hbm, 343, rfl⟩
abbrev main_call6_v10 : Ref sig .tc := ⟨.hbm, 344, rfl⟩
abbrev main_call6_v11 : Ref sig .tc := ⟨.hbm, 345, rfl⟩
abbrev main_call6_c_3 : Ref sig .tc := ⟨.hbm, 346, rfl⟩
abbrev main_call6_v12 : Ref sig .tc := ⟨.hbm, 347, rfl⟩
abbrev main_call6_v13 : Ref sig .tc := ⟨.hbm, 348, rfl⟩
abbrev main_call6_v14 : Ref sig .tc := ⟨.hbm, 349, rfl⟩
abbrev main_call6_cst : Ref sig .tc := ⟨.hbm, 350, rfl⟩
abbrev main_call6_v15 : Ref sig .tc := ⟨.hbm, 351, rfl⟩
abbrev main_v184 : Ref sig .tc := ⟨.hbm, 352, rfl⟩
abbrev main_v185 : Ref sig .tc := ⟨.hbm, 353, rfl⟩
abbrev main_v186 : Ref sig .tc := ⟨.hbm, 354, rfl⟩
abbrev main_v187 : Ref sig .tc := ⟨.hbm, 355, rfl⟩
abbrev main_cst_40 : Ref sig .tc := ⟨.hbm, 356, rfl⟩
abbrev main_v188 : Ref sig .tc := ⟨.hbm, 357, rfl⟩
abbrev main_c_41 : Ref sig .tc := ⟨.hbm, 358, rfl⟩
abbrev main_v189 : Ref sig .tc := ⟨.hbm, 359, rfl⟩
abbrev main_v190 : Ref sig .tc := ⟨.hbm, 360, rfl⟩
abbrev main_c_42 : Ref sig .tc := ⟨.hbm, 361, rfl⟩
abbrev main_v191 : Ref sig .tc := ⟨.hbm, 362, rfl⟩
abbrev main_v192 : Ref sig .tc := ⟨.hbm, 363, rfl⟩
abbrev main_v193 : Ref sig .tc := ⟨.hbm, 364, rfl⟩
abbrev main_v194 : Ref sig .tc := ⟨.hbm, 365, rfl⟩
abbrev main_v195 : Ref sig .tc := ⟨.hbm, 366, rfl⟩
abbrev main_v196 : Ref sig .tc := ⟨.hbm, 367, rfl⟩
abbrev main_v197 : Ref sig .tc := ⟨.hbm, 368, rfl⟩
abbrev main_v198 : Ref sig .tc := ⟨.hbm, 369, rfl⟩
abbrev main_v199 : Ref sig .tc := ⟨.hbm, 370, rfl⟩
abbrev main_v200 : Ref sig .tc := ⟨.hbm, 371, rfl⟩
abbrev main_v201 : Ref sig .tc := ⟨.hbm, 372, rfl⟩
abbrev main_v202 : Ref sig .tc := ⟨.hbm, 373, rfl⟩
abbrev main_v203 : Ref sig .tc := ⟨.hbm, 374, rfl⟩
abbrev main_c_43 : Ref sig .tc := ⟨.hbm, 375, rfl⟩
abbrev main_v204 : Ref sig .tc := ⟨.hbm, 376, rfl⟩
abbrev main_v205 : Ref sig .tc := ⟨.hbm, 377, rfl⟩
abbrev main_c_44 : Ref sig .tc := ⟨.hbm, 378, rfl⟩
abbrev main_v206 : Ref sig .tc := ⟨.hbm, 379, rfl⟩
abbrev main_v207 : Ref sig .tc := ⟨.hbm, 380, rfl⟩
abbrev main_v208 : Ref sig .tc := ⟨.hbm, 381, rfl⟩
abbrev main_v209 : Ref sig .tc := ⟨.hbm, 382, rfl⟩
abbrev main_v210 : Ref sig .tc := ⟨.hbm, 383, rfl⟩
abbrev main_c_45 : Ref sig .tc := ⟨.hbm, 384, rfl⟩
abbrev main_v211 : Ref sig .tc := ⟨.hbm, 385, rfl⟩
abbrev main_v212 : Ref sig .tc := ⟨.hbm, 386, rfl⟩
abbrev main_c_46 : Ref sig .tc := ⟨.hbm, 387, rfl⟩
abbrev main_v213 : Ref sig .tc := ⟨.hbm, 388, rfl⟩
abbrev main_v214 : Ref sig .tc := ⟨.hbm, 389, rfl⟩
abbrev main_v215 : Ref sig .tc := ⟨.hbm, 390, rfl⟩
abbrev main_v216 : Ref sig .tc := ⟨.hbm, 391, rfl⟩
abbrev main_v217 : Ref sig .tc := ⟨.hbm, 392, rfl⟩
abbrev main_v218 : Ref sig .tc := ⟨.hbm, 393, rfl⟩
abbrev main_call7_c : Ref sig .tc := ⟨.hbm, 394, rfl⟩
abbrev main_call7_v0 : Ref sig .tc := ⟨.hbm, 395, rfl⟩
abbrev main_call7_v1 : Ref sig .tc := ⟨.hbm, 396, rfl⟩
abbrev main_call7_c_0 : Ref sig .tc := ⟨.hbm, 397, rfl⟩
abbrev main_call7_v2 : Ref sig .tc := ⟨.hbm, 398, rfl⟩
abbrev main_call7_v3 : Ref sig .tc := ⟨.hbm, 399, rfl⟩
abbrev main_call7_v4 : Ref sig .tc := ⟨.hbm, 400, rfl⟩
abbrev main_call7_v5 : Ref sig .tc := ⟨.hbm, 401, rfl⟩
abbrev main_call7_c_1 : Ref sig .tc := ⟨.hbm, 402, rfl⟩
abbrev main_call7_c_2 : Ref sig .tc := ⟨.hbm, 403, rfl⟩
abbrev main_call7_v6 : Ref sig .tc := ⟨.hbm, 404, rfl⟩
abbrev main_call7_v7 : Ref sig .tc := ⟨.hbm, 405, rfl⟩
abbrev main_call7_v8 : Ref sig .tc := ⟨.hbm, 406, rfl⟩
abbrev main_call7_v9 : Ref sig .tc := ⟨.hbm, 407, rfl⟩
abbrev main_call7_v10 : Ref sig .tc := ⟨.hbm, 408, rfl⟩
abbrev main_call7_v11 : Ref sig .tc := ⟨.hbm, 409, rfl⟩
abbrev main_call7_c_3 : Ref sig .tc := ⟨.hbm, 410, rfl⟩
abbrev main_call7_v12 : Ref sig .tc := ⟨.hbm, 411, rfl⟩
abbrev main_call7_v13 : Ref sig .tc := ⟨.hbm, 412, rfl⟩
abbrev main_call7_v14 : Ref sig .tc := ⟨.hbm, 413, rfl⟩
abbrev main_call7_cst : Ref sig .tc := ⟨.hbm, 414, rfl⟩
abbrev main_call7_v15 : Ref sig .tc := ⟨.hbm, 415, rfl⟩
abbrev main_v219 : Ref sig .tc := ⟨.hbm, 416, rfl⟩
abbrev main_v220 : Ref sig .tc := ⟨.hbm, 417, rfl⟩
abbrev main_v221 : Ref sig .tc := ⟨.hbm, 418, rfl⟩
abbrev main_v222 : Ref sig .tc := ⟨.hbm, 419, rfl⟩
abbrev main_cst_47 : Ref sig .tc := ⟨.hbm, 420, rfl⟩
abbrev main_v223 : Ref sig .tc := ⟨.hbm, 421, rfl⟩
abbrev main_c_48 : Ref sig .tc := ⟨.hbm, 422, rfl⟩
abbrev main_v224 : Ref sig .tc := ⟨.hbm, 423, rfl⟩
abbrev main_v225 : Ref sig .tc := ⟨.hbm, 424, rfl⟩
abbrev main_c_49 : Ref sig .tc := ⟨.hbm, 425, rfl⟩
abbrev main_v226 : Ref sig .tc := ⟨.hbm, 426, rfl⟩
abbrev main_v227 : Ref sig .tc := ⟨.hbm, 427, rfl⟩
abbrev main_v228 : Ref sig .tc := ⟨.hbm, 428, rfl⟩
abbrev main_v229 : Ref sig .tc := ⟨.hbm, 429, rfl⟩
abbrev main_v230 : Ref sig .tc := ⟨.hbm, 430, rfl⟩
abbrev main_v231 : Ref sig .tc := ⟨.hbm, 431, rfl⟩
abbrev main_v232 : Ref sig .tc := ⟨.hbm, 432, rfl⟩
abbrev main_v233 : Ref sig .tc := ⟨.hbm, 433, rfl⟩
abbrev main_v234 : Ref sig .tc := ⟨.hbm, 434, rfl⟩
abbrev main_v235 : Ref sig .tc := ⟨.hbm, 435, rfl⟩
abbrev main_v236 : Ref sig .tc := ⟨.hbm, 436, rfl⟩
abbrev main_v237 : Ref sig .tc := ⟨.hbm, 437, rfl⟩
abbrev main_cst_50 : Ref sig .tc := ⟨.hbm, 438, rfl⟩
abbrev main_v238 : Ref sig .tc := ⟨.hbm, 439, rfl⟩
abbrev main_v239 : Ref sig .tc := ⟨.hbm, 440, rfl⟩
abbrev main_cst_51 : Ref sig .tc := ⟨.hbm, 441, rfl⟩
abbrev main_v240 : Ref sig .tc := ⟨.hbm, 442, rfl⟩
abbrev main_v241 : Ref sig .tc := ⟨.hbm, 443, rfl⟩
abbrev main_v242 : Ref sig .tc := ⟨.hbm, 444, rfl⟩
abbrev main_v243 : Ref sig .tc := ⟨.hbm, 445, rfl⟩
abbrev main_v244 : Ref sig .tc := ⟨.hbm, 446, rfl⟩
abbrev main_v245 : Ref sig .tc := ⟨.hbm, 447, rfl⟩
abbrev main_v246 : Ref sig .tc := ⟨.hbm, 448, rfl⟩
abbrev main_v247 : Ref sig .tc := ⟨.hbm, 449, rfl⟩
abbrev main_v248 : Ref sig .tc := ⟨.hbm, 450, rfl⟩
abbrev main_v249 : Ref sig .tc := ⟨.hbm, 451, rfl⟩
abbrev main_cst_52 : Ref sig .tc := ⟨.hbm, 452, rfl⟩
abbrev main_v250 : Ref sig .tc := ⟨.hbm, 453, rfl⟩
abbrev main_v251 : Ref sig .tc := ⟨.hbm, 454, rfl⟩

abbrev nD : Nat := 1
abbrev τ : Topo := Topo.v7x

variable {F : FTy → Type} [FloatOps F]

class Facts₀ : Prop where
  slices_S2x12288_S1x12288_0_0 : S2x12288.Slices ![0, 0] S1x12288
  shapeCasts_S1x12288_S12288 : S1x12288.ShapeCasts S12288
  slices_S2x12288_S1x12288_1_0 : S2x12288.Slices ![1, 0] S1x12288
  bcast_S_S2048 : S_.BroadcastsInDim S2048 (![] : Fin 0 → Fin S2048.rank)
  bcast_S_S12288 : S_.BroadcastsInDim S12288 (![] : Fin 0 → Fin S12288.rank)
  bcast_S12288_S12288x1_0 : S12288.BroadcastsInDim S12288x1 (![0] : Fin 1 → Fin S12288x1.rank)
  bcast_S_S12288x1 : S_.BroadcastsInDim S12288x1 (![] : Fin 0 → Fin S12288x1.rank)
  bcast_S1_S1x1_1 : S1.BroadcastsInDim S1x1 (![1] : Fin 1 → Fin S1x1.rank)
  bcast_S1x1_S12288x1_0_1 : S1x1.BroadcastsInDim S12288x1 (![0, 1] : Fin 2 → Fin S12288x1.rank)
  reducesTo_S12288x1_S12288_d1 : S12288x1.ReducesTo [1] S12288
  h_S_ : 0 < S_.numel
  bcast_S12288_S16x12288x512_1 : S12288.BroadcastsInDim S16x12288x512 (![1] : Fin 1 → Fin S16x12288x512.rank)
  bcast_S_S16x12288x512 : S_.BroadcastsInDim S16x12288x512 (![] : Fin 0 → Fin S16x12288x512.rank)
  bcast_S12288_S1x12288x1_1 : S12288.BroadcastsInDim S1x12288x1 (![1] : Fin 1 → Fin S1x12288x1.rank)
  bcast_S1x12288x1_S16x12288x512_0_1_2 : S1x12288x1.BroadcastsInDim S16x12288x512 (![0, 1, 2] : Fin 3 → Fin S16x12288x512.rank)
  bcast_S_S16x2048x512 : S_.BroadcastsInDim S16x2048x512 (![] : Fin 0 → Fin S16x2048x512.rank)
  bcast_S2048_S1x2048x1_1 : S2048.BroadcastsInDim S1x2048x1 (![1] : Fin 1 → Fin S1x2048x1.rank)
  bcast_S1x2048x1_S16x2048x512_0_1_2 : S1x2048x1.BroadcastsInDim S16x2048x512 (![0, 1, 2] : Fin 3 → Fin S16x2048x512.rank)
  bcast_S512_S1x1x512_2 : S512.BroadcastsInDim S1x1x512 (![2] : Fin 1 → Fin S1x1x512.rank)
  bcast_S1x1x512_S16x2048x512_0_1_2 : S1x1x512.BroadcastsInDim S16x2048x512 (![0, 1, 2] : Fin 3 → Fin S16x2048x512.rank)
  bcast_S12288_S16x12288x256_1 : S12288.BroadcastsInDim S16x12288x256 (![1] : Fin 1 → Fin S16x12288x256.rank)
  bcast_S_S16x12288x256 : S_.BroadcastsInDim S16x12288x256 (![] : Fin 0 → Fin S16x12288x256.rank)
  bcast_S1x12288x1_S16x12288x256_0_1_2 : S1x12288x1.BroadcastsInDim S16x12288x256 (![0, 1, 2] : Fin 3 → Fin S16x12288x256.rank)
  bcast_S_S16x2048x256 : S_.BroadcastsInDim S16x2048x256 (![] : Fin 0 → Fin S16x2048x256.rank)
  bcast_S1x2048x1_S16x2048x256_0_1_2 : S1x2048x1.BroadcastsInDim S16x2048x256 (![0, 1, 2] : Fin 3 → Fin S16x2048x256.rank)
  bcast_S256_S1x1x256_2 : S256.BroadcastsInDim S1x1x256 (![2] : Fin 1 → Fin S1x1x256.rank)
  bcast_S1x1x256_S16x2048x256_0_1_2 : S1x1x256.BroadcastsInDim S16x2048x256 (![0, 1, 2] : Fin 3 → Fin S16x2048x256.rank)
  bcast_S12288_S16x12288x64_1 : S12288.BroadcastsInDim S16x12288x64 (![1] : Fin 1 → Fin S16x12288x64.rank)
  bcast_S_S16x12288x64 : S_.BroadcastsInDim S16x12288x64 (![] : Fin 0 → Fin S16x12288x64.rank)
  bcast_S1x12288x1_S16x12288x64_0_1_2 : S1x12288x1.BroadcastsInDim S16x12288x64 (![0, 1, 2] : Fin 3 → Fin S16x12288x64.rank)
  bcast_S_S16x2048x64 : S_.BroadcastsInDim S16x2048x64 (![] : Fin 0 → Fin S16x2048x64.rank)
  bcast_S1x2048x1_S16x2048x64_0_1_2 : S1x2048x1.BroadcastsInDim S16x2048x64 (![0, 1, 2] : Fin 3 → Fin S16x2048x64.rank)
  bcast_S64_S1x1x64_2 : S64.BroadcastsInDim S1x1x64 (![2] : Fin 1 → Fin S1x1x64.rank)
  bcast_S1x1x64_S16x2048x64_0_1_2 : S1x1x64.BroadcastsInDim S16x2048x64 (![0, 1, 2] : Fin 3 → Fin S16x2048x64.rank)
  bcast_S12288_S16x12288x3_1 : S12288.BroadcastsInDim S16x12288x3 (![1] : Fin 1 → Fin S16x12288x3.rank)
  bcast_S_S16x12288x3 : S_.BroadcastsInDim S16x12288x3 (![] : Fin 0 → Fin S16x12288x3.rank)
  bcast_S1x12288x1_S16x12288x3_0_1_2 : S1x12288x1.BroadcastsInDim S16x12288x3 (![0, 1, 2] : Fin 3 → Fin S16x12288x3.rank)
  bcast_S_S16x2048x3 : S_.BroadcastsInDim S16x2048x3 (![] : Fin 0 → Fin S16x2048x3.rank)
  bcast_S1x2048x1_S16x2048x3_0_1_2 : S1x2048x1.BroadcastsInDim S16x2048x3 (![0, 1, 2] : Fin 3 → Fin S16x2048x3.rank)
  bcast_S3_S1x1x3_2 : S3.BroadcastsInDim S1x1x3 (![2] : Fin 1 → Fin S1x1x3.rank)
  bcast_S1x1x3_S16x2048x3_0_1_2 : S1x1x3.BroadcastsInDim S16x2048x3 (![0, 1, 2] : Fin 3 → Fin S16x2048x3.rank)
  shapeCasts_S16x2048x3_S16x6144 : S16x2048x3.ShapeCasts S16x6144
  bcast_S6144_S1x6144_1 : S6144.BroadcastsInDim S1x6144 (![1] : Fin 1 → Fin S1x6144.rank)
  bcast_S1x6144_S16x6144_0_1 : S1x6144.BroadcastsInDim S16x6144 (![0, 1] : Fin 2 → Fin S16x6144.rank)
  shapeCasts_S16x6144_S16x2048x3 : S16x6144.ShapeCasts S16x2048x3
  scatter_S2048_S12288x1_S12288_n_0_0_1_wf : ScatterDims.WF S2048 S12288x1 S12288 [] [0] [0] 1
  dot_S16x2048x1475_S1475x512_S16x2048x512_2_0_01_1_n_n_wf : DotDims.WF S16x2048x1475 S1475x512 S16x2048x512 [2] [0] [0, 1] [1] [] []
  gather_S2048_S12288x1_S12288_n_0_n_n_0_1_1_wf : GatherDims.WF S2048 S12288x1 S12288 [] [0] [] [0] [] 1 ![1]
  gather_S16x2048x512_S12288x1_S16x12288x512_02_1_n_n_1_1_161512_wf : GatherDims.WF S16x2048x512 S12288x1 S16x12288x512 [0, 2] [1] [] [1] [] 1 ![16, 1, 512]
  scatter_S16x2048x512_S12288x1_S16x12288x512_02_1_1_1_wf : ScatterDims.WF S16x2048x512 S12288x1 S16x12288x512 [0, 2] [1] [1] 1
  dot_S16x2048x512_S512x512_S16x2048x512_2_0_01_1_n_n_wf : DotDims.WF S16x2048x512 S512x512 S16x2048x512 [2] [0] [0, 1] [1] [] []
  dot_S16x2048x512_S512x256_S16x2048x256_2_0_01_1_n_n_wf : DotDims.WF S16x2048x512 S512x256 S16x2048x256 [2] [0] [0, 1] [1] [] []
  gather_S16x2048x256_S12288x1_S16x12288x256_02_1_n_n_1_1_161256_wf : GatherDims.WF S16x2048x256 S12288x1 S16x12288x256 [0, 2] [1] [] [1] [] 1 ![16, 1, 256]
  scatter_S16x2048x256_S12288x1_S16x12288x256_02_1_1_1_wf : ScatterDims.WF S16x2048x256 S12288x1 S16x12288x256 [0, 2] [1] [1] 1
  dot_S16x2048x256_S256x256_S16x2048x256_2_0_01_1_n_n_wf : DotDims.WF S16x2048x256 S256x256 S16x2048x256 [2] [0] [0, 1] [1] [] []
  dot_S16x2048x256_S256x64_S16x2048x64_2_0_01_1_n_n_wf : DotDims.WF S16x2048x256 S256x64 S16x2048x64 [2] [0] [0, 1] [1] [] []
  gather_S16x2048x64_S12288x1_S16x12288x64_02_1_n_n_1_1_16164_wf : GatherDims.WF S16x2048x64 S12288x1 S16x12288x64 [0, 2] [1] [] [1] [] 1 ![16, 1, 64]
  scatter_S16x2048x64_S12288x1_S16x12288x64_02_1_1_1_wf : ScatterDims.WF S16x2048x64 S12288x1 S16x12288x64 [0, 2] [1] [1] 1
  dot_S16x2048x64_S64x3_S16x2048x3_2_0_01_1_n_n_wf : DotDims.WF S16x2048x64 S64x3 S16x2048x3 [2] [0] [0, 1] [1] [] []
  gather_S16x2048x3_S12288x1_S16x12288x3_02_1_n_n_1_1_1613_wf : GatherDims.WF S16x2048x3 S12288x1 S16x12288x3 [0, 2] [1] [] [1] [] 1 ![16, 1, 3]
  scatter_S16x2048x3_S12288x1_S16x12288x3_02_1_1_1_wf : ScatterDims.WF S16x2048x3 S12288x1 S16x12288x3 [0, 2] [1] [1] 1
  dot_S16x6144_S6144x6144_S16x6144_1_0_0_1_n_n_wf : DotDims.WF S16x6144 S6144x6144 S16x6144 [1] [0] [0] [1] [] []

variable [Facts₀]

def scatter_S2048_S12288x1_S12288_n_0_0_1 : ScatterDims S2048 S12288x1 S12288 where
  updateWindowDims := []
  insertedWindowDims := [0]
  scatterDimsToOperandDims := [0]
  indexVectorDim := 1
  wf := scatter_S2048_S12288x1_S12288_n_0_0_1_wf
def dot_S16x2048x1475_S1475x512_S16x2048x512_2_0_01_1_n_n : DotDims S16x2048x1475 S1475x512 S16x2048x512 where
  lhsContracting := [2]
  rhsContracting := [0]
  lhsNonContracting := [0, 1]
  rhsNonContracting := [1]
  lhsBatch := []
  rhsBatch := []
  wf := dot_S16x2048x1475_S1475x512_S16x2048x512_2_0_01_1_n_n_wf
def gather_S2048_S12288x1_S12288_n_0_n_n_0_1_1 : GatherDims S2048 S12288x1 S12288 where
  offsetDims := []
  collapsedSliceDims := [0]
  operandBatchingDims := []
  startIndicesBatchingDims := []
  startIndexMap := [0]
  indexVectorDim := 1
  sliceSizes := ![1]
  wf := gather_S2048_S12288x1_S12288_n_0_n_n_0_1_1_wf
def gather_S16x2048x512_S12288x1_S16x12288x512_02_1_n_n_1_1_161512 : GatherDims S16x2048x512 S12288x1 S16x12288x512 where
  offsetDims := [0, 2]
  collapsedSliceDims := [1]
  operandBatchingDims := []
  startIndicesBatchingDims := []
  startIndexMap := [1]
  indexVectorDim := 1
  sliceSizes := ![16, 1, 512]
  wf := gather_S16x2048x512_S12288x1_S16x12288x512_02_1_n_n_1_1_161512_wf
def scatter_S16x2048x512_S12288x1_S16x12288x512_02_1_1_1 : ScatterDims S16x2048x512 S12288x1 S16x12288x512 where
  updateWindowDims := [0, 2]
  insertedWindowDims := [1]
  scatterDimsToOperandDims := [1]
  indexVectorDim := 1
  wf := scatter_S16x2048x512_S12288x1_S16x12288x512_02_1_1_1_wf
def dot_S16x2048x512_S512x512_S16x2048x512_2_0_01_1_n_n : DotDims S16x2048x512 S512x512 S16x2048x512 where
  lhsContracting := [2]
  rhsContracting := [0]
  lhsNonContracting := [0, 1]
  rhsNonContracting := [1]
  lhsBatch := []
  rhsBatch := []
  wf := dot_S16x2048x512_S512x512_S16x2048x512_2_0_01_1_n_n_wf
def dot_S16x2048x512_S512x256_S16x2048x256_2_0_01_1_n_n : DotDims S16x2048x512 S512x256 S16x2048x256 where
  lhsContracting := [2]
  rhsContracting := [0]
  lhsNonContracting := [0, 1]
  rhsNonContracting := [1]
  lhsBatch := []
  rhsBatch := []
  wf := dot_S16x2048x512_S512x256_S16x2048x256_2_0_01_1_n_n_wf
def gather_S16x2048x256_S12288x1_S16x12288x256_02_1_n_n_1_1_161256 : GatherDims S16x2048x256 S12288x1 S16x12288x256 where
  offsetDims := [0, 2]
  collapsedSliceDims := [1]
  operandBatchingDims := []
  startIndicesBatchingDims := []
  startIndexMap := [1]
  indexVectorDim := 1
  sliceSizes := ![16, 1, 256]
  wf := gather_S16x2048x256_S12288x1_S16x12288x256_02_1_n_n_1_1_161256_wf
def scatter_S16x2048x256_S12288x1_S16x12288x256_02_1_1_1 : ScatterDims S16x2048x256 S12288x1 S16x12288x256 where
  updateWindowDims := [0, 2]
  insertedWindowDims := [1]
  scatterDimsToOperandDims := [1]
  indexVectorDim := 1
  wf := scatter_S16x2048x256_S12288x1_S16x12288x256_02_1_1_1_wf
def dot_S16x2048x256_S256x256_S16x2048x256_2_0_01_1_n_n : DotDims S16x2048x256 S256x256 S16x2048x256 where
  lhsContracting := [2]
  rhsContracting := [0]
  lhsNonContracting := [0, 1]
  rhsNonContracting := [1]
  lhsBatch := []
  rhsBatch := []
  wf := dot_S16x2048x256_S256x256_S16x2048x256_2_0_01_1_n_n_wf
def dot_S16x2048x256_S256x64_S16x2048x64_2_0_01_1_n_n : DotDims S16x2048x256 S256x64 S16x2048x64 where
  lhsContracting := [2]
  rhsContracting := [0]
  lhsNonContracting := [0, 1]
  rhsNonContracting := [1]
  lhsBatch := []
  rhsBatch := []
  wf := dot_S16x2048x256_S256x64_S16x2048x64_2_0_01_1_n_n_wf
def gather_S16x2048x64_S12288x1_S16x12288x64_02_1_n_n_1_1_16164 : GatherDims S16x2048x64 S12288x1 S16x12288x64 where
  offsetDims := [0, 2]
  collapsedSliceDims := [1]
  operandBatchingDims := []
  startIndicesBatchingDims := []
  startIndexMap := [1]
  indexVectorDim := 1
  sliceSizes := ![16, 1, 64]
  wf := gather_S16x2048x64_S12288x1_S16x12288x64_02_1_n_n_1_1_16164_wf
def scatter_S16x2048x64_S12288x1_S16x12288x64_02_1_1_1 : ScatterDims S16x2048x64 S12288x1 S16x12288x64 where
  updateWindowDims := [0, 2]
  insertedWindowDims := [1]
  scatterDimsToOperandDims := [1]
  indexVectorDim := 1
  wf := scatter_S16x2048x64_S12288x1_S16x12288x64_02_1_1_1_wf
def dot_S16x2048x64_S64x3_S16x2048x3_2_0_01_1_n_n : DotDims S16x2048x64 S64x3 S16x2048x3 where
  lhsContracting := [2]
  rhsContracting := [0]
  lhsNonContracting := [0, 1]
  rhsNonContracting := [1]
  lhsBatch := []
  rhsBatch := []
  wf := dot_S16x2048x64_S64x3_S16x2048x3_2_0_01_1_n_n_wf
def gather_S16x2048x3_S12288x1_S16x12288x3_02_1_n_n_1_1_1613 : GatherDims S16x2048x3 S12288x1 S16x12288x3 where
  offsetDims := [0, 2]
  collapsedSliceDims := [1]
  operandBatchingDims := []
  startIndicesBatchingDims := []
  startIndexMap := [1]
  indexVectorDim := 1
  sliceSizes := ![16, 1, 3]
  wf := gather_S16x2048x3_S12288x1_S16x12288x3_02_1_n_n_1_1_1613_wf
def scatter_S16x2048x3_S12288x1_S16x12288x3_02_1_1_1 : ScatterDims S16x2048x3 S12288x1 S16x12288x3 where
  updateWindowDims := [0, 2]
  insertedWindowDims := [1]
  scatterDimsToOperandDims := [1]
  indexVectorDim := 1
  wf := scatter_S16x2048x3_S12288x1_S16x12288x3_02_1_1_1_wf
def dot_S16x6144_S6144x6144_S16x6144_1_0_0_1_n_n : DotDims S16x6144 S6144x6144 S16x6144 where
  lhsContracting := [1]
  rhsContracting := [0]
  lhsNonContracting := [0]
  rhsNonContracting := [1]
  lhsBatch := []
  rhsBatch := []
  wf := dot_S16x6144_S6144x6144_S16x6144_1_0_0_1_n_n_wf

class Facts : Prop extends Facts₀ where

variable [Facts]
-- ==== Proof.K.R0.lean ====
/-
  Region 0 of the program: one feature transform of the graph-convolution stack. On a grid of 16 points, one batch
  row per point, the body multiplies the row's activations (2048 nodes by the input channels) by the whole weight
  matrix (both in half precision, rounded first where they are held wider) into a zero accumulator, and stores the
  product, rounded to half precision, over the whole of the output row's buffer. This file gives the region's blocks,
  what the body leaves in the output buffer as a closed function of the two input blocks, the body's triple, the
  pipeline's proof data over the region-entry contents, and the body obligation at every grid point.
-/
import proofs.«421025_j30305289241172_1_alg».proof.Proof.Gen.Kernel.Launch
import proofs.«421025_j30305289241172_1_alg».proof.Proof.Gen.Kernel.Skeleton
import proofs.«421025_j30305289241172_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds batch row `t` at every point, for any proof data over the entry contents
    whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the whole weight matrix at every point, fetched there or not: its block index
    never moves. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_0 : Rect S1x2048x1475 := Rect.unit (s := S1x2048x1475) ![0, 0, 0] S1x2048x1475.size inb_S1x2048x1475_S1x2048x1475_0_0_0
abbrev r0_1 : Rect S1475x512 := Rect.unit (s := S1475x512) ![0, 0] S1475x512.size inb_S1475x512_S1475x512_0_0
abbrev r0_2 : Rect S1x2048x512 := Rect.unit (s := S1x2048x512) ![0, 0, 0] S1x2048x512.size inb_S1x2048x512_S1x2048x512_0_0_0

/-! ## What the body leaves in the output window's buffer -/

/-- The output's staging buffer after the body: its one store, of the product of the activations' row block by the
    weights, over the whole buffer. -/
def out0_2 (x0 : Vec F S1x2048x1475 .f32) (x1 : Vec F S1475x512 .f32) : Vec F S1x2048x512 .bf16 :=
  View.canon [⟨r0_2, k0_pay1 (View.ld x0 r0_0) (View.ld x1 r0_1)⟩]

/-- The one store covers the buffer. -/
theorem cover0_2 (p0 : Vec F S1x2048x512 .bf16) (y : S1x2048x512.Idx) :
    ∃ pc ∈ ([⟨r0_2, p0⟩] : List (View.Piece (Elt F) S1x2048x512 .bf16)), y ∈ pc.1.set :=
  View.cover_of_tiled [⟨r0_2, p0⟩] S1x2048x512.size (by rfl) y

/-! ## The body's triple -/

set_option maxHeartbeats 1000000 in
/-- The kernel body on whole staging memrefs, the inputs' at read contents `x0`, `x1` and the output's at anything
    (the body reads it once, and discards what it read, before it overwrites all of it), runs to the continuation
    holding the inputs' as they were and the output's at `out0_2` of the inputs'. -/
theorem sound_kernel0 (c : Dev nD) (E : Set ℕ) (i : grid0.Coords) (arg1 : Memref sig .tc .vmem S1x2048x1475 .f32) (harg1 : arg1.IsWhole) (arg2 : Memref sig .tc .vmem S1475x512 .f32) (harg2 : arg2.IsWhole) (arg3 : Memref sig .tc .vmem S1x2048x512 .bf16) (harg3 : arg3.IsWhole)
    (x0 : Vec F S1x2048x1475 .f32) (x1 : Vec F S1475x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__feat_kernel i arg1 harg1 arg2 harg2 arg3 harg3) K := by
  simp only [cc0__feat_kernel_eq_skeleton]; unfold cc0__feat_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of this pipeline on core `c`: the arrays as the region finds them; after the body at point `t` each
    input's buffer at its block and the output's at `out0_2` of the input blocks; the invariant the scoped rest and the
    generator register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.K.R1.lean ====
/-
  Aggregation layer, pipeline 1: one grid point per batch row. At a point the body reads the row's transformed
  features h1 (window 0), the whole normalised adjacency A (window 1), the bias row (window 2) and the inverse-degree
  column (window 3), and stores into the output block (window 4) the single value
  A · h1 + h1 ∘ invdeg + bias, over the whole block. This file states what each window's staging buffer holds
  around the body at a generic point, runs the body once against those contents, and packages the result as the
  pipeline's proof data and body obligation, all relative to the buffer contents V found when the region is entered.
-/
import proofs.«421025_j30305289241172_1_alg».proof.Proof.Gen.Kernel.Launch
import proofs.«421025_j30305289241172_1_alg».proof.Proof.Gen.Kernel.Skeleton
import proofs.«421025_j30305289241172_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region1
variable (V : (c : Dev nD) → (b : Ref sig .tc) → Buf (Elt F) ((c : Thread nD τ).loc b))

/-! ## The blocks the windows see -/

/-- Window `w`'s block at grid point `t`: the entries of the array found at entry that the window's index map
    selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window is never cut and never idle, and the body leaves its buffer alone; so whether or not a fetch
    happened at point `t`, the current staging buffer of window 0 holds the block of point `t` (an unfetched
    point has the same block index as the point before it). -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window is never cut and never idle, and the body leaves its buffer alone; so whether or not a fetch
    happened at point `t`, the current staging buffer of window 1 holds the block of point `t` (an unfetched
    point has the same block index as the point before it). -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window is never cut and never idle, and the body leaves its buffer alone; so whether or not a fetch
    happened at point `t`, the current staging buffer of window 2 holds the block of point `t` (an unfetched
    point has the same block index as the point before it). -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window is never cut and never idle, and the body leaves its buffer alone; so whether or not a fetch
    happened at point `t`, the current staging buffer of window 3 holds the block of point `t` (an unfetched
    point has the same block index as the point before it). -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole buffer -/

abbrev r1_h : Rect S1x2048x512 := Rect.unit (s := S1x2048x512) ![0, 0, 0] S1x2048x512.size inb_S1x2048x512_S1x2048x512_0_0_0
abbrev r1_a : Rect S2048x2048 := Rect.unit (s := S2048x2048) ![0, 0] S2048x2048.size inb_S2048x2048_S2048x2048_0_0
abbrev r1_b : Rect S1x512 := Rect.unit (s := S1x512) ![0, 0] S1x512.size inb_S1x512_S1x512_0_0
abbrev r1_d : Rect S2048x1 := Rect.unit (s := S2048x1) ![0, 0] S2048x1.size inb_S2048x1_S2048x1_0_0

/-! ## What the body leaves in the output buffer -/

/-- The output buffer after the body, as a function of the four input blocks: the one stored value, laid over the
    whole block. The stored value takes its arguments in the order the body reads them: features, adjacency,
    inverse degrees, bias. -/
def out1_4 (x0 : Vec F S1x2048x512 .bf16) (x1 : Vec F S2048x2048 .bf16) (x2 : Vec F S1x512 .f32) (x3 : Vec F S2048x1 .f32) : Vec F S1x2048x512 .bf16 :=
  View.canon [⟨r1_h, k1_pay1 (View.ld x0 r1_h) (View.ld x1 r1_a) (View.ld x3 r1_d) (View.ld x2 r1_b)⟩]

/-- The single store's box is the whole output block, so every index of the block lies in it. -/
theorem cover1_4 (p0 : Vec F S1x2048x512 .bf16) (y : S1x2048x512.Idx) :
    ∃ pc ∈ ([⟨r1_h, p0⟩] : List (View.Piece (Elt F) S1x2048x512 .bf16)), y ∈ pc.1.set :=
  View.cover_of_tiled [⟨r1_h, p0⟩] S1x2048x512.size (by rfl) y

/-! ## The body's triple -/

set_option maxHeartbeats 1000000 in
/-- Run on five whole staging buffers — the four inputs holding `x0 … x3`, the output holding anything — the body
    ends with the inputs as they were and the output at `out1_4 x0 x1 x2 x3`. The body reads the output buffer once
    before storing (the value read is not used), which any held contents permit. -/
theorem sound_kernel1 (c : Dev nD) (E : Set ℕ) (i : grid1.Coords)
    (arg1 : Memref sig .tc .vmem S1x2048x512 .bf16) (harg1 : arg1.IsWhole) (arg2 : Memref sig .tc .vmem S2048x2048 .bf16) (harg2 : arg2.IsWhole)
    (arg3 : Memref sig .tc .vmem S1x512 .f32) (harg3 : arg3.IsWhole) (arg4 : Memref sig .tc .vmem S2048x1 .f32) (harg4 : arg4.IsWhole)
    (arg5 : Memref sig .tc .vmem S1x2048x512 .bf16) (harg5 : arg5.IsWhole)
    (x0 : Vec F S1x2048x512 .bf16) (x1 : Vec F S2048x2048 .bf16) (x2 : Vec F S1x512 .f32) (x3 : Vec F S2048x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__agg_kernel i arg1 harg1 arg2 harg2 arg3 harg3 arg4 harg4 arg5 harg5) K := by
  simp only [cc1__agg_kernel_eq_skeleton]; unfold cc1__agg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core `c`: the arrays are those found at entry; after the body at point `t` each
    input's buffer still holds its block and the output's holds `out1_4` of the four blocks; the invariant is the
    untouched remainder of the core's state; nothing is owed and every share is whole. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the contents found at entry. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation at a generic point -/

/-- What the body is entered with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.R2.lean ====
/-
  Region 2 of the program: one feature transform of the graph-convolution stack. On a grid of 16 points, one batch
  row per point, the body multiplies the row's activations (2048 nodes by the input channels) by the whole weight
  matrix (both in half precision, rounded first where they are held wider) into a zero accumulator, and stores the
  product, rounded to half precision, over the whole of the output row's buffer. This file gives the region's blocks,
  what the body leaves in the output buffer as a closed function of the two input blocks, the body's triple, the
  pipeline's proof data over the region-entry contents, and the body obligation at every grid point.
-/
import proofs.«421025_j30305289241172_1_alg».proof.Proof.Gen.Kernel.Launch
import proofs.«421025_j30305289241172_1_alg».proof.Proof.Gen.Kernel.Skeleton
import proofs.«421025_j30305289241172_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activations' staging buffer holds batch row `t` at every point, for any proof data over the entry contents
    whose body leaves the block in place. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weights' staging buffer holds the whole weight matrix at every point, fetched there or not: its block index
    never moves. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole of its buffer -/

abbrev r2_0 : Rect S1x2048x512 := Rect.unit (s := S1x2048x512) ![0, 0, 0] S1x2048x512.size inb_S1x2048x512_S1x2048x512_0_0_0
abbrev r2_1 : Rect S512x512 := Rect.unit (s := S512x512) ![0, 0] S512x512.size inb_S512x512_S512x512_0_0
abbrev r2_2 : Rect S1x2048x512 := Rect.unit (s := S1x2048x512) ![0, 0, 0] S1x2048x512.size inb_S1x2048x512_S1x2048x512_0_0_0

/-! ## What the body leaves in the output window's buffer -/

/-- The output's staging buffer after the body: its one store, of the product of the activations' row block by the
    weights, over the whole buffer. -/
def out2_2 (x0 : Vec F S1x2048x512 .bf16) (x1 : Vec F S512x512 .f32) : Vec F S1x2048x512 .bf16 :=
  View.canon [⟨r2_2, k2_pay1 (View.ld x0 r2_0) (View.ld x1 r2_1)⟩]

/-- The one store covers the buffer. -/
theorem cover2_2 (p0 : Vec F S1x2048x512 .bf16) (y : S1x2048x512.Idx) :
    ∃ pc ∈ ([⟨r2_2, p0⟩] : List (View.Piece (Elt F) S1x2048x512 .bf16)), y ∈ pc.1.set :=
  View.cover_of_tiled [⟨r2_2, p0⟩] S1x2048x512.size (by rfl) y

/-! ## The body's triple -/

set_option maxHeartbeats 1000000 in
/-- The kernel body on whole staging memrefs, the inputs' at read contents `x0`, `x1` and the output's at anything
    (the body reads it once, and discards what it read, before it overwrites all of it), runs to the continuation
    holding the inputs' as they were and the output's at `out2_2` of the inputs'. -/
theorem sound_kernel2 (c : Dev nD) (E : Set ℕ) (i : grid2.Coords) (arg1 : Memref sig .tc .vmem S1x2048x512 .bf16) (harg1 : arg1.IsWhole) (arg2 : Memref sig .tc .vmem S512x512 .f32) (harg2 : arg2.IsWhole) (arg3 : Memref sig .tc .vmem S1x2048x512 .bf16) (harg3 : arg3.IsWhole)
    (x0 : Vec F S1x2048x512 .bf16) (x1 : Vec F S512x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__feat_kernel i arg1 harg1 arg2 harg2 arg3 harg3) K := by
  simp only [cc2__feat_kernel_eq_skeleton]; unfold cc2__feat_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of this pipeline on core `c`: the arrays as the region finds them; after the body at point `t` each
    input's buffer at its block and the output's at `out2_2` of the input blocks; the invariant the scoped rest and the
    generator register, untouched; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end

end Cert.Kernel.Hand

end
-- ==== Proof.K.R3.lean ====
/-
  Aggregation layer, pipeline 3: one grid point per batch row. At a point the body reads the row's transformed
  features h1 (window 0), the whole normalised adjacency A (window 1), the bias row (window 2) and the inverse-degree
  column (window 3), and stores into the output block (window 4) the single value
  leaky (A · h1 + h1 ∘ invdeg + bias), the rectifier taken entrywise, over the whole block. This file states what each window's staging buffer holds
  around the body at a generic point, runs the body once against those contents, and packages the result as the
  pipeline's proof data and body obligation, all relative to the buffer contents V found when the region is entered.
-/
import proofs.«421025_j30305289241172_1_alg».proof.Proof.Gen.Kernel.Launch
import proofs.«421025_j30305289241172_1_alg».proof.Proof.Gen.Kernel.Skeleton
import proofs.«421025_j30305289241172_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region3
variable (V : (c : Dev nD) → (b : Ref sig .tc) → Buf (Elt F) ((c : Thread nD τ).loc b))

/-! ## The blocks the windows see -/

/-- Window `w`'s block at grid point `t`: the entries of the array found at entry that the window's index map
    selects there. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window is never cut and never idle, and the body leaves its buffer alone; so whether or not a fetch
    happened at point `t`, the current staging buffer of window 0 holds the block of point `t` (an unfetched
    point has the same block index as the point before it). -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An input window is never cut and never idle, and the body leaves its buffer alone; so whether or not a fetch
    happened at point `t`, the current staging buffer of window 1 holds the block of point `t` (an unfetched
    point has the same block index as the point before it). -/
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- An input window is never cut and never idle, and the body leaves its buffer alone; so whether or not a fetch
    happened at point `t`, the current staging buffer of window 2 holds the block of point `t` (an unfetched
    point has the same block index as the point before it). -/
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- An input window is never cut and never idle, and the body leaves its buffer alone; so whether or not a fetch
    happened at point `t`, the current staging buffer of window 3 holds the block of point `t` (an unfetched
    point has the same block index as the point before it). -/
theorem before3_3_of {c : Dev nD} (dat : Dat τ (Elt F) Unit ℕ (Pipeline.UD sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store take a whole buffer -/

abbrev r3_h : Rect S1x2048x512 := Rect.unit (s := S1x2048x512) ![0, 0, 0] S1x2048x512.size inb_S1x2048x512_S1x2048x512_0_0_0
abbrev r3_a : Rect S2048x2048 := Rect.unit (s := S2048x2048) ![0, 0] S2048x2048.size inb_S2048x2048_S2048x2048_0_0
abbrev r3_b : Rect S1x512 := Rect.unit (s := S1x512) ![0, 0] S1x512.size inb_S1x512_S1x512_0_0
abbrev r3_d : Rect S2048x1 := Rect.unit (s := S2048x1) ![0, 0] S2048x1.size inb_S2048x1_S2048x1_0_0

/-! ## What the body leaves in the output buffer -/

/-- The output buffer after the body, as a function of the four input blocks: the one stored value, laid over the
    whole block. The stored value takes its arguments in the order the body reads them: features, adjacency,
    inverse degrees, bias. -/
def out3_4 (x0 : Vec F S1x2048x512 .bf16) (x1 : Vec F S2048x2048 .bf16) (x2 : Vec F S1x512 .f32) (x3 : Vec F S2048x1 .f32) : Vec F S1x2048x512 .bf16 :=
  View.canon [⟨r3_h, k3_pay1 (View.ld x0 r3_h) (View.ld x1 r3_a) (View.ld x3 r3_d) (View.ld x2 r3_b)⟩]

/-- The single store's box is the whole output block, so every index of the block lies in it. -/
theorem cover3_4 (p0 : Vec F S1x2048x512 .bf16) (y : S1x2048x512.Idx) :
    ∃ pc ∈ ([⟨r3_h, p0⟩] : List (View.Piece (Elt F) S1x2048x512 .bf16)), y ∈ pc.1.set :=
  View.cover_of_tiled [⟨r3_h, p0⟩] S1x2048x512.size (by rfl) y

/-! ## The body's triple -/

set_option maxHeartbeats 1000000 in
/-- Run on five whole staging buffers — the four inputs holding `x0 … x3`, the output holding anything — the body
    ends with the inputs as they were and the output at `out3_4 x0 x1 x2 x3`. The body reads the output buffer once
    before storing (the value read is not used), which any held contents permit. -/
theorem sound_kernel3 (c : Dev nD) (E : Set ℕ) (i : grid3.Coords)
    (arg1 : Memref sig .tc .vmem S1x2048x512 .bf16) (harg1 : arg1.IsWhole) (arg2 : Memref sig .tc .vmem S2048x2048 .bf16) (harg2 : arg2.IsWhole)
    (arg3 : Memref sig .tc .vmem S1x512 .f32) (harg3 : arg3.IsWhole) (arg4 : Memref sig .tc .vmem S2048x1 .f32) (harg4 : arg4.IsWhole)
    (arg5 : Memref sig .tc .vmem S1x2048x512 .bf16) (harg5 : arg5.IsWhole)
    (x0 : Vec F S1x2048x512 .bf16) (x1 : Vec F S2048x2048 .bf16) (x2 : Vec F S1x512 .f32) (x3 : Vec F S2048x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__agg_kernel i arg1 harg1 arg2 harg2 arg3 harg3 arg4 harg4 arg5 harg5) K := by
  simp only [cc3__agg_kernel_eq_skeleton]; unfold cc3__agg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's proof data -/

/-- The proof data of pipeline 3 on core `c`: the arrays are those found at entry; after the body at point `t` each
    input's buffer still holds its block and the output's holds `out3_4` of the four blocks; the invariant is the
    untouched remainder of the core's state; nothing is owed and every share is whole. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

/-- The proof data's arrays are the contents found at entry. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation at a generic point -/

/-- What the body is entered with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' buffers hold their blocks, so the body's triple applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.Kernel.Hand

end
-- ==== Proof.K.R4.lean ====
/-
  Region 4 of the program: one feature transform of the graph-convolution stack. On a grid of 16 points, one batch
  row per point, the body multiplies the row's activations (2048 nodes by the input channels) by the whole weight
  matrix (both in half precision, rounded first where they are held wider) into a zero accumulator, and stores the
  product, rounded to half precision, over the whole of the output row's buffer. This file gives the region's blocks,
  what the body leaves in the output buffer as a closed function of the two input blocks, the body's triple, the
  pipeline's proof data over the region-entry contents, and the body obligation at every grid point.
-/
import proofs.«421025_j30305289241172_1_alg».proof.Proof.Gen.Kernel.Launch
import proofs.«421025_j30305289241172_1_alg».proof.Proof.Gen.Kernel.Skeleton
import proofs.«421025_j30305289241172_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The activations' staging buffer holds batch row `t` at every point, for any proof data over the entry contents
    whose body leaves the block in place. -/
theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The weights' staging buffer holds the whole weight matrix at every point, fetched there or not: its block index
    never moves. -/
theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each is the whole of its buffer -/

abbrev r4_0 : Rect S1x2048x512 := Rect.unit (s := S1x2048x512) ![0, 0, 0] S1x2048x512.size inb_S1x2048x512_S1x2048x512_0_0_0
abbrev r4_1 : Rect S512x256 := Rect.unit (s := S512x256) ![0, 0] S512x256.size inb_S512x256_S512x256_0_0
abbrev r4_2 : Rect S1x2048x256 := Rect.unit (s := S1x2048x256) ![0, 0, 0] S1x2048x256.size inb_S1x2048x256_S1x2048x256_0_0_0

/-! ## What the body leaves in the output window's buffer -/

/-- The output's staging buffer after the body: its one store, of the product of the activations' row block by the
    weights, over the whole buffer. -/
def out4_2 (x0 : Vec F S1x2048x512 .bf16) (x1 : Vec F S512x256 .f32) : Vec F S1x2048x256 .bf16 :=
  View.canon [⟨r4_2, k4_pay1 (View.ld x0 r4_0) (View.ld x1 r4_1)⟩]

/-- The one store covers the buffer. -/
theorem cover4_2 (p0 : Vec F S1x2048x256 .bf16) (y : S1x2048x256.Idx) :
    ∃ pc ∈ ([⟨r4_2, p0⟩] : List (View.Piece (Elt F) S1x2048x256 .bf16)), y ∈ pc.1.set :=
  View.cover_of_tiled [⟨r4_2, p0⟩] S1x2048x256.size (by rfl) y

/-! ## The body's triple -/

set_option maxHeartbeats 1000000 in
/-- The kernel body on whole staging memrefs, the inputs' at read contents `x0`, `x1` and the output's at anything
    (the body reads it once, and discards what it read, before it overwrites all of it), runs to the continuation
    holding the inputs' as they were and the output's at `out4_2` of the inputs'. -/
theorem sound_kernel4 (c : Dev nD) (E : Set ℕ) (i : grid4.Coords) (arg1 : Memref sig .tc .vmem S1x2048x512 .bf16) (harg1 : arg1.IsWhole) (arg2 : Memref sig .tc .vmem S512x256 .f32) (harg2 : arg2.IsWhole) (arg3 : Memref sig .tc .vmem S1x2048x256 .bf16) (harg3 : arg3.IsWhole)
    (x0 : Vec F S1x2048x512 .bf16) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__feat_kernel i arg1 harg1 arg2 harg2 arg3 harg3) K := by
  simp only [cc4__feat_kernel_eq_skeleton]; unfold cc4__feat_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of this pipeline on core `c`: the arrays as the region finds them; after the body at point `t` each
    input's buffer at its block and the output's at `out4_2` of the input blocks; the invariant the scoped rest and the
    generator register, untouched; nothing owed; full shares. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so the body's triple applies; the invariant and
    the core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ (grid4.coords t) _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end

end Cert.Kernel.Hand

end
-- ==== Proof.K.R5.lean ====
/-
  Aggregation layer, pipeline 5: one grid point per batch row. At a point the body reads the row's transformed
  features h1 (window 0), the whole normalised adjacency A (window 1), the bias row (window 2) and the inverse-degree
  column (window 3), and stores into the output block (window 4) the single value
  A · h1 + h1 ∘ invdeg + bias, over the whole block. This file states what each window's staging buffer holds
  around the body at a generic point, runs the body once against those contents, and packages the result as the
  pipeline's proof data and body obligation, all relative to the buffer contents V found when the region is entered.
-/
import proofs.«421025_j30305289241172_1_alg».proof.Proof.Gen.Kernel.Launch
import proofs.«421025_j30305289241172_1_alg».proof.Proof.Gen.Kernel.Skeleton
import proofs.«421025_j30305289241172_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region5
variable (V : (c : Dev nD) → (b : Ref sig .tc) → Buf (Elt F) ((c : Thread nD τ).loc b))

/-! ## The blocks the windows see -/

/-- Window `w`'s block at grid point `t`: the entries of the array found at entry that the window's index map
    selects there. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window is never cut and never idle, and the body leaves its buffer alone; so whether or not a fetch
    happened at point `t`, the current staging buffer of window 0 holds the block of point `t` (an unfetched
    point has the same block index as the point before it). -/
theorem before5_0_of {c : Dev nD} (dat : Dat τ (Elt F) Unit ℕ (Pipeline.UD sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- An input window is never cut and never idle, and the body leaves its buffer alone; so whether or not a fetch
    happened at point `t`, the current staging buffer of window 1 holds the block of point `t` (an unfetched
    point has the same block index as the point before it). -/
theorem before5_1_of {c : Dev nD} (dat : Dat τ (Elt F) Unit ℕ (Pipeline.UD sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- An input window is never cut and never idle, and the body leaves its buffer alone; so whether or not a fetch
    happened at point `t`, the current staging buffer of window 2 holds the block of point `t` (an unfetched
    point has the same block index as the point before it). -/
theorem before5_2_of {c : Dev nD} (dat : Dat τ (Elt F) Unit ℕ (Pipeline.UD sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- An input window is never cut and never idle, and the body leaves its buffer alone; so whether or not a fetch
    happened at point `t`, the current staging buffer of window 3 holds the block of point `t` (an unfetched
    point has the same block index as the point before it). -/
theorem before5_3_of {c : Dev nD} (dat : Dat τ (Elt F) Unit ℕ (Pipeline.UD sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and the one store take a whole buffer -/

abbrev r5_h : Rect S1x2048x256 := Rect.unit (s := S1x2048x256) ![0, 0, 0] S1x2048x256.size inb_S1x2048x256_S1x2048x256_0_0_0
abbrev r5_a : Rect S2048x2048 := Rect.unit (s := S2048x2048) ![0, 0] S2048x2048.size inb_S2048x2048_S2048x2048_0_0
abbrev r5_b : Rect S1x256 := Rect.unit (s := S1x256) ![0, 0] S1x256.size inb_S1x256_S1x256_0_0
abbrev r5_d : Rect S2048x1 := Rect.unit (s := S2048x1) ![0, 0] S2048x1.size inb_S2048x1_S2048x1_0_0

/-! ## What the body leaves in the output buffer -/

/-- The output buffer after the body, as a function of the four input blocks: the one stored value, laid over the
    whole block. The stored value takes its arguments in the order the body reads them: features, adjacency,
    inverse degrees, bias. -/
def out5_4 (x0 : Vec F S1x2048x256 .bf16) (x1 : Vec F S2048x2048 .bf16) (x2 : Vec F S1x256 .f32) (x3 : Vec F S2048x1 .f32) : Vec F S1x2048x256 .bf16 :=
  View.canon [⟨r5_h, k5_pay1 (View.ld x0 r5_h) (View.ld x1 r5_a) (View.ld x3 r5_d) (View.ld x2 r5_b)⟩]

/-- The single store's box is the whole output block, so every index of the block lies in it. -/
theorem cover5_4 (p0 : Vec F S1x2048x256 .bf16) (y : S1x2048x256.Idx) :
    ∃ pc ∈ ([⟨r5_h, p0⟩] : List (View.Piece (Elt F) S1x2048x256 .bf16)), y ∈ pc.1.set :=
  View.cover_of_tiled [⟨r5_h, p0⟩] S1x2048x256.size (by rfl) y

/-! ## The body's triple -/

set_option maxHeartbeats 1000000 in
/-- Run on five whole staging buffers — the four inputs holding `x0 … x3`, the output holding anything — the body
    ends with the inputs as they were and the output at `out5_4 x0 x1 x2 x3`. The body reads the output buffer once
    before storing (the value read is not used), which any held contents permit. -/
theorem sound_kernel5 (c : Dev nD) (E : Set ℕ) (i : grid5.Coords)
    (arg1 : Memref sig .tc .vmem S1x2048x256 .bf16) (harg1 : arg1.IsWhole) (arg2 : Memref sig .tc .vmem S2048x2048 .bf16) (harg2 : arg2.IsWhole)
    (arg3 : Memref sig .tc .vmem S1x256 .f32) (harg3 : arg3.IsWhole) (arg4 : Memref sig .tc .vmem S2048x1 .f32) (harg4 : arg4.IsWhole)
    (arg5 : Memref sig .tc .vmem S1x2048x256 .bf16) (harg5 : arg5.IsWhole)
    (x0 : Vec F S1x2048x256 .bf16) (x1 : Vec F S2048x2048 .bf16) (x2 : Vec F S1x256 .f32) (x3 : Vec F S2048x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out5_4 x0 x1 x2 x3)) -∗ K ⟨⟩))
      ⊢ wp frame (wpE (defs₀ (F := F)) Variants.none c none) E (cc5__agg_kernel i arg1 harg1 arg2 harg2 arg3 harg3 arg4 harg4 arg5 harg5) K := by
  simp only [cc5__agg_kernel_eq_skeleton]; unfold cc5__agg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-! ## The pipeline's proof data -/

/-- The proof data of pipeline 5 on core `c`: the arrays are those found at entry; after the body at point `t` each
    input's buffer still holds its block and the output's holds `out5_4` of the four blocks; the invariant is the
    untouched remainder of the core's state; nothing is owed and every share is whole. -/
def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

/-- The proof data's arrays are the contents found at entry. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) :
    (dat5 V c).after 4 t = out5_4 (iblk5 V c 0 t) (iblk5 V c 1 t) (iblk5 V c 2 t) (iblk5 V c 3 t) := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation at a generic point -/

/-- What the body is entered with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' buffers hold their blocks, so the body's triple applies; the invariant and
    what the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ (grid5.coords t) _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation5 (c : Dev nD) : BodyObligation (dat5 (F := F) V c) (defs₀ (F := F)) Variants.none () Set.univ := fun t => by
  rw [bigSep_W5, bigSep_W5]
  exact sound_body5 V c t

end Region5

end Cert.Kernel.Hand

end
-- ==== Proof.K.R6.lean ====
/-
  Region 6 of the program: one feature transform of the graph-convolution stack. On a grid of 16 points, one batch
  row per point, the body multiplies the row's activations (2048 nodes by the input channels) by the whole weight
  matrix (both in half precision, rounded first where they are held wider) into a zero accumulator, and stores the
  product, rounded to half precision, over the whole of the output row's buffer. This file gives the region's blocks,
  what the body leaves in the output buffer as a closed function of the two input blocks, the body's triple, the
  pipeline's proof data over the region-entry contents, and the body obligation at every grid point.
-/
import proofs.«421025_j30305289241172_1_alg».proof.Proof.Gen.Kernel.Launch
import proofs.«421025_j30305289241172_1_alg».proof.Proof.Gen.Kernel.Skeleton
import proofs.«421025_j30305289241172_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The activations' staging buffer holds batch row `t` at every point, for any proof data over the entry contents
    whose body leaves the block in place. -/
theorem before6_0_of {c : Dev nD} (dat : Dat τ (Elt F) Unit ℕ (Pipeline.UD sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The weights' staging buffer holds the whole weight matrix at every point, fetched there or not: its block index
    never moves. -/
theorem before6_1_of {c : Dev nD} (dat : Dat τ (Elt F) Unit ℕ (Pipeline.UD sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each is the whole of its buffer -/

abbrev r6_0 : Rect S1x2048x256 := Rect.unit (s := S1x2048x256) ![0, 0, 0] S1x2048x256.size inb_S1x2048x256_S1x2048x256_0_0_0
abbrev r6_1 : Rect S256x256 := Rect.unit (s := S256x256) ![0, 0] S256x256.size inb_S256x256_S256x256_0_0
abbrev r6_2 : Rect S1x2048x256 := Rect.unit (s := S1x2048x256) ![0, 0, 0] S1x2048x256.size inb_S1x2048x256_S1x2048x256_0_0_0

/-! ## What the body leaves in the output window's buffer -/

/-- The output's staging buffer after the body: its one store, of the product of the activations' row block by the
    weights, over the whole buffer. -/
def out6_2 (x0 : Vec F S1x2048x256 .bf16) (x1 : Vec F S256x256 .f32) : Vec F S1x2048x256 .bf16 :=
  View.canon [⟨r6_2, k6_pay1 (View.ld x0 r6_0) (View.ld x1 r6_1)⟩]

/-- The one store covers the buffer. -/
theorem cover6_2 (p0 : Vec F S1x2048x256 .bf16) (y : S1x2048x256.Idx) :
    ∃ pc ∈ ([⟨r6_2, p0⟩] : List (View.Piece (Elt F) S1x2048x256 .bf16)), y ∈ pc.1.set :=
  View.cover_of_tiled [⟨r6_2, p0⟩] S1x2048x256.size (by rfl) y

/-! ## The body's triple -/

set_option maxHeartbeats 1000000 in
/-- The kernel body on whole staging memrefs, the inputs' at read contents `x0`, `x1` and the output's at anything
    (the body reads it once, and discards what it read, before it overwrites all of it), runs to the continuation
    holding the inputs' as they were and the output's at `out6_2` of the inputs'. -/
theorem sound_kernel6 (c : Dev nD) (E : Set ℕ) (i : grid6.Coords) (arg1 : Memref sig .tc .vmem S1x2048x256 .bf16) (harg1 : arg1.IsWhole) (arg2 : Memref sig .tc .vmem S256x256 .f32) (harg2 : arg2.IsWhole) (arg3 : Memref sig .tc .vmem S1x2048x256 .bf16) (harg3 : arg3.IsWhole)
    (x0 : Vec F S1x2048x256 .bf16) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__feat_kernel i arg1 harg1 arg2 harg2 arg3 harg3) K := by
  simp only [cc6__feat_kernel_eq_skeleton]; unfold cc6__feat_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of this pipeline on core `c`: the arrays as the region finds them; after the body at point `t` each
    input's buffer at its block and the output's at `out6_2` of the input blocks; the invariant the scoped rest and the
    generator register, untouched; nothing owed; full shares. -/
def dat6 (c : Dev nD) : Dat τ (Elt F) Unit ℕ (Pipeline.UD sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- Each input's current staging buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks, so the body's triple applies; the invariant and
    the core's debts pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ (grid6.coords t) _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

end

end Cert.Kernel.Hand

end
-- ==== Proof.K.R7.lean ====
/-
  Aggregation layer, pipeline 7: one grid point per batch row. At a point the body reads the row's transformed
  features h1 (window 0), the whole normalised adjacency A (window 1), the bias row (window 2) and the inverse-degree
  column (window 3), and stores into the output block (window 4) the single value
  leaky (A · h1 + h1 ∘ invdeg + bias), the rectifier taken entrywise, over the whole block. This file states what each window's staging buffer holds
  around the body at a generic point, runs the body once against those contents, and packages the result as the
  pipeline's proof data and body obligation, all relative to the buffer contents V found when the region is entered.
-/
import proofs.«421025_j30305289241172_1_alg».proof.Proof.Gen.Kernel.Launch
import proofs.«421025_j30305289241172_1_alg».proof.Proof.Gen.Kernel.Skeleton
import proofs.«421025_j30305289241172_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region7
variable (V : (c : Dev nD) → (b : Ref sig .tc) → Buf (Elt F) ((c : Thread nD τ).loc b))

/-! ## The blocks the windows see -/

/-- Window `w`'s block at grid point `t`: the entries of the array found at entry that the window's index map
    selects there. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window is never cut and never idle, and the body leaves its buffer alone; so whether or not a fetch
    happened at point `t`, the current staging buffer of window 0 holds the block of point `t` (an unfetched
    point has the same block index as the point before it). -/
theorem before7_0_of {c : Dev nD} (dat : Dat τ (Elt F) Unit ℕ (Pipeline.UD sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- An input window is never cut and never idle, and the body leaves its buffer alone; so whether or not a fetch
    happened at point `t`, the current staging buffer of window 1 holds the block of point `t` (an unfetched
    point has the same block index as the point before it). -/
theorem before7_1_of {c : Dev nD} (dat : Dat τ (Elt F) Unit ℕ (Pipeline.UD sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- An input window is never cut and never idle, and the body leaves its buffer alone; so whether or not a fetch
    happened at point `t`, the current staging buffer of window 2 holds the block of point `t` (an unfetched
    point has the same block index as the point before it). -/
theorem before7_2_of {c : Dev nD} (dat : Dat τ (Elt F) Unit ℕ (Pipeline.UD sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- An input window is never cut and never idle, and the body leaves its buffer alone; so whether or not a fetch
    happened at point `t`, the current staging buffer of window 3 holds the block of point `t` (an unfetched
    point has the same block index as the point before it). -/
theorem before7_3_of {c : Dev nD} (dat : Dat τ (Elt F) Unit ℕ (Pipeline.UD sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: every load and the one store take a whole buffer -/

abbrev r7_h : Rect S1x2048x256 := Rect.unit (s := S1x2048x256) ![0, 0, 0] S1x2048x256.size inb_S1x2048x256_S1x2048x256_0_0_0
abbrev r7_a : Rect S2048x2048 := Rect.unit (s := S2048x2048) ![0, 0] S2048x2048.size inb_S2048x2048_S2048x2048_0_0
abbrev r7_b : Rect S1x256 := Rect.unit (s := S1x256) ![0, 0] S1x256.size inb_S1x256_S1x256_0_0
abbrev r7_d : Rect S2048x1 := Rect.unit (s := S2048x1) ![0, 0] S2048x1.size inb_S2048x1_S2048x1_0_0

/-! ## What the body leaves in the output buffer -/

/-- The output buffer after the body, as a function of the four input blocks: the one stored value, laid over the
    whole block. The stored value takes its arguments in the order the body reads them: features, adjacency,
    inverse degrees, bias. -/
def out7_4 (x0 : Vec F S1x2048x256 .bf16) (x1 : Vec F S2048x2048 .bf16) (x2 : Vec F S1x256 .f32) (x3 : Vec F S2048x1 .f32) : Vec F S1x2048x256 .bf16 :=
  View.canon [⟨r7_h, k7_pay1 (View.ld x0 r7_h) (View.ld x1 r7_a) (View.ld x3 r7_d) (View.ld x2 r7_b)⟩]

/-- The single store's box is the whole output block, so every index of the block lies in it. -/
theorem cover7_4 (p0 : Vec F S1x2048x256 .bf16) (y : S1x2048x256.Idx) :
    ∃ pc ∈ ([⟨r7_h, p0⟩] : List (View.Piece (Elt F) S1x2048x256 .bf16)), y ∈ pc.1.set :=
  View.cover_of_tiled [⟨r7_h, p0⟩] S1x2048x256.size (by rfl) y

/-! ## The body's triple -/

set_option maxHeartbeats 1000000 in
/-- Run on five whole staging buffers — the four inputs holding `x0 … x3`, the output holding anything — the body
    ends with the inputs as they were and the output at `out7_4 x0 x1 x2 x3`. The body reads the output buffer once
    before storing (the value read is not used), which any held contents permit. -/
theorem sound_kernel7 (c : Dev nD) (E : Set ℕ) (i : grid7.Coords)
    (arg1 : Memref sig .tc .vmem S1x2048x256 .bf16) (harg1 : arg1.IsWhole) (arg2 : Memref sig .tc .vmem S2048x2048 .bf16) (harg2 : arg2.IsWhole)
    (arg3 : Memref sig .tc .vmem S1x256 .f32) (harg3 : arg3.IsWhole) (arg4 : Memref sig .tc .vmem S2048x1 .f32) (harg4 : arg4.IsWhole)
    (arg5 : Memref sig .tc .vmem S1x2048x256 .bf16) (harg5 : arg5.IsWhole)
    (x0 : Vec F S1x2048x256 .bf16) (x1 : Vec F S2048x2048 .bf16) (x2 : Vec F S1x256 .f32) (x3 : Vec F S2048x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out7_4 x0 x1 x2 x3)) -∗ K ⟨⟩))
      ⊢ wp frame (wpE (defs₀ (F := F)) Variants.none c none) E (cc7__agg_kernel i arg1 harg1 arg2 harg2 arg3 harg3 arg4 harg4 arg5 harg5) K := by
  simp only [cc7__agg_kernel_eq_skeleton]; unfold cc7__agg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover7_4 _)

/-! ## The pipeline's proof data -/

/-- The proof data of pipeline 7 on core `c`: the arrays are those found at entry; after the body at point `t` each
    input's buffer still holds its block and the output's holds `out7_4` of the four blocks; the invariant is the
    untouched remainder of the core's state; nothing is owed and every share is whole. -/
def dat7 (c : Dev nD) : Dat τ (Elt F) Unit ℕ (Pipeline.UD sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out7_4 (iblk7 V c 0 t) (iblk7 V c 1 t) (iblk7 V c 2 t) (iblk7 V c 3 t)
  Φ _ := Pipeline.ΦA spec7 c
  q _ := fullShare
  owed _ := 0

/-- The proof data's arrays are the contents found at entry. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) :
    (dat7 V c).after 4 t = out7_4 (iblk7 V c 0 t) (iblk7 V c 1 t) (iblk7 V c 2 t) (iblk7 V c 3 t) := by dsimp only [dat7]

/-- Each input's current staging buffer holds its block at every point. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

/-! ## The body obligation at a generic point -/

/-- What the body is entered with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t))

/-- The body at any point: the inputs' buffers hold their blocks, so the body's triple applies; the invariant and
    what the core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).Φ t.succ = (dat7 V c).Φ t.castSucc from rfl,
    show (dat7 V c).owesAt () t.succ = (dat7 V c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel7 c Set.univ (grid7.coords t) _ _ _ _ _ _ _ _ _ _ (iblk7 V c 0 t) (iblk7 V c 1 t) (iblk7 V c 2 t) (iblk7 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation7 (c : Dev nD) : BodyObligation (dat7 (F := F) V c) (defs₀ (F := F)) Variants.none () Set.univ := fun t => by
  rw [bigSep_W7, bigSep_W7]
  exact sound_body7 V c t

end Region7

end Cert.Kernel.Hand

end
-- ==== Proof.K.R8.lean ====
/-
  Region 8 of the program: one feature transform of the graph-convolution stack. On a grid of 16 points, one batch
  row per point, the body multiplies the row's activations (2048 nodes by the input channels) by the whole weight
  matrix (both in half precision, rounded first where they are held wider) into a zero accumulator, and stores the
  product, rounded to half precision, over the whole of the output row's buffer. This file gives the region's blocks,
  what the body leaves in the output buffer as a closed function of the two input blocks, the body's triple, the
  pipeline's proof data over the region-entry contents, and the body obligation at every grid point.
-/
import proofs.«421025_j30305289241172_1_alg».proof.Proof.Gen.Kernel.Launch
import proofs.«421025_j30305289241172_1_alg».proof.Proof.Gen.Kernel.Skeleton
import proofs.«421025_j30305289241172_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The activations' staging buffer holds batch row `t` at every point, for any proof data over the entry contents
    whose body leaves the block in place. -/
theorem before8_0_of {c : Dev nD} (dat : Dat τ (Elt F) Unit ℕ (Pipeline.UD sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- The weights' staging buffer holds the whole weight matrix at every point, fetched there or not: its block index
    never moves. -/
theorem before8_1_of {c : Dev nD} (dat : Dat τ (Elt F) Unit ℕ (Pipeline.UD sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each is the whole of its buffer -/

abbrev r8_0 : Rect S1x2048x256 := Rect.unit (s := S1x2048x256) ![0, 0, 0] S1x2048x256.size inb_S1x2048x256_S1x2048x256_0_0_0
abbrev r8_1 : Rect S256x64 := Rect.unit (s := S256x64) ![0, 0] S256x64.size inb_S256x64_S256x64_0_0
abbrev r8_2 : Rect S1x2048x64 := Rect.unit (s := S1x2048x64) ![0, 0, 0] S1x2048x64.size inb_S1x2048x64_S1x2048x64_0_0_0

/-! ## What the body leaves in the output window's buffer -/

/-- The output's staging buffer after the body: its one store, of the product of the activations' row block by the
    weights, over the whole buffer. -/
def out8_2 (x0 : Vec F S1x2048x256 .bf16) (x1 : Vec F S256x64 .f32) : Vec F S1x2048x64 .bf16 :=
  View.canon [⟨r8_2, k8_pay1 (View.ld x0 r8_0) (View.ld x1 r8_1)⟩]

/-- The one store covers the buffer. -/
theorem cover8_2 (p0 : Vec F S1x2048x64 .bf16) (y : S1x2048x64.Idx) :
    ∃ pc ∈ ([⟨r8_2, p0⟩] : List (View.Piece (Elt F) S1x2048x64 .bf16)), y ∈ pc.1.set :=
  View.cover_of_tiled [⟨r8_2, p0⟩] S1x2048x64.size (by rfl) y

/-! ## The body's triple -/

set_option maxHeartbeats 1000000 in
/-- The kernel body on whole staging memrefs, the inputs' at read contents `x0`, `x1` and the output's at anything
    (the body reads it once, and discards what it read, before it overwrites all of it), runs to the continuation
    holding the inputs' as they were and the output's at `out8_2` of the inputs'. -/
theorem sound_kernel8 (c : Dev nD) (E : Set ℕ) (i : grid8.Coords) (arg1 : Memref sig .tc .vmem S1x2048x256 .bf16) (harg1 : arg1.IsWhole) (arg2 : Memref sig .tc .vmem S256x64 .f32) (harg2 : arg2.IsWhole) (arg3 : Memref sig .tc .vmem S1x2048x64 .bf16) (harg3 : arg3.IsWhole)
    (x0 : Vec F S1x2048x256 .bf16) (x1 : Vec F S256x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out8_2 x0 x1)) -∗ K ⟨⟩))
      ⊢ wp frame (wpE (defs₀ (F := F)) Variants.none c none) E (cc8__feat_kernel i arg1 harg1 arg2 harg2 arg3 harg3) K := by
  simp only [cc8__feat_kernel_eq_skeleton]; unfold cc8__feat_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover8_2 _)

/-! ## The pipeline's proof data -/

/-- The proof data of this pipeline on core `c`: the arrays as the region finds them; after the body at point `t` each
    input's buffer at its block and the output's at `out8_2` of the input blocks; the invariant the scoped rest and the
    generator register, untouched; nothing owed; full shares. -/
def dat8 (c : Dev nD) : Dat τ (Elt F) Unit ℕ (Pipeline.UD sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = out8_2 (iblk8 V c 0 t) (iblk8 V c 1 t) := by dsimp only [dat8]

/-- Each input's current staging buffer holds its block at every point. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

/-- The body at any point: the inputs' memrefs hold their blocks, so the body's triple applies; the invariant and
    the core's debts pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (sound_kernel8 c Set.univ (grid8.coords t) _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation8 (c : Dev nD) : BodyObligation (dat8 (F := F) V c) (defs₀ (F := F)) Variants.none () Set.univ := fun t => by
  rw [bigSep_W8, bigSep_W8]
  exact sound_body8 V c t

end

end Cert.Kernel.Hand

end
-- ==== Proof.K.R9.lean ====
/-
  Aggregation layer, pipeline 9: one grid point per batch row. At a point the body reads the row's transformed
  features h1 (window 0), the whole normalised adjacency A (window 1), the bias row (window 2) and the inverse-degree
  column (window 3), and stores into the output block (window 4) the single value
  A · h1 + h1 ∘ invdeg + bias, over the whole block. This file states what each window's staging buffer holds
  around the body at a generic point, runs the body once against those contents, and packages the result as the
  pipeline's proof data and body obligation, all relative to the buffer contents V found when the region is entered.
-/
import proofs.«421025_j30305289241172_1_alg».proof.Proof.Gen.Kernel.Launch
import proofs.«421025_j30305289241172_1_alg».proof.Proof.Gen.Kernel.Skeleton
import proofs.«421025_j30305289241172_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region9
variable (V : (c : Dev nD) → (b : Ref sig .tc) → Buf (Elt F) ((c : Thread nD τ).loc b))

/-! ## The blocks the windows see -/

/-- Window `w`'s block at grid point `t`: the entries of the array found at entry that the window's index map
    selects there. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window is never cut and never idle, and the body leaves its buffer alone; so whether or not a fetch
    happened at point `t`, the current staging buffer of window 0 holds the block of point `t` (an unfetched
    point has the same block index as the point before it). -/
theorem before9_0_of {c : Dev nD} (dat : Dat τ (Elt F) Unit ℕ (Pipeline.UD sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- An input window is never cut and never idle, and the body leaves its buffer alone; so whether or not a fetch
    happened at point `t`, the current staging buffer of window 1 holds the block of point `t` (an unfetched
    point has the same block index as the point before it). -/
theorem before9_1_of {c : Dev nD} (dat : Dat τ (Elt F) Unit ℕ (Pipeline.UD sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- An input window is never cut and never idle, and the body leaves its buffer alone; so whether or not a fetch
    happened at point `t`, the current staging buffer of window 2 holds the block of point `t` (an unfetched
    point has the same block index as the point before it). -/
theorem before9_2_of {c : Dev nD} (dat : Dat τ (Elt F) Unit ℕ (Pipeline.UD sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- An input window is never cut and never idle, and the body leaves its buffer alone; so whether or not a fetch
    happened at point `t`, the current staging buffer of window 3 holds the block of point `t` (an unfetched
    point has the same block index as the point before it). -/
theorem before9_3_of {c : Dev nD} (dat : Dat τ (Elt F) Unit ℕ (Pipeline.UD sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: every load and the one store take a whole buffer -/

abbrev r9_h : Rect S1x2048x64 := Rect.unit (s := S1x2048x64) ![0, 0, 0] S1x2048x64.size inb_S1x2048x64_S1x2048x64_0_0_0
abbrev r9_a : Rect S2048x2048 := Rect.unit (s := S2048x2048) ![0, 0] S2048x2048.size inb_S2048x2048_S2048x2048_0_0
abbrev r9_b : Rect S1x64 := Rect.unit (s := S1x64) ![0, 0] S1x64.size inb_S1x64_S1x64_0_0
abbrev r9_d : Rect S2048x1 := Rect.unit (s := S2048x1) ![0, 0] S2048x1.size inb_S2048x1_S2048x1_0_0

/-! ## What the body leaves in the output buffer -/

/-- The output buffer after the body, as a function of the four input blocks: the one stored value, laid over the
    whole block. The stored value takes its arguments in the order the body reads them: features, adjacency,
    inverse degrees, bias. -/
def out9_4 (x0 : Vec F S1x2048x64 .bf16) (x1 : Vec F S2048x2048 .bf16) (x2 : Vec F S1x64 .f32) (x3 : Vec F S2048x1 .f32) : Vec F S1x2048x64 .bf16 :=
  View.canon [⟨r9_h, k9_pay1 (View.ld x0 r9_h) (View.ld x1 r9_a) (View.ld x3 r9_d) (View.ld x2 r9_b)⟩]

/-- The single store's box is the whole output block, so every index of the block lies in it. -/
theorem cover9_4 (p0 : Vec F S1x2048x64 .bf16) (y : S1x2048x64.Idx) :
    ∃ pc ∈ ([⟨r9_h, p0⟩] : List (View.Piece (Elt F) S1x2048x64 .bf16)), y ∈ pc.1.set :=
  View.cover_of_tiled [⟨r9_h, p0⟩] S1x2048x64.size (by rfl) y

/-! ## The body's triple -/

set_option maxHeartbeats 1000000 in
/-- Run on five whole staging buffers — the four inputs holding `x0 … x3`, the output holding anything — the body
    ends with the inputs as they were and the output at `out9_4 x0 x1 x2 x3`. The body reads the output buffer once
    before storing (the value read is not used), which any held contents permit. -/
theorem sound_kernel9 (c : Dev nD) (E : Set ℕ) (i : grid9.Coords)
    (arg1 : Memref sig .tc .vmem S1x2048x64 .bf16) (harg1 : arg1.IsWhole) (arg2 : Memref sig .tc .vmem S2048x2048 .bf16) (harg2 : arg2.IsWhole)
    (arg3 : Memref sig .tc .vmem S1x64 .f32) (harg3 : arg3.IsWhole) (arg4 : Memref sig .tc .vmem S2048x1 .f32) (harg4 : arg4.IsWhole)
    (arg5 : Memref sig .tc .vmem S1x2048x64 .bf16) (harg5 : arg5.IsWhole)
    (x0 : Vec F S1x2048x64 .bf16) (x1 : Vec F S2048x2048 .bf16) (x2 : Vec F S1x64 .f32) (x3 : Vec F S2048x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out9_4 x0 x1 x2 x3)) -∗ K ⟨⟩))
      ⊢ wp frame (wpE (defs₀ (F := F)) Variants.none c none) E (cc9__agg_kernel i arg1 harg1 arg2 harg2 arg3 harg3 arg4 harg4 arg5 harg5) K := by
  simp only [cc9__agg_kernel_eq_skeleton]; unfold cc9__agg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover9_4 _)

/-! ## The pipeline's proof data -/

/-- The proof data of pipeline 9 on core `c`: the arrays are those found at entry; after the body at point `t` each
    input's buffer still holds its block and the output's holds `out9_4` of the four blocks; the invariant is the
    untouched remainder of the core's state; nothing is owed and every share is whole. -/
def dat9 (c : Dev nD) : Dat τ (Elt F) Unit ℕ (Pipeline.UD sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out9_4 (iblk9 V c 0 t) (iblk9 V c 1 t) (iblk9 V c 2 t) (iblk9 V c 3 t)
  Φ _ := Pipeline.ΦA spec9 c
  q _ := fullShare
  owed _ := 0

/-- The proof data's arrays are the contents found at entry. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) :
    (dat9 V c).after 4 t = out9_4 (iblk9 V c 0 t) (iblk9 V c 1 t) (iblk9 V c 2 t) (iblk9 V c 3 t) := by dsimp only [dat9]

/-- Each input's current staging buffer holds its block at every point. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d

/-! ## The body obligation at a generic point -/

/-- What the body is entered with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t))

/-- The body at any point: the inputs' buffers hold their blocks, so the body's triple applies; the invariant and
    what the core owes pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3]
  rw [show (dat9 V c).Φ t.succ = (dat9 V c).Φ t.castSucc from rfl,
    show (dat9 V c).owesAt () t.succ = (dat9 V c).owesAt () t.castSucc from rfl,
    after9_0, after9_1, after9_2, after9_3, after9_4]
  iintro ⟨HΦ, Ho, ⟨%d0, H0⟩, ⟨%d1, H1⟩, ⟨%d2, H2⟩, ⟨%d3, H3⟩, ⟨%d4, H4⟩⟩
  iapply (sound_kernel9 c Set.univ (grid9.coords t) _ _ _ _ _ _ _ _ _ _ (iblk9 V c 0 t) (iblk9 V c 1 t) (iblk9 V c 2 t) (iblk9 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation9 (c : Dev nD) : BodyObligation (dat9 (F := F) V c) (defs₀ (F := F)) Variants.none () Set.univ := fun t => by
  rw [bigSep_W9, bigSep_W9]
  exact sound_body9 V c t

end Region9

end Cert.Kernel.Hand

end
-- ==== Proof.K.R10.lean ====
/-
  Region 10 of the program: one feature transform of the graph-convolution stack. On a grid of 16 points, one batch
  row per point, the body multiplies the row's activations (2048 nodes by the input channels) by the whole weight
  matrix (both in half precision, rounded first where they are held wider) into a zero accumulator, and stores the
  product, rounded to half precision, over the whole of the output row's buffer. This file gives the region's blocks,
  what the body leaves in the output buffer as a closed function of the two input blocks, the body's triple, the
  pipeline's proof data over the region-entry contents, and the body obligation at every grid point.
-/
import proofs.«421025_j30305289241172_1_alg».proof.Proof.Gen.Kernel.Launch
import proofs.«421025_j30305289241172_1_alg».proof.Proof.Gen.Kernel.Skeleton
import proofs.«421025_j30305289241172_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- The activations' staging buffer holds batch row `t` at every point, for any proof data over the entry contents
    whose body leaves the block in place. -/
theorem before10_0_of {c : Dev nD} (dat : Dat τ (Elt F) Unit ℕ (Pipeline.UD sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- The weights' staging buffer holds the whole weight matrix at every point, fetched there or not: its block index
    never moves. -/
theorem before10_1_of {c : Dev nD} (dat : Dat τ (Elt F) Unit ℕ (Pipeline.UD sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses: each is the whole of its buffer -/

abbrev r10_0 : Rect S1x2048x64 := Rect.unit (s := S1x2048x64) ![0, 0, 0] S1x2048x64.size inb_S1x2048x64_S1x2048x64_0_0_0
abbrev r10_1 : Rect S64x3 := Rect.unit (s := S64x3) ![0, 0] S64x3.size inb_S64x3_S64x3_0_0
abbrev r10_2 : Rect S1x2048x3 := Rect.unit (s := S1x2048x3) ![0, 0, 0] S1x2048x3.size inb_S1x2048x3_S1x2048x3_0_0_0

/-! ## What the body leaves in the output window's buffer -/

/-- The output's staging buffer after the body: its one store, of the product of the activations' row block by the
    weights, over the whole buffer. -/
def out10_2 (x0 : Vec F S1x2048x64 .bf16) (x1 : Vec F S64x3 .f32) : Vec F S1x2048x3 .bf16 :=
  View.canon [⟨r10_2, k10_pay1 (View.ld x0 r10_0) (View.ld x1 r10_1)⟩]

/-- The one store covers the buffer. -/
theorem cover10_2 (p0 : Vec F S1x2048x3 .bf16) (y : S1x2048x3.Idx) :
    ∃ pc ∈ ([⟨r10_2, p0⟩] : List (View.Piece (Elt F) S1x2048x3 .bf16)), y ∈ pc.1.set :=
  View.cover_of_tiled [⟨r10_2, p0⟩] S1x2048x3.size (by rfl) y

/-! ## The body's triple -/

set_option maxHeartbeats 1000000 in
/-- The kernel body on whole staging memrefs, the inputs' at read contents `x0`, `x1` and the output's at anything
    (the body reads it once, and discards what it read, before it overwrites all of it), runs to the continuation
    holding the inputs' as they were and the output's at `out10_2` of the inputs'. -/
theorem sound_kernel10 (c : Dev nD) (E : Set ℕ) (i : grid10.Coords) (arg1 : Memref sig .tc .vmem S1x2048x64 .bf16) (harg1 : arg1.IsWhole) (arg2 : Memref sig .tc .vmem S64x3 .f32) (harg2 : arg2.IsWhole) (arg3 : Memref sig .tc .vmem S1x2048x3 .bf16) (harg3 : arg3.IsWhole)
    (x0 : Vec F S1x2048x64 .bf16) (x1 : Vec F S64x3 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out10_2 x0 x1)) -∗ K ⟨⟩))
      ⊢ wp frame (wpE (defs₀ (F := F)) Variants.none c none) E (cc10__feat_kernel i arg1 harg1 arg2 harg2 arg3 harg3) K := by
  simp only [cc10__feat_kernel_eq_skeleton]; unfold cc10__feat_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover10_2 _)

/-! ## The pipeline's proof data -/

/-- The proof data of this pipeline on core `c`: the arrays as the region finds them; after the body at point `t` each
    input's buffer at its block and the output's at `out10_2` of the input blocks; the invariant the scoped rest and the
    generator register, untouched; nothing owed; full shares. -/
def dat10 (c : Dev nD) : Dat τ (Elt F) Unit ℕ (Pipeline.UD sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
  Φ _ := Pipeline.ΦA spec10 c
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = out10_2 (iblk10 V c 0 t) (iblk10 V c 1 t) := by dsimp only [dat10]

/-- Each input's current staging buffer holds its block at every point. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

/-- The body at any point: the inputs' memrefs hold their blocks, so the body's triple applies; the invariant and
    the core's debts pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  iapply (sound_kernel10 c Set.univ (grid10.coords t) _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation10 (c : Dev nD) : BodyObligation (dat10 (F := F) V c) (defs₀ (F := F)) Variants.none () Set.univ := fun t => by
  rw [bigSep_W10, bigSep_W10]
  exact sound_body10 V c t

end

end Cert.Kernel.Hand

end
-- ==== Proof.K.R11.lean ====
/-
  Aggregation layer, pipeline 11: one grid point per batch row. At a point the body reads the row's transformed
  features h1 (window 0), the whole normalised adjacency A (window 1), the bias row (window 2) and the inverse-degree
  column (window 3), and stores into the output block (window 4) the single value
  leaky (A · h1 + h1 ∘ invdeg + bias), the rectifier taken entrywise, over the whole block. This file states what each window's staging buffer holds
  around the body at a generic point, runs the body once against those contents, and packages the result as the
  pipeline's proof data and body obligation, all relative to the buffer contents V found when the region is entered.
-/
import proofs.«421025_j30305289241172_1_alg».proof.Proof.Gen.Kernel.Launch
import proofs.«421025_j30305289241172_1_alg».proof.Proof.Gen.Kernel.Skeleton
import proofs.«421025_j30305289241172_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region11
variable (V : (c : Dev nD) → (b : Ref sig .tc) → Buf (Elt F) ((c : Thread nD τ).loc b))

/-! ## The blocks the windows see -/

/-- Window `w`'s block at grid point `t`: the entries of the array found at entry that the window's index map
    selects there. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window is never cut and never idle, and the body leaves its buffer alone; so whether or not a fetch
    happened at point `t`, the current staging buffer of window 0 holds the block of point `t` (an unfetched
    point has the same block index as the point before it). -/
theorem before11_0_of {c : Dev nD} (dat : Dat τ (Elt F) Unit ℕ (Pipeline.UD sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- An input window is never cut and never idle, and the body leaves its buffer alone; so whether or not a fetch
    happened at point `t`, the current staging buffer of window 1 holds the block of point `t` (an unfetched
    point has the same block index as the point before it). -/
theorem before11_1_of {c : Dev nD} (dat : Dat τ (Elt F) Unit ℕ (Pipeline.UD sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- An input window is never cut and never idle, and the body leaves its buffer alone; so whether or not a fetch
    happened at point `t`, the current staging buffer of window 2 holds the block of point `t` (an unfetched
    point has the same block index as the point before it). -/
theorem before11_2_of {c : Dev nD} (dat : Dat τ (Elt F) Unit ℕ (Pipeline.UD sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- An input window is never cut and never idle, and the body leaves its buffer alone; so whether or not a fetch
    happened at point `t`, the current staging buffer of window 3 holds the block of point `t` (an unfetched
    point has the same block index as the point before it). -/
theorem before11_3_of {c : Dev nD} (dat : Dat τ (Elt F) Unit ℕ (Pipeline.UD sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses: every load and the one store take a whole buffer -/

abbrev r11_h : Rect S1x2048x3 := Rect.unit (s := S1x2048x3) ![0, 0, 0] S1x2048x3.size inb_S1x2048x3_S1x2048x3_0_0_0
abbrev r11_a : Rect S2048x2048 := Rect.unit (s := S2048x2048) ![0, 0] S2048x2048.size inb_S2048x2048_S2048x2048_0_0
abbrev r11_b : Rect S1x3 := Rect.unit (s := S1x3) ![0, 0] S1x3.size inb_S1x3_S1x3_0_0
abbrev r11_d : Rect S2048x1 := Rect.unit (s := S2048x1) ![0, 0] S2048x1.size inb_S2048x1_S2048x1_0_0

/-! ## What the body leaves in the output buffer -/

/-- The output buffer after the body, as a function of the four input blocks: the one stored value, laid over the
    whole block. The stored value takes its arguments in the order the body reads them: features, adjacency,
    inverse degrees, bias. -/
def out11_4 (x0 : Vec F S1x2048x3 .bf16) (x1 : Vec F S2048x2048 .bf16) (x2 : Vec F S1x3 .f32) (x3 : Vec F S2048x1 .f32) : Vec F S1x2048x3 .f32 :=
  View.canon [⟨r11_h, k11_pay1 (View.ld x0 r11_h) (View.ld x1 r11_a) (View.ld x3 r11_d) (View.ld x2 r11_b)⟩]

/-- The single store's box is the whole output block, so every index of the block lies in it. -/
theorem cover11_4 (p0 : Vec F S1x2048x3 .f32) (y : S1x2048x3.Idx) :
    ∃ pc ∈ ([⟨r11_h, p0⟩] : List (View.Piece (Elt F) S1x2048x3 .f32)), y ∈ pc.1.set :=
  View.cover_of_tiled [⟨r11_h, p0⟩] S1x2048x3.size (by rfl) y

/-! ## The body's triple -/

set_option maxHeartbeats 1000000 in
/-- Run on five whole staging buffers — the four inputs holding `x0 … x3`, the output holding anything — the body
    ends with the inputs as they were and the output at `out11_4 x0 x1 x2 x3`. The body reads the output buffer once
    before storing (the value read is not used), which any held contents permit. -/
theorem sound_kernel11 (c : Dev nD) (E : Set ℕ) (i : grid11.Coords)
    (arg1 : Memref sig .tc .vmem S1x2048x3 .bf16) (harg1 : arg1.IsWhole) (arg2 : Memref sig .tc .vmem S2048x2048 .bf16) (harg2 : arg2.IsWhole)
    (arg3 : Memref sig .tc .vmem S1x3 .f32) (harg3 : arg3.IsWhole) (arg4 : Memref sig .tc .vmem S2048x1 .f32) (harg4 : arg4.IsWhole)
    (arg5 : Memref sig .tc .vmem S1x2048x3 .f32) (harg5 : arg5.IsWhole)
    (x0 : Vec F S1x2048x3 .bf16) (x1 : Vec F S2048x2048 .bf16) (x2 : Vec F S1x3 .f32) (x3 : Vec F S2048x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out11_4 x0 x1 x2 x3)) -∗ K ⟨⟩))
      ⊢ wp frame (wpE (defs₀ (F := F)) Variants.none c none) E (cc11__agg_kernel i arg1 harg1 arg2 harg2 arg3 harg3 arg4 harg4 arg5 harg5) K := by
  simp only [cc11__agg_kernel_eq_skeleton]; unfold cc11__agg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover11_4 _)

/-! ## The pipeline's proof data -/

/-- The proof data of pipeline 11 on core `c`: the arrays are those found at entry; after the body at point `t` each
    input's buffer still holds its block and the output's holds `out11_4` of the four blocks; the invariant is the
    untouched remainder of the core's state; nothing is owed and every share is whole. -/
def dat11 (c : Dev nD) : Dat τ (Elt F) Unit ℕ (Pipeline.UD sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => out11_4 (iblk11 V c 0 t) (iblk11 V c 1 t) (iblk11 V c 2 t) (iblk11 V c 3 t)
  Φ _ := Pipeline.ΦA spec11 c
  q _ := fullShare
  owed _ := 0

/-- The proof data's arrays are the contents found at entry. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) :
    (dat11 V c).after 4 t = out11_4 (iblk11 V c 0 t) (iblk11 V c 1 t) (iblk11 V c 2 t) (iblk11 V c 3 t) := by dsimp only [dat11]

/-- Each input's current staging buffer holds its block at every point. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d

/-! ## The body obligation at a generic point -/

/-- What the body is entered with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t))

/-- The body at any point: the inputs' buffers hold their blocks, so the body's triple applies; the invariant and
    what the core owes pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3]
  rw [show (dat11 V c).Φ t.succ = (dat11 V c).Φ t.castSucc from rfl,
    show (dat11 V c).owesAt () t.succ = (dat11 V c).owesAt () t.castSucc from rfl,
    after11_0, after11_1, after11_2, after11_3, after11_4]
  iintro ⟨HΦ, Ho, ⟨%d0, H0⟩, ⟨%d1, H1⟩, ⟨%d2, H2⟩, ⟨%d3, H3⟩, ⟨%d4, H4⟩⟩
  iapply (sound_kernel11 c Set.univ (grid11.coords t) _ _ _ _ _ _ _ _ _ _ (iblk11 V c 0 t) (iblk11 V c 1 t) (iblk11 V c 2 t) (iblk11 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation11 (c : Dev nD) : BodyObligation (dat11 (F := F) V c) (defs₀ (F := F)) Variants.none () Set.univ := fun t => by
  rw [bigSep_W11, bigSep_W11]
  exact sound_body11 V c t

end Region11

end Cert.Kernel.Hand

end
-- ==== Proof.K.R12.lean ====
import proofs.«421025_j30305289241172_1_alg».proof.Proof.Gen.Kernel.Launch
import proofs.«421025_j30305289241172_1_alg».proof.Proof.Gen.Kernel.Skeleton
import proofs.«421025_j30305289241172_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! Region 12 of @main: the dense head. -/

/-! ## Whole-buffer loads and stores

The body moves every operand through the rectangle that is the whole staging buffer (zero offsets, the buffer's
own sizes): such a load reads the contents, and such a store, made last, leaves its payload. -/

theorem z2 : (![0, 0] : Fin 2 → ℕ) = fun _ => 0 := by funext a; fin_cases a <;> rfl

/-- A load of the whole buffer reads its contents. -/
theorem readAt_whole {S : Shape} {e : EltTy} (v : View sig .tc .vmem S e) (f : v.ty.Contents (Elt F))
    {off : Fin S.rank → ℕ} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-- A store of the whole buffer, made last, leaves its payload. -/
theorem read_store_whole {S : Shape} {e : EltTy} (v : View sig .tc .vmem S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-! ## The body's branch conditions -/

/-- The condition of the body's first conditional (the reset), from the grid coordinates. -/
abbrev cond12_0 (i : grid12.Coords) : Prop := (Scalar.cmpi .ne (Scalar.extui (Scalar.cmpi .eq (BitVec.ofNat 32 (i 1).val) 0#32)) 0#32) = 1#1
/-- It holds where the inner coordinate is 0. -/
theorem hcond12_0 : ∀ t : Fin cfg12.N, cond12_0 (grid12.coords t) ↔ t.val % 3 = 0 :=
  (by decide +kernel : ∀ t : Fin grid12.N, cond12_0 (grid12.coords t) ↔ t.val % 3 = 0)

/-- The condition of the body's second conditional (the read-out). -/
abbrev cond12_1 (i : grid12.Coords) : Prop := k12_cond2 i = 1#1
/-- It holds where the inner coordinate is 2. -/
theorem hcond12_1 : ∀ t : Fin cfg12.N, cond12_1 (grid12.coords t) ↔ t.val % 3 = 2 :=
  (by decide +kernel : ∀ t : Fin grid12.N, cond12_1 (grid12.coords t) ↔ t.val % 3 = 2)

/-! ## Where the output window is idle -/

theorem idleAt12_3 : ∀ t : Fin cfg12.N, ¬cond12_1 (grid12.coords t) → cfg12.idle 3 (grid12.coords t) = true := by decide +kernel
theorem noFlush12_3 : ∀ t : Fin cfg12.N, ¬cond12_1 (grid12.coords t) → (cfg12.win 3).flush t = false := by decide +kernel
theorem liveAt12_3 : ∀ t : Fin cfg12.N, cond12_1 (grid12.coords t) → cfg12.idle 3 (grid12.coords t) = false := by decide +kernel

/-! ## The body on any whole staging memrefs, case by case -/

set_option maxHeartbeats 1000000 in
/-- Inner coordinate 0: the scratch, at anything, is zeroed and the point's block product added; the output
    buffer is handed back as found. -/
theorem sound_kernel12_A (c : Dev nD) (E : Set ℕ) (i : grid12.Coords)
    (arg2 : Memref sig .tc .vmem S16x2048 .f32) (harg2 : arg2.IsWhole) (arg3 : Memref sig .tc .vmem S2048x2048 .f32) (harg3 : arg3.IsWhole)
    (arg4 : Memref sig .tc .vmem S1x2048 .f32) (harg4 : arg4.IsWhole) (arg5 : Memref sig .tc .vmem S16x2048 .f32) (harg5 : arg5.IsWhole)
    (arg6 : Memref sig .tc .vmem S16x2048 .f32) (harg6 : arg6.IsWhole)
    (hc0 : cond12_0 i) (hc1 : ¬cond12_1 i)
    (x0 : Vec F S16x2048 .f32) (x1 : Vec F S2048x2048 .f32) (x2 : Vec F S1x2048 .f32) (xi3 : Vec F S16x2048 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k12_pay2 x0 x1 (k12_pay1 (F := F)))) -∗ K ⟨⟩))
      ⊢ wp frame (wpE (defs₀ (F := F)) Variants.none c none) E (cc12__dense_kernel i arg2 harg2 arg3 harg3 arg4 harg4 arg5 harg5 arg6 harg6) K := by
  simp only [cc12__dense_kernel_eq_skeleton]; unfold cc12__dense_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact HS
  ipureintro
  sl_unfold_run_names
  refine (read_store_whole _ _ z2 _ _ _).trans ?_
  rw [readAt_whole _ _ z2, readAt_whole _ _ z2, View.readCov_unit_zero _ z2]

set_option maxHeartbeats 1000000 in
/-- Inner coordinate 1: the point's block product is added to the scratch; the output buffer is handed back as found. -/
theorem sound_kernel12_B (c : Dev nD) (E : Set ℕ) (i : grid12.Coords)
    (arg2 : Memref sig .tc .vmem S16x2048 .f32) (harg2 : arg2.IsWhole) (arg3 : Memref sig .tc .vmem S2048x2048 .f32) (harg3 : arg3.IsWhole)
    (arg4 : Memref sig .tc .vmem S1x2048 .f32) (harg4 : arg4.IsWhole) (arg5 : Memref sig .tc .vmem S16x2048 .f32) (harg5 : arg5.IsWhole)
    (arg6 : Memref sig .tc .vmem S16x2048 .f32) (harg6 : arg6.IsWhole)
    (hc0 : ¬cond12_0 i) (hc1 : ¬cond12_1 i)
    (x0 : Vec F S16x2048 .f32) (x1 : Vec F S2048x2048 .f32) (x2 : Vec F S1x2048 .f32) (xi3 : Vec F S16x2048 .f32) (xs : Vec F S16x2048 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k12_pay2 x0 x1 xs)) -∗ K ⟨⟩))
      ⊢ wp frame (wpE (defs₀ (F := F)) Variants.none c none) E (cc12__dense_kernel i arg2 harg2 arg3 harg3 arg4 harg4 arg5 harg5 arg6 harg6) K := by
  simp only [cc12__dense_kernel_eq_skeleton]; unfold cc12__dense_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact HS
  ipureintro
  refine (read_store_whole _ _ z2 _ _ []).trans ?_
  rw [readAt_whole _ _ z2, readAt_whole _ _ z2, readAt_whole _ _ z2]

set_option maxHeartbeats 1000000 in
/-- Inner coordinate 2: the point's block product is added to the scratch, and the output buffer, at anything,
    is stored whole from the sum through the bias, the hyperbolic tangent and the scale. -/
theorem sound_kernel12_C (c : Dev nD) (E : Set ℕ) (i : grid12.Coords)
    (arg2 : Memref sig .tc .vmem S16x2048 .f32) (harg2 : arg2.IsWhole) (arg3 : Memref sig .tc .vmem S2048x2048 .f32) (harg3 : arg3.IsWhole)
    (arg4 : Memref sig .tc .vmem S1x2048 .f32) (harg4 : arg4.IsWhole) (arg5 : Memref sig .tc .vmem S16x2048 .f32) (harg5 : arg5.IsWhole)
    (arg6 : Memref sig .tc .vmem S16x2048 .f32) (harg6 : arg6.IsWhole)
    (hc0 : ¬cond12_0 i) (hc1 : cond12_1 i)
    (x0 : Vec F S16x2048 .f32) (x1 : Vec F S2048x2048 .f32) (x2 : Vec F S1x2048 .f32) (xs : Vec F S16x2048 .f32)
    (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k12_pay3 (k12_pay2 x0 x1 xs) x2) ∗ owns (c : Thread nD τ) arg6 fullShare (k12_pay2 x0 x1 xs)) -∗ K ⟨⟩))
      ⊢ wp frame (wpE (defs₀ (F := F)) Variants.none c none) E (cc12__dense_kernel i arg2 harg2 arg3 harg3 arg4 harg4 arg5 harg5 arg6 harg6) K := by
  simp only [cc12__dense_kernel_eq_skeleton]; unfold cc12__dense_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]
  · iexists _; isplitr
    swap; · iexact H3
    ipureintro
    sl_unfold_run_names
    refine (read_store_whole _ _ z2 _ _ []).trans ?_
    rw [View.readCov_unit_zero _ z2, readAt_whole _ _ z2, readAt_whole _ _ z2, readAt_whole _ _ z2, readAt_whole _ _ z2]
  iexists _; isplitr
  swap; · iexact HS
  ipureintro
  sl_unfold_run_names
  refine (read_store_whole _ _ z2 _ _ []).trans ?_
  rw [readAt_whole _ _ z2, readAt_whole _ _ z2, readAt_whole _ _ z2]

/-! # The dense head (pipeline 12): a 3×3 grid, point (n, k) with k the inner axis; a scratch accumulator the
kernel carries along k — zeroed at k = 0, added to at every point, and at k = 2 read out through the bias, the
hyperbolic tangent and the scale into the output block. -/

section Region12

variable (V : (c : Dev nD) → (b : Ref sig .tc) → Buf (Elt F) ((c : Thread nD τ).loc b))

/-! ## The windows' blocks -/

/-- Window `w`'s block at point `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- An input window's current staging buffer holds its block at every point, fetched there or not: where it is
    not fetched its block index has not moved. -/
theorem before12_0_of {c : Dev nD} (dat : Dat τ (Elt F) Unit ℕ (Pipeline.UD sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

theorem before12_1_of {c : Dev nD} (dat : Dat τ (Elt F) Unit ℕ (Pipeline.UD sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

theorem before12_2_of {c : Dev nD} (dat : Dat τ (Elt F) Unit ℕ (Pipeline.UD sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-! ## The scratch accumulator, point by point -/

/-- The scratch after the body at position `n`: the block product of the point added to the zero block where the
    inner coordinate is 0, and to what the point before left elsewhere. -/
def acc12N (c : Dev nD) : (n : ℕ) → n < cfg12.N → Vec F S16x2048 .f32
  | 0, hn => k12_pay2 (iblk12 V c 0 ⟨0, hn⟩) (iblk12 V c 1 ⟨0, hn⟩) (k12_pay1 (F := F))
  | n + 1, hn =>
    if (n + 1) % 3 = 0 then k12_pay2 (iblk12 V c 0 ⟨n + 1, hn⟩) (iblk12 V c 1 ⟨n + 1, hn⟩) (k12_pay1 (F := F))
    else k12_pay2 (iblk12 V c 0 ⟨n + 1, hn⟩) (iblk12 V c 1 ⟨n + 1, hn⟩) (acc12N c n (Nat.lt_of_succ_lt hn))

/-- The scratch after the body at point `t`. -/
def acc12 (c : Dev nD) (t : Fin cfg12.N) : Vec F S16x2048 .f32 := acc12N V c t.val t.isLt

/-- At a point whose inner coordinate is 0 the accumulator restarts from the zero block. -/
theorem acc12_first (c : Dev nD) (t : Fin cfg12.N) (hk : t.val % 3 = 0) :
    acc12 V c t = k12_pay2 (iblk12 V c 0 t) (iblk12 V c 1 t) (k12_pay1 (F := F)) := by
  obtain ⟨n, hn⟩ := t
  cases n with
  | zero => rfl
  | succ n => exact (if_pos hk).trans rfl

/-- Elsewhere it adds the point's block product to what the point before left. -/
theorem acc12_step (c : Dev nD) (t : Fin cfg12.N) (hk : t.val % 3 ≠ 0) (t' : Fin cfg12.N) (ht' : t'.val + 1 = t.val) :
    acc12 V c t = k12_pay2 (iblk12 V c 0 t) (iblk12 V c 1 t) (acc12 V c t') := by
  obtain ⟨n, hn⟩ := t
  obtain ⟨n', hn'⟩ := t'
  cases n with
  | zero => exact absurd (Nat.zero_mod _) hk
  | succ n =>
    have e : n' = n := by simpa using ht'
    subst e
    exact (if_neg hk).trans rfl

/-- The same with the point before named by its position. -/
theorem acc12N_pos (c : Dev nD) (n : ℕ) (hn : n < cfg12.N) (hk : n % 3 ≠ 0) :
    acc12N V c n hn = k12_pay2 (iblk12 V c 0 ⟨n, hn⟩) (iblk12 V c 1 ⟨n, hn⟩) (acc12N V c (n - 1) (Nat.lt_of_le_of_lt (Nat.sub_le _ _) hn)) := by
  cases n with
  | zero => exact absurd (Nat.zero_mod _) hk
  | succ n => exact (if_neg hk).trans rfl

/-! ## The invariant: the scratch at its tracked contents -/

/-- The scratch operand: a whole scoped buffer of the kernel's own, passed beside the windows. -/
abbrev scM12 : Memref sig .tc .vmem S16x2048 .f32 := Memref.whole cc12_scratch0

/-- The region invariant of the class with the scratch operand apart, as a memref owned at some contents. -/
theorem PhiA12_eq (c : Dev nD) :
    (Pipeline.ΦA spec12 c : sProp 𝕄)
      = iprop(iprop((∃ d, owns (c : Thread nD τ) scM12 fullShare d) ∗ Pipeline.scopedRestBut spec12 c [cc12_scratch0]) ∗ (∃ r, prngReg c r)) := by
  unfold Pipeline.ΦA; rw [scopedRest12_split]; simp only [scM12, owns_whole]; try rfl

/-- The invariant before position `n`: before the first point the class's (the scratch at anything); afterwards the
    scratch at what the point before left in it, the other scoped buffers at anything, the generator register at
    some state. -/
def Phi12 (c : Dev nD) : (n : ℕ) → n ≤ cfg12.N → sProp 𝕄
  | 0, _ => Pipeline.ΦA spec12 c
  | n + 1, hn => iprop(iprop(owns (c : Thread nD τ) scM12 fullShare (acc12N V c n hn) ∗ Pipeline.scopedRestBut spec12 c [cc12_scratch0]) ∗ (∃ r, prngReg c r))

theorem Phi12_zero (c : Dev nD) (n : ℕ) (h : n ≤ cfg12.N) (hz : n = 0) : Phi12 V c n h = Pipeline.ΦA spec12 c := by
  subst hz; rfl

theorem Phi12_succ (c : Dev nD) (n : ℕ) (hn : n < cfg12.N) :
    Phi12 V c (n + 1) hn = iprop(iprop(owns (c : Thread nD τ) scM12 fullShare (acc12N V c n hn) ∗ Pipeline.scopedRestBut spec12 c [cc12_scratch0]) ∗ (∃ r, prngReg c r)) := rfl

theorem Phi12_pos (c : Dev nD) (n : ℕ) (h : n ≤ cfg12.N) (hz : n ≠ 0) :
    Phi12 V c n h = iprop(iprop(owns (c : Thread nD τ) scM12 fullShare (acc12N V c (n - 1) (by omega)) ∗ Pipeline.scopedRestBut spec12 c [cc12_scratch0]) ∗ (∃ r, prngReg c r)) := by
  cases n with
  | zero => exact absurd rfl hz
  | succ n => rfl

/-! ## The pipeline's proof data -/

/-- The proof data of pipeline 12 on core `c`: the arrays as the region finds them; after the body at point `t`
    each input's buffer at its block and the output's at the read-out of the accumulator (consulted only where the
    inner coordinate is 2: elsewhere the window is idle and not written back); the invariant carrying the scratch;
    nothing owed; full shares. -/
def dat12 (c : Dev nD) : Dat τ (Elt F) Unit ℕ (Pipeline.UD sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => k12_pay3 (acc12 V c t) (iblk12 V c 2 t)
  Φ t := Phi12 V c t.val (Nat.le_of_lt_succ t.isLt)
  q _ := fullShare
  owed _ := 0

theorem A_eq12 (c : Dev nD) (w : Fin cfg12.W) : (dat12 V c).A w = V c (Pipeline.arrRef spec12 w) := by
  dsimp only [dat12]

theorem Phi12_castSucc (c : Dev nD) (t : Fin cfg12.N) :
    (dat12 V c).Φ t.castSucc = Phi12 V c t.val (Nat.le_of_lt t.isLt) := by
  dsimp only [dat12]; simp only [Fin.coe_castSucc]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = k12_pay3 (acc12 V c t) (iblk12 V c 2 t) := by dsimp only [dat12]

/-- What the output window's buffer holds after a point whose inner coordinate is 2. -/
theorem after12_out (c : Dev nD) (t : Fin cfg12.N) (hk : t.val % 3 = 2) :
    (dat12 V c).after 3 t = k12_pay3 (acc12 V c t) (iblk12 V c 2 t) := after12_3 V c t

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d)))

/-- and what it returns. -/
def bodyPost12 (c : Dev nD) (t : Fin cfg12.N) : sProp 𝕄 :=
  iprop((dat12 V c).Φ t.succ ∗ (dat12 V c).owesAt () t.succ
    ∗ (dat12 V c).leavesExact 0 t
    ∗ (dat12 V c).leavesExact 1 t
    ∗ (dat12 V c).leavesExact 2 t
    ∗ (dat12 V c).leavesExact 3 t)

/-- The input windows are never idle. -/
theorem liveAt12_0 : ∀ t : Fin cfg12.N, cfg12.idle 0 (grid12.coords t) = false := by decide +kernel
theorem liveAt12_1 : ∀ t : Fin cfg12.N, cfg12.idle 1 (grid12.coords t) = false := by decide +kernel
theorem liveAt12_2 : ∀ t : Fin cfg12.N, cfg12.idle 2 (grid12.coords t) = false := by decide +kernel

set_option maxHeartbeats 4800000 in
/-- The body at any point: the inputs' memrefs hold their blocks; the inner coordinate says which case the point is
    in; the invariant hands the body the scratch at what the point before left (at anything before the first point)
    and takes it back at this point's accumulator; the output buffer is handed back as found where the inner
    coordinate is not 2 and stored whole where it is; the core owes nothing throughout. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2]
  rw [show (dat12 V c).owesAt () t.succ = (dat12 V c).owesAt () t.castSucc from rfl]
  rw [show (dat12 V c).Φ t.succ = Phi12 V c (t.val + 1) t.isLt from rfl, Phi12_succ,
    show acc12N V c t.val t.isLt = acc12 V c t from rfl]
  have hN : t.val < 9 := lt_of_lt_of_eq t.isLt (show cfg12.N = 9 from N_12)
  rw [show (dat12 V c).leavesExact 0 t = owns (c : Thread nD τ) (st12_0 t) fullShare ((dat12 V c).after 0 t) from by
    unfold Dat.leavesExact; rw [liveAt12_0 t], after12_0]
  rw [show (dat12 V c).leavesExact 1 t = owns (c : Thread nD τ) (st12_1 t) fullShare ((dat12 V c).after 1 t) from by
    unfold Dat.leavesExact; rw [liveAt12_1 t], after12_1]
  rw [show (dat12 V c).leavesExact 2 t = owns (c : Thread nD τ) (st12_2 t) fullShare ((dat12 V c).after 2 t) from by
    unfold Dat.leavesExact; rw [liveAt12_2 t], after12_2]
  by_cases h0 : t.val % 3 = 0
  · have hc0 : cond12_0 (grid12.coords t) := (hcond12_0 t).mpr h0
    have hc1 : ¬cond12_1 (grid12.coords t) := fun h => by have := (hcond12_1 t).mp h; omega
    rw [Dat.leavesExact_idle (dat12 V c) 3 t (idleAt12_3 t hc1) (noFlush12_3 t hc1)]
    rw [acc12_first V c t h0]
    by_cases hz : t.val = 0
    · rw [Phi12_castSucc V c t, Phi12_zero V c _ _ hz, PhiA12_eq]
      iintro ⟨⟨⟨HS, HR⟩, Hg⟩, Ho, ⟨%d0, H0⟩, ⟨%d1, H1⟩, ⟨%d2, H2⟩, ⟨%d3, H3⟩⟩
      iapply (sound_kernel12_A c Set.univ (grid12.coords t) _ _ _ _ _ _ _ _ _ _ hc0 hc1
        (iblk12 V c 0 t) (iblk12 V c 1 t) (iblk12 V c 2 t) ((dat12 V c).before 3 t d3) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [Phi12_castSucc V c t, Phi12_pos V c _ _ hz]
      iintro ⟨⟨⟨HS, HR⟩, Hg⟩, Ho, ⟨%d0, H0⟩, ⟨%d1, H1⟩, ⟨%d2, H2⟩, ⟨%d3, H3⟩⟩
      iapply (sound_kernel12_A c Set.univ (grid12.coords t) _ _ _ _ _ _ _ _ _ _ hc0 hc1
        (iblk12 V c 0 t) (iblk12 V c 1 t) (iblk12 V c 2 t) ((dat12 V c).before 3 t d3) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hc0 : ¬cond12_0 (grid12.coords t) := fun h => h0 ((hcond12_0 t).mp h)
    have hz : t.val ≠ 0 := fun e => h0 (by rw [e])
    rw [show acc12 V c t = k12_pay2 (iblk12 V c 0 t) (iblk12 V c 1 t) (acc12N V c (t.val - 1) (by omega)) from
      acc12N_pos V c t.val t.isLt h0]
    rw [Phi12_castSucc V c t, Phi12_pos V c _ _ hz]
    by_cases h1 : t.val % 3 = 2
    · have hc1 : cond12_1 (grid12.coords t) := (hcond12_1 t).mpr h1
      rw [show (dat12 V c).leavesExact 3 t = owns (c : Thread nD τ) (st12_3 t) fullShare ((dat12 V c).after 3 t) from by
        unfold Dat.leavesExact; rw [liveAt12_3 t hc1], after12_3]
      rw [show acc12 V c t = k12_pay2 (iblk12 V c 0 t) (iblk12 V c 1 t) (acc12N V c (t.val - 1) (by omega)) from
        acc12N_pos V c t.val t.isLt h0]
      iintro ⟨⟨⟨HS, HR⟩, Hg⟩, Ho, ⟨%d0, H0⟩, ⟨%d1, H1⟩, ⟨%d2, H2⟩, ⟨%d3, H3⟩⟩
      iapply (sound_kernel12_C c Set.univ (grid12.coords t) _ _ _ _ _ _ _ _ _ _ hc0 hc1
        (iblk12 V c 0 t) (iblk12 V c 1 t) (iblk12 V c 2 t) (acc12N V c (t.val - 1) (by omega)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have hc1 : ¬cond12_1 (grid12.coords t) := fun h => h1 ((hcond12_1 t).mp h)
      rw [Dat.leavesExact_idle (dat12 V c) 3 t (idleAt12_3 t hc1) (noFlush12_3 t hc1)]
      iintro ⟨⟨⟨HS, HR⟩, Hg⟩, Ho, ⟨%d0, H0⟩, ⟨%d1, H1⟩, ⟨%d2, H2⟩, ⟨%d3, H3⟩⟩
      iapply (sound_kernel12_B c Set.univ (grid12.coords t) _ _ _ _ _ _ _ _ _ _ hc0 hc1
        (iblk12 V c 0 t) (iblk12 V c 1 t) (iblk12 V c 2 t) ((dat12 V c).before 3 t d3) (acc12N V c (t.val - 1) (by omega)) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The body obligation, at every point. -/
theorem body_obligation12 (c : Dev nD) : BodyObligation (dat12 (F := F) V c) (defs₀ (F := F)) Variants.none () Set.univ := fun t => by
  rw [bigSep_W12, bigSep_W12]
  exact sound_body12 V c t

/-- What the launch hands the region is the invariant before the first point. -/
theorem Phi12_first (c : Dev nD) : (Pipeline.ΦA spec12 c : sProp 𝕄) ⊢ (dat12 V c).Φ 0 := by
  rw [show (dat12 V c).Φ 0 = Phi12 V c 0 (Nat.zero_le _) from rfl, Phi12_zero V c 0 _ rfl]
  try exact Idealize.SL.BI.Entails.refl _

/-- After the last point the invariant gives the class's back: the scratch's named contents are forgotten. -/
theorem Phi12_last (c : Dev nD) : (dat12 V c).Φ (Fin.last cfg12.N) ⊢ (Pipeline.ΦA spec12 c : sProp 𝕄) := by
  rw [show (dat12 V c).Φ (Fin.last cfg12.N) = Phi12 V c (Fin.last cfg12.N).val (Nat.le_of_lt_succ (Fin.last cfg12.N).isLt) from rfl,
    Phi12_pos V c _ _ (by rw [Fin.val_last]; have : cfg12.N = 9 := N_12; omega), PhiA12_eq]
  iintro ⟨⟨HS, HR⟩, Hg⟩
  isplitl [HS HR]
  · isplitl [HS]
    · iexists _; iexact HS
    iexact HR
  iexact Hg

example (c : Dev nD) (w) : (dat12 V c).q w = fullShare := rfl
example (c : Dev nD) (t) : (dat12 V c).owed t = 0 := rfl

end Region12
end Cert.Kernel.Hand
end
-- ==== Proof.K.Chain.lean ====
/- The buffer contents at each of @main's 23 item boundaries, as a fold through its 22 items: a host stretch
   rewrites the buffers its operations write, a kernel region rewrites its windows' arrays by the write-backs
   of its output windows. Each region's proof data is taken at the contents of the boundary before it. -/
import proofs.«421025_j30305289241172_1_alg».proof.Proof.Gen.Kernel.Launch
import proofs.«421025_j30305289241172_1_alg».proof.Proof.Gen.Kernel.Skeleton
import proofs.«421025_j30305289241172_1_alg».proof.Proof.Gen.Kernel.Points
import proofs.«421025_j30305289241172_1_alg».proof.Proof.Gen.Kernel.Regions
import proofs.«421025_j30305289241172_1_alg».proof.Proof.K.R0
import proofs.«421025_j30305289241172_1_alg».proof.Proof.K.R1
import proofs.«421025_j30305289241172_1_alg».proof.Proof.K.R2
import proofs.«421025_j30305289241172_1_alg».proof.Proof.K.R3
import proofs.«421025_j30305289241172_1_alg».proof.Proof.K.R4
import proofs.«421025_j30305289241172_1_alg».proof.Proof.K.R5
import proofs.«421025_j30305289241172_1_alg».proof.Proof.K.R6
import proofs.«421025_j30305289241172_1_alg».proof.Proof.K.R7
import proofs.«421025_j30305289241172_1_alg».proof.Proof.K.R8
import proofs.«421025_j30305289241172_1_alg».proof.Proof.K.R9
import proofs.«421025_j30305289241172_1_alg».proof.Proof.K.R10
import proofs.«421025_j30305289241172_1_alg».proof.Proof.K.R11
import proofs.«421025_j30305289241172_1_alg».proof.Proof.K.R12
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The contents at each boundary -/

/-- Core `c`'s buffers at launch. -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- After item 0, the host stretch `hostOps0`: each buffer its operations write rewritten, the rest kept. -/
def W1 (c : Dev nD) : Valuation τ sig (Elt F) := StableHlo.after hostOps0 (W0 m ρ c)
abbrev V1 : (c : Dev nD) → (b : Ref sig .tc) → Buf (Elt F) ((c : Thread nD τ).loc b) := fun c b => W1 m ρ c b
/-- A reference the stretch does not write keeps its contents. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

/-- After item 1, region 0: its windows' arrays at what the pipeline leaves (an input as entered, an output with
    every write-back folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
/-- At region 0's exit each of its arrays holds what the pipeline leaves, every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A reference that is no output window's array keeps its contents: an input window's array is never written
    back to, and a buffer that is no window's array bypasses the region. -/
theorem W2_keep (c : Dev nD) (b : Ref sig .tc) (hb : ∀ w, (cfg0.win w).isOut = true → Pipeline.arrRef spec0 w ≠ b) :
    W2 m ρ c (Proc.devRef .tc b) = W1 m ρ c (Proc.devRef .tc b) := by
  by_cases h : ∃ w, Pipeline.arrRef spec0 w = b
  · obtain ⟨w, rfl⟩ := h
    have hin : (cfg0.win w).isOut = false := by
      cases hio : (cfg0.win w).isOut
      · rfl
      · exact absurd rfl (hb w hio)
    exact (W2_arr m ρ c w).trans (((dat0 (V1 m ρ) c).arrAt_in w hin _).trans (A_eq0 (V1 m ρ) c w))
  · exact W2_of_ne m ρ c b fun w e => h ⟨w, e⟩

/-- After item 2, the host stretch `hostOps1`: each buffer its operations write rewritten, the rest kept. -/
def W3 (c : Dev nD) : Valuation τ sig (Elt F) := StableHlo.after hostOps1 (W2 m ρ c)
abbrev V3 : (c : Dev nD) → (b : Ref sig .tc) → Buf (Elt F) ((c : Thread nD τ).loc b) := fun c b => W3 m ρ c b
/-- A reference the stretch does not write keeps its contents. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

/-- After item 3, region 1: its windows' arrays at what the pipeline leaves (an input as entered, an output with
    every write-back folded in), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
/-- At region 1's exit each of its arrays holds what the pipeline leaves, every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A reference that is no output window's array keeps its contents: an input window's array is never written
    back to, and a buffer that is no window's array bypasses the region. -/
theorem W4_keep (c : Dev nD) (b : Ref sig .tc) (hb : ∀ w, (cfg1.win w).isOut = true → Pipeline.arrRef spec1 w ≠ b) :
    W4 m ρ c (Proc.devRef .tc b) = W3 m ρ c (Proc.devRef .tc b) := by
  by_cases h : ∃ w, Pipeline.arrRef spec1 w = b
  · obtain ⟨w, rfl⟩ := h
    have hin : (cfg1.win w).isOut = false := by
      cases hio : (cfg1.win w).isOut
      · rfl
      · exact absurd rfl (hb w hio)
    exact (W4_arr m ρ c w).trans (((dat1 (V3 m ρ) c).arrAt_in w hin _).trans (A_eq1 (V3 m ρ) c w))
  · exact W4_of_ne m ρ c b fun w e => h ⟨w, e⟩

/-- After item 4, region 2: its windows' arrays at what the pipeline leaves (an input as entered, an output with
    every write-back folded in), every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
/-- At region 2's exit each of its arrays holds what the pipeline leaves, every other buffer what it held at entry. -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
/-- A reference that is no output window's array keeps its contents: an input window's array is never written
    back to, and a buffer that is no window's array bypasses the region. -/
theorem W5_keep (c : Dev nD) (b : Ref sig .tc) (hb : ∀ w, (cfg2.win w).isOut = true → Pipeline.arrRef spec2 w ≠ b) :
    W5 m ρ c (Proc.devRef .tc b) = W4 m ρ c (Proc.devRef .tc b) := by
  by_cases h : ∃ w, Pipeline.arrRef spec2 w = b
  · obtain ⟨w, rfl⟩ := h
    have hin : (cfg2.win w).isOut = false := by
      cases hio : (cfg2.win w).isOut
      · rfl
      · exact absurd rfl (hb w hio)
    exact (W5_arr m ρ c w).trans (((dat2 (V4 m ρ) c).arrAt_in w hin _).trans (A_eq2 (V4 m ρ) c w))
  · exact W5_of_ne m ρ c b fun w e => h ⟨w, e⟩

/-- After item 5, the host stretch `hostOps3`: each buffer its operations write rewritten, the rest kept. -/
def W6 (c : Dev nD) : Valuation τ sig (Elt F) := StableHlo.after hostOps3 (W5 m ρ c)
abbrev V6 : (c : Dev nD) → (b : Ref sig .tc) → Buf (Elt F) ((c : Thread nD τ).loc b) := fun c b => W6 m ρ c b
/-- A reference the stretch does not write keeps its contents. -/
theorem W6_of (c : Dev nD) (r : Ref sig .tc) (h : r ∉ hostOps3_W) :
    W6 m ρ c (Proc.devRef .tc r) = W5 m ρ c (Proc.devRef .tc r) :=
  StableHlo.after_of_writes_sub hostOps3 _ hostOps3_writes h

/-- After item 6, region 3: its windows' arrays at what the pipeline leaves (an input as entered, an output with
    every write-back folded in), every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
/-- At region 3's exit each of its arrays holds what the pipeline leaves, every other buffer what it held at entry. -/
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)
/-- A reference that is no output window's array keeps its contents: an input window's array is never written
    back to, and a buffer that is no window's array bypasses the region. -/
theorem W7_keep (c : Dev nD) (b : Ref sig .tc) (hb : ∀ w, (cfg3.win w).isOut = true → Pipeline.arrRef spec3 w ≠ b) :
    W7 m ρ c (Proc.devRef .tc b) = W6 m ρ c (Proc.devRef .tc b) := by
  by_cases h : ∃ w, Pipeline.arrRef spec3 w = b
  · obtain ⟨w, rfl⟩ := h
    have hin : (cfg3.win w).isOut = false := by
      cases hio : (cfg3.win w).isOut
      · rfl
      · exact absurd rfl (hb w hio)
    exact (W7_arr m ρ c w).trans (((dat3 (V6 m ρ) c).arrAt_in w hin _).trans (A_eq3 (V6 m ρ) c w))
  · exact W7_of_ne m ρ c b fun w e => h ⟨w, e⟩

/-- After item 7, region 4: its windows' arrays at what the pipeline leaves (an input as entered, an output with
    every write-back folded in), every other buffer as entered. -/
def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
abbrev V8 : (c : Dev nD) → (b : Ref sig .tc) → Buf (Elt F) ((c : Thread nD τ).loc b) := fun c b => W8 m ρ c b
/-- At region 4's exit each of its arrays holds what the pipeline leaves, every other buffer what it held at entry. -/
theorem hF4 (c : Dev nD) (w : Fin cfg4.W) : (dat4 (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)
/-- A reference that is no output window's array keeps its contents: an input window's array is never written
    back to, and a buffer that is no window's array bypasses the region. -/
theorem W8_keep (c : Dev nD) (b : Ref sig .tc) (hb : ∀ w, (cfg4.win w).isOut = true → Pipeline.arrRef spec4 w ≠ b) :
    W8 m ρ c (Proc.devRef .tc b) = W7 m ρ c (Proc.devRef .tc b) := by
  by_cases h : ∃ w, Pipeline.arrRef spec4 w = b
  · obtain ⟨w, rfl⟩ := h
    have hin : (cfg4.win w).isOut = false := by
      cases hio : (cfg4.win w).isOut
      · rfl
      · exact absurd rfl (hb w hio)
    exact (W8_arr m ρ c w).trans (((dat4 (V7 m ρ) c).arrAt_in w hin _).trans (A_eq4 (V7 m ρ) c w))
  · exact W8_of_ne m ρ c b fun w e => h ⟨w, e⟩

/-- After item 8, the host stretch `hostOps5`: each buffer its operations write rewritten, the rest kept. -/
def W9 (c : Dev nD) : Valuation τ sig (Elt F) := StableHlo.after hostOps5 (W8 m ρ c)
abbrev V9 : (c : Dev nD) → (b : Ref sig .tc) → Buf (Elt F) ((c : Thread nD τ).loc b) := fun c b => W9 m ρ c b
/-- A reference the stretch does not write keeps its contents. -/
theorem W9_of (c : Dev nD) (r : Ref sig .tc) (h : r ∉ hostOps5_W) :
    W9 m ρ c (Proc.devRef .tc r) = W8 m ρ c (Proc.devRef .tc r) :=
  StableHlo.after_of_writes_sub hostOps5 _ hostOps5_writes h

/-- After item 9, region 5: its windows' arrays at what the pipeline leaves (an input as entered, an output with
    every write-back folded in), every other buffer as entered. -/
def W10 (c : Dev nD) : Valuation τ sig (Elt F) :=
  Pipeline.withArrays spec5 c (W9 m ρ c) fun w => (dat5 (V9 m ρ) c).arrAt w cfg5.N
theorem W10_arr (c : Dev nD) (w : Fin cfg5.W) :
    W10 m ρ c (Proc.devRef .tc (Pipeline.arrRef spec5 w)) = (dat5 (V9 m ρ) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m ρ c (Proc.devRef .tc b) = W9 m ρ c (Proc.devRef .tc b) := by
  unfold W10; exact Pipeline.withArrays_of_ne spec5 c _ _ b hb
abbrev V10 : (c : Dev nD) → (b : Ref sig .tc) → Buf (Elt F) ((c : Thread nD τ).loc b) := fun c b => W10 m ρ c b
/-- At region 5's exit each of its arrays holds what the pipeline leaves, every other buffer what it held at entry. -/
theorem hF5 (c : Dev nD) (w : Fin cfg5.W) : (dat5 (V9 m ρ) c).arrAt w cfg5.N = V10 m ρ c (Pipeline.arrRef spec5 w) :=
  (W10_arr m ρ c w).symm
theorem hrest5 (c : Dev nD) : ∀ b, b ∉ Finset.univ.image (Pipeline.arrRef spec5) → V10 m ρ c b = V9 m ρ c b :=
  fun b hb => W10_of_ne m ρ c b fun w e => hb (Finset.mem_image.mpr ⟨w, Finset.mem_univ _, e⟩)
/-- A reference that is no output window's array keeps its contents: an input window's array is never written
    back to, and a buffer that is no window's array bypasses the region. -/
theorem W10_keep (c : Dev nD) (b : Ref sig .tc) (hb : ∀ w, (cfg5.win w).isOut = true → Pipeline.arrRef spec5 w ≠ b) :
    W10 m ρ c (Proc.devRef .tc b) = W9 m ρ c (Proc.devRef .tc b) := by
  by_cases h : ∃ w, Pipeline.arrRef spec5 w = b
  · obtain ⟨w, rfl⟩ := h
    have hin : (cfg5.win w).isOut = false := by
      cases hio : (cfg5.win w).isOut
      · rfl
      · exact absurd rfl (hb w hio)
    exact (W10_arr m ρ c w).trans (((dat5 (V9 m ρ) c).arrAt_in w hin _).trans (A_eq5 (V9 m ρ) c w))
  · exact W10_of_ne m ρ c b fun w e => h ⟨w, e⟩

/-- After item 10, region 6: its windows' arrays at what the pipeline leaves (an input as entered, an output with
    every write-back folded in), every other buffer as entered. -/
def W11 (c : Dev nD) : Valuation τ sig (Elt F) :=
  Pipeline.withArrays spec6 c (W10 m ρ c) fun w => (dat6 (V10 m ρ) c).arrAt w cfg6.N
theorem W11_arr (c : Dev nD) (w : Fin cfg6.W) :
    W11 m ρ c (Proc.devRef .tc (Pipeline.arrRef spec6 w)) = (dat6 (V10 m ρ) c).arrAt w cfg6.N := by
  unfold W11; exact Pipeline.withArrays_arr spec6 launch6.win.arr_inj c _ _ w
theorem W11_of_ne (c : Dev nD) (b : Ref sig .tc) (hb : ∀ w, Pipeline.arrRef spec6 w ≠ b) :
    W11 m ρ c (Proc.devRef .tc b) = W10 m ρ c (Proc.devRef .tc b) := by
  unfold W11; exact Pipeline.withArrays_of_ne spec6 c _ _ b hb
abbrev V11 : (c : Dev nD) → (b : Ref sig .tc) → Buf (Elt F) ((c : Thread nD τ).loc b) := fun c b => W11 m ρ c b
/-- At region 6's exit each of its arrays holds what the pipeline leaves, every other buffer what it held at entry. -/
theorem hF6 (c : Dev nD) (w : Fin cfg6.W) : (dat6 (V10 m ρ) c).arrAt w cfg6.N = V11 m ρ c (Pipeline.arrRef spec6 w) :=
  (W11_arr m ρ c w).symm
theorem hrest6 (c : Dev nD) : ∀ b, b ∉ Finset.univ.image (Pipeline.arrRef spec6) → V11 m ρ c b = V10 m ρ c b :=
  fun b hb => W11_of_ne m ρ c b fun w e => hb (Finset.mem_image.mpr ⟨w, Finset.mem_univ _, e⟩)
/-- A reference that is no output window's array keeps its contents: an input window's array is never written
    back to, and a buffer that is no window's array bypasses the region. -/
theorem W11_keep (c : Dev nD) (b : Ref sig .tc) (hb : ∀ w, (cfg6.win w).isOut = true → Pipeline.arrRef spec6 w ≠ b) :
    W11 m ρ c (Proc.devRef .tc b) = W10 m ρ c (Proc.devRef .tc b) := by
  by_cases h : ∃ w, Pipeline.arrRef spec6 w = b
  · obtain ⟨w, rfl⟩ := h
    have hin : (cfg6.win w).isOut = false := by
      cases hio : (cfg6.win w).isOut
      · rfl
      · exact absurd rfl (hb w hio)
    exact (W11_arr m ρ c w).trans (((dat6 (V10 m ρ) c).arrAt_in w hin _).trans (A_eq6 (V10 m ρ) c w))
  · exact W11_of_ne m ρ c b fun w e => h ⟨w, e⟩

/-- After item 11, the host stretch `hostOps7`: each buffer its operations write rewritten, the rest kept. -/
def W12 (c : Dev nD) : Valuation τ sig (Elt F) := StableHlo.after hostOps7 (W11 m ρ c)
abbrev V12 : (c : Dev nD) → (b : Ref sig .tc) → Buf (Elt F) ((c : Thread nD τ).loc b) := fun c b => W12 m ρ c b
/-- A reference the stretch does not write keeps its contents. -/
theorem W12_of (c : Dev nD) (r : Ref sig .tc) (h : r ∉ hostOps7_W) :
    W12 m ρ c (Proc.devRef .tc r) = W11 m ρ c (Proc.devRef .tc r) :=
  StableHlo.after_of_writes_sub hostOps7 _ hostOps7_writes h

/-- After item 12, region 7: its windows' arrays at what the pipeline leaves (an input as entered, an output with
    every write-back folded in), every other buffer as entered. -/
def W13 (c : Dev nD) : Valuation τ sig (Elt F) :=
  Pipeline.withArrays spec7 c (W12 m ρ c) fun w => (dat7 (V12 m ρ) c).arrAt w cfg7.N
theorem W13_arr (c : Dev nD) (w : Fin cfg7.W) :
    W13 m ρ c (Proc.devRef .tc (Pipeline.arrRef spec7 w)) = (dat7 (V12 m ρ) c).arrAt w cfg7.N := by
  unfold W13; exact Pipeline.withArrays_arr spec7 launch7.win.arr_inj c _ _ w
theorem W13_of_ne (c : Dev nD) (b : Ref sig .tc) (hb : ∀ w, Pipeline.arrRef spec7 w ≠ b) :
    W13 m ρ c (Proc.devRef .tc b) = W12 m ρ c (Proc.devRef .tc b) := by
  unfold W13; exact Pipeline.withArrays_of_ne spec7 c _ _ b hb
abbrev V13 : (c : Dev nD) → (b : Ref sig .tc) → Buf (Elt F) ((c : Thread nD τ).loc b) := fun c b => W13 m ρ c b
/-- At region 7's exit each of its arrays holds what the pipeline leaves, every other buffer what it held at entry. -/
theorem hF7 (c : Dev nD) (w : Fin cfg7.W) : (dat7 (V12 m ρ) c).arrAt w cfg7.N = V13 m ρ c (Pipeline.arrRef spec7 w) :=
  (W13_arr m ρ c w).symm
theorem hrest7 (c : Dev nD) : ∀ b, b ∉ Finset.univ.image (Pipeline.arrRef spec7) → V13 m ρ c b = V12 m ρ c b :=
  fun b hb => W13_of_ne m ρ c b fun w e => hb (Finset.mem_image.mpr ⟨w, Finset.mem_univ _, e⟩)
/-- A reference that is no output window's array keeps its contents: an input window's array is never written
    back to, and a buffer that is no window's array bypasses the region. -/
theorem W13_keep (c : Dev nD) (b : Ref sig .tc) (hb : ∀ w, (cfg7.win w).isOut = true → Pipeline.arrRef spec7 w ≠ b) :
    W13 m ρ c (Proc.devRef .tc b) = W12 m ρ c (Proc.devRef .tc b) := by
  by_cases h : ∃ w, Pipeline.arrRef spec7 w = b
  · obtain ⟨w, rfl⟩ := h
    have hin : (cfg7.win w).isOut = false := by
      cases hio : (cfg7.win w).isOut
      · rfl
      · exact absurd rfl (hb w hio)
    exact (W13_arr m ρ c w).trans (((dat7 (V12 m ρ) c).arrAt_in w hin _).trans (A_eq7 (V12 m ρ) c w))
  · exact W13_of_ne m ρ c b fun w e => h ⟨w, e⟩

/-- After item 13, region 8: its windows' arrays at what the pipeline leaves (an input as entered, an output with
    every write-back folded in), every other buffer as entered. -/
def W14 (c : Dev nD) : Valuation τ sig (Elt F) :=
  Pipeline.withArrays spec8 c (W13 m ρ c) fun w => (dat8 (V13 m ρ) c).arrAt w cfg8.N
theorem W14_arr (c : Dev nD) (w : Fin cfg8.W) :
    W14 m ρ c (Proc.devRef .tc (Pipeline.arrRef spec8 w)) = (dat8 (V13 m ρ) c).arrAt w cfg8.N := by
  unfold W14; exact Pipeline.withArrays_arr spec8 launch8.win.arr_inj c _ _ w
theorem W14_of_ne (c : Dev nD) (b : Ref sig .tc) (hb : ∀ w, Pipeline.arrRef spec8 w ≠ b) :
    W14 m ρ c (Proc.devRef .tc b) = W13 m ρ c (Proc.devRef .tc b) := by
  unfold W14; exact Pipeline.withArrays_of_ne spec8 c _ _ b hb
abbrev V14 : (c : Dev nD) → (b : Ref sig .tc) → Buf (Elt F) ((c : Thread nD τ).loc b) := fun c b => W14 m ρ c b
/-- At region 8's exit each of its arrays holds what the pipeline leaves, every other buffer what it held at entry. -/
theorem hF8 (c : Dev nD) (w : Fin cfg8.W) : (dat8 (V13 m ρ) c).arrAt w cfg8.N = V14 m ρ c (Pipeline.arrRef spec8 w) :=
  (W14_arr m ρ c w).symm
theorem hrest8 (c : Dev nD) : ∀ b, b ∉ Finset.univ.image (Pipeline.arrRef spec8) → V14 m ρ c b = V13 m ρ c b :=
  fun b hb => W14_of_ne m ρ c b fun w e => hb (Finset.mem_image.mpr ⟨w, Finset.mem_univ _, e⟩)
/-- A reference that is no output window's array keeps its contents: an input window's array is never written
    back to, and a buffer that is no window's array bypasses the region. -/
theorem W14_keep (c : Dev nD) (b : Ref sig .tc) (hb : ∀ w, (cfg8.win w).isOut = true → Pipeline.arrRef spec8 w ≠ b) :
    W14 m ρ c (Proc.devRef .tc b) = W13 m ρ c (Proc.devRef .tc b) := by
  by_cases h : ∃ w, Pipeline.arrRef spec8 w = b
  · obtain ⟨w, rfl⟩ := h
    have hin : (cfg8.win w).isOut = false := by
      cases hio : (cfg8.win w).isOut
      · rfl
      · exact absurd rfl (hb w hio)
    exact (W14_arr m ρ c w).trans (((dat8 (V13 m ρ) c).arrAt_in w hin _).trans (A_eq8 (V13 m ρ) c w))
  · exact W14_of_ne m ρ c b fun w e => h ⟨w, e⟩

/-- After item 14, the host stretch `hostOps9`: each buffer its operations write rewritten, the rest kept. -/
def W15 (c : Dev nD) : Valuation τ sig (Elt F) := StableHlo.after hostOps9 (W14 m ρ c)
abbrev V15 : (c : Dev nD) → (b : Ref sig .tc) → Buf (Elt F) ((c : Thread nD τ).loc b) := fun c b => W15 m ρ c b
/-- A reference the stretch does not write keeps its contents. -/
theorem W15_of (c : Dev nD) (r : Ref sig .tc) (h : r ∉ hostOps9_W) :
    W15 m ρ c (Proc.devRef .tc r) = W14 m ρ c (Proc.devRef .tc r) :=
  StableHlo.after_of_writes_sub hostOps9 _ hostOps9_writes h

/-- After item 15, region 9: its windows' arrays at what the pipeline leaves (an input as entered, an output with
    every write-back folded in), every other buffer as entered. -/
def W16 (c : Dev nD) : Valuation τ sig (Elt F) :=
  Pipeline.withArrays spec9 c (W15 m ρ c) fun w => (dat9 (V15 m ρ) c).arrAt w cfg9.N
theorem W16_arr (c : Dev nD) (w : Fin cfg9.W) :
    W16 m ρ c (Proc.devRef .tc (Pipeline.arrRef spec9 w)) = (dat9 (V15 m ρ) c).arrAt w cfg9.N := by
  unfold W16; exact Pipeline.withArrays_arr spec9 launch9.win.arr_inj c _ _ w
theorem W16_of_ne (c : Dev nD) (b : Ref sig .tc) (hb : ∀ w, Pipeline.arrRef spec9 w ≠ b) :
    W16 m ρ c (Proc.devRef .tc b) = W15 m ρ c (Proc.devRef .tc b) := by
  unfold W16; exact Pipeline.withArrays_of_ne spec9 c _ _ b hb
abbrev V16 : (c : Dev nD) → (b : Ref sig .tc) → Buf (Elt F) ((c : Thread nD τ).loc b) := fun c b => W16 m ρ c b
/-- At region 9's exit each of its arrays holds what the pipeline leaves, every other buffer what it held at entry. -/
theorem hF9 (c : Dev nD) (w : Fin cfg9.W) : (dat9 (V15 m ρ) c).arrAt w cfg9.N = V16 m ρ c (Pipeline.arrRef spec9 w) :=
  (W16_arr m ρ c w).symm
theorem hrest9 (c : Dev nD) : ∀ b, b ∉ Finset.univ.image (Pipeline.arrRef spec9) → V16 m ρ c b = V15 m ρ c b :=
  fun b hb => W16_of_ne m ρ c b fun w e => hb (Finset.mem_image.mpr ⟨w, Finset.mem_univ _, e⟩)
/-- A reference that is no output window's array keeps its contents: an input window's array is never written
    back to, and a buffer that is no window's array bypasses the region. -/
theorem W16_keep (c : Dev nD) (b : Ref sig .tc) (hb : ∀ w, (cfg9.win w).isOut = true → Pipeline.arrRef spec9 w ≠ b) :
    W16 m ρ c (Proc.devRef .tc b) = W15 m ρ c (Proc.devRef .tc b) := by
  by_cases h : ∃ w, Pipeline.arrRef spec9 w = b
  · obtain ⟨w, rfl⟩ := h
    have hin : (cfg9.win w).isOut = false := by
      cases hio : (cfg9.win w).isOut
      · rfl
      · exact absurd rfl (hb w hio)
    exact (W16_arr m ρ c w).trans (((dat9 (V15 m ρ) c).arrAt_in w hin _).trans (A_eq9 (V15 m ρ) c w))
  · exact W16_of_ne m ρ c b fun w e => h ⟨w, e⟩

/-- After item 16, region 10: its windows' arrays at what the pipeline leaves (an input as entered, an output with
    every write-back folded in), every other buffer as entered. -/
def W17 (c : Dev nD) : Valuation τ sig (Elt F) :=
  Pipeline.withArrays spec10 c (W16 m ρ c) fun w => (dat10 (V16 m ρ) c).arrAt w cfg10.N
theorem W17_arr (c : Dev nD) (w : Fin cfg10.W) :
    W17 m ρ c (Proc.devRef .tc (Pipeline.arrRef spec10 w)) = (dat10 (V16 m ρ) c).arrAt w cfg10.N := by
  unfold W17; exact Pipeline.withArrays_arr spec10 launch10.win.arr_inj c _ _ w
theorem W17_of_ne (c : Dev nD) (b : Ref sig .tc) (hb : ∀ w, Pipeline.arrRef spec10 w ≠ b) :
    W17 m ρ c (Proc.devRef .tc b) = W16 m ρ c (Proc.devRef .tc b) := by
  unfold W17; exact Pipeline.withArrays_of_ne spec10 c _ _ b hb
abbrev V17 : (c : Dev nD) → (b : Ref sig .tc) → Buf (Elt F) ((c : Thread nD τ).loc b) := fun c b => W17 m ρ c b
/-- At region 10's exit each of its arrays holds what the pipeline leaves, every other buffer what it held at entry. -/
theorem hF10 (c : Dev nD) (w : Fin cfg10.W) : (dat10 (V16 m ρ) c).arrAt w cfg10.N = V17 m ρ c (Pipeline.arrRef spec10 w) :=
  (W17_arr m ρ c w).symm
theorem hrest10 (c : Dev nD) : ∀ b, b ∉ Finset.univ.image (Pipeline.arrRef spec10) → V17 m ρ c b = V16 m ρ c b :=
  fun b hb => W17_of_ne m ρ c b fun w e => hb (Finset.mem_image.mpr ⟨w, Finset.mem_univ _, e⟩)
/-- A reference that is no output window's array keeps its contents: an input window's array is never written
    back to, and a buffer that is no window's array bypasses the region. -/
theorem W17_keep (c : Dev nD) (b : Ref sig .tc) (hb : ∀ w, (cfg10.win w).isOut = true → Pipeline.arrRef spec10 w ≠ b) :
    W17 m ρ c (Proc.devRef .tc b) = W16 m ρ c (Proc.devRef .tc b) := by
  by_cases h : ∃ w, Pipeline.arrRef spec10 w = b
  · obtain ⟨w, rfl⟩ := h
    have hin : (cfg10.win w).isOut = false := by
      cases hio : (cfg10.win w).isOut
      · rfl
      · exact absurd rfl (hb w hio)
    exact (W17_arr m ρ c w).trans (((dat10 (V16 m ρ) c).arrAt_in w hin _).trans (A_eq10 (V16 m ρ) c w))
  · exact W17_of_ne m ρ c b fun w e => h ⟨w, e⟩

/-- After item 17, the host stretch `hostOps11`: each buffer its operations write rewritten, the rest kept. -/
def W18 (c : Dev nD) : Valuation τ sig (Elt F) := StableHlo.after hostOps11 (W17 m ρ c)
abbrev V18 : (c : Dev nD) → (b : Ref sig .tc) → Buf (Elt F) ((c : Thread nD τ).loc b) := fun c b => W18 m ρ c b
/-- A reference the stretch does not write keeps its contents. -/
theorem W18_of (c : Dev nD) (r : Ref sig .tc) (h : r ∉ hostOps11_W) :
    W18 m ρ c (Proc.devRef .tc r) = W17 m ρ c (Proc.devRef .tc r) :=
  StableHlo.after_of_writes_sub hostOps11 _ hostOps11_writes h

/-- After item 18, region 11: its windows' arrays at what the pipeline leaves (an input as entered, an output with
    every write-back folded in), every other buffer as entered. -/
def W19 (c : Dev nD) : Valuation τ sig (Elt F) :=
  Pipeline.withArrays spec11 c (W18 m ρ c) fun w => (dat11 (V18 m ρ) c).arrAt w cfg11.N
theorem W19_arr (c : Dev nD) (w : Fin cfg11.W) :
    W19 m ρ c (Proc.devRef .tc (Pipeline.arrRef spec11 w)) = (dat11 (V18 m ρ) c).arrAt w cfg11.N := by
  unfold W19; exact Pipeline.withArrays_arr spec11 launch11.win.arr_inj c _ _ w
theorem W19_of_ne (c : Dev nD) (b : Ref sig .tc) (hb : ∀ w, Pipeline.arrRef spec11 w ≠ b) :
    W19 m ρ c (Proc.devRef .tc b) = W18 m ρ c (Proc.devRef .tc b) := by
  unfold W19; exact Pipeline.withArrays_of_ne spec11 c _ _ b hb
abbrev V19 : (c : Dev nD) → (b : Ref sig .tc) → Buf (Elt F) ((c : Thread nD τ).loc b) := fun c b => W19 m ρ c b
/-- At region 11's exit each of its arrays holds what the pipeline leaves, every other buffer what it held at entry. -/
theorem hF11 (c : Dev nD) (w : Fin cfg11.W) : (dat11 (V18 m ρ) c).arrAt w cfg11.N = V19 m ρ c (Pipeline.arrRef spec11 w) :=
  (W19_arr m ρ c w).symm
theorem hrest11 (c : Dev nD) : ∀ b, b ∉ Finset.univ.image (Pipeline.arrRef spec11) → V19 m ρ c b = V18 m ρ c b :=
  fun b hb => W19_of_ne m ρ c b fun w e => hb (Finset.mem_image.mpr ⟨w, Finset.mem_univ _, e⟩)
/-- A reference that is no output window's array keeps its contents: an input window's array is never written
    back to, and a buffer that is no window's array bypasses the region. -/
theorem W19_keep (c : Dev nD) (b : Ref sig .tc) (hb : ∀ w, (cfg11.win w).isOut = true → Pipeline.arrRef spec11 w ≠ b) :
    W19 m ρ c (Proc.devRef .tc b) = W18 m ρ c (Proc.devRef .tc b) := by
  by_cases h : ∃ w, Pipeline.arrRef spec11 w = b
  · obtain ⟨w, rfl⟩ := h
    have hin : (cfg11.win w).isOut = false := by
      cases hio : (cfg11.win w).isOut
      · rfl
      · exact absurd rfl (hb w hio)
    exact (W19_arr m ρ c w).trans (((dat11 (V18 m ρ) c).arrAt_in w hin _).trans (A_eq11 (V18 m ρ) c w))
  · exact W19_of_ne m ρ c b fun w e => h ⟨w, e⟩

/-- After item 19, the host stretch `hostOps12`: each buffer its operations write rewritten, the rest kept. -/
def W20 (c : Dev nD) : Valuation τ sig (Elt F) := StableHlo.after hostOps12 (W19 m ρ c)
abbrev V20 : (c : Dev nD) → (b : Ref sig .tc) → Buf (Elt F) ((c : Thread nD τ).loc b) := fun c b => W20 m ρ c b
/-- A reference the stretch does not write keeps its contents. -/
theorem W20_of (c : Dev nD) (r : Ref sig .tc) (h : r ∉ hostOps12_W) :
    W20 m ρ c (Proc.devRef .tc r) = W19 m ρ c (Proc.devRef .tc r) :=
  StableHlo.after_of_writes_sub hostOps12 _ hostOps12_writes h

/-- After item 20, region 12: its windows' arrays at what the pipeline leaves (an input as entered, an output with
    every write-back folded in), every other buffer as entered. -/
def W21 (c : Dev nD) : Valuation τ sig (Elt F) :=
  Pipeline.withArrays spec12 c (W20 m ρ c) fun w => (dat12 (V20 m ρ) c).arrAt w cfg12.N
theorem W21_arr (c : Dev nD) (w : Fin cfg12.W) :
    W21 m ρ c (Proc.devRef .tc (Pipeline.arrRef spec12 w)) = (dat12 (V20 m ρ) c).arrAt w cfg12.N := by
  unfold W21; exact Pipeline.withArrays_arr spec12 launch12.win.arr_inj c _ _ w
theorem W21_of_ne (c : Dev nD) (b : Ref sig .tc) (hb : ∀ w, Pipeline.arrRef spec12 w ≠ b) :
    W21 m ρ c (Proc.devRef .tc b) = W20 m ρ c (Proc.devRef .tc b) := by
  unfold W21; exact Pipeline.withArrays_of_ne spec12 c _ _ b hb
abbrev V21 : (c : Dev nD) → (b : Ref sig .tc) → Buf (Elt F) ((c : Thread nD τ).loc b) := fun c b => W21 m ρ c b
/-- At region 12's exit each of its arrays holds what the pipeline leaves, every other buffer what it held at entry. -/
theorem hF12 (c : Dev nD) (w : Fin cfg12.W) : (dat12 (V20 m ρ) c).arrAt w cfg12.N = V21 m ρ c (Pipeline.arrRef spec12 w) :=
  (W21_arr m ρ c w).symm
theorem hrest12 (c : Dev nD) : ∀ b, b ∉ Finset.univ.image (Pipeline.arrRef spec12) → V21 m ρ c b = V20 m ρ c b :=
  fun b hb => W21_of_ne m ρ c b fun w e => hb (Finset.mem_image.mpr ⟨w, Finset.mem_univ _, e⟩)
/-- A reference that is no output window's array keeps its contents: an input window's array is never written
    back to, and a buffer that is no window's array bypasses the region. -/
theorem W21_keep (c : Dev nD) (b : Ref sig .tc) (hb : ∀ w, (cfg12.win w).isOut = true → Pipeline.arrRef spec12 w ≠ b) :
    W21 m ρ c (Proc.devRef .tc b) = W20 m ρ c (Proc.devRef .tc b) := by
  by_cases h : ∃ w, Pipeline.arrRef spec12 w = b
  · obtain ⟨w, rfl⟩ := h
    have hin : (cfg12.win w).isOut = false := by
      cases hio : (cfg12.win w).isOut
      · rfl
      · exact absurd rfl (hb w hio)
    exact (W21_arr m ρ c w).trans (((dat12 (V20 m ρ) c).arrAt_in w hin _).trans (A_eq12 (V20 m ρ) c w))
  · exact W21_of_ne m ρ c b fun w e => h ⟨w, e⟩

/-- After item 21, the host stretch `hostOps13`: each buffer its operations write rewritten, the rest kept. -/
def W22 (c : Dev nD) : Valuation τ sig (Elt F) := StableHlo.after hostOps13 (W21 m ρ c)
abbrev V22 : (c : Dev nD) → (b : Ref sig .tc) → Buf (Elt F) ((c : Thread nD τ).loc b) := fun c b => W22 m ρ c b
/-- A reference the stretch does not write keeps its contents. -/
theorem W22_of (c : Dev nD) (r : Ref sig .tc) (h : r ∉ hostOps13_W) :
    W22 m ρ c (Proc.devRef .tc r) = W21 m ρ c (Proc.devRef .tc r) :=
  StableHlo.after_of_writes_sub hostOps13 _ hostOps13_writes h

/-! ## The arguments end as launched -/

/-- A reference no item writes — no host stretch has it among the references it writes, no region has it as an
    output window's array — holds at the end what it held at launch: the fold walked back item by item. -/
theorem W22_untouched (c : Dev nD) (b : Ref sig .tc)
    (h0 : b ∉ hostOps0_W)
    (h1 : ∀ w, (cfg0.win w).isOut = true → Pipeline.arrRef spec0 w ≠ b)
    (h2 : b ∉ hostOps1_W)
    (h3 : ∀ w, (cfg1.win w).isOut = true → Pipeline.arrRef spec1 w ≠ b)
    (h4 : ∀ w, (cfg2.win w).isOut = true → Pipeline.arrRef spec2 w ≠ b)
    (h5 : b ∉ hostOps3_W)
    (h6 : ∀ w, (cfg3.win w).isOut = true → Pipeline.arrRef spec3 w ≠ b)
    (h7 : ∀ w, (cfg4.win w).isOut = true → Pipeline.arrRef spec4 w ≠ b)
    (h8 : b ∉ hostOps5_W)
    (h9 : ∀ w, (cfg5.win w).isOut = true → Pipeline.arrRef spec5 w ≠ b)
    (h10 : ∀ w, (cfg6.win w).isOut = true → Pipeline.arrRef spec6 w ≠ b)
    (h11 : b ∉ hostOps7_W)
    (h12 : ∀ w, (cfg7.win w).isOut = true → Pipeline.arrRef spec7 w ≠ b)
    (h13 : ∀ w, (cfg8.win w).isOut = true → Pipeline.arrRef spec8 w ≠ b)
    (h14 : b ∉ hostOps9_W)
    (h15 : ∀ w, (cfg9.win w).isOut = true → Pipeline.arrRef spec9 w ≠ b)
    (h16 : ∀ w, (cfg10.win w).isOut = true → Pipeline.arrRef spec10 w ≠ b)
    (h17 : b ∉ hostOps11_W)
    (h18 : ∀ w, (cfg11.win w).isOut = true → Pipeline.arrRef spec11 w ≠ b)
    (h19 : b ∉ hostOps12_W)
    (h20 : ∀ w, (cfg12.win w).isOut = true → Pipeline.arrRef spec12 w ≠ b)
    (h21 : b ∉ hostOps13_W) :
    W22 m ρ c (Proc.devRef .tc b) = W0 m ρ c (Proc.devRef .tc b) :=
  (W22_of m ρ c b h21).trans <|
    (W21_keep m ρ c b h20).trans <|
    (W20_of m ρ c b h19).trans <|
    (W19_keep m ρ c b h18).trans <|
    (W18_of m ρ c b h17).trans <|
    (W17_keep m ρ c b h16).trans <|
    (W16_keep m ρ c b h15).trans <|
    (W15_of m ρ c b h14).trans <|
    (W14_keep m ρ c b h13).trans <|
    (W13_keep m ρ c b h12).trans <|
    (W12_of m ρ c b h11).trans <|
    (W11_keep m ρ c b h10).trans <|
    (W10_keep m ρ c b h9).trans <|
    (W9_of m ρ c b h8).trans <|
    (W8_keep m ρ c b h7).trans <|
    (W7_keep m ρ c b h6).trans <|
    (W6_of m ρ c b h5).trans <|
    (W5_keep m ρ c b h4).trans <|
    (W4_keep m ρ c b h3).trans <|
    (W3_of m ρ c b h2).trans <|
    (W2_keep m ρ c b h1).trans <|
    (W1_of m ρ c b h0)

theorem W22_main_arg0 (c : Dev nD) : W22 m ρ c (Proc.devRef .tc main_arg0) = m ((c : Thread nD τ).loc main_arg0) :=
  (W22_untouched m ρ c main_arg0 (by decide) (by decide) (by decide) (by decide) (by decide) (by decide) (by decide) (by decide) (by decide) (by decide) (by decide) (by decide) (by decide) (by decide) (by decide) (by decide) (by decide) (by decide) (by decide) (by decide) (by decide) (by decide)).trans rfl
theorem W22_main_arg1 (c : Dev nD) : W22 m ρ c (Proc.devRef .tc main_arg1) = m ((c : Thread nD τ).loc main_arg1) :=
  (W22_untouched m ρ c main_arg1 (by decide) (by decide) (by decide) (by decide) (by decide) (by decide) (by decide) (by decide) (by decide) (by decide) (by decide) (by decide) (by decide) (by decide) (by decide) (by decide) (by decide) (by decide) (by decide) (by decide) (by decide) (by decide)).trans rfl
theorem W22_main_arg2 (c : Dev nD) : W22 m ρ c (Proc.devRef .tc main_arg2) = m ((c : Thread nD τ).loc main_arg2) :=
  (W22_untouched m ρ c main_arg2 (by decide) (by decide) (by decide) (by decide) (by decide) (by decide) (by decide) (by decide) (by decide) (by decide) (by decide) (by decide) (by decide) (by decide) (by decide) (by decide) (by decide) (by decide) (by decide) (by decide) (by decide) (by decide)).trans rfl
theorem W22_main_arg3 (c : Dev nD) : W22 m ρ c (Proc.devRef .tc main_arg3) = m ((c : Thread nD τ).loc main_arg3) :=
  (W22_untouched m ρ c main_arg3 (by decide) (by decide) (by decide) (by decide) (by decide) (by decide) (by decide) (by decide) (by decide) (by decide) (by decide) (by decide) (by decide) (by decide) (by decide) (by decide) (by decide) (by decide) (by decide) (by decide) (by decide) (by decide)).trans rfl
theorem W22_main_arg4 (c : Dev nD) : W22 m ρ c (Proc.devRef .tc main_arg4) = m ((c : Thread nD τ).loc main_arg4) :=
  (W22_untouched m ρ c main_arg4 (by decide) (by decide) (by decide) (by decide) (by decide) (by decide) (by decide) (by decide) (by decide) (by decide) (by decide) (by decide) (by decide) (by decide) (by decide) (by decide) (by decide) (by decide) (by decide) (by decide) (by decide) (by decide)).trans rfl
theorem W22_main_arg5 (c : Dev nD) : W22 m ρ c (Proc.devRef .tc main_arg5) = m ((c : Thread nD τ).loc main_arg5) :=
  (W22_untouched m ρ c main_arg5 (by decide) (by decide) (by decide) (by decide) (by decide) (by decide) (by decide) (by decide) (by decide) (by decide) (by decide) (by decide) (by decide) (by decide) (by decide) (by decide) (by decide) (by decide) (by decide) (by decide) (by decide) (by decide)).trans rfl
theorem W22_main_arg6 (c : Dev nD) : W22 m ρ c (Proc.devRef .tc main_arg6) = m ((c : Thread nD τ).loc main_arg6) :=
  (W22_untouched m ρ c main_arg6 (by decide) (by decide) (by decide) (by decide) (by decide) (by decide) (by decide) (by decide) (by decide) (by decide) (by decide) (by decide) (by decide) (by decide) (by decide) (by decide) (by decide) (by decide) (by decide) (by decide) (by decide) (by decide)).trans rfl
theorem W22_main_arg7 (c : Dev nD) : W22 m ρ c (Proc.devRef .tc main_arg7) = m ((c : Thread nD τ).loc main_arg7) :=
  (W22_untouched m ρ c main_arg7 (by decide) (by decide) (by decide) (by decide) (by decide) (by decide) (by decide) (by decide) (by decide) (by decide) (by decide) (by decide) (by decide) (by decide) (by decide) (by decide) (by decide) (by decide) (by decide) (by decide) (by decide) (by decide)).trans rfl
theorem W22_main_arg8 (c : Dev nD) : W22 m ρ c (Proc.devRef .tc main_arg8) = m ((c : Thread nD τ).loc main_arg8) :=
  (W22_untouched m ρ c main_arg8 (by decide) (by decide) (by decide) (by decide) (by decide) (by decide) (by decide) (by decide) (by decide) (by decide) (by decide) (by decide) (by decide) (by decide) (by decide) (by decide) (by decide) (by decide) (by decide) (by decide) (by decide) (by decide)).trans rfl
theorem W22_main_arg9 (c : Dev nD) : W22 m ρ c (Proc.devRef .tc main_arg9) = m ((c : Thread nD τ).loc main_arg9) :=
  (W22_untouched m ρ c main_arg9 (by decide) (by decide) (by decide) (by decide) (by decide) (by decide) (by decide) (by decide) (by decide) (by decide) (by decide) (by decide) (by decide) (by decide) (by decide) (by decide) (by decide) (by decide) (by decide) (by decide) (by decide) (by decide)).trans rfl
theorem W22_main_arg10 (c : Dev nD) : W22 m ρ c (Proc.devRef .tc main_arg10) = m ((c : Thread nD τ).loc main_arg10) :=
  (W22_untouched m ρ c main_arg10 (by decide) (by decide) (by decide) (by decide) (by decide) (by decide) (by decide) (by decide) (by decide) (by decide) (by decide) (by decide) (by decide) (by decide) (by decide) (by decide) (by decide) (by decide) (by decide) (by decide) (by decide) (by decide)).trans rfl
theorem W22_main_arg11 (c : Dev nD) : W22 m ρ c (Proc.devRef .tc main_arg11) = m ((c : Thread nD τ).loc main_arg11) :=
  (W22_untouched m ρ c main_arg11 (by decide) (by decide) (by decide) (by decide) (by decide) (by decide) (by decide) (by decide) (by decide) (by decide) (by decide) (by decide) (by decide) (by decide) (by decide) (by decide) (by decide) (by decide) (by decide) (by decide) (by decide) (by decide)).trans rfl
theorem W22_main_arg12 (c : Dev nD) : W22 m ρ c (Proc.devRef .tc main_arg12) = m ((c : Thread nD τ).loc main_arg12) :=
  (W22_untouched m ρ c main_arg12 (by decide) (by decide) (by decide) (by decide) (by decide) (by decide) (by decide) (by decide) (by decide) (by decide) (by decide) (by decide) (by decide) (by decide) (by decide) (by decide) (by decide) (by decide) (by decide) (by decide) (by decide) (by decide)).trans rfl
theorem W22_main_arg13 (c : Dev nD) : W22 m ρ c (Proc.devRef .tc main_arg13) = m ((c : Thread nD τ).loc main_arg13) :=
  (W22_untouched m ρ c main_arg13 (by decide) (by decide) (by decide) (by decide) (by decide) (by decide) (by decide) (by decide) (by decide) (by decide) (by decide) (by decide) (by decide) (by decide) (by decide) (by decide) (by decide) (by decide) (by decide) (by decide) (by decide) (by decide)).trans rfl
theorem W22_main_arg14 (c : Dev nD) : W22 m ρ c (Proc.devRef .tc main_arg14) = m ((c : Thread nD τ).loc main_arg14) :=
  (W22_untouched m ρ c main_arg14 (by decide) (by decide) (by decide) (by decide) (by decide) (by decide) (by decide) (by decide) (by decide) (by decide) (by decide) (by decide) (by decide) (by decide) (by decide) (by decide) (by decide) (by decide) (by decide) (by decide) (by decide) (by decide)).trans rfl
theorem W22_main_arg15 (c : Dev nD) : W22 m ρ c (Proc.devRef .tc main_arg15) = m ((c : Thread nD τ).loc main_arg15) :=
  (W22_untouched m ρ c main_arg15 (by decide) (by decide) (by decide) (by decide) (by decide) (by decide) (by decide) (by decide) (by decide) (by decide) (by decide) (by decide) (by decide) (by decide) (by decide) (by decide) (by decide) (by decide) (by decide) (by decide) (by decide) (by decide)).trans rfl

end Cert.Kernel.Hand

end
-- ==== Proof.K.Regs.lean ====
/- The thirteen kernel regions of @main as segments of its run: each region's proof data taken at the contents of the
   boundary before it, its thread states "every unscoped buffer held at the boundary's contents, beside the generator
   register and the core owing nothing". -/
import proofs.«421025_j30305289241172_1_alg».proof.Proof.Gen.Kernel.Launch
import proofs.«421025_j30305289241172_1_alg».proof.Proof.Gen.Kernel.Skeleton
import proofs.«421025_j30305289241172_1_alg».proof.Proof.Gen.Kernel.Points
import proofs.«421025_j30305289241172_1_alg».proof.Proof.Gen.Kernel.Regions
import proofs.«421025_j30305289241172_1_alg».proof.Proof.K.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 13) → (pcfgs (F := F) p).Adm := fun p => (cfgs p).toPCfg_adm
/-- Every pipeline's proof data, each at the contents of the boundary its region is entered from. -/
def pdats : (p : Fin 13) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V6 m ρ) c
  | ⟨4, _⟩ => fun c => dat4 (V7 m ρ) c
  | ⟨5, _⟩ => fun c => dat5 (V9 m ρ) c
  | ⟨6, _⟩ => fun c => dat6 (V10 m ρ) c
  | ⟨7, _⟩ => fun c => dat7 (V12 m ρ) c
  | ⟨8, _⟩ => fun c => dat8 (V13 m ρ) c
  | ⟨9, _⟩ => fun c => dat9 (V15 m ρ) c
  | ⟨10, _⟩ => fun c => dat10 (V16 m ρ) c
  | ⟨11, _⟩ => fun c => dat11 (V18 m ρ) c
  | ⟨12, _⟩ => fun c => dat12 (V20 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment: its operations run over the unscoped buffers from the contents `W`, `R` riding along;
    it leaves them at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W22 m ρ c) ∗ ∃ r, prngReg c r)

/-! ## The regions as segments -/

set_option backward.isDefEq.respectTransparency.types false in
/-- REGION 0 over the thread state: entered from every unscoped buffer at `W1`, left at `W2`. Its arrays are
    split out of the unscoped buffers at entry and put back at the exit contents; the generator register goes into the
    region's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays are
    split out of the unscoped buffers at entry and put back at the exit contents; the generator register goes into the
    region's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W4`, left at `W5`. Its arrays are
    split out of the unscoped buffers at entry and put back at the exit contents; the generator register goes into the
    region's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun w => A_eq2 (V4 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W6`, left at `W7`. Its arrays are
    split out of the unscoped buffers at entry and put back at the exit contents; the generator register goes into the
    region's invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := Pipeline.UD sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun w => A_eq3 (V6 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W7`, left at `W8`. Its arrays are
    split out of the unscoped buffers at entry and put back at the exit contents; the generator register goes into the
    region's invariant and comes out; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := Pipeline.UD sig nD τ) (Lvl := ℕ) spec4 c (V7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V7 m ρ c) fun w => A_eq4 (V7 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := Pipeline.UD sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered from every unscoped buffer at `W9`, left at `W10`. Its arrays are
    split out of the unscoped buffers at entry and put back at the exit contents; the generator register goes into the
    region's invariant and comes out; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V9 m ρ) c).loose
  hwaits := Pipeline.hwaits_of_owed_zero _ _ _ _ L lv 5 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := Pipeline.UD sig nD τ) (Lvl := ℕ) spec5 c (V9 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V9 m ρ c) fun w => A_eq5 (V9 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := Pipeline.UD sig nD τ) (Lvl := ℕ)
      launch5.win launch5.arr_whole c (pdats m ρ) ((pdats m ρ 5 c).share_full fun _ => rfl)
      (V9 m ρ c) (V10 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 6 over the thread state: entered from every unscoped buffer at `W10`, left at `W11`. Its arrays are
    split out of the unscoped buffers at entry and put back at the exit contents; the generator register goes into the
    region's invariant and comes out; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V10 m ρ) c).loose
  hwaits := Pipeline.hwaits_of_owed_zero _ _ _ _ L lv 6 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := Pipeline.UD sig nD τ) (Lvl := ℕ) spec6 c (V10 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V10 m ρ c) fun w => A_eq6 (V10 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := Pipeline.UD sig nD τ) (Lvl := ℕ)
      launch6.win launch6.arr_whole c (pdats m ρ) ((pdats m ρ 6 c).share_full fun _ => rfl)
      (V10 m ρ c) (V11 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 7 over the thread state: entered from every unscoped buffer at `W12`, left at `W13`. Its arrays are
    split out of the unscoped buffers at entry and put back at the exit contents; the generator register goes into the
    region's invariant and comes out; nothing is owed; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V12 m ρ) c).loose
  hwaits := Pipeline.hwaits_of_owed_zero _ _ _ _ L lv 7 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := Pipeline.UD sig nD τ) (Lvl := ℕ) spec7 c (V12 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V12 m ρ c) fun w => A_eq7 (V12 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := Pipeline.UD sig nD τ) (Lvl := ℕ)
      launch7.win launch7.arr_whole c (pdats m ρ) ((pdats m ρ 7 c).share_full fun _ => rfl)
      (V12 m ρ c) (V13 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 8 over the thread state: entered from every unscoped buffer at `W13`, left at `W14`. Its arrays are
    split out of the unscoped buffers at entry and put back at the exit contents; the generator register goes into the
    region's invariant and comes out; nothing is owed; the kernel has no semaphore of its own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V13 m ρ) c).loose
  hwaits := Pipeline.hwaits_of_owed_zero _ _ _ _ L lv 8 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := Pipeline.UD sig nD τ) (Lvl := ℕ) spec8 c (V13 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V13 m ρ c) fun w => A_eq8 (V13 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := Pipeline.UD sig nD τ) (Lvl := ℕ)
      launch8.win launch8.arr_whole c (pdats m ρ) ((pdats m ρ 8 c).share_full fun _ => rfl)
      (V13 m ρ c) (V14 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 9 over the thread state: entered from every unscoped buffer at `W15`, left at `W16`. Its arrays are
    split out of the unscoped buffers at entry and put back at the exit contents; the generator register goes into the
    region's invariant and comes out; nothing is owed; the kernel has no semaphore of its own. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V15 m ρ) c).loose
  hwaits := Pipeline.hwaits_of_owed_zero _ _ _ _ L lv 9 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := Pipeline.UD sig nD τ) (Lvl := ℕ) spec9 c (V15 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V15 m ρ c) fun w => A_eq9 (V15 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := Pipeline.UD sig nD τ) (Lvl := ℕ)
      launch9.win launch9.arr_whole c (pdats m ρ) ((pdats m ρ 9 c).share_full fun _ => rfl)
      (V15 m ρ c) (V16 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 10 over the thread state: entered from every unscoped buffer at `W16`, left at `W17`. Its arrays are
    split out of the unscoped buffers at entry and put back at the exit contents; the generator register goes into the
    region's invariant and comes out; nothing is owed; the kernel has no semaphore of its own. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V16 m ρ) c).loose
  hwaits := Pipeline.hwaits_of_owed_zero _ _ _ _ L lv 10 fun _ _ => rfl
  pre c := iprop(StableHlo.held (c : Thread nD τ) (Pipeline.ucRefs τ sig) (W16 m ρ c) ∗ R c)
  post c := iprop(StableHlo.held (c : Thread nD τ) (Pipeline.ucRefs τ sig) (W17 m ρ c) ∗ R c)
  X c := iprop(∃ r, prngReg c r)
  Y c := iprop(∃ r, prngReg c r)
  Z c := Pipeline.unscopedRest (Ix := Unit) (Name := ℕ) (U := Pipeline.UD sig nD τ) (Lvl := ℕ) spec10 c (V16 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V16 m ρ c) fun w => A_eq10 (V16 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := Pipeline.UD sig nD τ) (Lvl := ℕ)
      launch10.win launch10.arr_whole c (pdats m ρ) ((pdats m ρ 10 c).share_full fun _ => rfl)
      (V16 m ρ c) (V17 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 11 over the thread state: entered from every unscoped buffer at `W18`, left at `W19`. Its arrays are
    split out of the unscoped buffers at entry and put back at the exit contents; the generator register goes into the
    region's invariant and comes out; nothing is owed; the kernel has no semaphore of its own. -/
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V18 m ρ) c).loose
  hwaits := Pipeline.hwaits_of_owed_zero _ _ _ _ L lv 11 fun _ _ => rfl
  pre c := iprop(StableHlo.held (c : Thread nD τ) (Pipeline.ucRefs τ sig) (W18 m ρ c) ∗ R c)
  post c := iprop(StableHlo.held (c : Thread nD τ) (Pipeline.ucRefs τ sig) (W19 m ρ c) ∗ R c)
  X c := iprop(∃ r, prngReg c r)
  Y c := iprop(∃ r, prngReg c r)
  Z c := Pipeline.unscopedRest (Ix := Unit) (Name := ℕ) (U := Pipeline.UD sig nD τ) (Lvl := ℕ) spec11 c (V18 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V18 m ρ c) fun w => A_eq11 (V18 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := Pipeline.UD sig nD τ) (Lvl := ℕ)
      launch11.win launch11.arr_whole c (pdats m ρ) ((pdats m ρ 11 c).share_full fun _ => rfl)
      (V18 m ρ c) (V19 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 12 over the thread state: entered from every unscoped buffer at `W20`, left at `W21`. Its arrays are
    split out of the unscoped buffers at entry and put back at the exit contents; the generator register goes into the
    region's invariant and comes out; nothing is owed; the kernel has no semaphore of its own. -/
def reg12 : Pipeline.RegionSeg (pcfgs (F := F)) adm (pdats m ρ) () defs₀ 𝒱₀ L lv 12 where
  win := launch12.win.to₀
  block_pos := launch12.block_pos
  stage_whole := launch12.stage_whole
  K := PEmpty
  osem k := k.elim
  ho := Pipeline.OwnSemFacts.none _
  hbody c := (body_obligation12 (V20 m ρ) c).loose
  hwaits := Pipeline.hwaits_of_owed_zero _ _ _ _ L lv 12 fun _ _ => rfl
  pre c := iprop(StableHlo.held (c : Thread nD τ) (Pipeline.ucRefs τ sig) (W20 m ρ c) ∗ R c)
  post c := iprop(StableHlo.held (c : Thread nD τ) (Pipeline.ucRefs τ sig) (W21 m ρ c) ∗ R c)
  X c := iprop(∃ r, prngReg c r)
  Y c := iprop(∃ r, prngReg c r)
  Z c := Pipeline.unscopedRest (Ix := Unit) (Name := ℕ) (U := Pipeline.UD sig nD τ) (Lvl := ℕ) spec12 c (V20 m ρ c)
  hentry c := by
    rw [Pipeline.ownSems0_none]
    have hsplit := Pipeline.arrays_of_unscopedBufs (p := 12) (pcfgs (F := F)) adm (pdats m ρ) launch12.win launch12.arr_whole c
      ((pdats m ρ 12 c).share_full fun _ => rfl) (V20 m ρ c) fun w => A_eq12 (V20 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec12 c : sProp 𝕄) from ?_).trans (Phi12_first (V20 m ρ) c)
    unfold Pipeline.ΦA
    iintro ⟨Hp, -, Hr⟩
    isplitl [Hr]; · iexact Hr
    iexact Hp
  hout c := by
    rw [Pipeline.ownSems0_none]
    refine (Phi12_last (V20 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := Pipeline.UD sig nD τ) (Lvl := ℕ)
      launch12.win launch12.arr_whole c (pdats m ρ) ((pdats m ρ 12 c).share_full fun _ => rfl)
      (V20 m ρ c) (V21 m ρ c) ((pdats m ρ 12 c).arrAt · cfg12.N) (hF12 m ρ c) (hrest12 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Run.lean ====
/- @main as the run of its 22 segments — a host segment per stretch of operations from its boundary's contents, a region
   per kernel call — and the launch: from any memory with zero counters every weakly fair execution terminates, the
   result buffer holding the last boundary's contents and every argument its launch contents. -/
import proofs.«421025_j30305289241172_1_alg».proof.Proof.Gen.Kernel.Launch
import proofs.«421025_j30305289241172_1_alg».proof.Proof.Gen.Kernel.Skeleton
import proofs.«421025_j30305289241172_1_alg».proof.Proof.Gen.Kernel.Points
import proofs.«421025_j30305289241172_1_alg».proof.Proof.Gen.Kernel.Regions
import proofs.«421025_j30305289241172_1_alg».proof.Proof.K.Chain
import proofs.«421025_j30305289241172_1_alg».proof.Proof.K.Regs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- @main's 22 segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)),
    .region (reg3 m ρ),
    .region (reg4 m ρ),
    .host (hseg hostOps5 hostOps5_sub hostOps5_fresh (W8 m ρ)),
    .region (reg5 m ρ),
    .region (reg6 m ρ),
    .host (hseg hostOps7 hostOps7_sub hostOps7_fresh (W11 m ρ)),
    .region (reg7 m ρ),
    .region (reg8 m ρ),
    .host (hseg hostOps9 hostOps9_sub hostOps9_fresh (W14 m ρ)),
    .region (reg9 m ρ),
    .region (reg10 m ρ),
    .host (hseg hostOps11 hostOps11_sub hostOps11_fresh (W17 m ρ)),
    .region (reg11 m ρ),
    .host (hseg hostOps12 hostOps12_sub hostOps12_fresh (W19 m ρ)),
    .region (reg12 m ρ),
    .host (hseg hostOps13 hostOps13_sub hostOps13_fresh (W21 m ρ)) ]

/-- @main is the run of the segments: it is the chain of its items, and the segments' run is the chain of their fragments. -/
theorem main_run (c : Dev nD) : main (F := F) c = Pipeline.Seg.run (segs m ρ) := (main_chain c).trans (by chain_rfl)

set_option backward.isDefEq.respectTransparency.types false in
/-- THE RUN. At the compiled mesh, from any memory with zero counters, every weakly fair execution of @main on the
    TensorCores terminates, nothing faulting, and in every final state the result buffer holds the last boundary's
    contents `W22` and every argument array what it held at launch: the several-regions launch over the segments, the last
    thread state read against the final state. -/
theorem run : θ_run defs (onTc (τ := τ) (main (F := F))) ⟨m, fun _ => 0, ρ⟩ (fun r => ∀ c : Dev nD,
      r.2.mem ((c.tc : Thread nD τ).loc main_v68) = W22 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W22 m ρ c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c =>
      ⟨h c _ (mem_uc main_v68 (by decide)),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c),
       (h c _ (mem_uc main_arg4 (by decide))).trans (W22_main_arg4 m ρ c),
       (h c _ (mem_uc main_arg5 (by decide))).trans (W22_main_arg5 m ρ c),
       (h c _ (mem_uc main_arg6 (by decide))).trans (W22_main_arg6 m ρ c),
       (h c _ (mem_uc main_arg7 (by decide))).trans (W22_main_arg7 m ρ c),
       (h c _ (mem_uc main_arg8 (by decide))).trans (W22_main_arg8 m ρ c),
       (h c _ (mem_uc main_arg9 (by decide))).trans (W22_main_arg9 m ρ c),
       (h c _ (mem_uc main_arg10 (by decide))).trans (W22_main_arg10 m ρ c),
       (h c _ (mem_uc main_arg11 (by decide))).trans (W22_main_arg11 m ρ c),
       (h c _ (mem_uc main_arg12 (by decide))).trans (W22_main_arg12 m ρ c),
       (h c _ (mem_uc main_arg13 (by decide))).trans (W22_main_arg13 m ρ c),
       (h c _ (mem_uc main_arg14 (by decide))).trans (W22_main_arg14 m ρ c),
       (h c _ (mem_uc main_arg15 (by decide))).trans (W22_main_arg15 m ρ c)⟩)

end Cert.Kernel.Hand

end
-- ==== Proof.KI.R0.lean ====
/-
  Region 0 of the program: one feature transform of the graph-convolution stack. On a grid of 16 points, one batch
  row per point, the body multiplies the row's activations (2048 nodes by the input channels) by the whole weight
  matrix (both in half precision, rounded first where they are held wider) into a zero accumulator, and stores the
  product, rounded to half precision, over the whole of the output row's buffer. This file gives the region's blocks,
  what the body leaves in the output buffer as a closed function of the two input blocks, the body's triple, the
  pipeline's proof data over the region-entry contents, and the body obligation at every grid point.
-/
import proofs.«421025_j30305289241172_1_alg».proof.Proof.Gen.KernelIdeal.Launch
import proofs.«421025_j30305289241172_1_alg».proof.Proof.Gen.KernelIdeal.Skeleton
import proofs.«421025_j30305289241172_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds batch row `t` at every point, for any proof data over the entry contents
    whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the whole weight matrix at every point, fetched there or not: its block index
    never moves. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_0 : Rect S1x2048x1475 := Rect.unit (s := S1x2048x1475) ![0, 0, 0] S1x2048x1475.size inb_S1x2048x1475_S1x2048x1475_0_0_0
abbrev r0_1 : Rect S1475x512 := Rect.unit (s := S1475x512) ![0, 0] S1475x512.size inb_S1475x512_S1475x512_0_0
abbrev r0_2 : Rect S1x2048x512 := Rect.unit (s := S1x2048x512) ![0, 0, 0] S1x2048x512.size inb_S1x2048x512_S1x2048x512_0_0_0

/-! ## What the body leaves in the output window's buffer -/

/-- The output's staging buffer after the body: its one store, of the product of the activations' row block by the
    weights, over the whole buffer. -/
def out0_2 (x0 : Vec F S1x2048x1475 .f32) (x1 : Vec F S1475x512 .f32) : Vec F S1x2048x512 .bf16 :=
  View.canon [⟨r0_2, k0_pay1 (View.ld x0 r0_0) (View.ld x1 r0_1)⟩]

/-- The one store covers the buffer. -/
theorem cover0_2 (p0 : Vec F S1x2048x512 .bf16) (y : S1x2048x512.Idx) :
    ∃ pc ∈ ([⟨r0_2, p0⟩] : List (View.Piece (Elt F) S1x2048x512 .bf16)), y ∈ pc.1.set :=
  View.cover_of_tiled [⟨r0_2, p0⟩] S1x2048x512.size (by rfl) y

/-! ## The body's triple -/

set_option maxHeartbeats 1000000 in
/-- The kernel body on whole staging memrefs, the inputs' at read contents `x0`, `x1` and the output's at anything
    (the body reads it once, and discards what it read, before it overwrites all of it), runs to the continuation
    holding the inputs' as they were and the output's at `out0_2` of the inputs'. -/
theorem sound_kernel0 (c : Dev nD) (E : Set ℕ) (i : grid0.Coords) (arg1 : Memref sig .tc .vmem S1x2048x1475 .f32) (harg1 : arg1.IsWhole) (arg2 : Memref sig .tc .vmem S1475x512 .f32) (harg2 : arg2.IsWhole) (arg3 : Memref sig .tc .vmem S1x2048x512 .bf16) (harg3 : arg3.IsWhole)
    (x0 : Vec F S1x2048x1475 .f32) (x1 : Vec F S1475x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__feat_kernel i arg1 harg1 arg2 harg2 arg3 harg3) K := by
  simp only [cc0__feat_kernel_eq_skeleton]; unfold cc0__feat_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of this pipeline on core `c`: the arrays as the region finds them; after the body at point `t` each
    input's buffer at its block and the output's at `out0_2` of the input blocks; the invariant the scoped rest and the
    generator register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.KI.R1.lean ====
/-
  Aggregation layer, pipeline 1: one grid point per batch row. At a point the body reads the row's transformed
  features h1 (window 0), the whole normalised adjacency A (window 1), the bias row (window 2) and the inverse-degree
  column (window 3), and stores into the output block (window 4) the single value
  A · h1 + h1 ∘ invdeg + bias, over the whole block. This file states what each window's staging buffer holds
  around the body at a generic point, runs the body once against those contents, and packages the result as the
  pipeline's proof data and body obligation, all relative to the buffer contents V found when the region is entered.
-/
import proofs.«421025_j30305289241172_1_alg».proof.Proof.Gen.KernelIdeal.Launch
import proofs.«421025_j30305289241172_1_alg».proof.Proof.Gen.KernelIdeal.Skeleton
import proofs.«421025_j30305289241172_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region1
variable (V : (c : Dev nD) → (b : Ref sig .tc) → Buf (Elt F) ((c : Thread nD τ).loc b))

/-! ## The blocks the windows see -/

/-- Window `w`'s block at grid point `t`: the entries of the array found at entry that the window's index map
    selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window is never cut and never idle, and the body leaves its buffer alone; so whether or not a fetch
    happened at point `t`, the current staging buffer of window 0 holds the block of point `t` (an unfetched
    point has the same block index as the point before it). -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window is never cut and never idle, and the body leaves its buffer alone; so whether or not a fetch
    happened at point `t`, the current staging buffer of window 1 holds the block of point `t` (an unfetched
    point has the same block index as the point before it). -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window is never cut and never idle, and the body leaves its buffer alone; so whether or not a fetch
    happened at point `t`, the current staging buffer of window 2 holds the block of point `t` (an unfetched
    point has the same block index as the point before it). -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window is never cut and never idle, and the body leaves its buffer alone; so whether or not a fetch
    happened at point `t`, the current staging buffer of window 3 holds the block of point `t` (an unfetched
    point has the same block index as the point before it). -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole buffer -/

abbrev r1_h : Rect S1x2048x512 := Rect.unit (s := S1x2048x512) ![0, 0, 0] S1x2048x512.size inb_S1x2048x512_S1x2048x512_0_0_0
abbrev r1_a : Rect S2048x2048 := Rect.unit (s := S2048x2048) ![0, 0] S2048x2048.size inb_S2048x2048_S2048x2048_0_0
abbrev r1_b : Rect S1x512 := Rect.unit (s := S1x512) ![0, 0] S1x512.size inb_S1x512_S1x512_0_0
abbrev r1_d : Rect S2048x1 := Rect.unit (s := S2048x1) ![0, 0] S2048x1.size inb_S2048x1_S2048x1_0_0

/-! ## What the body leaves in the output buffer -/

/-- The output buffer after the body, as a function of the four input blocks: the one stored value, laid over the
    whole block. The stored value takes its arguments in the order the body reads them: features, adjacency,
    inverse degrees, bias. -/
def out1_4 (x0 : Vec F S1x2048x512 .bf16) (x1 : Vec F S2048x2048 .bf16) (x2 : Vec F S1x512 .f32) (x3 : Vec F S2048x1 .f32) : Vec F S1x2048x512 .bf16 :=
  View.canon [⟨r1_h, k1_pay1 (View.ld x0 r1_h) (View.ld x1 r1_a) (View.ld x3 r1_d) (View.ld x2 r1_b)⟩]

/-- The single store's box is the whole output block, so every index of the block lies in it. -/
theorem cover1_4 (p0 : Vec F S1x2048x512 .bf16) (y : S1x2048x512.Idx) :
    ∃ pc ∈ ([⟨r1_h, p0⟩] : List (View.Piece (Elt F) S1x2048x512 .bf16)), y ∈ pc.1.set :=
  View.cover_of_tiled [⟨r1_h, p0⟩] S1x2048x512.size (by rfl) y

/-! ## The body's triple -/

set_option maxHeartbeats 1000000 in
/-- Run on five whole staging buffers — the four inputs holding `x0 … x3`, the output holding anything — the body
    ends with the inputs as they were and the output at `out1_4 x0 x1 x2 x3`. The body reads the output buffer once
    before storing (the value read is not used), which any held contents permit. -/
theorem sound_kernel1 (c : Dev nD) (E : Set ℕ) (i : grid1.Coords)
    (arg1 : Memref sig .tc .vmem S1x2048x512 .bf16) (harg1 : arg1.IsWhole) (arg2 : Memref sig .tc .vmem S2048x2048 .bf16) (harg2 : arg2.IsWhole)
    (arg3 : Memref sig .tc .vmem S1x512 .f32) (harg3 : arg3.IsWhole) (arg4 : Memref sig .tc .vmem S2048x1 .f32) (harg4 : arg4.IsWhole)
    (arg5 : Memref sig .tc .vmem S1x2048x512 .bf16) (harg5 : arg5.IsWhole)
    (x0 : Vec F S1x2048x512 .bf16) (x1 : Vec F S2048x2048 .bf16) (x2 : Vec F S1x512 .f32) (x3 : Vec F S2048x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__agg_kernel i arg1 harg1 arg2 harg2 arg3 harg3 arg4 harg4 arg5 harg5) K := by
  simp only [cc1__agg_kernel_eq_skeleton]; unfold cc1__agg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core `c`: the arrays are those found at entry; after the body at point `t` each
    input's buffer still holds its block and the output's holds `out1_4` of the four blocks; the invariant is the
    untouched remainder of the core's state; nothing is owed and every share is whole. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the contents found at entry. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation at a generic point -/

/-- What the body is entered with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' buffers hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.R2.lean ====
/-
  Region 2 of the program: one feature transform of the graph-convolution stack. On a grid of 16 points, one batch
  row per point, the body multiplies the row's activations (2048 nodes by the input channels) by the whole weight
  matrix (both in half precision, rounded first where they are held wider) into a zero accumulator, and stores the
  product, rounded to half precision, over the whole of the output row's buffer. This file gives the region's blocks,
  what the body leaves in the output buffer as a closed function of the two input blocks, the body's triple, the
  pipeline's proof data over the region-entry contents, and the body obligation at every grid point.
-/
import proofs.«421025_j30305289241172_1_alg».proof.Proof.Gen.KernelIdeal.Launch
import proofs.«421025_j30305289241172_1_alg».proof.Proof.Gen.KernelIdeal.Skeleton
import proofs.«421025_j30305289241172_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The activations' staging buffer holds batch row `t` at every point, for any proof data over the entry contents
    whose body leaves the block in place. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weights' staging buffer holds the whole weight matrix at every point, fetched there or not: its block index
    never moves. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole of its buffer -/

abbrev r2_0 : Rect S1x2048x512 := Rect.unit (s := S1x2048x512) ![0, 0, 0] S1x2048x512.size inb_S1x2048x512_S1x2048x512_0_0_0
abbrev r2_1 : Rect S512x512 := Rect.unit (s := S512x512) ![0, 0] S512x512.size inb_S512x512_S512x512_0_0
abbrev r2_2 : Rect S1x2048x512 := Rect.unit (s := S1x2048x512) ![0, 0, 0] S1x2048x512.size inb_S1x2048x512_S1x2048x512_0_0_0

/-! ## What the body leaves in the output window's buffer -/

/-- The output's staging buffer after the body: its one store, of the product of the activations' row block by the
    weights, over the whole buffer. -/
def out2_2 (x0 : Vec F S1x2048x512 .bf16) (x1 : Vec F S512x512 .f32) : Vec F S1x2048x512 .bf16 :=
  View.canon [⟨r2_2, k2_pay1 (View.ld x0 r2_0) (View.ld x1 r2_1)⟩]

/-- The one store covers the buffer. -/
theorem cover2_2 (p0 : Vec F S1x2048x512 .bf16) (y : S1x2048x512.Idx) :
    ∃ pc ∈ ([⟨r2_2, p0⟩] : List (View.Piece (Elt F) S1x2048x512 .bf16)), y ∈ pc.1.set :=
  View.cover_of_tiled [⟨r2_2, p0⟩] S1x2048x512.size (by rfl) y

/-! ## The body's triple -/

set_option maxHeartbeats 1000000 in
/-- The kernel body on whole staging memrefs, the inputs' at read contents `x0`, `x1` and the output's at anything
    (the body reads it once, and discards what it read, before it overwrites all of it), runs to the continuation
    holding the inputs' as they were and the output's at `out2_2` of the inputs'. -/
theorem sound_kernel2 (c : Dev nD) (E : Set ℕ) (i : grid2.Coords) (arg1 : Memref sig .tc .vmem S1x2048x512 .bf16) (harg1 : arg1.IsWhole) (arg2 : Memref sig .tc .vmem S512x512 .f32) (harg2 : arg2.IsWhole) (arg3 : Memref sig .tc .vmem S1x2048x512 .bf16) (harg3 : arg3.IsWhole)
    (x0 : Vec F S1x2048x512 .bf16) (x1 : Vec F S512x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__feat_kernel i arg1 harg1 arg2 harg2 arg3 harg3) K := by
  simp only [cc2__feat_kernel_eq_skeleton]; unfold cc2__feat_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of this pipeline on core `c`: the arrays as the region finds them; after the body at point `t` each
    input's buffer at its block and the output's at `out2_2` of the input blocks; the invariant the scoped rest and the
    generator register, untouched; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the body's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end

end Cert.KernelIdeal.Hand

end
-- ==== Proof.KI.R3.lean ====
/-
  Aggregation layer, pipeline 3: one grid point per batch row. At a point the body reads the row's transformed
  features h1 (window 0), the whole normalised adjacency A (window 1), the bias row (window 2) and the inverse-degree
  column (window 3), and stores into the output block (window 4) the single value
  leaky (A · h1 + h1 ∘ invdeg + bias), the rectifier taken entrywise, over the whole block. This file states what each window's staging buffer holds
  around the body at a generic point, runs the body once against those contents, and packages the result as the
  pipeline's proof data and body obligation, all relative to the buffer contents V found when the region is entered.
-/
import proofs.«421025_j30305289241172_1_alg».proof.Proof.Gen.KernelIdeal.Launch
import proofs.«421025_j30305289241172_1_alg».proof.Proof.Gen.KernelIdeal.Skeleton
import proofs.«421025_j30305289241172_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region3
variable (V : (c : Dev nD) → (b : Ref sig .tc) → Buf (Elt F) ((c : Thread nD τ).loc b))

/-! ## The blocks the windows see -/

/-- Window `w`'s block at grid point `t`: the entries of the array found at entry that the window's index map
    selects there. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window is never cut and never idle, and the body leaves its buffer alone; so whether or not a fetch
    happened at point `t`, the current staging buffer of window 0 holds the block of point `t` (an unfetched
    point has the same block index as the point before it). -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An input window is never cut and never idle, and the body leaves its buffer alone; so whether or not a fetch
    happened at point `t`, the current staging buffer of window 1 holds the block of point `t` (an unfetched
    point has the same block index as the point before it). -/
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- An input window is never cut and never idle, and the body leaves its buffer alone; so whether or not a fetch
    happened at point `t`, the current staging buffer of window 2 holds the block of point `t` (an unfetched
    point has the same block index as the point before it). -/
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- An input window is never cut and never idle, and the body leaves its buffer alone; so whether or not a fetch
    happened at point `t`, the current staging buffer of window 3 holds the block of point `t` (an unfetched
    point has the same block index as the point before it). -/
theorem before3_3_of {c : Dev nD} (dat : Dat τ (Elt F) Unit ℕ (Pipeline.UD sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store take a whole buffer -/

abbrev r3_h : Rect S1x2048x512 := Rect.unit (s := S1x2048x512) ![0, 0, 0] S1x2048x512.size inb_S1x2048x512_S1x2048x512_0_0_0
abbrev r3_a : Rect S2048x2048 := Rect.unit (s := S2048x2048) ![0, 0] S2048x2048.size inb_S2048x2048_S2048x2048_0_0
abbrev r3_b : Rect S1x512 := Rect.unit (s := S1x512) ![0, 0] S1x512.size inb_S1x512_S1x512_0_0
abbrev r3_d : Rect S2048x1 := Rect.unit (s := S2048x1) ![0, 0] S2048x1.size inb_S2048x1_S2048x1_0_0

/-! ## What the body leaves in the output buffer -/

/-- The output buffer after the body, as a function of the four input blocks: the one stored value, laid over the
    whole block. The stored value takes its arguments in the order the body reads them: features, adjacency,
    inverse degrees, bias. -/
def out3_4 (x0 : Vec F S1x2048x512 .bf16) (x1 : Vec F S2048x2048 .bf16) (x2 : Vec F S1x512 .f32) (x3 : Vec F S2048x1 .f32) : Vec F S1x2048x512 .bf16 :=
  View.canon [⟨r3_h, k3_pay1 (View.ld x0 r3_h) (View.ld x1 r3_a) (View.ld x3 r3_d) (View.ld x2 r3_b)⟩]

/-- The single store's box is the whole output block, so every index of the block lies in it. -/
theorem cover3_4 (p0 : Vec F S1x2048x512 .bf16) (y : S1x2048x512.Idx) :
    ∃ pc ∈ ([⟨r3_h, p0⟩] : List (View.Piece (Elt F) S1x2048x512 .bf16)), y ∈ pc.1.set :=
  View.cover_of_tiled [⟨r3_h, p0⟩] S1x2048x512.size (by rfl) y

/-! ## The body's triple -/

set_option maxHeartbeats 1000000 in
/-- Run on five whole staging buffers — the four inputs holding `x0 … x3`, the output holding anything — the body
    ends with the inputs as they were and the output at `out3_4 x0 x1 x2 x3`. The body reads the output buffer once
    before storing (the value read is not used), which any held contents permit. -/
theorem sound_kernel3 (c : Dev nD) (E : Set ℕ) (i : grid3.Coords)
    (arg1 : Memref sig .tc .vmem S1x2048x512 .bf16) (harg1 : arg1.IsWhole) (arg2 : Memref sig .tc .vmem S2048x2048 .bf16) (harg2 : arg2.IsWhole)
    (arg3 : Memref sig .tc .vmem S1x512 .f32) (harg3 : arg3.IsWhole) (arg4 : Memref sig .tc .vmem S2048x1 .f32) (harg4 : arg4.IsWhole)
    (arg5 : Memref sig .tc .vmem S1x2048x512 .bf16) (harg5 : arg5.IsWhole)
    (x0 : Vec F S1x2048x512 .bf16) (x1 : Vec F S2048x2048 .bf16) (x2 : Vec F S1x512 .f32) (x3 : Vec F S2048x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__agg_kernel i arg1 harg1 arg2 harg2 arg3 harg3 arg4 harg4 arg5 harg5) K := by
  simp only [cc3__agg_kernel_eq_skeleton]; unfold cc3__agg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's proof data -/

/-- The proof data of pipeline 3 on core `c`: the arrays are those found at entry; after the body at point `t` each
    input's buffer still holds its block and the output's holds `out3_4` of the four blocks; the invariant is the
    untouched remainder of the core's state; nothing is owed and every share is whole. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

/-- The proof data's arrays are the contents found at entry. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) :
    (dat3 V c).after 4 t = out3_4 (iblk3 V c 0 t) (iblk3 V c 1 t) (iblk3 V c 2 t) (iblk3 V c 3 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation at a generic point -/

/-- What the body is entered with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at any point: the inputs' buffers hold their blocks, so the body's triple applies; the invariant and
    what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.KernelIdeal.Hand

end
-- ==== Proof.KI.R4.lean ====
/-
  Region 4 of the program: one feature transform of the graph-convolution stack. On a grid of 16 points, one batch
  row per point, the body multiplies the row's activations (2048 nodes by the input channels) by the whole weight
  matrix (both in half precision, rounded first where they are held wider) into a zero accumulator, and stores the
  product, rounded to half precision, over the whole of the output row's buffer. This file gives the region's blocks,
  what the body leaves in the output buffer as a closed function of the two input blocks, the body's triple, the
  pipeline's proof data over the region-entry contents, and the body obligation at every grid point.
-/
import proofs.«421025_j30305289241172_1_alg».proof.Proof.Gen.KernelIdeal.Launch
import proofs.«421025_j30305289241172_1_alg».proof.Proof.Gen.KernelIdeal.Skeleton
import proofs.«421025_j30305289241172_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The activations' staging buffer holds batch row `t` at every point, for any proof data over the entry contents
    whose body leaves the block in place. -/
theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The weights' staging buffer holds the whole weight matrix at every point, fetched there or not: its block index
    never moves. -/
theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each is the whole of its buffer -/

abbrev r4_0 : Rect S1x2048x512 := Rect.unit (s := S1x2048x512) ![0, 0, 0] S1x2048x512.size inb_S1x2048x512_S1x2048x512_0_0_0
abbrev r4_1 : Rect S512x256 := Rect.unit (s := S512x256) ![0, 0] S512x256.size inb_S512x256_S512x256_0_0
abbrev r4_2 : Rect S1x2048x256 := Rect.unit (s := S1x2048x256) ![0, 0, 0] S1x2048x256.size inb_S1x2048x256_S1x2048x256_0_0_0

/-! ## What the body leaves in the output window's buffer -/

/-- The output's staging buffer after the body: its one store, of the product of the activations' row block by the
    weights, over the whole buffer. -/
def out4_2 (x0 : Vec F S1x2048x512 .bf16) (x1 : Vec F S512x256 .f32) : Vec F S1x2048x256 .bf16 :=
  View.canon [⟨r4_2, k4_pay1 (View.ld x0 r4_0) (View.ld x1 r4_1)⟩]

/-- The one store covers the buffer. -/
theorem cover4_2 (p0 : Vec F S1x2048x256 .bf16) (y : S1x2048x256.Idx) :
    ∃ pc ∈ ([⟨r4_2, p0⟩] : List (View.Piece (Elt F) S1x2048x256 .bf16)), y ∈ pc.1.set :=
  View.cover_of_tiled [⟨r4_2, p0⟩] S1x2048x256.size (by rfl) y

/-! ## The body's triple -/

set_option maxHeartbeats 1000000 in
/-- The kernel body on whole staging memrefs, the inputs' at read contents `x0`, `x1` and the output's at anything
    (the body reads it once, and discards what it read, before it overwrites all of it), runs to the continuation
    holding the inputs' as they were and the output's at `out4_2` of the inputs'. -/
theorem sound_kernel4 (c : Dev nD) (E : Set ℕ) (i : grid4.Coords) (arg1 : Memref sig .tc .vmem S1x2048x512 .bf16) (harg1 : arg1.IsWhole) (arg2 : Memref sig .tc .vmem S512x256 .f32) (harg2 : arg2.IsWhole) (arg3 : Memref sig .tc .vmem S1x2048x256 .bf16) (harg3 : arg3.IsWhole)
    (x0 : Vec F S1x2048x512 .bf16) (x1 : Vec F S512x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4__feat_kernel i arg1 harg1 arg2 harg2 arg3 harg3) K := by
  simp only [cc4__feat_kernel_eq_skeleton]; unfold cc4__feat_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)

/-! ## The pipeline's proof data -/

/-- The proof data of this pipeline on core `c`: the arrays as the region finds them; after the body at point `t` each
    input's buffer at its block and the output's at `out4_2` of the input blocks; the invariant the scoped rest and the
    generator register, untouched; nothing owed; full shares. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so the body's triple applies; the invariant and
    the core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ (grid4.coords t) _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

end

end Cert.KernelIdeal.Hand

end
-- ==== Proof.KI.R5.lean ====
/-
  Aggregation layer, pipeline 5: one grid point per batch row. At a point the body reads the row's transformed
  features h1 (window 0), the whole normalised adjacency A (window 1), the bias row (window 2) and the inverse-degree
  column (window 3), and stores into the output block (window 4) the single value
  A · h1 + h1 ∘ invdeg + bias, over the whole block. This file states what each window's staging buffer holds
  around the body at a generic point, runs the body once against those contents, and packages the result as the
  pipeline's proof data and body obligation, all relative to the buffer contents V found when the region is entered.
-/
import proofs.«421025_j30305289241172_1_alg».proof.Proof.Gen.KernelIdeal.Launch
import proofs.«421025_j30305289241172_1_alg».proof.Proof.Gen.KernelIdeal.Skeleton
import proofs.«421025_j30305289241172_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region5
variable (V : (c : Dev nD) → (b : Ref sig .tc) → Buf (Elt F) ((c : Thread nD τ).loc b))

/-! ## The blocks the windows see -/

/-- Window `w`'s block at grid point `t`: the entries of the array found at entry that the window's index map
    selects there. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window is never cut and never idle, and the body leaves its buffer alone; so whether or not a fetch
    happened at point `t`, the current staging buffer of window 0 holds the block of point `t` (an unfetched
    point has the same block index as the point before it). -/
theorem before5_0_of {c : Dev nD} (dat : Dat τ (Elt F) Unit ℕ (Pipeline.UD sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- An input window is never cut and never idle, and the body leaves its buffer alone; so whether or not a fetch
    happened at point `t`, the current staging buffer of window 1 holds the block of point `t` (an unfetched
    point has the same block index as the point before it). -/
theorem before5_1_of {c : Dev nD} (dat : Dat τ (Elt F) Unit ℕ (Pipeline.UD sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- An input window is never cut and never idle, and the body leaves its buffer alone; so whether or not a fetch
    happened at point `t`, the current staging buffer of window 2 holds the block of point `t` (an unfetched
    point has the same block index as the point before it). -/
theorem before5_2_of {c : Dev nD} (dat : Dat τ (Elt F) Unit ℕ (Pipeline.UD sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- An input window is never cut and never idle, and the body leaves its buffer alone; so whether or not a fetch
    happened at point `t`, the current staging buffer of window 3 holds the block of point `t` (an unfetched
    point has the same block index as the point before it). -/
theorem before5_3_of {c : Dev nD} (dat : Dat τ (Elt F) Unit ℕ (Pipeline.UD sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: every load and the one store take a whole buffer -/

abbrev r5_h : Rect S1x2048x256 := Rect.unit (s := S1x2048x256) ![0, 0, 0] S1x2048x256.size inb_S1x2048x256_S1x2048x256_0_0_0
abbrev r5_a : Rect S2048x2048 := Rect.unit (s := S2048x2048) ![0, 0] S2048x2048.size inb_S2048x2048_S2048x2048_0_0
abbrev r5_b : Rect S1x256 := Rect.unit (s := S1x256) ![0, 0] S1x256.size inb_S1x256_S1x256_0_0
abbrev r5_d : Rect S2048x1 := Rect.unit (s := S2048x1) ![0, 0] S2048x1.size inb_S2048x1_S2048x1_0_0

/-! ## What the body leaves in the output buffer -/

/-- The output buffer after the body, as a function of the four input blocks: the one stored value, laid over the
    whole block. The stored value takes its arguments in the order the body reads them: features, adjacency,
    inverse degrees, bias. -/
def out5_4 (x0 : Vec F S1x2048x256 .bf16) (x1 : Vec F S2048x2048 .bf16) (x2 : Vec F S1x256 .f32) (x3 : Vec F S2048x1 .f32) : Vec F S1x2048x256 .bf16 :=
  View.canon [⟨r5_h, k5_pay1 (View.ld x0 r5_h) (View.ld x1 r5_a) (View.ld x3 r5_d) (View.ld x2 r5_b)⟩]

/-- The single store's box is the whole output block, so every index of the block lies in it. -/
theorem cover5_4 (p0 : Vec F S1x2048x256 .bf16) (y : S1x2048x256.Idx) :
    ∃ pc ∈ ([⟨r5_h, p0⟩] : List (View.Piece (Elt F) S1x2048x256 .bf16)), y ∈ pc.1.set :=
  View.cover_of_tiled [⟨r5_h, p0⟩] S1x2048x256.size (by rfl) y

/-! ## The body's triple -/

set_option maxHeartbeats 1000000 in
/-- Run on five whole staging buffers — the four inputs holding `x0 … x3`, the output holding anything — the body
    ends with the inputs as they were and the output at `out5_4 x0 x1 x2 x3`. The body reads the output buffer once
    before storing (the value read is not used), which any held contents permit. -/
theorem sound_kernel5 (c : Dev nD) (E : Set ℕ) (i : grid5.Coords)
    (arg1 : Memref sig .tc .vmem S1x2048x256 .bf16) (harg1 : arg1.IsWhole) (arg2 : Memref sig .tc .vmem S2048x2048 .bf16) (harg2 : arg2.IsWhole)
    (arg3 : Memref sig .tc .vmem S1x256 .f32) (harg3 : arg3.IsWhole) (arg4 : Memref sig .tc .vmem S2048x1 .f32) (harg4 : arg4.IsWhole)
    (arg5 : Memref sig .tc .vmem S1x2048x256 .bf16) (harg5 : arg5.IsWhole)
    (x0 : Vec F S1x2048x256 .bf16) (x1 : Vec F S2048x2048 .bf16) (x2 : Vec F S1x256 .f32) (x3 : Vec F S2048x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out5_4 x0 x1 x2 x3)) -∗ K ⟨⟩))
      ⊢ wp frame (wpE (defs₀ (F := F)) Variants.none c none) E (cc5__agg_kernel i arg1 harg1 arg2 harg2 arg3 harg3 arg4 harg4 arg5 harg5) K := by
  simp only [cc5__agg_kernel_eq_skeleton]; unfold cc5__agg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-! ## The pipeline's proof data -/

/-- The proof data of pipeline 5 on core `c`: the arrays are those found at entry; after the body at point `t` each
    input's buffer still holds its block and the output's holds `out5_4` of the four blocks; the invariant is the
    untouched remainder of the core's state; nothing is owed and every share is whole. -/
def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

/-- The proof data's arrays are the contents found at entry. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) :
    (dat5 V c).after 4 t = out5_4 (iblk5 V c 0 t) (iblk5 V c 1 t) (iblk5 V c 2 t) (iblk5 V c 3 t) := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation at a generic point -/

/-- What the body is entered with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' buffers hold their blocks, so the body's triple applies; the invariant and
    what the core owes pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ (grid5.coords t) _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation5 (c : Dev nD) : BodyObligation (dat5 (F := F) V c) (defs₀ (F := F)) Variants.none () Set.univ := fun t => by
  rw [bigSep_W5, bigSep_W5]
  exact sound_body5 V c t

end Region5

end Cert.KernelIdeal.Hand

end
-- ==== Proof.KI.R6.lean ====
/-
  Region 6 of the program: one feature transform of the graph-convolution stack. On a grid of 16 points, one batch
  row per point, the body multiplies the row's activations (2048 nodes by the input channels) by the whole weight
  matrix (both in half precision, rounded first where they are held wider) into a zero accumulator, and stores the
  product, rounded to half precision, over the whole of the output row's buffer. This file gives the region's blocks,
  what the body leaves in the output buffer as a closed function of the two input blocks, the body's triple, the
  pipeline's proof data over the region-entry contents, and the body obligation at every grid point.
-/
import proofs.«421025_j30305289241172_1_alg».proof.Proof.Gen.KernelIdeal.Launch
import proofs.«421025_j30305289241172_1_alg».proof.Proof.Gen.KernelIdeal.Skeleton
import proofs.«421025_j30305289241172_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The activations' staging buffer holds batch row `t` at every point, for any proof data over the entry contents
    whose body leaves the block in place. -/
theorem before6_0_of {c : Dev nD} (dat : Dat τ (Elt F) Unit ℕ (Pipeline.UD sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The weights' staging buffer holds the whole weight matrix at every point, fetched there or not: its block index
    never moves. -/
theorem before6_1_of {c : Dev nD} (dat : Dat τ (Elt F) Unit ℕ (Pipeline.UD sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each is the whole of its buffer -/

abbrev r6_0 : Rect S1x2048x256 := Rect.unit (s := S1x2048x256) ![0, 0, 0] S1x2048x256.size inb_S1x2048x256_S1x2048x256_0_0_0
abbrev r6_1 : Rect S256x256 := Rect.unit (s := S256x256) ![0, 0] S256x256.size inb_S256x256_S256x256_0_0
abbrev r6_2 : Rect S1x2048x256 := Rect.unit (s := S1x2048x256) ![0, 0, 0] S1x2048x256.size inb_S1x2048x256_S1x2048x256_0_0_0

/-! ## What the body leaves in the output window's buffer -/

/-- The output's staging buffer after the body: its one store, of the product of the activations' row block by the
    weights, over the whole buffer. -/
def out6_2 (x0 : Vec F S1x2048x256 .bf16) (x1 : Vec F S256x256 .f32) : Vec F S1x2048x256 .bf16 :=
  View.canon [⟨r6_2, k6_pay1 (View.ld x0 r6_0) (View.ld x1 r6_1)⟩]

/-- The one store covers the buffer. -/
theorem cover6_2 (p0 : Vec F S1x2048x256 .bf16) (y : S1x2048x256.Idx) :
    ∃ pc ∈ ([⟨r6_2, p0⟩] : List (View.Piece (Elt F) S1x2048x256 .bf16)), y ∈ pc.1.set :=
  View.cover_of_tiled [⟨r6_2, p0⟩] S1x2048x256.size (by rfl) y

/-! ## The body's triple -/

set_option maxHeartbeats 1000000 in
/-- The kernel body on whole staging memrefs, the inputs' at read contents `x0`, `x1` and the output's at anything
    (the body reads it once, and discards what it read, before it overwrites all of it), runs to the continuation
    holding the inputs' as they were and the output's at `out6_2` of the inputs'. -/
theorem sound_kernel6 (c : Dev nD) (E : Set ℕ) (i : grid6.Coords) (arg1 : Memref sig .tc .vmem S1x2048x256 .bf16) (harg1 : arg1.IsWhole) (arg2 : Memref sig .tc .vmem S256x256 .f32) (harg2 : arg2.IsWhole) (arg3 : Memref sig .tc .vmem S1x2048x256 .bf16) (harg3 : arg3.IsWhole)
    (x0 : Vec F S1x2048x256 .bf16) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out6_2 x0 x1)) -∗ K ⟨⟩))
      ⊢ wp frame (wpE (defs₀ (F := F)) Variants.none c none) E (cc6__feat_kernel i arg1 harg1 arg2 harg2 arg3 harg3) K := by
  simp only [cc6__feat_kernel_eq_skeleton]; unfold cc6__feat_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover6_2 _)

/-! ## The pipeline's proof data -/

/-- The proof data of this pipeline on core `c`: the arrays as the region finds them; after the body at point `t` each
    input's buffer at its block and the output's at `out6_2` of the input blocks; the invariant the scoped rest and the
    generator register, untouched; nothing owed; full shares. -/
def dat6 (c : Dev nD) : Dat τ (Elt F) Unit ℕ (Pipeline.UD sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- Each input's current staging buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: the inputs' memrefs hold their blocks, so the body's triple applies; the invariant and
    the core's debts pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ (grid6.coords t) _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation6 (c : Dev nD) : BodyObligation (dat6 (F := F) V c) (defs₀ (F := F)) Variants.none () Set.univ := fun t => by
  rw [bigSep_W6, bigSep_W6]
  exact sound_body6 V c t

end

end Cert.KernelIdeal.Hand

end
-- ==== Proof.KI.R7.lean ====
/-
  Aggregation layer, pipeline 7: one grid point per batch row. At a point the body reads the row's transformed
  features h1 (window 0), the whole normalised adjacency A (window 1), the bias row (window 2) and the inverse-degree
  column (window 3), and stores into the output block (window 4) the single value
  leaky (A · h1 + h1 ∘ invdeg + bias), the rectifier taken entrywise, over the whole block. This file states what each window's staging buffer holds
  around the body at a generic point, runs the body once against those contents, and packages the result as the
  pipeline's proof data and body obligation, all relative to the buffer contents V found when the region is entered.
-/
import proofs.«421025_j30305289241172_1_alg».proof.Proof.Gen.KernelIdeal.Launch
import proofs.«421025_j30305289241172_1_alg».proof.Proof.Gen.KernelIdeal.Skeleton
import proofs.«421025_j30305289241172_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region7
variable (V : (c : Dev nD) → (b : Ref sig .tc) → Buf (Elt F) ((c : Thread nD τ).loc b))

/-! ## The blocks the windows see -/

/-- Window `w`'s block at grid point `t`: the entries of the array found at entry that the window's index map
    selects there. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window is never cut and never idle, and the body leaves its buffer alone; so whether or not a fetch
    happened at point `t`, the current staging buffer of window 0 holds the block of point `t` (an unfetched
    point has the same block index as the point before it). -/
theorem before7_0_of {c : Dev nD} (dat : Dat τ (Elt F) Unit ℕ (Pipeline.UD sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- An input window is never cut and never idle, and the body leaves its buffer alone; so whether or not a fetch
    happened at point `t`, the current staging buffer of window 1 holds the block of point `t` (an unfetched
    point has the same block index as the point before it). -/
theorem before7_1_of {c : Dev nD} (dat : Dat τ (Elt F) Unit ℕ (Pipeline.UD sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- An input window is never cut and never idle, and the body leaves its buffer alone; so whether or not a fetch
    happened at point `t`, the current staging buffer of window 2 holds the block of point `t` (an unfetched
    point has the same block index as the point before it). -/
theorem before7_2_of {c : Dev nD} (dat : Dat τ (Elt F) Unit ℕ (Pipeline.UD sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- An input window is never cut and never idle, and the body leaves its buffer alone; so whether or not a fetch
    happened at point `t`, the current staging buffer of window 3 holds the block of point `t` (an unfetched
    point has the same block index as the point before it). -/
theorem before7_3_of {c : Dev nD} (dat : Dat τ (Elt F) Unit ℕ (Pipeline.UD sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: every load and the one store take a whole buffer -/

abbrev r7_h : Rect S1x2048x256 := Rect.unit (s := S1x2048x256) ![0, 0, 0] S1x2048x256.size inb_S1x2048x256_S1x2048x256_0_0_0
abbrev r7_a : Rect S2048x2048 := Rect.unit (s := S2048x2048) ![0, 0] S2048x2048.size inb_S2048x2048_S2048x2048_0_0
abbrev r7_b : Rect S1x256 := Rect.unit (s := S1x256) ![0, 0] S1x256.size inb_S1x256_S1x256_0_0
abbrev r7_d : Rect S2048x1 := Rect.unit (s := S2048x1) ![0, 0] S2048x1.size inb_S2048x1_S2048x1_0_0

/-! ## What the body leaves in the output buffer -/

/-- The output buffer after the body, as a function of the four input blocks: the one stored value, laid over the
    whole block. The stored value takes its arguments in the order the body reads them: features, adjacency,
    inverse degrees, bias. -/
def out7_4 (x0 : Vec F S1x2048x256 .bf16) (x1 : Vec F S2048x2048 .bf16) (x2 : Vec F S1x256 .f32) (x3 : Vec F S2048x1 .f32) : Vec F S1x2048x256 .bf16 :=
  View.canon [⟨r7_h, k7_pay1 (View.ld x0 r7_h) (View.ld x1 r7_a) (View.ld x3 r7_d) (View.ld x2 r7_b)⟩]

/-- The single store's box is the whole output block, so every index of the block lies in it. -/
theorem cover7_4 (p0 : Vec F S1x2048x256 .bf16) (y : S1x2048x256.Idx) :
    ∃ pc ∈ ([⟨r7_h, p0⟩] : List (View.Piece (Elt F) S1x2048x256 .bf16)), y ∈ pc.1.set :=
  View.cover_of_tiled [⟨r7_h, p0⟩] S1x2048x256.size (by rfl) y

/-! ## The body's triple -/

set_option maxHeartbeats 1000000 in
/-- Run on five whole staging buffers — the four inputs holding `x0 … x3`, the output holding anything — the body
    ends with the inputs as they were and the output at `out7_4 x0 x1 x2 x3`. The body reads the output buffer once
    before storing (the value read is not used), which any held contents permit. -/
theorem sound_kernel7 (c : Dev nD) (E : Set ℕ) (i : grid7.Coords)
    (arg1 : Memref sig .tc .vmem S1x2048x256 .bf16) (harg1 : arg1.IsWhole) (arg2 : Memref sig .tc .vmem S2048x2048 .bf16) (harg2 : arg2.IsWhole)
    (arg3 : Memref sig .tc .vmem S1x256 .f32) (harg3 : arg3.IsWhole) (arg4 : Memref sig .tc .vmem S2048x1 .f32) (harg4 : arg4.IsWhole)
    (arg5 : Memref sig .tc .vmem S1x2048x256 .bf16) (harg5 : arg5.IsWhole)
    (x0 : Vec F S1x2048x256 .bf16) (x1 : Vec F S2048x2048 .bf16) (x2 : Vec F S1x256 .f32) (x3 : Vec F S2048x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out7_4 x0 x1 x2 x3)) -∗ K ⟨⟩))
      ⊢ wp frame (wpE (defs₀ (F := F)) Variants.none c none) E (cc7__agg_kernel i arg1 harg1 arg2 harg2 arg3 harg3 arg4 harg4 arg5 harg5) K := by
  simp only [cc7__agg_kernel_eq_skeleton]; unfold cc7__agg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover7_4 _)

/-! ## The pipeline's proof data -/

/-- The proof data of pipeline 7 on core `c`: the arrays are those found at entry; after the body at point `t` each
    input's buffer still holds its block and the output's holds `out7_4` of the four blocks; the invariant is the
    untouched remainder of the core's state; nothing is owed and every share is whole. -/
def dat7 (c : Dev nD) : Dat τ (Elt F) Unit ℕ (Pipeline.UD sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => out7_4 (iblk7 V c 0 t) (iblk7 V c 1 t) (iblk7 V c 2 t) (iblk7 V c 3 t)
  Φ _ := Pipeline.ΦA spec7 c
  q _ := fullShare
  owed _ := 0

/-- The proof data's arrays are the contents found at entry. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) :
    (dat7 V c).after 4 t = out7_4 (iblk7 V c 0 t) (iblk7 V c 1 t) (iblk7 V c 2 t) (iblk7 V c 3 t) := by dsimp only [dat7]

/-- Each input's current staging buffer holds its block at every point. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

/-! ## The body obligation at a generic point -/

/-- What the body is entered with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t))

/-- The body at any point: the inputs' buffers hold their blocks, so the body's triple applies; the invariant and
    what the core owes pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).Φ t.succ = (dat7 V c).Φ t.castSucc from rfl,
    show (dat7 V c).owesAt () t.succ = (dat7 V c).owesAt () t.castSucc from rfl,
    after7_0, after7_1, after7_2, after7_3, after7_4]
  iintro ⟨HΦ, Ho, ⟨%d0, H0⟩, ⟨%d1, H1⟩, ⟨%d2, H2⟩, ⟨%d3, H3⟩, ⟨%d4, H4⟩⟩
  iapply (sound_kernel7 c Set.univ (grid7.coords t) _ _ _ _ _ _ _ _ _ _ (iblk7 V c 0 t) (iblk7 V c 1 t) (iblk7 V c 2 t) (iblk7 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation7 (c : Dev nD) : BodyObligation (dat7 (F := F) V c) (defs₀ (F := F)) Variants.none () Set.univ := fun t => by
  rw [bigSep_W7, bigSep_W7]
  exact sound_body7 V c t

end Region7

end Cert.KernelIdeal.Hand

end
-- ==== Proof.KI.R8.lean ====
/-
  Region 8 of the program: one feature transform of the graph-convolution stack. On a grid of 16 points, one batch
  row per point, the body multiplies the row's activations (2048 nodes by the input channels) by the whole weight
  matrix (both in half precision, rounded first where they are held wider) into a zero accumulator, and stores the
  product, rounded to half precision, over the whole of the output row's buffer. This file gives the region's blocks,
  what the body leaves in the output buffer as a closed function of the two input blocks, the body's triple, the
  pipeline's proof data over the region-entry contents, and the body obligation at every grid point.
-/
import proofs.«421025_j30305289241172_1_alg».proof.Proof.Gen.KernelIdeal.Launch
import proofs.«421025_j30305289241172_1_alg».proof.Proof.Gen.KernelIdeal.Skeleton
import proofs.«421025_j30305289241172_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The activations' staging buffer holds batch row `t` at every point, for any proof data over the entry contents
    whose body leaves the block in place. -/
theorem before8_0_of {c : Dev nD} (dat : Dat τ (Elt F) Unit ℕ (Pipeline.UD sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- The weights' staging buffer holds the whole weight matrix at every point, fetched there or not: its block index
    never moves. -/
theorem before8_1_of {c : Dev nD} (dat : Dat τ (Elt F) Unit ℕ (Pipeline.UD sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each is the whole of its buffer -/

abbrev r8_0 : Rect S1x2048x256 := Rect.unit (s := S1x2048x256) ![0, 0, 0] S1x2048x256.size inb_S1x2048x256_S1x2048x256_0_0_0
abbrev r8_1 : Rect S256x64 := Rect.unit (s := S256x64) ![0, 0] S256x64.size inb_S256x64_S256x64_0_0
abbrev r8_2 : Rect S1x2048x64 := Rect.unit (s := S1x2048x64) ![0, 0, 0] S1x2048x64.size inb_S1x2048x64_S1x2048x64_0_0_0

/-! ## What the body leaves in the output window's buffer -/

/-- The output's staging buffer after the body: its one store, of the product of the activations' row block by the
    weights, over the whole buffer. -/
def out8_2 (x0 : Vec F S1x2048x256 .bf16) (x1 : Vec F S256x64 .f32) : Vec F S1x2048x64 .bf16 :=
  View.canon [⟨r8_2, k8_pay1 (View.ld x0 r8_0) (View.ld x1 r8_1)⟩]

/-- The one store covers the buffer. -/
theorem cover8_2 (p0 : Vec F S1x2048x64 .bf16) (y : S1x2048x64.Idx) :
    ∃ pc ∈ ([⟨r8_2, p0⟩] : List (View.Piece (Elt F) S1x2048x64 .bf16)), y ∈ pc.1.set :=
  View.cover_of_tiled [⟨r8_2, p0⟩] S1x2048x64.size (by rfl) y

/-! ## The body's triple -/

set_option maxHeartbeats 1000000 in
/-- The kernel body on whole staging memrefs, the inputs' at read contents `x0`, `x1` and the output's at anything
    (the body reads it once, and discards what it read, before it overwrites all of it), runs to the continuation
    holding the inputs' as they were and the output's at `out8_2` of the inputs'. -/
theorem sound_kernel8 (c : Dev nD) (E : Set ℕ) (i : grid8.Coords) (arg1 : Memref sig .tc .vmem S1x2048x256 .bf16) (harg1 : arg1.IsWhole) (arg2 : Memref sig .tc .vmem S256x64 .f32) (harg2 : arg2.IsWhole) (arg3 : Memref sig .tc .vmem S1x2048x64 .bf16) (harg3 : arg3.IsWhole)
    (x0 : Vec F S1x2048x256 .bf16) (x1 : Vec F S256x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out8_2 x0 x1)) -∗ K ⟨⟩))
      ⊢ wp frame (wpE (defs₀ (F := F)) Variants.none c none) E (cc8__feat_kernel i arg1 harg1 arg2 harg2 arg3 harg3) K := by
  simp only [cc8__feat_kernel_eq_skeleton]; unfold cc8__feat_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover8_2 _)

/-! ## The pipeline's proof data -/

/-- The proof data of this pipeline on core `c`: the arrays as the region finds them; after the body at point `t` each
    input's buffer at its block and the output's at `out8_2` of the input blocks; the invariant the scoped rest and the
    generator register, untouched; nothing owed; full shares. -/
def dat8 (c : Dev nD) : Dat τ (Elt F) Unit ℕ (Pipeline.UD sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = out8_2 (iblk8 V c 0 t) (iblk8 V c 1 t) := by dsimp only [dat8]

/-- Each input's current staging buffer holds its block at every point. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t))

/-- The body at any point: the inputs' memrefs hold their blocks, so the body's triple applies; the invariant and
    the core's debts pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1]
  rw [show (dat8 V c).Φ t.succ = (dat8 V c).Φ t.castSucc from rfl,
    show (dat8 V c).owesAt () t.succ = (dat8 V c).owesAt () t.castSucc from rfl,
    after8_0, after8_1, after8_2]
  iintro ⟨HΦ, Ho, ⟨%d0, H0⟩, ⟨%d1, H1⟩, ⟨%d2, H2⟩⟩
  iapply (sound_kernel8 c Set.univ (grid8.coords t) _ _ _ _ _ _ (iblk8 V c 0 t) (iblk8 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation8 (c : Dev nD) : BodyObligation (dat8 (F := F) V c) (defs₀ (F := F)) Variants.none () Set.univ := fun t => by
  rw [bigSep_W8, bigSep_W8]
  exact sound_body8 V c t

end

end Cert.KernelIdeal.Hand

end
-- ==== Proof.KI.R9.lean ====
/-
  Aggregation layer, pipeline 9: one grid point per batch row. At a point the body reads the row's transformed
  features h1 (window 0), the whole normalised adjacency A (window 1), the bias row (window 2) and the inverse-degree
  column (window 3), and stores into the output block (window 4) the single value
  A · h1 + h1 ∘ invdeg + bias, over the whole block. This file states what each window's staging buffer holds
  around the body at a generic point, runs the body once against those contents, and packages the result as the
  pipeline's proof data and body obligation, all relative to the buffer contents V found when the region is entered.
-/
import proofs.«421025_j30305289241172_1_alg».proof.Proof.Gen.KernelIdeal.Launch
import proofs.«421025_j30305289241172_1_alg».proof.Proof.Gen.KernelIdeal.Skeleton
import proofs.«421025_j30305289241172_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region9
variable (V : (c : Dev nD) → (b : Ref sig .tc) → Buf (Elt F) ((c : Thread nD τ).loc b))

/-! ## The blocks the windows see -/

/-- Window `w`'s block at grid point `t`: the entries of the array found at entry that the window's index map
    selects there. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- An input window is never cut and never idle, and the body leaves its buffer alone; so whether or not a fetch
    happened at point `t`, the current staging buffer of window 0 holds the block of point `t` (an unfetched
    point has the same block index as the point before it). -/
theorem before9_0_of {c : Dev nD} (dat : Dat τ (Elt F) Unit ℕ (Pipeline.UD sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- An input window is never cut and never idle, and the body leaves its buffer alone; so whether or not a fetch
    happened at point `t`, the current staging buffer of window 1 holds the block of point `t` (an unfetched
    point has the same block index as the point before it). -/
theorem before9_1_of {c : Dev nD} (dat : Dat τ (Elt F) Unit ℕ (Pipeline.UD sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- An input window is never cut and never idle, and the body leaves its buffer alone; so whether or not a fetch
    happened at point `t`, the current staging buffer of window 2 holds the block of point `t` (an unfetched
    point has the same block index as the point before it). -/
theorem before9_2_of {c : Dev nD} (dat : Dat τ (Elt F) Unit ℕ (Pipeline.UD sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-- An input window is never cut and never idle, and the body leaves its buffer alone; so whether or not a fetch
    happened at point `t`, the current staging buffer of window 3 holds the block of point `t` (an unfetched
    point has the same block index as the point before it). -/
theorem before9_3_of {c : Dev nD} (dat : Dat τ (Elt F) Unit ℕ (Pipeline.UD sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: every load and the one store take a whole buffer -/

abbrev r9_h : Rect S1x2048x64 := Rect.unit (s := S1x2048x64) ![0, 0, 0] S1x2048x64.size inb_S1x2048x64_S1x2048x64_0_0_0
abbrev r9_a : Rect S2048x2048 := Rect.unit (s := S2048x2048) ![0, 0] S2048x2048.size inb_S2048x2048_S2048x2048_0_0
abbrev r9_b : Rect S1x64 := Rect.unit (s := S1x64) ![0, 0] S1x64.size inb_S1x64_S1x64_0_0
abbrev r9_d : Rect S2048x1 := Rect.unit (s := S2048x1) ![0, 0] S2048x1.size inb_S2048x1_S2048x1_0_0

/-! ## What the body leaves in the output buffer -/

/-- The output buffer after the body, as a function of the four input blocks: the one stored value, laid over the
    whole block. The stored value takes its arguments in the order the body reads them: features, adjacency,
    inverse degrees, bias. -/
def out9_4 (x0 : Vec F S1x2048x64 .bf16) (x1 : Vec F S2048x2048 .bf16) (x2 : Vec F S1x64 .f32) (x3 : Vec F S2048x1 .f32) : Vec F S1x2048x64 .bf16 :=
  View.canon [⟨r9_h, k9_pay1 (View.ld x0 r9_h) (View.ld x1 r9_a) (View.ld x3 r9_d) (View.ld x2 r9_b)⟩]

/-- The single store's box is the whole output block, so every index of the block lies in it. -/
theorem cover9_4 (p0 : Vec F S1x2048x64 .bf16) (y : S1x2048x64.Idx) :
    ∃ pc ∈ ([⟨r9_h, p0⟩] : List (View.Piece (Elt F) S1x2048x64 .bf16)), y ∈ pc.1.set :=
  View.cover_of_tiled [⟨r9_h, p0⟩] S1x2048x64.size (by rfl) y

/-! ## The body's triple -/

set_option maxHeartbeats 1000000 in
/-- Run on five whole staging buffers — the four inputs holding `x0 … x3`, the output holding anything — the body
    ends with the inputs as they were and the output at `out9_4 x0 x1 x2 x3`. The body reads the output buffer once
    before storing (the value read is not used), which any held contents permit. -/
theorem sound_kernel9 (c : Dev nD) (E : Set ℕ) (i : grid9.Coords)
    (arg1 : Memref sig .tc .vmem S1x2048x64 .bf16) (harg1 : arg1.IsWhole) (arg2 : Memref sig .tc .vmem S2048x2048 .bf16) (harg2 : arg2.IsWhole)
    (arg3 : Memref sig .tc .vmem S1x64 .f32) (harg3 : arg3.IsWhole) (arg4 : Memref sig .tc .vmem S2048x1 .f32) (harg4 : arg4.IsWhole)
    (arg5 : Memref sig .tc .vmem S1x2048x64 .bf16) (harg5 : arg5.IsWhole)
    (x0 : Vec F S1x2048x64 .bf16) (x1 : Vec F S2048x2048 .bf16) (x2 : Vec F S1x64 .f32) (x3 : Vec F S2048x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out9_4 x0 x1 x2 x3)) -∗ K ⟨⟩))
      ⊢ wp frame (wpE (defs₀ (F := F)) Variants.none c none) E (cc9__agg_kernel i arg1 harg1 arg2 harg2 arg3 harg3 arg4 harg4 arg5 harg5) K := by
  simp only [cc9__agg_kernel_eq_skeleton]; unfold cc9__agg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover9_4 _)

/-! ## The pipeline's proof data -/

/-- The proof data of pipeline 9 on core `c`: the arrays are those found at entry; after the body at point `t` each
    input's buffer still holds its block and the output's holds `out9_4` of the four blocks; the invariant is the
    untouched remainder of the core's state; nothing is owed and every share is whole. -/
def dat9 (c : Dev nD) : Dat τ (Elt F) Unit ℕ (Pipeline.UD sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => out9_4 (iblk9 V c 0 t) (iblk9 V c 1 t) (iblk9 V c 2 t) (iblk9 V c 3 t)
  Φ _ := Pipeline.ΦA spec9 c
  q _ := fullShare
  owed _ := 0

/-- The proof data's arrays are the contents found at entry. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) :
    (dat9 V c).after 4 t = out9_4 (iblk9 V c 0 t) (iblk9 V c 1 t) (iblk9 V c 2 t) (iblk9 V c 3 t) := by dsimp only [dat9]

/-- Each input's current staging buffer holds its block at every point. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d

/-! ## The body obligation at a generic point -/

/-- What the body is entered with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t))

/-- The body at any point: the inputs' buffers hold their blocks, so the body's triple applies; the invariant and
    what the core owes pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3]
  rw [show (dat9 V c).Φ t.succ = (dat9 V c).Φ t.castSucc from rfl,
    show (dat9 V c).owesAt () t.succ = (dat9 V c).owesAt () t.castSucc from rfl,
    after9_0, after9_1, after9_2, after9_3, after9_4]
  iintro ⟨HΦ, Ho, ⟨%d0, H0⟩, ⟨%d1, H1⟩, ⟨%d2, H2⟩, ⟨%d3, H3⟩, ⟨%d4, H4⟩⟩
  iapply (sound_kernel9 c Set.univ (grid9.coords t) _ _ _ _ _ _ _ _ _ _ (iblk9 V c 0 t) (iblk9 V c 1 t) (iblk9 V c 2 t) (iblk9 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation9 (c : Dev nD) : BodyObligation (dat9 (F := F) V c) (defs₀ (F := F)) Variants.none () Set.univ := fun t => by
  rw [bigSep_W9, bigSep_W9]
  exact sound_body9 V c t

end Region9

end Cert.KernelIdeal.Hand

end
-- ==== Proof.KI.R10.lean ====
/-
  Region 10 of the program: one feature transform of the graph-convolution stack. On a grid of 16 points, one batch
  row per point, the body multiplies the row's activations (2048 nodes by the input channels) by the whole weight
  matrix (both in half precision, rounded first where they are held wider) into a zero accumulator, and stores the
  product, rounded to half precision, over the whole of the output row's buffer. This file gives the region's blocks,
  what the body leaves in the output buffer as a closed function of the two input blocks, the body's triple, the
  pipeline's proof data over the region-entry contents, and the body obligation at every grid point.
-/
import proofs.«421025_j30305289241172_1_alg».proof.Proof.Gen.KernelIdeal.Launch
import proofs.«421025_j30305289241172_1_alg».proof.Proof.Gen.KernelIdeal.Skeleton
import proofs.«421025_j30305289241172_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
-- the TensorCore's buffer contents when the region is entered
variable (V : (c : Dev nD) → (b : Ref sig .tc) → Buf (Elt F) ((c : Thread nD τ).loc b))

/-! ## The windows' blocks -/

/-- Window `w`'s block at grid point `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- The activations' staging buffer holds batch row `t` at every point, for any proof data over the entry contents
    whose body leaves the block in place. -/
theorem before10_0_of {c : Dev nD} (dat : Dat τ (Elt F) Unit ℕ (Pipeline.UD sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- The weights' staging buffer holds the whole weight matrix at every point, fetched there or not: its block index
    never moves. -/
theorem before10_1_of {c : Dev nD} (dat : Dat τ (Elt F) Unit ℕ (Pipeline.UD sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses: each is the whole of its buffer -/

abbrev r10_0 : Rect S1x2048x64 := Rect.unit (s := S1x2048x64) ![0, 0, 0] S1x2048x64.size inb_S1x2048x64_S1x2048x64_0_0_0
abbrev r10_1 : Rect S64x3 := Rect.unit (s := S64x3) ![0, 0] S64x3.size inb_S64x3_S64x3_0_0
abbrev r10_2 : Rect S1x2048x3 := Rect.unit (s := S1x2048x3) ![0, 0, 0] S1x2048x3.size inb_S1x2048x3_S1x2048x3_0_0_0

/-! ## What the body leaves in the output window's buffer -/

/-- The output's staging buffer after the body: its one store, of the product of the activations' row block by the
    weights, over the whole buffer. -/
def out10_2 (x0 : Vec F S1x2048x64 .bf16) (x1 : Vec F S64x3 .f32) : Vec F S1x2048x3 .bf16 :=
  View.canon [⟨r10_2, k10_pay1 (View.ld x0 r10_0) (View.ld x1 r10_1)⟩]

/-- The one store covers the buffer. -/
theorem cover10_2 (p0 : Vec F S1x2048x3 .bf16) (y : S1x2048x3.Idx) :
    ∃ pc ∈ ([⟨r10_2, p0⟩] : List (View.Piece (Elt F) S1x2048x3 .bf16)), y ∈ pc.1.set :=
  View.cover_of_tiled [⟨r10_2, p0⟩] S1x2048x3.size (by rfl) y

/-! ## The body's triple -/

set_option maxHeartbeats 1000000 in
/-- The kernel body on whole staging memrefs, the inputs' at read contents `x0`, `x1` and the output's at anything
    (the body reads it once, and discards what it read, before it overwrites all of it), runs to the continuation
    holding the inputs' as they were and the output's at `out10_2` of the inputs'. -/
theorem sound_kernel10 (c : Dev nD) (E : Set ℕ) (i : grid10.Coords) (arg1 : Memref sig .tc .vmem S1x2048x64 .bf16) (harg1 : arg1.IsWhole) (arg2 : Memref sig .tc .vmem S64x3 .f32) (harg2 : arg2.IsWhole) (arg3 : Memref sig .tc .vmem S1x2048x3 .bf16) (harg3 : arg3.IsWhole)
    (x0 : Vec F S1x2048x64 .bf16) (x1 : Vec F S64x3 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out10_2 x0 x1)) -∗ K ⟨⟩))
      ⊢ wp frame (wpE (defs₀ (F := F)) Variants.none c none) E (cc10__feat_kernel i arg1 harg1 arg2 harg2 arg3 harg3) K := by
  simp only [cc10__feat_kernel_eq_skeleton]; unfold cc10__feat_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover10_2 _)

/-! ## The pipeline's proof data -/

/-- The proof data of this pipeline on core `c`: the arrays as the region finds them; after the body at point `t` each
    input's buffer at its block and the output's at `out10_2` of the input blocks; the invariant the scoped rest and the
    generator register, untouched; nothing owed; full shares. -/
def dat10 (c : Dev nD) : Dat τ (Elt F) Unit ℕ (Pipeline.UD sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
  Φ _ := Pipeline.ΦA spec10 c
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = out10_2 (iblk10 V c 0 t) (iblk10 V c 1 t) := by dsimp only [dat10]

/-- Each input's current staging buffer holds its block at every point. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t))

/-- The body at any point: the inputs' memrefs hold their blocks, so the body's triple applies; the invariant and
    the core's debts pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1]
  rw [show (dat10 V c).Φ t.succ = (dat10 V c).Φ t.castSucc from rfl,
    show (dat10 V c).owesAt () t.succ = (dat10 V c).owesAt () t.castSucc from rfl,
    after10_0, after10_1, after10_2]
  iintro ⟨HΦ, Ho, ⟨%d0, H0⟩, ⟨%d1, H1⟩, ⟨%d2, H2⟩⟩
  iapply (sound_kernel10 c Set.univ (grid10.coords t) _ _ _ _ _ _ (iblk10 V c 0 t) (iblk10 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation10 (c : Dev nD) : BodyObligation (dat10 (F := F) V c) (defs₀ (F := F)) Variants.none () Set.univ := fun t => by
  rw [bigSep_W10, bigSep_W10]
  exact sound_body10 V c t

end

end Cert.KernelIdeal.Hand

end
-- ==== Proof.KI.R11.lean ====
/-
  Aggregation layer, pipeline 11: one grid point per batch row. At a point the body reads the row's transformed
  features h1 (window 0), the whole normalised adjacency A (window 1), the bias row (window 2) and the inverse-degree
  column (window 3), and stores into the output block (window 4) the single value
  leaky (A · h1 + h1 ∘ invdeg + bias), the rectifier taken entrywise, over the whole block. This file states what each window's staging buffer holds
  around the body at a generic point, runs the body once against those contents, and packages the result as the
  pipeline's proof data and body obligation, all relative to the buffer contents V found when the region is entered.
-/
import proofs.«421025_j30305289241172_1_alg».proof.Proof.Gen.KernelIdeal.Launch
import proofs.«421025_j30305289241172_1_alg».proof.Proof.Gen.KernelIdeal.Skeleton
import proofs.«421025_j30305289241172_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region11
variable (V : (c : Dev nD) → (b : Ref sig .tc) → Buf (Elt F) ((c : Thread nD τ).loc b))

/-! ## The blocks the windows see -/

/-- Window `w`'s block at grid point `t`: the entries of the array found at entry that the window's index map
    selects there. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- An input window is never cut and never idle, and the body leaves its buffer alone; so whether or not a fetch
    happened at point `t`, the current staging buffer of window 0 holds the block of point `t` (an unfetched
    point has the same block index as the point before it). -/
theorem before11_0_of {c : Dev nD} (dat : Dat τ (Elt F) Unit ℕ (Pipeline.UD sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- An input window is never cut and never idle, and the body leaves its buffer alone; so whether or not a fetch
    happened at point `t`, the current staging buffer of window 1 holds the block of point `t` (an unfetched
    point has the same block index as the point before it). -/
theorem before11_1_of {c : Dev nD} (dat : Dat τ (Elt F) Unit ℕ (Pipeline.UD sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- An input window is never cut and never idle, and the body leaves its buffer alone; so whether or not a fetch
    happened at point `t`, the current staging buffer of window 2 holds the block of point `t` (an unfetched
    point has the same block index as the point before it). -/
theorem before11_2_of {c : Dev nD} (dat : Dat τ (Elt F) Unit ℕ (Pipeline.UD sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- An input window is never cut and never idle, and the body leaves its buffer alone; so whether or not a fetch
    happened at point `t`, the current staging buffer of window 3 holds the block of point `t` (an unfetched
    point has the same block index as the point before it). -/
theorem before11_3_of {c : Dev nD} (dat : Dat τ (Elt F) Unit ℕ (Pipeline.UD sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses: every load and the one store take a whole buffer -/

abbrev r11_h : Rect S1x2048x3 := Rect.unit (s := S1x2048x3) ![0, 0, 0] S1x2048x3.size inb_S1x2048x3_S1x2048x3_0_0_0
abbrev r11_a : Rect S2048x2048 := Rect.unit (s := S2048x2048) ![0, 0] S2048x2048.size inb_S2048x2048_S2048x2048_0_0
abbrev r11_b : Rect S1x3 := Rect.unit (s := S1x3) ![0, 0] S1x3.size inb_S1x3_S1x3_0_0
abbrev r11_d : Rect S2048x1 := Rect.unit (s := S2048x1) ![0, 0] S2048x1.size inb_S2048x1_S2048x1_0_0

/-! ## What the body leaves in the output buffer -/

/-- The output buffer after the body, as a function of the four input blocks: the one stored value, laid over the
    whole block. The stored value takes its arguments in the order the body reads them: features, adjacency,
    inverse degrees, bias. -/
def out11_4 (x0 : Vec F S1x2048x3 .bf16) (x1 : Vec F S2048x2048 .bf16) (x2 : Vec F S1x3 .f32) (x3 : Vec F S2048x1 .f32) : Vec F S1x2048x3 .f32 :=
  View.canon [⟨r11_h, k11_pay1 (View.ld x0 r11_h) (View.ld x1 r11_a) (View.ld x3 r11_d) (View.ld x2 r11_b)⟩]

/-- The single store's box is the whole output block, so every index of the block lies in it. -/
theorem cover11_4 (p0 : Vec F S1x2048x3 .f32) (y : S1x2048x3.Idx) :
    ∃ pc ∈ ([⟨r11_h, p0⟩] : List (View.Piece (Elt F) S1x2048x3 .f32)), y ∈ pc.1.set :=
  View.cover_of_tiled [⟨r11_h, p0⟩] S1x2048x3.size (by rfl) y

/-! ## The body's triple -/

set_option maxHeartbeats 1000000 in
/-- Run on five whole staging buffers — the four inputs holding `x0 … x3`, the output holding anything — the body
    ends with the inputs as they were and the output at `out11_4 x0 x1 x2 x3`. The body reads the output buffer once
    before storing (the value read is not used), which any held contents permit. -/
theorem sound_kernel11 (c : Dev nD) (E : Set ℕ) (i : grid11.Coords)
    (arg1 : Memref sig .tc .vmem S1x2048x3 .bf16) (harg1 : arg1.IsWhole) (arg2 : Memref sig .tc .vmem S2048x2048 .bf16) (harg2 : arg2.IsWhole)
    (arg3 : Memref sig .tc .vmem S1x3 .f32) (harg3 : arg3.IsWhole) (arg4 : Memref sig .tc .vmem S2048x1 .f32) (harg4 : arg4.IsWhole)
    (arg5 : Memref sig .tc .vmem S1x2048x3 .f32) (harg5 : arg5.IsWhole)
    (x0 : Vec F S1x2048x3 .bf16) (x1 : Vec F S2048x2048 .bf16) (x2 : Vec F S1x3 .f32) (x3 : Vec F S2048x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out11_4 x0 x1 x2 x3)) -∗ K ⟨⟩))
      ⊢ wp frame (wpE (defs₀ (F := F)) Variants.none c none) E (cc11__agg_kernel i arg1 harg1 arg2 harg2 arg3 harg3 arg4 harg4 arg5 harg5) K := by
  simp only [cc11__agg_kernel_eq_skeleton]; unfold cc11__agg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover11_4 _)

/-! ## The pipeline's proof data -/

/-- The proof data of pipeline 11 on core `c`: the arrays are those found at entry; after the body at point `t` each
    input's buffer still holds its block and the output's holds `out11_4` of the four blocks; the invariant is the
    untouched remainder of the core's state; nothing is owed and every share is whole. -/
def dat11 (c : Dev nD) : Dat τ (Elt F) Unit ℕ (Pipeline.UD sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => out11_4 (iblk11 V c 0 t) (iblk11 V c 1 t) (iblk11 V c 2 t) (iblk11 V c 3 t)
  Φ _ := Pipeline.ΦA spec11 c
  q _ := fullShare
  owed _ := 0

/-- The proof data's arrays are the contents found at entry. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) :
    (dat11 V c).after 4 t = out11_4 (iblk11 V c 0 t) (iblk11 V c 1 t) (iblk11 V c 2 t) (iblk11 V c 3 t) := by dsimp only [dat11]

/-- Each input's current staging buffer holds its block at every point. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d

/-! ## The body obligation at a generic point -/

/-- What the body is entered with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t))

/-- The body at any point: the inputs' buffers hold their blocks, so the body's triple applies; the invariant and
    what the core owes pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3]
  rw [show (dat11 V c).Φ t.succ = (dat11 V c).Φ t.castSucc from rfl,
    show (dat11 V c).owesAt () t.succ = (dat11 V c).owesAt () t.castSucc from rfl,
    after11_0, after11_1, after11_2, after11_3, after11_4]
  iintro ⟨HΦ, Ho, ⟨%d0, H0⟩, ⟨%d1, H1⟩, ⟨%d2, H2⟩, ⟨%d3, H3⟩, ⟨%d4, H4⟩⟩
  iapply (sound_kernel11 c Set.univ (grid11.coords t) _ _ _ _ _ _ _ _ _ _ (iblk11 V c 0 t) (iblk11 V c 1 t) (iblk11 V c 2 t) (iblk11 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point. -/
theorem body_obligation11 (c : Dev nD) : BodyObligation (dat11 (F := F) V c) (defs₀ (F := F)) Variants.none () Set.univ := fun t => by
  rw [bigSep_W11, bigSep_W11]
  exact sound_body11 V c t

end Region11

end Cert.KernelIdeal.Hand

end
-- ==== Proof.KI.R12.lean ====
import proofs.«421025_j30305289241172_1_alg».proof.Proof.Gen.KernelIdeal.Launch
import proofs.«421025_j30305289241172_1_alg».proof.Proof.Gen.KernelIdeal.Skeleton
import proofs.«421025_j30305289241172_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! Region 12 of @main: the dense head. -/

/-! ## Whole-buffer loads and stores

The body moves every operand through the rectangle that is the whole staging buffer (zero offsets, the buffer's
own sizes): such a load reads the contents, and such a store, made last, leaves its payload. -/

theorem z2 : (![0, 0] : Fin 2 → ℕ) = fun _ => 0 := by funext a; fin_cases a <;> rfl

/-- A load of the whole buffer reads its contents. -/
theorem readAt_whole {S : Shape} {e : EltTy} (v : View sig .tc .vmem S e) (f : v.ty.Contents (Elt F))
    {off : Fin S.rank → ℕ} (h : off = fun _ => 0) (inb : ∀ a, off a + S.size a ≤ S.size a) :
    v.readAt (Elt F) (Rect.unit off S.size inb).toLoadRect f = v.read (Elt F) f :=
  (View.readAt_eq_ld v f _).trans (View.ld_unit_zero h inb _)

/-- A store of the whole buffer, made last, leaves its payload. -/
theorem read_store_whole {S : Shape} {e : EltTy} (v : View sig .tc .vmem S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-! ## The body's branch conditions -/

/-- The condition of the body's first conditional (the reset), from the grid coordinates. -/
abbrev cond12_0 (i : grid12.Coords) : Prop := (Scalar.cmpi .ne (Scalar.extui (Scalar.cmpi .eq (BitVec.ofNat 32 (i 1).val) 0#32)) 0#32) = 1#1
/-- It holds where the inner coordinate is 0. -/
theorem hcond12_0 : ∀ t : Fin cfg12.N, cond12_0 (grid12.coords t) ↔ t.val % 3 = 0 :=
  (by decide +kernel : ∀ t : Fin grid12.N, cond12_0 (grid12.coords t) ↔ t.val % 3 = 0)

/-- The condition of the body's second conditional (the read-out). -/
abbrev cond12_1 (i : grid12.Coords) : Prop := k12_cond2 i = 1#1
/-- It holds where the inner coordinate is 2. -/
theorem hcond12_1 : ∀ t : Fin cfg12.N, cond12_1 (grid12.coords t) ↔ t.val % 3 = 2 :=
  (by decide +kernel : ∀ t : Fin grid12.N, cond12_1 (grid12.coords t) ↔ t.val % 3 = 2)

/-! ## Where the output window is idle -/

theorem idleAt12_3 : ∀ t : Fin cfg12.N, ¬cond12_1 (grid12.coords t) → cfg12.idle 3 (grid12.coords t) = true := by decide +kernel
theorem noFlush12_3 : ∀ t : Fin cfg12.N, ¬cond12_1 (grid12.coords t) → (cfg12.win 3).flush t = false := by decide +kernel
theorem liveAt12_3 : ∀ t : Fin cfg12.N, cond12_1 (grid12.coords t) → cfg12.idle 3 (grid12.coords t) = false := by decide +kernel

/-! ## The body on any whole staging memrefs, case by case -/

set_option maxHeartbeats 1000000 in
/-- Inner coordinate 0: the scratch, at anything, is zeroed and the point's block product added; the output
    buffer is handed back as found. -/
theorem sound_kernel12_A (c : Dev nD) (E : Set ℕ) (i : grid12.Coords)
    (arg2 : Memref sig .tc .vmem S16x2048 .f32) (harg2 : arg2.IsWhole) (arg3 : Memref sig .tc .vmem S2048x2048 .f32) (harg3 : arg3.IsWhole)
    (arg4 : Memref sig .tc .vmem S1x2048 .f32) (harg4 : arg4.IsWhole) (arg5 : Memref sig .tc .vmem S16x2048 .f32) (harg5 : arg5.IsWhole)
    (arg6 : Memref sig .tc .vmem S16x2048 .f32) (harg6 : arg6.IsWhole)
    (hc0 : cond12_0 i) (hc1 : ¬cond12_1 i)
    (x0 : Vec F S16x2048 .f32) (x1 : Vec F S2048x2048 .f32) (x2 : Vec F S1x2048 .f32) (xi3 : Vec F S16x2048 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k12_pay2 x0 x1 (k12_pay1 (F := F)))) -∗ K ⟨⟩))
      ⊢ wp frame (wpE (defs₀ (F := F)) Variants.none c none) E (cc12__dense_kernel i arg2 harg2 arg3 harg3 arg4 harg4 arg5 harg5 arg6 harg6) K := by
  simp only [cc12__dense_kernel_eq_skeleton]; unfold cc12__dense_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact HS
  ipureintro
  sl_unfold_run_names
  refine (read_store_whole _ _ z2 _ _ _).trans ?_
  rw [readAt_whole _ _ z2, readAt_whole _ _ z2, View.readCov_unit_zero _ z2]

set_option maxHeartbeats 1000000 in
/-- Inner coordinate 1: the point's block product is added to the scratch; the output buffer is handed back as found. -/
theorem sound_kernel12_B (c : Dev nD) (E : Set ℕ) (i : grid12.Coords)
    (arg2 : Memref sig .tc .vmem S16x2048 .f32) (harg2 : arg2.IsWhole) (arg3 : Memref sig .tc .vmem S2048x2048 .f32) (harg3 : arg3.IsWhole)
    (arg4 : Memref sig .tc .vmem S1x2048 .f32) (harg4 : arg4.IsWhole) (arg5 : Memref sig .tc .vmem S16x2048 .f32) (harg5 : arg5.IsWhole)
    (arg6 : Memref sig .tc .vmem S16x2048 .f32) (harg6 : arg6.IsWhole)
    (hc0 : ¬cond12_0 i) (hc1 : ¬cond12_1 i)
    (x0 : Vec F S16x2048 .f32) (x1 : Vec F S2048x2048 .f32) (x2 : Vec F S1x2048 .f32) (xi3 : Vec F S16x2048 .f32) (xs : Vec F S16x2048 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k12_pay2 x0 x1 xs)) -∗ K ⟨⟩))
      ⊢ wp frame (wpE (defs₀ (F := F)) Variants.none c none) E (cc12__dense_kernel i arg2 harg2 arg3 harg3 arg4 harg4 arg5 harg5 arg6 harg6) K := by
  simp only [cc12__dense_kernel_eq_skeleton]; unfold cc12__dense_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact HS
  ipureintro
  refine (read_store_whole _ _ z2 _ _ []).trans ?_
  rw [readAt_whole _ _ z2, readAt_whole _ _ z2, readAt_whole _ _ z2]

set_option maxHeartbeats 1000000 in
/-- Inner coordinate 2: the point's block product is added to the scratch, and the output buffer, at anything,
    is stored whole from the sum through the bias, the hyperbolic tangent and the scale. -/
theorem sound_kernel12_C (c : Dev nD) (E : Set ℕ) (i : grid12.Coords)
    (arg2 : Memref sig .tc .vmem S16x2048 .f32) (harg2 : arg2.IsWhole) (arg3 : Memref sig .tc .vmem S2048x2048 .f32) (harg3 : arg3.IsWhole)
    (arg4 : Memref sig .tc .vmem S1x2048 .f32) (harg4 : arg4.IsWhole) (arg5 : Memref sig .tc .vmem S16x2048 .f32) (harg5 : arg5.IsWhole)
    (arg6 : Memref sig .tc .vmem S16x2048 .f32) (harg6 : arg6.IsWhole)
    (hc0 : ¬cond12_0 i) (hc1 : cond12_1 i)
    (x0 : Vec F S16x2048 .f32) (x1 : Vec F S2048x2048 .f32) (x2 : Vec F S1x2048 .f32) (xs : Vec F S16x2048 .f32)
    (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k12_pay3 (k12_pay2 x0 x1 xs) x2) ∗ owns (c : Thread nD τ) arg6 fullShare (k12_pay2 x0 x1 xs)) -∗ K ⟨⟩))
      ⊢ wp frame (wpE (defs₀ (F := F)) Variants.none c none) E (cc12__dense_kernel i arg2 harg2 arg3 harg3 arg4 harg4 arg5 harg5 arg6 harg6) K := by
  simp only [cc12__dense_kernel_eq_skeleton]; unfold cc12__dense_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]
  · iexists _; isplitr
    swap; · iexact H3
    ipureintro
    sl_unfold_run_names
    refine (read_store_whole _ _ z2 _ _ []).trans ?_
    rw [View.readCov_unit_zero _ z2, readAt_whole _ _ z2, readAt_whole _ _ z2, readAt_whole _ _ z2, readAt_whole _ _ z2]
  iexists _; isplitr
  swap; · iexact HS
  ipureintro
  sl_unfold_run_names
  refine (read_store_whole _ _ z2 _ _ []).trans ?_
  rw [readAt_whole _ _ z2, readAt_whole _ _ z2, readAt_whole _ _ z2]

/-! # The dense head (pipeline 12): a 3×3 grid, point (n, k) with k the inner axis; a scratch accumulator the
kernel carries along k — zeroed at k = 0, added to at every point, and at k = 2 read out through the bias, the
hyperbolic tangent and the scale into the output block. -/

section Region12

variable (V : (c : Dev nD) → (b : Ref sig .tc) → Buf (Elt F) ((c : Thread nD τ).loc b))

/-! ## The windows' blocks -/

/-- Window `w`'s block at point `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- An input window's current staging buffer holds its block at every point, fetched there or not: where it is
    not fetched its block index has not moved. -/
theorem before12_0_of {c : Dev nD} (dat : Dat τ (Elt F) Unit ℕ (Pipeline.UD sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

theorem before12_1_of {c : Dev nD} (dat : Dat τ (Elt F) Unit ℕ (Pipeline.UD sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

theorem before12_2_of {c : Dev nD} (dat : Dat τ (Elt F) Unit ℕ (Pipeline.UD sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-! ## The scratch accumulator, point by point -/

/-- The scratch after the body at position `n`: the block product of the point added to the zero block where the
    inner coordinate is 0, and to what the point before left elsewhere. -/
def acc12N (c : Dev nD) : (n : ℕ) → n < cfg12.N → Vec F S16x2048 .f32
  | 0, hn => k12_pay2 (iblk12 V c 0 ⟨0, hn⟩) (iblk12 V c 1 ⟨0, hn⟩) (k12_pay1 (F := F))
  | n + 1, hn =>
    if (n + 1) % 3 = 0 then k12_pay2 (iblk12 V c 0 ⟨n + 1, hn⟩) (iblk12 V c 1 ⟨n + 1, hn⟩) (k12_pay1 (F := F))
    else k12_pay2 (iblk12 V c 0 ⟨n + 1, hn⟩) (iblk12 V c 1 ⟨n + 1, hn⟩) (acc12N c n (Nat.lt_of_succ_lt hn))

/-- The scratch after the body at point `t`. -/
def acc12 (c : Dev nD) (t : Fin cfg12.N) : Vec F S16x2048 .f32 := acc12N V c t.val t.isLt

/-- At a point whose inner coordinate is 0 the accumulator restarts from the zero block. -/
theorem acc12_first (c : Dev nD) (t : Fin cfg12.N) (hk : t.val % 3 = 0) :
    acc12 V c t = k12_pay2 (iblk12 V c 0 t) (iblk12 V c 1 t) (k12_pay1 (F := F)) := by
  obtain ⟨n, hn⟩ := t
  cases n with
  | zero => rfl
  | succ n => exact (if_pos hk).trans rfl

/-- Elsewhere it adds the point's block product to what the point before left. -/
theorem acc12_step (c : Dev nD) (t : Fin cfg12.N) (hk : t.val % 3 ≠ 0) (t' : Fin cfg12.N) (ht' : t'.val + 1 = t.val) :
    acc12 V c t = k12_pay2 (iblk12 V c 0 t) (iblk12 V c 1 t) (acc12 V c t') := by
  obtain ⟨n, hn⟩ := t
  obtain ⟨n', hn'⟩ := t'
  cases n with
  | zero => exact absurd (Nat.zero_mod _) hk
  | succ n =>
    have e : n' = n := by simpa using ht'
    subst e
    exact (if_neg hk).trans rfl

/-- The same with the point before named by its position. -/
theorem acc12N_pos (c : Dev nD) (n : ℕ) (hn : n < cfg12.N) (hk : n % 3 ≠ 0) :
    acc12N V c n hn = k12_pay2 (iblk12 V c 0 ⟨n, hn⟩) (iblk12 V c 1 ⟨n, hn⟩) (acc12N V c (n - 1) (Nat.lt_of_le_of_lt (Nat.sub_le _ _) hn)) := by
  cases n with
  | zero => exact absurd (Nat.zero_mod _) hk
  | succ n => exact (if_neg hk).trans rfl

/-! ## The invariant: the scratch at its tracked contents -/

/-- The scratch operand: a whole scoped buffer of the kernel's own, passed beside the windows. -/
abbrev scM12 : Memref sig .tc .vmem S16x2048 .f32 := Memref.whole cc12_scratch0

/-- The region invariant of the class with the scratch operand apart, as a memref owned at some contents. -/
theorem PhiA12_eq (c : Dev nD) :
    (Pipeline.ΦA spec12 c : sProp 𝕄)
      = iprop(iprop((∃ d, owns (c : Thread nD τ) scM12 fullShare d) ∗ Pipeline.scopedRestBut spec12 c [cc12_scratch0]) ∗ (∃ r, prngReg c r)) := by
  unfold Pipeline.ΦA; rw [scopedRest12_split]; simp only [scM12, owns_whole]; try rfl

/-- The invariant before position `n`: before the first point the class's (the scratch at anything); afterwards the
    scratch at what the point before left in it, the other scoped buffers at anything, the generator register at
    some state. -/
def Phi12 (c : Dev nD) : (n : ℕ) → n ≤ cfg12.N → sProp 𝕄
  | 0, _ => Pipeline.ΦA spec12 c
  | n + 1, hn => iprop(iprop(owns (c : Thread nD τ) scM12 fullShare (acc12N V c n hn) ∗ Pipeline.scopedRestBut spec12 c [cc12_scratch0]) ∗ (∃ r, prngReg c r))

theorem Phi12_zero (c : Dev nD) (n : ℕ) (h : n ≤ cfg12.N) (hz : n = 0) : Phi12 V c n h = Pipeline.ΦA spec12 c := by
  subst hz; rfl

theorem Phi12_succ (c : Dev nD) (n : ℕ) (hn : n < cfg12.N) :
    Phi12 V c (n + 1) hn = iprop(iprop(owns (c : Thread nD τ) scM12 fullShare (acc12N V c n hn) ∗ Pipeline.scopedRestBut spec12 c [cc12_scratch0]) ∗ (∃ r, prngReg c r)) := rfl

theorem Phi12_pos (c : Dev nD) (n : ℕ) (h : n ≤ cfg12.N) (hz : n ≠ 0) :
    Phi12 V c n h = iprop(iprop(owns (c : Thread nD τ) scM12 fullShare (acc12N V c (n - 1) (by omega)) ∗ Pipeline.scopedRestBut spec12 c [cc12_scratch0]) ∗ (∃ r, prngReg c r)) := by
  cases n with
  | zero => exact absurd rfl hz
  | succ n => rfl

/-! ## The pipeline's proof data -/

/-- The proof data of pipeline 12 on core `c`: the arrays as the region finds them; after the body at point `t`
    each input's buffer at its block and the output's at the read-out of the accumulator (consulted only where the
    inner coordinate is 2: elsewhere the window is idle and not written back); the invariant carrying the scratch;
    nothing owed; full shares. -/
def dat12 (c : Dev nD) : Dat τ (Elt F) Unit ℕ (Pipeline.UD sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => k12_pay3 (acc12 V c t) (iblk12 V c 2 t)
  Φ t := Phi12 V c t.val (Nat.le_of_lt_succ t.isLt)
  q _ := fullShare
  owed _ := 0

theorem A_eq12 (c : Dev nD) (w : Fin cfg12.W) : (dat12 V c).A w = V c (Pipeline.arrRef spec12 w) := by
  dsimp only [dat12]

theorem Phi12_castSucc (c : Dev nD) (t : Fin cfg12.N) :
    (dat12 V c).Φ t.castSucc = Phi12 V c t.val (Nat.le_of_lt t.isLt) := by
  dsimp only [dat12]; simp only [Fin.coe_castSucc]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = k12_pay3 (acc12 V c t) (iblk12 V c 2 t) := by dsimp only [dat12]

/-- What the output window's buffer holds after a point whose inner coordinate is 2. -/
theorem after12_out (c : Dev nD) (t : Fin cfg12.N) (hk : t.val % 3 = 2) :
    (dat12 V c).after 3 t = k12_pay3 (acc12 V c t) (iblk12 V c 2 t) := after12_3 V c t

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d)))

/-- and what it returns. -/
def bodyPost12 (c : Dev nD) (t : Fin cfg12.N) : sProp 𝕄 :=
  iprop((dat12 V c).Φ t.succ ∗ (dat12 V c).owesAt () t.succ
    ∗ (dat12 V c).leavesExact 0 t
    ∗ (dat12 V c).leavesExact 1 t
    ∗ (dat12 V c).leavesExact 2 t
    ∗ (dat12 V c).leavesExact 3 t)

/-- The input windows are never idle. -/
theorem liveAt12_0 : ∀ t : Fin cfg12.N, cfg12.idle 0 (grid12.coords t) = false := by decide +kernel
theorem liveAt12_1 : ∀ t : Fin cfg12.N, cfg12.idle 1 (grid12.coords t) = false := by decide +kernel
theorem liveAt12_2 : ∀ t : Fin cfg12.N, cfg12.idle 2 (grid12.coords t) = false := by decide +kernel

set_option maxHeartbeats 4800000 in
/-- The body at any point: the inputs' memrefs hold their blocks; the inner coordinate says which case the point is
    in; the invariant hands the body the scratch at what the point before left (at anything before the first point)
    and takes it back at this point's accumulator; the output buffer is handed back as found where the inner
    coordinate is not 2 and stored whole where it is; the core owes nothing throughout. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2]
  rw [show (dat12 V c).owesAt () t.succ = (dat12 V c).owesAt () t.castSucc from rfl]
  rw [show (dat12 V c).Φ t.succ = Phi12 V c (t.val + 1) t.isLt from rfl, Phi12_succ,
    show acc12N V c t.val t.isLt = acc12 V c t from rfl]
  have hN : t.val < 9 := lt_of_lt_of_eq t.isLt (show cfg12.N = 9 from N_12)
  rw [show (dat12 V c).leavesExact 0 t = owns (c : Thread nD τ) (st12_0 t) fullShare ((dat12 V c).after 0 t) from by
    unfold Dat.leavesExact; rw [liveAt12_0 t], after12_0]
  rw [show (dat12 V c).leavesExact 1 t = owns (c : Thread nD τ) (st12_1 t) fullShare ((dat12 V c).after 1 t) from by
    unfold Dat.leavesExact; rw [liveAt12_1 t], after12_1]
  rw [show (dat12 V c).leavesExact 2 t = owns (c : Thread nD τ) (st12_2 t) fullShare ((dat12 V c).after 2 t) from by
    unfold Dat.leavesExact; rw [liveAt12_2 t], after12_2]
  by_cases h0 : t.val % 3 = 0
  · have hc0 : cond12_0 (grid12.coords t) := (hcond12_0 t).mpr h0
    have hc1 : ¬cond12_1 (grid12.coords t) := fun h => by have := (hcond12_1 t).mp h; omega
    rw [Dat.leavesExact_idle (dat12 V c) 3 t (idleAt12_3 t hc1) (noFlush12_3 t hc1)]
    rw [acc12_first V c t h0]
    by_cases hz : t.val = 0
    · rw [Phi12_castSucc V c t, Phi12_zero V c _ _ hz, PhiA12_eq]
      iintro ⟨⟨⟨HS, HR⟩, Hg⟩, Ho, ⟨%d0, H0⟩, ⟨%d1, H1⟩, ⟨%d2, H2⟩, ⟨%d3, H3⟩⟩
      iapply (sound_kernel12_A c Set.univ (grid12.coords t) _ _ _ _ _ _ _ _ _ _ hc0 hc1
        (iblk12 V c 0 t) (iblk12 V c 1 t) (iblk12 V c 2 t) ((dat12 V c).before 3 t d3) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [Phi12_castSucc V c t, Phi12_pos V c _ _ hz]
      iintro ⟨⟨⟨HS, HR⟩, Hg⟩, Ho, ⟨%d0, H0⟩, ⟨%d1, H1⟩, ⟨%d2, H2⟩, ⟨%d3, H3⟩⟩
      iapply (sound_kernel12_A c Set.univ (grid12.coords t) _ _ _ _ _ _ _ _ _ _ hc0 hc1
        (iblk12 V c 0 t) (iblk12 V c 1 t) (iblk12 V c 2 t) ((dat12 V c).before 3 t d3) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hc0 : ¬cond12_0 (grid12.coords t) := fun h => h0 ((hcond12_0 t).mp h)
    have hz : t.val ≠ 0 := fun e => h0 (by rw [e])
    rw [show acc12 V c t = k12_pay2 (iblk12 V c 0 t) (iblk12 V c 1 t) (acc12N V c (t.val - 1) (by omega)) from
      acc12N_pos V c t.val t.isLt h0]
    rw [Phi12_castSucc V c t, Phi12_pos V c _ _ hz]
    by_cases h1 : t.val % 3 = 2
    · have hc1 : cond12_1 (grid12.coords t) := (hcond12_1 t).mpr h1
      rw [show (dat12 V c).leavesExact 3 t = owns (c : Thread nD τ) (st12_3 t) fullShare ((dat12 V c).after 3 t) from by
        unfold Dat.leavesExact; rw [liveAt12_3 t hc1], after12_3]
      rw [show acc12 V c t = k12_pay2 (iblk12 V c 0 t) (iblk12 V c 1 t) (acc12N V c (t.val - 1) (by omega)) from
        acc12N_pos V c t.val t.isLt h0]
      iintro ⟨⟨⟨HS, HR⟩, Hg⟩, Ho, ⟨%d0, H0⟩, ⟨%d1, H1⟩, ⟨%d2, H2⟩, ⟨%d3, H3⟩⟩
      iapply (sound_kernel12_C c Set.univ (grid12.coords t) _ _ _ _ _ _ _ _ _ _ hc0 hc1
        (iblk12 V c 0 t) (iblk12 V c 1 t) (iblk12 V c 2 t) (acc12N V c (t.val - 1) (by omega)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have hc1 : ¬cond12_1 (grid12.coords t) := fun h => h1 ((hcond12_1 t).mp h)
      rw [Dat.leavesExact_idle (dat12 V c) 3 t (idleAt12_3 t hc1) (noFlush12_3 t hc1)]
      iintro ⟨⟨⟨HS, HR⟩, Hg⟩, Ho, ⟨%d0, H0⟩, ⟨%d1, H1⟩, ⟨%d2, H2⟩, ⟨%d3, H3⟩⟩
      iapply (sound_kernel12_B c Set.univ (grid12.coords t) _ _ _ _ _ _ _ _ _ _ hc0 hc1
        (iblk12 V c 0 t) (iblk12 V c 1 t) (iblk12 V c 2 t) ((dat12 V c).before 3 t d3) (acc12N V c (t.val - 1) (by omega)) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The body obligation, at every point. -/
theorem body_obligation12 (c : Dev nD) : BodyObligation (dat12 (F := F) V c) (defs₀ (F := F)) Variants.none () Set.univ := fun t => by
  rw [bigSep_W12, bigSep_W12]
  exact sound_body12 V c t

/-- What the launch hands the region is the invariant before the first point. -/
theorem Phi12_first (c : Dev nD) : (Pipeline.ΦA spec12 c : sProp 𝕄) ⊢ (dat12 V c).Φ 0 := by
  rw [show (dat12 V c).Φ 0 = Phi12 V c 0 (Nat.zero_le _) from rfl, Phi12_zero V c 0 _ rfl]
  try exact Idealize.SL.BI.Entails.refl _

/-- After the last point the invariant gives the class's back: the scratch's named contents are forgotten. -/
theorem Phi12_last (c : Dev nD) : (dat12 V c).Φ (Fin.last cfg12.N) ⊢ (Pipeline.ΦA spec12 c : sProp 𝕄) := by
  rw [show (dat12 V c).Φ (Fin.last cfg12.N) = Phi12 V c (Fin.last cfg12.N).val (Nat.le_of_lt_succ (Fin.last cfg12.N).isLt) from rfl,
    Phi12_pos V c _ _ (by rw [Fin.val_last]; have : cfg12.N = 9 := N_12; omega), PhiA12_eq]
  iintro ⟨⟨HS, HR⟩, Hg⟩
  isplitl [HS HR]
  · isplitl [HS]
    · iexists _; iexact HS
    iexact HR
  iexact Hg

example (c : Dev nD) (w) : (dat12 V c).q w = fullShare := rfl
example (c : Dev nD) (t) : (dat12 V c).owed t = 0 := rfl

end Region12
end Cert.KernelIdeal.Hand
end
-- ==== Proof.KI.Chain.lean ====
/- The buffer contents at each of @main's 23 item boundaries, as a fold through its 22 items: a host stretch
   rewrites the buffers its operations write, a kernel region rewrites its windows' arrays by the write-backs
   of its output windows. Each region's proof data is taken at the contents of the boundary before it. -/
import proofs.«421025_j30305289241172_1_alg».proof.Proof.Gen.KernelIdeal.Launch
import proofs.«421025_j30305289241172_1_alg».proof.Proof.Gen.KernelIdeal.Skeleton
import proofs.«421025_j30305289241172_1_alg».proof.Proof.Gen.KernelIdeal.Points
import proofs.«421025_j30305289241172_1_alg».proof.Proof.Gen.KernelIdeal.Regions
import proofs.«421025_j30305289241172_1_alg».proof.Proof.KI.R0
import proofs.«421025_j30305289241172_1_alg».proof.Proof.KI.R1
import proofs.«421025_j30305289241172_1_alg».proof.Proof.KI.R2
import proofs.«421025_j30305289241172_1_alg».proof.Proof.KI.R3
import proofs.«421025_j30305289241172_1_alg».proof.Proof.KI.R4
import proofs.«421025_j30305289241172_1_alg».proof.Proof.KI.R5
import proofs.«421025_j30305289241172_1_alg».proof.Proof.KI.R6
import proofs.«421025_j30305289241172_1_alg».proof.Proof.KI.R7
import proofs.«421025_j30305289241172_1_alg».proof.Proof.KI.R8
import proofs.«421025_j30305289241172_1_alg».proof.Proof.KI.R9
import proofs.«421025_j30305289241172_1_alg».proof.Proof.KI.R10
import proofs.«421025_j30305289241172_1_alg».proof.Proof.KI.R11
import proofs.«421025_j30305289241172_1_alg».proof.Proof.KI.R12
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The contents at each boundary -/

/-- Core `c`'s buffers at launch. -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- After item 0, the host stretch `hostOps0`: each buffer its operations write rewritten, the rest kept. -/
def W1 (c : Dev nD) : Valuation τ sig (Elt F) := StableHlo.after hostOps0 (W0 m ρ c)
abbrev V1 : (c : Dev nD) → (b : Ref sig .tc) → Buf (Elt F) ((c : Thread nD τ).loc b) := fun c b => W1 m ρ c b
/-- A reference the stretch does not write keeps its contents. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

/-- After item 1, region 0: its windows' arrays at what the pipeline leaves (an input as entered, an output with
    every write-back folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
/-- At region 0's exit each of its arrays holds what the pipeline leaves, every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- A reference that is no output window's array keeps its contents: an input window's array is never written
    back to, and a buffer that is no window's array bypasses the region. -/
theorem W2_keep (c : Dev nD) (b : Ref sig .tc) (hb : ∀ w, (cfg0.win w).isOut = true → Pipeline.arrRef spec0 w ≠ b) :
    W2 m ρ c (Proc.devRef .tc b) = W1 m ρ c (Proc.devRef .tc b) := by
  by_cases h : ∃ w, Pipeline.arrRef spec0 w = b
  · obtain ⟨w, rfl⟩ := h
    have hin : (cfg0.win w).isOut = false := by
      cases hio : (cfg0.win w).isOut
      · rfl
      · exact absurd rfl (hb w hio)
    exact (W2_arr m ρ c w).trans (((dat0 (V1 m ρ) c).arrAt_in w hin _).trans (A_eq0 (V1 m ρ) c w))
  · exact W2_of_ne m ρ c b fun w e => h ⟨w, e⟩

/-- After item 2, the host stretch `hostOps1`: each buffer its operations write rewritten, the rest kept. -/
def W3 (c : Dev nD) : Valuation τ sig (Elt F) := StableHlo.after hostOps1 (W2 m ρ c)
abbrev V3 : (c : Dev nD) → (b : Ref sig .tc) → Buf (Elt F) ((c : Thread nD τ).loc b) := fun c b => W3 m ρ c b
/-- A reference the stretch does not write keeps its contents. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

/-- After item 3, region 1: its windows' arrays at what the pipeline leaves (an input as entered, an output with
    every write-back folded in), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
/-- At region 1's exit each of its arrays holds what the pipeline leaves, every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- A reference that is no output window's array keeps its contents: an input window's array is never written
    back to, and a buffer that is no window's array bypasses the region. -/
theorem W4_keep (c : Dev nD) (b : Ref sig .tc) (hb : ∀ w, (cfg1.win w).isOut = true → Pipeline.arrRef spec1 w ≠ b) :
    W4 m ρ c (Proc.devRef .tc b) = W3 m ρ c (Proc.devRef .tc b) := by
  by_cases h : ∃ w, Pipeline.arrRef spec1 w = b
  · obtain ⟨w, rfl⟩ := h
    have hin : (cfg1.win w).isOut = false := by
      cases hio : (cfg1.win w).isOut
      · rfl
      · exact absurd rfl (hb w hio)
    exact (W4_arr m ρ c w).trans (((dat1 (V3 m ρ) c).arrAt_in w hin _).trans (A_eq1 (V3 m ρ) c w))
  · exact W4_of_ne m ρ c b fun w e => h ⟨w, e⟩

/-- After item 4, region 2: its windows' arrays at what the pipeline leaves (an input as entered, an output with
    every write-back folded in), every other buffer as entered. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
/-- At region 2's exit each of its arrays holds what the pipeline leaves, every other buffer what it held at entry. -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
/-- A reference that is no output window's array keeps its contents: an input window's array is never written
    back to, and a buffer that is no window's array bypasses the region. -/
theorem W5_keep (c : Dev nD) (b : Ref sig .tc) (hb : ∀ w, (cfg2.win w).isOut = true → Pipeline.arrRef spec2 w ≠ b) :
    W5 m ρ c (Proc.devRef .tc b) = W4 m ρ c (Proc.devRef .tc b) := by
  by_cases h : ∃ w, Pipeline.arrRef spec2 w = b
  · obtain ⟨w, rfl⟩ := h
    have hin : (cfg2.win w).isOut = false := by
      cases hio : (cfg2.win w).isOut
      · rfl
      · exact absurd rfl (hb w hio)
    exact (W5_arr m ρ c w).trans (((dat2 (V4 m ρ) c).arrAt_in w hin _).trans (A_eq2 (V4 m ρ) c w))
  · exact W5_of_ne m ρ c b fun w e => h ⟨w, e⟩

/-- After item 5, the host stretch `hostOps3`: each buffer its operations write rewritten, the rest kept. -/
def W6 (c : Dev nD) : Valuation τ sig (Elt F) := StableHlo.after hostOps3 (W5 m ρ c)
abbrev V6 : (c : Dev nD) → (b : Ref sig .tc) → Buf (Elt F) ((c : Thread nD τ).loc b) := fun c b => W6 m ρ c b
/-- A reference the stretch does not write keeps its contents. -/
theorem W6_of (c : Dev nD) (r : Ref sig .tc) (h : r ∉ hostOps3_W) :
    W6 m ρ c (Proc.devRef .tc r) = W5 m ρ c (Proc.devRef .tc r) :=
  StableHlo.after_of_writes_sub hostOps3 _ hostOps3_writes h

/-- After item 6, region 3: its windows' arrays at what the pipeline leaves (an input as entered, an output with
    every write-back folded in), every other buffer as entered. -/
def W7 (c : Dev nD) : Valuation τ sig (Elt F) :=
  Pipeline.withArrays spec3 c (W6 m ρ c) fun w => (dat3 (V6 m ρ) c).arrAt w cfg3.N
theorem W7_arr (c : Dev nD) (w : Fin cfg3.W) :
    W7 m ρ c (Proc.devRef .tc (Pipeline.arrRef spec3 w)) = (dat3 (V6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev V7 : (c : Dev nD) → (b : Ref sig .tc) → Buf (Elt F) ((c : Thread nD τ).loc b) := fun c b => W7 m ρ c b
/-- At region 3's exit each of its arrays holds what the pipeline leaves, every other buffer what it held at entry. -/
theorem hF3 (c : Dev nD) (w : Fin cfg3.W) : (dat3 (V6 m ρ) c).arrAt w cfg3.N = V7 m ρ c (Pipeline.arrRef spec3 w) :=
  (W7_arr m ρ c w).symm
theorem hrest3 (c : Dev nD) : ∀ b, b ∉ Finset.univ.image (Pipeline.arrRef spec3) → V7 m ρ c b = V6 m ρ c b :=
  fun b hb => W7_of_ne m ρ c b fun w e => hb (Finset.mem_image.mpr ⟨w, Finset.mem_univ _, e⟩)
/-- A reference that is no output window's array keeps its contents: an input window's array is never written
    back to, and a buffer that is no window's array bypasses the region. -/
theorem W7_keep (c : Dev nD) (b : Ref sig .tc) (hb : ∀ w, (cfg3.win w).isOut = true → Pipeline.arrRef spec3 w ≠ b) :
    W7 m ρ c (Proc.devRef .tc b) = W6 m ρ c (Proc.devRef .tc b) := by
  by_cases h : ∃ w, Pipeline.arrRef spec3 w = b
  · obtain ⟨w, rfl⟩ := h
    have hin : (cfg3.win w).isOut = false := by
      cases hio : (cfg3.win w).isOut
      · rfl
      · exact absurd rfl (hb w hio)
    exact (W7_arr m ρ c w).trans (((dat3 (V6 m ρ) c).arrAt_in w hin _).trans (A_eq3 (V6 m ρ) c w))
  · exact W7_of_ne m ρ c b fun w e => h ⟨w, e⟩

/-- After item 7, region 4: its windows' arrays at what the pipeline leaves (an input as entered, an output with
    every write-back folded in), every other buffer as entered. -/
def W8 (c : Dev nD) : Valuation τ sig (Elt F) :=
  Pipeline.withArrays spec4 c (W7 m ρ c) fun w => (dat4 (V7 m ρ) c).arrAt w cfg4.N
theorem W8_arr (c : Dev nD) (w : Fin cfg4.W) :
    W8 m ρ c (Proc.devRef .tc (Pipeline.arrRef spec4 w)) = (dat4 (V7 m ρ) c).arrAt w cfg4.N := by
  unfold W8; exact Pipeline.withArrays_arr spec4 launch4.win.arr_inj c _ _ w
theorem W8_of_ne (c : Dev nD) (b : Ref sig .tc) (hb : ∀ w, Pipeline.arrRef spec4 w ≠ b) :
    W8 m ρ c (Proc.devRef .tc b) = W7 m ρ c (Proc.devRef .tc b) := by
  unfold W8; exact Pipeline.withArrays_of_ne spec4 c _ _ b hb
abbrev V8 : (c : Dev nD) → (b : Ref sig .tc) → Buf (Elt F) ((c : Thread nD τ).loc b) := fun c b => W8 m ρ c b
/-- At region 4's exit each of its arrays holds what the pipeline leaves, every other buffer what it held at entry. -/
theorem hF4 (c : Dev nD) (w : Fin cfg4.W) : (dat4 (V7 m ρ) c).arrAt w cfg4.N = V8 m ρ c (Pipeline.arrRef spec4 w) :=
  (W8_arr m ρ c w).symm
theorem hrest4 (c : Dev nD) : ∀ b, b ∉ Finset.univ.image (Pipeline.arrRef spec4) → V8 m ρ c b = V7 m ρ c b :=
  fun b hb => W8_of_ne m ρ c b fun w e => hb (Finset.mem_image.mpr ⟨w, Finset.mem_univ _, e⟩)
/-- A reference that is no output window's array keeps its contents: an input window's array is never written
    back to, and a buffer that is no window's array bypasses the region. -/
theorem W8_keep (c : Dev nD) (b : Ref sig .tc) (hb : ∀ w, (cfg4.win w).isOut = true → Pipeline.arrRef spec4 w ≠ b) :
    W8 m ρ c (Proc.devRef .tc b) = W7 m ρ c (Proc.devRef .tc b) := by
  by_cases h : ∃ w, Pipeline.arrRef spec4 w = b
  · obtain ⟨w, rfl⟩ := h
    have hin : (cfg4.win w).isOut = false := by
      cases hio : (cfg4.win w).isOut
      · rfl
      · exact absurd rfl (hb w hio)
    exact (W8_arr m ρ c w).trans (((dat4 (V7 m ρ) c).arrAt_in w hin _).trans (A_eq4 (V7 m ρ) c w))
  · exact W8_of_ne m ρ c b fun w e => h ⟨w, e⟩

/-- After item 8, the host stretch `hostOps5`: each buffer its operations write rewritten, the rest kept. -/
def W9 (c : Dev nD) : Valuation τ sig (Elt F) := StableHlo.after hostOps5 (W8 m ρ c)
abbrev V9 : (c : Dev nD) → (b : Ref sig .tc) → Buf (Elt F) ((c : Thread nD τ).loc b) := fun c b => W9 m ρ c b
/-- A reference the stretch does not write keeps its contents. -/
theorem W9_of (c : Dev nD) (r : Ref sig .tc) (h : r ∉ hostOps5_W) :
    W9 m ρ c (Proc.devRef .tc r) = W8 m ρ c (Proc.devRef .tc r) :=
  StableHlo.after_of_writes_sub hostOps5 _ hostOps5_writes h

/-- After item 9, region 5: its windows' arrays at what the pipeline leaves (an input as entered, an output with
    every write-back folded in), every other buffer as entered. -/
def W10 (c : Dev nD) : Valuation τ sig (Elt F) :=
  Pipeline.withArrays spec5 c (W9 m ρ c) fun w => (dat5 (V9 m ρ) c).arrAt w cfg5.N
theorem W10_arr (c : Dev nD) (w : Fin cfg5.W) :
    W10 m ρ c (Proc.devRef .tc (Pipeline.arrRef spec5 w)) = (dat5 (V9 m ρ) c).arrAt w cfg5.N := by
  unfold W10; exact Pipeline.withArrays_arr spec5 launch5.win.arr_inj c _ _ w
theorem W10_of_ne (c : Dev nD) (b : Ref sig .tc) (hb : ∀ w, Pipeline.arrRef spec5 w ≠ b) :
    W10 m ρ c (Proc.devRef .tc b) = W9 m ρ c (Proc.devRef .tc b) := by
  unfold W10; exact Pipeline.withArrays_of_ne spec5 c _ _ b hb
abbrev V10 : (c : Dev nD) → (b : Ref sig .tc) → Buf (Elt F) ((c : Thread nD τ).loc b) := fun c b => W10 m ρ c b
/-- At region 5's exit each of its arrays holds what the pipeline leaves, every other buffer what it held at entry. -/
theorem hF5 (c : Dev nD) (w : Fin cfg5.W) : (dat5 (V9 m ρ) c).arrAt w cfg5.N = V10 m ρ c (Pipeline.arrRef spec5 w) :=
  (W10_arr m ρ c w).symm
theorem hrest5 (c : Dev nD) : ∀ b, b ∉ Finset.univ.image (Pipeline.arrRef spec5) → V10 m ρ c b = V9 m ρ c b :=
  fun b hb => W10_of_ne m ρ c b fun w e => hb (Finset.mem_image.mpr ⟨w, Finset.mem_univ _, e⟩)
/-- A reference that is no output window's array keeps its contents: an input window's array is never written
    back to, and a buffer that is no window's array bypasses the region. -/
theorem W10_keep (c : Dev nD) (b : Ref sig .tc) (hb : ∀ w, (cfg5.win w).isOut = true → Pipeline.arrRef spec5 w ≠ b) :
    W10 m ρ c (Proc.devRef .tc b) = W9 m ρ c (Proc.devRef .tc b) := by
  by_cases h : ∃ w, Pipeline.arrRef spec5 w = b
  · obtain ⟨w, rfl⟩ := h
    have hin : (cfg5.win w).isOut = false := by
      cases hio : (cfg5.win w).isOut
      · rfl
      · exact absurd rfl (hb w hio)
    exact (W10_arr m ρ c w).trans (((dat5 (V9 m ρ) c).arrAt_in w hin _).trans (A_eq5 (V9 m ρ) c w))
  · exact W10_of_ne m ρ c b fun w e => h ⟨w, e⟩

/-- After item 10, region 6: its windows' arrays at what the pipeline leaves (an input as entered, an output with
    every write-back folded in), every other buffer as entered. -/
def W11 (c : Dev nD) : Valuation τ sig (Elt F) :=
  Pipeline.withArrays spec6 c (W10 m ρ c) fun w => (dat6 (V10 m ρ) c).arrAt w cfg6.N
theorem W11_arr (c : Dev nD) (w : Fin cfg6.W) :
    W11 m ρ c (Proc.devRef .tc (Pipeline.arrRef spec6 w)) = (dat6 (V10 m ρ) c).arrAt w cfg6.N := by
  unfold W11; exact Pipeline.withArrays_arr spec6 launch6.win.arr_inj c _ _ w
theorem W11_of_ne (c : Dev nD) (b : Ref sig .tc) (hb : ∀ w, Pipeline.arrRef spec6 w ≠ b) :
    W11 m ρ c (Proc.devRef .tc b) = W10 m ρ c (Proc.devRef .tc b) := by
  unfold W11; exact Pipeline.withArrays_of_ne spec6 c _ _ b hb
abbrev V11 : (c : Dev nD) → (b : Ref sig .tc) → Buf (Elt F) ((c : Thread nD τ).loc b) := fun c b => W11 m ρ c b
/-- At region 6's exit each of its arrays holds what the pipeline leaves, every other buffer what it held at entry. -/
theorem hF6 (c : Dev nD) (w : Fin cfg6.W) : (dat6 (V10 m ρ) c).arrAt w cfg6.N = V11 m ρ c (Pipeline.arrRef spec6 w) :=
  (W11_arr m ρ c w).symm
theorem hrest6 (c : Dev nD) : ∀ b, b ∉ Finset.univ.image (Pipeline.arrRef spec6) → V11 m ρ c b = V10 m ρ c b :=
  fun b hb => W11_of_ne m ρ c b fun w e => hb (Finset.mem_image.mpr ⟨w, Finset.mem_univ _, e⟩)
/-- A reference that is no output window's array keeps its contents: an input window's array is never written
    back to, and a buffer that is no window's array bypasses the region. -/
theorem W11_keep (c : Dev nD) (b : Ref sig .tc) (hb : ∀ w, (cfg6.win w).isOut = true → Pipeline.arrRef spec6 w ≠ b) :
    W11 m ρ c (Proc.devRef .tc b) = W10 m ρ c (Proc.devRef .tc b) := by
  by_cases h : ∃ w, Pipeline.arrRef spec6 w = b
  · obtain ⟨w, rfl⟩ := h
    have hin : (cfg6.win w).isOut = false := by
      cases hio : (cfg6.win w).isOut
      · rfl
      · exact absurd rfl (hb w hio)
    exact (W11_arr m ρ c w).trans (((dat6 (V10 m ρ) c).arrAt_in w hin _).trans (A_eq6 (V10 m ρ) c w))
  · exact W11_of_ne m ρ c b fun w e => h ⟨w, e⟩

/-- After item 11, the host stretch `hostOps7`: each buffer its operations write rewritten, the rest kept. -/
def W12 (c : Dev nD) : Valuation τ sig (Elt F) := StableHlo.after hostOps7 (W11 m ρ c)
abbrev V12 : (c : Dev nD) → (b : Ref sig .tc) → Buf (Elt F) ((c : Thread nD τ).loc b) := fun c b => W12 m ρ c b
/-- A reference the stretch does not write keeps its contents. -/
theorem W12_of (c : Dev nD) (r : Ref sig .tc) (h : r ∉ hostOps7_W) :
    W12 m ρ c (Proc.devRef .tc r) = W11 m ρ c (Proc.devRef .tc r) :=
  StableHlo.after_of_writes_sub hostOps7 _ hostOps7_writes h

/-- After item 12, region 7: its windows' arrays at what the pipeline leaves (an input as entered, an output with
    every write-back folded in), every other buffer as entered. -/
def W13 (c : Dev nD) : Valuation τ sig (Elt F) :=
  Pipeline.withArrays spec7 c (W12 m ρ c) fun w => (dat7 (V12 m ρ) c).arrAt w cfg7.N
theorem W13_arr (c : Dev nD) (w : Fin cfg7.W) :
    W13 m ρ c (Proc.devRef .tc (Pipeline.arrRef spec7 w)) = (dat7 (V12 m ρ) c).arrAt w cfg7.N := by
  unfold W13; exact Pipeline.withArrays_arr spec7 launch7.win.arr_inj c _ _ w
theorem W13_of_ne (c : Dev nD) (b : Ref sig .tc) (hb : ∀ w, Pipeline.arrRef spec7 w ≠ b) :
    W13 m ρ c (Proc.devRef .tc b) = W12 m ρ c (Proc.devRef .tc b) := by
  unfold W13; exact Pipeline.withArrays_of_ne spec7 c _ _ b hb
abbrev V13 : (c : Dev nD) → (b : Ref sig .tc) → Buf (Elt F) ((c : Thread nD τ).loc b) := fun c b => W13 m ρ c b
/-- At region 7's exit each of its arrays holds what the pipeline leaves, every other buffer what it held at entry. -/
theorem hF7 (c : Dev nD) (w : Fin cfg7.W) : (dat7 (V12 m ρ) c).arrAt w cfg7.N = V13 m ρ c (Pipeline.arrRef spec7 w) :=
  (W13_arr m ρ c w).symm
theorem hrest7 (c : Dev nD) : ∀ b, b ∉ Finset.univ.image (Pipeline.arrRef spec7) → V13 m ρ c b = V12 m ρ c b :=
  fun b hb => W13_of_ne m ρ c b fun w e => hb (Finset.mem_image.mpr ⟨w, Finset.mem_univ _, e⟩)
/-- A reference that is no output window's array keeps its contents: an input window's array is never written
    back to, and a buffer that is no window's array bypasses the region. -/
theorem W13_keep (c : Dev nD) (b : Ref sig .tc) (hb : ∀ w, (cfg7.win w).isOut = true → Pipeline.arrRef spec7 w ≠ b) :
    W13 m ρ c (Proc.devRef .tc b) = W12 m ρ c (Proc.devRef .tc b) := by
  by_cases h : ∃ w, Pipeline.arrRef spec7 w = b
  · obtain ⟨w, rfl⟩ := h
    have hin : (cfg7.win w).isOut = false := by
      cases hio : (cfg7.win w).isOut
      · rfl
      · exact absurd rfl (hb w hio)
    exact (W13_arr m ρ c w).trans (((dat7 (V12 m ρ) c).arrAt_in w hin _).trans (A_eq7 (V12 m ρ) c w))
  · exact W13_of_ne m ρ c b fun w e => h ⟨w, e⟩

/-- After item 13, region 8: its windows' arrays at what the pipeline leaves (an input as entered, an output with
    every write-back folded in), every other buffer as entered. -/
def W14 (c : Dev nD) : Valuation τ sig (Elt F) :=
  Pipeline.withArrays spec8 c (W13 m ρ c) fun w => (dat8 (V13 m ρ) c).arrAt w cfg8.N
theorem W14_arr (c : Dev nD) (w : Fin cfg8.W) :
    W14 m ρ c (Proc.devRef .tc (Pipeline.arrRef spec8 w)) = (dat8 (V13 m ρ) c).arrAt w cfg8.N := by
  unfold W14; exact Pipeline.withArrays_arr spec8 launch8.win.arr_inj c _ _ w
theorem W14_of_ne (c : Dev nD) (b : Ref sig .tc) (hb : ∀ w, Pipeline.arrRef spec8 w ≠ b) :
    W14 m ρ c (Proc.devRef .tc b) = W13 m ρ c (Proc.devRef .tc b) := by
  unfold W14; exact Pipeline.withArrays_of_ne spec8 c _ _ b hb
abbrev V14 : (c : Dev nD) → (b : Ref sig .tc) → Buf (Elt F) ((c : Thread nD τ).loc b) := fun c b => W14 m ρ c b
/-- At region 8's exit each of its arrays holds what the pipeline leaves, every other buffer what it held at entry. -/
theorem hF8 (c : Dev nD) (w : Fin cfg8.W) : (dat8 (V13 m ρ) c).arrAt w cfg8.N = V14 m ρ c (Pipeline.arrRef spec8 w) :=
  (W14_arr m ρ c w).symm
theorem hrest8 (c : Dev nD) : ∀ b, b ∉ Finset.univ.image (Pipeline.arrRef spec8) → V14 m ρ c b = V13 m ρ c b :=
  fun b hb => W14_of_ne m ρ c b fun w e => hb (Finset.mem_image.mpr ⟨w, Finset.mem_univ _, e⟩)
/-- A reference that is no output window's array keeps its contents: an input window's array is never written
    back to, and a buffer that is no window's array bypasses the region. -/
theorem W14_keep (c : Dev nD) (b : Ref sig .tc) (hb : ∀ w, (cfg8.win w).isOut = true → Pipeline.arrRef spec8 w ≠ b) :
    W14 m ρ c (Proc.devRef .tc b) = W13 m ρ c (Proc.devRef .tc b) := by
  by_cases h : ∃ w, Pipeline.arrRef spec8 w = b
  · obtain ⟨w, rfl⟩ := h
    have hin : (cfg8.win w).isOut = false := by
      cases hio : (cfg8.win w).isOut
      · rfl
      · exact absurd rfl (hb w hio)
    exact (W14_arr m ρ c w).trans (((dat8 (V13 m ρ) c).arrAt_in w hin _).trans (A_eq8 (V13 m ρ) c w))
  · exact W14_of_ne m ρ c b fun w e => h ⟨w, e⟩

/-- After item 14, the host stretch `hostOps9`: each buffer its operations write rewritten, the rest kept. -/
def W15 (c : Dev nD) : Valuation τ sig (Elt F) := StableHlo.after hostOps9 (W14 m ρ c)
abbrev V15 : (c : Dev nD) → (b : Ref sig .tc) → Buf (Elt F) ((c : Thread nD τ).loc b) := fun c b => W15 m ρ c b
/-- A reference the stretch does not write keeps its contents. -/
theorem W15_of (c : Dev nD) (r : Ref sig .tc) (h : r ∉ hostOps9_W) :
    W15 m ρ c (Proc.devRef .tc r) = W14 m ρ c (Proc.devRef .tc r) :=
  StableHlo.after_of_writes_sub hostOps9 _ hostOps9_writes h

/-- After item 15, region 9: its windows' arrays at what the pipeline leaves (an input as entered, an output with
    every write-back folded in), every other buffer as entered. -/
def W16 (c : Dev nD) : Valuation τ sig (Elt F) :=
  Pipeline.withArrays spec9 c (W15 m ρ c) fun w => (dat9 (V15 m ρ) c).arrAt w cfg9.N
theorem W16_arr (c : Dev nD) (w : Fin cfg9.W) :
    W16 m ρ c (Proc.devRef .tc (Pipeline.arrRef spec9 w)) = (dat9 (V15 m ρ) c).arrAt w cfg9.N := by
  unfold W16; exact Pipeline.withArrays_arr spec9 launch9.win.arr_inj c _ _ w
theorem W16_of_ne (c : Dev nD) (b : Ref sig .tc) (hb : ∀ w, Pipeline.arrRef spec9 w ≠ b) :
    W16 m ρ c (Proc.devRef .tc b) = W15 m ρ c (Proc.devRef .tc b) := by
  unfold W16; exact Pipeline.withArrays_of_ne spec9 c _ _ b hb
abbrev V16 : (c : Dev nD) → (b : Ref sig .tc) → Buf (Elt F) ((c : Thread nD τ).loc b) := fun c b => W16 m ρ c b
/-- At region 9's exit each of its arrays holds what the pipeline leaves, every other buffer what it held at entry. -/
theorem hF9 (c : Dev nD) (w : Fin cfg9.W) : (dat9 (V15 m ρ) c).arrAt w cfg9.N = V16 m ρ c (Pipeline.arrRef spec9 w) :=
  (W16_arr m ρ c w).symm
theorem hrest9 (c : Dev nD) : ∀ b, b ∉ Finset.univ.image (Pipeline.arrRef spec9) → V16 m ρ c b = V15 m ρ c b :=
  fun b hb => W16_of_ne m ρ c b fun w e => hb (Finset.mem_image.mpr ⟨w, Finset.mem_univ _, e⟩)
/-- A reference that is no output window's array keeps its contents: an input window's array is never written
    back to, and a buffer that is no window's array bypasses the region. -/
theorem W16_keep (c : Dev nD) (b : Ref sig .tc) (hb : ∀ w, (cfg9.win w).isOut = true → Pipeline.arrRef spec9 w ≠ b) :
    W16 m ρ c (Proc.devRef .tc b) = W15 m ρ c (Proc.devRef .tc b) := by
  by_cases h : ∃ w, Pipeline.arrRef spec9 w = b
  · obtain ⟨w, rfl⟩ := h
    have hin : (cfg9.win w).isOut = false := by
      cases hio : (cfg9.win w).isOut
      · rfl
      · exact absurd rfl (hb w hio)
    exact (W16_arr m ρ c w).trans (((dat9 (V15 m ρ) c).arrAt_in w hin _).trans (A_eq9 (V15 m ρ) c w))
  · exact W16_of_ne m ρ c b fun w e => h ⟨w, e⟩

/-- After item 16, region 10: its windows' arrays at what the pipeline leaves (an input as entered, an output with
    every write-back folded in), every other buffer as entered. -/
def W17 (c : Dev nD) : Valuation τ sig (Elt F) :=
  Pipeline.withArrays spec10 c (W16 m ρ c) fun w => (dat10 (V16 m ρ) c).arrAt w cfg10.N
theorem W17_arr (c : Dev nD) (w : Fin cfg10.W) :
    W17 m ρ c (Proc.devRef .tc (Pipeline.arrRef spec10 w)) = (dat10 (V16 m ρ) c).arrAt w cfg10.N := by
  unfold W17; exact Pipeline.withArrays_arr spec10 launch10.win.arr_inj c _ _ w
theorem W17_of_ne (c : Dev nD) (b : Ref sig .tc) (hb : ∀ w, Pipeline.arrRef spec10 w ≠ b) :
    W17 m ρ c (Proc.devRef .tc b) = W16 m ρ c (Proc.devRef .tc b) := by
  unfold W17; exact Pipeline.withArrays_of_ne spec10 c _ _ b hb
abbrev V17 : (c : Dev nD) → (b : Ref sig .tc) → Buf (Elt F) ((c : Thread nD τ).loc b) := fun c b => W17 m ρ c b
/-- At region 10's exit each of its arrays holds what the pipeline leaves, every other buffer what it held at entry. -/
theorem hF10 (c : Dev nD) (w : Fin cfg10.W) : (dat10 (V16 m ρ) c).arrAt w cfg10.N = V17 m ρ c (Pipeline.arrRef spec10 w) :=
  (W17_arr m ρ c w).symm
theorem hrest10 (c : Dev nD) : ∀ b, b ∉ Finset.univ.image (Pipeline.arrRef spec10) → V17 m ρ c b = V16 m ρ c b :=
  fun b hb => W17_of_ne m ρ c b fun w e => hb (Finset.mem_image.mpr ⟨w, Finset.mem_univ _, e⟩)
/-- A reference that is no output window's array keeps its contents: an input window's array is never written
    back to, and a buffer that is no window's array bypasses the region. -/
theorem W17_keep (c : Dev nD) (b : Ref sig .tc) (hb : ∀ w, (cfg10.win w).isOut = true → Pipeline.arrRef spec10 w ≠ b) :
    W17 m ρ c (Proc.devRef .tc b) = W16 m ρ c (Proc.devRef .tc b) := by
  by_cases h : ∃ w, Pipeline.arrRef spec10 w = b
  · obtain ⟨w, rfl⟩ := h
    have hin : (cfg10.win w).isOut = false := by
      cases hio : (cfg10.win w).isOut
      · rfl
      · exact absurd rfl (hb w hio)
    exact (W17_arr m ρ c w).trans (((dat10 (V16 m ρ) c).arrAt_in w hin _).trans (A_eq10 (V16 m ρ) c w))
  · exact W17_of_ne m ρ c b fun w e => h ⟨w, e⟩

/-- After item 17, the host stretch `hostOps11`: each buffer its operations write rewritten, the rest kept. -/
def W18 (c : Dev nD) : Valuation τ sig (Elt F) := StableHlo.after hostOps11 (W17 m ρ c)
abbrev V18 : (c : Dev nD) → (b : Ref sig .tc) → Buf (Elt F) ((c : Thread nD τ).loc b) := fun c b => W18 m ρ c b
/-- A reference the stretch does not write keeps its contents. -/
theorem W18_of (c : Dev nD) (r : Ref sig .tc) (h : r ∉ hostOps11_W) :
    W18 m ρ c (Proc.devRef .tc r) = W17 m ρ c (Proc.devRef .tc r) :=
  StableHlo.after_of_writes_sub hostOps11 _ hostOps11_writes h

/-- After item 18, region 11: its windows' arrays at what the pipeline leaves (an input as entered, an output with
    every write-back folded in), every other buffer as entered. -/
def W19 (c : Dev nD) : Valuation τ sig (Elt F) :=
  Pipeline.withArrays spec11 c (W18 m ρ c) fun w => (dat11 (V18 m ρ) c).arrAt w cfg11.N
theorem W19_arr (c : Dev nD) (w : Fin cfg11.W) :
    W19 m ρ c (Proc.devRef .tc (Pipeline.arrRef spec11 w)) = (dat11 (V18 m ρ) c).arrAt w cfg11.N := by
  unfold W19; exact Pipeline.withArrays_arr spec11 launch11.win.arr_inj c _ _ w
theorem W19_of_ne (c : Dev nD) (b : Ref sig .tc) (hb : ∀ w, Pipeline.arrRef spec11 w ≠ b) :
    W19 m ρ c (Proc.devRef .tc b) = W18 m ρ c (Proc.devRef .tc b) := by
  unfold W19; exact Pipeline.withArrays_of_ne spec11 c _ _ b hb
abbrev V19 : (c : Dev nD) → (b : Ref sig .tc) → Buf (Elt F) ((c : Thread nD τ).loc b) := fun c b => W19 m ρ c b
/-- At region 11's exit each of its arrays holds what the pipeline leaves, every other buffer what it held at entry. -/
theorem hF11 (c : Dev nD) (w : Fin cfg11.W) : (dat11 (V18 m ρ) c).arrAt w cfg11.N = V19 m ρ c (Pipeline.arrRef spec11 w) :=
  (W19_arr m ρ c w).symm
theorem hrest11 (c : Dev nD) : ∀ b, b ∉ Finset.univ.image (Pipeline.arrRef spec11) → V19 m ρ c b = V18 m ρ c b :=
  fun b hb => W19_of_ne m ρ c b fun w e => hb (Finset.mem_image.mpr ⟨w, Finset.mem_univ _, e⟩)
/-- A reference that is no output window's array keeps its contents: an input window's array is never written
    back to, and a buffer that is no window's array bypasses the region. -/
theorem W19_keep (c : Dev nD) (b : Ref sig .tc) (hb : ∀ w, (cfg11.win w).isOut = true → Pipeline.arrRef spec11 w ≠ b) :
    W19 m ρ c (Proc.devRef .tc b) = W18 m ρ c (Proc.devRef .tc b) := by
  by_cases h : ∃ w, Pipeline.arrRef spec11 w = b
  · obtain ⟨w, rfl⟩ := h
    have hin : (cfg11.win w).isOut = false := by
      cases hio : (cfg11.win w).isOut
      · rfl
      · exact absurd rfl (hb w hio)
    exact (W19_arr m ρ c w).trans (((dat11 (V18 m ρ) c).arrAt_in w hin _).trans (A_eq11 (V18 m ρ) c w))
  · exact W19_of_ne m ρ c b fun w e => h ⟨w, e⟩

/-- After item 19, the host stretch `hostOps12`: each buffer its operations write rewritten, the rest kept. -/
def W20 (c : Dev nD) : Valuation τ sig (Elt F) := StableHlo.after hostOps12 (W19 m ρ c)
abbrev V20 : (c : Dev nD) → (b : Ref sig .tc) → Buf (Elt F) ((c : Thread nD τ).loc b) := fun c b => W20 m ρ c b
/-- A reference the stretch does not write keeps its contents. -/
theorem W20_of (c : Dev nD) (r : Ref sig .tc) (h : r ∉ hostOps12_W) :
    W20 m ρ c (Proc.devRef .tc r) = W19 m ρ c (Proc.devRef .tc r) :=
  StableHlo.after_of_writes_sub hostOps12 _ hostOps12_writes h

/-- After item 20, region 12: its windows' arrays at what the pipeline leaves (an input as entered, an output with
    every write-back folded in), every other buffer as entered. -/
def W21 (c : Dev nD) : Valuation τ sig (Elt F) :=
  Pipeline.withArrays spec12 c (W20 m ρ c) fun w => (dat12 (V20 m ρ) c).arrAt w cfg12.N
theorem W21_arr (c : Dev nD) (w : Fin cfg12.W) :
    W21 m ρ c (Proc.devRef .tc (Pipeline.arrRef spec12 w)) = (dat12 (V20 m ρ) c).arrAt w cfg12.N := by
  unfold W21; exact Pipeline.withArrays_arr spec12 launch12.win.arr_inj c _ _ w
theorem W21_of_ne (c : Dev nD) (b : Ref sig .tc) (hb : ∀ w, Pipeline.arrRef spec12 w ≠ b) :
    W21 m ρ c (Proc.devRef .tc b) = W20 m ρ c (Proc.devRef .tc b) := by
  unfold W21; exact Pipeline.withArrays_of_ne spec12 c _ _ b hb
abbrev V21 : (c : Dev nD) → (b : Ref sig .tc) → Buf (Elt F) ((c : Thread nD τ).loc b) := fun c b => W21 m ρ c b
/-- At region 12's exit each of its arrays holds what the pipeline leaves, every other buffer what it held at entry. -/
theorem hF12 (c : Dev nD) (w : Fin cfg12.W) : (dat12 (V20 m ρ) c).arrAt w cfg12.N = V21 m ρ c (Pipeline.arrRef spec12 w) :=
  (W21_arr m ρ c w).symm
theorem hrest12 (c : Dev nD) : ∀ b, b ∉ Finset.univ.image (Pipeline.arrRef spec12) → V21 m ρ c b = V20 m ρ c b :=
  fun b hb => W21_of_ne m ρ c b fun w e => hb (Finset.mem_image.mpr ⟨w, Finset.mem_univ _, e⟩)
/-- A reference that is no output window's array keeps its contents: an input window's array is never written
    back to, and a buffer that is no window's array bypasses the region. -/
theorem W21_keep (c : Dev nD) (b : Ref sig .tc) (hb : ∀ w, (cfg12.win w).isOut = true → Pipeline.arrRef spec12 w ≠ b) :
    W21 m ρ c (Proc.devRef .tc b) = W20 m ρ c (Proc.devRef .tc b) := by
  by_cases h : ∃ w, Pipeline.arrRef spec12 w = b
  · obtain ⟨w, rfl⟩ := h
    have hin : (cfg12.win w).isOut = false := by
      cases hio : (cfg12.win w).isOut
      · rfl
      · exact absurd rfl (hb w hio)
    exact (W21_arr m ρ c w).trans (((dat12 (V20 m ρ) c).arrAt_in w hin _).trans (A_eq12 (V20 m ρ) c w))
  · exact W21_of_ne m ρ c b fun w e => h ⟨w, e⟩

/-- After item 21, the host stretch `hostOps13`: each buffer its operations write rewritten, the rest kept. -/
def W22 (c : Dev nD) : Valuation τ sig (Elt F) := StableHlo.after hostOps13 (W21 m ρ c)
abbrev V22 : (c : Dev nD) → (b : Ref sig .tc) → Buf (Elt F) ((c : Thread nD τ).loc b) := fun c b => W22 m ρ c b
/-- A reference the stretch does not write keeps its contents. -/
theorem W22_of (c : Dev nD) (r : Ref sig .tc) (h : r ∉ hostOps13_W) :
    W22 m ρ c (Proc.devRef .tc r) = W21 m ρ c (Proc.devRef .tc r) :=
  StableHlo.after_of_writes_sub hostOps13 _ hostOps13_writes h

/-! ## The arguments end as launched -/

/-- A reference no item writes — no host stretch has it among the references it writes, no region has it as an
    output window's array — holds at the end what it held at launch: the fold walked back item by item. -/
theorem W22_untouched (c : Dev nD) (b : Ref sig .tc)
    (h0 : b ∉ hostOps0_W)
    (h1 : ∀ w, (cfg0.win w).isOut = true → Pipeline.arrRef spec0 w ≠ b)
    (h2 : b ∉ hostOps1_W)
    (h3 : ∀ w, (cfg1.win w).isOut = true → Pipeline.arrRef spec1 w ≠ b)
    (h4 : ∀ w, (cfg2.win w).isOut = true → Pipeline.arrRef spec2 w ≠ b)
    (h5 : b ∉ hostOps3_W)
    (h6 : ∀ w, (cfg3.win w).isOut = true → Pipeline.arrRef spec3 w ≠ b)
    (h7 : ∀ w, (cfg4.win w).isOut = true → Pipeline.arrRef spec4 w ≠ b)
    (h8 : b ∉ hostOps5_W)
    (h9 : ∀ w, (cfg5.win w).isOut = true → Pipeline.arrRef spec5 w ≠ b)
    (h10 : ∀ w, (cfg6.win w).isOut = true → Pipeline.arrRef spec6 w ≠ b)
    (h11 : b ∉ hostOps7_W)
    (h12 : ∀ w, (cfg7.win w).isOut = true → Pipeline.arrRef spec7 w ≠ b)
    (h13 : ∀ w, (cfg8.win w).isOut = true → Pipeline.arrRef spec8 w ≠ b)
    (h14 : b ∉ hostOps9_W)
    (h15 : ∀ w, (cfg9.win w).isOut = true → Pipeline.arrRef spec9 w ≠ b)
    (h16 : ∀ w, (cfg10.win w).isOut = true → Pipeline.arrRef spec10 w ≠ b)
    (h17 : b ∉ hostOps11_W)
    (h18 : ∀ w, (cfg11.win w).isOut = true → Pipeline.arrRef spec11 w ≠ b)
    (h19 : b ∉ hostOps12_W)
    (h20 : ∀ w, (cfg12.win w).isOut = true → Pipeline.arrRef spec12 w ≠ b)
    (h21 : b ∉ hostOps13_W) :
    W22 m ρ c (Proc.devRef .tc b) = W0 m ρ c (Proc.devRef .tc b) :=
  (W22_of m ρ c b h21).trans <|
    (W21_keep m ρ c b h20).trans <|
    (W20_of m ρ c b h19).trans <|
    (W19_keep m ρ c b h18).trans <|
    (W18_of m ρ c b h17).trans <|
    (W17_keep m ρ c b h16).trans <|
    (W16_keep m ρ c b h15).trans <|
    (W15_of m ρ c b h14).trans <|
    (W14_keep m ρ c b h13).trans <|
    (W13_keep m ρ c b h12).trans <|
    (W12_of m ρ c b h11).trans <|
    (W11_keep m ρ c b h10).trans <|
    (W10_keep m ρ c b h9).trans <|
    (W9_of m ρ c b h8).trans <|
    (W8_keep m ρ c b h7).trans <|
    (W7_keep m ρ c b h6).trans <|
    (W6_of m ρ c b h5).trans <|
    (W5_keep m ρ c b h4).trans <|
    (W4_keep m ρ c b h3).trans <|
    (W3_of m ρ c b h2).trans <|
    (W2_keep m ρ c b h1).trans <|
    (W1_of m ρ c b h0)

theorem W22_main_arg0 (c : Dev nD) : W22 m ρ c (Proc.devRef .tc main_arg0) = m ((c : Thread nD τ).loc main_arg0) :=
  (W22_untouched m ρ c main_arg0 (by decide) (by decide) (by decide) (by decide) (by decide) (by decide) (by decide) (by decide) (by decide) (by decide) (by decide) (by decide) (by decide) (by decide) (by decide) (by decide) (by decide) (by decide) (by decide) (by decide) (by decide) (by decide)).trans rfl
theorem W22_main_arg1 (c : Dev nD) : W22 m ρ c (Proc.devRef .tc main_arg1) = m ((c : Thread nD τ).loc main_arg1) :=
  (W22_untouched m ρ c main_arg1 (by decide) (by decide) (by decide) (by decide) (by decide) (by decide) (by decide) (by decide) (by decide) (by decide) (by decide) (by decide) (by decide) (by decide) (by decide) (by decide) (by decide) (by decide) (by decide) (by decide) (by decide) (by decide)).trans rfl
theorem W22_main_arg2 (c : Dev nD) : W22 m ρ c (Proc.devRef .tc main_arg2) = m ((c : Thread nD τ).loc main_arg2) :=
  (W22_untouched m ρ c main_arg2 (by decide) (by decide) (by decide) (by decide) (by decide) (by decide) (by decide) (by decide) (by decide) (by decide) (by decide) (by decide) (by decide) (by decide) (by decide) (by decide) (by decide) (by decide) (by decide) (by decide) (by decide) (by decide)).trans rfl
theorem W22_main_arg3 (c : Dev nD) : W22 m ρ c (Proc.devRef .tc main_arg3) = m ((c : Thread nD τ).loc main_arg3) :=
  (W22_untouched m ρ c main_arg3 (by decide) (by decide) (by decide) (by decide) (by decide) (by decide) (by decide) (by decide) (by decide) (by decide) (by decide) (by decide) (by decide) (by decide) (by decide) (by decide) (by decide) (by decide) (by decide) (by decide) (by decide) (by decide)).trans rfl
theorem W22_main_arg4 (c : Dev nD) : W22 m ρ c (Proc.devRef .tc main_arg4) = m ((c : Thread nD τ).loc main_arg4) :=
  (W22_untouched m ρ c main_arg4 (by decide) (by decide) (by decide) (by decide) (by decide) (by decide) (by decide) (by decide) (by decide) (by decide) (by decide) (by decide) (by decide) (by decide) (by decide) (by decide) (by decide) (by decide) (by decide) (by decide) (by decide) (by decide)).trans rfl
theorem W22_main_arg5 (c : Dev nD) : W22 m ρ c (Proc.devRef .tc main_arg5) = m ((c : Thread nD τ).loc main_arg5) :=
  (W22_untouched m ρ c main_arg5 (by decide) (by decide) (by decide) (by decide) (by decide) (by decide) (by decide) (by decide) (by decide) (by decide) (by decide) (by decide) (by decide) (by decide) (by decide) (by decide) (by decide) (by decide) (by decide) (by decide) (by decide) (by decide)).trans rfl
theorem W22_main_arg6 (c : Dev nD) : W22 m ρ c (Proc.devRef .tc main_arg6) = m ((c : Thread nD τ).loc main_arg6) :=
  (W22_untouched m ρ c main_arg6 (by decide) (by decide) (by decide) (by decide) (by decide) (by decide) (by decide) (by decide) (by decide) (by decide) (by decide) (by decide) (by decide) (by decide) (by decide) (by decide) (by decide) (by decide) (by decide) (by decide) (by decide) (by decide)).trans rfl
theorem W22_main_arg7 (c : Dev nD) : W22 m ρ c (Proc.devRef .tc main_arg7) = m ((c : Thread nD τ).loc main_arg7) :=
  (W22_untouched m ρ c main_arg7 (by decide) (by decide) (by decide) (by decide) (by decide) (by decide) (by decide) (by decide) (by decide) (by decide) (by decide) (by decide) (by decide) (by decide) (by decide) (by decide) (by decide) (by decide) (by decide) (by decide) (by decide) (by decide)).trans rfl
theorem W22_main_arg8 (c : Dev nD) : W22 m ρ c (Proc.devRef .tc main_arg8) = m ((c : Thread nD τ).loc main_arg8) :=
  (W22_untouched m ρ c main_arg8 (by decide) (by decide) (by decide) (by decide) (by decide) (by decide) (by decide) (by decide) (by decide) (by decide) (by decide) (by decide) (by decide) (by decide) (by decide) (by decide) (by decide) (by decide) (by decide) (by decide) (by decide) (by decide)).trans rfl
theorem W22_main_arg9 (c : Dev nD) : W22 m ρ c (Proc.devRef .tc main_arg9) = m ((c : Thread nD τ).loc main_arg9) :=
  (W22_untouched m ρ c main_arg9 (by decide) (by decide) (by decide) (by decide) (by decide) (by decide) (by decide) (by decide) (by decide) (by decide) (by decide) (by decide) (by decide) (by decide) (by decide) (by decide) (by decide) (by decide) (by decide) (by decide) (by decide) (by decide)).trans rfl
theorem W22_main_arg10 (c : Dev nD) : W22 m ρ c (Proc.devRef .tc main_arg10) = m ((c : Thread nD τ).loc main_arg10) :=
  (W22_untouched m ρ c main_arg10 (by decide) (by decide) (by decide) (by decide) (by decide) (by decide) (by decide) (by decide) (by decide) (by decide) (by decide) (by decide) (by decide) (by decide) (by decide) (by decide) (by decide) (by decide) (by decide) (by decide) (by decide) (by decide)).trans rfl
theorem W22_main_arg11 (c : Dev nD) : W22 m ρ c (Proc.devRef .tc main_arg11) = m ((c : Thread nD τ).loc main_arg11) :=
  (W22_untouched m ρ c main_arg11 (by decide) (by decide) (by decide) (by decide) (by decide) (by decide) (by decide) (by decide) (by decide) (by decide) (by decide) (by decide) (by decide) (by decide) (by decide) (by decide) (by decide) (by decide) (by decide) (by decide) (by decide) (by decide)).trans rfl
theorem W22_main_arg12 (c : Dev nD) : W22 m ρ c (Proc.devRef .tc main_arg12) = m ((c : Thread nD τ).loc main_arg12) :=
  (W22_untouched m ρ c main_arg12 (by decide) (by decide) (by decide) (by decide) (by decide) (by decide) (by decide) (by decide) (by decide) (by decide) (by decide) (by decide) (by decide) (by decide) (by decide) (by decide) (by decide) (by decide) (by decide) (by decide) (by decide) (by decide)).trans rfl
theorem W22_main_arg13 (c : Dev nD) : W22 m ρ c (Proc.devRef .tc main_arg13) = m ((c : Thread nD τ).loc main_arg13) :=
  (W22_untouched m ρ c main_arg13 (by decide) (by decide) (by decide) (by decide) (by decide) (by decide) (by decide) (by decide) (by decide) (by decide) (by decide) (by decide) (by decide) (by decide) (by decide) (by decide) (by decide) (by decide) (by decide) (by decide) (by decide) (by decide)).trans rfl
theorem W22_main_arg14 (c : Dev nD) : W22 m ρ c (Proc.devRef .tc main_arg14) = m ((c : Thread nD τ).loc main_arg14) :=
  (W22_untouched m ρ c main_arg14 (by decide) (by decide) (by decide) (by decide) (by decide) (by decide) (by decide) (by decide) (by decide) (by decide) (by decide) (by decide) (by decide) (by decide) (by decide) (by decide) (by decide) (by decide) (by decide) (by decide) (by decide) (by decide)).trans rfl
theorem W22_main_arg15 (c : Dev nD) : W22 m ρ c (Proc.devRef .tc main_arg15) = m ((c : Thread nD τ).loc main_arg15) :=
  (W22_untouched m ρ c main_arg15 (by decide) (by decide) (by decide) (by decide) (by decide) (by decide) (by decide) (by decide) (by decide) (by decide) (by decide) (by decide) (by decide) (by decide) (by decide) (by decide) (by decide) (by decide) (by decide) (by decide) (by decide) (by decide)).trans rfl

end Cert.KernelIdeal.Hand

end
-- ==== Proof.KI.Regs.lean ====
/- The thirteen kernel regions of @main as segments of its run: each region's proof data taken at the contents of the
   boundary before it, its thread states "every unscoped buffer held at the boundary's contents, beside the generator
   register and the core owing nothing". -/
import proofs.«421025_j30305289241172_1_alg».proof.Proof.Gen.KernelIdeal.Launch
import proofs.«421025_j30305289241172_1_alg».proof.Proof.Gen.KernelIdeal.Skeleton
import proofs.«421025_j30305289241172_1_alg».proof.Proof.Gen.KernelIdeal.Points
import proofs.«421025_j30305289241172_1_alg».proof.Proof.Gen.KernelIdeal.Regions
import proofs.«421025_j30305289241172_1_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 13) → (pcfgs (F := F) p).Adm := fun p => (cfgs p).toPCfg_adm
/-- Every pipeline's proof data, each at the contents of the boundary its region is entered from. -/
def pdats : (p : Fin 13) → (c : Dev nD) → Dat τ (Elt F) Unit ℕ (Pipeline.UD sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V6 m ρ) c
  | ⟨4, _⟩ => fun c => dat4 (V7 m ρ) c
  | ⟨5, _⟩ => fun c => dat5 (V9 m ρ) c
  | ⟨6, _⟩ => fun c => dat6 (V10 m ρ) c
  | ⟨7, _⟩ => fun c => dat7 (V12 m ρ) c
  | ⟨8, _⟩ => fun c => dat8 (V13 m ρ) c
  | ⟨9, _⟩ => fun c => dat9 (V15 m ρ) c
  | ⟨10, _⟩ => fun c => dat10 (V16 m ρ) c
  | ⟨11, _⟩ => fun c => dat11 (V18 m ρ) c
  | ⟨12, _⟩ => fun c => dat12 (V20 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment: its operations run over the unscoped buffers from the contents `W`, `R` riding along;
    it leaves them at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W22 m ρ c) ∗ ∃ r, prngReg c r)

/-! ## The regions as segments -/

set_option backward.isDefEq.respectTransparency.types false in
/-- REGION 0 over the thread state: entered from every unscoped buffer at `W1`, left at `W2`. Its arrays are
    split out of the unscoped buffers at entry and put back at the exit contents; the generator register goes into the
    region's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays are
    split out of the unscoped buffers at entry and put back at the exit contents; the generator register goes into the
    region's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W4`, left at `W5`. Its arrays are
    split out of the unscoped buffers at entry and put back at the exit contents; the generator register goes into the
    region's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := Pipeline.UD sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun w => A_eq2 (V4 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at `W6`, left at `W7`. Its arrays are
    split out of the unscoped buffers at entry and put back at the exit contents; the generator register goes into the
    region's invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m ρ) c).loose
  hwaits := Pipeline.hwaits_of_owed_zero _ _ _ _ L lv 3 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := Pipeline.UD sig nD τ) (Lvl := ℕ) spec3 c (V6 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V6 m ρ c) fun w => A_eq3 (V6 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m ρ) ((pdats m ρ 3 c).share_full fun _ => rfl)
      (V6 m ρ c) (V7 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at `W7`, left at `W8`. Its arrays are
    split out of the unscoped buffers at entry and put back at the exit contents; the generator register goes into the
    region's invariant and comes out; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V7 m ρ) c).loose
  hwaits := Pipeline.hwaits_of_owed_zero _ _ _ _ L lv 4 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := Pipeline.UD sig nD τ) (Lvl := ℕ) spec4 c (V7 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V7 m ρ c) fun w => A_eq4 (V7 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := Pipeline.UD sig nD τ) (Lvl := ℕ)
      launch4.win launch4.arr_whole c (pdats m ρ) ((pdats m ρ 4 c).share_full fun _ => rfl)
      (V7 m ρ c) (V8 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered from every unscoped buffer at `W9`, left at `W10`. Its arrays are
    split out of the unscoped buffers at entry and put back at the exit contents; the generator register goes into the
    region's invariant and comes out; nothing is owed; the kernel has no semaphore of its own. -/
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V9 m ρ) c).loose
  hwaits := Pipeline.hwaits_of_owed_zero _ _ _ _ L lv 5 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := Pipeline.UD sig nD τ) (Lvl := ℕ) spec5 c (V9 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V9 m ρ c) fun w => A_eq5 (V9 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := Pipeline.UD sig nD τ) (Lvl := ℕ)
      launch5.win launch5.arr_whole c (pdats m ρ) ((pdats m ρ 5 c).share_full fun _ => rfl)
      (V9 m ρ c) (V10 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 6 over the thread state: entered from every unscoped buffer at `W10`, left at `W11`. Its arrays are
    split out of the unscoped buffers at entry and put back at the exit contents; the generator register goes into the
    region's invariant and comes out; nothing is owed; the kernel has no semaphore of its own. -/
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V10 m ρ) c).loose
  hwaits := Pipeline.hwaits_of_owed_zero _ _ _ _ L lv 6 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := Pipeline.UD sig nD τ) (Lvl := ℕ) spec6 c (V10 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V10 m ρ c) fun w => A_eq6 (V10 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := Pipeline.UD sig nD τ) (Lvl := ℕ)
      launch6.win launch6.arr_whole c (pdats m ρ) ((pdats m ρ 6 c).share_full fun _ => rfl)
      (V10 m ρ c) (V11 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 7 over the thread state: entered from every unscoped buffer at `W12`, left at `W13`. Its arrays are
    split out of the unscoped buffers at entry and put back at the exit contents; the generator register goes into the
    region's invariant and comes out; nothing is owed; the kernel has no semaphore of its own. -/
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (V12 m ρ) c).loose
  hwaits := Pipeline.hwaits_of_owed_zero _ _ _ _ L lv 7 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := Pipeline.UD sig nD τ) (Lvl := ℕ) spec7 c (V12 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (V12 m ρ c) fun w => A_eq7 (V12 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := Pipeline.UD sig nD τ) (Lvl := ℕ)
      launch7.win launch7.arr_whole c (pdats m ρ) ((pdats m ρ 7 c).share_full fun _ => rfl)
      (V12 m ρ c) (V13 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 8 over the thread state: entered from every unscoped buffer at `W13`, left at `W14`. Its arrays are
    split out of the unscoped buffers at entry and put back at the exit contents; the generator register goes into the
    region's invariant and comes out; nothing is owed; the kernel has no semaphore of its own. -/
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (V13 m ρ) c).loose
  hwaits := Pipeline.hwaits_of_owed_zero _ _ _ _ L lv 8 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := Pipeline.UD sig nD τ) (Lvl := ℕ) spec8 c (V13 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (V13 m ρ c) fun w => A_eq8 (V13 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := Pipeline.UD sig nD τ) (Lvl := ℕ)
      launch8.win launch8.arr_whole c (pdats m ρ) ((pdats m ρ 8 c).share_full fun _ => rfl)
      (V13 m ρ c) (V14 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 9 over the thread state: entered from every unscoped buffer at `W15`, left at `W16`. Its arrays are
    split out of the unscoped buffers at entry and put back at the exit contents; the generator register goes into the
    region's invariant and comes out; nothing is owed; the kernel has no semaphore of its own. -/
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (V15 m ρ) c).loose
  hwaits := Pipeline.hwaits_of_owed_zero _ _ _ _ L lv 9 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := Pipeline.UD sig nD τ) (Lvl := ℕ) spec9 c (V15 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (V15 m ρ c) fun w => A_eq9 (V15 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := Pipeline.UD sig nD τ) (Lvl := ℕ)
      launch9.win launch9.arr_whole c (pdats m ρ) ((pdats m ρ 9 c).share_full fun _ => rfl)
      (V15 m ρ c) (V16 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 10 over the thread state: entered from every unscoped buffer at `W16`, left at `W17`. Its arrays are
    split out of the unscoped buffers at entry and put back at the exit contents; the generator register goes into the
    region's invariant and comes out; nothing is owed; the kernel has no semaphore of its own. -/
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (V16 m ρ) c).loose
  hwaits := Pipeline.hwaits_of_owed_zero _ _ _ _ L lv 10 fun _ _ => rfl
  pre c := iprop(StableHlo.held (c : Thread nD τ) (Pipeline.ucRefs τ sig) (W16 m ρ c) ∗ R c)
  post c := iprop(StableHlo.held (c : Thread nD τ) (Pipeline.ucRefs τ sig) (W17 m ρ c) ∗ R c)
  X c := iprop(∃ r, prngReg c r)
  Y c := iprop(∃ r, prngReg c r)
  Z c := Pipeline.unscopedRest (Ix := Unit) (Name := ℕ) (U := Pipeline.UD sig nD τ) (Lvl := ℕ) spec10 c (V16 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (V16 m ρ c) fun w => A_eq10 (V16 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := Pipeline.UD sig nD τ) (Lvl := ℕ)
      launch10.win launch10.arr_whole c (pdats m ρ) ((pdats m ρ 10 c).share_full fun _ => rfl)
      (V16 m ρ c) (V17 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 11 over the thread state: entered from every unscoped buffer at `W18`, left at `W19`. Its arrays are
    split out of the unscoped buffers at entry and put back at the exit contents; the generator register goes into the
    region's invariant and comes out; nothing is owed; the kernel has no semaphore of its own. -/
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (V18 m ρ) c).loose
  hwaits := Pipeline.hwaits_of_owed_zero _ _ _ _ L lv 11 fun _ _ => rfl
  pre c := iprop(StableHlo.held (c : Thread nD τ) (Pipeline.ucRefs τ sig) (W18 m ρ c) ∗ R c)
  post c := iprop(StableHlo.held (c : Thread nD τ) (Pipeline.ucRefs τ sig) (W19 m ρ c) ∗ R c)
  X c := iprop(∃ r, prngReg c r)
  Y c := iprop(∃ r, prngReg c r)
  Z c := Pipeline.unscopedRest (Ix := Unit) (Name := ℕ) (U := Pipeline.UD sig nD τ) (Lvl := ℕ) spec11 c (V18 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (V18 m ρ c) fun w => A_eq11 (V18 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := Pipeline.UD sig nD τ) (Lvl := ℕ)
      launch11.win launch11.arr_whole c (pdats m ρ) ((pdats m ρ 11 c).share_full fun _ => rfl)
      (V18 m ρ c) (V19 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 12 over the thread state: entered from every unscoped buffer at `W20`, left at `W21`. Its arrays are
    split out of the unscoped buffers at entry and put back at the exit contents; the generator register goes into the
    region's invariant and comes out; nothing is owed; the kernel has no semaphore of its own. -/
def reg12 : Pipeline.RegionSeg (pcfgs (F := F)) adm (pdats m ρ) () defs₀ 𝒱₀ L lv 12 where
  win := launch12.win.to₀
  block_pos := launch12.block_pos
  stage_whole := launch12.stage_whole
  K := PEmpty
  osem k := k.elim
  ho := Pipeline.OwnSemFacts.none _
  hbody c := (body_obligation12 (V20 m ρ) c).loose
  hwaits := Pipeline.hwaits_of_owed_zero _ _ _ _ L lv 12 fun _ _ => rfl
  pre c := iprop(StableHlo.held (c : Thread nD τ) (Pipeline.ucRefs τ sig) (W20 m ρ c) ∗ R c)
  post c := iprop(StableHlo.held (c : Thread nD τ) (Pipeline.ucRefs τ sig) (W21 m ρ c) ∗ R c)
  X c := iprop(∃ r, prngReg c r)
  Y c := iprop(∃ r, prngReg c r)
  Z c := Pipeline.unscopedRest (Ix := Unit) (Name := ℕ) (U := Pipeline.UD sig nD τ) (Lvl := ℕ) spec12 c (V20 m ρ c)
  hentry c := by
    rw [Pipeline.ownSems0_none]
    have hsplit := Pipeline.arrays_of_unscopedBufs (p := 12) (pcfgs (F := F)) adm (pdats m ρ) launch12.win launch12.arr_whole c
      ((pdats m ρ 12 c).share_full fun _ => rfl) (V20 m ρ c) fun w => A_eq12 (V20 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec12 c : sProp 𝕄) from ?_).trans (Phi12_first (V20 m ρ) c)
    unfold Pipeline.ΦA
    iintro ⟨Hp, -, Hr⟩
    isplitl [Hr]; · iexact Hr
    iexact Hp
  hout c := by
    rw [Pipeline.ownSems0_none]
    refine (Phi12_last (V20 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := Pipeline.UD sig nD τ) (Lvl := ℕ)
      launch12.win launch12.arr_whole c (pdats m ρ) ((pdats m ρ 12 c).share_full fun _ => rfl)
      (V20 m ρ c) (V21 m ρ c) ((pdats m ρ 12 c).arrAt · cfg12.N) (hF12 m ρ c) (hrest12 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Run.lean ====
/- @main as the run of its 22 segments — a host segment per stretch of operations from its boundary's contents, a region
   per kernel call — and the launch: from any memory with zero counters every weakly fair execution terminates, the
   result buffer holding the last boundary's contents and every argument its launch contents. -/
import proofs.«421025_j30305289241172_1_alg».proof.Proof.Gen.KernelIdeal.Launch
import proofs.«421025_j30305289241172_1_alg».proof.Proof.Gen.KernelIdeal.Skeleton
import proofs.«421025_j30305289241172_1_alg».proof.Proof.Gen.KernelIdeal.Points
import proofs.«421025_j30305289241172_1_alg».proof.Proof.Gen.KernelIdeal.Regions
import proofs.«421025_j30305289241172_1_alg».proof.Proof.KI.Chain
import proofs.«421025_j30305289241172_1_alg».proof.Proof.KI.Regs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- @main's 22 segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)),
    .region (reg3 m ρ),
    .region (reg4 m ρ),
    .host (hseg hostOps5 hostOps5_sub hostOps5_fresh (W8 m ρ)),
    .region (reg5 m ρ),
    .region (reg6 m ρ),
    .host (hseg hostOps7 hostOps7_sub hostOps7_fresh (W11 m ρ)),
    .region (reg7 m ρ),
    .region (reg8 m ρ),
    .host (hseg hostOps9 hostOps9_sub hostOps9_fresh (W14 m ρ)),
    .region (reg9 m ρ),
    .region (reg10 m ρ),
    .host (hseg hostOps11 hostOps11_sub hostOps11_fresh (W17 m ρ)),
    .region (reg11 m ρ),
    .host (hseg hostOps12 hostOps12_sub hostOps12_fresh (W19 m ρ)),
    .region (reg12 m ρ),
    .host (hseg hostOps13 hostOps13_sub hostOps13_fresh (W21 m ρ)) ]

/-- @main is the run of the segments: it is the chain of its items, and the segments' run is the chain of their fragments. -/
theorem main_run (c : Dev nD) : main (F := F) c = Pipeline.Seg.run (segs m ρ) := (main_chain c).trans (by chain_rfl)

set_option backward.isDefEq.respectTransparency.types false in
/-- THE RUN. At the compiled mesh, from any memory with zero counters, every weakly fair execution of @main on the
    TensorCores terminates, nothing faulting, and in every final state the result buffer holds the last boundary's
    contents `W22` and every argument array what it held at launch: the several-regions launch over the segments, the last
    thread state read against the final state. -/
theorem run : θ_run defs (onTc (τ := τ) (main (F := F))) ⟨m, fun _ => 0, ρ⟩ (fun r => ∀ c : Dev nD,
      r.2.mem ((c.tc : Thread nD τ).loc main_v68) = W22 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W22 m ρ c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c =>
      ⟨h c _ (mem_uc main_v68 (by decide)),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c),
       (h c _ (mem_uc main_arg4 (by decide))).trans (W22_main_arg4 m ρ c),
       (h c _ (mem_uc main_arg5 (by decide))).trans (W22_main_arg5 m ρ c),
       (h c _ (mem_uc main_arg6 (by decide))).trans (W22_main_arg6 m ρ c),
       (h c _ (mem_uc main_arg7 (by decide))).trans (W22_main_arg7 m ρ c),
       (h c _ (mem_uc main_arg8 (by decide))).trans (W22_main_arg8 m ρ c),
       (h c _ (mem_uc main_arg9 (by decide))).trans (W22_main_arg9 m ρ c),
       (h c _ (mem_uc main_arg10 (by decide))).trans (W22_main_arg10 m ρ c),
       (h c _ (mem_uc main_arg11 (by decide))).trans (W22_main_arg11 m ρ c),
       (h c _ (mem_uc main_arg12 (by decide))).trans (W22_main_arg12 m ρ c),
       (h c _ (mem_uc main_arg13 (by decide))).trans (W22_main_arg13 m ρ c),
       (h c _ (mem_uc main_arg14 (by decide))).trans (W22_main_arg14 m ρ c),
       (h c _ (mem_uc main_arg15 (by decide))).trans (W22_main_arg15 m ρ c)⟩)

end Cert.KernelIdeal.Hand

end
-- ==== Proof.Spec.lean ====
/-
  The mathematics of the network, stated once over extended reals and literal index types, with no program in sight.
  A graph-convolution layer is a feature transform (a matrix product over the channel axis), a neighbourhood sum
  weighted by the symmetric normalisation, a self term weighted by the inverse degree, a bias, and on odd layers a
  leaky rectifier; the head is a dense product, a bias, a hyperbolic tangent and a scale.
-/
import Idealize.ShloMosaic.PureOps.Ideal
import Idealize.ShloMosaic.Lib.ValueIdx

noncomputable section

namespace Cert.Spec

open Idealize.ShloMosaic Idealize.ShloMosaic.ValueIdx

/-- The literal shapes, spelt as the printed programs' own abbreviations unfold. -/
abbrev Sh1 (a : Nat) : Shape := ⟨1, ![a]⟩
abbrev Sh2 (a b : Nat) : Shape := ⟨2, ![a, b]⟩
abbrev Sh3 (a b c : Nat) : Shape := ⟨3, ![a, b, c]⟩

/-- An array from its entries, rank 1, 2 and 3. -/
def arr1 {a : Nat} (g : Fin a → EReal) : (Sh1 a).Idx → EReal := fun i => g (i 0)
def arr2 {a b : Nat} (g : Fin a → Fin b → EReal) : (Sh2 a b).Idx → EReal := fun i => g (i 0) (i 1)
def arr3 {a b c : Nat} (g : Fin a → Fin b → Fin c → EReal) : (Sh3 a b c).Idx → EReal := fun i => g (i 0) (i 1) (i 2)

theorem arr1_ix1 {a : Nat} (g : Fin a → EReal) (p : Fin a) : arr1 g (ix1 p) = g p := rfl
theorem arr2_ix2 {a b : Nat} (g : Fin a → Fin b → EReal) (p : Fin a) (q : Fin b) : arr2 g (ix2 p q) = g p q := rfl
theorem arr3_ix3 {a b c : Nat} (g : Fin a → Fin b → Fin c → EReal) (p : Fin a) (q : Fin b) (r : Fin c) :
    arr3 g (ix3 p q r) = g p q r := rfl

/-- The feature transform: `h1[b, n, f] = ∑ k, x[b, n, k] · W[k, f]`. -/
def feat {Cin Cout : Nat} (x : (Sh3 16 2048 Cin).Idx → EReal) (W : (Sh2 Cin Cout).Idx → EReal)
    (b : Fin 16) (n : Fin 2048) (f : Fin Cout) : EReal :=
  ∑ k : Fin Cin, x (ix3 b n k) * W (ix2 k f)

/-- The leaky rectifier with the slope the programs carry as the single-precision word of 0.01. -/
def leaky (y : EReal) : EReal :=
  if (0 : EReal) ≤ y then y else Ideal.ofBits .f32 0x3C23D70A#32 * y

/-- The aggregation in its dense form: the adjacency row against the transformed features, the self term, the bias. -/
def agg (lk : Bool) {C : Nat} (h1 : (Sh3 16 2048 C).Idx → EReal) (A : (Sh2 2048 2048).Idx → EReal)
    (bias : (Sh2 1 C).Idx → EReal) (invdeg : (Sh2 2048 1).Idx → EReal) (b : Fin 16) (n : Fin 2048) (f : Fin C) : EReal :=
  let y := ((∑ m : Fin 2048, A (ix2 n m) * h1 (ix3 b m f)) + h1 (ix3 b n f) * invdeg (ix2 n 0)) + bias (ix2 0 f)
  if lk then leaky y else y

/-- The aggregation in its edge-list form: a sum over the edges that end at `n`, each carrying its source's features
    scaled by the two endpoints' inverse square-root degrees. -/
def gcn (lk : Bool) {C : Nat} (isd invd : Fin 2048 → EReal) (src dst : Fin 12288 → Fin 2048)
    (hh : (Sh3 16 2048 C).Idx → EReal) (bias : Fin C → EReal) (b : Fin 16) (n : Fin 2048) (f : Fin C) : EReal :=
  let y := ((∑ e ∈ Finset.univ.filter (fun e => dst e = n), hh (ix3 b (src e) f) * (isd (src e) * isd (dst e)))
      + hh (ix3 b n f) * invd n) + bias f
  if lk then leaky y else y

/-- The degree with its self loop, its inverse square root and its inverse. -/
def deg (dst : Fin 12288 → Fin 2048) (n : Fin 2048) : EReal :=
  ((0 : EReal) + ∑ _e ∈ Finset.univ.filter (fun e => dst e = n), (1 : EReal)) + 1
def isd (dst : Fin 12288 → Fin 2048) (n : Fin 2048) : EReal := Ideal.rsqrt (deg dst n)
def invd (dst : Fin 12288 → Fin 2048) (n : Fin 2048) : EReal := Ideal.div 1 (deg dst n)

/-- The dense normalised adjacency: the number of edges from `m` to `n`, scaled by both endpoints. -/
def adj (src dst : Fin 12288 → Fin 2048) (n m : Fin 2048) : EReal :=
  ((((0 : EReal) + ∑ _e ∈ Finset.univ.filter (fun e => dst e = n ∧ src e = m), (1 : EReal)) * isd dst n) * isd dst m)

/-- The edge list read off the integer input: row 0 the sources, row 1 the targets. Total functions (reduced modulo the
    node count), which are the words themselves once every word is a node number. -/
def InRange (e : (Sh2 2 12288).Idx → BitVec 32) : Prop := ∀ i, (e i).toNat < 2048
def srcOf (e : (Sh2 2 12288).Idx → BitVec 32) (j : Fin 12288) : Fin 2048 :=
  ⟨(e (ix2 0 j)).toNat % 2048, Nat.mod_lt _ (by norm_num)⟩
def dstOf (e : (Sh2 2 12288).Idx → BitVec 32) (j : Fin 12288) : Fin 2048 :=
  ⟨(e (ix2 1 j)).toNat % 2048, Nat.mod_lt _ (by norm_num)⟩

/-- The head: `tanh (∑ k, feat[b, k] · Wd[k, j] + bd[j]) · 0.1`, the scale the single-precision word of 0.1. -/
def dense (ft : (Sh2 16 6144).Idx → EReal) (Wd : (Sh2 6144 6144).Idx → EReal) (bd : Fin 6144 → EReal)
    (b : Fin 16) (j : Fin 6144) : EReal :=
  Ideal.tanh ((∑ k : Fin 6144, ft (ix2 b k) * Wd (ix2 k j)) + bd j) * Ideal.ofBits .f32 0x3DCCCCCD#32

/-- A rank-1 array read as a function of its one coordinate. -/
def vec1 {a : Nat} (v : (Sh1 a).Idx → EReal) (p : Fin a) : EReal := v (ix1 p)

/-- The last layer's `[16, 2048, 3]` output read as the head's `[16, 6144]` input (row-major), and the head's output
    read back as `[16, 2048, 3]`. -/
def flat (h : (Sh3 16 2048 3).Idx → EReal) : (Sh2 16 6144).Idx → EReal :=
  arr2 fun b k => h (ix3 b ⟨k.val / 3, by omega⟩ ⟨k.val % 3, by omega⟩)
def unflat (g : Fin 16 → Fin 6144 → EReal) : (Sh3 16 2048 3).Idx → EReal :=
  arr3 fun b n t => g b ⟨3 * n.val + t.val, by omega⟩

/-- One layer of the network, in the edge-list form, as a function of the layer's input, its weights and bias and
    the integer edge array. -/
def layer (lk : Bool) {Cin Cout : Nat} (e : (Sh2 2 12288).Idx → BitVec 32) (h : (Sh3 16 2048 Cin).Idx → EReal)
    (W : (Sh2 Cin Cout).Idx → EReal) (bv : (Sh1 Cout).Idx → EReal) : (Sh3 16 2048 Cout).Idx → EReal :=
  arr3 (gcn lk (isd (dstOf e)) (invd (dstOf e)) (srcOf e) (dstOf e) (arr3 (feat h W)) (vec1 bv))

/-- The whole network: six layers (the rectifier after the second, fourth and sixth) and the head. -/
def net (x : (Sh3 16 2048 1475).Idx → EReal) (e : (Sh2 2 12288).Idx → BitVec 32)
    (W0 : (Sh2 1475 512).Idx → EReal) (b0 : (Sh1 512).Idx → EReal) (W1 : (Sh2 512 512).Idx → EReal) (b1 : (Sh1 512).Idx → EReal)
    (W2 : (Sh2 512 256).Idx → EReal) (b2 : (Sh1 256).Idx → EReal) (W3 : (Sh2 256 256).Idx → EReal) (b3 : (Sh1 256).Idx → EReal)
    (W4 : (Sh2 256 64).Idx → EReal) (b4 : (Sh1 64).Idx → EReal) (W5 : (Sh2 64 3).Idx → EReal) (b5 : (Sh1 3).Idx → EReal)
    (Wd : (Sh2 6144 6144).Idx → EReal) (bd : (Sh1 6144).Idx → EReal) : (Sh3 16 2048 3).Idx → EReal :=
  let h1 := layer false e x W0 b0
  let h2 := layer true e h1 W1 b1
  let h3 := layer false e h2 W2 b2
  let h4 := layer true e h3 W3 b3
  let h5 := layer false e h4 W4 b4
  let h6 := layer true e h5 W5 b5
  unflat (dense (flat h6) Wd (vec1 bd))

end Cert.Spec

end
-- ==== Proof.Math.lean ====
/-
  The pure mathematics of the certificate, over extended reals, with no program in sight.

  * The degree of a node is the real number "edges ending there, plus one", so its inverse square root
    and its inverse are nonnegative finite reals.
  * The dense aggregation equals the edge-list aggregation: an adjacency entry is an edge count times two
    scale factors, and a count times a value is that many copies of the value (repetition on the extended
    reals is multiplication by the count, infinities included), so the product of a row entry with a
    feature is a sum over the edges of that fibre; summing over the sources regroups the edges ending at
    a node by where they start. Only commutativity and associativity of the product are used besides; no
    entry of the features need be finite.
  * A sum over 6144 indices is the sum of its three blocks of 2048, accumulated onto a zero.
-/
import proofs.«421025_j30305289241172_1_alg».proof.Proof.Spec
import Mathlib.Data.EReal.Operations
import Mathlib.Data.EReal.Inv
import Mathlib.Algebra.BigOperators.Fin
import Mathlib.Algebra.BigOperators.Group.Finset.Basic
import Mathlib.Analysis.SpecialFunctions.Pow.Real

noncomputable section

namespace Cert.Spec

open Idealize.ShloMosaic Idealize.ShloMosaic.ValueIdx

/-- A sum of ones over a finite set, accumulated onto a zero, is the set's size. -/
theorem zero_add_sum_one {ι : Type*} (s : Finset ι) :
    (0 : EReal) + ∑ _e ∈ s, (1 : EReal) = ((s.card : ℕ) : EReal) := by
  rw [zero_add, Finset.sum_const, EReal.nsmul_eq_mul, mul_one]

/-- The degree is the real number: edges ending at the node, plus one. -/
theorem deg_eq (dst : Fin 12288 → Fin 2048) (n : Fin 2048) :
    deg dst n = (((((Finset.univ.filter (fun e => dst e = n)).card + 1 : ℕ) : ℝ)) : EReal) := by
  unfold deg
  rw [zero_add_sum_one, Nat.cast_add, Nat.cast_one, EReal.coe_add, EReal.coe_one]
  rfl

/-- The degree as a real number, at least one. -/
theorem deg_real (dst : Fin 12288 → Fin 2048) (n : Fin 2048) :
    ∃ r : ℝ, 1 ≤ r ∧ deg dst n = (r : EReal) :=
  ⟨_, by rw [Nat.cast_add, Nat.cast_one]; exact le_add_of_nonneg_left (Nat.cast_nonneg _), deg_eq dst n⟩

/-- The inverse square-root degree is a nonnegative finite real. -/
theorem isd_nonneg_real (dst : Fin 12288 → Fin 2048) (n : Fin 2048) :
    ∃ r : ℝ, 0 ≤ r ∧ isd dst n = (r : EReal) := by
  obtain ⟨d, hd, he⟩ := deg_real dst n
  refine ⟨(Real.sqrt d)⁻¹, inv_nonneg.mpr (Real.sqrt_nonneg d), ?_⟩
  unfold isd
  rw [he, Ideal.rsqrt_coe, if_neg (by linarith), if_neg (by linarith)]

/-- The inverse degree is a nonnegative finite real. -/
theorem invd_nonneg_real (dst : Fin 12288 → Fin 2048) (n : Fin 2048) :
    ∃ r : ℝ, 0 ≤ r ∧ invd dst n = (r : EReal) := by
  obtain ⟨d, hd, he⟩ := deg_real dst n
  refine ⟨1 / d, by positivity, ?_⟩
  unfold invd
  rw [he, Ideal.div_coe (by linarith), one_mul]

/-- One adjacency entry against one feature: the sum, over the edges of that fibre, of the feature
    scaled by the two endpoints. -/
theorem adj_mul_eq (src dst : Fin 12288 → Fin 2048) (n m : Fin 2048) (x : Fin 2048 → EReal) :
    adj src dst n m * x m
      = ∑ e ∈ (Finset.univ.filter (fun e => dst e = n)).filter (fun e => src e = m),
          x (src e) * (isd dst (src e) * isd dst (dst e)) := by
  have hs : ∑ e ∈ (Finset.univ.filter (fun e => dst e = n)).filter (fun e => src e = m),
        x (src e) * (isd dst (src e) * isd dst (dst e))
      = ∑ _e ∈ (Finset.univ.filter (fun e => dst e = n)).filter (fun e => src e = m),
        x m * (isd dst m * isd dst n) := by
    refine Finset.sum_congr rfl fun e he => ?_
    rw [Finset.mem_filter, Finset.mem_filter] at he
    rw [he.2, he.1.2]
  rw [hs, Finset.sum_const, EReal.nsmul_eq_mul]
  unfold adj
  rw [zero_add_sum_one, Finset.filter_filter]
  ac_rfl

/-- The dense row against the features is the sum over the edges that end at the node. -/
theorem adj_sum_eq (src dst : Fin 12288 → Fin 2048) (n : Fin 2048) (x : Fin 2048 → EReal) :
    ∑ m : Fin 2048, adj src dst n m * x m
      = ∑ e ∈ Finset.univ.filter (fun e => dst e = n), x (src e) * (isd dst (src e) * isd dst (dst e)) := by
  rw [← Finset.sum_fiberwise (Finset.univ.filter (fun e => dst e = n)) src]
  exact Finset.sum_congr rfl fun m _ => adj_mul_eq src dst n m x

/-- The dense aggregation is the edge-list aggregation. -/
theorem agg_eq_gcn (lk : Bool) {C : Nat} (src dst : Fin 12288 → Fin 2048) (hh : (Sh3 16 2048 C).Idx → EReal)
    (bias : Fin C → EReal) (b : Fin 16) (n : Fin 2048) (f : Fin C) :
    agg lk hh (arr2 (adj src dst)) (arr2 fun _ f => bias f) (arr2 fun n _ => invd dst n) b n f
      = gcn lk (isd dst) (invd dst) src dst hh bias b n f := by
  have key := adj_sum_eq src dst n (fun m => hh (ix3 b m f))
  unfold agg gcn
  simp only [arr2_ix2]
  rw [key]

/-- A sum over three consecutive blocks of indices is the three block sums, accumulated onto a zero. -/
theorem sum_split3_aux {N : ℕ} (a b c : ℕ) (h : a + b + c = N) (g : Fin N → EReal) :
    ∑ k : Fin N, g k
      = (((0 : EReal) + ∑ i : Fin a, g ⟨i.val, by omega⟩) + ∑ i : Fin b, g ⟨a + i.val, by omega⟩)
          + ∑ i : Fin c, g ⟨a + b + i.val, by omega⟩ := by
  subst h
  rw [Fin.sum_univ_add, Fin.sum_univ_add, zero_add]
  rfl

/-- The head's contraction is its three blocks of 2048, accumulated onto a zero. -/
theorem sum_split3 (g : Fin 6144 → EReal) :
    ∑ k : Fin 6144, g k
      = (((0 : EReal) + ∑ i : Fin 2048, g ⟨i.val, by omega⟩) + ∑ i : Fin 2048, g ⟨2048 + i.val, by omega⟩)
          + ∑ i : Fin 2048, g ⟨4096 + i.val, by omega⟩ :=
  sum_split3_aux 2048 2048 2048 (by norm_num) g

end Cert.Spec

end
-- ==== Proof.KI.ValueKept.lean ====
/-
  What the composition of the regions' values rests on besides the regions themselves.

  First, three regroupings in pure mathematics: the dense aggregation of a feature transform against the normalised
  adjacency, a bias row and the inverse-degree column is one layer of the network in its edge-list form; the head
  over a bias read off a one-row matrix; the head's output viewed back by node and coordinate.

  Second, the bookkeeping of who writes what: a reference that no item between the first boundary and boundary `J`
  writes holds at boundary `J` what it held at the first. Every argument is such a reference wherever it is read,
  and so are the two arrays of the graph (the inverse degrees and the normalised adjacency), which the first host
  stretch makes and nothing writes again.
-/
import proofs.«421025_j30305289241172_1_alg».proof.Proof.KI.Chain
import proofs.«421025_j30305289241172_1_alg».proof.Proof.Math
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx

/-! ## Three regroupings in pure mathematics -/

section Parts
open Cert.Spec

/-- A feature transform of equal operands. -/
theorem feat_of_parts {Cin Cout : Nat} (x x' : (Sh3 16 2048 Cin).Idx → EReal) (w w' : (Sh2 Cin Cout).Idx → EReal)
    (ex : x = x') (ew : w = w') : arr3 (feat x w) = arr3 (feat x' w') := by
  subst ex ew; rfl

/-- A bias row of equal vectors. -/
theorem row_of_eq {a : Nat} (v v' : (Sh1 a).Idx → EReal) (h : v = v') :
    (arr2 fun (_ : Fin 1) (f : Fin a) => v (ix1 f)) = arr2 fun (_ : Fin 1) (f : Fin a) => v' (ix1 f) := by
  subst h; rfl

/-- A column of a vector given by its entries. -/
theorem col_of_eq {a : Nat} (v : (Sh1 a).Idx → EReal) (g : Fin a → EReal) (h : v = arr1 g) :
    (arr2 fun (n : Fin a) (_ : Fin 1) => v (ix1 n)) = arr2 fun (n : Fin a) (_ : Fin 1) => g n := by
  subst h; rfl

/-- The dense aggregation of a feature transform, against the normalised adjacency, a bias row and the
    inverse-degree column, is one layer of the network in its edge-list form. -/
theorem layer_of_parts (lk : Bool) {Cin Cout : Nat} (e : (Sh2 2 12288).Idx → BitVec 32)
    (h : (Sh3 16 2048 Cin).Idx → EReal) (W : (Sh2 Cin Cout).Idx → EReal) (bv : (Sh1 Cout).Idx → EReal)
    (h1 : (Sh3 16 2048 Cout).Idx → EReal) (A : (Sh2 2048 2048).Idx → EReal)
    (bias : (Sh2 1 Cout).Idx → EReal) (invdeg : (Sh2 2048 1).Idx → EReal)
    (e1 : h1 = arr3 (feat h W)) (eA : A = arr2 (adj (srcOf e) (dstOf e)))
    (eb : bias = arr2 fun (_ : Fin 1) (f : Fin Cout) => bv (ix1 f))
    (ed : invdeg = arr2 fun (n : Fin 2048) (_ : Fin 1) => invd (dstOf e) n) :
    arr3 (agg lk h1 A bias invdeg) = layer lk e h W bv := by
  subst e1 eA eb ed
  unfold layer
  refine congrArg arr3 (funext fun b => funext fun n => funext fun f => ?_)
  exact agg_eq_gcn lk (srcOf e) (dstOf e) (arr3 (feat h W)) (vec1 bv) b n f

/-- The head over equal operands, its bias read off a one-row matrix. -/
theorem head_of_parts (ft ft' : (Sh2 16 6144).Idx → EReal) (Wd Wd' : (Sh2 6144 6144).Idx → EReal)
    (bdrow : (Sh2 1 6144).Idx → EReal) (bd : (Sh1 6144).Idx → EReal)
    (e1 : ft = ft') (e2 : Wd = Wd') (e3 : bdrow = arr2 fun (_ : Fin 1) (j : Fin 6144) => bd (ix1 j)) :
    arr2 (dense ft Wd fun j => bdrow (ix2 0 j)) = arr2 (dense ft' Wd' (vec1 bd)) := by
  subst e1 e2 e3; rfl

/-- The head's output viewed back, when the output is given by its entries. -/
theorem unflat_of_parts (o : (Sh2 16 6144).Idx → EReal) (g : Fin 16 → Fin 6144 → EReal) (e : o = arr2 g) :
    unflat (fun b k => o (ix2 b k)) = unflat g := by
  subst e; rfl

end Parts

variable (m : (ℓ : Loc nD τ sig) → Buf (Elt Ideal) ℓ) (ρ : Dev nD → PrngReg) (c : Dev nD)

/-! ## What no later item writes is carried along

`KeptJ b`: no item between the first boundary and boundary `J` writes `b` (no host stretch has it among the
references it writes, no region has it as an output window's array); then boundary `J` holds at `b` what boundary 1
held. -/

abbrev Kept2 (b : Ref sig .tc) : Prop := ∀ w, (cfg0.win w).isOut = true → Pipeline.arrRef spec0 w ≠ b
abbrev Kept3 (b : Ref sig .tc) : Prop := b ∉ hostOps1_W ∧ Kept2 b
abbrev Kept4 (b : Ref sig .tc) : Prop := (∀ w, (cfg1.win w).isOut = true → Pipeline.arrRef spec1 w ≠ b) ∧ Kept3 b
abbrev Kept5 (b : Ref sig .tc) : Prop := (∀ w, (cfg2.win w).isOut = true → Pipeline.arrRef spec2 w ≠ b) ∧ Kept4 b
abbrev Kept6 (b : Ref sig .tc) : Prop := b ∉ hostOps3_W ∧ Kept5 b
abbrev Kept7 (b : Ref sig .tc) : Prop := (∀ w, (cfg3.win w).isOut = true → Pipeline.arrRef spec3 w ≠ b) ∧ Kept6 b
abbrev Kept8 (b : Ref sig .tc) : Prop := (∀ w, (cfg4.win w).isOut = true → Pipeline.arrRef spec4 w ≠ b) ∧ Kept7 b
abbrev Kept9 (b : Ref sig .tc) : Prop := b ∉ hostOps5_W ∧ Kept8 b
abbrev Kept10 (b : Ref sig .tc) : Prop := (∀ w, (cfg5.win w).isOut = true → Pipeline.arrRef spec5 w ≠ b) ∧ Kept9 b
abbrev Kept11 (b : Ref sig .tc) : Prop := (∀ w, (cfg6.win w).isOut = true → Pipeline.arrRef spec6 w ≠ b) ∧ Kept10 b
abbrev Kept12 (b : Ref sig .tc) : Prop := b ∉ hostOps7_W ∧ Kept11 b
abbrev Kept13 (b : Ref sig .tc) : Prop := (∀ w, (cfg7.win w).isOut = true → Pipeline.arrRef spec7 w ≠ b) ∧ Kept12 b
abbrev Kept14 (b : Ref sig .tc) : Prop := (∀ w, (cfg8.win w).isOut = true → Pipeline.arrRef spec8 w ≠ b) ∧ Kept13 b
abbrev Kept15 (b : Ref sig .tc) : Prop := b ∉ hostOps9_W ∧ Kept14 b
abbrev Kept16 (b : Ref sig .tc) : Prop := (∀ w, (cfg9.win w).isOut = true → Pipeline.arrRef spec9 w ≠ b) ∧ Kept15 b
abbrev Kept17 (b : Ref sig .tc) : Prop := (∀ w, (cfg10.win w).isOut = true → Pipeline.arrRef spec10 w ≠ b) ∧ Kept16 b
abbrev Kept18 (b : Ref sig .tc) : Prop := b ∉ hostOps11_W ∧ Kept17 b
abbrev Kept19 (b : Ref sig .tc) : Prop := (∀ w, (cfg11.win w).isOut = true → Pipeline.arrRef spec11 w ≠ b) ∧ Kept18 b
abbrev Kept20 (b : Ref sig .tc) : Prop := b ∉ hostOps12_W ∧ Kept19 b

theorem W2_kept (b : Ref sig .tc) (h : Kept2 b) : W2 m ρ c (Proc.devRef .tc b) = W1 m ρ c (Proc.devRef .tc b) :=
  W2_keep m ρ c b h
theorem W3_kept (b : Ref sig .tc) (h : Kept3 b) : W3 m ρ c (Proc.devRef .tc b) = W1 m ρ c (Proc.devRef .tc b) :=
  (W3_of m ρ c b h.1).trans (W2_kept m ρ c b h.2)
theorem W4_kept (b : Ref sig .tc) (h : Kept4 b) : W4 m ρ c (Proc.devRef .tc b) = W1 m ρ c (Proc.devRef .tc b) :=
  (W4_keep m ρ c b h.1).trans (W3_kept m ρ c b h.2)
theorem W5_kept (b : Ref sig .tc) (h : Kept5 b) : W5 m ρ c (Proc.devRef .tc b) = W1 m ρ c (Proc.devRef .tc b) :=
  (W5_keep m ρ c b h.1).trans (W4_kept m ρ c b h.2)
theorem W6_kept (b : Ref sig .tc) (h : Kept6 b) : W6 m ρ c (Proc.devRef .tc b) = W1 m ρ c (Proc.devRef .tc b) :=
  (W6_of m ρ c b h.1).trans (W5_kept m ρ c b h.2)
theorem W7_kept (b : Ref sig .tc) (h : Kept7 b) : W7 m ρ c (Proc.devRef .tc b) = W1 m ρ c (Proc.devRef .tc b) :=
  (W7_keep m ρ c b h.1).trans (W6_kept m ρ c b h.2)
theorem W8_kept (b : Ref sig .tc) (h : Kept8 b) : W8 m ρ c (Proc.devRef .tc b) = W1 m ρ c (Proc.devRef .tc b) :=
  (W8_keep m ρ c b h.1).trans (W7_kept m ρ c b h.2)
theorem W9_kept (b : Ref sig .tc) (h : Kept9 b) : W9 m ρ c (Proc.devRef .tc b) = W1 m ρ c (Proc.devRef .tc b) :=
  (W9_of m ρ c b h.1).trans (W8_kept m ρ c b h.2)
theorem W10_kept (b : Ref sig .tc) (h : Kept10 b) : W10 m ρ c (Proc.devRef .tc b) = W1 m ρ c (Proc.devRef .tc b) :=
  (W10_keep m ρ c b h.1).trans (W9_kept m ρ c b h.2)
theorem W11_kept (b : Ref sig .tc) (h : Kept11 b) : W11 m ρ c (Proc.devRef .tc b) = W1 m ρ c (Proc.devRef .tc b) :=
  (W11_keep m ρ c b h.1).trans (W10_kept m ρ c b h.2)
theorem W12_kept (b : Ref sig .tc) (h : Kept12 b) : W12 m ρ c (Proc.devRef .tc b) = W1 m ρ c (Proc.devRef .tc b) :=
  (W12_of m ρ c b h.1).trans (W11_kept m ρ c b h.2)
theorem W13_kept (b : Ref sig .tc) (h : Kept13 b) : W13 m ρ c (Proc.devRef .tc b) = W1 m ρ c (Proc.devRef .tc b) :=
  (W13_keep m ρ c b h.1).trans (W12_kept m ρ c b h.2)
theorem W14_kept (b : Ref sig .tc) (h : Kept14 b) : W14 m ρ c (Proc.devRef .tc b) = W1 m ρ c (Proc.devRef .tc b) :=
  (W14_keep m ρ c b h.1).trans (W13_kept m ρ c b h.2)
theorem W15_kept (b : Ref sig .tc) (h : Kept15 b) : W15 m ρ c (Proc.devRef .tc b) = W1 m ρ c (Proc.devRef .tc b) :=
  (W15_of m ρ c b h.1).trans (W14_kept m ρ c b h.2)
theorem W16_kept (b : Ref sig .tc) (h : Kept16 b) : W16 m ρ c (Proc.devRef .tc b) = W1 m ρ c (Proc.devRef .tc b) :=
  (W16_keep m ρ c b h.1).trans (W15_kept m ρ c b h.2)
theorem W17_kept (b : Ref sig .tc) (h : Kept17 b) : W17 m ρ c (Proc.devRef .tc b) = W1 m ρ c (Proc.devRef .tc b) :=
  (W17_keep m ρ c b h.1).trans (W16_kept m ρ c b h.2)
theorem W18_kept (b : Ref sig .tc) (h : Kept18 b) : W18 m ρ c (Proc.devRef .tc b) = W1 m ρ c (Proc.devRef .tc b) :=
  (W18_of m ρ c b h.1).trans (W17_kept m ρ c b h.2)
theorem W19_kept (b : Ref sig .tc) (h : Kept19 b) : W19 m ρ c (Proc.devRef .tc b) = W1 m ρ c (Proc.devRef .tc b) :=
  (W19_keep m ρ c b h.1).trans (W18_kept m ρ c b h.2)
theorem W20_kept (b : Ref sig .tc) (h : Kept20 b) : W20 m ρ c (Proc.devRef .tc b) = W1 m ρ c (Proc.devRef .tc b) :=
  (W20_of m ρ c b h.1).trans (W19_kept m ρ c b h.2)

/-! ## The arguments where they are read -/

/-- An argument the first host stretch does not write holds its launch contents at boundary 1. -/
theorem W1_arg (b : Ref sig .tc) (h : b ∉ hostOps0_W) :
    W1 m ρ c (Proc.devRef .tc b) = m ((c.tc : Thread nD τ).loc b) :=
  (W1_of m ρ c b h).trans rfl

theorem W1_arg0 : W1 m ρ c (Proc.devRef .tc main_arg0) = m ((c.tc : Thread nD τ).loc main_arg0) :=
  W1_arg m ρ c main_arg0 (by decide)
theorem W1_arg2 : W1 m ρ c (Proc.devRef .tc main_arg2) = m ((c.tc : Thread nD τ).loc main_arg2) :=
  W1_arg m ρ c main_arg2 (by decide)
theorem W2_arg3 : W2 m ρ c (Proc.devRef .tc main_arg3) = m ((c.tc : Thread nD τ).loc main_arg3) :=
  (W2_kept m ρ c main_arg3 (by decide)).trans (W1_arg m ρ c main_arg3 (by decide))
theorem W4_arg4 : W4 m ρ c (Proc.devRef .tc main_arg4) = m ((c.tc : Thread nD τ).loc main_arg4) :=
  (W4_kept m ρ c main_arg4 (by decide)).trans (W1_arg m ρ c main_arg4 (by decide))
theorem W5_arg5 : W5 m ρ c (Proc.devRef .tc main_arg5) = m ((c.tc : Thread nD τ).loc main_arg5) :=
  (W5_kept m ρ c main_arg5 (by decide)).trans (W1_arg m ρ c main_arg5 (by decide))
theorem W7_arg6 : W7 m ρ c (Proc.devRef .tc main_arg6) = m ((c.tc : Thread nD τ).loc main_arg6) :=
  (W7_kept m ρ c main_arg6 (by decide)).trans (W1_arg m ρ c main_arg6 (by decide))
theorem W8_arg7 : W8 m ρ c (Proc.devRef .tc main_arg7) = m ((c.tc : Thread nD τ).loc main_arg7) :=
  (W8_kept m ρ c main_arg7 (by decide)).trans (W1_arg m ρ c main_arg7 (by decide))
theorem W10_arg8 : W10 m ρ c (Proc.devRef .tc main_arg8) = m ((c.tc : Thread nD τ).loc main_arg8) :=
  (W10_kept m ρ c main_arg8 (by decide)).trans (W1_arg m ρ c main_arg8 (by decide))
theorem W11_arg9 : W11 m ρ c (Proc.devRef .tc main_arg9) = m ((c.tc : Thread nD τ).loc main_arg9) :=
  (W11_kept m ρ c main_arg9 (by decide)).trans (W1_arg m ρ c main_arg9 (by decide))
theorem W13_arg10 : W13 m ρ c (Proc.devRef .tc main_arg10) = m ((c.tc : Thread nD τ).loc main_arg10) :=
  (W13_kept m ρ c main_arg10 (by decide)).trans (W1_arg m ρ c main_arg10 (by decide))
theorem W14_arg11 : W14 m ρ c (Proc.devRef .tc main_arg11) = m ((c.tc : Thread nD τ).loc main_arg11) :=
  (W14_kept m ρ c main_arg11 (by decide)).trans (W1_arg m ρ c main_arg11 (by decide))
theorem W16_arg12 : W16 m ρ c (Proc.devRef .tc main_arg12) = m ((c.tc : Thread nD τ).loc main_arg12) :=
  (W16_kept m ρ c main_arg12 (by decide)).trans (W1_arg m ρ c main_arg12 (by decide))
theorem W17_arg13 : W17 m ρ c (Proc.devRef .tc main_arg13) = m ((c.tc : Thread nD τ).loc main_arg13) :=
  (W17_kept m ρ c main_arg13 (by decide)).trans (W1_arg m ρ c main_arg13 (by decide))
theorem W19_arg15 : W19 m ρ c (Proc.devRef .tc main_arg15) = m ((c.tc : Thread nD τ).loc main_arg15) :=
  (W19_kept m ρ c main_arg15 ⟨by decide, by decide⟩).trans (W1_arg m ρ c main_arg15 (by decide))
theorem W20_arg14 : W20 m ρ c (Proc.devRef .tc main_arg14) = m ((c.tc : Thread nD τ).loc main_arg14) :=
  (W20_kept m ρ c main_arg14 ⟨by decide, by decide, by decide⟩).trans (W1_arg m ρ c main_arg14 (by decide))

/-! ## The graph's two arrays are written by the first host stretch only -/

theorem kept18_v40 : Kept18 main_v40 := by decide
theorem kept15_v40 : Kept15 main_v40 := kept18_v40.2.2.2
theorem kept12_v40 : Kept12 main_v40 := kept15_v40.2.2.2
theorem kept9_v40 : Kept9 main_v40 := kept12_v40.2.2.2
theorem kept6_v40 : Kept6 main_v40 := kept9_v40.2.2.2
theorem kept3_v40 : Kept3 main_v40 := kept6_v40.2.2.2

theorem kept17_v17 : Kept17 main_v17 := by decide
theorem kept14_v17 : Kept14 main_v17 := kept17_v17.2.2.2
theorem kept11_v17 : Kept11 main_v17 := kept14_v17.2.2.2
theorem kept8_v17 : Kept8 main_v17 := kept11_v17.2.2.2
theorem kept5_v17 : Kept5 main_v17 := kept8_v17.2.2.2
theorem kept2_v17 : Kept2 main_v17 := kept5_v17.2.2.2

end Cert.KernelIdeal.Hand

end
-- ==== Proof.KI.V0.lean ====
/-
  The value of region 0 at the extended reals. The output row block the body leaves at grid point `t` is, entry by
  entry, the sum over the input channels of the activations' entry times the weights' entry: the shape casts only drop
  and restore the unit batch axis, the roundings are the identity on extended reals, and the product into a zero
  accumulator is the plain sum over the one contracted axis. Point `t`'s blocks are batch row `t` of the activations
  and of the output and the whole weight matrix, so the sixteen write-backs tile the output array, which ends holding
  the feature transform of the region-entry activations and weights.
-/
import proofs.«421025_j30305289241172_1_alg».proof.Proof.KI.R0
import proofs.«421025_j30305289241172_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## The product's dimension numbers, axis by axis -/

theorem lhs0_0 (j : S2048x512.Idx) (k : dot_S2048x1475_S1475x512_S2048x512_1_0_0_1_n_n.contr.Idx) :
    (dot_S2048x1475_S1475x512_S2048x512_1_0_0_1_n_n.lhsIdx j k 0).val = (j 0).val := rfl
theorem lhs0_1 (j : S2048x512.Idx) (k : dot_S2048x1475_S1475x512_S2048x512_1_0_0_1_n_n.contr.Idx) :
    (dot_S2048x1475_S1475x512_S2048x512_1_0_0_1_n_n.lhsIdx j k 1).val = (k ⟨0, by decide⟩).val := rfl
theorem rhs0_0 (j : S2048x512.Idx) (k : dot_S2048x1475_S1475x512_S2048x512_1_0_0_1_n_n.contr.Idx) :
    (dot_S2048x1475_S1475x512_S2048x512_1_0_0_1_n_n.rhsIdx j k 0).val = (k ⟨0, by decide⟩).val := rfl
theorem rhs0_1 (j : S2048x512.Idx) (k : dot_S2048x1475_S1475x512_S2048x512_1_0_0_1_n_n.contr.Idx) :
    (dot_S2048x1475_S1475x512_S2048x512_1_0_0_1_n_n.rhsIdx j k 1).val = (j 1).val := rfl

/-- The body's payload at an output index: the row of the activations against the column of the weights. -/
theorem pay0_apply (x0 : FVec Ideal S1x2048x1475 .f32) (x1 : FVec Ideal S1475x512 .f32) (n : Fin 2048) (f : Fin 512) :
    k0_pay1 (F := Ideal) x0 x1 (ix3 (0 : Fin 1) n f) = ∑ k : Fin 1475, (x0 (ix3 (0 : Fin 1) n k) : EReal) * (x1 (ix2 k f) : EReal) := by
  unfold k0_pay1
  refine (shapeCast_addUnit_apply ![2048, 512] _ _ _).trans ?_
  refine (truncf_apply (φ := .f32) (ψ := .bf16) _ bitsLt_bf16_f32 _).trans ?_
  refine (Ideal.matmul_constant_zero_apply dot_S2048x1475_S1475x512_S2048x512_1_0_0_1_n_n none _ _ _).trans ?_
  rw [← Equiv.sum_comp (contrEquiv1 dot_S2048x1475_S1475x512_S2048x512_1_0_0_1_n_n 1475 rfl rfl).symm]
  refine Finset.sum_congr rfl fun i _ => ?_
  congr 1
  · show shapeCast S2048x1475 x0 shapeCasts_S1x2048x1475_S2048x1475 _ = _
    refine (shapeCast_dropUnit_apply ![2048, 1475] x0 _ _).trans (congrArg x0 (funext fun a => Fin.ext ?_))
    match a with
    | ⟨0, _⟩ => rfl
    | ⟨1, _⟩ => exact lhs0_0 (fun a => ix3 (0 : Fin 1) n f a.succ) ((contrEquiv1 dot_S2048x1475_S1475x512_S2048x512_1_0_0_1_n_n 1475 rfl rfl).symm i)
    | ⟨2, _⟩ => exact (lhs0_1 (fun a => ix3 (0 : Fin 1) n f a.succ) ((contrEquiv1 dot_S2048x1475_S1475x512_S2048x512_1_0_0_1_n_n 1475 rfl rfl).symm i)).trans (contrEquiv1_symm_val _ 1475 rfl rfl i)
  · refine (truncf_apply (φ := .f32) (ψ := .bf16) x1 bitsLt_bf16_f32 _).trans (congrArg x1 (funext fun a => Fin.ext ?_))
    match a with
    | ⟨0, _⟩ => exact (rhs0_0 (fun a => ix3 (0 : Fin 1) n f a.succ) ((contrEquiv1 dot_S2048x1475_S1475x512_S2048x512_1_0_0_1_n_n 1475 rfl rfl).symm i)).trans (contrEquiv1_symm_val _ 1475 rfl rfl i)
    | ⟨1, _⟩ => exact rhs0_1 (fun a => ix3 (0 : Fin 1) n f a.succ) ((contrEquiv1 dot_S2048x1475_S1475x512_S2048x512_1_0_0_1_n_n 1475 rfl rfl).symm i)

/-! ## The blocks at a point -/

theorem hz0_3 : (![0, 0, 0] : Fin 3 → Nat) = fun _ => 0 := funext fun a => by fin_cases a <;> rfl
theorem hz0_2 : (![0, 0] : Fin 2 → Nat) = fun _ => 0 := funext fun a => by fin_cases a <;> rfl

/-- The windows' index maps, decided once over the grid: the activations' and the output's block index is the point
    on the batch axis and zero elsewhere; the weights' is zero. -/
theorem idxFacts0 : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- A grid point as a batch row. -/
abbrev row0 (t : Fin cfg0.N) : Fin 16 := ⟨t.val, Nat.lt_of_lt_of_eq t.isLt (show cfg0.N = 16 from N_0)⟩

section
variable (V : (c : Dev nD) → (b : Ref sig .tc) → Buf (Elt Ideal) ((c : Thread nD τ).loc b))

/-- The activations' block at point `t` is batch row `t` of the array. -/
theorem x_at0 (c : Dev nD) (t : Fin cfg0.N) (n : Fin 2048) (k : Fin 1475) :
    (iblk0 V c 0 t : FVec Ideal S1x2048x1475 .f32) (ix3 (0 : Fin 1) n k)
      = (V c main_arg0 : (Cert.Spec.Sh3 16 2048 1475).Idx → EReal) (ix3 (row0 t) n k) := by
  obtain ⟨e0, e1, e2, -⟩ := idxFacts0 t
  unfold iblk0
  rw [View.read_apply]
  show V c main_arg0 _ = V c main_arg0 _
  congr 1
  funext a
  apply Fin.ext
  match a with
  | ⟨0, _⟩ => show win0_0.index t (0 : Fin 3) * 1 + 1 * 0 = t.val; omega
  | ⟨1, _⟩ => show win0_0.index t (1 : Fin 3) * 2048 + 1 * n.val = n.val; omega
  | ⟨2, _⟩ => show win0_0.index t (2 : Fin 3) * 1475 + 1 * k.val = k.val; omega

/-- The weights' block at every point is the whole matrix. -/
theorem w_at0 (c : Dev nD) (t : Fin cfg0.N) (k : Fin 1475) (f : Fin 512) :
    (iblk0 V c 1 t : FVec Ideal S1475x512 .f32) (ix2 k f)
      = (V c main_arg2 : (Cert.Spec.Sh2 1475 512).Idx → EReal) (ix2 k f) := by
  obtain ⟨-, -, -, e0, e1, -⟩ := idxFacts0 t
  unfold iblk0
  rw [View.read_apply]
  show V c main_arg2 _ = V c main_arg2 _
  congr 1
  funext a
  apply Fin.ext
  match a with
  | ⟨0, _⟩ => show win0_1.index t (0 : Fin 2) * 1475 + 1 * k.val = k.val; omega
  | ⟨1, _⟩ => show win0_1.index t (1 : Fin 2) * 512 + 1 * f.val = f.val; omega

/-- The feature transform of the region-entry activations and weights, as an array. -/
abbrev feat_at0 (c : Dev nD) : (Cert.Spec.Sh3 16 2048 512).Idx → EReal :=
  Cert.Spec.arr3 (Cert.Spec.feat (V c main_arg0 : (Cert.Spec.Sh3 16 2048 1475).Idx → EReal) (V c main_arg2 : (Cert.Spec.Sh2 1475 512).Idx → EReal))

/-- What point `t` writes back is batch row `t` of the feature transform. -/
theorem flushed0_eq (c : Dev nD) (t : Fin cfg0.N) :
    (dat0 (F := Ideal) V c).flushed 2 t = ((cfg0.win 2).blk t).view.read (Elt Ideal) (feat_at0 V c) := by
  show (cfg0.win 2).cut (grid0.coords t) ((dat0 V c).after 2 t) = _
  rw [after0_2]
  unfold out0_2
  rw [View.canon_unit_zero hz0_3]
  simp only [View.ld_unit_zero (S := S1x2048x1475) hz0_3, View.ld_unit_zero (S := S1475x512) hz0_2]
  obtain ⟨-, -, -, -, -, e0, e1, e2⟩ := idxFacts0 t
  have key : ∀ j : S1x2048x512.Idx, k0_pay1 (F := Ideal) (iblk0 V c 0 t : FVec Ideal S1x2048x1475 .f32) (iblk0 V c 1 t : FVec Ideal S1475x512 .f32) j
      = feat_at0 V c (((cfg0.win 2).blk t).view.emb j) := by
    intro j
    obtain ⟨a, n, f, rfl⟩ : ∃ (a : Fin 1) (n : Fin 2048) (f : Fin 512), j = ix3 a n f := ⟨j 0, j 1, j 2, eq_ix3 j⟩
    obtain rfl : a = 0 := Subsingleton.elim _ _
    have hemb : ((cfg0.win 2).blk t).view.emb (ix3 (0 : Fin 1) n f) = (ix3 (row0 t) n f : (Cert.Spec.Sh3 16 2048 512).Idx) := by
      funext a
      apply Fin.ext
      match a with
      | ⟨0, _⟩ => show win0_2.index t (0 : Fin 3) * 1 + 1 * 0 = t.val; omega
      | ⟨1, _⟩ => show win0_2.index t (1 : Fin 3) * 2048 + 1 * n.val = n.val; omega
      | ⟨2, _⟩ => show win0_2.index t (2 : Fin 3) * 512 + 1 * f.val = f.val; omega
    rw [hemb]
    refine (pay0_apply _ _ n f).trans ?_
    show _ = Cert.Spec.feat _ _ (row0 t) n f
    unfold Cert.Spec.feat
    exact Finset.sum_congr rfl fun k _ => by rw [x_at0 V c t n k, w_at0 V c t k f]
  exact funext key

/-- An index of the output array is in point `t`'s block iff each coordinate is in the block's range on its axis. -/
theorem mem_blk0 (t : Fin cfg0.N) (i : S16x2048x512.Idx) :
    i ∈ ((cfg0.win 2).blk t).view.set ↔ ∀ a : Fin 3, win0_2.index t a * S1x2048x512.size a ≤ (i a).val ∧ (i a).val < win0_2.index t a * S1x2048x512.size a + S1x2048x512.size a := by
  show i ∈ ((View.whole main_v41).slice (win0_2.rect t)).set ↔ _
  rw [View.set_slice_whole, Rect.mem_set_unit]
  exact Iff.rfl

/-- Every index of the output array is in the block of the point its batch coordinate names. -/
theorem covered0 (i : S16x2048x512.Idx) : ∃ t : Fin cfg0.N, (cfg0.win 2).flush t = true ∧ i ∈ ((cfg0.win 2).blk t).view.set := by
  have h0 : (i 0).val < 16 := (i 0).isLt
  have h1 : (i 1).val < 2048 := (i 1).isLt
  have h2 : (i 2).val < 512 := (i 2).isLt
  obtain ⟨t, ht⟩ : ∃ t : Fin cfg0.N, t.val = (i 0).val := ⟨⟨(i 0).val, by rw [show cfg0.N = 16 from N_0]; exact h0⟩, rfl⟩
  refine ⟨t, flush0_2 t, ?_⟩
  obtain ⟨-, -, -, -, -, e0, e1, e2⟩ := idxFacts0 t
  rw [mem_blk0]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 2048 ≤ (i 1).val ∧ (i 1).val < win0_2.index t (1 : Fin 3) * 2048 + 2048; omega
  | ⟨2, _⟩ => show win0_2.index t (2 : Fin 3) * 512 ≤ (i 2).val ∧ (i 2).val < win0_2.index t (2 : Fin 3) * 512 + 512; omega

end

/-- THE OUTPUT ARRAY after the region: the feature transform of the region-entry activations and weights. -/
theorem arr0_eq (V : (c : Dev nD) → (b : Ref sig .tc) → Buf (Elt Ideal) ((c : Thread nD τ).loc b)) (c : Dev nD) :
    (dat0 (F := Ideal) V c).arrAt 2 cfg0.N = Cert.Spec.arr3 (Cert.Spec.feat (V c main_arg0 : (Cert.Spec.Sh3 16 2048 1475).Idx → EReal) (V c main_arg2 : (Cert.Spec.Sh2 1475 512).Idx → EReal)) :=
  (dat0 (F := Ideal) V c).arrAt_eq_of_cover 2 (feat_at0 V c) (fun t _ => flushed0_eq V c t) (covered0)

end Cert.KernelIdeal.Hand

end
-- ==== Proof.KI.V1.lean ====
/-
  Aggregation layer, pipeline 1, read as a value over the extended reals. The stored value at entry (n, f) of a block is
  ∑ₘ A[n, m] · h1[m, f] + h1[n, f] · invdeg[n] + bias[f]: the matrix product accumulated into zero is the sum over its one
  contracted axis, the inverse-degree column and the bias row are laid along the block, and the conversions between the
  two float formats are the identity on extended reals. The block of grid point `t` is batch row `t` of the features and
  of the output, while the adjacency, the bias and the inverse degrees are whole at every point; so point `t` writes
  back batch row `t` of the dense aggregation, the sixteen rows cover the output array, and the array ends at the dense
  aggregation of the arrays found at entry.
-/
import proofs.«421025_j30305289241172_1_alg».proof.Proof.Gen.KernelIdeal.Launch
import proofs.«421025_j30305289241172_1_alg».proof.Proof.Gen.KernelIdeal.Skeleton
import proofs.«421025_j30305289241172_1_alg».proof.Proof.Gen.KernelIdeal.Points
import proofs.«421025_j30305289241172_1_alg».proof.Proof.KI.R1
import proofs.«421025_j30305289241172_1_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window BodyObligation cellOf)
open scoped BigOperators

/-! ## The matrix product's operand indices, axis by axis -/

theorem agg1_lhs_0 (i : S2048x512.Idx) (q : dot_S2048x2048_S2048x512_S2048x512_1_0_0_1_n_n.contr.Idx) :
    (dot_S2048x2048_S2048x512_S2048x512_1_0_0_1_n_n.lhsIdx i q 0).val = (i 0).val := by
  unfold DotDims.lhsIdx
  rw [dif_neg (show ¬(0 : Fin S2048x2048.rank) ∈ dot_S2048x2048_S2048x512_S2048x512_1_0_0_1_n_n.lhsBatch by decide),
    dif_pos (show (0 : Fin S2048x2048.rank) ∈ dot_S2048x2048_S2048x512_S2048x512_1_0_0_1_n_n.lhsNonContracting by decide)]
  rfl
theorem agg1_lhs_1 (i : S2048x512.Idx) (q : dot_S2048x2048_S2048x512_S2048x512_1_0_0_1_n_n.contr.Idx) :
    (dot_S2048x2048_S2048x512_S2048x512_1_0_0_1_n_n.lhsIdx i q 1).val = (q ⟨0, by decide⟩).val :=
  dot_S2048x2048_S2048x512_S2048x512_1_0_0_1_n_n.lhsIdx_val_of_single rfl i q
theorem agg1_rhs_0 (i : S2048x512.Idx) (q : dot_S2048x2048_S2048x512_S2048x512_1_0_0_1_n_n.contr.Idx) :
    (dot_S2048x2048_S2048x512_S2048x512_1_0_0_1_n_n.rhsIdx i q 0).val = (q ⟨0, by decide⟩).val :=
  dot_S2048x2048_S2048x512_S2048x512_1_0_0_1_n_n.rhsIdx_val_of_single rfl i q
theorem agg1_rhs_1 (i : S2048x512.Idx) (q : dot_S2048x2048_S2048x512_S2048x512_1_0_0_1_n_n.contr.Idx) :
    (dot_S2048x2048_S2048x512_S2048x512_1_0_0_1_n_n.rhsIdx i q 1).val = (i 1).val := by
  unfold DotDims.rhsIdx
  rw [dif_neg (show ¬(1 : Fin S2048x512.rank) ∈ dot_S2048x2048_S2048x512_S2048x512_1_0_0_1_n_n.rhsBatch by decide),
    dif_pos (show (1 : Fin S2048x512.rank) ∈ dot_S2048x2048_S2048x512_S2048x512_1_0_0_1_n_n.rhsNonContracting by decide)]
  rfl

/-- The product accumulated into zero, at entry (n, f): the sum over the contracted axis. -/
theorem agg1_matmul_apply (a : FVec Ideal S2048x2048 .bf16) (h : FVec Ideal S2048x512 .bf16) (n : Fin 2048) (f : Fin 512) :
    matmul dot_S2048x2048_S2048x512_S2048x512_1_0_0_1_n_n none a h (constant (F := Ideal) S2048x512 .f32 0x00000000#32) (ix2 n f)
      = ∑ m : Fin 2048, a (ix2 n m) * h (ix2 m f) := by
  simp only [matmul]
  rw [Ideal.matmul_constant_zero_apply, ← Equiv.sum_comp (contrEquiv1 dot_S2048x2048_S2048x512_S2048x512_1_0_0_1_n_n 2048 rfl rfl).symm]
  refine Finset.sum_congr rfl fun k _ => ?_
  have hk := contrEquiv1_symm_val dot_S2048x2048_S2048x512_S2048x512_1_0_0_1_n_n 2048 rfl rfl k
  have el : dot_S2048x2048_S2048x512_S2048x512_1_0_0_1_n_n.lhsIdx (ix2 n f) ((contrEquiv1 dot_S2048x2048_S2048x512_S2048x512_1_0_0_1_n_n 2048 rfl rfl).symm k) = ix2 n k :=
    funext fun a => Fin.ext (by
      match a with
      | ⟨0, _⟩ => exact agg1_lhs_0 _ _
      | ⟨1, _⟩ => exact (agg1_lhs_1 _ _).trans hk)
  have er : dot_S2048x2048_S2048x512_S2048x512_1_0_0_1_n_n.rhsIdx (ix2 n f) ((contrEquiv1 dot_S2048x2048_S2048x512_S2048x512_1_0_0_1_n_n 2048 rfl rfl).symm k) = ix2 k f :=
    funext fun a => Fin.ext (by
      match a with
      | ⟨0, _⟩ => exact (agg1_rhs_0 _ _).trans hk
      | ⟨1, _⟩ => exact agg1_rhs_1 _ _)
  rw [el, er]

/-- A column laid along every column of the block: entry (n, f) is the column's entry n. -/
theorem agg1_col_apply (v : FVec Ideal S2048x1 .f32) (n : Fin 2048) (f : Fin 512) :
    broadcastTo S2048x512 v broadcasts_S2048x1_S2048x512 (ix2 n f) = v (ix2 n (0 : Fin 1)) := by
  refine broadcastTo_apply v broadcasts_S2048x1_S2048x512 (ix2 n f) (ix2 n (0 : Fin 1)) fun ax => ?_
  match ax with
  | ⟨0, _⟩ => rfl
  | ⟨1, _⟩ => rfl

/-- The stored value at entry (u, n, f) of the block. -/
theorem agg1_pay_apply (x0 : Vec Ideal S1x2048x512 .bf16) (x1 : Vec Ideal S2048x2048 .bf16) (x3 : Vec Ideal S2048x1 .f32) (x2 : Vec Ideal S1x512 .f32)
    (u : Fin 1) (n : Fin 2048) (f : Fin 512) :
    (k1_pay1 x0 x1 x3 x2 (ix3 u n f) : EReal)
      = ((∑ m : Fin 2048, (x1 (ix2 n m) : EReal) * x0 (ix3 (0 : Fin 1) m f)) + (x0 (ix3 (0 : Fin 1) n f) : EReal) * x3 (ix2 n (0 : Fin 1))) + x2 (ix2 (0 : Fin 1) f) := by
  unfold k1_pay1
  refine (shapeCast_ab_1ab_apply _ shapeCasts_S2048x512_S1x2048x512 u n f).trans ?_
  show ((matmul (F := Ideal) dot_S2048x2048_S2048x512_S2048x512_1_0_0_1_n_n none _ _ _ (ix2 n f) : EReal) + (_ : EReal) * (_ : EReal)) + (_ : EReal) = _
  rw [agg1_matmul_apply, agg1_col_apply, broadcastTo_1b_ab_apply]
  simp only [shapeCast_self]
  congr 1
  congr 1
  · refine Finset.sum_congr rfl fun m _ => ?_
    congr 1
    exact shapeCast_1ab_ab_apply x0 shapeCasts_S1x2048x512_S2048x512 m f
  · congr 1
    exact shapeCast_1ab_ab_apply x0 shapeCasts_S1x2048x512_S2048x512 n f

/-- The stored value at entry (u, n, f), when the four blocks are: batch row `b` of the features `H`, the adjacency `A`,
    the inverse degrees `D` and the bias `B` — entry (b, n, f) of the layer's dense aggregation of `H`, `A`, `B`, `D`. -/
theorem agg1_point (H : S16x2048x512.Idx → EReal) (A : S2048x2048.Idx → EReal) (B : S1x512.Idx → EReal) (D : S2048x1.Idx → EReal)
    (x0 : Vec Ideal S1x2048x512 .bf16) (x1 : Vec Ideal S2048x2048 .bf16) (x3 : Vec Ideal S2048x1 .f32) (x2 : Vec Ideal S1x512 .f32)
    (b : Fin 16) (u : Fin 1) (n : Fin 2048) (f : Fin 512)
    (h0 : ∀ (m : Fin 2048) (f : Fin 512), x0 (ix3 (0 : Fin 1) m f) = H (ix3 b m f))
    (h1 : ∀ n m : Fin 2048, x1 (ix2 n m) = A (ix2 n m))
    (h3 : ∀ n : Fin 2048, x3 (ix2 n (0 : Fin 1)) = D (ix2 n (0 : Fin 1)))
    (h2 : ∀ f : Fin 512, x2 (ix2 (0 : Fin 1) f) = B (ix2 (0 : Fin 1) f)) :
    k1_pay1 x0 x1 x3 x2 (ix3 u n f) = Cert.Spec.arr3 (Cert.Spec.agg false H A B D) (ix3 b n f) := by
  rw [agg1_pay_apply, Cert.Spec.arr3_ix3]
  show _ = ((∑ m : Fin 2048, A (ix2 n m) * H (ix3 b m f)) + H (ix3 b n f) * D (ix2 n (0 : Fin 1))) + B (ix2 (0 : Fin 1) f)
  rw [h0 n f, h3 n, h2 f]
  congr 2
  refine Finset.sum_congr rfl fun m _ => ?_
  rw [h1 n m, h0 m f]

/-! ## From blocks to the array -/

section Value1
variable (V : (c : Dev nD) → (b : Ref sig .tc) → Buf (Elt Ideal) ((c : Thread nD τ).loc b))

theorem agg1_hz3 : (![0, 0, 0] : Fin 3 → Nat) = fun _ => 0 := funext fun a => by fin_cases a <;> rfl
theorem agg1_hz2 : (![0, 0] : Fin 2 → Nat) = fun _ => 0 := funext fun a => by fin_cases a <;> rfl

/-- The index maps over the grid: the features' and the output's block at point `t` is batch row `t`, whole on the
    other two axes; the adjacency, the bias and the inverse degrees are taken whole at every point. -/
theorem agg1_idx : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val ∧ win1_4.index t (1 : Fin 3) = 0 ∧ win1_4.index t (2 : Fin 3) = 0 :=
  (by decide +kernel : ∀ t : Fin grid1.N, _)

/-- The batch row of grid point `t`. -/
abbrev agg1_row (t : Fin cfg1.N) : Fin 16 := ⟨t.val, by have h := t.isLt; have e : cfg1.N = 16 := N_1; omega⟩

/-- The features' block at point `t` is batch row `t` of the features. -/
theorem agg1_h_apply (c : Dev nD) (t : Fin cfg1.N) (u : Fin 1) (n : Fin 2048) (f : Fin 512) :
    (iblk1 V c 0 t : Vec Ideal S1x2048x512 .bf16) (ix3 u n f) = (V c main_v41 : S16x2048x512.Idx → EReal) (ix3 (agg1_row t) n f) := by
  obtain ⟨e0, e1, e2, -⟩ := agg1_idx t
  unfold iblk1
  rw [View.read_apply]
  show V c main_v41 _ = V c main_v41 _
  congr 1
  funext a
  apply Fin.ext
  match a with
  | ⟨0, _⟩ => show win1_0.index t (0 : Fin 3) * 1 + 1 * u.val = t.val; rw [e0]; omega
  | ⟨1, _⟩ => show win1_0.index t (1 : Fin 3) * 2048 + 1 * n.val = n.val; rw [e1]; omega
  | ⟨2, _⟩ => show win1_0.index t (2 : Fin 3) * 512 + 1 * f.val = f.val; rw [e2]; omega

/-- The adjacency's block at every point is the adjacency. -/
theorem agg1_a_apply (c : Dev nD) (t : Fin cfg1.N) (n m : Fin 2048) :
    (iblk1 V c 1 t : Vec Ideal S2048x2048 .bf16) (ix2 n m) = (V c main_v40 : S2048x2048.Idx → EReal) (ix2 n m) := by
  obtain ⟨-, -, -, e0, e1, -⟩ := agg1_idx t
  unfold iblk1
  rw [View.read_apply]
  show V c main_v40 _ = V c main_v40 _
  congr 1
  funext a
  apply Fin.ext
  match a with
  | ⟨0, _⟩ => show win1_1.index t (0 : Fin 2) * 2048 + 1 * n.val = n.val; rw [e0]; omega
  | ⟨1, _⟩ => show win1_1.index t (1 : Fin 2) * 2048 + 1 * m.val = m.val; rw [e1]; omega

/-- The bias row's block at every point is the bias row. -/
theorem agg1_b_apply (c : Dev nD) (t : Fin cfg1.N) (u : Fin 1) (f : Fin 512) :
    (iblk1 V c 2 t : Vec Ideal S1x512 .f32) (ix2 u f) = (V c main_v42 : S1x512.Idx → EReal) (ix2 u f) := by
  obtain ⟨-, -, -, -, -, e0, e1, -⟩ := agg1_idx t
  unfold iblk1
  rw [View.read_apply]
  show V c main_v42 _ = V c main_v42 _
  congr 1
  funext a
  apply Fin.ext
  match a with
  | ⟨0, _⟩ => show win1_2.index t (0 : Fin 2) * 1 + 1 * u.val = u.val; rw [e0]; omega
  | ⟨1, _⟩ => show win1_2.index t (1 : Fin 2) * 512 + 1 * f.val = f.val; rw [e1]; omega

/-- The inverse-degree column's block at every point is the column. -/
theorem agg1_d_apply (c : Dev nD) (t : Fin cfg1.N) (n : Fin 2048) (u : Fin 1) :
    (iblk1 V c 3 t : Vec Ideal S2048x1 .f32) (ix2 n u) = (V c main_v43 : S2048x1.Idx → EReal) (ix2 n u) := by
  obtain ⟨-, -, -, -, -, -, -, e0, e1, -⟩ := agg1_idx t
  unfold iblk1
  rw [View.read_apply]
  show V c main_v43 _ = V c main_v43 _
  congr 1
  funext a
  apply Fin.ext
  match a with
  | ⟨0, _⟩ => show win1_3.index t (0 : Fin 2) * 2048 + 1 * n.val = n.val; rw [e0]; omega
  | ⟨1, _⟩ => show win1_3.index t (1 : Fin 2) * 1 + 1 * u.val = u.val; rw [e1]; omega

/-- What point `t` writes back is batch row `t` of the layer's dense aggregation of the arrays found at entry. -/
theorem agg1_flushed (c : Dev nD) (t : Fin cfg1.N) :
    (dat1 (F := Ideal) V c).flushed 4 t = ((cfg1.win 4).blk t).view.read (Elt Ideal)
      (Cert.Spec.arr3 (Cert.Spec.agg false (V c main_v41) (V c main_v40) (V c main_v42) (V c main_v43))) := by
  show (cfg1.win 4).cut (grid1.coords t) ((dat1 V c).after 4 t) = _
  rw [after1_4]
  unfold out1_4
  rw [View.canon_unit_zero agg1_hz3]
  simp only [View.ld_unit_zero (S := S1x2048x512) agg1_hz3, View.ld_unit_zero (S := S2048x2048) agg1_hz2,
    View.ld_unit_zero (S := S1x512) agg1_hz2, View.ld_unit_zero (S := S2048x1) agg1_hz2]
  funext j
  obtain ⟨u, n, f, rfl⟩ : ∃ (u : Fin 1) (n : Fin 2048) (f : Fin 512), j = ix3 u n f := ⟨j 0, j 1, j 2, eq_ix3 j⟩
  obtain ⟨-, -, -, -, -, -, -, -, -, e0, e1, e2⟩ := agg1_idx t
  have hemb : ((View.whole main_v44).slice ((win1 4).rect t)).emb (ix3 u n f) = ix3 (agg1_row t) n f := by
    funext a
    apply Fin.ext
    match a with
    | ⟨0, _⟩ => show win1_4.index t (0 : Fin 3) * 1 + 1 * u.val = t.val; rw [e0]; omega
    | ⟨1, _⟩ => show win1_4.index t (1 : Fin 3) * 2048 + 1 * n.val = n.val; rw [e1]; omega
    | ⟨2, _⟩ => show win1_4.index t (2 : Fin 3) * 512 + 1 * f.val = f.val; rw [e2]; omega
  show k1_pay1 (iblk1 V c 0 t) (iblk1 V c 1 t) (iblk1 V c 3 t) (iblk1 V c 2 t) (ix3 u n f) = _
  rw [View.read_apply]
  show _ = Cert.Spec.arr3 (Cert.Spec.agg false (V c main_v41) (V c main_v40) (V c main_v42) (V c main_v43))
    (((View.whole main_v44).slice ((win1 4).rect t)).emb (ix3 u n f))
  rw [hemb]
  exact agg1_point (V c main_v41) (V c main_v40) (V c main_v42) (V c main_v43)
    (iblk1 V c 0 t) (iblk1 V c 1 t) (iblk1 V c 3 t) (iblk1 V c 2 t) (agg1_row t) u n f
    (fun m f => agg1_h_apply V c t 0 m f) (fun n m => agg1_a_apply V c t n m)
    (fun n => agg1_d_apply V c t n 0) (fun f => agg1_b_apply V c t 0 f)

/-- An index of the output array lies in point `t`'s block iff each coordinate lies in the block's range on its axis. -/
theorem agg1_mem_blk (t : Fin cfg1.N) (i : S16x2048x512.Idx) :
    i ∈ ((cfg1.win 4).blk t).view.set ↔ ∀ a : Fin 3, win1_4.index t a * S1x2048x512.size a ≤ (i a).val
      ∧ (i a).val < win1_4.index t a * S1x2048x512.size a + S1x2048x512.size a := by
  show i ∈ ((View.whole main_v44).slice (win1_4.rect t)).set ↔ _
  rw [View.set_slice_whole, Rect.mem_set_unit]
  exact Iff.rfl

/-- The output array after the region: every batch row `b` is written by point `b`, so the array ends at the layer's
    dense aggregation of the arrays found at entry. -/
theorem arr1_eq (c : Dev nD) :
    (dat1 (F := Ideal) V c).arrAt 4 cfg1.N
      = Cert.Spec.arr3 (Cert.Spec.agg false (V c main_v41) (V c main_v40) (V c main_v42) (V c main_v43)) :=
  (dat1 (F := Ideal) V c).arrAt_eq_of_cover 4 _ (fun t _ => agg1_flushed V c t) fun i => by
    have h0 : (i 0).val < 16 := (i 0).isLt
    have h1 : (i 1).val < 2048 := (i 1).isLt
    have h2 : (i 2).val < 512 := (i 2).isLt
    have hN : cfg1.N = 16 := N_1
    obtain ⟨t, ht⟩ : ∃ t : Fin cfg1.N, t.val = (i 0).val := ⟨⟨(i 0).val, by omega⟩, rfl⟩
    refine ⟨t, flush1_4 t, ?_⟩
    rw [agg1_mem_blk]
    obtain ⟨-, -, -, -, -, -, -, -, -, e0, e1, e2⟩ := agg1_idx t
    intro a
    match a with
    | ⟨0, _⟩ =>
      show win1_4.index t (0 : Fin 3) * 1 ≤ (i 0).val ∧ (i 0).val < win1_4.index t (0 : Fin 3) * 1 + 1
      rw [e0]; omega
    | ⟨1, _⟩ =>
      show win1_4.index t (1 : Fin 3) * 2048 ≤ (i 1).val ∧ (i 1).val < win1_4.index t (1 : Fin 3) * 2048 + 2048
      rw [e1]; omega
    | ⟨2, _⟩ =>
      show win1_4.index t (2 : Fin 3) * 512 ≤ (i 2).val ∧ (i 2).val < win1_4.index t (2 : Fin 3) * 512 + 512
      rw [e2]; omega

end Value1

end Cert.KernelIdeal.Hand

end
-- ==== Proof.KI.V2.lean ====
/-
  The value of region 2 at the extended reals. The output row block the body leaves at grid point `t` is, entry by
  entry, the sum over the input channels of the activations' entry times the weights' entry: the shape casts only drop
  and restore the unit batch axis, the roundings are the identity on extended reals, and the product into a zero
  accumulator is the plain sum over the one contracted axis. Point `t`'s blocks are batch row `t` of the activations
  and of the output and the whole weight matrix, so the sixteen write-backs tile the output array, which ends holding
  the feature transform of the region-entry activations and weights.
-/
import proofs.«421025_j30305289241172_1_alg».proof.Proof.KI.R2
import proofs.«421025_j30305289241172_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## The product's dimension numbers, axis by axis -/

theorem lhs2_0 (j : S2048x512.Idx) (k : dot_S2048x512_S512x512_S2048x512_1_0_0_1_n_n.contr.Idx) :
    (dot_S2048x512_S512x512_S2048x512_1_0_0_1_n_n.lhsIdx j k 0).val = (j 0).val := rfl
theorem lhs2_1 (j : S2048x512.Idx) (k : dot_S2048x512_S512x512_S2048x512_1_0_0_1_n_n.contr.Idx) :
    (dot_S2048x512_S512x512_S2048x512_1_0_0_1_n_n.lhsIdx j k 1).val = (k ⟨0, by decide⟩).val := rfl
theorem rhs2_0 (j : S2048x512.Idx) (k : dot_S2048x512_S512x512_S2048x512_1_0_0_1_n_n.contr.Idx) :
    (dot_S2048x512_S512x512_S2048x512_1_0_0_1_n_n.rhsIdx j k 0).val = (k ⟨0, by decide⟩).val := rfl
theorem rhs2_1 (j : S2048x512.Idx) (k : dot_S2048x512_S512x512_S2048x512_1_0_0_1_n_n.contr.Idx) :
    (dot_S2048x512_S512x512_S2048x512_1_0_0_1_n_n.rhsIdx j k 1).val = (j 1).val := rfl

/-- The body's payload at an output index: the row of the activations against the column of the weights. -/
theorem pay2_apply (x0 : FVec Ideal S1x2048x512 .bf16) (x1 : FVec Ideal S512x512 .f32) (n : Fin 2048) (f : Fin 512) :
    k2_pay1 (F := Ideal) x0 x1 (ix3 (0 : Fin 1) n f) = ∑ k : Fin 512, (x0 (ix3 (0 : Fin 1) n k) : EReal) * (x1 (ix2 k f) : EReal) := by
  unfold k2_pay1
  refine (shapeCast_addUnit_apply ![2048, 512] _ _ _).trans ?_
  refine (truncf_apply (φ := .f32) (ψ := .bf16) _ bitsLt_bf16_f32 _).trans ?_
  refine (Ideal.matmul_constant_zero_apply dot_S2048x512_S512x512_S2048x512_1_0_0_1_n_n none _ _ _).trans ?_
  rw [← Equiv.sum_comp (contrEquiv1 dot_S2048x512_S512x512_S2048x512_1_0_0_1_n_n 512 rfl rfl).symm]
  refine Finset.sum_congr rfl fun i _ => ?_
  congr 1
  · show shapeCast S2048x512 x0 shapeCasts_S1x2048x512_S2048x512 _ = _
    refine (shapeCast_dropUnit_apply ![2048, 512] x0 _ _).trans (congrArg x0 (funext fun a => Fin.ext ?_))
    match a with
    | ⟨0, _⟩ => rfl
    | ⟨1, _⟩ => exact lhs2_0 (fun a => ix3 (0 : Fin 1) n f a.succ) ((contrEquiv1 dot_S2048x512_S512x512_S2048x512_1_0_0_1_n_n 512 rfl rfl).symm i)
    | ⟨2, _⟩ => exact (lhs2_1 (fun a => ix3 (0 : Fin 1) n f a.succ) ((contrEquiv1 dot_S2048x512_S512x512_S2048x512_1_0_0_1_n_n 512 rfl rfl).symm i)).trans (contrEquiv1_symm_val _ 512 rfl rfl i)
  · refine (truncf_apply (φ := .f32) (ψ := .bf16) x1 bitsLt_bf16_f32 _).trans (congrArg x1 (funext fun a => Fin.ext ?_))
    match a with
    | ⟨0, _⟩ => exact (rhs2_0 (fun a => ix3 (0 : Fin 1) n f a.succ) ((contrEquiv1 dot_S2048x512_S512x512_S2048x512_1_0_0_1_n_n 512 rfl rfl).symm i)).trans (contrEquiv1_symm_val _ 512 rfl rfl i)
    | ⟨1, _⟩ => exact rhs2_1 (fun a => ix3 (0 : Fin 1) n f a.succ) ((contrEquiv1 dot_S2048x512_S512x512_S2048x512_1_0_0_1_n_n 512 rfl rfl).symm i)

/-! ## The blocks at a point -/

theorem hz2_3 : (![0, 0, 0] : Fin 3 → Nat) = fun _ => 0 := funext fun a => by fin_cases a <;> rfl
theorem hz2_2 : (![0, 0] : Fin 2 → Nat) = fun _ => 0 := funext fun a => by fin_cases a <;> rfl

/-- The windows' index maps, decided once over the grid: the activations' and the output's block index is the point
    on the batch axis and zero elsewhere; the weights' is zero. -/
theorem idxFacts2 : ∀ t : Fin cfg2.N,
    win2_0.index t (0 : Fin 3) = t.val ∧ win2_0.index t (1 : Fin 3) = 0 ∧ win2_0.index t (2 : Fin 3) = 0
    ∧ win2_1.index t (0 : Fin 2) = 0 ∧ win2_1.index t (1 : Fin 2) = 0
    ∧ win2_2.index t (0 : Fin 3) = t.val ∧ win2_2.index t (1 : Fin 3) = 0 ∧ win2_2.index t (2 : Fin 3) = 0 :=
  (by decide +kernel : ∀ t : Fin grid2.N, _)

/-- A grid point as a batch row. -/
abbrev row2 (t : Fin cfg2.N) : Fin 16 := ⟨t.val, Nat.lt_of_lt_of_eq t.isLt (show cfg2.N = 16 from N_2)⟩

section
variable (V : (c : Dev nD) → (b : Ref sig .tc) → Buf (Elt Ideal) ((c : Thread nD τ).loc b))

/-- The activations' block at point `t` is batch row `t` of the array. -/
theorem x_at2 (c : Dev nD) (t : Fin cfg2.N) (n : Fin 2048) (k : Fin 512) :
    (iblk2 V c 0 t : FVec Ideal S1x2048x512 .bf16) (ix3 (0 : Fin 1) n k)
      = (V c main_v44 : (Cert.Spec.Sh3 16 2048 512).Idx → EReal) (ix3 (row2 t) n k) := by
  obtain ⟨e0, e1, e2, -⟩ := idxFacts2 t
  unfold iblk2
  rw [View.read_apply]
  show V c main_v44 _ = V c main_v44 _
  congr 1
  funext a
  apply Fin.ext
  match a with
  | ⟨0, _⟩ => show win2_0.index t (0 : Fin 3) * 1 + 1 * 0 = t.val; omega
  | ⟨1, _⟩ => show win2_0.index t (1 : Fin 3) * 2048 + 1 * n.val = n.val; omega
  | ⟨2, _⟩ => show win2_0.index t (2 : Fin 3) * 512 + 1 * k.val = k.val; omega

/-- The weights' block at every point is the whole matrix. -/
theorem w_at2 (c : Dev nD) (t : Fin cfg2.N) (k : Fin 512) (f : Fin 512) :
    (iblk2 V c 1 t : FVec Ideal S512x512 .f32) (ix2 k f)
      = (V c main_arg4 : (Cert.Spec.Sh2 512 512).Idx → EReal) (ix2 k f) := by
  obtain ⟨-, -, -, e0, e1, -⟩ := idxFacts2 t
  unfold iblk2
  rw [View.read_apply]
  show V c main_arg4 _ = V c main_arg4 _
  congr 1
  funext a
  apply Fin.ext
  match a with
  | ⟨0, _⟩ => show win2_1.index t (0 : Fin 2) * 512 + 1 * k.val = k.val; omega
  | ⟨1, _⟩ => show win2_1.index t (1 : Fin 2) * 512 + 1 * f.val = f.val; omega

/-- The feature transform of the region-entry activations and weights, as an array. -/
abbrev feat_at2 (c : Dev nD) : (Cert.Spec.Sh3 16 2048 512).Idx → EReal :=
  Cert.Spec.arr3 (Cert.Spec.feat (V c main_v44 : (Cert.Spec.Sh3 16 2048 512).Idx → EReal) (V c main_arg4 : (Cert.Spec.Sh2 512 512).Idx → EReal))

/-- What point `t` writes back is batch row `t` of the feature transform. -/
theorem flushed2_eq (c : Dev nD) (t : Fin cfg2.N) :
    (dat2 (F := Ideal) V c).flushed 2 t = ((cfg2.win 2).blk t).view.read (Elt Ideal) (feat_at2 V c) := by
  show (cfg2.win 2).cut (grid2.coords t) ((dat2 V c).after 2 t) = _
  rw [after2_2]
  unfold out2_2
  rw [View.canon_unit_zero hz2_3]
  simp only [View.ld_unit_zero (S := S1x2048x512) hz2_3, View.ld_unit_zero (S := S512x512) hz2_2]
  obtain ⟨-, -, -, -, -, e0, e1, e2⟩ := idxFacts2 t
  have key : ∀ j : S1x2048x512.Idx, k2_pay1 (F := Ideal) (iblk2 V c 0 t : FVec Ideal S1x2048x512 .bf16) (iblk2 V c 1 t : FVec Ideal S512x512 .f32) j
      = feat_at2 V c (((cfg2.win 2).blk t).view.emb j) := by
    intro j
    obtain ⟨a, n, f, rfl⟩ : ∃ (a : Fin 1) (n : Fin 2048) (f : Fin 512), j = ix3 a n f := ⟨j 0, j 1, j 2, eq_ix3 j⟩
    obtain rfl : a = 0 := Subsingleton.elim _ _
    have hemb : ((cfg2.win 2).blk t).view.emb (ix3 (0 : Fin 1) n f) = (ix3 (row2 t) n f : (Cert.Spec.Sh3 16 2048 512).Idx) := by
      funext a
      apply Fin.ext
      match a with
      | ⟨0, _⟩ => show win2_2.index t (0 : Fin 3) * 1 + 1 * 0 = t.val; omega
      | ⟨1, _⟩ => show win2_2.index t (1 : Fin 3) * 2048 + 1 * n.val = n.val; omega
      | ⟨2, _⟩ => show win2_2.index t (2 : Fin 3) * 512 + 1 * f.val = f.val; omega
    rw [hemb]
    refine (pay2_apply _ _ n f).trans ?_
    show _ = Cert.Spec.feat _ _ (row2 t) n f
    unfold Cert.Spec.feat
    exact Finset.sum_congr rfl fun k _ => by rw [x_at2 V c t n k, w_at2 V c t k f]
  exact funext key

/-- An index of the output array is in point `t`'s block iff each coordinate is in the block's range on its axis. -/
theorem mem_blk2 (t : Fin cfg2.N) (i : S16x2048x512.Idx) :
    i ∈ ((cfg2.win 2).blk t).view.set ↔ ∀ a : Fin 3, win2_2.index t a * S1x2048x512.size a ≤ (i a).val ∧ (i a).val < win2_2.index t a * S1x2048x512.size a + S1x2048x512.size a := by
  show i ∈ ((View.whole main_v45).slice (win2_2.rect t)).set ↔ _
  rw [View.set_slice_whole, Rect.mem_set_unit]
  exact Iff.rfl

/-- Every index of the output array is in the block of the point its batch coordinate names. -/
theorem covered2 (i : S16x2048x512.Idx) : ∃ t : Fin cfg2.N, (cfg2.win 2).flush t = true ∧ i ∈ ((cfg2.win 2).blk t).view.set := by
  have h0 : (i 0).val < 16 := (i 0).isLt
  have h1 : (i 1).val < 2048 := (i 1).isLt
  have h2 : (i 2).val < 512 := (i 2).isLt
  obtain ⟨t, ht⟩ : ∃ t : Fin cfg2.N, t.val = (i 0).val := ⟨⟨(i 0).val, by rw [show cfg2.N = 16 from N_2]; exact h0⟩, rfl⟩
  refine ⟨t, flush2_2 t, ?_⟩
  obtain ⟨-, -, -, -, -, e0, e1, e2⟩ := idxFacts2 t
  rw [mem_blk2]
  intro a
  match a with
  | ⟨0, _⟩ => show win2_2.index t (0 : Fin 3) * 1 ≤ (i 0).val ∧ (i 0).val < win2_2.index t (0 : Fin 3) * 1 + 1; omega
  | ⟨1, _⟩ => show win2_2.index t (1 : Fin 3) * 2048 ≤ (i 1).val ∧ (i 1).val < win2_2.index t (1 : Fin 3) * 2048 + 2048; omega
  | ⟨2, _⟩ => show win2_2.index t (2 : Fin 3) * 512 ≤ (i 2).val ∧ (i 2).val < win2_2.index t (2 : Fin 3) * 512 + 512; omega

end

/-- THE OUTPUT ARRAY after the region: the feature transform of the region-entry activations and weights. -/
theorem arr2_eq (V : (c : Dev nD) → (b : Ref sig .tc) → Buf (Elt Ideal) ((c : Thread nD τ).loc b)) (c : Dev nD) :
    (dat2 (F := Ideal) V c).arrAt 2 cfg2.N = Cert.Spec.arr3 (Cert.Spec.feat (V c main_v44 : (Cert.Spec.Sh3 16 2048 512).Idx → EReal) (V c main_arg4 : (Cert.Spec.Sh2 512 512).Idx → EReal)) :=
  (dat2 (F := Ideal) V c).arrAt_eq_of_cover 2 (feat_at2 V c) (fun t _ => flushed2_eq V c t) (covered2)

end Cert.KernelIdeal.Hand

end
-- ==== Proof.KI.V3.lean ====
/-
  Aggregation layer, pipeline 3, read as a value over the extended reals. The stored value at entry (n, f) of a block is
  leaky (∑ₘ A[n, m] · h1[m, f] + h1[n, f] · invdeg[n] + bias[f]): the matrix product accumulated into zero is the sum over its one
  contracted axis, the inverse-degree column and the bias row are laid along the block, and the conversions between the
  two float formats are the identity on extended reals; the comparison with zero and the selection are the rectifier's two cases. The block of grid point `t` is batch row `t` of the features and
  of the output, while the adjacency, the bias and the inverse degrees are whole at every point; so point `t` writes
  back batch row `t` of the rectified dense aggregation, the sixteen rows cover the output array, and the array ends at the rectified dense
  aggregation of the arrays found at entry.
-/
import proofs.«421025_j30305289241172_1_alg».proof.Proof.Gen.KernelIdeal.Launch
import proofs.«421025_j30305289241172_1_alg».proof.Proof.Gen.KernelIdeal.Skeleton
import proofs.«421025_j30305289241172_1_alg».proof.Proof.Gen.KernelIdeal.Points
import proofs.«421025_j30305289241172_1_alg».proof.Proof.KI.R3
import proofs.«421025_j30305289241172_1_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window BodyObligation cellOf)
open scoped BigOperators

/-! ## The matrix product's operand indices, axis by axis -/

theorem agg3_lhs_0 (i : S2048x512.Idx) (q : dot_S2048x2048_S2048x512_S2048x512_1_0_0_1_n_n.contr.Idx) :
    (dot_S2048x2048_S2048x512_S2048x512_1_0_0_1_n_n.lhsIdx i q 0).val = (i 0).val := by
  unfold DotDims.lhsIdx
  rw [dif_neg (show ¬(0 : Fin S2048x2048.rank) ∈ dot_S2048x2048_S2048x512_S2048x512_1_0_0_1_n_n.lhsBatch by decide),
    dif_pos (show (0 : Fin S2048x2048.rank) ∈ dot_S2048x2048_S2048x512_S2048x512_1_0_0_1_n_n.lhsNonContracting by decide)]
  rfl
theorem agg3_lhs_1 (i : S2048x512.Idx) (q : dot_S2048x2048_S2048x512_S2048x512_1_0_0_1_n_n.contr.Idx) :
    (dot_S2048x2048_S2048x512_S2048x512_1_0_0_1_n_n.lhsIdx i q 1).val = (q ⟨0, by decide⟩).val :=
  dot_S2048x2048_S2048x512_S2048x512_1_0_0_1_n_n.lhsIdx_val_of_single rfl i q
theorem agg3_rhs_0 (i : S2048x512.Idx) (q : dot_S2048x2048_S2048x512_S2048x512_1_0_0_1_n_n.contr.Idx) :
    (dot_S2048x2048_S2048x512_S2048x512_1_0_0_1_n_n.rhsIdx i q 0).val = (q ⟨0, by decide⟩).val :=
  dot_S2048x2048_S2048x512_S2048x512_1_0_0_1_n_n.rhsIdx_val_of_single rfl i q
theorem agg3_rhs_1 (i : S2048x512.Idx) (q : dot_S2048x2048_S2048x512_S2048x512_1_0_0_1_n_n.contr.Idx) :
    (dot_S2048x2048_S2048x512_S2048x512_1_0_0_1_n_n.rhsIdx i q 1).val = (i 1).val := by
  unfold DotDims.rhsIdx
  rw [dif_neg (show ¬(1 : Fin S2048x512.rank) ∈ dot_S2048x2048_S2048x512_S2048x512_1_0_0_1_n_n.rhsBatch by decide),
    dif_pos (show (1 : Fin S2048x512.rank) ∈ dot_S2048x2048_S2048x512_S2048x512_1_0_0_1_n_n.rhsNonContracting by decide)]
  rfl

/-- The product accumulated into zero, at entry (n, f): the sum over the contracted axis. -/
theorem agg3_matmul_apply (a : FVec Ideal S2048x2048 .bf16) (h : FVec Ideal S2048x512 .bf16) (n : Fin 2048) (f : Fin 512) :
    matmul dot_S2048x2048_S2048x512_S2048x512_1_0_0_1_n_n none a h (constant (F := Ideal) S2048x512 .f32 0x00000000#32) (ix2 n f)
      = ∑ m : Fin 2048, a (ix2 n m) * h (ix2 m f) := by
  simp only [matmul]
  rw [Ideal.matmul_constant_zero_apply, ← Equiv.sum_comp (contrEquiv1 dot_S2048x2048_S2048x512_S2048x512_1_0_0_1_n_n 2048 rfl rfl).symm]
  refine Finset.sum_congr rfl fun k _ => ?_
  have hk := contrEquiv1_symm_val dot_S2048x2048_S2048x512_S2048x512_1_0_0_1_n_n 2048 rfl rfl k
  have el : dot_S2048x2048_S2048x512_S2048x512_1_0_0_1_n_n.lhsIdx (ix2 n f) ((contrEquiv1 dot_S2048x2048_S2048x512_S2048x512_1_0_0_1_n_n 2048 rfl rfl).symm k) = ix2 n k :=
    funext fun a => Fin.ext (by
      match a with
      | ⟨0, _⟩ => exact agg3_lhs_0 _ _
      | ⟨1, _⟩ => exact (agg3_lhs_1 _ _).trans hk)
  have er : dot_S2048x2048_S2048x512_S2048x512_1_0_0_1_n_n.rhsIdx (ix2 n f) ((contrEquiv1 dot_S2048x2048_S2048x512_S2048x512_1_0_0_1_n_n 2048 rfl rfl).symm k) = ix2 k f :=
    funext fun a => Fin.ext (by
      match a with
      | ⟨0, _⟩ => exact (agg3_rhs_0 _ _).trans hk
      | ⟨1, _⟩ => exact agg3_rhs_1 _ _)
  rw [el, er]

/-- A column laid along every column of the block: entry (n, f) is the column's entry n. -/
theorem agg3_col_apply (v : FVec Ideal S2048x1 .f32) (n : Fin 2048) (f : Fin 512) :
    broadcastTo S2048x512 v broadcasts_S2048x1_S2048x512 (ix2 n f) = v (ix2 n (0 : Fin 1)) := by
  refine broadcastTo_apply v broadcasts_S2048x1_S2048x512 (ix2 n f) (ix2 n (0 : Fin 1)) fun ax => ?_
  match ax with
  | ⟨0, _⟩ => rfl
  | ⟨1, _⟩ => rfl

/-- The rectifier as the body computes it — keep `y` where `0 ≤ y`, else the slope times `y` — is the network's leaky
    rectifier. -/
theorem agg3_leaky (y : EReal) :
    Scalar.select (FloatOps.cmpf (F := Ideal) (φ := .f32) .oge y (Scalar.ofBits (F := Ideal) .f32 0x00000000#32)) y
        ((Scalar.ofBits (F := Ideal) .f32 0x3C23D70A#32 : EReal) * y) = Cert.Spec.leaky y := by
  unfold Cert.Spec.leaky Scalar.select
  show (if Ideal.cmp .oge y (Ideal.ofBits .f32 0x00000000#32) = 1#1 then y else Ideal.ofBits .f32 0x3C23D70A#32 * y) = _
  rw [Ideal.ofBits_zero_f32]
  unfold Ideal.cmp
  by_cases h : (0 : EReal) ≤ y
  · rw [if_pos h]; simp [h]
  · rw [if_neg h]; simp [h]

/-- The stored value at entry (u, n, f) of the block. -/
theorem agg3_pay_apply (x0 : Vec Ideal S1x2048x512 .bf16) (x1 : Vec Ideal S2048x2048 .bf16) (x3 : Vec Ideal S2048x1 .f32) (x2 : Vec Ideal S1x512 .f32)
    (u : Fin 1) (n : Fin 2048) (f : Fin 512) :
    (k3_pay1 x0 x1 x3 x2 (ix3 u n f) : EReal)
      = Cert.Spec.leaky (((∑ m : Fin 2048, (x1 (ix2 n m) : EReal) * x0 (ix3 (0 : Fin 1) m f)) + (x0 (ix3 (0 : Fin 1) n f) : EReal) * x3 (ix2 n (0 : Fin 1))) + x2 (ix2 (0 : Fin 1) f)) := by
  unfold k3_pay1
  refine (shapeCast_ab_1ab_apply _ shapeCasts_S2048x512_S1x2048x512 u n f).trans ?_
  show Scalar.select (FloatOps.cmpf (F := Ideal) (φ := .f32) .oge (_ : EReal) (Scalar.ofBits (F := Ideal) .f32 0x00000000#32)) (_ : EReal)
      ((Scalar.ofBits (F := Ideal) .f32 0x3C23D70A#32 : EReal) * (_ : EReal)) = _
  refine (agg3_leaky _).trans ?_
  congr 1
  show ((matmul (F := Ideal) dot_S2048x2048_S2048x512_S2048x512_1_0_0_1_n_n none _ _ _ (ix2 n f) : EReal) + (_ : EReal) * (_ : EReal)) + (_ : EReal) = _
  rw [agg3_matmul_apply, agg3_col_apply, broadcastTo_1b_ab_apply]
  simp only [shapeCast_self]
  congr 1
  congr 1
  · refine Finset.sum_congr rfl fun m _ => ?_
    congr 1
    exact shapeCast_1ab_ab_apply x0 shapeCasts_S1x2048x512_S2048x512 m f
  · congr 1
    exact shapeCast_1ab_ab_apply x0 shapeCasts_S1x2048x512_S2048x512 n f

/-- The stored value at entry (u, n, f), when the four blocks are: batch row `b` of the features `H`, the adjacency `A`,
    the inverse degrees `D` and the bias `B` — entry (b, n, f) of the layer's rectified dense aggregation of `H`, `A`, `B`, `D`. -/
theorem agg3_point (H : S16x2048x512.Idx → EReal) (A : S2048x2048.Idx → EReal) (B : S1x512.Idx → EReal) (D : S2048x1.Idx → EReal)
    (x0 : Vec Ideal S1x2048x512 .bf16) (x1 : Vec Ideal S2048x2048 .bf16) (x3 : Vec Ideal S2048x1 .f32) (x2 : Vec Ideal S1x512 .f32)
    (b : Fin 16) (u : Fin 1) (n : Fin 2048) (f : Fin 512)
    (h0 : ∀ (m : Fin 2048) (f : Fin 512), x0 (ix3 (0 : Fin 1) m f) = H (ix3 b m f))
    (h1 : ∀ n m : Fin 2048, x1 (ix2 n m) = A (ix2 n m))
    (h3 : ∀ n : Fin 2048, x3 (ix2 n (0 : Fin 1)) = D (ix2 n (0 : Fin 1)))
    (h2 : ∀ f : Fin 512, x2 (ix2 (0 : Fin 1) f) = B (ix2 (0 : Fin 1) f)) :
    k3_pay1 x0 x1 x3 x2 (ix3 u n f) = Cert.Spec.arr3 (Cert.Spec.agg true H A B D) (ix3 b n f) := by
  rw [agg3_pay_apply, Cert.Spec.arr3_ix3]
  show _ = Cert.Spec.leaky (((∑ m : Fin 2048, A (ix2 n m) * H (ix3 b m f)) + H (ix3 b n f) * D (ix2 n (0 : Fin 1))) + B (ix2 (0 : Fin 1) f))
  rw [h0 n f, h3 n, h2 f]
  congr 3
  refine Finset.sum_congr rfl fun m _ => ?_
  rw [h1 n m, h0 m f]

/-! ## From blocks to the array -/

section Value3
variable (V : (c : Dev nD) → (b : Ref sig .tc) → Buf (Elt Ideal) ((c : Thread nD τ).loc b))

theorem agg3_hz3 : (![0, 0, 0] : Fin 3 → Nat) = fun _ => 0 := funext fun a => by fin_cases a <;> rfl
theorem agg3_hz2 : (![0, 0] : Fin 2 → Nat) = fun _ => 0 := funext fun a => by fin_cases a <;> rfl

/-- The index maps over the grid: the features' and the output's block at point `t` is batch row `t`, whole on the
    other two axes; the adjacency, the bias and the inverse degrees are taken whole at every point. -/
theorem agg3_idx : ∀ t : Fin cfg3.N,
    win3_0.index t (0 : Fin 3) = t.val ∧ win3_0.index t (1 : Fin 3) = 0 ∧ win3_0.index t (2 : Fin 3) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 3) = t.val ∧ win3_4.index t (1 : Fin 3) = 0 ∧ win3_4.index t (2 : Fin 3) = 0 :=
  (by decide +kernel : ∀ t : Fin grid3.N, _)

/-- The batch row of grid point `t`. -/
abbrev agg3_row (t : Fin cfg3.N) : Fin 16 := ⟨t.val, by have h := t.isLt; have e : cfg3.N = 16 := N_3; omega⟩

/-- The features' block at point `t` is batch row `t` of the features. -/
theorem agg3_h_apply (c : Dev nD) (t : Fin cfg3.N) (u : Fin 1) (n : Fin 2048) (f : Fin 512) :
    (iblk3 V c 0 t : Vec Ideal S1x2048x512 .bf16) (ix3 u n f) = (V c main_v45 : S16x2048x512.Idx → EReal) (ix3 (agg3_row t) n f) := by
  obtain ⟨e0, e1, e2, -⟩ := agg3_idx t
  unfold iblk3
  rw [View.read_apply]
  show V c main_v45 _ = V c main_v45 _
  congr 1
  funext a
  apply Fin.ext
  match a with
  | ⟨0, _⟩ => show win3_0.index t (0 : Fin 3) * 1 + 1 * u.val = t.val; rw [e0]; omega
  | ⟨1, _⟩ => show win3_0.index t (1 : Fin 3) * 2048 + 1 * n.val = n.val; rw [e1]; omega
  | ⟨2, _⟩ => show win3_0.index t (2 : Fin 3) * 512 + 1 * f.val = f.val; rw [e2]; omega

/-- The adjacency's block at every point is the adjacency. -/
theorem agg3_a_apply (c : Dev nD) (t : Fin cfg3.N) (n m : Fin 2048) :
    (iblk3 V c 1 t : Vec Ideal S2048x2048 .bf16) (ix2 n m) = (V c main_v40 : S2048x2048.Idx → EReal) (ix2 n m) := by
  obtain ⟨-, -, -, e0, e1, -⟩ := agg3_idx t
  unfold iblk3
  rw [View.read_apply]
  show V c main_v40 _ = V c main_v40 _
  congr 1
  funext a
  apply Fin.ext
  match a with
  | ⟨0, _⟩ => show win3_1.index t (0 : Fin 2) * 2048 + 1 * n.val = n.val; rw [e0]; omega
  | ⟨1, _⟩ => show win3_1.index t (1 : Fin 2) * 2048 + 1 * m.val = m.val; rw [e1]; omega

/-- The bias row's block at every point is the bias row. -/
theorem agg3_b_apply (c : Dev nD) (t : Fin cfg3.N) (u : Fin 1) (f : Fin 512) :
    (iblk3 V c 2 t : Vec Ideal S1x512 .f32) (ix2 u f) = (V c main_v46 : S1x512.Idx → EReal) (ix2 u f) := by
  obtain ⟨-, -, -, -, -, e0, e1, -⟩ := agg3_idx t
  unfold iblk3
  rw [View.read_apply]
  show V c main_v46 _ = V c main_v46 _
  congr 1
  funext a
  apply Fin.ext
  match a with
  | ⟨0, _⟩ => show win3_2.index t (0 : Fin 2) * 1 + 1 * u.val = u.val; rw [e0]; omega
  | ⟨1, _⟩ => show win3_2.index t (1 : Fin 2) * 512 + 1 * f.val = f.val; rw [e1]; omega

/-- The inverse-degree column's block at every point is the column. -/
theorem agg3_d_apply (c : Dev nD) (t : Fin cfg3.N) (n : Fin 2048) (u : Fin 1) :
    (iblk3 V c 3 t : Vec Ideal S2048x1 .f32) (ix2 n u) = (V c main_v47 : S2048x1.Idx → EReal) (ix2 n u) := by
  obtain ⟨-, -, -, -, -, -, -, e0, e1, -⟩ := agg3_idx t
  unfold iblk3
  rw [View.read_apply]
  show V c main_v47 _ = V c main_v47 _
  congr 1
  funext a
  apply Fin.ext
  match a with
  | ⟨0, _⟩ => show win3_3.index t (0 : Fin 2) * 2048 + 1 * n.val = n.val; rw [e0]; omega
  | ⟨1, _⟩ => show win3_3.index t (1 : Fin 2) * 1 + 1 * u.val = u.val; rw [e1]; omega

/-- What point `t` writes back is batch row `t` of the layer's dense aggregation of the arrays found at entry. -/
theorem agg3_flushed (c : Dev nD) (t : Fin cfg3.N) :
    (dat3 (F := Ideal) V c).flushed 4 t = ((cfg3.win 4).blk t).view.read (Elt Ideal)
      (Cert.Spec.arr3 (Cert.Spec.agg true (V c main_v45) (V c main_v40) (V c main_v46) (V c main_v47))) := by
  show (cfg3.win 4).cut (grid3.coords t) ((dat3 V c).after 4 t) = _
  rw [after3_4]
  unfold out3_4
  rw [View.canon_unit_zero agg3_hz3]
  simp only [View.ld_unit_zero (S := S1x2048x512) agg3_hz3, View.ld_unit_zero (S := S2048x2048) agg3_hz2,
    View.ld_unit_zero (S := S1x512) agg3_hz2, View.ld_unit_zero (S := S2048x1) agg3_hz2]
  funext j
  obtain ⟨u, n, f, rfl⟩ : ∃ (u : Fin 1) (n : Fin 2048) (f : Fin 512), j = ix3 u n f := ⟨j 0, j 1, j 2, eq_ix3 j⟩
  obtain ⟨-, -, -, -, -, -, -, -, -, e0, e1, e2⟩ := agg3_idx t
  have hemb : ((View.whole main_v48).slice ((win3 4).rect t)).emb (ix3 u n f) = ix3 (agg3_row t) n f := by
    funext a
    apply Fin.ext
    match a with
    | ⟨0, _⟩ => show win3_4.index t (0 : Fin 3) * 1 + 1 * u.val = t.val; rw [e0]; omega
    | ⟨1, _⟩ => show win3_4.index t (1 : Fin 3) * 2048 + 1 * n.val = n.val; rw [e1]; omega
    | ⟨2, _⟩ => show win3_4.index t (2 : Fin 3) * 512 + 1 * f.val = f.val; rw [e2]; omega
  show k3_pay1 (iblk3 V c 0 t) (iblk3 V c 1 t) (iblk3 V c 3 t) (iblk3 V c 2 t) (ix3 u n f) = _
  rw [View.read_apply]
  show _ = Cert.Spec.arr3 (Cert.Spec.agg true (V c main_v45) (V c main_v40) (V c main_v46) (V c main_v47))
    (((View.whole main_v48).slice ((win3 4).rect t)).emb (ix3 u n f))
  rw [hemb]
  exact agg3_point (V c main_v45) (V c main_v40) (V c main_v46) (V c main_v47)
    (iblk3 V c 0 t) (iblk3 V c 1 t) (iblk3 V c 3 t) (iblk3 V c 2 t) (agg3_row t) u n f
    (fun m f => agg3_h_apply V c t 0 m f) (fun n m => agg3_a_apply V c t n m)
    (fun n => agg3_d_apply V c t n 0) (fun f => agg3_b_apply V c t 0 f)

/-- An index of the output array lies in point `t`'s block iff each coordinate lies in the block's range on its axis. -/
theorem agg3_mem_blk (t : Fin cfg3.N) (i : S16x2048x512.Idx) :
    i ∈ ((cfg3.win 4).blk t).view.set ↔ ∀ a : Fin 3, win3_4.index t a * S1x2048x512.size a ≤ (i a).val
      ∧ (i a).val < win3_4.index t a * S1x2048x512.size a + S1x2048x512.size a := by
  show i ∈ ((View.whole main_v48).slice (win3_4.rect t)).set ↔ _
  rw [View.set_slice_whole, Rect.mem_set_unit]
  exact Iff.rfl

/-- The output array after the region: every batch row `b` is written by point `b`, so the array ends at the layer's
    dense aggregation of the arrays found at entry. -/
theorem arr3_eq (c : Dev nD) :
    (dat3 (F := Ideal) V c).arrAt 4 cfg3.N
      = Cert.Spec.arr3 (Cert.Spec.agg true (V c main_v45) (V c main_v40) (V c main_v46) (V c main_v47)) :=
  (dat3 (F := Ideal) V c).arrAt_eq_of_cover 4 _ (fun t _ => agg3_flushed V c t) fun i => by
    have h0 : (i 0).val < 16 := (i 0).isLt
    have h1 : (i 1).val < 2048 := (i 1).isLt
    have h2 : (i 2).val < 512 := (i 2).isLt
    have hN : cfg3.N = 16 := N_3
    obtain ⟨t, ht⟩ : ∃ t : Fin cfg3.N, t.val = (i 0).val := ⟨⟨(i 0).val, by omega⟩, rfl⟩
    refine ⟨t, flush3_4 t, ?_⟩
    rw [agg3_mem_blk]
    obtain ⟨-, -, -, -, -, -, -, -, -, e0, e1, e2⟩ := agg3_idx t
    intro a
    match a with
    | ⟨0, _⟩ =>
      show win3_4.index t (0 : Fin 3) * 1 ≤ (i 0).val ∧ (i 0).val < win3_4.index t (0 : Fin 3) * 1 + 1
      rw [e0]; omega
    | ⟨1, _⟩ =>
      show win3_4.index t (1 : Fin 3) * 2048 ≤ (i 1).val ∧ (i 1).val < win3_4.index t (1 : Fin 3) * 2048 + 2048
      rw [e1]; omega
    | ⟨2, _⟩ =>
      show win3_4.index t (2 : Fin 3) * 512 ≤ (i 2).val ∧ (i 2).val < win3_4.index t (2 : Fin 3) * 512 + 512
      rw [e2]; omega

end Value3

end Cert.KernelIdeal.Hand

end
-- ==== Proof.KI.V4.lean ====
/-
  The value of region 4 at the extended reals. The output row block the body leaves at grid point `t` is, entry by
  entry, the sum over the input channels of the activations' entry times the weights' entry: the shape casts only drop
  and restore the unit batch axis, the roundings are the identity on extended reals, and the product into a zero
  accumulator is the plain sum over the one contracted axis. Point `t`'s blocks are batch row `t` of the activations
  and of the output and the whole weight matrix, so the sixteen write-backs tile the output array, which ends holding
  the feature transform of the region-entry activations and weights.
-/
import proofs.«421025_j30305289241172_1_alg».proof.Proof.KI.R4
import proofs.«421025_j30305289241172_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## The product's dimension numbers, axis by axis -/

theorem lhs4_0 (j : S2048x256.Idx) (k : dot_S2048x512_S512x256_S2048x256_1_0_0_1_n_n.contr.Idx) :
    (dot_S2048x512_S512x256_S2048x256_1_0_0_1_n_n.lhsIdx j k 0).val = (j 0).val := rfl
theorem lhs4_1 (j : S2048x256.Idx) (k : dot_S2048x512_S512x256_S2048x256_1_0_0_1_n_n.contr.Idx) :
    (dot_S2048x512_S512x256_S2048x256_1_0_0_1_n_n.lhsIdx j k 1).val = (k ⟨0, by decide⟩).val := rfl
theorem rhs4_0 (j : S2048x256.Idx) (k : dot_S2048x512_S512x256_S2048x256_1_0_0_1_n_n.contr.Idx) :
    (dot_S2048x512_S512x256_S2048x256_1_0_0_1_n_n.rhsIdx j k 0).val = (k ⟨0, by decide⟩).val := rfl
theorem rhs4_1 (j : S2048x256.Idx) (k : dot_S2048x512_S512x256_S2048x256_1_0_0_1_n_n.contr.Idx) :
    (dot_S2048x512_S512x256_S2048x256_1_0_0_1_n_n.rhsIdx j k 1).val = (j 1).val := rfl

/-- The body's payload at an output index: the row of the activations against the column of the weights. -/
theorem pay4_apply (x0 : FVec Ideal S1x2048x512 .bf16) (x1 : FVec Ideal S512x256 .f32) (n : Fin 2048) (f : Fin 256) :
    k4_pay1 (F := Ideal) x0 x1 (ix3 (0 : Fin 1) n f) = ∑ k : Fin 512, (x0 (ix3 (0 : Fin 1) n k) : EReal) * (x1 (ix2 k f) : EReal) := by
  unfold k4_pay1
  refine (shapeCast_addUnit_apply ![2048, 256] _ _ _).trans ?_
  refine (truncf_apply (φ := .f32) (ψ := .bf16) _ bitsLt_bf16_f32 _).trans ?_
  refine (Ideal.matmul_constant_zero_apply dot_S2048x512_S512x256_S2048x256_1_0_0_1_n_n none _ _ _).trans ?_
  rw [← Equiv.sum_comp (contrEquiv1 dot_S2048x512_S512x256_S2048x256_1_0_0_1_n_n 512 rfl rfl).symm]
  refine Finset.sum_congr rfl fun i _ => ?_
  congr 1
  · show shapeCast S2048x512 x0 shapeCasts_S1x2048x512_S2048x512 _ = _
    refine (shapeCast_dropUnit_apply ![2048, 512] x0 _ _).trans (congrArg x0 (funext fun a => Fin.ext ?_))
    match a with
    | ⟨0, _⟩ => rfl
    | ⟨1, _⟩ => exact lhs4_0 (fun a => ix3 (0 : Fin 1) n f a.succ) ((contrEquiv1 dot_S2048x512_S512x256_S2048x256_1_0_0_1_n_n 512 rfl rfl).symm i)
    | ⟨2, _⟩ => exact (lhs4_1 (fun a => ix3 (0 : Fin 1) n f a.succ) ((contrEquiv1 dot_S2048x512_S512x256_S2048x256_1_0_0_1_n_n 512 rfl rfl).symm i)).trans (contrEquiv1_symm_val _ 512 rfl rfl i)
  · refine (truncf_apply (φ := .f32) (ψ := .bf16) x1 bitsLt_bf16_f32 _).trans (congrArg x1 (funext fun a => Fin.ext ?_))
    match a with
    | ⟨0, _⟩ => exact (rhs4_0 (fun a => ix3 (0 : Fin 1) n f a.succ) ((contrEquiv1 dot_S2048x512_S512x256_S2048x256_1_0_0_1_n_n 512 rfl rfl).symm i)).trans (contrEquiv1_symm_val _ 512 rfl rfl i)
    | ⟨1, _⟩ => exact rhs4_1 (fun a => ix3 (0 : Fin 1) n f a.succ) ((contrEquiv1 dot_S2048x512_S512x256_S2048x256_1_0_0_1_n_n 512 rfl rfl).symm i)

/-! ## The blocks at a point -/

theorem hz4_3 : (![0, 0, 0] : Fin 3 → Nat) = fun _ => 0 := funext fun a => by fin_cases a <;> rfl
theorem hz4_2 : (![0, 0] : Fin 2 → Nat) = fun _ => 0 := funext fun a => by fin_cases a <;> rfl

/-- The windows' index maps, decided once over the grid: the activations' and the output's block index is the point
    on the batch axis and zero elsewhere; the weights' is zero. -/
theorem idxFacts4 : ∀ t : Fin cfg4.N,
    win4_0.index t (0 : Fin 3) = t.val ∧ win4_0.index t (1 : Fin 3) = 0 ∧ win4_0.index t (2 : Fin 3) = 0
    ∧ win4_1.index t (0 : Fin 2) = 0 ∧ win4_1.index t (1 : Fin 2) = 0
    ∧ win4_2.index t (0 : Fin 3) = t.val ∧ win4_2.index t (1 : Fin 3) = 0 ∧ win4_2.index t (2 : Fin 3) = 0 :=
  (by decide +kernel : ∀ t : Fin grid4.N, _)

/-- A grid point as a batch row. -/
abbrev row4 (t : Fin cfg4.N) : Fin 16 := ⟨t.val, Nat.lt_of_lt_of_eq t.isLt (show cfg4.N = 16 from N_4)⟩

section
variable (V : (c : Dev nD) → (b : Ref sig .tc) → Buf (Elt Ideal) ((c : Thread nD τ).loc b))

/-- The activations' block at point `t` is batch row `t` of the array. -/
theorem x_at4 (c : Dev nD) (t : Fin cfg4.N) (n : Fin 2048) (k : Fin 512) :
    (iblk4 V c 0 t : FVec Ideal S1x2048x512 .bf16) (ix3 (0 : Fin 1) n k)
      = (V c main_v48 : (Cert.Spec.Sh3 16 2048 512).Idx → EReal) (ix3 (row4 t) n k) := by
  obtain ⟨e0, e1, e2, -⟩ := idxFacts4 t
  unfold iblk4
  rw [View.read_apply]
  show V c main_v48 _ = V c main_v48 _
  congr 1
  funext a
  apply Fin.ext
  match a with
  | ⟨0, _⟩ => show win4_0.index t (0 : Fin 3) * 1 + 1 * 0 = t.val; omega
  | ⟨1, _⟩ => show win4_0.index t (1 : Fin 3) * 2048 + 1 * n.val = n.val; omega
  | ⟨2, _⟩ => show win4_0.index t (2 : Fin 3) * 512 + 1 * k.val = k.val; omega

/-- The weights' block at every point is the whole matrix. -/
theorem w_at4 (c : Dev nD) (t : Fin cfg4.N) (k : Fin 512) (f : Fin 256) :
    (iblk4 V c 1 t : FVec Ideal S512x256 .f32) (ix2 k f)
      = (V c main_arg6 : (Cert.Spec.Sh2 512 256).Idx → EReal) (ix2 k f) := by
  obtain ⟨-, -, -, e0, e1, -⟩ := idxFacts4 t
  unfold iblk4
  rw [View.read_apply]
  show V c main_arg6 _ = V c main_arg6 _
  congr 1
  funext a
  apply Fin.ext
  match a with
  | ⟨0, _⟩ => show win4_1.index t (0 : Fin 2) * 512 + 1 * k.val = k.val; omega
  | ⟨1, _⟩ => show win4_1.index t (1 : Fin 2) * 256 + 1 * f.val = f.val; omega

/-- The feature transform of the region-entry activations and weights, as an array. -/
abbrev feat_at4 (c : Dev nD) : (Cert.Spec.Sh3 16 2048 256).Idx → EReal :=
  Cert.Spec.arr3 (Cert.Spec.feat (V c main_v48 : (Cert.Spec.Sh3 16 2048 512).Idx → EReal) (V c main_arg6 : (Cert.Spec.Sh2 512 256).Idx → EReal))

/-- What point `t` writes back is batch row `t` of the feature transform. -/
theorem flushed4_eq (c : Dev nD) (t : Fin cfg4.N) :
    (dat4 (F := Ideal) V c).flushed 2 t = ((cfg4.win 2).blk t).view.read (Elt Ideal) (feat_at4 V c) := by
  show (cfg4.win 2).cut (grid4.coords t) ((dat4 V c).after 2 t) = _
  rw [after4_2]
  unfold out4_2
  rw [View.canon_unit_zero hz4_3]
  simp only [View.ld_unit_zero (S := S1x2048x512) hz4_3, View.ld_unit_zero (S := S512x256) hz4_2]
  obtain ⟨-, -, -, -, -, e0, e1, e2⟩ := idxFacts4 t
  have key : ∀ j : S1x2048x256.Idx, k4_pay1 (F := Ideal) (iblk4 V c 0 t : FVec Ideal S1x2048x512 .bf16) (iblk4 V c 1 t : FVec Ideal S512x256 .f32) j
      = feat_at4 V c (((cfg4.win 2).blk t).view.emb j) := by
    intro j
    obtain ⟨a, n, f, rfl⟩ : ∃ (a : Fin 1) (n : Fin 2048) (f : Fin 256), j = ix3 a n f := ⟨j 0, j 1, j 2, eq_ix3 j⟩
    obtain rfl : a = 0 := Subsingleton.elim _ _
    have hemb : ((cfg4.win 2).blk t).view.emb (ix3 (0 : Fin 1) n f) = (ix3 (row4 t) n f : (Cert.Spec.Sh3 16 2048 256).Idx) := by
      funext a
      apply Fin.ext
      match a with
      | ⟨0, _⟩ => show win4_2.index t (0 : Fin 3) * 1 + 1 * 0 = t.val; omega
      | ⟨1, _⟩ => show win4_2.index t (1 : Fin 3) * 2048 + 1 * n.val = n.val; omega
      | ⟨2, _⟩ => show win4_2.index t (2 : Fin 3) * 256 + 1 * f.val = f.val; omega
    rw [hemb]
    refine (pay4_apply _ _ n f).trans ?_
    show _ = Cert.Spec.feat _ _ (row4 t) n f
    unfold Cert.Spec.feat
    exact Finset.sum_congr rfl fun k _ => by rw [x_at4 V c t n k, w_at4 V c t k f]
  exact funext key

/-- An index of the output array is in point `t`'s block iff each coordinate is in the block's range on its axis. -/
theorem mem_blk4 (t : Fin cfg4.N) (i : S16x2048x256.Idx) :
    i ∈ ((cfg4.win 2).blk t).view.set ↔ ∀ a : Fin 3, win4_2.index t a * S1x2048x256.size a ≤ (i a).val ∧ (i a).val < win4_2.index t a * S1x2048x256.size a + S1x2048x256.size a := by
  show i ∈ ((View.whole main_v49).slice (win4_2.rect t)).set ↔ _
  rw [View.set_slice_whole, Rect.mem_set_unit]
  exact Iff.rfl

/-- Every index of the output array is in the block of the point its batch coordinate names. -/
theorem covered4 (i : S16x2048x256.Idx) : ∃ t : Fin cfg4.N, (cfg4.win 2).flush t = true ∧ i ∈ ((cfg4.win 2).blk t).view.set := by
  have h0 : (i 0).val < 16 := (i 0).isLt
  have h1 : (i 1).val < 2048 := (i 1).isLt
  have h2 : (i 2).val < 256 := (i 2).isLt
  obtain ⟨t, ht⟩ : ∃ t : Fin cfg4.N, t.val = (i 0).val := ⟨⟨(i 0).val, by rw [show cfg4.N = 16 from N_4]; exact h0⟩, rfl⟩
  refine ⟨t, flush4_2 t, ?_⟩
  obtain ⟨-, -, -, -, -, e0, e1, e2⟩ := idxFacts4 t
  rw [mem_blk4]
  intro a
  match a with
  | ⟨0, _⟩ => show win4_2.index t (0 : Fin 3) * 1 ≤ (i 0).val ∧ (i 0).val < win4_2.index t (0 : Fin 3) * 1 + 1; omega
  | ⟨1, _⟩ => show win4_2.index t (1 : Fin 3) * 2048 ≤ (i 1).val ∧ (i 1).val < win4_2.index t (1 : Fin 3) * 2048 + 2048; omega
  | ⟨2, _⟩ => show win4_2.index t (2 : Fin 3) * 256 ≤ (i 2).val ∧ (i 2).val < win4_2.index t (2 : Fin 3) * 256 + 256; omega

end

/-- THE OUTPUT ARRAY after the region: the feature transform of the region-entry activations and weights. -/
theorem arr4_eq (V : (c : Dev nD) → (b : Ref sig .tc) → Buf (Elt Ideal) ((c : Thread nD τ).loc b)) (c : Dev nD) :
    (dat4 (F := Ideal) V c).arrAt 2 cfg4.N = Cert.Spec.arr3 (Cert.Spec.feat (V c main_v48 : (Cert.Spec.Sh3 16 2048 512).Idx → EReal) (V c main_arg6 : (Cert.Spec.Sh2 512 256).Idx → EReal)) :=
  (dat4 (F := Ideal) V c).arrAt_eq_of_cover 2 (feat_at4 V c) (fun t _ => flushed4_eq V c t) (covered4)

end Cert.KernelIdeal.Hand

end
-- ==== Proof.KI.V5.lean ====
/-
  Aggregation layer, pipeline 5, read as a value over the extended reals. The stored value at entry (n, f) of a block is
  ∑ₘ A[n, m] · h1[m, f] + h1[n, f] · invdeg[n] + bias[f]: the matrix product accumulated into zero is the sum over its one
  contracted axis, the inverse-degree column and the bias row are laid along the block, and the conversions between the
  two float formats are the identity on extended reals. The block of grid point `t` is batch row `t` of the features and
  of the output, while the adjacency, the bias and the inverse degrees are whole at every point; so point `t` writes
  back batch row `t` of the dense aggregation, the sixteen rows cover the output array, and the array ends at the dense
  aggregation of the arrays found at entry.
-/
import proofs.«421025_j30305289241172_1_alg».proof.Proof.Gen.KernelIdeal.Launch
import proofs.«421025_j30305289241172_1_alg».proof.Proof.Gen.KernelIdeal.Skeleton
import proofs.«421025_j30305289241172_1_alg».proof.Proof.Gen.KernelIdeal.Points
import proofs.«421025_j30305289241172_1_alg».proof.Proof.KI.R5
import proofs.«421025_j30305289241172_1_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window BodyObligation cellOf)
open scoped BigOperators

/-! ## The matrix product's operand indices, axis by axis -/

theorem agg5_lhs_0 (i : S2048x256.Idx) (q : dot_S2048x2048_S2048x256_S2048x256_1_0_0_1_n_n.contr.Idx) :
    (dot_S2048x2048_S2048x256_S2048x256_1_0_0_1_n_n.lhsIdx i q 0).val = (i 0).val := by
  unfold DotDims.lhsIdx
  rw [dif_neg (show ¬(0 : Fin S2048x2048.rank) ∈ dot_S2048x2048_S2048x256_S2048x256_1_0_0_1_n_n.lhsBatch by decide),
    dif_pos (show (0 : Fin S2048x2048.rank) ∈ dot_S2048x2048_S2048x256_S2048x256_1_0_0_1_n_n.lhsNonContracting by decide)]
  rfl
theorem agg5_lhs_1 (i : S2048x256.Idx) (q : dot_S2048x2048_S2048x256_S2048x256_1_0_0_1_n_n.contr.Idx) :
    (dot_S2048x2048_S2048x256_S2048x256_1_0_0_1_n_n.lhsIdx i q 1).val = (q ⟨0, by decide⟩).val :=
  dot_S2048x2048_S2048x256_S2048x256_1_0_0_1_n_n.lhsIdx_val_of_single rfl i q
theorem agg5_rhs_0 (i : S2048x256.Idx) (q : dot_S2048x2048_S2048x256_S2048x256_1_0_0_1_n_n.contr.Idx) :
    (dot_S2048x2048_S2048x256_S2048x256_1_0_0_1_n_n.rhsIdx i q 0).val = (q ⟨0, by decide⟩).val :=
  dot_S2048x2048_S2048x256_S2048x256_1_0_0_1_n_n.rhsIdx_val_of_single rfl i q
theorem agg5_rhs_1 (i : S2048x256.Idx) (q : dot_S2048x2048_S2048x256_S2048x256_1_0_0_1_n_n.contr.Idx) :
    (dot_S2048x2048_S2048x256_S2048x256_1_0_0_1_n_n.rhsIdx i q 1).val = (i 1).val := by
  unfold DotDims.rhsIdx
  rw [dif_neg (show ¬(1 : Fin S2048x256.rank) ∈ dot_S2048x2048_S2048x256_S2048x256_1_0_0_1_n_n.rhsBatch by decide),
    dif_pos (show (1 : Fin S2048x256.rank) ∈ dot_S2048x2048_S2048x256_S2048x256_1_0_0_1_n_n.rhsNonContracting by decide)]
  rfl

/-- The product accumulated into zero, at entry (n, f): the sum over the contracted axis. -/
theorem agg5_matmul_apply (a : FVec Ideal S2048x2048 .bf16) (h : FVec Ideal S2048x256 .bf16) (n : Fin 2048) (f : Fin 256) :
    matmul dot_S2048x2048_S2048x256_S2048x256_1_0_0_1_n_n none a h (constant (F := Ideal) S2048x256 .f32 0x00000000#32) (ix2 n f)
      = ∑ m : Fin 2048, a (ix2 n m) * h (ix2 m f) := by
  simp only [matmul]
  rw [Ideal.matmul_constant_zero_apply, ← Equiv.sum_comp (contrEquiv1 dot_S2048x2048_S2048x256_S2048x256_1_0_0_1_n_n 2048 rfl rfl).symm]
  refine Finset.sum_congr rfl fun k _ => ?_
  have hk := contrEquiv1_symm_val dot_S2048x2048_S2048x256_S2048x256_1_0_0_1_n_n 2048 rfl rfl k
  have el : dot_S2048x2048_S2048x256_S2048x256_1_0_0_1_n_n.lhsIdx (ix2 n f) ((contrEquiv1 dot_S2048x2048_S2048x256_S2048x256_1_0_0_1_n_n 2048 rfl rfl).symm k) = ix2 n k :=
    funext fun a => Fin.ext (by
      match a with
      | ⟨0, _⟩ => exact agg5_lhs_0 _ _
      | ⟨1, _⟩ => exact (agg5_lhs_1 _ _).trans hk)
  have er : dot_S2048x2048_S2048x256_S2048x256_1_0_0_1_n_n.rhsIdx (ix2 n f) ((contrEquiv1 dot_S2048x2048_S2048x256_S2048x256_1_0_0_1_n_n 2048 rfl rfl).symm k) = ix2 k f :=
    funext fun a => Fin.ext (by
      match a with
      | ⟨0, _⟩ => exact (agg5_rhs_0 _ _).trans hk
      | ⟨1, _⟩ => exact agg5_rhs_1 _ _)
  rw [el, er]

/-- A column laid along every column of the block: entry (n, f) is the column's entry n. -/
theorem agg5_col_apply (v : FVec Ideal S2048x1 .f32) (n : Fin 2048) (f : Fin 256) :
    broadcastTo S2048x256 v broadcasts_S2048x1_S2048x256 (ix2 n f) = v (ix2 n (0 : Fin 1)) := by
  refine broadcastTo_apply v broadcasts_S2048x1_S2048x256 (ix2 n f) (ix2 n (0 : Fin 1)) fun ax => ?_
  match ax with
  | ⟨0, _⟩ => rfl
  | ⟨1, _⟩ => rfl

/-- The stored value at entry (u, n, f) of the block. -/
theorem agg5_pay_apply (x0 : Vec Ideal S1x2048x256 .bf16) (x1 : Vec Ideal S2048x2048 .bf16) (x3 : Vec Ideal S2048x1 .f32) (x2 : Vec Ideal S1x256 .f32)
    (u : Fin 1) (n : Fin 2048) (f : Fin 256) :
    (k5_pay1 x0 x1 x3 x2 (ix3 u n f) : EReal)
      = ((∑ m : Fin 2048, (x1 (ix2 n m) : EReal) * x0 (ix3 (0 : Fin 1) m f)) + (x0 (ix3 (0 : Fin 1) n f) : EReal) * x3 (ix2 n (0 : Fin 1))) + x2 (ix2 (0 : Fin 1) f) := by
  unfold k5_pay1
  refine (shapeCast_ab_1ab_apply _ shapeCasts_S2048x256_S1x2048x256 u n f).trans ?_
  show ((matmul (F := Ideal) dot_S2048x2048_S2048x256_S2048x256_1_0_0_1_n_n none _ _ _ (ix2 n f) : EReal) + (_ : EReal) * (_ : EReal)) + (_ : EReal) = _
  rw [agg5_matmul_apply, agg5_col_apply, broadcastTo_1b_ab_apply]
  simp only [shapeCast_self]
  congr 1
  congr 1
  · refine Finset.sum_congr rfl fun m _ => ?_
    congr 1
    exact shapeCast_1ab_ab_apply x0 shapeCasts_S1x2048x256_S2048x256 m f
  · congr 1
    exact shapeCast_1ab_ab_apply x0 shapeCasts_S1x2048x256_S2048x256 n f

/-- The stored value at entry (u, n, f), when the four blocks are: batch row `b` of the features `H`, the adjacency `A`,
    the inverse degrees `D` and the bias `B` — entry (b, n, f) of the layer's dense aggregation of `H`, `A`, `B`, `D`. -/
theorem agg5_point (H : S16x2048x256.Idx → EReal) (A : S2048x2048.Idx → EReal) (B : S1x256.Idx → EReal) (D : S2048x1.Idx → EReal)
    (x0 : Vec Ideal S1x2048x256 .bf16) (x1 : Vec Ideal S2048x2048 .bf16) (x3 : Vec Ideal S2048x1 .f32) (x2 : Vec Ideal S1x256 .f32)
    (b : Fin 16) (u : Fin 1) (n : Fin 2048) (f : Fin 256)
    (h0 : ∀ (m : Fin 2048) (f : Fin 256), x0 (ix3 (0 : Fin 1) m f) = H (ix3 b m f))
    (h1 : ∀ n m : Fin 2048, x1 (ix2 n m) = A (ix2 n m))
    (h3 : ∀ n : Fin 2048, x3 (ix2 n (0 : Fin 1)) = D (ix2 n (0 : Fin 1)))
    (h2 : ∀ f : Fin 256, x2 (ix2 (0 : Fin 1) f) = B (ix2 (0 : Fin 1) f)) :
    k5_pay1 x0 x1 x3 x2 (ix3 u n f) = Cert.Spec.arr3 (Cert.Spec.agg false H A B D) (ix3 b n f) := by
  rw [agg5_pay_apply, Cert.Spec.arr3_ix3]
  show _ = ((∑ m : Fin 2048, A (ix2 n m) * H (ix3 b m f)) + H (ix3 b n f) * D (ix2 n (0 : Fin 1))) + B (ix2 (0 : Fin 1) f)
  rw [h0 n f, h3 n, h2 f]
  congr 2
  refine Finset.sum_congr rfl fun m _ => ?_
  rw [h1 n m, h0 m f]

/-! ## From blocks to the array -/

section Value5
variable (V : (c : Dev nD) → (b : Ref sig .tc) → Buf (Elt Ideal) ((c : Thread nD τ).loc b))

theorem agg5_hz3 : (![0, 0, 0] : Fin 3 → Nat) = fun _ => 0 := funext fun a => by fin_cases a <;> rfl
theorem agg5_hz2 : (![0, 0] : Fin 2 → Nat) = fun _ => 0 := funext fun a => by fin_cases a <;> rfl

/-- The index maps over the grid: the features' and the output's block at point `t` is batch row `t`, whole on the
    other two axes; the adjacency, the bias and the inverse degrees are taken whole at every point. -/
theorem agg5_idx : ∀ t : Fin cfg5.N,
    win5_0.index t (0 : Fin 3) = t.val ∧ win5_0.index t (1 : Fin 3) = 0 ∧ win5_0.index t (2 : Fin 3) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 3) = t.val ∧ win5_4.index t (1 : Fin 3) = 0 ∧ win5_4.index t (2 : Fin 3) = 0 :=
  (by decide +kernel : ∀ t : Fin grid5.N, _)

/-- The batch row of grid point `t`. -/
abbrev agg5_row (t : Fin cfg5.N) : Fin 16 := ⟨t.val, by have h := t.isLt; have e : cfg5.N = 16 := N_5; omega⟩

/-- The features' block at point `t` is batch row `t` of the features. -/
theorem agg5_h_apply (c : Dev nD) (t : Fin cfg5.N) (u : Fin 1) (n : Fin 2048) (f : Fin 256) :
    (iblk5 V c 0 t : Vec Ideal S1x2048x256 .bf16) (ix3 u n f) = (V c main_v49 : S16x2048x256.Idx → EReal) (ix3 (agg5_row t) n f) := by
  obtain ⟨e0, e1, e2, -⟩ := agg5_idx t
  unfold iblk5
  rw [View.read_apply]
  show V c main_v49 _ = V c main_v49 _
  congr 1
  funext a
  apply Fin.ext
  match a with
  | ⟨0, _⟩ => show win5_0.index t (0 : Fin 3) * 1 + 1 * u.val = t.val; rw [e0]; omega
  | ⟨1, _⟩ => show win5_0.index t (1 : Fin 3) * 2048 + 1 * n.val = n.val; rw [e1]; omega
  | ⟨2, _⟩ => show win5_0.index t (2 : Fin 3) * 256 + 1 * f.val = f.val; rw [e2]; omega

/-- The adjacency's block at every point is the adjacency. -/
theorem agg5_a_apply (c : Dev nD) (t : Fin cfg5.N) (n m : Fin 2048) :
    (iblk5 V c 1 t : Vec Ideal S2048x2048 .bf16) (ix2 n m) = (V c main_v40 : S2048x2048.Idx → EReal) (ix2 n m) := by
  obtain ⟨-, -, -, e0, e1, -⟩ := agg5_idx t
  unfold iblk5
  rw [View.read_apply]
  show V c main_v40 _ = V c main_v40 _
  congr 1
  funext a
  apply Fin.ext
  match a with
  | ⟨0, _⟩ => show win5_1.index t (0 : Fin 2) * 2048 + 1 * n.val = n.val; rw [e0]; omega
  | ⟨1, _⟩ => show win5_1.index t (1 : Fin 2) * 2048 + 1 * m.val = m.val; rw [e1]; omega

/-- The bias row's block at every point is the bias row. -/
theorem agg5_b_apply (c : Dev nD) (t : Fin cfg5.N) (u : Fin 1) (f : Fin 256) :
    (iblk5 V c 2 t : Vec Ideal S1x256 .f32) (ix2 u f) = (V c main_v50 : S1x256.Idx → EReal) (ix2 u f) := by
  obtain ⟨-, -, -, -, -, e0, e1, -⟩ := agg5_idx t
  unfold iblk5
  rw [View.read_apply]
  show V c main_v50 _ = V c main_v50 _
  congr 1
  funext a
  apply Fin.ext
  match a with
  | ⟨0, _⟩ => show win5_2.index t (0 : Fin 2) * 1 + 1 * u.val = u.val; rw [e0]; omega
  | ⟨1, _⟩ => show win5_2.index t (1 : Fin 2) * 256 + 1 * f.val = f.val; rw [e1]; omega

/-- The inverse-degree column's block at every point is the column. -/
theorem agg5_d_apply (c : Dev nD) (t : Fin cfg5.N) (n : Fin 2048) (u : Fin 1) :
    (iblk5 V c 3 t : Vec Ideal S2048x1 .f32) (ix2 n u) = (V c main_v51 : S2048x1.Idx → EReal) (ix2 n u) := by
  obtain ⟨-, -, -, -, -, -, -, e0, e1, -⟩ := agg5_idx t
  unfold iblk5
  rw [View.read_apply]
  show V c main_v51 _ = V c main_v51 _
  congr 1
  funext a
  apply Fin.ext
  match a with
  | ⟨0, _⟩ => show win5_3.index t (0 : Fin 2) * 2048 + 1 * n.val = n.val; rw [e0]; omega
  | ⟨1, _⟩ => show win5_3.index t (1 : Fin 2) * 1 + 1 * u.val = u.val; rw [e1]; omega

/-- What point `t` writes back is batch row `t` of the layer's dense aggregation of the arrays found at entry. -/
theorem agg5_flushed (c : Dev nD) (t : Fin cfg5.N) :
    (dat5 (F := Ideal) V c).flushed 4 t = ((cfg5.win 4).blk t).view.read (Elt Ideal)
      (Cert.Spec.arr3 (Cert.Spec.agg false (V c main_v49) (V c main_v40) (V c main_v50) (V c main_v51))) := by
  show (cfg5.win 4).cut (grid5.coords t) ((dat5 V c).after 4 t) = _
  rw [after5_4]
  unfold out5_4
  rw [View.canon_unit_zero agg5_hz3]
  simp only [View.ld_unit_zero (S := S1x2048x256) agg5_hz3, View.ld_unit_zero (S := S2048x2048) agg5_hz2,
    View.ld_unit_zero (S := S1x256) agg5_hz2, View.ld_unit_zero (S := S2048x1) agg5_hz2]
  funext j
  obtain ⟨u, n, f, rfl⟩ : ∃ (u : Fin 1) (n : Fin 2048) (f : Fin 256), j = ix3 u n f := ⟨j 0, j 1, j 2, eq_ix3 j⟩
  obtain ⟨-, -, -, -, -, -, -, -, -, e0, e1, e2⟩ := agg5_idx t
  have hemb : ((View.whole main_v52).slice ((win5 4).rect t)).emb (ix3 u n f) = ix3 (agg5_row t) n f := by
    funext a
    apply Fin.ext
    match a with
    | ⟨0, _⟩ => show win5_4.index t (0 : Fin 3) * 1 + 1 * u.val = t.val; rw [e0]; omega
    | ⟨1, _⟩ => show win5_4.index t (1 : Fin 3) * 2048 + 1 * n.val = n.val; rw [e1]; omega
    | ⟨2, _⟩ => show win5_4.index t (2 : Fin 3) * 256 + 1 * f.val = f.val; rw [e2]; omega
  show k5_pay1 (iblk5 V c 0 t) (iblk5 V c 1 t) (iblk5 V c 3 t) (iblk5 V c 2 t) (ix3 u n f) = _
  rw [View.read_apply]
  show _ = Cert.Spec.arr3 (Cert.Spec.agg false (V c main_v49) (V c main_v40) (V c main_v50) (V c main_v51))
    (((View.whole main_v52).slice ((win5 4).rect t)).emb (ix3 u n f))
  rw [hemb]
  exact agg5_point (V c main_v49) (V c main_v40) (V c main_v50) (V c main_v51)
    (iblk5 V c 0 t) (iblk5 V c 1 t) (iblk5 V c 3 t) (iblk5 V c 2 t) (agg5_row t) u n f
    (fun m f => agg5_h_apply V c t 0 m f) (fun n m => agg5_a_apply V c t n m)
    (fun n => agg5_d_apply V c t n 0) (fun f => agg5_b_apply V c t 0 f)

/-- An index of the output array lies in point `t`'s block iff each coordinate lies in the block's range on its axis. -/
theorem agg5_mem_blk (t : Fin cfg5.N) (i : S16x2048x256.Idx) :
    i ∈ ((cfg5.win 4).blk t).view.set ↔ ∀ a : Fin 3, win5_4.index t a * S1x2048x256.size a ≤ (i a).val
      ∧ (i a).val < win5_4.index t a * S1x2048x256.size a + S1x2048x256.size a := by
  show i ∈ ((View.whole main_v52).slice (win5_4.rect t)).set ↔ _
  rw [View.set_slice_whole, Rect.mem_set_unit]
  exact Iff.rfl

/-- The output array after the region: every batch row `b` is written by point `b`, so the array ends at the layer's
    dense aggregation of the arrays found at entry. -/
theorem arr5_eq (c : Dev nD) :
    (dat5 (F := Ideal) V c).arrAt 4 cfg5.N
      = Cert.Spec.arr3 (Cert.Spec.agg false (V c main_v49) (V c main_v40) (V c main_v50) (V c main_v51)) :=
  (dat5 (F := Ideal) V c).arrAt_eq_of_cover 4 _ (fun t _ => agg5_flushed V c t) fun i => by
    have h0 : (i 0).val < 16 := (i 0).isLt
    have h1 : (i 1).val < 2048 := (i 1).isLt
    have h2 : (i 2).val < 256 := (i 2).isLt
    have hN : cfg5.N = 16 := N_5
    obtain ⟨t, ht⟩ : ∃ t : Fin cfg5.N, t.val = (i 0).val := ⟨⟨(i 0).val, by omega⟩, rfl⟩
    refine ⟨t, flush5_4 t, ?_⟩
    rw [agg5_mem_blk]
    obtain ⟨-, -, -, -, -, -, -, -, -, e0, e1, e2⟩ := agg5_idx t
    intro a
    match a with
    | ⟨0, _⟩ =>
      show win5_4.index t (0 : Fin 3) * 1 ≤ (i 0).val ∧ (i 0).val < win5_4.index t (0 : Fin 3) * 1 + 1
      rw [e0]; omega
    | ⟨1, _⟩ =>
      show win5_4.index t (1 : Fin 3) * 2048 ≤ (i 1).val ∧ (i 1).val < win5_4.index t (1 : Fin 3) * 2048 + 2048
      rw [e1]; omega
    | ⟨2, _⟩ =>
      show win5_4.index t (2 : Fin 3) * 256 ≤ (i 2).val ∧ (i 2).val < win5_4.index t (2 : Fin 3) * 256 + 256
      rw [e2]; omega

end Value5

end Cert.KernelIdeal.Hand

end
-- ==== Proof.KI.V6.lean ====
/-
  The value of region 6 at the extended reals. The output row block the body leaves at grid point `t` is, entry by
  entry, the sum over the input channels of the activations' entry times the weights' entry: the shape casts only drop
  and restore the unit batch axis, the roundings are the identity on extended reals, and the product into a zero
  accumulator is the plain sum over the one contracted axis. Point `t`'s blocks are batch row `t` of the activations
  and of the output and the whole weight matrix, so the sixteen write-backs tile the output array, which ends holding
  the feature transform of the region-entry activations and weights.
-/
import proofs.«421025_j30305289241172_1_alg».proof.Proof.KI.R6
import proofs.«421025_j30305289241172_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## The product's dimension numbers, axis by axis -/

theorem lhs6_0 (j : S2048x256.Idx) (k : dot_S2048x256_S256x256_S2048x256_1_0_0_1_n_n.contr.Idx) :
    (dot_S2048x256_S256x256_S2048x256_1_0_0_1_n_n.lhsIdx j k 0).val = (j 0).val := rfl
theorem lhs6_1 (j : S2048x256.Idx) (k : dot_S2048x256_S256x256_S2048x256_1_0_0_1_n_n.contr.Idx) :
    (dot_S2048x256_S256x256_S2048x256_1_0_0_1_n_n.lhsIdx j k 1).val = (k ⟨0, by decide⟩).val := rfl
theorem rhs6_0 (j : S2048x256.Idx) (k : dot_S2048x256_S256x256_S2048x256_1_0_0_1_n_n.contr.Idx) :
    (dot_S2048x256_S256x256_S2048x256_1_0_0_1_n_n.rhsIdx j k 0).val = (k ⟨0, by decide⟩).val := rfl
theorem rhs6_1 (j : S2048x256.Idx) (k : dot_S2048x256_S256x256_S2048x256_1_0_0_1_n_n.contr.Idx) :
    (dot_S2048x256_S256x256_S2048x256_1_0_0_1_n_n.rhsIdx j k 1).val = (j 1).val := rfl

/-- The body's payload at an output index: the row of the activations against the column of the weights. -/
theorem pay6_apply (x0 : FVec Ideal S1x2048x256 .bf16) (x1 : FVec Ideal S256x256 .f32) (n : Fin 2048) (f : Fin 256) :
    k6_pay1 (F := Ideal) x0 x1 (ix3 (0 : Fin 1) n f) = ∑ k : Fin 256, (x0 (ix3 (0 : Fin 1) n k) : EReal) * (x1 (ix2 k f) : EReal) := by
  unfold k6_pay1
  refine (shapeCast_addUnit_apply ![2048, 256] _ _ _).trans ?_
  refine (truncf_apply (φ := .f32) (ψ := .bf16) _ bitsLt_bf16_f32 _).trans ?_
  refine (Ideal.matmul_constant_zero_apply dot_S2048x256_S256x256_S2048x256_1_0_0_1_n_n none _ _ _).trans ?_
  rw [← Equiv.sum_comp (contrEquiv1 dot_S2048x256_S256x256_S2048x256_1_0_0_1_n_n 256 rfl rfl).symm]
  refine Finset.sum_congr rfl fun i _ => ?_
  congr 1
  · show shapeCast S2048x256 x0 shapeCasts_S1x2048x256_S2048x256 _ = _
    refine (shapeCast_dropUnit_apply ![2048, 256] x0 _ _).trans (congrArg x0 (funext fun a => Fin.ext ?_))
    match a with
    | ⟨0, _⟩ => rfl
    | ⟨1, _⟩ => exact lhs6_0 (fun a => ix3 (0 : Fin 1) n f a.succ) ((contrEquiv1 dot_S2048x256_S256x256_S2048x256_1_0_0_1_n_n 256 rfl rfl).symm i)
    | ⟨2, _⟩ => exact (lhs6_1 (fun a => ix3 (0 : Fin 1) n f a.succ) ((contrEquiv1 dot_S2048x256_S256x256_S2048x256_1_0_0_1_n_n 256 rfl rfl).symm i)).trans (contrEquiv1_symm_val _ 256 rfl rfl i)
  · refine (truncf_apply (φ := .f32) (ψ := .bf16) x1 bitsLt_bf16_f32 _).trans (congrArg x1 (funext fun a => Fin.ext ?_))
    match a with
    | ⟨0, _⟩ => exact (rhs6_0 (fun a => ix3 (0 : Fin 1) n f a.succ) ((contrEquiv1 dot_S2048x256_S256x256_S2048x256_1_0_0_1_n_n 256 rfl rfl).symm i)).trans (contrEquiv1_symm_val _ 256 rfl rfl i)
    | ⟨1, _⟩ => exact rhs6_1 (fun a => ix3 (0 : Fin 1) n f a.succ) ((contrEquiv1 dot_S2048x256_S256x256_S2048x256_1_0_0_1_n_n 256 rfl rfl).symm i)

/-! ## The blocks at a point -/

theorem hz6_3 : (![0, 0, 0] : Fin 3 → Nat) = fun _ => 0 := funext fun a => by fin_cases a <;> rfl
theorem hz6_2 : (![0, 0] : Fin 2 → Nat) = fun _ => 0 := funext fun a => by fin_cases a <;> rfl

/-- The windows' index maps, decided once over the grid: the activations' and the output's block index is the point
    on the batch axis and zero elsewhere; the weights' is zero. -/
theorem idxFacts6 : ∀ t : Fin cfg6.N,
    win6_0.index t (0 : Fin 3) = t.val ∧ win6_0.index t (1 : Fin 3) = 0 ∧ win6_0.index t (2 : Fin 3) = 0
    ∧ win6_1.index t (0 : Fin 2) = 0 ∧ win6_1.index t (1 : Fin 2) = 0
    ∧ win6_2.index t (0 : Fin 3) = t.val ∧ win6_2.index t (1 : Fin 3) = 0 ∧ win6_2.index t (2 : Fin 3) = 0 :=
  (by decide +kernel : ∀ t : Fin grid6.N, _)

/-- A grid point as a batch row. -/
abbrev row6 (t : Fin cfg6.N) : Fin 16 := ⟨t.val, Nat.lt_of_lt_of_eq t.isLt (show cfg6.N = 16 from N_6)⟩

section
variable (V : (c : Dev nD) → (b : Ref sig .tc) → Buf (Elt Ideal) ((c : Thread nD τ).loc b))

/-- The activations' block at point `t` is batch row `t` of the array. -/
theorem x_at6 (c : Dev nD) (t : Fin cfg6.N) (n : Fin 2048) (k : Fin 256) :
    (iblk6 V c 0 t : FVec Ideal S1x2048x256 .bf16) (ix3 (0 : Fin 1) n k)
      = (V c main_v52 : (Cert.Spec.Sh3 16 2048 256).Idx → EReal) (ix3 (row6 t) n k) := by
  obtain ⟨e0, e1, e2, -⟩ := idxFacts6 t
  unfold iblk6
  rw [View.read_apply]
  show V c main_v52 _ = V c main_v52 _
  congr 1
  funext a
  apply Fin.ext
  match a with
  | ⟨0, _⟩ => show win6_0.index t (0 : Fin 3) * 1 + 1 * 0 = t.val; omega
  | ⟨1, _⟩ => show win6_0.index t (1 : Fin 3) * 2048 + 1 * n.val = n.val; omega
  | ⟨2, _⟩ => show win6_0.index t (2 : Fin 3) * 256 + 1 * k.val = k.val; omega

/-- The weights' block at every point is the whole matrix. -/
theorem w_at6 (c : Dev nD) (t : Fin cfg6.N) (k : Fin 256) (f : Fin 256) :
    (iblk6 V c 1 t : FVec Ideal S256x256 .f32) (ix2 k f)
      = (V c main_arg8 : (Cert.Spec.Sh2 256 256).Idx → EReal) (ix2 k f) := by
  obtain ⟨-, -, -, e0, e1, -⟩ := idxFacts6 t
  unfold iblk6
  rw [View.read_apply]
  show V c main_arg8 _ = V c main_arg8 _
  congr 1
  funext a
  apply Fin.ext
  match a with
  | ⟨0, _⟩ => show win6_1.index t (0 : Fin 2) * 256 + 1 * k.val = k.val; omega
  | ⟨1, _⟩ => show win6_1.index t (1 : Fin 2) * 256 + 1 * f.val = f.val; omega

/-- The feature transform of the region-entry activations and weights, as an array. -/
abbrev feat_at6 (c : Dev nD) : (Cert.Spec.Sh3 16 2048 256).Idx → EReal :=
  Cert.Spec.arr3 (Cert.Spec.feat (V c main_v52 : (Cert.Spec.Sh3 16 2048 256).Idx → EReal) (V c main_arg8 : (Cert.Spec.Sh2 256 256).Idx → EReal))

/-- What point `t` writes back is batch row `t` of the feature transform. -/
theorem flushed6_eq (c : Dev nD) (t : Fin cfg6.N) :
    (dat6 (F := Ideal) V c).flushed 2 t = ((cfg6.win 2).blk t).view.read (Elt Ideal) (feat_at6 V c) := by
  show (cfg6.win 2).cut (grid6.coords t) ((dat6 V c).after 2 t) = _
  rw [after6_2]
  unfold out6_2
  rw [View.canon_unit_zero hz6_3]
  simp only [View.ld_unit_zero (S := S1x2048x256) hz6_3, View.ld_unit_zero (S := S256x256) hz6_2]
  obtain ⟨-, -, -, -, -, e0, e1, e2⟩ := idxFacts6 t
  have key : ∀ j : S1x2048x256.Idx, k6_pay1 (F := Ideal) (iblk6 V c 0 t : FVec Ideal S1x2048x256 .bf16) (iblk6 V c 1 t : FVec Ideal S256x256 .f32) j
      = feat_at6 V c (((cfg6.win 2).blk t).view.emb j) := by
    intro j
    obtain ⟨a, n, f, rfl⟩ : ∃ (a : Fin 1) (n : Fin 2048) (f : Fin 256), j = ix3 a n f := ⟨j 0, j 1, j 2, eq_ix3 j⟩
    obtain rfl : a = 0 := Subsingleton.elim _ _
    have hemb : ((cfg6.win 2).blk t).view.emb (ix3 (0 : Fin 1) n f) = (ix3 (row6 t) n f : (Cert.Spec.Sh3 16 2048 256).Idx) := by
      funext a
      apply Fin.ext
      match a with
      | ⟨0, _⟩ => show win6_2.index t (0 : Fin 3) * 1 + 1 * 0 = t.val; omega
      | ⟨1, _⟩ => show win6_2.index t (1 : Fin 3) * 2048 + 1 * n.val = n.val; omega
      | ⟨2, _⟩ => show win6_2.index t (2 : Fin 3) * 256 + 1 * f.val = f.val; omega
    rw [hemb]
    refine (pay6_apply _ _ n f).trans ?_
    show _ = Cert.Spec.feat _ _ (row6 t) n f
    unfold Cert.Spec.feat
    exact Finset.sum_congr rfl fun k _ => by rw [x_at6 V c t n k, w_at6 V c t k f]
  exact funext key

/-- An index of the output array is in point `t`'s block iff each coordinate is in the block's range on its axis. -/
theorem mem_blk6 (t : Fin cfg6.N) (i : S16x2048x256.Idx) :
    i ∈ ((cfg6.win 2).blk t).view.set ↔ ∀ a : Fin 3, win6_2.index t a * S1x2048x256.size a ≤ (i a).val ∧ (i a).val < win6_2.index t a * S1x2048x256.size a + S1x2048x256.size a := by
  show i ∈ ((View.whole main_v53).slice (win6_2.rect t)).set ↔ _
  rw [View.set_slice_whole, Rect.mem_set_unit]
  exact Iff.rfl

/-- Every index of the output array is in the block of the point its batch coordinate names. -/
theorem covered6 (i : S16x2048x256.Idx) : ∃ t : Fin cfg6.N, (cfg6.win 2).flush t = true ∧ i ∈ ((cfg6.win 2).blk t).view.set := by
  have h0 : (i 0).val < 16 := (i 0).isLt
  have h1 : (i 1).val < 2048 := (i 1).isLt
  have h2 : (i 2).val < 256 := (i 2).isLt
  obtain ⟨t, ht⟩ : ∃ t : Fin cfg6.N, t.val = (i 0).val := ⟨⟨(i 0).val, by rw [show cfg6.N = 16 from N_6]; exact h0⟩, rfl⟩
  refine ⟨t, flush6_2 t, ?_⟩
  obtain ⟨-, -, -, -, -, e0, e1, e2⟩ := idxFacts6 t
  rw [mem_blk6]
  intro a
  match a with
  | ⟨0, _⟩ => show win6_2.index t (0 : Fin 3) * 1 ≤ (i 0).val ∧ (i 0).val < win6_2.index t (0 : Fin 3) * 1 + 1; omega
  | ⟨1, _⟩ => show win6_2.index t (1 : Fin 3) * 2048 ≤ (i 1).val ∧ (i 1).val < win6_2.index t (1 : Fin 3) * 2048 + 2048; omega
  | ⟨2, _⟩ => show win6_2.index t (2 : Fin 3) * 256 ≤ (i 2).val ∧ (i 2).val < win6_2.index t (2 : Fin 3) * 256 + 256; omega

end

/-- THE OUTPUT ARRAY after the region: the feature transform of the region-entry activations and weights. -/
theorem arr6_eq (V : (c : Dev nD) → (b : Ref sig .tc) → Buf (Elt Ideal) ((c : Thread nD τ).loc b)) (c : Dev nD) :
    (dat6 (F := Ideal) V c).arrAt 2 cfg6.N = Cert.Spec.arr3 (Cert.Spec.feat (V c main_v52 : (Cert.Spec.Sh3 16 2048 256).Idx → EReal) (V c main_arg8 : (Cert.Spec.Sh2 256 256).Idx → EReal)) :=
  (dat6 (F := Ideal) V c).arrAt_eq_of_cover 2 (feat_at6 V c) (fun t _ => flushed6_eq V c t) (covered6)

end Cert.KernelIdeal.Hand

end
-- ==== Proof.KI.V7.lean ====
/-
  Aggregation layer, pipeline 7, read as a value over the extended reals. The stored value at entry (n, f) of a block is
  leaky (∑ₘ A[n, m] · h1[m, f] + h1[n, f] · invdeg[n] + bias[f]): the matrix product accumulated into zero is the sum over its one
  contracted axis, the inverse-degree column and the bias row are laid along the block, and the conversions between the
  two float formats are the identity on extended reals; the comparison with zero and the selection are the rectifier's two cases. The block of grid point `t` is batch row `t` of the features and
  of the output, while the adjacency, the bias and the inverse degrees are whole at every point; so point `t` writes
  back batch row `t` of the rectified dense aggregation, the sixteen rows cover the output array, and the array ends at the rectified dense
  aggregation of the arrays found at entry.
-/
import proofs.«421025_j30305289241172_1_alg».proof.Proof.Gen.KernelIdeal.Launch
import proofs.«421025_j30305289241172_1_alg».proof.Proof.Gen.KernelIdeal.Skeleton
import proofs.«421025_j30305289241172_1_alg».proof.Proof.Gen.KernelIdeal.Points
import proofs.«421025_j30305289241172_1_alg».proof.Proof.KI.R7
import proofs.«421025_j30305289241172_1_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window BodyObligation cellOf)
open scoped BigOperators

/-! ## The matrix product's operand indices, axis by axis -/

theorem agg7_lhs_0 (i : S2048x256.Idx) (q : dot_S2048x2048_S2048x256_S2048x256_1_0_0_1_n_n.contr.Idx) :
    (dot_S2048x2048_S2048x256_S2048x256_1_0_0_1_n_n.lhsIdx i q 0).val = (i 0).val := by
  unfold DotDims.lhsIdx
  rw [dif_neg (show ¬(0 : Fin S2048x2048.rank) ∈ dot_S2048x2048_S2048x256_S2048x256_1_0_0_1_n_n.lhsBatch by decide),
    dif_pos (show (0 : Fin S2048x2048.rank) ∈ dot_S2048x2048_S2048x256_S2048x256_1_0_0_1_n_n.lhsNonContracting by decide)]
  rfl
theorem agg7_lhs_1 (i : S2048x256.Idx) (q : dot_S2048x2048_S2048x256_S2048x256_1_0_0_1_n_n.contr.Idx) :
    (dot_S2048x2048_S2048x256_S2048x256_1_0_0_1_n_n.lhsIdx i q 1).val = (q ⟨0, by decide⟩).val :=
  dot_S2048x2048_S2048x256_S2048x256_1_0_0_1_n_n.lhsIdx_val_of_single rfl i q
theorem agg7_rhs_0 (i : S2048x256.Idx) (q : dot_S2048x2048_S2048x256_S2048x256_1_0_0_1_n_n.contr.Idx) :
    (dot_S2048x2048_S2048x256_S2048x256_1_0_0_1_n_n.rhsIdx i q 0).val = (q ⟨0, by decide⟩).val :=
  dot_S2048x2048_S2048x256_S2048x256_1_0_0_1_n_n.rhsIdx_val_of_single rfl i q
theorem agg7_rhs_1 (i : S2048x256.Idx) (q : dot_S2048x2048_S2048x256_S2048x256_1_0_0_1_n_n.contr.Idx) :
    (dot_S2048x2048_S2048x256_S2048x256_1_0_0_1_n_n.rhsIdx i q 1).val = (i 1).val := by
  unfold DotDims.rhsIdx
  rw [dif_neg (show ¬(1 : Fin S2048x256.rank) ∈ dot_S2048x2048_S2048x256_S2048x256_1_0_0_1_n_n.rhsBatch by decide),
    dif_pos (show (1 : Fin S2048x256.rank) ∈ dot_S2048x2048_S2048x256_S2048x256_1_0_0_1_n_n.rhsNonContracting by decide)]
  rfl

/-- The product accumulated into zero, at entry (n, f): the sum over the contracted axis. -/
theorem agg7_matmul_apply (a : FVec Ideal S2048x2048 .bf16) (h : FVec Ideal S2048x256 .bf16) (n : Fin 2048) (f : Fin 256) :
    matmul dot_S2048x2048_S2048x256_S2048x256_1_0_0_1_n_n none a h (constant (F := Ideal) S2048x256 .f32 0x00000000#32) (ix2 n f)
      = ∑ m : Fin 2048, a (ix2 n m) * h (ix2 m f) := by
  simp only [matmul]
  rw [Ideal.matmul_constant_zero_apply, ← Equiv.sum_comp (contrEquiv1 dot_S2048x2048_S2048x256_S2048x256_1_0_0_1_n_n 2048 rfl rfl).symm]
  refine Finset.sum_congr rfl fun k _ => ?_
  have hk := contrEquiv1_symm_val dot_S2048x2048_S2048x256_S2048x256_1_0_0_1_n_n 2048 rfl rfl k
  have el : dot_S2048x2048_S2048x256_S2048x256_1_0_0_1_n_n.lhsIdx (ix2 n f) ((contrEquiv1 dot_S2048x2048_S2048x256_S2048x256_1_0_0_1_n_n 2048 rfl rfl).symm k) = ix2 n k :=
    funext fun a => Fin.ext (by
      match a with
      | ⟨0, _⟩ => exact agg7_lhs_0 _ _
      | ⟨1, _⟩ => exact (agg7_lhs_1 _ _).trans hk)
  have er : dot_S2048x2048_S2048x256_S2048x256_1_0_0_1_n_n.rhsIdx (ix2 n f) ((contrEquiv1 dot_S2048x2048_S2048x256_S2048x256_1_0_0_1_n_n 2048 rfl rfl).symm k) = ix2 k f :=
    funext fun a => Fin.ext (by
      match a with
      | ⟨0, _⟩ => exact (agg7_rhs_0 _ _).trans hk
      | ⟨1, _⟩ => exact agg7_rhs_1 _ _)
  rw [el, er]

/-- A column laid along every column of the block: entry (n, f) is the column's entry n. -/
theorem agg7_col_apply (v : FVec Ideal S2048x1 .f32) (n : Fin 2048) (f : Fin 256) :
    broadcastTo S2048x256 v broadcasts_S2048x1_S2048x256 (ix2 n f) = v (ix2 n (0 : Fin 1)) := by
  refine broadcastTo_apply v broadcasts_S2048x1_S2048x256 (ix2 n f) (ix2 n (0 : Fin 1)) fun ax => ?_
  match ax with
  | ⟨0, _⟩ => rfl
  | ⟨1, _⟩ => rfl

/-- The rectifier as the body computes it — keep `y` where `0 ≤ y`, else the slope times `y` — is the network's leaky
    rectifier. -/
theorem agg7_leaky (y : EReal) :
    Scalar.select (FloatOps.cmpf (F := Ideal) (φ := .f32) .oge y (Scalar.ofBits (F := Ideal) .f32 0x00000000#32)) y
        ((Scalar.ofBits (F := Ideal) .f32 0x3C23D70A#32 : EReal) * y) = Cert.Spec.leaky y := by
  unfold Cert.Spec.leaky Scalar.select
  show (if Ideal.cmp .oge y (Ideal.ofBits .f32 0x00000000#32) = 1#1 then y else Ideal.ofBits .f32 0x3C23D70A#32 * y) = _
  rw [Ideal.ofBits_zero_f32]
  unfold Ideal.cmp
  by_cases h : (0 : EReal) ≤ y
  · rw [if_pos h]; simp [h]
  · rw [if_neg h]; simp [h]

/-- The stored value at entry (u, n, f) of the block. -/
theorem agg7_pay_apply (x0 : Vec Ideal S1x2048x256 .bf16) (x1 : Vec Ideal S2048x2048 .bf16) (x3 : Vec Ideal S2048x1 .f32) (x2 : Vec Ideal S1x256 .f32)
    (u : Fin 1) (n : Fin 2048) (f : Fin 256) :
    (k7_pay1 x0 x1 x3 x2 (ix3 u n f) : EReal)
      = Cert.Spec.leaky (((∑ m : Fin 2048, (x1 (ix2 n m) : EReal) * x0 (ix3 (0 : Fin 1) m f)) + (x0 (ix3 (0 : Fin 1) n f) : EReal) * x3 (ix2 n (0 : Fin 1))) + x2 (ix2 (0 : Fin 1) f)) := by
  unfold k7_pay1
  refine (shapeCast_ab_1ab_apply _ shapeCasts_S2048x256_S1x2048x256 u n f).trans ?_
  show Scalar.select (FloatOps.cmpf (F := Ideal) (φ := .f32) .oge (_ : EReal) (Scalar.ofBits (F := Ideal) .f32 0x00000000#32)) (_ : EReal)
      ((Scalar.ofBits (F := Ideal) .f32 0x3C23D70A#32 : EReal) * (_ : EReal)) = _
  refine (agg7_leaky _).trans ?_
  congr 1
  show ((matmul (F := Ideal) dot_S2048x2048_S2048x256_S2048x256_1_0_0_1_n_n none _ _ _ (ix2 n f) : EReal) + (_ : EReal) * (_ : EReal)) + (_ : EReal) = _
  rw [agg7_matmul_apply, agg7_col_apply, broadcastTo_1b_ab_apply]
  simp only [shapeCast_self]
  congr 1
  congr 1
  · refine Finset.sum_congr rfl fun m _ => ?_
    congr 1
    exact shapeCast_1ab_ab_apply x0 shapeCasts_S1x2048x256_S2048x256 m f
  · congr 1
    exact shapeCast_1ab_ab_apply x0 shapeCasts_S1x2048x256_S2048x256 n f

/-- The stored value at entry (u, n, f), when the four blocks are: batch row `b` of the features `H`, the adjacency `A`,
    the inverse degrees `D` and the bias `B` — entry (b, n, f) of the layer's rectified dense aggregation of `H`, `A`, `B`, `D`. -/
theorem agg7_point (H : S16x2048x256.Idx → EReal) (A : S2048x2048.Idx → EReal) (B : S1x256.Idx → EReal) (D : S2048x1.Idx → EReal)
    (x0 : Vec Ideal S1x2048x256 .bf16) (x1 : Vec Ideal S2048x2048 .bf16) (x3 : Vec Ideal S2048x1 .f32) (x2 : Vec Ideal S1x256 .f32)
    (b : Fin 16) (u : Fin 1) (n : Fin 2048) (f : Fin 256)
    (h0 : ∀ (m : Fin 2048) (f : Fin 256), x0 (ix3 (0 : Fin 1) m f) = H (ix3 b m f))
    (h1 : ∀ n m : Fin 2048, x1 (ix2 n m) = A (ix2 n m))
    (h3 : ∀ n : Fin 2048, x3 (ix2 n (0 : Fin 1)) = D (ix2 n (0 : Fin 1)))
    (h2 : ∀ f : Fin 256, x2 (ix2 (0 : Fin 1) f) = B (ix2 (0 : Fin 1) f)) :
    k7_pay1 x0 x1 x3 x2 (ix3 u n f) = Cert.Spec.arr3 (Cert.Spec.agg true H A B D) (ix3 b n f) := by
  rw [agg7_pay_apply, Cert.Spec.arr3_ix3]
  show _ = Cert.Spec.leaky (((∑ m : Fin 2048, A (ix2 n m) * H (ix3 b m f)) + H (ix3 b n f) * D (ix2 n (0 : Fin 1))) + B (ix2 (0 : Fin 1) f))
  rw [h0 n f, h3 n, h2 f]
  congr 3
  refine Finset.sum_congr rfl fun m _ => ?_
  rw [h1 n m, h0 m f]

/-! ## From blocks to the array -/

section Value7
variable (V : (c : Dev nD) → (b : Ref sig .tc) → Buf (Elt Ideal) ((c : Thread nD τ).loc b))

theorem agg7_hz3 : (![0, 0, 0] : Fin 3 → Nat) = fun _ => 0 := funext fun a => by fin_cases a <;> rfl
theorem agg7_hz2 : (![0, 0] : Fin 2 → Nat) = fun _ => 0 := funext fun a => by fin_cases a <;> rfl

/-- The index maps over the grid: the features' and the output's block at point `t` is batch row `t`, whole on the
    other two axes; the adjacency, the bias and the inverse degrees are taken whole at every point. -/
theorem agg7_idx : ∀ t : Fin cfg7.N,
    win7_0.index t (0 : Fin 3) = t.val ∧ win7_0.index t (1 : Fin 3) = 0 ∧ win7_0.index t (2 : Fin 3) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 3) = t.val ∧ win7_4.index t (1 : Fin 3) = 0 ∧ win7_4.index t (2 : Fin 3) = 0 :=
  (by decide +kernel : ∀ t : Fin grid7.N, _)

/-- The batch row of grid point `t`. -/
abbrev agg7_row (t : Fin cfg7.N) : Fin 16 := ⟨t.val, by have h := t.isLt; have e : cfg7.N = 16 := N_7; omega⟩

/-- The features' block at point `t` is batch row `t` of the features. -/
theorem agg7_h_apply (c : Dev nD) (t : Fin cfg7.N) (u : Fin 1) (n : Fin 2048) (f : Fin 256) :
    (iblk7 V c 0 t : Vec Ideal S1x2048x256 .bf16) (ix3 u n f) = (V c main_v53 : S16x2048x256.Idx → EReal) (ix3 (agg7_row t) n f) := by
  obtain ⟨e0, e1, e2, -⟩ := agg7_idx t
  unfold iblk7
  rw [View.read_apply]
  show V c main_v53 _ = V c main_v53 _
  congr 1
  funext a
  apply Fin.ext
  match a with
  | ⟨0, _⟩ => show win7_0.index t (0 : Fin 3) * 1 + 1 * u.val = t.val; rw [e0]; omega
  | ⟨1, _⟩ => show win7_0.index t (1 : Fin 3) * 2048 + 1 * n.val = n.val; rw [e1]; omega
  | ⟨2, _⟩ => show win7_0.index t (2 : Fin 3) * 256 + 1 * f.val = f.val; rw [e2]; omega

/-- The adjacency's block at every point is the adjacency. -/
theorem agg7_a_apply (c : Dev nD) (t : Fin cfg7.N) (n m : Fin 2048) :
    (iblk7 V c 1 t : Vec Ideal S2048x2048 .bf16) (ix2 n m) = (V c main_v40 : S2048x2048.Idx → EReal) (ix2 n m) := by
  obtain ⟨-, -, -, e0, e1, -⟩ := agg7_idx t
  unfold iblk7
  rw [View.read_apply]
  show V c main_v40 _ = V c main_v40 _
  congr 1
  funext a
  apply Fin.ext
  match a with
  | ⟨0, _⟩ => show win7_1.index t (0 : Fin 2) * 2048 + 1 * n.val = n.val; rw [e0]; omega
  | ⟨1, _⟩ => show win7_1.index t (1 : Fin 2) * 2048 + 1 * m.val = m.val; rw [e1]; omega

/-- The bias row's block at every point is the bias row. -/
theorem agg7_b_apply (c : Dev nD) (t : Fin cfg7.N) (u : Fin 1) (f : Fin 256) :
    (iblk7 V c 2 t : Vec Ideal S1x256 .f32) (ix2 u f) = (V c main_v54 : S1x256.Idx → EReal) (ix2 u f) := by
  obtain ⟨-, -, -, -, -, e0, e1, -⟩ := agg7_idx t
  unfold iblk7
  rw [View.read_apply]
  show V c main_v54 _ = V c main_v54 _
  congr 1
  funext a
  apply Fin.ext
  match a with
  | ⟨0, _⟩ => show win7_2.index t (0 : Fin 2) * 1 + 1 * u.val = u.val; rw [e0]; omega
  | ⟨1, _⟩ => show win7_2.index t (1 : Fin 2) * 256 + 1 * f.val = f.val; rw [e1]; omega

/-- The inverse-degree column's block at every point is the column. -/
theorem agg7_d_apply (c : Dev nD) (t : Fin cfg7.N) (n : Fin 2048) (u : Fin 1) :
    (iblk7 V c 3 t : Vec Ideal S2048x1 .f32) (ix2 n u) = (V c main_v55 : S2048x1.Idx → EReal) (ix2 n u) := by
  obtain ⟨-, -, -, -, -, -, -, e0, e1, -⟩ := agg7_idx t
  unfold iblk7
  rw [View.read_apply]
  show V c main_v55 _ = V c main_v55 _
  congr 1
  funext a
  apply Fin.ext
  match a with
  | ⟨0, _⟩ => show win7_3.index t (0 : Fin 2) * 2048 + 1 * n.val = n.val; rw [e0]; omega
  | ⟨1, _⟩ => show win7_3.index t (1 : Fin 2) * 1 + 1 * u.val = u.val; rw [e1]; omega

/-- What point `t` writes back is batch row `t` of the layer's dense aggregation of the arrays found at entry. -/
theorem agg7_flushed (c : Dev nD) (t : Fin cfg7.N) :
    (dat7 (F := Ideal) V c).flushed 4 t = ((cfg7.win 4).blk t).view.read (Elt Ideal)
      (Cert.Spec.arr3 (Cert.Spec.agg true (V c main_v53) (V c main_v40) (V c main_v54) (V c main_v55))) := by
  show (cfg7.win 4).cut (grid7.coords t) ((dat7 V c).after 4 t) = _
  rw [after7_4]
  unfold out7_4
  rw [View.canon_unit_zero agg7_hz3]
  simp only [View.ld_unit_zero (S := S1x2048x256) agg7_hz3, View.ld_unit_zero (S := S2048x2048) agg7_hz2,
    View.ld_unit_zero (S := S1x256) agg7_hz2, View.ld_unit_zero (S := S2048x1) agg7_hz2]
  funext j
  obtain ⟨u, n, f, rfl⟩ : ∃ (u : Fin 1) (n : Fin 2048) (f : Fin 256), j = ix3 u n f := ⟨j 0, j 1, j 2, eq_ix3 j⟩
  obtain ⟨-, -, -, -, -, -, -, -, -, e0, e1, e2⟩ := agg7_idx t
  have hemb : ((View.whole main_v56).slice ((win7 4).rect t)).emb (ix3 u n f) = ix3 (agg7_row t) n f := by
    funext a
    apply Fin.ext
    match a with
    | ⟨0, _⟩ => show win7_4.index t (0 : Fin 3) * 1 + 1 * u.val = t.val; rw [e0]; omega
    | ⟨1, _⟩ => show win7_4.index t (1 : Fin 3) * 2048 + 1 * n.val = n.val; rw [e1]; omega
    | ⟨2, _⟩ => show win7_4.index t (2 : Fin 3) * 256 + 1 * f.val = f.val; rw [e2]; omega
  show k7_pay1 (iblk7 V c 0 t) (iblk7 V c 1 t) (iblk7 V c 3 t) (iblk7 V c 2 t) (ix3 u n f) = _
  rw [View.read_apply]
  show _ = Cert.Spec.arr3 (Cert.Spec.agg true (V c main_v53) (V c main_v40) (V c main_v54) (V c main_v55))
    (((View.whole main_v56).slice ((win7 4).rect t)).emb (ix3 u n f))
  rw [hemb]
  exact agg7_point (V c main_v53) (V c main_v40) (V c main_v54) (V c main_v55)
    (iblk7 V c 0 t) (iblk7 V c 1 t) (iblk7 V c 3 t) (iblk7 V c 2 t) (agg7_row t) u n f
    (fun m f => agg7_h_apply V c t 0 m f) (fun n m => agg7_a_apply V c t n m)
    (fun n => agg7_d_apply V c t n 0) (fun f => agg7_b_apply V c t 0 f)

/-- An index of the output array lies in point `t`'s block iff each coordinate lies in the block's range on its axis. -/
theorem agg7_mem_blk (t : Fin cfg7.N) (i : S16x2048x256.Idx) :
    i ∈ ((cfg7.win 4).blk t).view.set ↔ ∀ a : Fin 3, win7_4.index t a * S1x2048x256.size a ≤ (i a).val
      ∧ (i a).val < win7_4.index t a * S1x2048x256.size a + S1x2048x256.size a := by
  show i ∈ ((View.whole main_v56).slice (win7_4.rect t)).set ↔ _
  rw [View.set_slice_whole, Rect.mem_set_unit]
  exact Iff.rfl

/-- The output array after the region: every batch row `b` is written by point `b`, so the array ends at the layer's
    dense aggregation of the arrays found at entry. -/
theorem arr7_eq (c : Dev nD) :
    (dat7 (F := Ideal) V c).arrAt 4 cfg7.N
      = Cert.Spec.arr3 (Cert.Spec.agg true (V c main_v53) (V c main_v40) (V c main_v54) (V c main_v55)) :=
  (dat7 (F := Ideal) V c).arrAt_eq_of_cover 4 _ (fun t _ => agg7_flushed V c t) fun i => by
    have h0 : (i 0).val < 16 := (i 0).isLt
    have h1 : (i 1).val < 2048 := (i 1).isLt
    have h2 : (i 2).val < 256 := (i 2).isLt
    have hN : cfg7.N = 16 := N_7
    obtain ⟨t, ht⟩ : ∃ t : Fin cfg7.N, t.val = (i 0).val := ⟨⟨(i 0).val, by omega⟩, rfl⟩
    refine ⟨t, flush7_4 t, ?_⟩
    rw [agg7_mem_blk]
    obtain ⟨-, -, -, -, -, -, -, -, -, e0, e1, e2⟩ := agg7_idx t
    intro a
    match a with
    | ⟨0, _⟩ =>
      show win7_4.index t (0 : Fin 3) * 1 ≤ (i 0).val ∧ (i 0).val < win7_4.index t (0 : Fin 3) * 1 + 1
      rw [e0]; omega
    | ⟨1, _⟩ =>
      show win7_4.index t (1 : Fin 3) * 2048 ≤ (i 1).val ∧ (i 1).val < win7_4.index t (1 : Fin 3) * 2048 + 2048
      rw [e1]; omega
    | ⟨2, _⟩ =>
      show win7_4.index t (2 : Fin 3) * 256 ≤ (i 2).val ∧ (i 2).val < win7_4.index t (2 : Fin 3) * 256 + 256
      rw [e2]; omega

end Value7

end Cert.KernelIdeal.Hand

end
-- ==== Proof.KI.V8.lean ====
/-
  The value of region 8 at the extended reals. The output row block the body leaves at grid point `t` is, entry by
  entry, the sum over the input channels of the activations' entry times the weights' entry: the shape casts only drop
  and restore the unit batch axis, the roundings are the identity on extended reals, and the product into a zero
  accumulator is the plain sum over the one contracted axis. Point `t`'s blocks are batch row `t` of the activations
  and of the output and the whole weight matrix, so the sixteen write-backs tile the output array, which ends holding
  the feature transform of the region-entry activations and weights.
-/
import proofs.«421025_j30305289241172_1_alg».proof.Proof.KI.R8
import proofs.«421025_j30305289241172_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## The product's dimension numbers, axis by axis -/

theorem lhs8_0 (j : S2048x64.Idx) (k : dot_S2048x256_S256x64_S2048x64_1_0_0_1_n_n.contr.Idx) :
    (dot_S2048x256_S256x64_S2048x64_1_0_0_1_n_n.lhsIdx j k 0).val = (j 0).val := rfl
theorem lhs8_1 (j : S2048x64.Idx) (k : dot_S2048x256_S256x64_S2048x64_1_0_0_1_n_n.contr.Idx) :
    (dot_S2048x256_S256x64_S2048x64_1_0_0_1_n_n.lhsIdx j k 1).val = (k ⟨0, by decide⟩).val := rfl
theorem rhs8_0 (j : S2048x64.Idx) (k : dot_S2048x256_S256x64_S2048x64_1_0_0_1_n_n.contr.Idx) :
    (dot_S2048x256_S256x64_S2048x64_1_0_0_1_n_n.rhsIdx j k 0).val = (k ⟨0, by decide⟩).val := rfl
theorem rhs8_1 (j : S2048x64.Idx) (k : dot_S2048x256_S256x64_S2048x64_1_0_0_1_n_n.contr.Idx) :
    (dot_S2048x256_S256x64_S2048x64_1_0_0_1_n_n.rhsIdx j k 1).val = (j 1).val := rfl

/-- The body's payload at an output index: the row of the activations against the column of the weights. -/
theorem pay8_apply (x0 : FVec Ideal S1x2048x256 .bf16) (x1 : FVec Ideal S256x64 .f32) (n : Fin 2048) (f : Fin 64) :
    k8_pay1 (F := Ideal) x0 x1 (ix3 (0 : Fin 1) n f) = ∑ k : Fin 256, (x0 (ix3 (0 : Fin 1) n k) : EReal) * (x1 (ix2 k f) : EReal) := by
  unfold k8_pay1
  refine (shapeCast_addUnit_apply ![2048, 64] _ _ _).trans ?_
  refine (truncf_apply (φ := .f32) (ψ := .bf16) _ bitsLt_bf16_f32 _).trans ?_
  refine (Ideal.matmul_constant_zero_apply dot_S2048x256_S256x64_S2048x64_1_0_0_1_n_n none _ _ _).trans ?_
  rw [← Equiv.sum_comp (contrEquiv1 dot_S2048x256_S256x64_S2048x64_1_0_0_1_n_n 256 rfl rfl).symm]
  refine Finset.sum_congr rfl fun i _ => ?_
  congr 1
  · show shapeCast S2048x256 x0 shapeCasts_S1x2048x256_S2048x256 _ = _
    refine (shapeCast_dropUnit_apply ![2048, 256] x0 _ _).trans (congrArg x0 (funext fun a => Fin.ext ?_))
    match a with
    | ⟨0, _⟩ => rfl
    | ⟨1, _⟩ => exact lhs8_0 (fun a => ix3 (0 : Fin 1) n f a.succ) ((contrEquiv1 dot_S2048x256_S256x64_S2048x64_1_0_0_1_n_n 256 rfl rfl).symm i)
    | ⟨2, _⟩ => exact (lhs8_1 (fun a => ix3 (0 : Fin 1) n f a.succ) ((contrEquiv1 dot_S2048x256_S256x64_S2048x64_1_0_0_1_n_n 256 rfl rfl).symm i)).trans (contrEquiv1_symm_val _ 256 rfl rfl i)
  · refine (truncf_apply (φ := .f32) (ψ := .bf16) x1 bitsLt_bf16_f32 _).trans (congrArg x1 (funext fun a => Fin.ext ?_))
    match a with
    | ⟨0, _⟩ => exact (rhs8_0 (fun a => ix3 (0 : Fin 1) n f a.succ) ((contrEquiv1 dot_S2048x256_S256x64_S2048x64_1_0_0_1_n_n 256 rfl rfl).symm i)).trans (contrEquiv1_symm_val _ 256 rfl rfl i)
    | ⟨1, _⟩ => exact rhs8_1 (fun a => ix3 (0 : Fin 1) n f a.succ) ((contrEquiv1 dot_S2048x256_S256x64_S2048x64_1_0_0_1_n_n 256 rfl rfl).symm i)

/-! ## The blocks at a point -/

theorem hz8_3 : (![0, 0, 0] : Fin 3 → Nat) = fun _ => 0 := funext fun a => by fin_cases a <;> rfl
theorem hz8_2 : (![0, 0] : Fin 2 → Nat) = fun _ => 0 := funext fun a => by fin_cases a <;> rfl

/-- The windows' index maps, decided once over the grid: the activations' and the output's block index is the point
    on the batch axis and zero elsewhere; the weights' is zero. -/
theorem idxFacts8 : ∀ t : Fin cfg8.N,
    win8_0.index t (0 : Fin 3) = t.val ∧ win8_0.index t (1 : Fin 3) = 0 ∧ win8_0.index t (2 : Fin 3) = 0
    ∧ win8_1.index t (0 : Fin 2) = 0 ∧ win8_1.index t (1 : Fin 2) = 0
    ∧ win8_2.index t (0 : Fin 3) = t.val ∧ win8_2.index t (1 : Fin 3) = 0 ∧ win8_2.index t (2 : Fin 3) = 0 :=
  (by decide +kernel : ∀ t : Fin grid8.N, _)

/-- A grid point as a batch row. -/
abbrev row8 (t : Fin cfg8.N) : Fin 16 := ⟨t.val, Nat.lt_of_lt_of_eq t.isLt (show cfg8.N = 16 from N_8)⟩

section
variable (V : (c : Dev nD) → (b : Ref sig .tc) → Buf (Elt Ideal) ((c : Thread nD τ).loc b))

/-- The activations' block at point `t` is batch row `t` of the array. -/
theorem x_at8 (c : Dev nD) (t : Fin cfg8.N) (n : Fin 2048) (k : Fin 256) :
    (iblk8 V c 0 t : FVec Ideal S1x2048x256 .bf16) (ix3 (0 : Fin 1) n k)
      = (V c main_v56 : (Cert.Spec.Sh3 16 2048 256).Idx → EReal) (ix3 (row8 t) n k) := by
  obtain ⟨e0, e1, e2, -⟩ := idxFacts8 t
  unfold iblk8
  rw [View.read_apply]
  show V c main_v56 _ = V c main_v56 _
  congr 1
  funext a
  apply Fin.ext
  match a with
  | ⟨0, _⟩ => show win8_0.index t (0 : Fin 3) * 1 + 1 * 0 = t.val; omega
  | ⟨1, _⟩ => show win8_0.index t (1 : Fin 3) * 2048 + 1 * n.val = n.val; omega
  | ⟨2, _⟩ => show win8_0.index t (2 : Fin 3) * 256 + 1 * k.val = k.val; omega

/-- The weights' block at every point is the whole matrix. -/
theorem w_at8 (c : Dev nD) (t : Fin cfg8.N) (k : Fin 256) (f : Fin 64) :
    (iblk8 V c 1 t : FVec Ideal S256x64 .f32) (ix2 k f)
      = (V c main_arg10 : (Cert.Spec.Sh2 256 64).Idx → EReal) (ix2 k f) := by
  obtain ⟨-, -, -, e0, e1, -⟩ := idxFacts8 t
  unfold iblk8
  rw [View.read_apply]
  show V c main_arg10 _ = V c main_arg10 _
  congr 1
  funext a
  apply Fin.ext
  match a with
  | ⟨0, _⟩ => show win8_1.index t (0 : Fin 2) * 256 + 1 * k.val = k.val; omega
  | ⟨1, _⟩ => show win8_1.index t (1 : Fin 2) * 64 + 1 * f.val = f.val; omega

/-- The feature transform of the region-entry activations and weights, as an array. -/
abbrev feat_at8 (c : Dev nD) : (Cert.Spec.Sh3 16 2048 64).Idx → EReal :=
  Cert.Spec.arr3 (Cert.Spec.feat (V c main_v56 : (Cert.Spec.Sh3 16 2048 256).Idx → EReal) (V c main_arg10 : (Cert.Spec.Sh2 256 64).Idx → EReal))

/-- What point `t` writes back is batch row `t` of the feature transform. -/
theorem flushed8_eq (c : Dev nD) (t : Fin cfg8.N) :
    (dat8 (F := Ideal) V c).flushed 2 t = ((cfg8.win 2).blk t).view.read (Elt Ideal) (feat_at8 V c) := by
  show (cfg8.win 2).cut (grid8.coords t) ((dat8 V c).after 2 t) = _
  rw [after8_2]
  unfold out8_2
  rw [View.canon_unit_zero hz8_3]
  simp only [View.ld_unit_zero (S := S1x2048x256) hz8_3, View.ld_unit_zero (S := S256x64) hz8_2]
  obtain ⟨-, -, -, -, -, e0, e1, e2⟩ := idxFacts8 t
  have key : ∀ j : S1x2048x64.Idx, k8_pay1 (F := Ideal) (iblk8 V c 0 t : FVec Ideal S1x2048x256 .bf16) (iblk8 V c 1 t : FVec Ideal S256x64 .f32) j
      = feat_at8 V c (((cfg8.win 2).blk t).view.emb j) := by
    intro j
    obtain ⟨a, n, f, rfl⟩ : ∃ (a : Fin 1) (n : Fin 2048) (f : Fin 64), j = ix3 a n f := ⟨j 0, j 1, j 2, eq_ix3 j⟩
    obtain rfl : a = 0 := Subsingleton.elim _ _
    have hemb : ((cfg8.win 2).blk t).view.emb (ix3 (0 : Fin 1) n f) = (ix3 (row8 t) n f : (Cert.Spec.Sh3 16 2048 64).Idx) := by
      funext a
      apply Fin.ext
      match a with
      | ⟨0, _⟩ => show win8_2.index t (0 : Fin 3) * 1 + 1 * 0 = t.val; omega
      | ⟨1, _⟩ => show win8_2.index t (1 : Fin 3) * 2048 + 1 * n.val = n.val; omega
      | ⟨2, _⟩ => show win8_2.index t (2 : Fin 3) * 64 + 1 * f.val = f.val; omega
    rw [hemb]
    refine (pay8_apply _ _ n f).trans ?_
    show _ = Cert.Spec.feat _ _ (row8 t) n f
    unfold Cert.Spec.feat
    exact Finset.sum_congr rfl fun k _ => by rw [x_at8 V c t n k, w_at8 V c t k f]
  exact funext key

/-- An index of the output array is in point `t`'s block iff each coordinate is in the block's range on its axis. -/
theorem mem_blk8 (t : Fin cfg8.N) (i : S16x2048x64.Idx) :
    i ∈ ((cfg8.win 2).blk t).view.set ↔ ∀ a : Fin 3, win8_2.index t a * S1x2048x64.size a ≤ (i a).val ∧ (i a).val < win8_2.index t a * S1x2048x64.size a + S1x2048x64.size a := by
  show i ∈ ((View.whole main_v57).slice (win8_2.rect t)).set ↔ _
  rw [View.set_slice_whole, Rect.mem_set_unit]
  exact Iff.rfl

/-- Every index of the output array is in the block of the point its batch coordinate names. -/
theorem covered8 (i : S16x2048x64.Idx) : ∃ t : Fin cfg8.N, (cfg8.win 2).flush t = true ∧ i ∈ ((cfg8.win 2).blk t).view.set := by
  have h0 : (i 0).val < 16 := (i 0).isLt
  have h1 : (i 1).val < 2048 := (i 1).isLt
  have h2 : (i 2).val < 64 := (i 2).isLt
  obtain ⟨t, ht⟩ : ∃ t : Fin cfg8.N, t.val = (i 0).val := ⟨⟨(i 0).val, by rw [show cfg8.N = 16 from N_8]; exact h0⟩, rfl⟩
  refine ⟨t, flush8_2 t, ?_⟩
  obtain ⟨-, -, -, -, -, e0, e1, e2⟩ := idxFacts8 t
  rw [mem_blk8]
  intro a
  match a with
  | ⟨0, _⟩ => show win8_2.index t (0 : Fin 3) * 1 ≤ (i 0).val ∧ (i 0).val < win8_2.index t (0 : Fin 3) * 1 + 1; omega
  | ⟨1, _⟩ => show win8_2.index t (1 : Fin 3) * 2048 ≤ (i 1).val ∧ (i 1).val < win8_2.index t (1 : Fin 3) * 2048 + 2048; omega
  | ⟨2, _⟩ => show win8_2.index t (2 : Fin 3) * 64 ≤ (i 2).val ∧ (i 2).val < win8_2.index t (2 : Fin 3) * 64 + 64; omega

end

/-- THE OUTPUT ARRAY after the region: the feature transform of the region-entry activations and weights. -/
theorem arr8_eq (V : (c : Dev nD) → (b : Ref sig .tc) → Buf (Elt Ideal) ((c : Thread nD τ).loc b)) (c : Dev nD) :
    (dat8 (F := Ideal) V c).arrAt 2 cfg8.N = Cert.Spec.arr3 (Cert.Spec.feat (V c main_v56 : (Cert.Spec.Sh3 16 2048 256).Idx → EReal) (V c main_arg10 : (Cert.Spec.Sh2 256 64).Idx → EReal)) :=
  (dat8 (F := Ideal) V c).arrAt_eq_of_cover 2 (feat_at8 V c) (fun t _ => flushed8_eq V c t) (covered8)

end Cert.KernelIdeal.Hand

end
-- ==== Proof.KI.V9.lean ====
/-
  Aggregation layer, pipeline 9, read as a value over the extended reals. The stored value at entry (n, f) of a block is
  ∑ₘ A[n, m] · h1[m, f] + h1[n, f] · invdeg[n] + bias[f]: the matrix product accumulated into zero is the sum over its one
  contracted axis, the inverse-degree column and the bias row are laid along the block, and the conversions between the
  two float formats are the identity on extended reals. The block of grid point `t` is batch row `t` of the features and
  of the output, while the adjacency, the bias and the inverse degrees are whole at every point; so point `t` writes
  back batch row `t` of the dense aggregation, the sixteen rows cover the output array, and the array ends at the dense
  aggregation of the arrays found at entry.
-/
import proofs.«421025_j30305289241172_1_alg».proof.Proof.Gen.KernelIdeal.Launch
import proofs.«421025_j30305289241172_1_alg».proof.Proof.Gen.KernelIdeal.Skeleton
import proofs.«421025_j30305289241172_1_alg».proof.Proof.Gen.KernelIdeal.Points
import proofs.«421025_j30305289241172_1_alg».proof.Proof.KI.R9
import proofs.«421025_j30305289241172_1_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window BodyObligation cellOf)
open scoped BigOperators

/-! ## The matrix product's operand indices, axis by axis -/

theorem agg9_lhs_0 (i : S2048x64.Idx) (q : dot_S2048x2048_S2048x64_S2048x64_1_0_0_1_n_n.contr.Idx) :
    (dot_S2048x2048_S2048x64_S2048x64_1_0_0_1_n_n.lhsIdx i q 0).val = (i 0).val := by
  unfold DotDims.lhsIdx
  rw [dif_neg (show ¬(0 : Fin S2048x2048.rank) ∈ dot_S2048x2048_S2048x64_S2048x64_1_0_0_1_n_n.lhsBatch by decide),
    dif_pos (show (0 : Fin S2048x2048.rank) ∈ dot_S2048x2048_S2048x64_S2048x64_1_0_0_1_n_n.lhsNonContracting by decide)]
  rfl
theorem agg9_lhs_1 (i : S2048x64.Idx) (q : dot_S2048x2048_S2048x64_S2048x64_1_0_0_1_n_n.contr.Idx) :
    (dot_S2048x2048_S2048x64_S2048x64_1_0_0_1_n_n.lhsIdx i q 1).val = (q ⟨0, by decide⟩).val :=
  dot_S2048x2048_S2048x64_S2048x64_1_0_0_1_n_n.lhsIdx_val_of_single rfl i q
theorem agg9_rhs_0 (i : S2048x64.Idx) (q : dot_S2048x2048_S2048x64_S2048x64_1_0_0_1_n_n.contr.Idx) :
    (dot_S2048x2048_S2048x64_S2048x64_1_0_0_1_n_n.rhsIdx i q 0).val = (q ⟨0, by decide⟩).val :=
  dot_S2048x2048_S2048x64_S2048x64_1_0_0_1_n_n.rhsIdx_val_of_single rfl i q
theorem agg9_rhs_1 (i : S2048x64.Idx) (q : dot_S2048x2048_S2048x64_S2048x64_1_0_0_1_n_n.contr.Idx) :
    (dot_S2048x2048_S2048x64_S2048x64_1_0_0_1_n_n.rhsIdx i q 1).val = (i 1).val := by
  unfold DotDims.rhsIdx
  rw [dif_neg (show ¬(1 : Fin S2048x64.rank) ∈ dot_S2048x2048_S2048x64_S2048x64_1_0_0_1_n_n.rhsBatch by decide),
    dif_pos (show (1 : Fin S2048x64.rank) ∈ dot_S2048x2048_S2048x64_S2048x64_1_0_0_1_n_n.rhsNonContracting by decide)]
  rfl

/-- The product accumulated into zero, at entry (n, f): the sum over the contracted axis. -/
theorem agg9_matmul_apply (a : FVec Ideal S2048x2048 .bf16) (h : FVec Ideal S2048x64 .bf16) (n : Fin 2048) (f : Fin 64) :
    matmul dot_S2048x2048_S2048x64_S2048x64_1_0_0_1_n_n none a h (constant (F := Ideal) S2048x64 .f32 0x00000000#32) (ix2 n f)
      = ∑ m : Fin 2048, a (ix2 n m) * h (ix2 m f) := by
  simp only [matmul]
  rw [Ideal.matmul_constant_zero_apply, ← Equiv.sum_comp (contrEquiv1 dot_S2048x2048_S2048x64_S2048x64_1_0_0_1_n_n 2048 rfl rfl).symm]
  refine Finset.sum_congr rfl fun k _ => ?_
  have hk := contrEquiv1_symm_val dot_S2048x2048_S2048x64_S2048x64_1_0_0_1_n_n 2048 rfl rfl k
  have el : dot_S2048x2048_S2048x64_S2048x64_1_0_0_1_n_n.lhsIdx (ix2 n f) ((contrEquiv1 dot_S2048x2048_S2048x64_S2048x64_1_0_0_1_n_n 2048 rfl rfl).symm k) = ix2 n k :=
    funext fun a => Fin.ext (by
      match a with
      | ⟨0, _⟩ => exact agg9_lhs_0 _ _
      | ⟨1, _⟩ => exact (agg9_lhs_1 _ _).trans hk)
  have er : dot_S2048x2048_S2048x64_S2048x64_1_0_0_1_n_n.rhsIdx (ix2 n f) ((contrEquiv1 dot_S2048x2048_S2048x64_S2048x64_1_0_0_1_n_n 2048 rfl rfl).symm k) = ix2 k f :=
    funext fun a => Fin.ext (by
      match a with
      | ⟨0, _⟩ => exact (agg9_rhs_0 _ _).trans hk
      | ⟨1, _⟩ => exact agg9_rhs_1 _ _)
  rw [el, er]

/-- A column laid along every column of the block: entry (n, f) is the column's entry n. -/
theorem agg9_col_apply (v : FVec Ideal S2048x1 .f32) (n : Fin 2048) (f : Fin 64) :
    broadcastTo S2048x64 v broadcasts_S2048x1_S2048x64 (ix2 n f) = v (ix2 n (0 : Fin 1)) := by
  refine broadcastTo_apply v broadcasts_S2048x1_S2048x64 (ix2 n f) (ix2 n (0 : Fin 1)) fun ax => ?_
  match ax with
  | ⟨0, _⟩ => rfl
  | ⟨1, _⟩ => rfl

/-- The stored value at entry (u, n, f) of the block. -/
theorem agg9_pay_apply (x0 : Vec Ideal S1x2048x64 .bf16) (x1 : Vec Ideal S2048x2048 .bf16) (x3 : Vec Ideal S2048x1 .f32) (x2 : Vec Ideal S1x64 .f32)
    (u : Fin 1) (n : Fin 2048) (f : Fin 64) :
    (k9_pay1 x0 x1 x3 x2 (ix3 u n f) : EReal)
      = ((∑ m : Fin 2048, (x1 (ix2 n m) : EReal) * x0 (ix3 (0 : Fin 1) m f)) + (x0 (ix3 (0 : Fin 1) n f) : EReal) * x3 (ix2 n (0 : Fin 1))) + x2 (ix2 (0 : Fin 1) f) := by
  unfold k9_pay1
  refine (shapeCast_ab_1ab_apply _ shapeCasts_S2048x64_S1x2048x64 u n f).trans ?_
  show ((matmul (F := Ideal) dot_S2048x2048_S2048x64_S2048x64_1_0_0_1_n_n none _ _ _ (ix2 n f) : EReal) + (_ : EReal) * (_ : EReal)) + (_ : EReal) = _
  rw [agg9_matmul_apply, agg9_col_apply, broadcastTo_1b_ab_apply]
  simp only [shapeCast_self]
  congr 1
  congr 1
  · refine Finset.sum_congr rfl fun m _ => ?_
    congr 1
    exact shapeCast_1ab_ab_apply x0 shapeCasts_S1x2048x64_S2048x64 m f
  · congr 1
    exact shapeCast_1ab_ab_apply x0 shapeCasts_S1x2048x64_S2048x64 n f

/-- The stored value at entry (u, n, f), when the four blocks are: batch row `b` of the features `H`, the adjacency `A`,
    the inverse degrees `D` and the bias `B` — entry (b, n, f) of the layer's dense aggregation of `H`, `A`, `B`, `D`. -/
theorem agg9_point (H : S16x2048x64.Idx → EReal) (A : S2048x2048.Idx → EReal) (B : S1x64.Idx → EReal) (D : S2048x1.Idx → EReal)
    (x0 : Vec Ideal S1x2048x64 .bf16) (x1 : Vec Ideal S2048x2048 .bf16) (x3 : Vec Ideal S2048x1 .f32) (x2 : Vec Ideal S1x64 .f32)
    (b : Fin 16) (u : Fin 1) (n : Fin 2048) (f : Fin 64)
    (h0 : ∀ (m : Fin 2048) (f : Fin 64), x0 (ix3 (0 : Fin 1) m f) = H (ix3 b m f))
    (h1 : ∀ n m : Fin 2048, x1 (ix2 n m) = A (ix2 n m))
    (h3 : ∀ n : Fin 2048, x3 (ix2 n (0 : Fin 1)) = D (ix2 n (0 : Fin 1)))
    (h2 : ∀ f : Fin 64, x2 (ix2 (0 : Fin 1) f) = B (ix2 (0 : Fin 1) f)) :
    k9_pay1 x0 x1 x3 x2 (ix3 u n f) = Cert.Spec.arr3 (Cert.Spec.agg false H A B D) (ix3 b n f) := by
  rw [agg9_pay_apply, Cert.Spec.arr3_ix3]
  show _ = ((∑ m : Fin 2048, A (ix2 n m) * H (ix3 b m f)) + H (ix3 b n f) * D (ix2 n (0 : Fin 1))) + B (ix2 (0 : Fin 1) f)
  rw [h0 n f, h3 n, h2 f]
  congr 2
  refine Finset.sum_congr rfl fun m _ => ?_
  rw [h1 n m, h0 m f]

/-! ## From blocks to the array -/

section Value9
variable (V : (c : Dev nD) → (b : Ref sig .tc) → Buf (Elt Ideal) ((c : Thread nD τ).loc b))

theorem agg9_hz3 : (![0, 0, 0] : Fin 3 → Nat) = fun _ => 0 := funext fun a => by fin_cases a <;> rfl
theorem agg9_hz2 : (![0, 0] : Fin 2 → Nat) = fun _ => 0 := funext fun a => by fin_cases a <;> rfl

/-- The index maps over the grid: the features' and the output's block at point `t` is batch row `t`, whole on the
    other two axes; the adjacency, the bias and the inverse degrees are taken whole at every point. -/
theorem agg9_idx : ∀ t : Fin cfg9.N,
    win9_0.index t (0 : Fin 3) = t.val ∧ win9_0.index t (1 : Fin 3) = 0 ∧ win9_0.index t (2 : Fin 3) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 3) = t.val ∧ win9_4.index t (1 : Fin 3) = 0 ∧ win9_4.index t (2 : Fin 3) = 0 :=
  (by decide +kernel : ∀ t : Fin grid9.N, _)

/-- The batch row of grid point `t`. -/
abbrev agg9_row (t : Fin cfg9.N) : Fin 16 := ⟨t.val, by have h := t.isLt; have e : cfg9.N = 16 := N_9; omega⟩

/-- The features' block at point `t` is batch row `t` of the features. -/
theorem agg9_h_apply (c : Dev nD) (t : Fin cfg9.N) (u : Fin 1) (n : Fin 2048) (f : Fin 64) :
    (iblk9 V c 0 t : Vec Ideal S1x2048x64 .bf16) (ix3 u n f) = (V c main_v57 : S16x2048x64.Idx → EReal) (ix3 (agg9_row t) n f) := by
  obtain ⟨e0, e1, e2, -⟩ := agg9_idx t
  unfold iblk9
  rw [View.read_apply]
  show V c main_v57 _ = V c main_v57 _
  congr 1
  funext a
  apply Fin.ext
  match a with
  | ⟨0, _⟩ => show win9_0.index t (0 : Fin 3) * 1 + 1 * u.val = t.val; rw [e0]; omega
  | ⟨1, _⟩ => show win9_0.index t (1 : Fin 3) * 2048 + 1 * n.val = n.val; rw [e1]; omega
  | ⟨2, _⟩ => show win9_0.index t (2 : Fin 3) * 64 + 1 * f.val = f.val; rw [e2]; omega

/-- The adjacency's block at every point is the adjacency. -/
theorem agg9_a_apply (c : Dev nD) (t : Fin cfg9.N) (n m : Fin 2048) :
    (iblk9 V c 1 t : Vec Ideal S2048x2048 .bf16) (ix2 n m) = (V c main_v40 : S2048x2048.Idx → EReal) (ix2 n m) := by
  obtain ⟨-, -, -, e0, e1, -⟩ := agg9_idx t
  unfold iblk9
  rw [View.read_apply]
  show V c main_v40 _ = V c main_v40 _
  congr 1
  funext a
  apply Fin.ext
  match a with
  | ⟨0, _⟩ => show win9_1.index t (0 : Fin 2) * 2048 + 1 * n.val = n.val; rw [e0]; omega
  | ⟨1, _⟩ => show win9_1.index t (1 : Fin 2) * 2048 + 1 * m.val = m.val; rw [e1]; omega

/-- The bias row's block at every point is the bias row. -/
theorem agg9_b_apply (c : Dev nD) (t : Fin cfg9.N) (u : Fin 1) (f : Fin 64) :
    (iblk9 V c 2 t : Vec Ideal S1x64 .f32) (ix2 u f) = (V c main_v58 : S1x64.Idx → EReal) (ix2 u f) := by
  obtain ⟨-, -, -, -, -, e0, e1, -⟩ := agg9_idx t
  unfold iblk9
  rw [View.read_apply]
  show V c main_v58 _ = V c main_v58 _
  congr 1
  funext a
  apply Fin.ext
  match a with
  | ⟨0, _⟩ => show win9_2.index t (0 : Fin 2) * 1 + 1 * u.val = u.val; rw [e0]; omega
  | ⟨1, _⟩ => show win9_2.index t (1 : Fin 2) * 64 + 1 * f.val = f.val; rw [e1]; omega

/-- The inverse-degree column's block at every point is the column. -/
theorem agg9_d_apply (c : Dev nD) (t : Fin cfg9.N) (n : Fin 2048) (u : Fin 1) :
    (iblk9 V c 3 t : Vec Ideal S2048x1 .f32) (ix2 n u) = (V c main_v59 : S2048x1.Idx → EReal) (ix2 n u) := by
  obtain ⟨-, -, -, -, -, -, -, e0, e1, -⟩ := agg9_idx t
  unfold iblk9
  rw [View.read_apply]
  show V c main_v59 _ = V c main_v59 _
  congr 1
  funext a
  apply Fin.ext
  match a with
  | ⟨0, _⟩ => show win9_3.index t (0 : Fin 2) * 2048 + 1 * n.val = n.val; rw [e0]; omega
  | ⟨1, _⟩ => show win9_3.index t (1 : Fin 2) * 1 + 1 * u.val = u.val; rw [e1]; omega

/-- What point `t` writes back is batch row `t` of the layer's dense aggregation of the arrays found at entry. -/
theorem agg9_flushed (c : Dev nD) (t : Fin cfg9.N) :
    (dat9 (F := Ideal) V c).flushed 4 t = ((cfg9.win 4).blk t).view.read (Elt Ideal)
      (Cert.Spec.arr3 (Cert.Spec.agg false (V c main_v57) (V c main_v40) (V c main_v58) (V c main_v59))) := by
  show (cfg9.win 4).cut (grid9.coords t) ((dat9 V c).after 4 t) = _
  rw [after9_4]
  unfold out9_4
  rw [View.canon_unit_zero agg9_hz3]
  simp only [View.ld_unit_zero (S := S1x2048x64) agg9_hz3, View.ld_unit_zero (S := S2048x2048) agg9_hz2,
    View.ld_unit_zero (S := S1x64) agg9_hz2, View.ld_unit_zero (S := S2048x1) agg9_hz2]
  funext j
  obtain ⟨u, n, f, rfl⟩ : ∃ (u : Fin 1) (n : Fin 2048) (f : Fin 64), j = ix3 u n f := ⟨j 0, j 1, j 2, eq_ix3 j⟩
  obtain ⟨-, -, -, -, -, -, -, -, -, e0, e1, e2⟩ := agg9_idx t
  have hemb : ((View.whole main_v60).slice ((win9 4).rect t)).emb (ix3 u n f) = ix3 (agg9_row t) n f := by
    funext a
    apply Fin.ext
    match a with
    | ⟨0, _⟩ => show win9_4.index t (0 : Fin 3) * 1 + 1 * u.val = t.val; rw [e0]; omega
    | ⟨1, _⟩ => show win9_4.index t (1 : Fin 3) * 2048 + 1 * n.val = n.val; rw [e1]; omega
    | ⟨2, _⟩ => show win9_4.index t (2 : Fin 3) * 64 + 1 * f.val = f.val; rw [e2]; omega
  show k9_pay1 (iblk9 V c 0 t) (iblk9 V c 1 t) (iblk9 V c 3 t) (iblk9 V c 2 t) (ix3 u n f) = _
  rw [View.read_apply]
  show _ = Cert.Spec.arr3 (Cert.Spec.agg false (V c main_v57) (V c main_v40) (V c main_v58) (V c main_v59))
    (((View.whole main_v60).slice ((win9 4).rect t)).emb (ix3 u n f))
  rw [hemb]
  exact agg9_point (V c main_v57) (V c main_v40) (V c main_v58) (V c main_v59)
    (iblk9 V c 0 t) (iblk9 V c 1 t) (iblk9 V c 3 t) (iblk9 V c 2 t) (agg9_row t) u n f
    (fun m f => agg9_h_apply V c t 0 m f) (fun n m => agg9_a_apply V c t n m)
    (fun n => agg9_d_apply V c t n 0) (fun f => agg9_b_apply V c t 0 f)

/-- An index of the output array lies in point `t`'s block iff each coordinate lies in the block's range on its axis. -/
theorem agg9_mem_blk (t : Fin cfg9.N) (i : S16x2048x64.Idx) :
    i ∈ ((cfg9.win 4).blk t).view.set ↔ ∀ a : Fin 3, win9_4.index t a * S1x2048x64.size a ≤ (i a).val
      ∧ (i a).val < win9_4.index t a * S1x2048x64.size a + S1x2048x64.size a := by
  show i ∈ ((View.whole main_v60).slice (win9_4.rect t)).set ↔ _
  rw [View.set_slice_whole, Rect.mem_set_unit]
  exact Iff.rfl

/-- The output array after the region: every batch row `b` is written by point `b`, so the array ends at the layer's
    dense aggregation of the arrays found at entry. -/
theorem arr9_eq (c : Dev nD) :
    (dat9 (F := Ideal) V c).arrAt 4 cfg9.N
      = Cert.Spec.arr3 (Cert.Spec.agg false (V c main_v57) (V c main_v40) (V c main_v58) (V c main_v59)) :=
  (dat9 (F := Ideal) V c).arrAt_eq_of_cover 4 _ (fun t _ => agg9_flushed V c t) fun i => by
    have h0 : (i 0).val < 16 := (i 0).isLt
    have h1 : (i 1).val < 2048 := (i 1).isLt
    have h2 : (i 2).val < 64 := (i 2).isLt
    have hN : cfg9.N = 16 := N_9
    obtain ⟨t, ht⟩ : ∃ t : Fin cfg9.N, t.val = (i 0).val := ⟨⟨(i 0).val, by omega⟩, rfl⟩
    refine ⟨t, flush9_4 t, ?_⟩
    rw [agg9_mem_blk]
    obtain ⟨-, -, -, -, -, -, -, -, -, e0, e1, e2⟩ := agg9_idx t
    intro a
    match a with
    | ⟨0, _⟩ =>
      show win9_4.index t (0 : Fin 3) * 1 ≤ (i 0).val ∧ (i 0).val < win9_4.index t (0 : Fin 3) * 1 + 1
      rw [e0]; omega
    | ⟨1, _⟩ =>
      show win9_4.index t (1 : Fin 3) * 2048 ≤ (i 1).val ∧ (i 1).val < win9_4.index t (1 : Fin 3) * 2048 + 2048
      rw [e1]; omega
    | ⟨2, _⟩ =>
      show win9_4.index t (2 : Fin 3) * 64 ≤ (i 2).val ∧ (i 2).val < win9_4.index t (2 : Fin 3) * 64 + 64
      rw [e2]; omega

end Value9

end Cert.KernelIdeal.Hand

end
-- ==== Proof.KI.V10.lean ====
/-
  The value of region 10 at the extended reals. The output row block the body leaves at grid point `t` is, entry by
  entry, the sum over the input channels of the activations' entry times the weights' entry: the shape casts only drop
  and restore the unit batch axis, the roundings are the identity on extended reals, and the product into a zero
  accumulator is the plain sum over the one contracted axis. Point `t`'s blocks are batch row `t` of the activations
  and of the output and the whole weight matrix, so the sixteen write-backs tile the output array, which ends holding
  the feature transform of the region-entry activations and weights.
-/
import proofs.«421025_j30305289241172_1_alg».proof.Proof.KI.R10
import proofs.«421025_j30305289241172_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## The product's dimension numbers, axis by axis -/

theorem lhs10_0 (j : S2048x3.Idx) (k : dot_S2048x64_S64x3_S2048x3_1_0_0_1_n_n.contr.Idx) :
    (dot_S2048x64_S64x3_S2048x3_1_0_0_1_n_n.lhsIdx j k 0).val = (j 0).val := rfl
theorem lhs10_1 (j : S2048x3.Idx) (k : dot_S2048x64_S64x3_S2048x3_1_0_0_1_n_n.contr.Idx) :
    (dot_S2048x64_S64x3_S2048x3_1_0_0_1_n_n.lhsIdx j k 1).val = (k ⟨0, by decide⟩).val := rfl
theorem rhs10_0 (j : S2048x3.Idx) (k : dot_S2048x64_S64x3_S2048x3_1_0_0_1_n_n.contr.Idx) :
    (dot_S2048x64_S64x3_S2048x3_1_0_0_1_n_n.rhsIdx j k 0).val = (k ⟨0, by decide⟩).val := rfl
theorem rhs10_1 (j : S2048x3.Idx) (k : dot_S2048x64_S64x3_S2048x3_1_0_0_1_n_n.contr.Idx) :
    (dot_S2048x64_S64x3_S2048x3_1_0_0_1_n_n.rhsIdx j k 1).val = (j 1).val := rfl

/-- The body's payload at an output index: the row of the activations against the column of the weights. -/
theorem pay10_apply (x0 : FVec Ideal S1x2048x64 .bf16) (x1 : FVec Ideal S64x3 .f32) (n : Fin 2048) (f : Fin 3) :
    k10_pay1 (F := Ideal) x0 x1 (ix3 (0 : Fin 1) n f) = ∑ k : Fin 64, (x0 (ix3 (0 : Fin 1) n k) : EReal) * (x1 (ix2 k f) : EReal) := by
  unfold k10_pay1
  refine (shapeCast_addUnit_apply ![2048, 3] _ _ _).trans ?_
  refine (truncf_apply (φ := .f32) (ψ := .bf16) _ bitsLt_bf16_f32 _).trans ?_
  refine (Ideal.matmul_constant_zero_apply dot_S2048x64_S64x3_S2048x3_1_0_0_1_n_n none _ _ _).trans ?_
  rw [← Equiv.sum_comp (contrEquiv1 dot_S2048x64_S64x3_S2048x3_1_0_0_1_n_n 64 rfl rfl).symm]
  refine Finset.sum_congr rfl fun i _ => ?_
  congr 1
  · show shapeCast S2048x64 x0 shapeCasts_S1x2048x64_S2048x64 _ = _
    refine (shapeCast_dropUnit_apply ![2048, 64] x0 _ _).trans (congrArg x0 (funext fun a => Fin.ext ?_))
    match a with
    | ⟨0, _⟩ => rfl
    | ⟨1, _⟩ => exact lhs10_0 (fun a => ix3 (0 : Fin 1) n f a.succ) ((contrEquiv1 dot_S2048x64_S64x3_S2048x3_1_0_0_1_n_n 64 rfl rfl).symm i)
    | ⟨2, _⟩ => exact (lhs10_1 (fun a => ix3 (0 : Fin 1) n f a.succ) ((contrEquiv1 dot_S2048x64_S64x3_S2048x3_1_0_0_1_n_n 64 rfl rfl).symm i)).trans (contrEquiv1_symm_val _ 64 rfl rfl i)
  · refine (truncf_apply (φ := .f32) (ψ := .bf16) x1 bitsLt_bf16_f32 _).trans (congrArg x1 (funext fun a => Fin.ext ?_))
    match a with
    | ⟨0, _⟩ => exact (rhs10_0 (fun a => ix3 (0 : Fin 1) n f a.succ) ((contrEquiv1 dot_S2048x64_S64x3_S2048x3_1_0_0_1_n_n 64 rfl rfl).symm i)).trans (contrEquiv1_symm_val _ 64 rfl rfl i)
    | ⟨1, _⟩ => exact rhs10_1 (fun a => ix3 (0 : Fin 1) n f a.succ) ((contrEquiv1 dot_S2048x64_S64x3_S2048x3_1_0_0_1_n_n 64 rfl rfl).symm i)

/-! ## The blocks at a point -/

theorem hz10_3 : (![0, 0, 0] : Fin 3 → Nat) = fun _ => 0 := funext fun a => by fin_cases a <;> rfl
theorem hz10_2 : (![0, 0] : Fin 2 → Nat) = fun _ => 0 := funext fun a => by fin_cases a <;> rfl

/-- The windows' index maps, decided once over the grid: the activations' and the output's block index is the point
    on the batch axis and zero elsewhere; the weights' is zero. -/
theorem idxFacts10 : ∀ t : Fin cfg10.N,
    win10_0.index t (0 : Fin 3) = t.val ∧ win10_0.index t (1 : Fin 3) = 0 ∧ win10_0.index t (2 : Fin 3) = 0
    ∧ win10_1.index t (0 : Fin 2) = 0 ∧ win10_1.index t (1 : Fin 2) = 0
    ∧ win10_2.index t (0 : Fin 3) = t.val ∧ win10_2.index t (1 : Fin 3) = 0 ∧ win10_2.index t (2 : Fin 3) = 0 :=
  (by decide +kernel : ∀ t : Fin grid10.N, _)

/-- A grid point as a batch row. -/
abbrev row10 (t : Fin cfg10.N) : Fin 16 := ⟨t.val, Nat.lt_of_lt_of_eq t.isLt (show cfg10.N = 16 from N_10)⟩

section
variable (V : (c : Dev nD) → (b : Ref sig .tc) → Buf (Elt Ideal) ((c : Thread nD τ).loc b))

/-- The activations' block at point `t` is batch row `t` of the array. -/
theorem x_at10 (c : Dev nD) (t : Fin cfg10.N) (n : Fin 2048) (k : Fin 64) :
    (iblk10 V c 0 t : FVec Ideal S1x2048x64 .bf16) (ix3 (0 : Fin 1) n k)
      = (V c main_v60 : (Cert.Spec.Sh3 16 2048 64).Idx → EReal) (ix3 (row10 t) n k) := by
  obtain ⟨e0, e1, e2, -⟩ := idxFacts10 t
  unfold iblk10
  rw [View.read_apply]
  show V c main_v60 _ = V c main_v60 _
  congr 1
  funext a
  apply Fin.ext
  match a with
  | ⟨0, _⟩ => show win10_0.index t (0 : Fin 3) * 1 + 1 * 0 = t.val; omega
  | ⟨1, _⟩ => show win10_0.index t (1 : Fin 3) * 2048 + 1 * n.val = n.val; omega
  | ⟨2, _⟩ => show win10_0.index t (2 : Fin 3) * 64 + 1 * k.val = k.val; omega

/-- The weights' block at every point is the whole matrix. -/
theorem w_at10 (c : Dev nD) (t : Fin cfg10.N) (k : Fin 64) (f : Fin 3) :
    (iblk10 V c 1 t : FVec Ideal S64x3 .f32) (ix2 k f)
      = (V c main_arg12 : (Cert.Spec.Sh2 64 3).Idx → EReal) (ix2 k f) := by
  obtain ⟨-, -, -, e0, e1, -⟩ := idxFacts10 t
  unfold iblk10
  rw [View.read_apply]
  show V c main_arg12 _ = V c main_arg12 _
  congr 1
  funext a
  apply Fin.ext
  match a with
  | ⟨0, _⟩ => show win10_1.index t (0 : Fin 2) * 64 + 1 * k.val = k.val; omega
  | ⟨1, _⟩ => show win10_1.index t (1 : Fin 2) * 3 + 1 * f.val = f.val; omega

/-- The feature transform of the region-entry activations and weights, as an array. -/
abbrev feat_at10 (c : Dev nD) : (Cert.Spec.Sh3 16 2048 3).Idx → EReal :=
  Cert.Spec.arr3 (Cert.Spec.feat (V c main_v60 : (Cert.Spec.Sh3 16 2048 64).Idx → EReal) (V c main_arg12 : (Cert.Spec.Sh2 64 3).Idx → EReal))

/-- What point `t` writes back is batch row `t` of the feature transform. -/
theorem flushed10_eq (c : Dev nD) (t : Fin cfg10.N) :
    (dat10 (F := Ideal) V c).flushed 2 t = ((cfg10.win 2).blk t).view.read (Elt Ideal) (feat_at10 V c) := by
  show (cfg10.win 2).cut (grid10.coords t) ((dat10 V c).after 2 t) = _
  rw [after10_2]
  unfold out10_2
  rw [View.canon_unit_zero hz10_3]
  simp only [View.ld_unit_zero (S := S1x2048x64) hz10_3, View.ld_unit_zero (S := S64x3) hz10_2]
  obtain ⟨-, -, -, -, -, e0, e1, e2⟩ := idxFacts10 t
  have key : ∀ j : S1x2048x3.Idx, k10_pay1 (F := Ideal) (iblk10 V c 0 t : FVec Ideal S1x2048x64 .bf16) (iblk10 V c 1 t : FVec Ideal S64x3 .f32) j
      = feat_at10 V c (((cfg10.win 2).blk t).view.emb j) := by
    intro j
    obtain ⟨a, n, f, rfl⟩ : ∃ (a : Fin 1) (n : Fin 2048) (f : Fin 3), j = ix3 a n f := ⟨j 0, j 1, j 2, eq_ix3 j⟩
    obtain rfl : a = 0 := Subsingleton.elim _ _
    have hemb : ((cfg10.win 2).blk t).view.emb (ix3 (0 : Fin 1) n f) = (ix3 (row10 t) n f : (Cert.Spec.Sh3 16 2048 3).Idx) := by
      funext a
      apply Fin.ext
      match a with
      | ⟨0, _⟩ => show win10_2.index t (0 : Fin 3) * 1 + 1 * 0 = t.val; omega
      | ⟨1, _⟩ => show win10_2.index t (1 : Fin 3) * 2048 + 1 * n.val = n.val; omega
      | ⟨2, _⟩ => show win10_2.index t (2 : Fin 3) * 3 + 1 * f.val = f.val; omega
    rw [hemb]
    refine (pay10_apply _ _ n f).trans ?_
    show _ = Cert.Spec.feat _ _ (row10 t) n f
    unfold Cert.Spec.feat
    exact Finset.sum_congr rfl fun k _ => by rw [x_at10 V c t n k, w_at10 V c t k f]
  exact funext key

/-- An index of the output array is in point `t`'s block iff each coordinate is in the block's range on its axis. -/
theorem mem_blk10 (t : Fin cfg10.N) (i : S16x2048x3.Idx) :
    i ∈ ((cfg10.win 2).blk t).view.set ↔ ∀ a : Fin 3, win10_2.index t a * S1x2048x3.size a ≤ (i a).val ∧ (i a).val < win10_2.index t a * S1x2048x3.size a + S1x2048x3.size a := by
  show i ∈ ((View.whole main_v61).slice (win10_2.rect t)).set ↔ _
  rw [View.set_slice_whole, Rect.mem_set_unit]
  exact Iff.rfl

/-- Every index of the output array is in the block of the point its batch coordinate names. -/
theorem covered10 (i : S16x2048x3.Idx) : ∃ t : Fin cfg10.N, (cfg10.win 2).flush t = true ∧ i ∈ ((cfg10.win 2).blk t).view.set := by
  have h0 : (i 0).val < 16 := (i 0).isLt
  have h1 : (i 1).val < 2048 := (i 1).isLt
  have h2 : (i 2).val < 3 := (i 2).isLt
  obtain ⟨t, ht⟩ : ∃ t : Fin cfg10.N, t.val = (i 0).val := ⟨⟨(i 0).val, by rw [show cfg10.N = 16 from N_10]; exact h0⟩, rfl⟩
  refine ⟨t, flush10_2 t, ?_⟩
  obtain ⟨-, -, -, -, -, e0, e1, e2⟩ := idxFacts10 t
  rw [mem_blk10]
  intro a
  match a with
  | ⟨0, _⟩ => show win10_2.index t (0 : Fin 3) * 1 ≤ (i 0).val ∧ (i 0).val < win10_2.index t (0 : Fin 3) * 1 + 1; omega
  | ⟨1, _⟩ => show win10_2.index t (1 : Fin 3) * 2048 ≤ (i 1).val ∧ (i 1).val < win10_2.index t (1 : Fin 3) * 2048 + 2048; omega
  | ⟨2, _⟩ => show win10_2.index t (2 : Fin 3) * 3 ≤ (i 2).val ∧ (i 2).val < win10_2.index t (2 : Fin 3) * 3 + 3; omega

end

/-- THE OUTPUT ARRAY after the region: the feature transform of the region-entry activations and weights. -/
theorem arr10_eq (V : (c : Dev nD) → (b : Ref sig .tc) → Buf (Elt Ideal) ((c : Thread nD τ).loc b)) (c : Dev nD) :
    (dat10 (F := Ideal) V c).arrAt 2 cfg10.N = Cert.Spec.arr3 (Cert.Spec.feat (V c main_v60 : (Cert.Spec.Sh3 16 2048 64).Idx → EReal) (V c main_arg12 : (Cert.Spec.Sh2 64 3).Idx → EReal)) :=
  (dat10 (F := Ideal) V c).arrAt_eq_of_cover 2 (feat_at10 V c) (fun t _ => flushed10_eq V c t) (covered10)

end Cert.KernelIdeal.Hand

end
-- ==== Proof.KI.V11.lean ====
/-
  Aggregation layer, pipeline 11, read as a value over the extended reals. The stored value at entry (n, f) of a block is
  leaky (∑ₘ A[n, m] · h1[m, f] + h1[n, f] · invdeg[n] + bias[f]): the matrix product accumulated into zero is the sum over its one
  contracted axis, the inverse-degree column and the bias row are laid along the block, and the conversions between the
  two float formats are the identity on extended reals; the comparison with zero and the selection are the rectifier's two cases. The block of grid point `t` is batch row `t` of the features and
  of the output, while the adjacency, the bias and the inverse degrees are whole at every point; so point `t` writes
  back batch row `t` of the rectified dense aggregation, the sixteen rows cover the output array, and the array ends at the rectified dense
  aggregation of the arrays found at entry.
-/
import proofs.«421025_j30305289241172_1_alg».proof.Proof.Gen.KernelIdeal.Launch
import proofs.«421025_j30305289241172_1_alg».proof.Proof.Gen.KernelIdeal.Skeleton
import proofs.«421025_j30305289241172_1_alg».proof.Proof.Gen.KernelIdeal.Points
import proofs.«421025_j30305289241172_1_alg».proof.Proof.KI.R11
import proofs.«421025_j30305289241172_1_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window BodyObligation cellOf)
open scoped BigOperators

/-! ## The matrix product's operand indices, axis by axis -/

theorem agg11_lhs_0 (i : S2048x3.Idx) (q : dot_S2048x2048_S2048x3_S2048x3_1_0_0_1_n_n.contr.Idx) :
    (dot_S2048x2048_S2048x3_S2048x3_1_0_0_1_n_n.lhsIdx i q 0).val = (i 0).val := by
  unfold DotDims.lhsIdx
  rw [dif_neg (show ¬(0 : Fin S2048x2048.rank) ∈ dot_S2048x2048_S2048x3_S2048x3_1_0_0_1_n_n.lhsBatch by decide),
    dif_pos (show (0 : Fin S2048x2048.rank) ∈ dot_S2048x2048_S2048x3_S2048x3_1_0_0_1_n_n.lhsNonContracting by decide)]
  rfl
theorem agg11_lhs_1 (i : S2048x3.Idx) (q : dot_S2048x2048_S2048x3_S2048x3_1_0_0_1_n_n.contr.Idx) :
    (dot_S2048x2048_S2048x3_S2048x3_1_0_0_1_n_n.lhsIdx i q 1).val = (q ⟨0, by decide⟩).val :=
  dot_S2048x2048_S2048x3_S2048x3_1_0_0_1_n_n.lhsIdx_val_of_single rfl i q
theorem agg11_rhs_0 (i : S2048x3.Idx) (q : dot_S2048x2048_S2048x3_S2048x3_1_0_0_1_n_n.contr.Idx) :
    (dot_S2048x2048_S2048x3_S2048x3_1_0_0_1_n_n.rhsIdx i q 0).val = (q ⟨0, by decide⟩).val :=
  dot_S2048x2048_S2048x3_S2048x3_1_0_0_1_n_n.rhsIdx_val_of_single rfl i q
theorem agg11_rhs_1 (i : S2048x3.Idx) (q : dot_S2048x2048_S2048x3_S2048x3_1_0_0_1_n_n.contr.Idx) :
    (dot_S2048x2048_S2048x3_S2048x3_1_0_0_1_n_n.rhsIdx i q 1).val = (i 1).val := by
  unfold DotDims.rhsIdx
  rw [dif_neg (show ¬(1 : Fin S2048x3.rank) ∈ dot_S2048x2048_S2048x3_S2048x3_1_0_0_1_n_n.rhsBatch by decide),
    dif_pos (show (1 : Fin S2048x3.rank) ∈ dot_S2048x2048_S2048x3_S2048x3_1_0_0_1_n_n.rhsNonContracting by decide)]
  rfl

/-- The product accumulated into zero, at entry (n, f): the sum over the contracted axis. -/
theorem agg11_matmul_apply (a : FVec Ideal S2048x2048 .bf16) (h : FVec Ideal S2048x3 .bf16) (n : Fin 2048) (f : Fin 3) :
    matmul dot_S2048x2048_S2048x3_S2048x3_1_0_0_1_n_n none a h (constant (F := Ideal) S2048x3 .f32 0x00000000#32) (ix2 n f)
      = ∑ m : Fin 2048, a (ix2 n m) * h (ix2 m f) := by
  simp only [matmul]
  rw [Ideal.matmul_constant_zero_apply, ← Equiv.sum_comp (contrEquiv1 dot_S2048x2048_S2048x3_S2048x3_1_0_0_1_n_n 2048 rfl rfl).symm]
  refine Finset.sum_congr rfl fun k _ => ?_
  have hk := contrEquiv1_symm_val dot_S2048x2048_S2048x3_S2048x3_1_0_0_1_n_n 2048 rfl rfl k
  have el : dot_S2048x2048_S2048x3_S2048x3_1_0_0_1_n_n.lhsIdx (ix2 n f) ((contrEquiv1 dot_S2048x2048_S2048x3_S2048x3_1_0_0_1_n_n 2048 rfl rfl).symm k) = ix2 n k :=
    funext fun a => Fin.ext (by
      match a with
      | ⟨0, _⟩ => exact agg11_lhs_0 _ _
      | ⟨1, _⟩ => exact (agg11_lhs_1 _ _).trans hk)
  have er : dot_S2048x2048_S2048x3_S2048x3_1_0_0_1_n_n.rhsIdx (ix2 n f) ((contrEquiv1 dot_S2048x2048_S2048x3_S2048x3_1_0_0_1_n_n 2048 rfl rfl).symm k) = ix2 k f :=
    funext fun a => Fin.ext (by
      match a with
      | ⟨0, _⟩ => exact (agg11_rhs_0 _ _).trans hk
      | ⟨1, _⟩ => exact agg11_rhs_1 _ _)
  rw [el, er]

/-- A column laid along every column of the block: entry (n, f) is the column's entry n. -/
theorem agg11_col_apply (v : FVec Ideal S2048x1 .f32) (n : Fin 2048) (f : Fin 3) :
    broadcastTo S2048x3 v broadcasts_S2048x1_S2048x3 (ix2 n f) = v (ix2 n (0 : Fin 1)) := by
  refine broadcastTo_apply v broadcasts_S2048x1_S2048x3 (ix2 n f) (ix2 n (0 : Fin 1)) fun ax => ?_
  match ax with
  | ⟨0, _⟩ => rfl
  | ⟨1, _⟩ => rfl

/-- The rectifier as the body computes it — keep `y` where `0 ≤ y`, else the slope times `y` — is the network's leaky
    rectifier. -/
theorem agg11_leaky (y : EReal) :
    Scalar.select (FloatOps.cmpf (F := Ideal) (φ := .f32) .oge y (Scalar.ofBits (F := Ideal) .f32 0x00000000#32)) y
        ((Scalar.ofBits (F := Ideal) .f32 0x3C23D70A#32 : EReal) * y) = Cert.Spec.leaky y := by
  unfold Cert.Spec.leaky Scalar.select
  show (if Ideal.cmp .oge y (Ideal.ofBits .f32 0x00000000#32) = 1#1 then y else Ideal.ofBits .f32 0x3C23D70A#32 * y) = _
  rw [Ideal.ofBits_zero_f32]
  unfold Ideal.cmp
  by_cases h : (0 : EReal) ≤ y
  · rw [if_pos h]; simp [h]
  · rw [if_neg h]; simp [h]

/-- The stored value at entry (u, n, f) of the block. -/
theorem agg11_pay_apply (x0 : Vec Ideal S1x2048x3 .bf16) (x1 : Vec Ideal S2048x2048 .bf16) (x3 : Vec Ideal S2048x1 .f32) (x2 : Vec Ideal S1x3 .f32)
    (u : Fin 1) (n : Fin 2048) (f : Fin 3) :
    (k11_pay1 x0 x1 x3 x2 (ix3 u n f) : EReal)
      = Cert.Spec.leaky (((∑ m : Fin 2048, (x1 (ix2 n m) : EReal) * x0 (ix3 (0 : Fin 1) m f)) + (x0 (ix3 (0 : Fin 1) n f) : EReal) * x3 (ix2 n (0 : Fin 1))) + x2 (ix2 (0 : Fin 1) f)) := by
  unfold k11_pay1
  refine (shapeCast_ab_1ab_apply _ shapeCasts_S2048x3_S1x2048x3 u n f).trans ?_
  show Scalar.select (FloatOps.cmpf (F := Ideal) (φ := .f32) .oge (_ : EReal) (Scalar.ofBits (F := Ideal) .f32 0x00000000#32)) (_ : EReal)
      ((Scalar.ofBits (F := Ideal) .f32 0x3C23D70A#32 : EReal) * (_ : EReal)) = _
  refine (agg11_leaky _).trans ?_
  congr 1
  show ((matmul (F := Ideal) dot_S2048x2048_S2048x3_S2048x3_1_0_0_1_n_n none _ _ _ (ix2 n f) : EReal) + (_ : EReal) * (_ : EReal)) + (_ : EReal) = _
  rw [agg11_matmul_apply, agg11_col_apply, broadcastTo_1b_ab_apply]
  simp only [shapeCast_self]
  congr 1
  congr 1
  · refine Finset.sum_congr rfl fun m _ => ?_
    congr 1
    exact shapeCast_1ab_ab_apply x0 shapeCasts_S1x2048x3_S2048x3 m f
  · congr 1
    exact shapeCast_1ab_ab_apply x0 shapeCasts_S1x2048x3_S2048x3 n f

/-- The stored value at entry (u, n, f), when the four blocks are: batch row `b` of the features `H`, the adjacency `A`,
    the inverse degrees `D` and the bias `B` — entry (b, n, f) of the layer's rectified dense aggregation of `H`, `A`, `B`, `D`. -/
theorem agg11_point (H : S16x2048x3.Idx → EReal) (A : S2048x2048.Idx → EReal) (B : S1x3.Idx → EReal) (D : S2048x1.Idx → EReal)
    (x0 : Vec Ideal S1x2048x3 .bf16) (x1 : Vec Ideal S2048x2048 .bf16) (x3 : Vec Ideal S2048x1 .f32) (x2 : Vec Ideal S1x3 .f32)
    (b : Fin 16) (u : Fin 1) (n : Fin 2048) (f : Fin 3)
    (h0 : ∀ (m : Fin 2048) (f : Fin 3), x0 (ix3 (0 : Fin 1) m f) = H (ix3 b m f))
    (h1 : ∀ n m : Fin 2048, x1 (ix2 n m) = A (ix2 n m))
    (h3 : ∀ n : Fin 2048, x3 (ix2 n (0 : Fin 1)) = D (ix2 n (0 : Fin 1)))
    (h2 : ∀ f : Fin 3, x2 (ix2 (0 : Fin 1) f) = B (ix2 (0 : Fin 1) f)) :
    k11_pay1 x0 x1 x3 x2 (ix3 u n f) = Cert.Spec.arr3 (Cert.Spec.agg true H A B D) (ix3 b n f) := by
  rw [agg11_pay_apply, Cert.Spec.arr3_ix3]
  show _ = Cert.Spec.leaky (((∑ m : Fin 2048, A (ix2 n m) * H (ix3 b m f)) + H (ix3 b n f) * D (ix2 n (0 : Fin 1))) + B (ix2 (0 : Fin 1) f))
  rw [h0 n f, h3 n, h2 f]
  congr 3
  refine Finset.sum_congr rfl fun m _ => ?_
  rw [h1 n m, h0 m f]

/-! ## From blocks to the array -/

section Value11
variable (V : (c : Dev nD) → (b : Ref sig .tc) → Buf (Elt Ideal) ((c : Thread nD τ).loc b))

theorem agg11_hz3 : (![0, 0, 0] : Fin 3 → Nat) = fun _ => 0 := funext fun a => by fin_cases a <;> rfl
theorem agg11_hz2 : (![0, 0] : Fin 2 → Nat) = fun _ => 0 := funext fun a => by fin_cases a <;> rfl

/-- The index maps over the grid: the features' and the output's block at point `t` is batch row `t`, whole on the
    other two axes; the adjacency, the bias and the inverse degrees are taken whole at every point. -/
theorem agg11_idx : ∀ t : Fin cfg11.N,
    win11_0.index t (0 : Fin 3) = t.val ∧ win11_0.index t (1 : Fin 3) = 0 ∧ win11_0.index t (2 : Fin 3) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 3) = t.val ∧ win11_4.index t (1 : Fin 3) = 0 ∧ win11_4.index t (2 : Fin 3) = 0 :=
  (by decide +kernel : ∀ t : Fin grid11.N, _)

/-- The batch row of grid point `t`. -/
abbrev agg11_row (t : Fin cfg11.N) : Fin 16 := ⟨t.val, by have h := t.isLt; have e : cfg11.N = 16 := N_11; omega⟩

/-- The features' block at point `t` is batch row `t` of the features. -/
theorem agg11_h_apply (c : Dev nD) (t : Fin cfg11.N) (u : Fin 1) (n : Fin 2048) (f : Fin 3) :
    (iblk11 V c 0 t : Vec Ideal S1x2048x3 .bf16) (ix3 u n f) = (V c main_v61 : S16x2048x3.Idx → EReal) (ix3 (agg11_row t) n f) := by
  obtain ⟨e0, e1, e2, -⟩ := agg11_idx t
  unfold iblk11
  rw [View.read_apply]
  show V c main_v61 _ = V c main_v61 _
  congr 1
  funext a
  apply Fin.ext
  match a with
  | ⟨0, _⟩ => show win11_0.index t (0 : Fin 3) * 1 + 1 * u.val = t.val; rw [e0]; omega
  | ⟨1, _⟩ => show win11_0.index t (1 : Fin 3) * 2048 + 1 * n.val = n.val; rw [e1]; omega
  | ⟨2, _⟩ => show win11_0.index t (2 : Fin 3) * 3 + 1 * f.val = f.val; rw [e2]; omega

/-- The adjacency's block at every point is the adjacency. -/
theorem agg11_a_apply (c : Dev nD) (t : Fin cfg11.N) (n m : Fin 2048) :
    (iblk11 V c 1 t : Vec Ideal S2048x2048 .bf16) (ix2 n m) = (V c main_v40 : S2048x2048.Idx → EReal) (ix2 n m) := by
  obtain ⟨-, -, -, e0, e1, -⟩ := agg11_idx t
  unfold iblk11
  rw [View.read_apply]
  show V c main_v40 _ = V c main_v40 _
  congr 1
  funext a
  apply Fin.ext
  match a with
  | ⟨0, _⟩ => show win11_1.index t (0 : Fin 2) * 2048 + 1 * n.val = n.val; rw [e0]; omega
  | ⟨1, _⟩ => show win11_1.index t (1 : Fin 2) * 2048 + 1 * m.val = m.val; rw [e1]; omega

/-- The bias row's block at every point is the bias row. -/
theorem agg11_b_apply (c : Dev nD) (t : Fin cfg11.N) (u : Fin 1) (f : Fin 3) :
    (iblk11 V c 2 t : Vec Ideal S1x3 .f32) (ix2 u f) = (V c main_v62 : S1x3.Idx → EReal) (ix2 u f) := by
  obtain ⟨-, -, -, -, -, e0, e1, -⟩ := agg11_idx t
  unfold iblk11
  rw [View.read_apply]
  show V c main_v62 _ = V c main_v62 _
  congr 1
  funext a
  apply Fin.ext
  match a with
  | ⟨0, _⟩ => show win11_2.index t (0 : Fin 2) * 1 + 1 * u.val = u.val; rw [e0]; omega
  | ⟨1, _⟩ => show win11_2.index t (1 : Fin 2) * 3 + 1 * f.val = f.val; rw [e1]; omega

/-- The inverse-degree column's block at every point is the column. -/
theorem agg11_d_apply (c : Dev nD) (t : Fin cfg11.N) (n : Fin 2048) (u : Fin 1) :
    (iblk11 V c 3 t : Vec Ideal S2048x1 .f32) (ix2 n u) = (V c main_v63 : S2048x1.Idx → EReal) (ix2 n u) := by
  obtain ⟨-, -, -, -, -, -, -, e0, e1, -⟩ := agg11_idx t
  unfold iblk11
  rw [View.read_apply]
  show V c main_v63 _ = V c main_v63 _
  congr 1
  funext a
  apply Fin.ext
  match a with
  | ⟨0, _⟩ => show win11_3.index t (0 : Fin 2) * 2048 + 1 * n.val = n.val; rw [e0]; omega
  | ⟨1, _⟩ => show win11_3.index t (1 : Fin 2) * 1 + 1 * u.val = u.val; rw [e1]; omega

/-- What point `t` writes back is batch row `t` of the layer's dense aggregation of the arrays found at entry. -/
theorem agg11_flushed (c : Dev nD) (t : Fin cfg11.N) :
    (dat11 (F := Ideal) V c).flushed 4 t = ((cfg11.win 4).blk t).view.read (Elt Ideal)
      (Cert.Spec.arr3 (Cert.Spec.agg true (V c main_v61) (V c main_v40) (V c main_v62) (V c main_v63))) := by
  show (cfg11.win 4).cut (grid11.coords t) ((dat11 V c).after 4 t) = _
  rw [after11_4]
  unfold out11_4
  rw [View.canon_unit_zero agg11_hz3]
  simp only [View.ld_unit_zero (S := S1x2048x3) agg11_hz3, View.ld_unit_zero (S := S2048x2048) agg11_hz2,
    View.ld_unit_zero (S := S1x3) agg11_hz2, View.ld_unit_zero (S := S2048x1) agg11_hz2]
  funext j
  obtain ⟨u, n, f, rfl⟩ : ∃ (u : Fin 1) (n : Fin 2048) (f : Fin 3), j = ix3 u n f := ⟨j 0, j 1, j 2, eq_ix3 j⟩
  obtain ⟨-, -, -, -, -, -, -, -, -, e0, e1, e2⟩ := agg11_idx t
  have hemb : ((View.whole main_v64).slice ((win11 4).rect t)).emb (ix3 u n f) = ix3 (agg11_row t) n f := by
    funext a
    apply Fin.ext
    match a with
    | ⟨0, _⟩ => show win11_4.index t (0 : Fin 3) * 1 + 1 * u.val = t.val; rw [e0]; omega
    | ⟨1, _⟩ => show win11_4.index t (1 : Fin 3) * 2048 + 1 * n.val = n.val; rw [e1]; omega
    | ⟨2, _⟩ => show win11_4.index t (2 : Fin 3) * 3 + 1 * f.val = f.val; rw [e2]; omega
  show k11_pay1 (iblk11 V c 0 t) (iblk11 V c 1 t) (iblk11 V c 3 t) (iblk11 V c 2 t) (ix3 u n f) = _
  rw [View.read_apply]
  show _ = Cert.Spec.arr3 (Cert.Spec.agg true (V c main_v61) (V c main_v40) (V c main_v62) (V c main_v63))
    (((View.whole main_v64).slice ((win11 4).rect t)).emb (ix3 u n f))
  rw [hemb]
  exact agg11_point (V c main_v61) (V c main_v40) (V c main_v62) (V c main_v63)
    (iblk11 V c 0 t) (iblk11 V c 1 t) (iblk11 V c 3 t) (iblk11 V c 2 t) (agg11_row t) u n f
    (fun m f => agg11_h_apply V c t 0 m f) (fun n m => agg11_a_apply V c t n m)
    (fun n => agg11_d_apply V c t n 0) (fun f => agg11_b_apply V c t 0 f)

/-- An index of the output array lies in point `t`'s block iff each coordinate lies in the block's range on its axis. -/
theorem agg11_mem_blk (t : Fin cfg11.N) (i : S16x2048x3.Idx) :
    i ∈ ((cfg11.win 4).blk t).view.set ↔ ∀ a : Fin 3, win11_4.index t a * S1x2048x3.size a ≤ (i a).val
      ∧ (i a).val < win11_4.index t a * S1x2048x3.size a + S1x2048x3.size a := by
  show i ∈ ((View.whole main_v64).slice (win11_4.rect t)).set ↔ _
  rw [View.set_slice_whole, Rect.mem_set_unit]
  exact Iff.rfl

/-- The output array after the region: every batch row `b` is written by point `b`, so the array ends at the layer's
    dense aggregation of the arrays found at entry. -/
theorem arr11_eq (c : Dev nD) :
    (dat11 (F := Ideal) V c).arrAt 4 cfg11.N
      = Cert.Spec.arr3 (Cert.Spec.agg true (V c main_v61) (V c main_v40) (V c main_v62) (V c main_v63)) :=
  (dat11 (F := Ideal) V c).arrAt_eq_of_cover 4 _ (fun t _ => agg11_flushed V c t) fun i => by
    have h0 : (i 0).val < 16 := (i 0).isLt
    have h1 : (i 1).val < 2048 := (i 1).isLt
    have h2 : (i 2).val < 3 := (i 2).isLt
    have hN : cfg11.N = 16 := N_11
    obtain ⟨t, ht⟩ : ∃ t : Fin cfg11.N, t.val = (i 0).val := ⟨⟨(i 0).val, by omega⟩, rfl⟩
    refine ⟨t, flush11_4 t, ?_⟩
    rw [agg11_mem_blk]
    obtain ⟨-, -, -, -, -, -, -, -, -, e0, e1, e2⟩ := agg11_idx t
    intro a
    match a with
    | ⟨0, _⟩ =>
      show win11_4.index t (0 : Fin 3) * 1 ≤ (i 0).val ∧ (i 0).val < win11_4.index t (0 : Fin 3) * 1 + 1
      rw [e0]; omega
    | ⟨1, _⟩ =>
      show win11_4.index t (1 : Fin 3) * 2048 ≤ (i 1).val ∧ (i 1).val < win11_4.index t (1 : Fin 3) * 2048 + 2048
      rw [e1]; omega
    | ⟨2, _⟩ =>
      show win11_4.index t (2 : Fin 3) * 3 ≤ (i 2).val ∧ (i 2).val < win11_4.index t (2 : Fin 3) * 3 + 3
      rw [e2]; omega

end Value11

end Cert.KernelIdeal.Hand

end
-- ==== Proof.KI.Prelude.lean ====
/-
  The first host stretch of the program read at an index. From the integer edge array (row 0 the sources, row 1 the
  targets, every word a node number) it computes the degree with its self loop by a scatter-add of ones at the
  targets, the inverse degree, the inverse square-root degree, and the dense normalised adjacency: a scatter-add of
  ones at the (target, source) pairs, scaled by both endpoints' inverse square-root degrees. A scatter-add read at an
  element is the operand there plus the sum of the updates whose index words name that element; the wrap of a negative
  index (adding the node count) is the identity on a node number.
-/
import proofs.«421025_j30305289241172_1_alg».proof.Proof.Gen.KernelIdeal.Launch
import Idealize.ShloMosaic.Lib.StableHlo.Run
import Idealize.ShloMosaic.Lib.ValueIdx
import Idealize.ShloMosaic.Lib.Pipeline.Value
import Idealize.ShloMosaic.PureOps.Ideal.Laws
import proofs.«421025_j30305289241172_1_alg».proof.Proof.Spec

set_option maxRecDepth 16384

noncomputable section

namespace Cert.KernelIdeal.Hand

open Cert.KernelIdeal Cert.KernelIdeal.Gen
open Idealize.ShloMosaic Idealize.ShloMosaic.TcCoe
open Idealize.ShloMosaic.ValueIdx
open Cert.Spec (InRange srcOf dstOf)

open Idealize.ShloMosaic.ScatterDims

theorem ofBits_one_f32 : Ideal.ofBits .f32 0x3F800000#32 = 1 := by
  simp [Ideal.ofBits, Ideal.ieee]
  rw [← EReal.coe_mul]
  norm_num

/-- A scatter's update lands at `i` exactly when, on every axis, start plus window coordinate is `i`'s coordinate. -/
theorem resultIdx?_eq_some_iff {s si u : Shape} (d : ScatterDims s si u) {w : Nat} (j : u.Idx) (idx : IVec si w) (i : s.Idx) :
    d.resultIdx? j idx = some i ↔ ∀ a, d.start j idx a + d.window j a = ((i a).val : Int) := by
  unfold ScatterDims.resultIdx?
  constructor
  · intro h a
    split at h
    · rename_i hc
      have e := Option.some.inj h
      have := congrFun e a
      have hv := congrArg Fin.val this
      simp only at hv
      have := hc a
      omega
    · exact absurd h (by simp)
  · intro h
    have hc : ∀ a, 0 ≤ d.start j idx a + d.window j a ∧ d.start j idx a + d.window j a < s.size a := fun a => by
      have := h a; have := (i a).isLt; omega
    rw [dif_pos hc]
    congr 1
    funext a
    apply Fin.ext
    show (d.start j idx a + d.window j a).toNat = (i a).val
    have := h a; omega

/-- The one-axis scatter: update `j` reads its index word at row `j`, and lands at that word on the one operand axis, with no window offset. -/
theorem d1_siIdx (j : S12288.Idx) (c : Fin scatter_S2048_S12288x1_S12288_n_0_0_1.scatterDimsToOperandDims.length) :
    scatter_S2048_S12288x1_S12288_n_0_0_1.siIdx j c = ix2 (j 0) 0 := by
  funext b
  match b with
  | ⟨0, _⟩ => rfl
  | ⟨1, _⟩ =>
    apply Fin.ext
    have := (scatter_S2048_S12288x1_S12288_n_0_0_1.siIdx j c ⟨1, by decide⟩).isLt
    have e : S12288x1.size ⟨1, by decide⟩ = 1 := by decide
    show (scatter_S2048_S12288x1_S12288_n_0_0_1.siIdx j c ⟨1, _⟩).val = 0
    omega

theorem d1_start (j : S12288.Idx) (idx : IVec S12288x1 32) (a : Fin 1) :
    scatter_S2048_S12288x1_S12288_n_0_0_1.start j idx a = (idx (ix2 (j 0) 0)).toInt := by
  unfold ScatterDims.start
  have ha : a ∈ scatter_S2048_S12288x1_S12288_n_0_0_1.scatterDimsToOperandDims := by
    fin_cases a; exact List.mem_singleton.2 rfl
  rw [dif_pos ha, d1_siIdx]
  rfl

theorem d1_window (j : S12288.Idx) (a : Fin 1) :
    scatter_S2048_S12288x1_S12288_n_0_0_1.window j a = 0 := by
  unfold ScatterDims.window
  have ha : a ∉ scatter_S2048_S12288x1_S12288_n_0_0_1.sKept := by
    fin_cases a; decide
  rw [dif_neg ha]

/-- The two-axis scatter: update `j` reads component `c` of its index at (`j`, `c`), and lands at those two words, with no window offset. -/
theorem d2_siIdx (j : S12288.Idx) (c : Fin scatter_S2048x2048_S12288x2_S12288_n_01_01_1.scatterDimsToOperandDims.length) :
    scatter_S2048x2048_S12288x2_S12288_n_01_01_1.siIdx j c = ix2 (j 0) ⟨c.val, c.isLt⟩ := by
  funext b
  match b with
  | ⟨0, _⟩ => rfl
  | ⟨1, _⟩ => rfl

theorem d2_start (j : S12288.Idx) (idx : IVec S12288x2 32) (a : Fin 2) :
    scatter_S2048x2048_S12288x2_S12288_n_01_01_1.start j idx a = (idx (ix2 (j 0) a)).toInt := by
  unfold ScatterDims.start
  have ha : a ∈ scatter_S2048x2048_S12288x2_S12288_n_01_01_1.scatterDimsToOperandDims := by
    fin_cases a <;> decide
  rw [dif_pos ha, d2_siIdx]
  fin_cases a <;> rfl

theorem d2_window (j : S12288.Idx) (a : Fin 2) :
    scatter_S2048x2048_S12288x2_S12288_n_01_01_1.window j a = 0 := by
  unfold ScatterDims.window
  have ha : a ∉ scatter_S2048x2048_S12288x2_S12288_n_01_01_1.sKept := by
    fin_cases a <;> decide
  rw [dif_neg ha]

/-- A word below 2048 reads the same signed and unsigned. -/
theorem toInt_of_lt (w : BitVec 32) (h : w.toNat < 2048) : w.toInt = (w.toNat : Int) := by
  unfold BitVec.toInt
  rw [if_pos (by omega)]

/-- The rank-1 indices are their one coordinate. -/
def idxEquiv1 (n : Nat) : (⟨1, ![n]⟩ : Shape).Idx ≃ Fin n where
  toFun j := j 0
  invFun := ix1
  left_inv j := (eq_ix1 j).symm
  right_inv _ := rfl

/-- The one-axis scatter-add read at a node: the operand there plus the updates whose index word is that node. -/
theorem scatter1_apply (x : FVec Ideal S2048 .f32) (idx : IVec S12288x1 32) (upd : FVec Ideal S12288 .f32)
    (hidx : ∀ k : Fin 12288, (idx (ix2 k 0)).toNat < 2048) (n : Fin 2048) :
    Host.scatterAdd scatter_S2048_S12288x1_S12288_n_0_0_1 x idx upd (ix1 n)
      = x (ix1 n) + ∑ k ∈ Finset.univ.filter (fun k : Fin 12288 => (idx (ix2 k 0)).toNat = n.val), upd (ix1 k) := by
  show x (ix1 n) + ∑ j ∈ Finset.univ.filter (fun j => scatter_S2048_S12288x1_S12288_n_0_0_1.resultIdx? j idx = some (ix1 n)), upd j = _
  congr 1
  refine Finset.sum_equiv (idxEquiv1 12288) (fun j => ?_) (fun j _ => by rw [eq_ix1 j]; rfl)
  simp only [Finset.mem_filter, Finset.mem_univ, true_and]
  rw [resultIdx?_eq_some_iff]
  constructor
  · intro h
    have := h 0
    rw [d1_start, d1_window, toInt_of_lt _ (hidx (j 0))] at this
    show (idx (ix2 (j 0) 0)).toNat = n.val
    have e : ((ix1 n : S2048.Idx) 0).val = n.val := rfl
    omega
  · intro h a
    rw [d1_start, d1_window, toInt_of_lt _ (hidx (j 0))]
    have e : ((ix1 n : S2048.Idx) a).val = n.val := by fin_cases a; rfl
    have h' : (idx (ix2 (j 0) 0)).toNat = n.val := h
    omega

/-- The two-axis scatter-add read at a pair of nodes: the operand there plus the updates whose two index words are that pair. -/
theorem scatter2_apply (x : FVec Ideal S2048x2048 .f32) (idx : IVec S12288x2 32) (upd : FVec Ideal S12288 .f32)
    (hidx : ∀ (k : Fin 12288) (c : Fin 2), (idx (ix2 k c)).toNat < 2048) (n m : Fin 2048) :
    Host.scatterAdd scatter_S2048x2048_S12288x2_S12288_n_01_01_1 x idx upd (ix2 n m)
      = x (ix2 n m) + ∑ k ∈ Finset.univ.filter (fun k : Fin 12288 => (idx (ix2 k 0)).toNat = n.val ∧ (idx (ix2 k 1)).toNat = m.val), upd (ix1 k) := by
  show x (ix2 n m) + ∑ j ∈ Finset.univ.filter (fun j => scatter_S2048x2048_S12288x2_S12288_n_01_01_1.resultIdx? j idx = some (ix2 n m)), upd j = _
  congr 1
  refine Finset.sum_equiv (idxEquiv1 12288) (fun j => ?_) (fun j _ => by rw [eq_ix1 j]; rfl)
  simp only [Finset.mem_filter, Finset.mem_univ, true_and]
  rw [resultIdx?_eq_some_iff]
  constructor
  · intro h
    have h0 := h 0
    have h1 := h 1
    rw [d2_start, d2_window, toInt_of_lt _ (hidx (j 0) _)] at h0 h1
    show (idx (ix2 (j 0) 0)).toNat = n.val ∧ (idx (ix2 (j 0) 1)).toNat = m.val
    have e0 : ((ix2 n m : S2048x2048.Idx) 0).val = n.val := rfl
    have e1 : ((ix2 n m : S2048x2048.Idx) 1).val = m.val := rfl
    constructor <;> omega
  · intro h a
    rw [d2_start, d2_window, toInt_of_lt _ (hidx (j 0) _)]
    have h' : (idx (ix2 (j 0) 0)).toNat = n.val ∧ (idx (ix2 (j 0) 1)).toNat = m.val := h
    fin_cases a
    · have e0 : ((ix2 n m : S2048x2048.Idx) 0).val = n.val := rfl
      show ((idx (ix2 (j 0) 0)).toNat : Int) + 0 = ((ix2 n m : S2048x2048.Idx) 0).val
      omega
    · have e1 : ((ix2 n m : S2048x2048.Idx) 1).val = m.val := rfl
      show ((idx (ix2 (j 0) 1)).toNat : Int) + 0 = ((ix2 n m : S2048x2048.Idx) 1).val
      omega

/-- Row 0 of the edge array, flattened, read at an edge. -/
theorem row0_apply (E : IVec S2x12288 32) (k : Fin 12288) :
    shapeCast S12288 (extractStridedSlice S1x12288 ![0, 0] E slices_S2x12288_S1x12288_0_0) shapeCasts_S1x12288_S12288 (ix1 k)
      = E (ix2 0 k) := by
  refine (shapeCast_apply _ _ (ix1 k) (ix2 0 k) ?_).trans ?_
  · rw [Shape.rowMajor_val_two, Shape.rowMajor_val_one]
    show 0 * _ + k.val = k.val
    omega
  · refine extractStridedSlice_apply _ _ _ _ (ix2 0 k) ?_
    intro a
    fin_cases a
    · show 0 = 0 + 0; rfl
    · show k.val = 0 + k.val; omega

/-- Row 1 of the edge array, flattened, read at an edge. -/
theorem row1_apply (E : IVec S2x12288 32) (k : Fin 12288) :
    shapeCast S12288 (extractStridedSlice S1x12288 ![1, 0] E slices_S2x12288_S1x12288_1_0) shapeCasts_S1x12288_S12288 (ix1 k)
      = E (ix2 1 k) := by
  refine (shapeCast_apply _ _ (ix1 k) (ix2 0 k) ?_).trans ?_
  · rw [Shape.rowMajor_val_two, Shape.rowMajor_val_one]
    show 0 * _ + k.val = k.val
    omega
  · refine extractStridedSlice_apply _ _ _ _ (ix2 1 k) ?_
    intro a
    fin_cases a
    · show 1 = 1 + 0; rfl
    · show k.val = 0 + k.val; omega

/-- The wrap of a negative index (adding the node count) is the identity on a node number. -/
theorem wrap_apply (x : IVec S12288 32) (k : S12288.Idx) (h : (x k).toNat < 2048) :
    select (cmpi .slt x (broadcastInDim S12288 ![] bcast_S_S12288 (constantI S_ 32 0#32)))
      (addi x (broadcastInDim S12288 ![] bcast_S_S12288 (constantI S_ 32 2048#32))) x k = x k := by
  show Scalar.select (IntOp.cmpi .slt (x k) 0#32) _ (x k) = x k
  have hc : IntOp.cmpi .slt (x k) 0#32 = 0#1 := by
    apply eq_zero_of_ne_one
    rw [IntOp.cmpi_slt]
    have z : (0#32 : BitVec 32).toInt = 0 := by decide
    rw [z]
    unfold BitVec.toInt
    rw [if_pos (by omega)]
    omega
  rw [hc, select_zero]

/-- A vector broadcast to a one-column matrix, read at a row. -/
theorem col_apply (x : IVec S12288 32) (k : Fin 12288) :
    broadcastInDim S12288x1 ![0] bcast_S12288_S12288x1_0 x (ix2 k 0) = x (ix1 k) := by
  refine broadcastInDim_apply _ _ _ _ (ix1 k) ?_
  intro a
  fin_cases a
  show k.val = if (12288 : Nat) = 1 then 0 else k.val
  rw [if_neg (by norm_num)]

/-- The two index columns side by side: column 0 the first operand, column 1 the second. -/
theorem cat_apply0 (a b : IVec S12288x1 32) (k : Fin 12288) :
    concatenate S12288x2 1 [⟨S12288x1, a⟩, ⟨S12288x1, b⟩] concatenates_S12288x1_S12288x1_S12288x2_d1 (ix2 k 0) = a (ix2 k 0) := by
  refine concatenate_pair_apply_left (t := S12288x2) (s₁ := S12288x1) (s₂ := S12288x1) 1 a b
    concatenates_S12288x1_S12288x1_S12288x2_d1 (ix2 k 0) rfl (ix2 k 0) ?_
  intro c
  fin_cases c <;> rfl

theorem cat_apply1 (a b : IVec S12288x1 32) (k : Fin 12288) :
    concatenate S12288x2 1 [⟨S12288x1, a⟩, ⟨S12288x1, b⟩] concatenates_S12288x1_S12288x1_S12288x2_d1 (ix2 k 1) = b (ix2 k 0) := by
  refine concatenate_pair_apply_right (t := S12288x2) (s₁ := S12288x1) (s₂ := S12288x1) 1 a b
    concatenates_S12288x1_S12288x1_S12288x2_d1 (ix2 k 1) rfl rfl (ix2 k 0) ?_ ?_
  · intro c hc
    fin_cases c
    · rfl
    · exact absurd rfl hc
  · rfl

/-! ## The stretch's arrays as functions of the edge array -/

/-- Rows 0 and 1 of the edge array, flattened. -/
abbrev rowArr0 (E : IVec S2x12288 32) : IVec S12288 32 := fun i =>
  shapeCast S12288 (extractStridedSlice S1x12288 ![0, 0] E slices_S2x12288_S1x12288_0_0) shapeCasts_S1x12288_S12288 i
abbrev rowArr1 (E : IVec S2x12288 32) : IVec S12288 32 := fun i =>
  shapeCast S12288 (extractStridedSlice S1x12288 ![1, 0] E slices_S2x12288_S1x12288_1_0) shapeCasts_S1x12288_S12288 i

theorem rowArr0_apply (E : IVec S2x12288 32) (k : Fin 12288) : rowArr0 E (ix1 k) = E (ix2 0 k) := row0_apply E k
theorem rowArr1_apply (E : IVec S2x12288 32) (k : Fin 12288) : rowArr1 E (ix1 k) = E (ix2 1 k) := row1_apply E k

/-- The wrap of negative indices: a word below zero has the node count added. -/
def wrapArr (x : IVec S12288 32) : IVec S12288 32 :=
  select (cmpi .slt x (broadcastInDim S12288 ![] bcast_S_S12288 (constantI S_ 32 0#32)))
    (addi x (broadcastInDim S12288 ![] bcast_S_S12288 (constantI S_ 32 2048#32))) x

theorem wrapArr_apply (x : IVec S12288 32) (k : S12288.Idx) (h : (x k).toNat < 2048) : wrapArr x k = x k :=
  wrap_apply x k h

/-- The degree array: ones scattered at the wrapped targets into zeros, plus one. -/
def degArr (x : IVec S12288 32) : FVec Ideal S2048 .f32 :=
  addf
    (Host.scatterAdd scatter_S2048_S12288x1_S12288_n_0_0_1
      (broadcastInDim S2048 ![] bcast_S_S2048 (constant S_ .f32 0x00000000#32))
      (broadcastInDim S12288x1 ![0] bcast_S12288_S12288x1_0 (wrapArr x))
      (broadcastInDim S12288 ![] bcast_S_S12288 (constant S_ .f32 0x3F800000#32)))
    (broadcastInDim S2048 ![] bcast_S_S2048 (constant S_ .f32 0x3F800000#32))

/-- The edge counts: ones scattered at the wrapped (target, source) pairs into zeros. -/
def cntArr (xd xs : IVec S12288 32) : FVec Ideal S2048x2048 .f32 :=
  Host.scatterAdd scatter_S2048x2048_S12288x2_S12288_n_01_01_1
    (broadcastInDim S2048x2048 ![] bcast_S_S2048x2048 (constant S_ .f32 0x00000000#32))
    (concatenate S12288x2 1
      [⟨S12288x1, broadcastInDim S12288x1 ![0] bcast_S12288_S12288x1_0 (wrapArr xd)⟩,
       ⟨S12288x1, broadcastInDim S12288x1 ![0] bcast_S12288_S12288x1_0 (wrapArr xs)⟩]
      concatenates_S12288x1_S12288x1_S12288x2_d1)
    (broadcastInDim S12288 ![] bcast_S_S12288 (constant S_ .f32 0x3F800000#32))

/-- A node number is its word: the reduction modulo the node count does nothing below it. -/
theorem dstOf_eq_iff (E : IVec S2x12288 32) (hE : InRange E) (k : Fin 12288) (n : Fin 2048) :
    dstOf E k = n ↔ (E (ix2 1 k)).toNat = n.val := by
  unfold Cert.Spec.dstOf
  rw [Fin.ext_iff]
  show (E (ix2 1 k)).toNat % 2048 = n.val ↔ _
  rw [Nat.mod_eq_of_lt (hE _)]
theorem srcOf_eq_iff (E : IVec S2x12288 32) (hE : InRange E) (k : Fin 12288) (n : Fin 2048) :
    srcOf E k = n ↔ (E (ix2 0 k)).toNat = n.val := by
  unfold Cert.Spec.srcOf
  rw [Fin.ext_iff]
  show (E (ix2 0 k)).toNat % 2048 = n.val ↔ _
  rw [Nat.mod_eq_of_lt (hE _)]

/-- The wrapped, column-broadcast index words are the edge array's own. -/
theorem colWrap1 (E : IVec S2x12288 32) (hE : InRange E) (k : Fin 12288) :
    broadcastInDim S12288x1 ![0] bcast_S12288_S12288x1_0 (wrapArr (rowArr1 E)) (ix2 k 0) = E (ix2 1 k) := by
  rw [col_apply, wrapArr_apply _ _ (by rw [rowArr1_apply]; exact hE _), rowArr1_apply]
theorem colWrap0 (E : IVec S2x12288 32) (hE : InRange E) (k : Fin 12288) :
    broadcastInDim S12288x1 ![0] bcast_S12288_S12288x1_0 (wrapArr (rowArr0 E)) (ix2 k 0) = E (ix2 0 k) := by
  rw [col_apply, wrapArr_apply _ _ (by rw [rowArr0_apply]; exact hE _), rowArr0_apply]

/-- The degree array at a node is the degree. -/
theorem degArr_apply (E : IVec S2x12288 32) (hE : InRange E) (n : Fin 2048) :
    degArr (rowArr1 E) (ix1 n) = Cert.Spec.deg (dstOf E) n := by
  show Host.scatterAdd scatter_S2048_S12288x1_S12288_n_0_0_1 _ _ _ (ix1 n) + Ideal.ofBits .f32 0x3F800000#32 = _
  rw [scatter1_apply _ _ _ (fun k => by rw [colWrap1 E hE k]; exact hE _) n]
  show (Ideal.ofBits .f32 0x00000000#32 + ∑ k ∈ _, Ideal.ofBits .f32 0x3F800000#32) + Ideal.ofBits .f32 0x3F800000#32 = _
  rw [Ideal.ofBits_zero_f32, ofBits_one_f32]
  unfold Cert.Spec.deg
  congr 2
  refine Finset.sum_congr (Finset.filter_congr fun k _ => ?_) (fun _ _ => rfl)
  rw [colWrap1 E hE k, dstOf_eq_iff E hE]

/-- The edge counts at a pair of nodes. -/
theorem cntArr_apply (E : IVec S2x12288 32) (hE : InRange E) (n m : Fin 2048) :
    cntArr (rowArr1 E) (rowArr0 E) (ix2 n m)
      = (0 : EReal) + ∑ _e ∈ Finset.univ.filter (fun e => dstOf E e = n ∧ srcOf E e = m), (1 : EReal) := by
  have h0 : ∀ k : Fin 12288, (concatenate S12288x2 1
      [⟨S12288x1, broadcastInDim S12288x1 ![0] bcast_S12288_S12288x1_0 (wrapArr (rowArr1 E))⟩,
       ⟨S12288x1, broadcastInDim S12288x1 ![0] bcast_S12288_S12288x1_0 (wrapArr (rowArr0 E))⟩]
      concatenates_S12288x1_S12288x1_S12288x2_d1) (ix2 k 0) = E (ix2 1 k) := fun k => by
    rw [cat_apply0, colWrap1 E hE k]
  have h1 : ∀ k : Fin 12288, (concatenate S12288x2 1
      [⟨S12288x1, broadcastInDim S12288x1 ![0] bcast_S12288_S12288x1_0 (wrapArr (rowArr1 E))⟩,
       ⟨S12288x1, broadcastInDim S12288x1 ![0] bcast_S12288_S12288x1_0 (wrapArr (rowArr0 E))⟩]
      concatenates_S12288x1_S12288x1_S12288x2_d1) (ix2 k 1) = E (ix2 0 k) := fun k => by
    rw [cat_apply1, colWrap0 E hE k]
  unfold cntArr
  rw [scatter2_apply _ _ _ (fun k c => by
    fin_cases c
    · have := hE (ix2 1 k); rw [← h0 k] at this; exact this
    · have := hE (ix2 0 k); rw [← h1 k] at this; exact this) n m]
  show Ideal.ofBits .f32 0x00000000#32 + ∑ k ∈ _, Ideal.ofBits .f32 0x3F800000#32 = _
  rw [Ideal.ofBits_zero_f32, ofBits_one_f32]
  congr 1
  refine Finset.sum_congr (Finset.filter_congr fun k _ => ?_) (fun _ _ => rfl)
  rw [h0 k, h1 k, dstOf_eq_iff E hE, srcOf_eq_iff E hE]

/-- A node vector broadcast along the columns, then to the square: row n holds entry n. -/
theorem bcastN_apply (R : FVec Ideal S2048 .f32) (n m : Fin 2048) :
    broadcastInDim S2048x2048 ![0, 1] bcast_S2048x1_S2048x2048_0_1 (broadcastInDim S2048x1 ![0] bcast_S2048_S2048x1_0 R) (ix2 n m)
      = R (ix1 n) := by
  refine (broadcastInDim_apply _ _ _ (ix2 n m) (ix2 n 0) ?_).trans (broadcastInDim_apply _ _ _ (ix2 n 0) (ix1 n) ?_)
  · intro a
    fin_cases a
    · show n.val = if (2048 : Nat) = 1 then 0 else n.val
      rw [if_neg (by norm_num)]
    · show 0 = if (1 : Nat) = 1 then 0 else m.val
      rw [if_pos rfl]
  · intro a
    fin_cases a
    show n.val = if (2048 : Nat) = 1 then 0 else n.val
    rw [if_neg (by norm_num)]

/-- A node vector broadcast along the rows, then to the square: column m holds entry m. -/
theorem bcastM_apply (R : FVec Ideal S2048 .f32) (n m : Fin 2048) :
    broadcastInDim S2048x2048 ![0, 1] bcast_S1x2048_S2048x2048_0_1 (broadcastInDim S1x2048 ![1] bcast_S2048_S1x2048_1 R) (ix2 n m)
      = R (ix1 m) := by
  refine (broadcastInDim_apply _ _ _ (ix2 n m) (ix2 0 m) ?_).trans (broadcastInDim_apply _ _ _ (ix2 0 m) (ix1 m) ?_)
  · intro a
    fin_cases a
    · show 0 = if (1 : Nat) = 1 then 0 else n.val
      rw [if_pos rfl]
    · show m.val = if (2048 : Nat) = 1 then 0 else m.val
      rw [if_neg (by norm_num)]
  · intro a
    fin_cases a
    show m.val = if (2048 : Nat) = 1 then 0 else m.val
    rw [if_neg (by norm_num)]

/-! ## The two arrays the regions read -/

/-- The inverse-degree array after the stretch. -/
theorem prelude_invdeg (W : Valuation τ sig (Elt Ideal)) (he : InRange (W (Proc.devRef .tc main_arg1))) :
    StableHlo.after (hostOps0 (F := Ideal)) W (Proc.devRef .tc main_v17)
      = Cert.Spec.arr1 (Cert.Spec.invd (dstOf (W (Proc.devRef .tc main_arg1)))) := by
  show StableHlo.after hostOps0 W (Proc.devRef .tc main_v17) = _
  after_results_simp
  show Host.divf (broadcastInDim S2048 ![] bcast_S_S2048 (constant S_ .f32 0x3F800000#32))
    (degArr (rowArr1 (W (Proc.devRef .tc main_arg1)))) = _
  funext i
  obtain ⟨n, rfl⟩ : ∃ n : Fin 2048, i = ix1 n := ⟨i 0, eq_ix1 i⟩
  show Ideal.div (Ideal.ofBits .f32 0x3F800000#32) (degArr (rowArr1 (W (Proc.devRef .tc main_arg1))) (ix1 n))
    = Cert.Spec.invd (dstOf (W (Proc.devRef .tc main_arg1))) n
  rw [degArr_apply _ he, ofBits_one_f32]
  rfl

/-- The stretch cut before the operation that sets the two index columns side by side. -/
abbrev preOps : List (HloOp τ sig (Elt Ideal)) := (hostOps0 (F := Ideal)).take 42
abbrev sufOps : List (HloOp τ sig (Elt Ideal)) := (hostOps0 (F := Ideal)).drop 42

theorem after_split (W : Valuation τ sig (Elt Ideal)) :
    StableHlo.after (hostOps0 (F := Ideal)) W = StableHlo.after sufOps (StableHlo.after preOps W) := by
  rw [← StableHlo.after_append]
  exact congrArg (fun l => StableHlo.after l W) (List.take_append_drop 42 _).symm

/-- What the second part reads of the first part's arrays is what the whole stretch leaves in them. -/
theorem pre_v29 (W : Valuation τ sig (Elt Ideal)) :
    StableHlo.after preOps W (Proc.devRef .tc main_v29) = StableHlo.after (hostOps0 (F := Ideal)) W (Proc.devRef .tc main_v29) := by
  rw [after_split]
  simp only [sufOps, hostOps0, List.drop_succ_cons, List.drop_zero]
  after_results_simp
theorem pre_v30 (W : Valuation τ sig (Elt Ideal)) :
    StableHlo.after preOps W (Proc.devRef .tc main_v30) = StableHlo.after (hostOps0 (F := Ideal)) W (Proc.devRef .tc main_v30) := by
  rw [after_split]
  simp only [sufOps, hostOps0, List.drop_succ_cons, List.drop_zero]
  after_results_simp
theorem pre_v18 (W : Valuation τ sig (Elt Ideal)) :
    StableHlo.after preOps W (Proc.devRef .tc main_v18) = StableHlo.after (hostOps0 (F := Ideal)) W (Proc.devRef .tc main_v18) := by
  rw [after_split]
  simp only [sufOps, hostOps0, List.drop_succ_cons, List.drop_zero]
  after_results_simp
theorem pre_v15 (W : Valuation τ sig (Elt Ideal)) :
    StableHlo.after preOps W (Proc.devRef .tc main_v15) = StableHlo.after (hostOps0 (F := Ideal)) W (Proc.devRef .tc main_v15) := by
  rw [after_split]
  simp only [sufOps, hostOps0, List.drop_succ_cons, List.drop_zero]
  after_results_simp

/-- The whole stretch's index columns, zero square and inverse square-root degrees. -/
theorem full_v29 (W : Valuation τ sig (Elt Ideal)) :
    StableHlo.after (hostOps0 (F := Ideal)) W (Proc.devRef .tc main_v29)
      = broadcastInDim S12288x1 ![0] bcast_S12288_S12288x1_0 (wrapArr (rowArr1 (W (Proc.devRef .tc main_arg1)))) := by
  show StableHlo.after hostOps0 W (Proc.devRef .tc main_v29) = _
  after_results_simp
  rfl
theorem full_v30 (W : Valuation τ sig (Elt Ideal)) :
    StableHlo.after (hostOps0 (F := Ideal)) W (Proc.devRef .tc main_v30)
      = broadcastInDim S12288x1 ![0] bcast_S12288_S12288x1_0 (wrapArr (rowArr0 (W (Proc.devRef .tc main_arg1)))) := by
  show StableHlo.after hostOps0 W (Proc.devRef .tc main_v30) = _
  after_results_simp
  rfl
theorem full_v18 (W : Valuation τ sig (Elt Ideal)) :
    StableHlo.after (hostOps0 (F := Ideal)) W (Proc.devRef .tc main_v18)
      = (broadcastInDim S2048x2048 ![] bcast_S_S2048x2048 (constant S_ .f32 0x00000000#32) : FVec Ideal S2048x2048 .f32) := by
  show StableHlo.after hostOps0 W (Proc.devRef .tc main_v18) = _
  after_results_simp
theorem full_v15 (W : Valuation τ sig (Elt Ideal)) :
    StableHlo.after (hostOps0 (F := Ideal)) W (Proc.devRef .tc main_v15)
      = Host.rsqrt (degArr (rowArr1 (W (Proc.devRef .tc main_arg1)))) := by
  show StableHlo.after hostOps0 W (Proc.devRef .tc main_v15) = _
  after_results_simp
  rfl

/-- The normalised adjacency after the stretch. -/
theorem prelude_adj (W : Valuation τ sig (Elt Ideal)) (he : InRange (W (Proc.devRef .tc main_arg1))) :
    StableHlo.after (hostOps0 (F := Ideal)) W (Proc.devRef .tc main_v40)
      = Cert.Spec.arr2 (Cert.Spec.adj (srcOf (W (Proc.devRef .tc main_arg1))) (dstOf (W (Proc.devRef .tc main_arg1)))) := by
  rw [after_split]
  simp only [sufOps, hostOps0, List.drop_succ_cons, List.drop_zero]
  after_results_simp
  rw [pre_v29, pre_v30, pre_v18, pre_v15, full_v29, full_v30, full_v18, full_v15]
  funext i
  obtain ⟨n, m, rfl⟩ : ∃ (n m : Fin 2048), i = ix2 n m := ⟨i 0, i 1, eq_ix2 i⟩
  show (cntArr (rowArr1 (W (Proc.devRef .tc main_arg1))) (rowArr0 (W (Proc.devRef .tc main_arg1))) (ix2 n m)
      * broadcastInDim S2048x2048 ![0, 1] bcast_S2048x1_S2048x2048_0_1
          (broadcastInDim S2048x1 ![0] bcast_S2048_S2048x1_0 (Host.rsqrt (degArr (rowArr1 (W (Proc.devRef .tc main_arg1)))))) (ix2 n m))
      * broadcastInDim S2048x2048 ![0, 1] bcast_S1x2048_S2048x2048_0_1
          (broadcastInDim S1x2048 ![1] bcast_S2048_S1x2048_1 (Host.rsqrt (degArr (rowArr1 (W (Proc.devRef .tc main_arg1)))))) (ix2 n m)
    = Cert.Spec.adj (srcOf (W (Proc.devRef .tc main_arg1))) (dstOf (W (Proc.devRef .tc main_arg1))) n m
  rw [cntArr_apply _ he, bcastN_apply, bcastM_apply]
  show ((0 + ∑ _e ∈ _, (1 : EReal)) * Ideal.rsqrt (degArr (rowArr1 (W (Proc.devRef .tc main_arg1))) (ix1 n)))
      * Ideal.rsqrt (degArr (rowArr1 (W (Proc.devRef .tc main_arg1))) (ix1 m)) = _
  rw [degArr_apply _ he, degArr_apply _ he]
  rfl

end Cert.KernelIdeal.Hand
end
-- ==== Proof.KI.ValueHost.lean ====
/-
  The short host stretches of the program, read at an index. Each is a row of reshapes: a bias vector viewed as a
  one-row matrix, the inverse-degree vector viewed as a one-column matrix, the last layer's output viewed as the
  head's input (row-major), and the head's output viewed back. A reshape keeps an entry's row-major position, so
  each result entry is one entry of the operand, named here by its coordinates.
-/
import proofs.«421025_j30305289241172_1_alg».proof.Proof.Gen.KernelIdeal.Launch
import proofs.«421025_j30305289241172_1_alg».proof.Proof.Spec
import Idealize.ShloMosaic.Lib.StableHlo.Run
import Idealize.ShloMosaic.Lib.ValueIdx
import Idealize.ShloMosaic.Lib.Pipeline.Value
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx

/-! ## Four reshapes at an index -/

section Casts
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[16, 2048, 3]` array cast to `[16, 6144]` reads, at `(b, k)`, the operand at `(b, k / 3, k % 3)`. -/
theorem shapeCast_flat_apply (x : (⟨3, ![16, 2048, 3]⟩ : Shape).Idx → α)
    (h : (⟨3, ![16, 2048, 3]⟩ : Shape).ShapeCasts ⟨2, ![16, 6144]⟩) (b : Fin 16) (k : Fin 6144) :
    shapeCast ⟨2, ![16, 6144]⟩ x h (ix2 b k) = x (ix3 b ⟨k.val / 3, by omega⟩ ⟨k.val % 3, by omega⟩) :=
  shapeCast_apply x h _ _ (by
    rw [Shape.rowMajor_val_three, Shape.rowMajor_val_two]
    show (b.val * 2048 + k.val / 3) * 3 + k.val % 3 = b.val * 6144 + k.val
    omega)

/-- A `[16, 6144]` array cast to `[16, 2048, 3]` reads, at `(b, n, t)`, the operand at `(b, 3 n + t)`. -/
theorem shapeCast_unflat_apply (x : (⟨2, ![16, 6144]⟩ : Shape).Idx → α)
    (h : (⟨2, ![16, 6144]⟩ : Shape).ShapeCasts ⟨3, ![16, 2048, 3]⟩) (b : Fin 16) (n : Fin 2048) (t : Fin 3) :
    shapeCast ⟨3, ![16, 2048, 3]⟩ x h (ix3 b n t) = x (ix2 b ⟨3 * n.val + t.val, by omega⟩) :=
  shapeCast_apply x h _ _ (by
    rw [Shape.rowMajor_val_three, Shape.rowMajor_val_two]
    show b.val * 6144 + (3 * n.val + t.val) = (b.val * 2048 + n.val) * 3 + t.val
    omega)

end Casts

/-! ## The same as whole arrays -/

/-- A vector viewed as a one-row matrix. -/
theorem cast_row {a : ℕ} (x : (Cert.Spec.Sh1 a).Idx → EReal) (h : (Cert.Spec.Sh1 a).ShapeCasts (Cert.Spec.Sh2 1 a)) :
    shapeCast (Cert.Spec.Sh2 1 a) x h = Cert.Spec.arr2 fun (_ : Fin 1) (f : Fin a) => x (ix1 f) := by
  funext i
  rw [eq_ix2 i]
  exact shapeCast_a_1a_apply x h _ _

/-- A vector viewed as a one-column matrix. -/
theorem cast_col {a : ℕ} (x : (Cert.Spec.Sh1 a).Idx → EReal) (h : (Cert.Spec.Sh1 a).ShapeCasts (Cert.Spec.Sh2 a 1)) :
    shapeCast (Cert.Spec.Sh2 a 1) x h = Cert.Spec.arr2 fun (n : Fin a) (_ : Fin 1) => x (ix1 n) := by
  funext i
  rw [eq_ix2 i]
  exact shapeCast_a_a1_apply x h _ _

/-- The last layer's output viewed as the head's input. -/
theorem cast_flat (x : (Cert.Spec.Sh3 16 2048 3).Idx → EReal)
    (h : (Cert.Spec.Sh3 16 2048 3).ShapeCasts (Cert.Spec.Sh2 16 6144)) :
    shapeCast (Cert.Spec.Sh2 16 6144) x h = Cert.Spec.flat x := by
  funext i
  rw [eq_ix2 i]
  exact shapeCast_flat_apply x h _ _

/-- The head's output viewed back as nodes by coordinates. -/
theorem cast_unflat (x : (Cert.Spec.Sh2 16 6144).Idx → EReal)
    (h : (Cert.Spec.Sh2 16 6144).ShapeCasts (Cert.Spec.Sh3 16 2048 3)) :
    shapeCast (Cert.Spec.Sh3 16 2048 3) x h = Cert.Spec.unflat fun b k => x (ix2 b k) := by
  funext i
  rw [eq_ix3 i]
  exact shapeCast_unflat_apply x h _ _ _

/-! ## The host stretches, for any contents they start from -/

variable (W : Valuation τ sig (Elt Ideal))

/-- Layer 1's bias as a row, and the inverse degrees as a column. -/
theorem host1_bias : StableHlo.after hostOps1 W (Proc.devRef .tc main_v42)
    = Cert.Spec.arr2 fun (_ : Fin 1) (f : Fin 512) => W (Proc.devRef .tc main_arg3) (ix1 f) := by
  show StableHlo.after hostOps1 W (Proc.devRef .tc main_v42) = _
  after_results
  exact cast_row (a := 512) (W (Proc.devRef .tc main_arg3)) shapeCasts_S512_S1x512
theorem host1_invdeg : StableHlo.after hostOps1 W (Proc.devRef .tc main_v43)
    = Cert.Spec.arr2 fun (n : Fin 2048) (_ : Fin 1) => W (Proc.devRef .tc main_v17) (ix1 n) := by
  show StableHlo.after hostOps1 W (Proc.devRef .tc main_v43) = _
  after_results
  exact cast_col (a := 2048) (W (Proc.devRef .tc main_v17)) shapeCasts_S2048_S2048x1

/-- Layer 2's. -/
theorem host3_bias : StableHlo.after hostOps3 W (Proc.devRef .tc main_v46)
    = Cert.Spec.arr2 fun (_ : Fin 1) (f : Fin 512) => W (Proc.devRef .tc main_arg5) (ix1 f) := by
  show StableHlo.after hostOps3 W (Proc.devRef .tc main_v46) = _
  after_results
  exact cast_row (a := 512) (W (Proc.devRef .tc main_arg5)) shapeCasts_S512_S1x512
theorem host3_invdeg : StableHlo.after hostOps3 W (Proc.devRef .tc main_v47)
    = Cert.Spec.arr2 fun (n : Fin 2048) (_ : Fin 1) => W (Proc.devRef .tc main_v17) (ix1 n) := by
  show StableHlo.after hostOps3 W (Proc.devRef .tc main_v47) = _
  after_results
  exact cast_col (a := 2048) (W (Proc.devRef .tc main_v17)) shapeCasts_S2048_S2048x1

/-- Layer 3's. -/
theorem host5_bias : StableHlo.after hostOps5 W (Proc.devRef .tc main_v50)
    = Cert.Spec.arr2 fun (_ : Fin 1) (f : Fin 256) => W (Proc.devRef .tc main_arg7) (ix1 f) := by
  show StableHlo.after hostOps5 W (Proc.devRef .tc main_v50) = _
  after_results
  exact cast_row (a := 256) (W (Proc.devRef .tc main_arg7)) shapeCasts_S256_S1x256
theorem host5_invdeg : StableHlo.after hostOps5 W (Proc.devRef .tc main_v51)
    = Cert.Spec.arr2 fun (n : Fin 2048) (_ : Fin 1) => W (Proc.devRef .tc main_v17) (ix1 n) := by
  show StableHlo.after hostOps5 W (Proc.devRef .tc main_v51) = _
  after_results
  exact cast_col (a := 2048) (W (Proc.devRef .tc main_v17)) shapeCasts_S2048_S2048x1

/-- Layer 4's. -/
theorem host7_bias : StableHlo.after hostOps7 W (Proc.devRef .tc main_v54)
    = Cert.Spec.arr2 fun (_ : Fin 1) (f : Fin 256) => W (Proc.devRef .tc main_arg9) (ix1 f) := by
  show StableHlo.after hostOps7 W (Proc.devRef .tc main_v54) = _
  after_results
  exact cast_row (a := 256) (W (Proc.devRef .tc main_arg9)) shapeCasts_S256_S1x256
theorem host7_invdeg : StableHlo.after hostOps7 W (Proc.devRef .tc main_v55)
    = Cert.Spec.arr2 fun (n : Fin 2048) (_ : Fin 1) => W (Proc.devRef .tc main_v17) (ix1 n) := by
  show StableHlo.after hostOps7 W (Proc.devRef .tc main_v55) = _
  after_results
  exact cast_col (a := 2048) (W (Proc.devRef .tc main_v17)) shapeCasts_S2048_S2048x1

/-- Layer 5's. -/
theorem host9_bias : StableHlo.after hostOps9 W (Proc.devRef .tc main_v58)
    = Cert.Spec.arr2 fun (_ : Fin 1) (f : Fin 64) => W (Proc.devRef .tc main_arg11) (ix1 f) := by
  show StableHlo.after hostOps9 W (Proc.devRef .tc main_v58) = _
  after_results
  exact cast_row (a := 64) (W (Proc.devRef .tc main_arg11)) shapeCasts_S64_S1x64
theorem host9_invdeg : StableHlo.after hostOps9 W (Proc.devRef .tc main_v59)
    = Cert.Spec.arr2 fun (n : Fin 2048) (_ : Fin 1) => W (Proc.devRef .tc main_v17) (ix1 n) := by
  show StableHlo.after hostOps9 W (Proc.devRef .tc main_v59) = _
  after_results
  exact cast_col (a := 2048) (W (Proc.devRef .tc main_v17)) shapeCasts_S2048_S2048x1

/-- Layer 6's. -/
theorem host11_bias : StableHlo.after hostOps11 W (Proc.devRef .tc main_v62)
    = Cert.Spec.arr2 fun (_ : Fin 1) (f : Fin 3) => W (Proc.devRef .tc main_arg13) (ix1 f) := by
  show StableHlo.after hostOps11 W (Proc.devRef .tc main_v62) = _
  after_results
  exact cast_row (a := 3) (W (Proc.devRef .tc main_arg13)) shapeCasts_S3_S1x3
theorem host11_invdeg : StableHlo.after hostOps11 W (Proc.devRef .tc main_v63)
    = Cert.Spec.arr2 fun (n : Fin 2048) (_ : Fin 1) => W (Proc.devRef .tc main_v17) (ix1 n) := by
  show StableHlo.after hostOps11 W (Proc.devRef .tc main_v63) = _
  after_results
  exact cast_col (a := 2048) (W (Proc.devRef .tc main_v17)) shapeCasts_S2048_S2048x1

/-- Before the head: the last layer's output laid flat, and the head's bias as a row. -/
theorem host12_flat : StableHlo.after hostOps12 W (Proc.devRef .tc main_v65)
    = Cert.Spec.flat (W (Proc.devRef .tc main_v64)) := by
  show StableHlo.after hostOps12 W (Proc.devRef .tc main_v65) = _
  after_results
  exact cast_flat (W (Proc.devRef .tc main_v64)) shapeCasts_S16x2048x3_S16x6144
theorem host12_bias : StableHlo.after hostOps12 W (Proc.devRef .tc main_v66)
    = Cert.Spec.arr2 fun (_ : Fin 1) (j : Fin 6144) => W (Proc.devRef .tc main_arg15) (ix1 j) := by
  show StableHlo.after hostOps12 W (Proc.devRef .tc main_v66) = _
  after_results
  exact cast_row (a := 6144) (W (Proc.devRef .tc main_arg15)) shapeCasts_S6144_S1x6144

/-- After the head: its output viewed back as nodes by coordinates. -/
theorem host13_unflat : StableHlo.after hostOps13 W (Proc.devRef .tc main_v68)
    = Cert.Spec.unflat fun b k => W (Proc.devRef .tc main_v67) (ix2 b k) := by
  show StableHlo.after hostOps13 W (Proc.devRef .tc main_v68) = _
  after_results
  exact cast_unflat (W (Proc.devRef .tc main_v67)) shapeCasts_S16x6144_S16x2048x3

end Cert.KernelIdeal.Hand

end
-- ==== Proof.KI.ValueLayers.lean ====
/-
  The six layers of the network, read off the run of the program. Each layer is three items of @main: a region that
  transforms the features (a matrix product over the channel axis), a host stretch that lays the layer's bias out as a
  row and the inverse degrees as a column, and a region that aggregates densely against the normalised adjacency.
  The region's operands are traced back to where they were made: the features to the previous layer's output, the
  weights and the bias to the arguments, the adjacency and the inverse degrees to the first host stretch. The dense
  aggregation is the edge-list aggregation, so the pair of regions is one layer of the specification.
-/
import proofs.«421025_j30305289241172_1_alg».proof.Proof.KI.ValueKept
import proofs.«421025_j30305289241172_1_alg».proof.Proof.KI.V0
import proofs.«421025_j30305289241172_1_alg».proof.Proof.KI.V1
import proofs.«421025_j30305289241172_1_alg».proof.Proof.KI.V2
import proofs.«421025_j30305289241172_1_alg».proof.Proof.KI.V3
import proofs.«421025_j30305289241172_1_alg».proof.Proof.KI.V4
import proofs.«421025_j30305289241172_1_alg».proof.Proof.KI.V5
import proofs.«421025_j30305289241172_1_alg».proof.Proof.KI.V6
import proofs.«421025_j30305289241172_1_alg».proof.Proof.KI.V7
import proofs.«421025_j30305289241172_1_alg».proof.Proof.KI.V8
import proofs.«421025_j30305289241172_1_alg».proof.Proof.KI.V9
import proofs.«421025_j30305289241172_1_alg».proof.Proof.KI.V10
import proofs.«421025_j30305289241172_1_alg».proof.Proof.KI.V11
import proofs.«421025_j30305289241172_1_alg».proof.Proof.KI.Prelude
import proofs.«421025_j30305289241172_1_alg».proof.Proof.KI.ValueHost

set_option maxRecDepth 16384

noncomputable section

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ) (ρ : Dev nD → PrngReg) (c : Dev nD)

/-! ## The graph's two arrays, made once by the first host stretch -/

theorem W1_invdeg (he : Cert.Spec.InRange (m ((c.tc : Thread nD τ).loc main_arg1))) :
    W1 m ρ c (Proc.devRef .tc main_v17)
      = Cert.Spec.arr1 (Cert.Spec.invd (Cert.Spec.dstOf (m ((c.tc : Thread nD τ).loc main_arg1)))) := by
  unfold W1
  exact prelude_invdeg (W0 m ρ c) he
theorem W1_adj (he : Cert.Spec.InRange (m ((c.tc : Thread nD τ).loc main_arg1))) :
    W1 m ρ c (Proc.devRef .tc main_v40)
      = Cert.Spec.arr2 (Cert.Spec.adj (Cert.Spec.srcOf (m ((c.tc : Thread nD τ).loc main_arg1)))
          (Cert.Spec.dstOf (m ((c.tc : Thread nD τ).loc main_arg1)))) := by
  unfold W1
  exact prelude_adj (W0 m ρ c) he

/-! ## The six layers -/

/-- The activations after each layer, as the specification names them. -/
abbrev act1 : (Cert.Spec.Sh3 16 2048 512).Idx → EReal :=
  Cert.Spec.layer (Cin := 1475) (Cout := 512) false (m ((c.tc : Thread nD τ).loc main_arg1))
    (m ((c.tc : Thread nD τ).loc main_arg0)) (m ((c.tc : Thread nD τ).loc main_arg2)) (m ((c.tc : Thread nD τ).loc main_arg3))
abbrev act2 : (Cert.Spec.Sh3 16 2048 512).Idx → EReal :=
  Cert.Spec.layer (Cin := 512) (Cout := 512) true (m ((c.tc : Thread nD τ).loc main_arg1))
    (act1 m c) (m ((c.tc : Thread nD τ).loc main_arg4)) (m ((c.tc : Thread nD τ).loc main_arg5))
abbrev act3 : (Cert.Spec.Sh3 16 2048 256).Idx → EReal :=
  Cert.Spec.layer (Cin := 512) (Cout := 256) false (m ((c.tc : Thread nD τ).loc main_arg1))
    (act2 m c) (m ((c.tc : Thread nD τ).loc main_arg6)) (m ((c.tc : Thread nD τ).loc main_arg7))
abbrev act4 : (Cert.Spec.Sh3 16 2048 256).Idx → EReal :=
  Cert.Spec.layer (Cin := 256) (Cout := 256) true (m ((c.tc : Thread nD τ).loc main_arg1))
    (act3 m c) (m ((c.tc : Thread nD τ).loc main_arg8)) (m ((c.tc : Thread nD τ).loc main_arg9))
abbrev act5 : (Cert.Spec.Sh3 16 2048 64).Idx → EReal :=
  Cert.Spec.layer (Cin := 256) (Cout := 64) false (m ((c.tc : Thread nD τ).loc main_arg1))
    (act4 m c) (m ((c.tc : Thread nD τ).loc main_arg10)) (m ((c.tc : Thread nD τ).loc main_arg11))
abbrev act6 : (Cert.Spec.Sh3 16 2048 3).Idx → EReal :=
  Cert.Spec.layer (Cin := 64) (Cout := 3) true (m ((c.tc : Thread nD τ).loc main_arg1))
    (act5 m c) (m ((c.tc : Thread nD τ).loc main_arg12)) (m ((c.tc : Thread nD τ).loc main_arg13))

variable (he : Cert.Spec.InRange (m ((c.tc : Thread nD τ).loc main_arg1)))
include he

/-- Layer 1: region 0 transforms the input, the host stretch lays out the bias and the inverse degrees, region 1
    aggregates. -/
theorem feat1 : W2 m ρ c (Proc.devRef .tc main_v41)
    = Cert.Spec.arr3 (Cert.Spec.feat (m ((c.tc : Thread nD τ).loc main_arg0)) (m ((c.tc : Thread nD τ).loc main_arg2))) := by
  refine (W2_arr m ρ c 2).trans ((arr0_eq (V1 m ρ) c).trans ?_)
  exact feat_of_parts _ _ _ _ (W1_arg0 m ρ c) (W1_arg2 m ρ c)
theorem layer1 : W4 m ρ c (Proc.devRef .tc main_v44) = act1 m c := by
  refine (W4_arr m ρ c 4).trans ((arr1_eq (V3 m ρ) c).trans ?_)
  refine layer_of_parts false _ _ _ _ _ _ _ _ ?_ ?_ ?_ ?_
  · exact (W3_of m ρ c main_v41 (by decide)).trans (feat1 m ρ c he)
  · exact (W3_kept m ρ c main_v40 kept3_v40).trans (W1_adj m ρ c he)
  · exact (host1_bias (W2 m ρ c)).trans (row_of_eq _ _ (W2_arg3 m ρ c))
  · exact (host1_invdeg (W2 m ρ c)).trans
      (col_of_eq _ _ ((W2_kept m ρ c main_v17 kept2_v17).trans (W1_invdeg m ρ c he)))

/-- Layer 2: regions 2 and 3, the rectifier on. -/
theorem feat2 : W5 m ρ c (Proc.devRef .tc main_v45)
    = Cert.Spec.arr3 (Cert.Spec.feat (act1 m c) (m ((c.tc : Thread nD τ).loc main_arg4))) := by
  refine (W5_arr m ρ c 2).trans ((arr2_eq (V4 m ρ) c).trans ?_)
  exact feat_of_parts _ _ _ _ (layer1 m ρ c he) (W4_arg4 m ρ c)
theorem layer2 : W7 m ρ c (Proc.devRef .tc main_v48) = act2 m c := by
  refine (W7_arr m ρ c 4).trans ((arr3_eq (V6 m ρ) c).trans ?_)
  refine layer_of_parts true _ _ _ _ _ _ _ _ ?_ ?_ ?_ ?_
  · exact (W6_of m ρ c main_v45 (by decide)).trans (feat2 m ρ c he)
  · exact (W6_kept m ρ c main_v40 kept6_v40).trans (W1_adj m ρ c he)
  · exact (host3_bias (W5 m ρ c)).trans (row_of_eq _ _ (W5_arg5 m ρ c))
  · exact (host3_invdeg (W5 m ρ c)).trans
      (col_of_eq _ _ ((W5_kept m ρ c main_v17 kept5_v17).trans (W1_invdeg m ρ c he)))

/-- Layer 3: regions 4 and 5. -/
theorem feat3 : W8 m ρ c (Proc.devRef .tc main_v49)
    = Cert.Spec.arr3 (Cert.Spec.feat (act2 m c) (m ((c.tc : Thread nD τ).loc main_arg6))) := by
  refine (W8_arr m ρ c 2).trans ((arr4_eq (V7 m ρ) c).trans ?_)
  exact feat_of_parts _ _ _ _ (layer2 m ρ c he) (W7_arg6 m ρ c)
theorem layer3 : W10 m ρ c (Proc.devRef .tc main_v52) = act3 m c := by
  refine (W10_arr m ρ c 4).trans ((arr5_eq (V9 m ρ) c).trans ?_)
  refine layer_of_parts false _ _ _ _ _ _ _ _ ?_ ?_ ?_ ?_
  · exact (W9_of m ρ c main_v49 (by decide)).trans (feat3 m ρ c he)
  · exact (W9_kept m ρ c main_v40 kept9_v40).trans (W1_adj m ρ c he)
  · exact (host5_bias (W8 m ρ c)).trans (row_of_eq _ _ (W8_arg7 m ρ c))
  · exact (host5_invdeg (W8 m ρ c)).trans
      (col_of_eq _ _ ((W8_kept m ρ c main_v17 kept8_v17).trans (W1_invdeg m ρ c he)))

/-- Layer 4: regions 6 and 7, the rectifier on. -/
theorem feat4 : W11 m ρ c (Proc.devRef .tc main_v53)
    = Cert.Spec.arr3 (Cert.Spec.feat (act3 m c) (m ((c.tc : Thread nD τ).loc main_arg8))) := by
  refine (W11_arr m ρ c 2).trans ((arr6_eq (V10 m ρ) c).trans ?_)
  exact feat_of_parts _ _ _ _ (layer3 m ρ c he) (W10_arg8 m ρ c)
theorem layer4 : W13 m ρ c (Proc.devRef .tc main_v56) = act4 m c := by
  refine (W13_arr m ρ c 4).trans ((arr7_eq (V12 m ρ) c).trans ?_)
  refine layer_of_parts true _ _ _ _ _ _ _ _ ?_ ?_ ?_ ?_
  · exact (W12_of m ρ c main_v53 (by decide)).trans (feat4 m ρ c he)
  · exact (W12_kept m ρ c main_v40 kept12_v40).trans (W1_adj m ρ c he)
  · exact (host7_bias (W11 m ρ c)).trans (row_of_eq _ _ (W11_arg9 m ρ c))
  · exact (host7_invdeg (W11 m ρ c)).trans
      (col_of_eq _ _ ((W11_kept m ρ c main_v17 kept11_v17).trans (W1_invdeg m ρ c he)))

/-- Layer 5: regions 8 and 9. -/
theorem feat5 : W14 m ρ c (Proc.devRef .tc main_v57)
    = Cert.Spec.arr3 (Cert.Spec.feat (act4 m c) (m ((c.tc : Thread nD τ).loc main_arg10))) := by
  refine (W14_arr m ρ c 2).trans ((arr8_eq (V13 m ρ) c).trans ?_)
  exact feat_of_parts _ _ _ _ (layer4 m ρ c he) (W13_arg10 m ρ c)
theorem layer5 : W16 m ρ c (Proc.devRef .tc main_v60) = act5 m c := by
  refine (W16_arr m ρ c 4).trans ((arr9_eq (V15 m ρ) c).trans ?_)
  refine layer_of_parts false _ _ _ _ _ _ _ _ ?_ ?_ ?_ ?_
  · exact (W15_of m ρ c main_v57 (by decide)).trans (feat5 m ρ c he)
  · exact (W15_kept m ρ c main_v40 kept15_v40).trans (W1_adj m ρ c he)
  · exact (host9_bias (W14 m ρ c)).trans (row_of_eq _ _ (W14_arg11 m ρ c))
  · exact (host9_invdeg (W14 m ρ c)).trans
      (col_of_eq _ _ ((W14_kept m ρ c main_v17 kept14_v17).trans (W1_invdeg m ρ c he)))

/-- Layer 6: regions 10 and 11, the rectifier on. -/
theorem feat6 : W17 m ρ c (Proc.devRef .tc main_v61)
    = Cert.Spec.arr3 (Cert.Spec.feat (act5 m c) (m ((c.tc : Thread nD τ).loc main_arg12))) := by
  refine (W17_arr m ρ c 2).trans ((arr10_eq (V16 m ρ) c).trans ?_)
  exact feat_of_parts _ _ _ _ (layer5 m ρ c he) (W16_arg12 m ρ c)
theorem layer6 : W19 m ρ c (Proc.devRef .tc main_v64) = act6 m c := by
  refine (W19_arr m ρ c 4).trans ((arr11_eq (V18 m ρ) c).trans ?_)
  refine layer_of_parts true _ _ _ _ _ _ _ _ ?_ ?_ ?_ ?_
  · exact (W18_of m ρ c main_v61 (by decide)).trans (feat6 m ρ c he)
  · exact (W18_kept m ρ c main_v40 kept18_v40).trans (W1_adj m ρ c he)
  · exact (host11_bias (W17 m ρ c)).trans (row_of_eq _ _ (W17_arg13 m ρ c))
  · exact (host11_invdeg (W17 m ρ c)).trans
      (col_of_eq _ _ ((W17_kept m ρ c main_v17 kept17_v17).trans (W1_invdeg m ρ c he)))

end Cert.KernelIdeal.Hand

end
-- ==== Proof.KI.V12Blk.lean ====
/-
  The dense head's windows over its 3 × 3 grid (point (n, k), k the inner coordinate): where each window's block sits
  (feature block: column third k; weight block: row third k, column third n; bias and output blocks: column third n),
  and each input block's entries as entries of its array: a block's coordinate is its index times its size plus the
  coordinate inside the block.
-/
import proofs.«421025_j30305289241172_1_alg».proof.Proof.KI.R12
import proofs.«421025_j30305289241172_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Hand

open Cert.KernelIdeal Cert.KernelIdeal.Gen

variable (V : (c : Dev nD) → (b : Ref sig .tc) → Buf (Elt Ideal) ((c : Thread nD τ).loc b))

/-! ## Where each window's block sits, over the grid -/

/-- The feature window's block index: row block 0, column block the inner coordinate. -/
theorem idx12_0 : ∀ t : Fin cfg12.N, win12_0.index t 0 = 0 ∧ win12_0.index t 1 = t.val % 3 :=
  (by decide +kernel : ∀ t : Fin grid12.N, win12_0.index t 0 = 0 ∧ win12_0.index t 1 = t.val % 3)

/-- The weight window's block index: row block the inner coordinate, column block the outer one. -/
theorem idx12_1 : ∀ t : Fin cfg12.N, win12_1.index t 0 = t.val % 3 ∧ win12_1.index t 1 = t.val / 3 :=
  (by decide +kernel : ∀ t : Fin grid12.N, win12_1.index t 0 = t.val % 3 ∧ win12_1.index t 1 = t.val / 3)

/-- The bias window's block index: column block the outer coordinate. -/
theorem idx12_2 : ∀ t : Fin cfg12.N, win12_2.index t 0 = 0 ∧ win12_2.index t 1 = t.val / 3 :=
  (by decide +kernel : ∀ t : Fin grid12.N, win12_2.index t 0 = 0 ∧ win12_2.index t 1 = t.val / 3)

/-- The output window's block index: column block the outer coordinate. -/
theorem idx12_3 : ∀ t : Fin cfg12.N, win12_3.index t 0 = 0 ∧ win12_3.index t 1 = t.val / 3 :=
  (by decide +kernel : ∀ t : Fin grid12.N, win12_3.index t 0 = 0 ∧ win12_3.index t 1 = t.val / 3)

/-! ## The blocks as entries of the arrays -/

/-- An entry of the feature block at a point is the feature array's entry in the point's column third. -/
theorem xblk_apply (c : Dev nD) (t : Fin cfg12.N) (b : Fin 16) (i : Fin 2048) (K : Fin 6144)
    (hK : K.val = 2048 * (t.val % 3) + i.val) :
    (iblk12 V c 0 t : Vec Ideal S16x2048 .f32) (ix2 b i) = (V c main_v65 : S16x6144.Idx → EReal) (ix2 b K) := by
  have hi := idx12_0 t
  unfold iblk12
  rw [View.read_apply]
  show V c main_v65 _ = V c main_v65 _
  congr 1
  funext a
  apply Fin.ext
  match a with
  | ⟨0, _⟩ => show win12_0.index t 0 * 16 + 1 * b.val = b.val; rw [hi.1]; omega
  | ⟨1, _⟩ => show win12_0.index t 1 * 2048 + 1 * i.val = K.val; rw [hi.2, hK]; omega

/-- An entry of the weight block at a point is the weight array's entry in the point's row third and column third. -/
theorem wblk_apply (c : Dev nD) (t : Fin cfg12.N) (i : Fin 2048) (j : Fin 2048) (K J : Fin 6144)
    (hK : K.val = 2048 * (t.val % 3) + i.val) (hJ : J.val = 2048 * (t.val / 3) + j.val) :
    (iblk12 V c 1 t : Vec Ideal S2048x2048 .f32) (ix2 i j) = (V c main_arg14 : S6144x6144.Idx → EReal) (ix2 K J) := by
  have hi := idx12_1 t
  unfold iblk12
  rw [View.read_apply]
  show V c main_arg14 _ = V c main_arg14 _
  congr 1
  funext a
  apply Fin.ext
  match a with
  | ⟨0, _⟩ => show win12_1.index t 0 * 2048 + 1 * i.val = K.val; rw [hi.1, hK]; omega
  | ⟨1, _⟩ => show win12_1.index t 1 * 2048 + 1 * j.val = J.val; rw [hi.2, hJ]; omega

/-- An entry of the bias block at a point is the bias row's entry in the point's column third. -/
theorem bblk_apply (c : Dev nD) (t : Fin cfg12.N) (j : Fin 2048) (J : Fin 6144)
    (hJ : J.val = 2048 * (t.val / 3) + j.val) :
    (iblk12 V c 2 t : Vec Ideal S1x2048 .f32) (ix2 0 j) = (V c main_v66 : S1x6144.Idx → EReal) (ix2 0 J) := by
  have hi := idx12_2 t
  unfold iblk12
  rw [View.read_apply]
  show V c main_v66 _ = V c main_v66 _
  congr 1
  funext a
  apply Fin.ext
  match a with
  | ⟨0, _⟩ => show win12_2.index t 0 * 1 + 1 * 0 = 0; rw [hi.1]
  | ⟨1, _⟩ => show win12_2.index t 1 * 2048 + 1 * j.val = J.val; rw [hi.2, hJ]; omega

/-! ## The output window's blocks -/

/-- The output window's blocks are whole: 16 rows, 2048 columns, at every point. -/
theorem xsz12_3 : ∀ t : Fin cfg12.N, win12_3.xsize (grid12.coords t) 0 = 16 ∧ win12_3.xsize (grid12.coords t) 1 = 2048 :=
  (by decide +kernel : ∀ t : Fin grid12.N, win12_3.xsize (grid12.coords t) 0 = 16 ∧ win12_3.xsize (grid12.coords t) 1 = 2048)

end Cert.KernelIdeal.Hand

end
-- ==== Proof.KI.V12Pay.lean ====
/-
  The dense head's three payloads read at an entry, over extended reals: the zero block, one accumulation step (the
  running value plus a row of the feature block against a column of the weight block), and the read-out (bias,
  hyperbolic tangent, scale); then three steps from zero as the three thirds of one contraction over 6144 channels,
  and the read-out of that as the specification's dense head at the entry.
-/
import proofs.«421025_j30305289241172_1_alg».proof.Proof.Gen.KernelIdeal.Skeleton
import proofs.«421025_j30305289241172_1_alg».proof.Proof.Spec
import proofs.«421025_j30305289241172_1_alg».proof.Proof.Math
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.ValueIdx

namespace Cert.KernelIdeal.Hand

open Cert.KernelIdeal Cert.KernelIdeal.Gen

/-- The zero block the reset stores reads the extended real zero everywhere. -/
theorem head_pay1_apply (b : Fin 16) (j : Fin 2048) : k12_pay1 (F := Ideal) (ix2 b j) = 0 := by
  unfold k12_pay1
  simp only [shapeCast_self]
  show Ideal.ofBits .f32 0x00000000#32 = 0
  exact Ideal.ofBits_zero_f32

/-- The left operand's free axis carries the output's row. -/
theorem lhs_dot12_0 (i : S16x2048.Idx) (q : dot_S16x2048_S2048x2048_S16x2048_1_0_0_1_n_n.contr.Idx) :
    (dot_S16x2048_S2048x2048_S16x2048_1_0_0_1_n_n.lhsIdx i q 0).val = (i 0).val := by
  unfold DotDims.lhsIdx
  rw [dif_neg (show ¬(0 : Fin S16x2048.rank) ∈ dot_S16x2048_S2048x2048_S16x2048_1_0_0_1_n_n.lhsBatch by decide),
    dif_pos (show (0 : Fin S16x2048.rank) ∈ dot_S16x2048_S2048x2048_S16x2048_1_0_0_1_n_n.lhsNonContracting by decide)]
  rfl

/-- The left operand's contracted axis carries the contraction's coordinate. -/
theorem lhs_dot12_1 (i : S16x2048.Idx) (q : dot_S16x2048_S2048x2048_S16x2048_1_0_0_1_n_n.contr.Idx) :
    (dot_S16x2048_S2048x2048_S16x2048_1_0_0_1_n_n.lhsIdx i q 1).val = (q ⟨0, by decide⟩).val :=
  dot_S16x2048_S2048x2048_S16x2048_1_0_0_1_n_n.lhsIdx_val_of_single rfl i q

/-- The right operand's contracted axis carries the contraction's coordinate. -/
theorem rhs_dot12_0 (i : S16x2048.Idx) (q : dot_S16x2048_S2048x2048_S16x2048_1_0_0_1_n_n.contr.Idx) :
    (dot_S16x2048_S2048x2048_S16x2048_1_0_0_1_n_n.rhsIdx i q 0).val = (q ⟨0, by decide⟩).val :=
  dot_S16x2048_S2048x2048_S16x2048_1_0_0_1_n_n.rhsIdx_val_of_single rfl i q

/-- The right operand's free axis carries the output's column. -/
theorem rhs_dot12_1 (i : S16x2048.Idx) (q : dot_S16x2048_S2048x2048_S16x2048_1_0_0_1_n_n.contr.Idx) :
    (dot_S16x2048_S2048x2048_S16x2048_1_0_0_1_n_n.rhsIdx i q 1).val = (i 1).val := by
  unfold DotDims.rhsIdx
  rw [dif_neg (show ¬(1 : Fin S2048x2048.rank) ∈ dot_S16x2048_S2048x2048_S16x2048_1_0_0_1_n_n.rhsBatch by decide),
    dif_pos (show (1 : Fin S2048x2048.rank) ∈ dot_S16x2048_S2048x2048_S16x2048_1_0_0_1_n_n.rhsNonContracting by decide)]
  rfl

/-- The block product into a zero accumulator, at an entry: the row of the left block against the column of the right. -/
theorem dot12_apply (x : FVec Ideal S16x2048 .bf16) (w : FVec Ideal S2048x2048 .bf16) (b : Fin 16) (j : Fin 2048) :
    matmul dot_S16x2048_S2048x2048_S16x2048_1_0_0_1_n_n none x w (constant (F := Ideal) S16x2048 .f32 0x00000000#32) (ix2 b j)
      = ∑ i : Fin 2048, x (ix2 b i) * w (ix2 i j) := by
  simp only [matmul]
  rw [Ideal.matmul_constant_zero_apply,
    ← Equiv.sum_comp (contrEquiv1 dot_S16x2048_S2048x2048_S16x2048_1_0_0_1_n_n 2048 rfl rfl).symm]
  refine Finset.sum_congr rfl fun k _ => ?_
  have hk := contrEquiv1_symm_val dot_S16x2048_S2048x2048_S16x2048_1_0_0_1_n_n 2048 rfl rfl k
  have el : dot_S16x2048_S2048x2048_S16x2048_1_0_0_1_n_n.lhsIdx (ix2 b j)
      ((contrEquiv1 dot_S16x2048_S2048x2048_S16x2048_1_0_0_1_n_n 2048 rfl rfl).symm k) = ix2 b k :=
    funext fun a => Fin.ext (by
      match a with
      | ⟨0, _⟩ => exact lhs_dot12_0 _ _
      | ⟨1, _⟩ => exact (lhs_dot12_1 _ _).trans hk)
  have er : dot_S16x2048_S2048x2048_S16x2048_1_0_0_1_n_n.rhsIdx (ix2 b j)
      ((contrEquiv1 dot_S16x2048_S2048x2048_S16x2048_1_0_0_1_n_n 2048 rfl rfl).symm k) = ix2 k j :=
    funext fun a => Fin.ext (by
      match a with
      | ⟨0, _⟩ => exact (rhs_dot12_0 _ _).trans hk
      | ⟨1, _⟩ => exact rhs_dot12_1 _ _)
  rw [el, er]

/-- One step of the accumulation, at an entry: the running value plus the row of the feature block against the column
    of the weight block (the narrowing of the operands is the identity on extended reals). -/
theorem head_pay2_apply (x : Vec Ideal S16x2048 .f32) (w : Vec Ideal S2048x2048 .f32) (a : Vec Ideal S16x2048 .f32)
    (b : Fin 16) (j : Fin 2048) :
    k12_pay2 x w a (ix2 b j) = a (ix2 b j) + ∑ i : Fin 2048, x (ix2 b i) * w (ix2 i j) := by
  unfold k12_pay2
  simp only [shapeCast_self]
  rw [addf_apply, dot12_apply]
  rfl

/-- The finishing step, at an entry: the hyperbolic tangent of the accumulated value plus the bias of the column, scaled. -/
theorem head_pay3_apply (a : Vec Ideal S16x2048 .f32) (bd : Vec Ideal S1x2048 .f32) (b : Fin 16) (j : Fin 2048) :
    k12_pay3 a bd (ix2 b j) = Ideal.tanh (a (ix2 b j) + bd (ix2 0 j)) * Ideal.ofBits .f32 0x3DCCCCCD#32 := by
  unfold k12_pay3
  simp only [shapeCast_self]
  rw [mulf_apply]
  show Ideal.tanh (addf (F := Ideal) (φ := .f32) a (broadcastTo S16x2048 bd broadcasts_S1x2048_S16x2048) (ix2 b j)) * _ = _
  rw [addf_apply, broadcastTo_1b_ab_apply]
  rfl

/-- Three steps of the accumulation from the zero block, at an entry: the three block products added in order onto zero. -/
theorem pay2_chain_apply (x0 x1 x2 : Vec Ideal S16x2048 .f32) (w0 w1 w2 : Vec Ideal S2048x2048 .f32)
    (b : Fin 16) (j : Fin 2048) :
    k12_pay2 x2 w2 (k12_pay2 x1 w1 (k12_pay2 x0 w0 (k12_pay1 (F := Ideal)))) (ix2 b j)
      = (((0 : EReal) + ∑ i : Fin 2048, x0 (ix2 b i) * w0 (ix2 i j)) + ∑ i : Fin 2048, x1 (ix2 b i) * w1 (ix2 i j))
          + ∑ i : Fin 2048, x2 (ix2 b i) * w2 (ix2 i j) := by
  rw [head_pay2_apply, head_pay2_apply, head_pay2_apply, head_pay1_apply]

/-- When the three feature blocks are the three column thirds of a feature row and the three weight blocks the three
    row thirds of a weight column, the accumulated value is the whole contraction over the 6144 channels. -/
theorem pay2_chain_eq_sum (ft : (Cert.Spec.Sh2 16 6144).Idx → EReal) (Wd : (Cert.Spec.Sh2 6144 6144).Idx → EReal)
    (x0 x1 x2 : Vec Ideal S16x2048 .f32) (w0 w1 w2 : Vec Ideal S2048x2048 .f32) (b : Fin 16) (j : Fin 2048) (J : Fin 6144)
    (hx0 : ∀ i : Fin 2048, x0 (ix2 b i) = ft (ix2 b ⟨i.val, by omega⟩))
    (hx1 : ∀ i : Fin 2048, x1 (ix2 b i) = ft (ix2 b ⟨2048 + i.val, by omega⟩))
    (hx2 : ∀ i : Fin 2048, x2 (ix2 b i) = ft (ix2 b ⟨4096 + i.val, by omega⟩))
    (hw0 : ∀ i : Fin 2048, w0 (ix2 i j) = Wd (ix2 ⟨i.val, by omega⟩ J))
    (hw1 : ∀ i : Fin 2048, w1 (ix2 i j) = Wd (ix2 ⟨2048 + i.val, by omega⟩ J))
    (hw2 : ∀ i : Fin 2048, w2 (ix2 i j) = Wd (ix2 ⟨4096 + i.val, by omega⟩ J)) :
    k12_pay2 x2 w2 (k12_pay2 x1 w1 (k12_pay2 x0 w0 (k12_pay1 (F := Ideal)))) (ix2 b j)
      = ∑ k : Fin 6144, ft (ix2 b k) * Wd (ix2 k J) := by
  rw [pay2_chain_apply, Cert.Spec.sum_split3 (fun k => ft (ix2 b k) * Wd (ix2 k J))]
  simp only [hx0, hx1, hx2, hw0, hw1, hw2]

/-- The head at an entry: with the bias block's entry the bias of the column, the read-out of the accumulated value is
    the specification's dense head there. -/
theorem head_entry (ft : (Cert.Spec.Sh2 16 6144).Idx → EReal) (Wd : (Cert.Spec.Sh2 6144 6144).Idx → EReal)
    (bdA : (Cert.Spec.Sh2 1 6144).Idx → EReal)
    (x0 x1 x2 : Vec Ideal S16x2048 .f32) (w0 w1 w2 : Vec Ideal S2048x2048 .f32) (bb : Vec Ideal S1x2048 .f32)
    (b : Fin 16) (j : Fin 2048) (J : Fin 6144)
    (hx0 : ∀ i : Fin 2048, x0 (ix2 b i) = ft (ix2 b ⟨i.val, by omega⟩))
    (hx1 : ∀ i : Fin 2048, x1 (ix2 b i) = ft (ix2 b ⟨2048 + i.val, by omega⟩))
    (hx2 : ∀ i : Fin 2048, x2 (ix2 b i) = ft (ix2 b ⟨4096 + i.val, by omega⟩))
    (hw0 : ∀ i : Fin 2048, w0 (ix2 i j) = Wd (ix2 ⟨i.val, by omega⟩ J))
    (hw1 : ∀ i : Fin 2048, w1 (ix2 i j) = Wd (ix2 ⟨2048 + i.val, by omega⟩ J))
    (hw2 : ∀ i : Fin 2048, w2 (ix2 i j) = Wd (ix2 ⟨4096 + i.val, by omega⟩ J))
    (hb : bb (ix2 0 j) = bdA (ix2 0 J)) :
    k12_pay3 (k12_pay2 x2 w2 (k12_pay2 x1 w1 (k12_pay2 x0 w0 (k12_pay1 (F := Ideal))))) bb (ix2 b j)
      = Cert.Spec.dense ft Wd (fun q => bdA (ix2 0 q)) b J := by
  rw [head_pay3_apply, pay2_chain_eq_sum ft Wd x0 x1 x2 w0 w1 w2 b j J hx0 hx1 hx2 hw0 hw1 hw2, hb]
  rfl

end Cert.KernelIdeal.Hand

end
-- ==== Proof.KI.V12.lean ====
/-
  The value of the dense head at the extended reals. At a point (n, 2) the scratch accumulator is three steps from the
  zero block over the run (n, 0), (n, 1), (n, 2): the three thirds of the contraction over the 6144 channels, so what the
  point leaves in the output block is, entry by entry, the specification's head (contraction, bias, hyperbolic tangent,
  scale) at the entry's place in column third n. Those three points write back the three column thirds, which cover the
  output array; so the array ends holding the specification's head of the arrays the region found.
-/
import proofs.«421025_j30305289241172_1_alg».proof.Proof.KI.V12Blk
import proofs.«421025_j30305289241172_1_alg».proof.Proof.KI.V12Pay
import proofs.«421025_j30305289241172_1_alg».proof.Proof.Math
import Idealize.ShloMosaic.Lib.ValueLayout
import Idealize.ShloMosaic.PureOps.Ideal.Laws

set_option maxRecDepth 16384

noncomputable section

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

namespace Cert.KernelIdeal.Hand

open Cert.KernelIdeal Cert.KernelIdeal.Gen

variable (V : (c : Dev nD) → (b : Ref sig .tc) → Buf (Elt Ideal) ((c : Thread nD τ).loc b))

/-! ## The accumulator where the block is written back -/

/-- At a point whose inner coordinate is 2 the accumulator is three steps from the zero block, over the three points
    of its run. -/
theorem acc12_last (c : Dev nD) (t : Fin cfg12.N) (hk : t.val % 3 = 2) (t1 t0 : Fin cfg12.N)
    (h1 : t1.val + 1 = t.val) (h0 : t0.val + 1 = t1.val) :
    acc12 V c t = k12_pay2 (iblk12 V c 0 t) (iblk12 V c 1 t) (k12_pay2 (iblk12 V c 0 t1) (iblk12 V c 1 t1)
      (k12_pay2 (iblk12 V c 0 t0) (iblk12 V c 1 t0) (k12_pay1 (F := Ideal)))) := by
  rw [acc12_step V c t (by omega) t1 h1, acc12_step V c t1 (by omega) t0 h0, acc12_first V c t0 (by omega)]

/-- What such a point leaves in the output block, at an entry: the specification's dense head at the entry's place in
    the array. -/
theorem out_entry (c : Dev nD) (t : Fin cfg12.N) (hk : t.val % 3 = 2) (b : Fin 16) (j : Fin 2048) (J : Fin 6144)
    (hJ : J.val = 2048 * (t.val / 3) + j.val) :
    k12_pay3 (acc12 V c t) (iblk12 V c 2 t) (ix2 b j)
      = Cert.Spec.dense (V c main_v65) (V c main_arg14) (fun q => V c main_v66 (ix2 0 q)) b J := by
  have hN : cfg12.N = 9 := N_12
  have ht := t.isLt
  rw [acc12_last V c t hk ⟨t.val - 1, by omega⟩ ⟨t.val - 2, by omega⟩ (by show t.val - 1 + 1 = t.val; omega)
    (by show t.val - 2 + 1 = t.val - 1; omega)]
  refine head_entry (V c main_v65) (V c main_arg14) (V c main_v66)
    (iblk12 V c 0 ⟨t.val - 2, by omega⟩) (iblk12 V c 0 ⟨t.val - 1, by omega⟩) (iblk12 V c 0 t)
    (iblk12 V c 1 ⟨t.val - 2, by omega⟩) (iblk12 V c 1 ⟨t.val - 1, by omega⟩) (iblk12 V c 1 t)
    (iblk12 V c 2 t) b j J ?_ ?_ ?_ ?_ ?_ ?_ ?_
  · intro i; exact xblk_apply V c _ b i _ (by show i.val = 2048 * ((t.val - 2) % 3) + i.val; omega)
  · intro i; exact xblk_apply V c _ b i _ (by show 2048 + i.val = 2048 * ((t.val - 1) % 3) + i.val; omega)
  · intro i; exact xblk_apply V c _ b i _ (by show 4096 + i.val = 2048 * (t.val % 3) + i.val; omega)
  · intro i; exact wblk_apply V c _ i j _ J (by show i.val = 2048 * ((t.val - 2) % 3) + i.val; omega)
      (by show J.val = 2048 * ((t.val - 2) / 3) + j.val; omega)
  · intro i; exact wblk_apply V c _ i j _ J (by show 2048 + i.val = 2048 * ((t.val - 1) % 3) + i.val; omega)
      (by show J.val = 2048 * ((t.val - 1) / 3) + j.val; omega)
  · intro i; exact wblk_apply V c _ i j _ J (by show 4096 + i.val = 2048 * (t.val % 3) + i.val; omega) hJ
  · exact bblk_apply V c t j J hJ

/-! ## From the written-back blocks to the array -/

/-- The head's output as contents of its array. -/
abbrev G12 (c : Dev nD) : Buf (Elt Ideal) ((c : Thread nD τ).loc main_v67) :=
  Cert.Spec.arr2 (Cert.Spec.dense (V c main_v65) (V c main_arg14) (fun q => V c main_v66 (ix2 0 q)))

/-- What a point that writes back writes is its block of the head's output. -/
theorem flushed12_eq (c : Dev nD) (t : Fin cfg12.N) (hf : (cfg12.win 3).flush t = true) :
    (dat12 V c).flushed 3 t = ((cfg12.win 3).blk t).view.read (Elt Ideal) (G12 V c) := by
  have hk : t.val % 3 = 2 := (flush12_3 t).mp hf
  have hi := idx12_3 t
  have hx := xsz12_3 t
  have hN : cfg12.N = 9 := N_12
  have ht := t.isLt
  show (cfg12.win 3).cut (grid12.coords t) ((dat12 V c).after 3 t) = _
  rw [after12_out V c t hk]
  funext y
  have hy0 : (y 0).val < 16 := Nat.lt_of_lt_of_eq (y 0).isLt hx.1
  have hy1 : (y 1).val < 2048 := Nat.lt_of_lt_of_eq (y 1).isLt hx.2
  rw [View.read_apply]
  have e1 : win12_3.xinj (grid12.coords t) y = ix2 (⟨(y 0).val, hy0⟩ : Fin 16) (⟨(y 1).val, hy1⟩ : Fin 2048) := by
    funext a
    match a with
    | ⟨0, _⟩ => rfl
    | ⟨1, _⟩ => rfl
  have e2 : ((cfg12.win 3).blk t).view.emb y
      = ix2 (⟨(y 0).val, hy0⟩ : Fin 16) (⟨2048 * (t.val / 3) + (y 1).val, by omega⟩ : Fin 6144) := by
    funext a
    apply Fin.ext
    match a with
    | ⟨0, _⟩ => show win12_3.index t 0 * 16 + 1 * (y 0).val = (y 0).val; rw [hi.1]; omega
    | ⟨1, _⟩ => show win12_3.index t 1 * 2048 + 1 * (y 1).val = 2048 * (t.val / 3) + (y 1).val; rw [hi.2]; omega
  show k12_pay3 (acc12 V c t) (iblk12 V c 2 t) (win12_3.xinj (grid12.coords t) y) = G12 V c (((cfg12.win 3).blk t).view.emb y)
  rw [e1, e2]
  exact out_entry V c t hk _ _ _ rfl

/-- Every entry of the output array is in the block some point writes back: column third n, at the point (n, 2). -/
theorem cover12 (i : S16x6144.Idx) :
    ∃ t : Fin cfg12.N, (cfg12.win 3).flush t = true ∧ i ∈ ((cfg12.win 3).blk t).view.set := by
  have h0 : (i 0 : Nat) < 16 := (i 0).isLt
  have h1 : (i 1 : Nat) < 6144 := (i 1).isLt
  have hN : cfg12.N = 9 := N_12
  obtain ⟨t, ht⟩ : ∃ t : Fin cfg12.N, t.val = 3 * ((i 1 : Nat) / 2048) + 2 := ⟨⟨_, by omega⟩, rfl⟩
  have hi := idx12_3 t
  have hx := xsz12_3 t
  refine ⟨t, (flush12_3 t).mpr (by omega), ?_⟩
  show i ∈ ((View.whole main_v67).slice (win12_3.rect t)).set
  rw [View.set_slice_whole, Rect.mem_set_unit]
  intro a
  match a with
  | ⟨0, _⟩ =>
    show win12_3.index t 0 * 16 ≤ (i 0 : Nat) ∧ (i 0 : Nat) < win12_3.index t 0 * 16 + win12_3.xsize (grid12.coords t) 0
    rw [hi.1, hx.1]; omega
  | ⟨1, _⟩ =>
    show win12_3.index t 1 * 2048 ≤ (i 1 : Nat) ∧ (i 1 : Nat) < win12_3.index t 1 * 2048 + win12_3.xsize (grid12.coords t) 1
    rw [hi.2, hx.2]; omega

/-- The head's output array after the region: the specification's dense head of the arrays the region found. -/
theorem arr12_eq (c : Dev nD) :
    (dat12 (F := Ideal) V c).arrAt 3 cfg12.N
      = Cert.Spec.arr2 (Cert.Spec.dense (V c main_v65) (V c main_arg14) (fun j => V c main_v66 (ValueIdx.ix2 0 j))) :=
  (dat12 V c).arrAt_eq_of_cover 3 (G12 V c) (flushed12_eq V c) cover12

end Cert.KernelIdeal.Hand

end
-- ==== Proof.KI.Value.lean ====
/-
  The value of the whole program over the extended reals: after the sixth layer a host stretch lays the activations
  flat, the last region is the dense head (a matrix product, a bias, a hyperbolic tangent and a scale), and a last
  host stretch views its output back by node and coordinate. With the six layers before it this is the network of
  the specification, as a function of the sixteen arguments.
-/
import proofs.«421025_j30305289241172_1_alg».proof.Proof.KI.ValueLayers
import proofs.«421025_j30305289241172_1_alg».proof.Proof.KI.V12

set_option maxRecDepth 16384

noncomputable section

namespace Cert.KernelIdeal.Hand

open Cert.KernelIdeal Cert.KernelIdeal.Gen
open Idealize.ShloMosaic Idealize.ShloMosaic.TcCoe Idealize.ShloMosaic.ValueIdx

variable (m : (ℓ : Loc nD τ sig) → Buf (Elt Ideal) ℓ) (ρ : Dev nD → PrngReg) (c : Dev nD)

variable (he : Cert.Spec.InRange (m ((c.tc : Thread nD τ).loc main_arg1)))
include he

/-! ## The head and the result -/

/-- The head's input: the last layer's output laid flat. -/
theorem flat6 : W20 m ρ c (Proc.devRef .tc main_v65) = Cert.Spec.flat (act6 m c) :=
  (host12_flat (W19 m ρ c)).trans (congrArg Cert.Spec.flat (layer6 m ρ c he))

/-- Region 12: the dense head. -/
theorem head : W21 m ρ c (Proc.devRef .tc main_v67)
    = Cert.Spec.arr2 (Cert.Spec.dense (Cert.Spec.flat (act6 m c)) (m ((c.tc : Thread nD τ).loc main_arg14))
        (Cert.Spec.vec1 (m ((c.tc : Thread nD τ).loc main_arg15)))) := by
  refine (W21_arr m ρ c 3).trans ((arr12_eq (V20 m ρ) c).trans ?_)
  refine head_of_parts _ _ _ _ _ _ ?_ ?_ ?_
  · exact flat6 m ρ c he
  · exact W20_arg14 m ρ c
  · exact (host12_bias (W19 m ρ c)).trans (row_of_eq _ _ (W19_arg15 m ρ c))

/-- The program's result is the network of its sixteen arguments. -/
theorem kernel_value : W22 m ρ c (Proc.devRef .tc main_v68)
    = Cert.Spec.net (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) (m ((c.tc : Thread nD τ).loc main_arg9))
        (m ((c.tc : Thread nD τ).loc main_arg10)) (m ((c.tc : Thread nD τ).loc main_arg11))
        (m ((c.tc : Thread nD τ).loc main_arg12)) (m ((c.tc : Thread nD τ).loc main_arg13))
        (m ((c.tc : Thread nD τ).loc main_arg14)) (m ((c.tc : Thread nD τ).loc main_arg15)) := by
  refine (host13_unflat (W21 m ρ c)).trans ?_
  exact unflat_of_parts _ _ (head m ρ c he)

end Cert.KernelIdeal.Hand

end
-- ==== Proof.Ref.Ops0.lean ====
import proofs.«421025_j30305289241172_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 82 operations of @main's window 0 in program order, a called function's operations standing in its call's place over that call's record; of them 23 of @_take over main_call0 (from position 44). -/
abbrev ops0 : List (HloOp τ sig (Elt F)) :=
  [ StableHlo.unary main_arg1 main_v0 ((extractStridedSlice S1x12288 ![0, 0] · slices_S2x12288_S1x12288_0_0) : (⟨S2x12288, .i32⟩ : BufTy).Contents (Elt F) → (⟨S1x12288, .i32⟩ : BufTy).Contents (Elt F)),
    StableHlo.reshape main_v0 main_v1 rfl shapeCasts_S1x12288_S12288,
    StableHlo.unary main_arg1 main_v2 ((extractStridedSlice S1x12288 ![1, 0] · slices_S2x12288_S1x12288_1_0) : (⟨S2x12288, .i32⟩ : BufTy).Contents (Elt F) → (⟨S1x12288, .i32⟩ : BufTy).Contents (Elt F)),
    StableHlo.reshape main_v2 main_v3 rfl shapeCasts_S1x12288_S12288,
    StableHlo.nullary main_cst (constant S_ .f32 0x00000000#32),
    StableHlo.unary main_cst main_v4 (broadcastInDim S2048 ![] bcast_S_S2048 : (⟨S_, .f32⟩ : BufTy).Contents (Elt F) → (⟨S2048, .f32⟩ : BufTy).Contents (Elt F)),
    StableHlo.nullary main_c (constantI S_ 32 0#32),
    StableHlo.unary main_c main_v5 (broadcastInDim S12288 ![] bcast_S_S12288 : (⟨S_, .i32⟩ : BufTy).Contents (Elt F) → (⟨S12288, .i32⟩ : BufTy).Contents (Elt F)),
    StableHlo.binary main_v3 main_v5 main_v6 (cmpi .slt : (⟨S12288, .i32⟩ : BufTy).Contents (Elt F) → (⟨S12288, .i32⟩ : BufTy).Contents (Elt F) → (⟨S12288, .i1⟩ : BufTy).Contents (Elt F)),
    StableHlo.nullary main_c_0 (constantI S_ 32 2048#32),
    StableHlo.unary main_c_0 main_v7 (broadcastInDim S12288 ![] bcast_S_S12288 : (⟨S_, .i32⟩ : BufTy).Contents (Elt F) → (⟨S12288, .i32⟩ : BufTy).Contents (Elt F)),
    StableHlo.binary main_v3 main_v7 main_v8 (addi : (⟨S12288, .i32⟩ : BufTy).Contents (Elt F) → (⟨S12288, .i32⟩ : BufTy).Contents (Elt F) → (⟨S12288, .i32⟩ : BufTy).Contents (Elt F)),
    StableHlo.ternary main_v6 main_v8 main_v3 main_v9 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)),
    StableHlo.unary main_v9 main_v10 (broadcastInDim S12288x1 ![0] bcast_S12288_S12288x1_0 : (⟨S12288, .i32⟩ : BufTy).Contents (Elt F) → (⟨S12288x1, .i32⟩ : BufTy).Contents (Elt F)),
    StableHlo.nullary main_cst_1 (constant S_ .f32 0x3F800000#32),
    StableHlo.unary main_cst_1 main_v11 (broadcastInDim S12288 ![] bcast_S_S12288 : (⟨S_, .f32⟩ : BufTy).Contents (Elt F) → (⟨S12288, .f32⟩ : BufTy).Contents (Elt F)),
    StableHlo.ternary main_v4 main_v10 main_v11 main_v12 ((fun x i u => Host.scatterAdd scatter_S2048_S12288x1_S12288_n_0_0_1 x i u) : (⟨S2048, .f32⟩ : BufTy).Contents (Elt F) → (⟨S12288x1, .i32⟩ : BufTy).Contents (Elt F) → (⟨S12288, .f32⟩ : BufTy).Contents (Elt F) → (⟨S2048, .f32⟩ : BufTy).Contents (Elt F)),
    StableHlo.nullary main_cst_2 (constant S_ .f32 0x3F800000#32),
    StableHlo.unary main_cst_2 main_v13 (broadcastInDim S2048 ![] bcast_S_S2048 : (⟨S_, .f32⟩ : BufTy).Contents (Elt F) → (⟨S2048, .f32⟩ : BufTy).Contents (Elt F)),
    StableHlo.binary main_v12 main_v13 main_v14 (addf : (⟨S2048, .f32⟩ : BufTy).Contents (Elt F) → (⟨S2048, .f32⟩ : BufTy).Contents (Elt F) → (⟨S2048, .f32⟩ : BufTy).Contents (Elt F)),
    StableHlo.unary main_v14 main_v15 (Host.rsqrt : (⟨S2048, .f32⟩ : BufTy).Contents (Elt F) → (⟨S2048, .f32⟩ : BufTy).Contents (Elt F)),
    StableHlo.nullary main_cst_3 (constant S_ .f32 0x3F800000#32),
    StableHlo.unary main_cst_3 main_v16 (broadcastInDim S2048 ![] bcast_S_S2048 : (⟨S_, .f32⟩ : BufTy).Contents (Elt F) → (⟨S2048, .f32⟩ : BufTy).Contents (Elt F)),
    StableHlo.binary main_v16 main_v14 main_v17 (Host.divf : (⟨S2048, .f32⟩ : BufTy).Contents (Elt F) → (⟨S2048, .f32⟩ : BufTy).Contents (Elt F) → (⟨S2048, .f32⟩ : BufTy).Contents (Elt F)),
    StableHlo.binary main_arg0 main_arg2 main_v18 ((fun l r => Host.dotGeneral dot_S16x2048x1475_S1475x512_S16x2048x512_2_0_01_1_n_n none l r) : (⟨S16x2048x1475, .f32⟩ : BufTy).Contents (Elt F) → (⟨S1475x512, .f32⟩ : BufTy).Contents (Elt F) → (⟨S16x2048x512, .f32⟩ : BufTy).Contents (Elt F)),
    StableHlo.nullary main_c_4 (constantI S_ 32 0#32),
    StableHlo.unary main_c_4 main_v19 (broadcastInDim S12288 ![] bcast_S_S12288 : (⟨S_, .i32⟩ : BufTy).Contents (Elt F) → (⟨S12288, .i32⟩ : BufTy).Contents (Elt F)),
    StableHlo.binary main_v1 main_v19 main_v20 (cmpi .slt : (⟨S12288, .i32⟩ : BufTy).Contents (Elt F) → (⟨S12288, .i32⟩ : BufTy).Contents (Elt F) → (⟨S12288, .i1⟩ : BufTy).Contents (Elt F)),
    StableHlo.nullary main_c_5 (constantI S_ 32 2048#32),
    StableHlo.unary main_c_5 main_v21 (broadcastInDim S12288 ![] bcast_S_S12288 : (⟨S_, .i32⟩ : BufTy).Contents (Elt F) → (⟨S12288, .i32⟩ : BufTy).Contents (Elt F)),
    StableHlo.binary main_v1 main_v21 main_v22 (addi : (⟨S12288, .i32⟩ : BufTy).Contents (Elt F) → (⟨S12288, .i32⟩ : BufTy).Contents (Elt F) → (⟨S12288, .i32⟩ : BufTy).Contents (Elt F)),
    StableHlo.ternary main_v20 main_v22 main_v1 main_v23 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)),
    StableHlo.unary main_v23 main_v24 (broadcastInDim S12288x1 ![0] bcast_S12288_S12288x1_0 : (⟨S12288, .i32⟩ : BufTy).Contents (Elt F) → (⟨S12288x1, .i32⟩ : BufTy).Contents (Elt F)),
    StableHlo.binary main_v15 main_v24 main_v25 ((fun x i => Host.gather gather_S2048_S12288x1_S12288_n_0_n_n_0_1_1 x i) : (⟨S2048, .f32⟩ : BufTy).Contents (Elt F) → (⟨S12288x1, .i32⟩ : BufTy).Contents (Elt F) → (⟨S12288, .f32⟩ : BufTy).Contents (Elt F)),
    StableHlo.nullary main_c_6 (constantI S_ 32 0#32),
    StableHlo.unary main_c_6 main_v26 (broadcastInDim S12288 ![] bcast_S_S12288 : (⟨S_, .i32⟩ : BufTy).Contents (Elt F) → (⟨S12288, .i32⟩ : BufTy).Contents (Elt F)),
    StableHlo.binary main_v3 main_v26 main_v27 (cmpi .slt : (⟨S12288, .i32⟩ : BufTy).Contents (Elt F) → (⟨S12288, .i32⟩ : BufTy).Contents (Elt F) → (⟨S12288, .i1⟩ : BufTy).Contents (Elt F)),
    StableHlo.nullary main_c_7 (constantI S_ 32 2048#32),
    StableHlo.unary main_c_7 main_v28 (broadcastInDim S12288 ![] bcast_S_S12288 : (⟨S_, .i32⟩ : BufTy).Contents (Elt F) → (⟨S12288, .i32⟩ : BufTy).Contents (Elt F)),
    StableHlo.binary main_v3 main_v28 main_v29 (addi : (⟨S12288, .i32⟩ : BufTy).Contents (Elt F) → (⟨S12288, .i32⟩ : BufTy).Contents (Elt F) → (⟨S12288, .i32⟩ : BufTy).Contents (Elt F)),
    StableHlo.ternary main_v27 main_v29 main_v3 main_v30 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)),
    StableHlo.unary main_v30 main_v31 (broadcastInDim S12288x1 ![0] bcast_S12288_S12288x1_0 : (⟨S12288, .i32⟩ : BufTy).Contents (Elt F) → (⟨S12288x1, .i32⟩ : BufTy).Contents (Elt F)),
    StableHlo.binary main_v15 main_v31 main_v32 ((fun x i => Host.gather gather_S2048_S12288x1_S12288_n_0_n_n_0_1_1 x i) : (⟨S2048, .f32⟩ : BufTy).Contents (Elt F) → (⟨S12288x1, .i32⟩ : BufTy).Contents (Elt F) → (⟨S12288, .f32⟩ : BufTy).Contents (Elt F)),
    StableHlo.binary main_v25 main_v32 main_v33 (mulf : (⟨S12288, .f32⟩ : BufTy).Contents (Elt F) → (⟨S12288, .f32⟩ : BufTy).Contents (Elt F) → (⟨S12288, .f32⟩ : BufTy).Contents (Elt F)),
    StableHlo.TRef.nullary main_call0.c (constantI S_ 32 0#32),
    StableHlo.TRef.unary main_call0.c main_call0.v0 (broadcastInDim S12288 ![] bcast_S_S12288),
    StableHlo.TRef.binary (.of main_v1 : StableHlo.TRef sig ⟨S12288, .i32⟩) main_call0.v0 main_call0.v1 (cmpi .slt),
    StableHlo.TRef.nullary main_call0.c_0 (constantI S_ 32 2048#32),
    StableHlo.TRef.unary main_call0.c_0 main_call0.v2 (broadcastInDim S12288 ![] bcast_S_S12288),
    StableHlo.TRef.binary (.of main_v1 : StableHlo.TRef sig ⟨S12288, .i32⟩) main_call0.v2 main_call0.v3 addi,
    StableHlo.TRef.ternary main_call0.v1 main_call0.v3 (.of main_v1 : StableHlo.TRef sig ⟨S12288, .i32⟩) main_call0.call0.v0 select,
    StableHlo.TRef.unary main_call0.call0.v0 main_call0.v5 (broadcastInDim S12288x1 ![0] bcast_S12288_S12288x1_0),
    StableHlo.TRef.nullary main_call0.c_1 (constantI S1 32 2047#32),
    StableHlo.TRef.nullary main_call0.c_2 (constantI S_ 32 0#32),
    StableHlo.TRef.unary main_call0.c_2 main_call0.v6 (broadcastInDim S12288x1 ![] bcast_S_S12288x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S12288x1 ![0, 1] bcast_S1x1_S12288x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S12288x1_S12288_d1 h_S_),
    StableHlo.TRef.binary (.of main_v18 : StableHlo.TRef sig ⟨S16x2048x512, .f32⟩) main_call0.v5 main_call0.v13 (fun x i => Host.gather gather_S16x2048x512_S12288x1_S16x12288x512_02_1_n_n_1_1_161512 x i),
    StableHlo.TRef.unary main_call0.v12 main_call0.v14 (broadcastInDim S16x12288x512 ![1] bcast_S12288_S16x12288x512_1),
    StableHlo.TRef.nullary main_call0.cst (constant S_ .f32 0x7FC00000#32),
    StableHlo.TRef.unary main_call0.cst main_call0.v15 (broadcastInDim S16x12288x512 ![] bcast_S_S16x12288x512),
    StableHlo.TRef.ternary main_call0.v14 main_call0.v13 main_call0.v15 main_call0.v16 select,
    StableHlo.unary main_v33 main_v35 (broadcastInDim S1x12288x1 ![1] bcast_S12288_S1x12288x1_1 : (⟨S12288, .f32⟩ : BufTy).Contents (Elt F) → (⟨S1x12288x1, .f32⟩ : BufTy).Contents (Elt F)),
    StableHlo.unary main_v35 main_v36 (broadcastInDim S16x12288x512 ![0, 1, 2] bcast_S1x12288x1_S16x12288x512_0_1_2 : (⟨S1x12288x1, .f32⟩ : BufTy).Contents (Elt F) → (⟨S16x12288x512, .f32⟩ : BufTy).Contents (Elt F)),
    StableHlo.binary main_v34 main_v36 main_v37 (mulf : (⟨S16x12288x512, .f32⟩ : BufTy).Contents (Elt F) → (⟨S16x12288x512, .f32⟩ : BufTy).Contents (Elt F) → (⟨S16x12288x512, .f32⟩ : BufTy).Contents (Elt F)),
    StableHlo.nullary main_cst_8 (constant S_ .f32 0x00000000#32),
    StableHlo.unary main_cst_8 main_v38 (broadcastInDim S16x2048x512 ![] bcast_S_S16x2048x512 : (⟨S_, .f32⟩ : BufTy).Contents (Elt F) → (⟨S16x2048x512, .f32⟩ : BufTy).Contents (Elt F)),
    StableHlo.nullary main_c_9 (constantI S_ 32 0#32),
    StableHlo.unary main_c_9 main_v39 (broadcastInDim S12288 ![] bcast_S_S12288 : (⟨S_, .i32⟩ : BufTy).Contents (Elt F) → (⟨S12288, .i32⟩ : BufTy).Contents (Elt F)),
    StableHlo.binary main_v3 main_v39 main_v40 (cmpi .slt : (⟨S12288, .i32⟩ : BufTy).Contents (Elt F) → (⟨S12288, .i32⟩ : BufTy).Contents (Elt F) → (⟨S12288, .i1⟩ : BufTy).Contents (Elt F)),
    StableHlo.nullary main_c_10 (constantI S_ 32 2048#32),
    StableHlo.unary main_c_10 main_v41 (broadcastInDim S12288 ![] bcast_S_S12288 : (⟨S_, .i32⟩ : BufTy).Contents (Elt F) → (⟨S12288, .i32⟩ : BufTy).Contents (Elt F)),
    StableHlo.binary main_v3 main_v41 main_v42 (addi : (⟨S12288, .i32⟩ : BufTy).Contents (Elt F) → (⟨S12288, .i32⟩ : BufTy).Contents (Elt F) → (⟨S12288, .i32⟩ : BufTy).Contents (Elt F)),
    StableHlo.ternary main_v40 main_v42 main_v3 main_v43 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)),
    StableHlo.unary main_v43 main_v44 (broadcastInDim S12288x1 ![0] bcast_S12288_S12288x1_0 : (⟨S12288, .i32⟩ : BufTy).Contents (Elt F) → (⟨S12288x1, .i32⟩ : BufTy).Contents (Elt F)),
    StableHlo.ternary main_v38 main_v44 main_v37 main_v45 ((fun x i u => Host.scatterAdd scatter_S16x2048x512_S12288x1_S16x12288x512_02_1_1_1 x i u) : (⟨S16x2048x512, .f32⟩ : BufTy).Contents (Elt F) → (⟨S12288x1, .i32⟩ : BufTy).Contents (Elt F) → (⟨S16x12288x512, .f32⟩ : BufTy).Contents (Elt F) → (⟨S16x2048x512, .f32⟩ : BufTy).Contents (Elt F)),
    StableHlo.unary main_v17 main_v46 (broadcastInDim S1x2048x1 ![1] bcast_S2048_S1x2048x1_1 : (⟨S2048, .f32⟩ : BufTy).Contents (Elt F) → (⟨S1x2048x1, .f32⟩ : BufTy).Contents (Elt F)) ]

set_option maxRecDepth 8192 in
/-- Every operation of the window touches TensorCore references only: each builder's own fact, in order. -/
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub ..,
   nullary_bufs_sub .., unary_bufs_sub .., binary_bufs_sub .., nullary_bufs_sub .., unary_bufs_sub .., binary_bufs_sub ..,
   ternary_bufs_sub .., unary_bufs_sub .., nullary_bufs_sub .., unary_bufs_sub .., ternary_bufs_sub .., nullary_bufs_sub ..,
   unary_bufs_sub .., binary_bufs_sub .., unary_bufs_sub .., nullary_bufs_sub .., unary_bufs_sub .., binary_bufs_sub ..,
   binary_bufs_sub .., nullary_bufs_sub .., unary_bufs_sub .., binary_bufs_sub .., nullary_bufs_sub .., unary_bufs_sub ..,
   binary_bufs_sub .., ternary_bufs_sub .., unary_bufs_sub .., binary_bufs_sub .., nullary_bufs_sub .., unary_bufs_sub ..,
   binary_bufs_sub .., nullary_bufs_sub .., unary_bufs_sub .., binary_bufs_sub .., ternary_bufs_sub .., unary_bufs_sub ..,
   binary_bufs_sub .., binary_bufs_sub .., nullary_bufs_sub .., unary_bufs_sub .., binary_bufs_sub .., nullary_bufs_sub ..,
   unary_bufs_sub .., binary_bufs_sub .., ternary_bufs_sub .., unary_bufs_sub .., nullary_bufs_sub .., nullary_bufs_sub ..,
   unary_bufs_sub .., binary_bufs_sub .., unary_bufs_sub .., unary_bufs_sub .., binary_bufs_sub .., binary_bufs_sub ..,
   nullary_bufs_sub .., binary_bufs_sub .., binary_bufs_sub .., unary_bufs_sub .., nullary_bufs_sub .., unary_bufs_sub ..,
   ternary_bufs_sub .., unary_bufs_sub .., unary_bufs_sub .., binary_bufs_sub .., nullary_bufs_sub .., unary_bufs_sub ..,
   nullary_bufs_sub .., unary_bufs_sub .., binary_bufs_sub .., nullary_bufs_sub .., unary_bufs_sub .., binary_bufs_sub ..,
   ternary_bufs_sub .., unary_bufs_sub .., ternary_bufs_sub .., unary_bufs_sub ..⟩

end Cert.ReferenceIdeal.Hand

end
-- ==== Proof.Ref.Lemmas.lean ====
/- The reference program's run, two small tools shared by its six windows: which operations can write an argument
   buffer (none: every value of the program has a buffer of its own, and the sixteen arguments hold the first sixteen
   places), and how a fact about each element of a literal list is proved. -/
import proofs.«421025_j30305289241172_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The program's sixteen arguments are the references of index 0 to 15; every value it computes has a buffer of
    index at least 16. An operation whose one written buffer has index at least sixteen therefore writes no
    argument: a written reference IS that buffer (a device buffer determines its reference), whose index is too large. -/
theorem keeps_of_writes {op : HloOp τ sig (Elt F)} (y : Ref sig .tc) (hy : 16 ≤ y.idx.val)
    (hw : op.writes = {Proc.devRef .tc y}) :
    ∀ r : Ref sig .tc, r.idx.val < 16 → (Proc.devRef .tc r : DevRef τ sig) ∉ op.writes := by
  intro r hr hm
  rw [hw, Finset.mem_singleton] at hm
  have := Proc.devRef_injective _ hm
  subst this
  omega

/-- A fact about every element of a literal list, each element's by the same term: List.Forall over a literal list
    is the conjunction of the fact at each element, split here once per element (the last element's is the fact itself). -/
macro "each_op " t:term : tactic => `(tactic| repeat (first | refine ⟨$t, ?_⟩ | exact $t))

end Cert.ReferenceIdeal.Hand

end
-- ==== Proof.Ref.Eq0.lean ====
/- Window 0 of the reference program's @main as a straight line: it IS the sequence of its 82 operations, none of
   which leaves a buffer undetermined and none of which writes an argument. -/
import proofs.«421025_j30305289241172_1_alg».proof.Proof.Ref.Ops0
import proofs.«421025_j30305289241172_1_alg».proof.Proof.Ref.Lemmas

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The window is the straight line of its operations. Both sides are chains of single-operation steps: the window's
    is the printed one with one call among its statements (the gather of rows @_take, record main_call0), a call being the callee's
    body applied to the operands and the call's record, which unfolds to the callee's steps in the call's place (a
    gather of rows itself calls a select of indices, unfolded the same way); sequencing of such chains re-associates by
    computation, so the two chains are the same term. -/
theorem main_part0_eq (c : Dev nD) : main_part0 (F := F) c = seq ops0 := rfl

/-- Every operation of the window determines all it writes: each is one of the builders of a StableHLO line, whose
    set of undetermined buffers is empty by definition. -/
theorem ops0_fresh : (ops0 : List (HloOp τ sig (Elt F))).Forall fun op => op.fresh = ∅ := by
  each_op rfl

/-- No operation of the window writes an argument: each writes exactly its result's buffer, a value of the program,
    whose index among the references is at least sixteen. -/
theorem ops0_keep : (ops0 : List (HloOp τ sig (Elt F))).Forall fun op =>
    ∀ r : Ref sig .tc, r.idx.val < 16 → (Proc.devRef .tc r : DevRef τ sig) ∉ op.writes := by
  each_op (keeps_of_writes _ (by decide) rfl)

end Cert.ReferenceIdeal.Hand

end
-- ==== Proof.Ref.Ops1.lean ====
import proofs.«421025_j30305289241172_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 82 operations of @main's window 1 in program order, a called function's operations standing in its call's place over that call's record; of them 23 of @_take over main_call1 (from position 26), 1 of @_where_0 over main_call2 (from position 76). -/
abbrev ops1 : List (HloOp τ sig (Elt F)) :=
  [ StableHlo.unary main_v46 main_v47 (broadcastInDim S16x2048x512 ![0, 1, 2] bcast_S1x2048x1_S16x2048x512_0_1_2 : (⟨S1x2048x1, .f32⟩ : BufTy).Contents (Elt F) → (⟨S16x2048x512, .f32⟩ : BufTy).Contents (Elt F)),
    StableHlo.binary main_v18 main_v47 main_v48 (mulf : (⟨S16x2048x512, .f32⟩ : BufTy).Contents (Elt F) → (⟨S16x2048x512, .f32⟩ : BufTy).Contents (Elt F) → (⟨S16x2048x512, .f32⟩ : BufTy).Contents (Elt F)),
    StableHlo.binary main_v45 main_v48 main_v49 (addf : (⟨S16x2048x512, .f32⟩ : BufTy).Contents (Elt F) → (⟨S16x2048x512, .f32⟩ : BufTy).Contents (Elt F) → (⟨S16x2048x512, .f32⟩ : BufTy).Contents (Elt F)),
    StableHlo.unary main_arg3 main_v50 (broadcastInDim S1x1x512 ![2] bcast_S512_S1x1x512_2 : (⟨S512, .f32⟩ : BufTy).Contents (Elt F) → (⟨S1x1x512, .f32⟩ : BufTy).Contents (Elt F)),
    StableHlo.unary main_v50 main_v51 (broadcastInDim S16x2048x512 ![0, 1, 2] bcast_S1x1x512_S16x2048x512_0_1_2 : (⟨S1x1x512, .f32⟩ : BufTy).Contents (Elt F) → (⟨S16x2048x512, .f32⟩ : BufTy).Contents (Elt F)),
    StableHlo.binary main_v49 main_v51 main_v52 (addf : (⟨S16x2048x512, .f32⟩ : BufTy).Contents (Elt F) → (⟨S16x2048x512, .f32⟩ : BufTy).Contents (Elt F) → (⟨S16x2048x512, .f32⟩ : BufTy).Contents (Elt F)),
    StableHlo.binary main_v52 main_arg4 main_v53 ((fun l r => Host.dotGeneral dot_S16x2048x512_S512x512_S16x2048x512_2_0_01_1_n_n none l r) : (⟨S16x2048x512, .f32⟩ : BufTy).Contents (Elt F) → (⟨S512x512, .f32⟩ : BufTy).Contents (Elt F) → (⟨S16x2048x512, .f32⟩ : BufTy).Contents (Elt F)),
    StableHlo.nullary main_c_11 (constantI S_ 32 0#32),
    StableHlo.unary main_c_11 main_v54 (broadcastInDim S12288 ![] bcast_S_S12288 : (⟨S_, .i32⟩ : BufTy).Contents (Elt F) → (⟨S12288, .i32⟩ : BufTy).Contents (Elt F)),
    StableHlo.binary main_v1 main_v54 main_v55 (cmpi .slt : (⟨S12288, .i32⟩ : BufTy).Contents (Elt F) → (⟨S12288, .i32⟩ : BufTy).Contents (Elt F) → (⟨S12288, .i1⟩ : BufTy).Contents (Elt F)),
    StableHlo.nullary main_c_12 (constantI S_ 32 2048#32),
    StableHlo.unary main_c_12 main_v56 (broadcastInDim S12288 ![] bcast_S_S12288 : (⟨S_, .i32⟩ : BufTy).Contents (Elt F) → (⟨S12288, .i32⟩ : BufTy).Contents (Elt F)),
    StableHlo.binary main_v1 main_v56 main_v57 (addi : (⟨S12288, .i32⟩ : BufTy).Contents (Elt F) → (⟨S12288, .i32⟩ : BufTy).Contents (Elt F) → (⟨S12288, .i32⟩ : BufTy).Contents (Elt F)),
    StableHlo.ternary main_v55 main_v57 main_v1 main_v58 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)),
    StableHlo.unary main_v58 main_v59 (broadcastInDim S12288x1 ![0] bcast_S12288_S12288x1_0 : (⟨S12288, .i32⟩ : BufTy).Contents (Elt F) → (⟨S12288x1, .i32⟩ : BufTy).Contents (Elt F)),
    StableHlo.binary main_v15 main_v59 main_v60 ((fun x i => Host.gather gather_S2048_S12288x1_S12288_n_0_n_n_0_1_1 x i) : (⟨S2048, .f32⟩ : BufTy).Contents (Elt F) → (⟨S12288x1, .i32⟩ : BufTy).Contents (Elt F) → (⟨S12288, .f32⟩ : BufTy).Contents (Elt F)),
    StableHlo.nullary main_c_13 (constantI S_ 32 0#32),
    StableHlo.unary main_c_13 main_v61 (broadcastInDim S12288 ![] bcast_S_S12288 : (⟨S_, .i32⟩ : BufTy).Contents (Elt F) → (⟨S12288, .i32⟩ : BufTy).Contents (Elt F)),
    StableHlo.binary main_v3 main_v61 main_v62 (cmpi .slt : (⟨S12288, .i32⟩ : BufTy).Contents (Elt F) → (⟨S12288, .i32⟩ : BufTy).Contents (Elt F) → (⟨S12288, .i1⟩ : BufTy).Contents (Elt F)),
    StableHlo.nullary main_c_14 (constantI S_ 32 2048#32),
    StableHlo.unary main_c_14 main_v63 (broadcastInDim S12288 ![] bcast_S_S12288 : (⟨S_, .i32⟩ : BufTy).Contents (Elt F) → (⟨S12288, .i32⟩ : BufTy).Contents (Elt F)),
    StableHlo.binary main_v3 main_v63 main_v64 (addi : (⟨S12288, .i32⟩ : BufTy).Contents (Elt F) → (⟨S12288, .i32⟩ : BufTy).Contents (Elt F) → (⟨S12288, .i32⟩ : BufTy).Contents (Elt F)),
    StableHlo.ternary main_v62 main_v64 main_v3 main_v65 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)),
    StableHlo.unary main_v65 main_v66 (broadcastInDim S12288x1 ![0] bcast_S12288_S12288x1_0 : (⟨S12288, .i32⟩ : BufTy).Contents (Elt F) → (⟨S12288x1, .i32⟩ : BufTy).Contents (Elt F)),
    StableHlo.binary main_v15 main_v66 main_v67 ((fun x i => Host.gather gather_S2048_S12288x1_S12288_n_0_n_n_0_1_1 x i) : (⟨S2048, .f32⟩ : BufTy).Contents (Elt F) → (⟨S12288x1, .i32⟩ : BufTy).Contents (Elt F) → (⟨S12288, .f32⟩ : BufTy).Contents (Elt F)),
    StableHlo.binary main_v60 main_v67 main_v68 (mulf : (⟨S12288, .f32⟩ : BufTy).Contents (Elt F) → (⟨S12288, .f32⟩ : BufTy).Contents (Elt F) → (⟨S12288, .f32⟩ : BufTy).Contents (Elt F)),
    StableHlo.TRef.nullary main_call1.c (constantI S_ 32 0#32),
    StableHlo.TRef.unary main_call1.c main_call1.v0 (broadcastInDim S12288 ![] bcast_S_S12288),
    StableHlo.TRef.binary (.of main_v1 : StableHlo.TRef sig ⟨S12288, .i32⟩) main_call1.v0 main_call1.v1 (cmpi .slt),
    StableHlo.TRef.nullary main_call1.c_0 (constantI S_ 32 2048#32),
    StableHlo.TRef.unary main_call1.c_0 main_call1.v2 (broadcastInDim S12288 ![] bcast_S_S12288),
    StableHlo.TRef.binary (.of main_v1 : StableHlo.TRef sig ⟨S12288, .i32⟩) main_call1.v2 main_call1.v3 addi,
    StableHlo.TRef.ternary main_call1.v1 main_call1.v3 (.of main_v1 : StableHlo.TRef sig ⟨S12288, .i32⟩) main_call1.call0.v0 select,
    StableHlo.TRef.unary main_call1.call0.v0 main_call1.v5 (broadcastInDim S12288x1 ![0] bcast_S12288_S12288x1_0),
    StableHlo.TRef.nullary main_call1.c_1 (constantI S1 32 2047#32),
    StableHlo.TRef.nullary main_call1.c_2 (constantI S_ 32 0#32),
    StableHlo.TRef.unary main_call1.c_2 main_call1.v6 (broadcastInDim S12288x1 ![] bcast_S_S12288x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S12288x1 ![0, 1] bcast_S1x1_S12288x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S12288x1_S12288_d1 h_S_),
    StableHlo.TRef.binary (.of main_v53 : StableHlo.TRef sig ⟨S16x2048x512, .f32⟩) main_call1.v5 main_call1.v13 (fun x i => Host.gather gather_S16x2048x512_S12288x1_S16x12288x512_02_1_n_n_1_1_161512 x i),
    StableHlo.TRef.unary main_call1.v12 main_call1.v14 (broadcastInDim S16x12288x512 ![1] bcast_S12288_S16x12288x512_1),
    StableHlo.TRef.nullary main_call1.cst (constant S_ .f32 0x7FC00000#32),
    StableHlo.TRef.unary main_call1.cst main_call1.v15 (broadcastInDim S16x12288x512 ![] bcast_S_S16x12288x512),
    StableHlo.TRef.ternary main_call1.v14 main_call1.v13 main_call1.v15 main_call1.v16 select,
    StableHlo.unary main_v68 main_v70 (broadcastInDim S1x12288x1 ![1] bcast_S12288_S1x12288x1_1 : (⟨S12288, .f32⟩ : BufTy).Contents (Elt F) → (⟨S1x12288x1, .f32⟩ : BufTy).Contents (Elt F)),
    StableHlo.unary main_v70 main_v71 (broadcastInDim S16x12288x512 ![0, 1, 2] bcast_S1x12288x1_S16x12288x512_0_1_2 : (⟨S1x12288x1, .f32⟩ : BufTy).Contents (Elt F) → (⟨S16x12288x512, .f32⟩ : BufTy).Contents (Elt F)),
    StableHlo.binary main_v69 main_v71 main_v72 (mulf : (⟨S16x12288x512, .f32⟩ : BufTy).Contents (Elt F) → (⟨S16x12288x512, .f32⟩ : BufTy).Contents (Elt F) → (⟨S16x12288x512, .f32⟩ : BufTy).Contents (Elt F)),
    StableHlo.nullary main_cst_15 (constant S_ .f32 0x00000000#32),
    StableHlo.unary main_cst_15 main_v73 (broadcastInDim S16x2048x512 ![] bcast_S_S16x2048x512 : (⟨S_, .f32⟩ : BufTy).Contents (Elt F) → (⟨S16x2048x512, .f32⟩ : BufTy).Contents (Elt F)),
    StableHlo.nullary main_c_16 (constantI S_ 32 0#32),
    StableHlo.unary main_c_16 main_v74 (broadcastInDim S12288 ![] bcast_S_S12288 : (⟨S_, .i32⟩ : BufTy).Contents (Elt F) → (⟨S12288, .i32⟩ : BufTy).Contents (Elt F)),
    StableHlo.binary main_v3 main_v74 main_v75 (cmpi .slt : (⟨S12288, .i32⟩ : BufTy).Contents (Elt F) → (⟨S12288, .i32⟩ : BufTy).Contents (Elt F) → (⟨S12288, .i1⟩ : BufTy).Contents (Elt F)),
    StableHlo.nullary main_c_17 (constantI S_ 32 2048#32),
    StableHlo.unary main_c_17 main_v76 (broadcastInDim S12288 ![] bcast_S_S12288 : (⟨S_, .i32⟩ : BufTy).Contents (Elt F) → (⟨S12288, .i32⟩ : BufTy).Contents (Elt F)),
    StableHlo.binary main_v3 main_v76 main_v77 (addi : (⟨S12288, .i32⟩ : BufTy).Contents (Elt F) → (⟨S12288, .i32⟩ : BufTy).Contents (Elt F) → (⟨S12288, .i32⟩ : BufTy).Contents (Elt F)),
    StableHlo.ternary main_v75 main_v77 main_v3 main_v78 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)),
    StableHlo.unary main_v78 main_v79 (broadcastInDim S12288x1 ![0] bcast_S12288_S12288x1_0 : (⟨S12288, .i32⟩ : BufTy).Contents (Elt F) → (⟨S12288x1, .i32⟩ : BufTy).Contents (Elt F)),
    StableHlo.ternary main_v73 main_v79 main_v72 main_v80 ((fun x i u => Host.scatterAdd scatter_S16x2048x512_S12288x1_S16x12288x512_02_1_1_1 x i u) : (⟨S16x2048x512, .f32⟩ : BufTy).Contents (Elt F) → (⟨S12288x1, .i32⟩ : BufTy).Contents (Elt F) → (⟨S16x12288x512, .f32⟩ : BufTy).Contents (Elt F) → (⟨S16x2048x512, .f32⟩ : BufTy).Contents (Elt F)),
    StableHlo.unary main_v17 main_v81 (broadcastInDim S1x2048x1 ![1] bcast_S2048_S1x2048x1_1 : (⟨S2048, .f32⟩ : BufTy).Contents (Elt F) → (⟨S1x2048x1, .f32⟩ : BufTy).Contents (Elt F)),
    StableHlo.unary main_v81 main_v82 (broadcastInDim S16x2048x512 ![0, 1, 2] bcast_S1x2048x1_S16x2048x512_0_1_2 : (⟨S1x2048x1, .f32⟩ : BufTy).Contents (Elt F) → (⟨S16x2048x512, .f32⟩ : BufTy).Contents (Elt F)),
    StableHlo.binary main_v53 main_v82 main_v83 (mulf : (⟨S16x2048x512, .f32⟩ : BufTy).Contents (Elt F) → (⟨S16x2048x512, .f32⟩ : BufTy).Contents (Elt F) → (⟨S16x2048x512, .f32⟩ : BufTy).Contents (Elt F)),
    StableHlo.binary main_v80 main_v83 main_v84 (addf : (⟨S16x2048x512, .f32⟩ : BufTy).Contents (Elt F) → (⟨S16x2048x512, .f32⟩ : BufTy).Contents (Elt F) → (⟨S16x2048x512, .f32⟩ : BufTy).Contents (Elt F)),
    StableHlo.unary main_arg5 main_v85 (broadcastInDim S1x1x512 ![2] bcast_S512_S1x1x512_2 : (⟨S512, .f32⟩ : BufTy).Contents (Elt F) → (⟨S1x1x512, .f32⟩ : BufTy).Contents (Elt F)),
    StableHlo.unary main_v85 main_v86 (broadcastInDim S16x2048x512 ![0, 1, 2] bcast_S1x1x512_S16x2048x512_0_1_2 : (⟨S1x1x512, .f32⟩ : BufTy).Contents (Elt F) → (⟨S16x2048x512, .f32⟩ : BufTy).Contents (Elt F)),
    StableHlo.binary main_v84 main_v86 main_v87 (addf : (⟨S16x2048x512, .f32⟩ : BufTy).Contents (Elt F) → (⟨S16x2048x512, .f32⟩ : BufTy).Contents (Elt F) → (⟨S16x2048x512, .f32⟩ : BufTy).Contents (Elt F)),
    StableHlo.nullary main_cst_18 (constant S_ .f32 0x00000000#32),
    StableHlo.unary main_cst_18 main_v88 (broadcastInDim S16x2048x512 ![] bcast_S_S16x2048x512 : (⟨S_, .f32⟩ : BufTy).Contents (Elt F) → (⟨S16x2048x512, .f32⟩ : BufTy).Contents (Elt F)),
    StableHlo.binary main_v87 main_v88 main_v89 (cmpf .oge : (⟨S16x2048x512, .f32⟩ : BufTy).Contents (Elt F) → (⟨S16x2048x512, .f32⟩ : BufTy).Contents (Elt F) → (⟨S16x2048x512, .i1⟩ : BufTy).Contents (Elt F)),
    StableHlo.nullary main_cst_19 (constant S_ .f32 0x3C23D70A#32),
    StableHlo.unary main_cst_19 main_v90 (broadcastInDim S16x2048x512 ![] bcast_S_S16x2048x512 : (⟨S_, .f32⟩ : BufTy).Contents (Elt F) → (⟨S16x2048x512, .f32⟩ : BufTy).Contents (Elt F)),
    StableHlo.binary main_v90 main_v87 main_v91 (mulf : (⟨S16x2048x512, .f32⟩ : BufTy).Contents (Elt F) → (⟨S16x2048x512, .f32⟩ : BufTy).Contents (Elt F) → (⟨S16x2048x512, .f32⟩ : BufTy).Contents (Elt F)),
    StableHlo.TRef.ternary (.of main_v89 : StableHlo.TRef sig ⟨S16x2048x512, .i1⟩) (.of main_v87 : StableHlo.TRef sig ⟨S16x2048x512, .f32⟩) (.of main_v91 : StableHlo.TRef sig ⟨S16x2048x512, .f32⟩) main_call2.v0 select,
    StableHlo.binary main_v92 main_arg6 main_v93 ((fun l r => Host.dotGeneral dot_S16x2048x512_S512x256_S16x2048x256_2_0_01_1_n_n none l r) : (⟨S16x2048x512, .f32⟩ : BufTy).Contents (Elt F) → (⟨S512x256, .f32⟩ : BufTy).Contents (Elt F) → (⟨S16x2048x256, .f32⟩ : BufTy).Contents (Elt F)),
    StableHlo.nullary main_c_20 (constantI S_ 32 0#32),
    StableHlo.unary main_c_20 main_v94 (broadcastInDim S12288 ![] bcast_S_S12288 : (⟨S_, .i32⟩ : BufTy).Contents (Elt F) → (⟨S12288, .i32⟩ : BufTy).Contents (Elt F)),
    StableHlo.binary main_v1 main_v94 main_v95 (cmpi .slt : (⟨S12288, .i32⟩ : BufTy).Contents (Elt F) → (⟨S12288, .i32⟩ : BufTy).Contents (Elt F) → (⟨S12288, .i1⟩ : BufTy).Contents (Elt F)),
    StableHlo.nullary main_c_21 (constantI S_ 32 2048#32) ]

set_option maxRecDepth 8192 in
/-- Every operation of the window touches TensorCore references only: each builder's own fact, in order. -/
theorem ops1_sub : (ops1 : List (HloOp τ sig (Elt F))).Forall fun op => op.bufs ⊆ tcRefs τ sig :=
  ⟨unary_bufs_sub .., binary_bufs_sub .., binary_bufs_sub .., unary_bufs_sub .., unary_bufs_sub .., binary_bufs_sub ..,
   binary_bufs_sub .., nullary_bufs_sub .., unary_bufs_sub .., binary_bufs_sub .., nullary_bufs_sub .., unary_bufs_sub ..,
   binary_bufs_sub .., ternary_bufs_sub .., unary_bufs_sub .., binary_bufs_sub .., nullary_bufs_sub .., unary_bufs_sub ..,
   binary_bufs_sub .., nullary_bufs_sub .., unary_bufs_sub .., binary_bufs_sub .., ternary_bufs_sub .., unary_bufs_sub ..,
   binary_bufs_sub .., binary_bufs_sub .., nullary_bufs_sub .., unary_bufs_sub .., binary_bufs_sub .., nullary_bufs_sub ..,
   unary_bufs_sub .., binary_bufs_sub .., ternary_bufs_sub .., unary_bufs_sub .., nullary_bufs_sub .., nullary_bufs_sub ..,
   unary_bufs_sub .., binary_bufs_sub .., unary_bufs_sub .., unary_bufs_sub .., binary_bufs_sub .., binary_bufs_sub ..,
   nullary_bufs_sub .., binary_bufs_sub .., binary_bufs_sub .., unary_bufs_sub .., nullary_bufs_sub .., unary_bufs_sub ..,
   ternary_bufs_sub .., unary_bufs_sub .., unary_bufs_sub .., binary_bufs_sub .., nullary_bufs_sub .., unary_bufs_sub ..,
   nullary_bufs_sub .., unary_bufs_sub .., binary_bufs_sub .., nullary_bufs_sub .., unary_bufs_sub .., binary_bufs_sub ..,
   ternary_bufs_sub .., unary_bufs_sub .., ternary_bufs_sub .., unary_bufs_sub .., unary_bufs_sub .., binary_bufs_sub ..,
   binary_bufs_sub .., unary_bufs_sub .., unary_bufs_sub .., binary_bufs_sub .., nullary_bufs_sub .., unary_bufs_sub ..,
   binary_bufs_sub .., nullary_bufs_sub .., unary_bufs_sub .., binary_bufs_sub .., ternary_bufs_sub .., binary_bufs_sub ..,
   nullary_bufs_sub .., unary_bufs_sub .., binary_bufs_sub .., nullary_bufs_sub ..⟩

end Cert.ReferenceIdeal.Hand

end
-- ==== Proof.Ref.Eq1.lean ====
/- Window 1 of the reference program's @main as a straight line: it IS the sequence of its 82 operations, none of
   which leaves a buffer undetermined and none of which writes an argument. -/
import proofs.«421025_j30305289241172_1_alg».proof.Proof.Ref.Ops1
import proofs.«421025_j30305289241172_1_alg».proof.Proof.Ref.Lemmas

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The window is the straight line of its operations. Both sides are chains of single-operation steps: the window's
    is the printed one with two calls among its statements (the gather of rows @_take, record main_call1, and the elementwise select @_where_0, record main_call2), a call being the callee's
    body applied to the operands and the call's record, which unfolds to the callee's steps in the call's place (a
    gather of rows itself calls a select of indices, unfolded the same way); sequencing of such chains re-associates by
    computation, so the two chains are the same term. -/
theorem main_part1_eq (c : Dev nD) : main_part1 (F := F) c = seq ops1 := rfl

/-- Every operation of the window determines all it writes: each is one of the builders of a StableHLO line, whose
    set of undetermined buffers is empty by definition. -/
theorem ops1_fresh : (ops1 : List (HloOp τ sig (Elt F))).Forall fun op => op.fresh = ∅ := by
  each_op rfl

/-- No operation of the window writes an argument: each writes exactly its result's buffer, a value of the program,
    whose index among the references is at least sixteen. -/
theorem ops1_keep : (ops1 : List (HloOp τ sig (Elt F))).Forall fun op =>
    ∀ r : Ref sig .tc, r.idx.val < 16 → (Proc.devRef .tc r : DevRef τ sig) ∉ op.writes := by
  each_op (keeps_of_writes _ (by decide) rfl)

end Cert.ReferenceIdeal.Hand

end
-- ==== Proof.Ref.Ops2.lean ====
import proofs.«421025_j30305289241172_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 104 operations of @main's window 2 in program order, a called function's operations standing in its call's place over that call's record; of them 23 of @_take_1 over main_call3 (from position 15), 23 of @_take_1 over main_call4 (from position 79). -/
abbrev ops2 : List (HloOp τ sig (Elt F)) :=
  [ StableHlo.unary main_c_21 main_v96 (broadcastInDim S12288 ![] bcast_S_S12288 : (⟨S_, .i32⟩ : BufTy).Contents (Elt F) → (⟨S12288, .i32⟩ : BufTy).Contents (Elt F)),
    StableHlo.binary main_v1 main_v96 main_v97 (addi : (⟨S12288, .i32⟩ : BufTy).Contents (Elt F) → (⟨S12288, .i32⟩ : BufTy).Contents (Elt F) → (⟨S12288, .i32⟩ : BufTy).Contents (Elt F)),
    StableHlo.ternary main_v95 main_v97 main_v1 main_v98 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)),
    StableHlo.unary main_v98 main_v99 (broadcastInDim S12288x1 ![0] bcast_S12288_S12288x1_0 : (⟨S12288, .i32⟩ : BufTy).Contents (Elt F) → (⟨S12288x1, .i32⟩ : BufTy).Contents (Elt F)),
    StableHlo.binary main_v15 main_v99 main_v100 ((fun x i => Host.gather gather_S2048_S12288x1_S12288_n_0_n_n_0_1_1 x i) : (⟨S2048, .f32⟩ : BufTy).Contents (Elt F) → (⟨S12288x1, .i32⟩ : BufTy).Contents (Elt F) → (⟨S12288, .f32⟩ : BufTy).Contents (Elt F)),
    StableHlo.nullary main_c_22 (constantI S_ 32 0#32),
    StableHlo.unary main_c_22 main_v101 (broadcastInDim S12288 ![] bcast_S_S12288 : (⟨S_, .i32⟩ : BufTy).Contents (Elt F) → (⟨S12288, .i32⟩ : BufTy).Contents (Elt F)),
    StableHlo.binary main_v3 main_v101 main_v102 (cmpi .slt : (⟨S12288, .i32⟩ : BufTy).Contents (Elt F) → (⟨S12288, .i32⟩ : BufTy).Contents (Elt F) → (⟨S12288, .i1⟩ : BufTy).Contents (Elt F)),
    StableHlo.nullary main_c_23 (constantI S_ 32 2048#32),
    StableHlo.unary main_c_23 main_v103 (broadcastInDim S12288 ![] bcast_S_S12288 : (⟨S_, .i32⟩ : BufTy).Contents (Elt F) → (⟨S12288, .i32⟩ : BufTy).Contents (Elt F)),
    StableHlo.binary main_v3 main_v103 main_v104 (addi : (⟨S12288, .i32⟩ : BufTy).Contents (Elt F) → (⟨S12288, .i32⟩ : BufTy).Contents (Elt F) → (⟨S12288, .i32⟩ : BufTy).Contents (Elt F)),
    StableHlo.ternary main_v102 main_v104 main_v3 main_v105 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)),
    StableHlo.unary main_v105 main_v106 (broadcastInDim S12288x1 ![0] bcast_S12288_S12288x1_0 : (⟨S12288, .i32⟩ : BufTy).Contents (Elt F) → (⟨S12288x1, .i32⟩ : BufTy).Contents (Elt F)),
    StableHlo.binary main_v15 main_v106 main_v107 ((fun x i => Host.gather gather_S2048_S12288x1_S12288_n_0_n_n_0_1_1 x i) : (⟨S2048, .f32⟩ : BufTy).Contents (Elt F) → (⟨S12288x1, .i32⟩ : BufTy).Contents (Elt F) → (⟨S12288, .f32⟩ : BufTy).Contents (Elt F)),
    StableHlo.binary main_v100 main_v107 main_v108 (mulf : (⟨S12288, .f32⟩ : BufTy).Contents (Elt F) → (⟨S12288, .f32⟩ : BufTy).Contents (Elt F) → (⟨S12288, .f32⟩ : BufTy).Contents (Elt F)),
    StableHlo.TRef.nullary main_call3.c (constantI S_ 32 0#32),
    StableHlo.TRef.unary main_call3.c main_call3.v0 (broadcastInDim S12288 ![] bcast_S_S12288),
    StableHlo.TRef.binary (.of main_v1 : StableHlo.TRef sig ⟨S12288, .i32⟩) main_call3.v0 main_call3.v1 (cmpi .slt),
    StableHlo.TRef.nullary main_call3.c_0 (constantI S_ 32 2048#32),
    StableHlo.TRef.unary main_call3.c_0 main_call3.v2 (broadcastInDim S12288 ![] bcast_S_S12288),
    StableHlo.TRef.binary (.of main_v1 : StableHlo.TRef sig ⟨S12288, .i32⟩) main_call3.v2 main_call3.v3 addi,
    StableHlo.TRef.ternary main_call3.v1 main_call3.v3 (.of main_v1 : StableHlo.TRef sig ⟨S12288, .i32⟩) main_call3.call0.v0 select,
    StableHlo.TRef.unary main_call3.call0.v0 main_call3.v5 (broadcastInDim S12288x1 ![0] bcast_S12288_S12288x1_0),
    StableHlo.TRef.nullary main_call3.c_1 (constantI S1 32 2047#32),
    StableHlo.TRef.nullary main_call3.c_2 (constantI S_ 32 0#32),
    StableHlo.TRef.unary main_call3.c_2 main_call3.v6 (broadcastInDim S12288x1 ![] bcast_S_S12288x1),
    StableHlo.TRef.binary main_call3.v5 main_call3.v6 main_call3.v7 (cmpi .sge),
    StableHlo.TRef.unary main_call3.c_1 main_call3.v8 (broadcastInDim S1x1 ![1] bcast_S1_S1x1_1),
    StableHlo.TRef.unary main_call3.v8 main_call3.v9 (broadcastInDim S12288x1 ![0, 1] bcast_S1x1_S12288x1_0_1),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S12288x1_S12288_d1 h_S_),
    StableHlo.TRef.binary (.of main_v93 : StableHlo.TRef sig ⟨S16x2048x256, .f32⟩) main_call3.v5 main_call3.v13 (fun x i => Host.gather gather_S16x2048x256_S12288x1_S16x12288x256_02_1_n_n_1_1_161256 x i),
    StableHlo.TRef.unary main_call3.v12 main_call3.v14 (broadcastInDim S16x12288x256 ![1] bcast_S12288_S16x12288x256_1),
    StableHlo.TRef.nullary main_call3.cst (constant S_ .f32 0x7FC00000#32),
    StableHlo.TRef.unary main_call3.cst main_call3.v15 (broadcastInDim S16x12288x256 ![] bcast_S_S16x12288x256),
    StableHlo.TRef.ternary main_call3.v14 main_call3.v13 main_call3.v15 main_call3.v16 select,
    StableHlo.unary main_v108 main_v110 (broadcastInDim S1x12288x1 ![1] bcast_S12288_S1x12288x1_1 : (⟨S12288, .f32⟩ : BufTy).Contents (Elt F) → (⟨S1x12288x1, .f32⟩ : BufTy).Contents (Elt F)),
    StableHlo.unary main_v110 main_v111 (broadcastInDim S16x12288x256 ![0, 1, 2] bcast_S1x12288x1_S16x12288x256_0_1_2 : (⟨S1x12288x1, .f32⟩ : BufTy).Contents (Elt F) → (⟨S16x12288x256, .f32⟩ : BufTy).Contents (Elt F)),
    StableHlo.binary main_v109 main_v111 main_v112 (mulf : (⟨S16x12288x256, .f32⟩ : BufTy).Contents (Elt F) → (⟨S16x12288x256, .f32⟩ : BufTy).Contents (Elt F) → (⟨S16x12288x256, .f32⟩ : BufTy).Contents (Elt F)),
    StableHlo.nullary main_cst_24 (constant S_ .f32 0x00000000#32),
    StableHlo.unary main_cst_24 main_v113 (broadcastInDim S16x2048x256 ![] bcast_S_S16x2048x256 : (⟨S_, .f32⟩ : BufTy).Contents (Elt F) → (⟨S16x2048x256, .f32⟩ : BufTy).Contents (Elt F)),
    StableHlo.nullary main_c_25 (constantI S_ 32 0#32),
    StableHlo.unary main_c_25 main_v114 (broadcastInDim S12288 ![] bcast_S_S12288 : (⟨S_, .i32⟩ : BufTy).Contents (Elt F) → (⟨S12288, .i32⟩ : BufTy).Contents (Elt F)),
    StableHlo.binary main_v3 main_v114 main_v115 (cmpi .slt : (⟨S12288, .i32⟩ : BufTy).Contents (Elt F) → (⟨S12288, .i32⟩ : BufTy).Contents (Elt F) → (⟨S12288, .i1⟩ : BufTy).Contents (Elt F)),
    StableHlo.nullary main_c_26 (constantI S_ 32 2048#32),
    StableHlo.unary main_c_26 main_v116 (broadcastInDim S12288 ![] bcast_S_S12288 : (⟨S_, .i32⟩ : BufTy).Contents (Elt F) → (⟨S12288, .i32⟩ : BufTy).Contents (Elt F)),
    StableHlo.binary main_v3 main_v116 main_v117 (addi : (⟨S12288, .i32⟩ : BufTy).Contents (Elt F) → (⟨S12288, .i32⟩ : BufTy).Contents (Elt F) → (⟨S12288, .i32⟩ : BufTy).Contents (Elt F)),
    StableHlo.ternary main_v115 main_v117 main_v3 main_v118 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)),
    StableHlo.unary main_v118 main_v119 (broadcastInDim S12288x1 ![0] bcast_S12288_S12288x1_0 : (⟨S12288, .i32⟩ : BufTy).Contents (Elt F) → (⟨S12288x1, .i32⟩ : BufTy).Contents (Elt F)),
    StableHlo.ternary main_v113 main_v119 main_v112 main_v120 ((fun x i u => Host.scatterAdd scatter_S16x2048x256_S12288x1_S16x12288x256_02_1_1_1 x i u) : (⟨S16x2048x256, .f32⟩ : BufTy).Contents (Elt F) → (⟨S12288x1, .i32⟩ : BufTy).Contents (Elt F) → (⟨S16x12288x256, .f32⟩ : BufTy).Contents (Elt F) → (⟨S16x2048x256, .f32⟩ : BufTy).Contents (Elt F)),
    StableHlo.unary main_v17 main_v121 (broadcastInDim S1x2048x1 ![1] bcast_S2048_S1x2048x1_1 : (⟨S2048, .f32⟩ : BufTy).Contents (Elt F) → (⟨S1x2048x1, .f32⟩ : BufTy).Contents (Elt F)),
    StableHlo.unary main_v121 main_v122 (broadcastInDim S16x2048x256 ![0, 1, 2] bcast_S1x2048x1_S16x2048x256_0_1_2 : (⟨S1x2048x1, .f32⟩ : BufTy).Contents (Elt F) → (⟨S16x2048x256, .f32⟩ : BufTy).Contents (Elt F)),
    StableHlo.binary main_v93 main_v122 main_v123 (mulf : (⟨S16x2048x256, .f32⟩ : BufTy).Contents (Elt F) → (⟨S16x2048x256, .f32⟩ : BufTy).Contents (Elt F) → (⟨S16x2048x256, .f32⟩ : BufTy).Contents (Elt F)),
    StableHlo.binary main_v120 main_v123 main_v124 (addf : (⟨S16x2048x256, .f32⟩ : BufTy).Contents (Elt F) → (⟨S16x2048x256, .f32⟩ : BufTy).Contents (Elt F) → (⟨S16x2048x256, .f32⟩ : BufTy).Contents (Elt F)),
    StableHlo.unary main_arg7 main_v125 (broadcastInDim S1x1x256 ![2] bcast_S256_S1x1x256_2 : (⟨S256, .f32⟩ : BufTy).Contents (Elt F) → (⟨S1x1x256, .f32⟩ : BufTy).Contents (Elt F)),
    StableHlo.unary main_v125 main_v126 (broadcastInDim S16x2048x256 ![0, 1, 2] bcast_S1x1x256_S16x2048x256_0_1_2 : (⟨S1x1x256, .f32⟩ : BufTy).Contents (Elt F) → (⟨S16x2048x256, .f32⟩ : BufTy).Contents (Elt F)),
    StableHlo.binary main_v124 main_v126 main_v127 (addf : (⟨S16x2048x256, .f32⟩ : BufTy).Contents (Elt F) → (⟨S16x2048x256, .f32⟩ : BufTy).Contents (Elt F) → (⟨S16x2048x256, .f32⟩ : BufTy).Contents (Elt F)),
    StableHlo.binary main_v127 main_arg8 main_v128 ((fun l r => Host.dotGeneral dot_S16x2048x256_S256x256_S16x2048x256_2_0_01_1_n_n none l r) : (⟨S16x2048x256, .f32⟩ : BufTy).Contents (Elt F) → (⟨S256x256, .f32⟩ : BufTy).Contents (Elt F) → (⟨S16x2048x256, .f32⟩ : BufTy).Contents (Elt F)),
    StableHlo.nullary main_c_27 (constantI S_ 32 0#32),
    StableHlo.unary main_c_27 main_v129 (broadcastInDim S12288 ![] bcast_S_S12288 : (⟨S_, .i32⟩ : BufTy).Contents (Elt F) → (⟨S12288, .i32⟩ : BufTy).Contents (Elt F)),
    StableHlo.binary main_v1 main_v129 main_v130 (cmpi .slt : (⟨S12288, .i32⟩ : BufTy).Contents (Elt F) → (⟨S12288, .i32⟩ : BufTy).Contents (Elt F) → (⟨S12288, .i1⟩ : BufTy).Contents (Elt F)),
    StableHlo.nullary main_c_28 (constantI S_ 32 2048#32),
    StableHlo.unary main_c_28 main_v131 (broadcastInDim S12288 ![] bcast_S_S12288 : (⟨S_, .i32⟩ : BufTy).Contents (Elt F) → (⟨S12288, .i32⟩ : BufTy).Contents (Elt F)),
    StableHlo.binary main_v1 main_v131 main_v132 (addi : (⟨S12288, .i32⟩ : BufTy).Contents (Elt F) → (⟨S12288, .i32⟩ : BufTy).Contents (Elt F) → (⟨S12288, .i32⟩ : BufTy).Contents (Elt F)),
    StableHlo.ternary main_v130 main_v132 main_v1 main_v133 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)),
    StableHlo.unary main_v133 main_v134 (broadcastInDim S12288x1 ![0] bcast_S12288_S12288x1_0 : (⟨S12288, .i32⟩ : BufTy).Contents (Elt F) → (⟨S12288x1, .i32⟩ : BufTy).Contents (Elt F)),
    StableHlo.binary main_v15 main_v134 main_v135 ((fun x i => Host.gather gather_S2048_S12288x1_S12288_n_0_n_n_0_1_1 x i) : (⟨S2048, .f32⟩ : BufTy).Contents (Elt F) → (⟨S12288x1, .i32⟩ : BufTy).Contents (Elt F) → (⟨S12288, .f32⟩ : BufTy).Contents (Elt F)),
    StableHlo.nullary main_c_29 (constantI S_ 32 0#32),
    StableHlo.unary main_c_29 main_v136 (broadcastInDim S12288 ![] bcast_S_S12288 : (⟨S_, .i32⟩ : BufTy).Contents (Elt F) → (⟨S12288, .i32⟩ : BufTy).Contents (Elt F)),
    StableHlo.binary main_v3 main_v136 main_v137 (cmpi .slt : (⟨S12288, .i32⟩ : BufTy).Contents (Elt F) → (⟨S12288, .i32⟩ : BufTy).Contents (Elt F) → (⟨S12288, .i1⟩ : BufTy).Contents (Elt F)),
    StableHlo.nullary main_c_30 (constantI S_ 32 2048#32),
    StableHlo.unary main_c_30 main_v138 (broadcastInDim S12288 ![] bcast_S_S12288 : (⟨S_, .i32⟩ : BufTy).Contents (Elt F) → (⟨S12288, .i32⟩ : BufTy).Contents (Elt F)),
    StableHlo.binary main_v3 main_v138 main_v139 (addi : (⟨S12288, .i32⟩ : BufTy).Contents (Elt F) → (⟨S12288, .i32⟩ : BufTy).Contents (Elt F) → (⟨S12288, .i32⟩ : BufTy).Contents (Elt F)),
    StableHlo.ternary main_v137 main_v139 main_v3 main_v140 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)),
    StableHlo.unary main_v140 main_v141 (broadcastInDim S12288x1 ![0] bcast_S12288_S12288x1_0 : (⟨S12288, .i32⟩ : BufTy).Contents (Elt F) → (⟨S12288x1, .i32⟩ : BufTy).Contents (Elt F)),
    StableHlo.binary main_v15 main_v141 main_v142 ((fun x i => Host.gather gather_S2048_S12288x1_S12288_n_0_n_n_0_1_1 x i) : (⟨S2048, .f32⟩ : BufTy).Contents (Elt F) → (⟨S12288x1, .i32⟩ : BufTy).Contents (Elt F) → (⟨S12288, .f32⟩ : BufTy).Contents (Elt F)),
    StableHlo.binary main_v135 main_v142 main_v143 (mulf : (⟨S12288, .f32⟩ : BufTy).Contents (Elt F) → (⟨S12288, .f32⟩ : BufTy).Contents (Elt F) → (⟨S12288, .f32⟩ : BufTy).Contents (Elt F)),
    StableHlo.TRef.nullary main_call4.c (constantI S_ 32 0#32),
    StableHlo.TRef.unary main_call4.c main_call4.v0 (broadcastInDim S12288 ![] bcast_S_S12288),
    StableHlo.TRef.binary (.of main_v1 : StableHlo.TRef sig ⟨S12288, .i32⟩) main_call4.v0 main_call4.v1 (cmpi .slt),
    StableHlo.TRef.nullary main_call4.c_0 (constantI S_ 32 2048#32),
    StableHlo.TRef.unary main_call4.c_0 main_call4.v2 (broadcastInDim S12288 ![] bcast_S_S12288),
    StableHlo.TRef.binary (.of main_v1 : StableHlo.TRef sig ⟨S12288, .i32⟩) main_call4.v2 main_call4.v3 addi,
    StableHlo.TRef.ternary main_call4.v1 main_call4.v3 (.of main_v1 : StableHlo.TRef sig ⟨S12288, .i32⟩) main_call4.call0.v0 select,
    StableHlo.TRef.unary main_call4.call0.v0 main_call4.v5 (broadcastInDim S12288x1 ![0] bcast_S12288_S12288x1_0),
    StableHlo.TRef.nullary main_call4.c_1 (constantI S1 32 2047#32),
    StableHlo.TRef.nullary main_call4.c_2 (constantI S_ 32 0#32),
    StableHlo.TRef.unary main_call4.c_2 main_call4.v6 (broadcastInDim S12288x1 ![] bcast_S_S12288x1),
    StableHlo.TRef.binary main_call4.v5 main_call4.v6 main_call4.v7 (cmpi .sge),
    StableHlo.TRef.unary main_call4.c_1 main_call4.v8 (broadcastInDim S1x1 ![1] bcast_S1_S1x1_1),
    StableHlo.TRef.unary main_call4.v8 main_call4.v9 (broadcastInDim S12288x1 ![0, 1] bcast_S1x1_S12288x1_0_1),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S12288x1_S12288_d1 h_S_),
    StableHlo.TRef.binary (.of main_v128 : StableHlo.TRef sig ⟨S16x2048x256, .f32⟩) main_call4.v5 main_call4.v13 (fun x i => Host.gather gather_S16x2048x256_S12288x1_S16x12288x256_02_1_n_n_1_1_161256 x i),
    StableHlo.TRef.unary main_call4.v12 main_call4.v14 (broadcastInDim S16x12288x256 ![1] bcast_S12288_S16x12288x256_1),
    StableHlo.TRef.nullary main_call4.cst (constant S_ .f32 0x7FC00000#32),
    StableHlo.TRef.unary main_call4.cst main_call4.v15 (broadcastInDim S16x12288x256 ![] bcast_S_S16x12288x256),
    StableHlo.TRef.ternary main_call4.v14 main_call4.v13 main_call4.v15 main_call4.v16 select,
    StableHlo.unary main_v143 main_v145 (broadcastInDim S1x12288x1 ![1] bcast_S12288_S1x12288x1_1 : (⟨S12288, .f32⟩ : BufTy).Contents (Elt F) → (⟨S1x12288x1, .f32⟩ : BufTy).Contents (Elt F)),
    StableHlo.unary main_v145 main_v146 (broadcastInDim S16x12288x256 ![0, 1, 2] bcast_S1x12288x1_S16x12288x256_0_1_2 : (⟨S1x12288x1, .f32⟩ : BufTy).Contents (Elt F) → (⟨S16x12288x256, .f32⟩ : BufTy).Contents (Elt F)) ]

set_option maxRecDepth 8192 in
/-- Every operation of the window touches TensorCore references only: each builder's own fact, in order. -/
theorem ops2_sub : (ops2 : List (HloOp τ sig (Elt F))).Forall fun op => op.bufs ⊆ tcRefs τ sig :=
  ⟨unary_bufs_sub .., binary_bufs_sub .., ternary_bufs_sub .., unary_bufs_sub .., binary_bufs_sub .., nullary_bufs_sub ..,
   unary_bufs_sub .., binary_bufs_sub .., nullary_bufs_sub .., unary_bufs_sub .., binary_bufs_sub .., ternary_bufs_sub ..,
   unary_bufs_sub .., binary_bufs_sub .., binary_bufs_sub .., nullary_bufs_sub .., unary_bufs_sub .., binary_bufs_sub ..,
   nullary_bufs_sub .., unary_bufs_sub .., binary_bufs_sub .., ternary_bufs_sub .., unary_bufs_sub .., nullary_bufs_sub ..,
   nullary_bufs_sub .., unary_bufs_sub .., binary_bufs_sub .., unary_bufs_sub .., unary_bufs_sub .., binary_bufs_sub ..,
   binary_bufs_sub .., nullary_bufs_sub .., binary_bufs_sub .., binary_bufs_sub .., unary_bufs_sub .., nullary_bufs_sub ..,
   unary_bufs_sub .., ternary_bufs_sub .., unary_bufs_sub .., unary_bufs_sub .., binary_bufs_sub .., nullary_bufs_sub ..,
   unary_bufs_sub .., nullary_bufs_sub .., unary_bufs_sub .., binary_bufs_sub .., nullary_bufs_sub .., unary_bufs_sub ..,
   binary_bufs_sub .., ternary_bufs_sub .., unary_bufs_sub .., ternary_bufs_sub .., unary_bufs_sub .., unary_bufs_sub ..,
   binary_bufs_sub .., binary_bufs_sub .., unary_bufs_sub .., unary_bufs_sub .., binary_bufs_sub .., binary_bufs_sub ..,
   nullary_bufs_sub .., unary_bufs_sub .., binary_bufs_sub .., nullary_bufs_sub .., unary_bufs_sub .., binary_bufs_sub ..,
   ternary_bufs_sub .., unary_bufs_sub .., binary_bufs_sub .., nullary_bufs_sub .., unary_bufs_sub .., binary_bufs_sub ..,
   nullary_bufs_sub .., unary_bufs_sub .., binary_bufs_sub .., ternary_bufs_sub .., unary_bufs_sub .., binary_bufs_sub ..,
   binary_bufs_sub .., nullary_bufs_sub .., unary_bufs_sub .., binary_bufs_sub .., nullary_bufs_sub .., unary_bufs_sub ..,
   binary_bufs_sub .., ternary_bufs_sub .., unary_bufs_sub .., nullary_bufs_sub .., nullary_bufs_sub .., unary_bufs_sub ..,
   binary_bufs_sub .., unary_bufs_sub .., unary_bufs_sub .., binary_bufs_sub .., binary_bufs_sub .., nullary_bufs_sub ..,
   binary_bufs_sub .., binary_bufs_sub .., unary_bufs_sub .., nullary_bufs_sub .., unary_bufs_sub .., ternary_bufs_sub ..,
   unary_bufs_sub .., unary_bufs_sub ..⟩

end Cert.ReferenceIdeal.Hand

end
-- ==== Proof.Ref.Eq2.lean ====
/- Window 2 of the reference program's @main as a straight line: it IS the sequence of its 104 operations, none of
   which leaves a buffer undetermined and none of which writes an argument. -/
import proofs.«421025_j30305289241172_1_alg».proof.Proof.Ref.Ops2
import proofs.«421025_j30305289241172_1_alg».proof.Proof.Ref.Lemmas

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The window is the straight line of its operations. Both sides are chains of single-operation steps: the window's
    is the printed one with two calls among its statements (the gather of rows @_take_1 twice, records main_call3 and main_call4), a call being the callee's
    body applied to the operands and the call's record, which unfolds to the callee's steps in the call's place (a
    gather of rows itself calls a select of indices, unfolded the same way); sequencing of such chains re-associates by
    computation, so the two chains are the same term. -/
theorem main_part2_eq (c : Dev nD) : main_part2 (F := F) c = seq ops2 := rfl

/-- Every operation of the window determines all it writes: each is one of the builders of a StableHLO line, whose
    set of undetermined buffers is empty by definition. -/
theorem ops2_fresh : (ops2 : List (HloOp τ sig (Elt F))).Forall fun op => op.fresh = ∅ := by
  each_op rfl

/-- No operation of the window writes an argument: each writes exactly its result's buffer, a value of the program,
    whose index among the references is at least sixteen. -/
theorem ops2_keep : (ops2 : List (HloOp τ sig (Elt F))).Forall fun op =>
    ∀ r : Ref sig .tc, r.idx.val < 16 → (Proc.devRef .tc r : DevRef τ sig) ∉ op.writes := by
  each_op (keeps_of_writes _ (by decide) rfl)

end Cert.ReferenceIdeal.Hand

end
-- ==== Proof.Ref.Ops3.lean ====
import proofs.«421025_j30305289241172_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 82 operations of @main's window 3 in program order, a called function's operations standing in its call's place over that call's record; of them 1 of @_where_2 over main_call5 (from position 25), 23 of @_take_3 over main_call6 (from position 46). -/
abbrev ops3 : List (HloOp τ sig (Elt F)) :=
  [ StableHlo.binary main_v144 main_v146 main_v147 (mulf : (⟨S16x12288x256, .f32⟩ : BufTy).Contents (Elt F) → (⟨S16x12288x256, .f32⟩ : BufTy).Contents (Elt F) → (⟨S16x12288x256, .f32⟩ : BufTy).Contents (Elt F)),
    StableHlo.nullary main_cst_31 (constant S_ .f32 0x00000000#32),
    StableHlo.unary main_cst_31 main_v148 (broadcastInDim S16x2048x256 ![] bcast_S_S16x2048x256 : (⟨S_, .f32⟩ : BufTy).Contents (Elt F) → (⟨S16x2048x256, .f32⟩ : BufTy).Contents (Elt F)),
    StableHlo.nullary main_c_32 (constantI S_ 32 0#32),
    StableHlo.unary main_c_32 main_v149 (broadcastInDim S12288 ![] bcast_S_S12288 : (⟨S_, .i32⟩ : BufTy).Contents (Elt F) → (⟨S12288, .i32⟩ : BufTy).Contents (Elt F)),
    StableHlo.binary main_v3 main_v149 main_v150 (cmpi .slt : (⟨S12288, .i32⟩ : BufTy).Contents (Elt F) → (⟨S12288, .i32⟩ : BufTy).Contents (Elt F) → (⟨S12288, .i1⟩ : BufTy).Contents (Elt F)),
    StableHlo.nullary main_c_33 (constantI S_ 32 2048#32),
    StableHlo.unary main_c_33 main_v151 (broadcastInDim S12288 ![] bcast_S_S12288 : (⟨S_, .i32⟩ : BufTy).Contents (Elt F) → (⟨S12288, .i32⟩ : BufTy).Contents (Elt F)),
    StableHlo.binary main_v3 main_v151 main_v152 (addi : (⟨S12288, .i32⟩ : BufTy).Contents (Elt F) → (⟨S12288, .i32⟩ : BufTy).Contents (Elt F) → (⟨S12288, .i32⟩ : BufTy).Contents (Elt F)),
    StableHlo.ternary main_v150 main_v152 main_v3 main_v153 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)),
    StableHlo.unary main_v153 main_v154 (broadcastInDim S12288x1 ![0] bcast_S12288_S12288x1_0 : (⟨S12288, .i32⟩ : BufTy).Contents (Elt F) → (⟨S12288x1, .i32⟩ : BufTy).Contents (Elt F)),
    StableHlo.ternary main_v148 main_v154 main_v147 main_v155 ((fun x i u => Host.scatterAdd scatter_S16x2048x256_S12288x1_S16x12288x256_02_1_1_1 x i u) : (⟨S16x2048x256, .f32⟩ : BufTy).Contents (Elt F) → (⟨S12288x1, .i32⟩ : BufTy).Contents (Elt F) → (⟨S16x12288x256, .f32⟩ : BufTy).Contents (Elt F) → (⟨S16x2048x256, .f32⟩ : BufTy).Contents (Elt F)),
    StableHlo.unary main_v17 main_v156 (broadcastInDim S1x2048x1 ![1] bcast_S2048_S1x2048x1_1 : (⟨S2048, .f32⟩ : BufTy).Contents (Elt F) → (⟨S1x2048x1, .f32⟩ : BufTy).Contents (Elt F)),
    StableHlo.unary main_v156 main_v157 (broadcastInDim S16x2048x256 ![0, 1, 2] bcast_S1x2048x1_S16x2048x256_0_1_2 : (⟨S1x2048x1, .f32⟩ : BufTy).Contents (Elt F) → (⟨S16x2048x256, .f32⟩ : BufTy).Contents (Elt F)),
    StableHlo.binary main_v128 main_v157 main_v158 (mulf : (⟨S16x2048x256, .f32⟩ : BufTy).Contents (Elt F) → (⟨S16x2048x256, .f32⟩ : BufTy).Contents (Elt F) → (⟨S16x2048x256, .f32⟩ : BufTy).Contents (Elt F)),
    StableHlo.binary main_v155 main_v158 main_v159 (addf : (⟨S16x2048x256, .f32⟩ : BufTy).Contents (Elt F) → (⟨S16x2048x256, .f32⟩ : BufTy).Contents (Elt F) → (⟨S16x2048x256, .f32⟩ : BufTy).Contents (Elt F)),
    StableHlo.unary main_arg9 main_v160 (broadcastInDim S1x1x256 ![2] bcast_S256_S1x1x256_2 : (⟨S256, .f32⟩ : BufTy).Contents (Elt F) → (⟨S1x1x256, .f32⟩ : BufTy).Contents (Elt F)),
    StableHlo.unary main_v160 main_v161 (broadcastInDim S16x2048x256 ![0, 1, 2] bcast_S1x1x256_S16x2048x256_0_1_2 : (⟨S1x1x256, .f32⟩ : BufTy).Contents (Elt F) → (⟨S16x2048x256, .f32⟩ : BufTy).Contents (Elt F)),
    StableHlo.binary main_v159 main_v161 main_v162 (addf : (⟨S16x2048x256, .f32⟩ : BufTy).Contents (Elt F) → (⟨S16x2048x256, .f32⟩ : BufTy).Contents (Elt F) → (⟨S16x2048x256, .f32⟩ : BufTy).Contents (Elt F)),
    StableHlo.nullary main_cst_34 (constant S_ .f32 0x00000000#32),
    StableHlo.unary main_cst_34 main_v163 (broadcastInDim S16x2048x256 ![] bcast_S_S16x2048x256 : (⟨S_, .f32⟩ : BufTy).Contents (Elt F) → (⟨S16x2048x256, .f32⟩ : BufTy).Contents (Elt F)),
    StableHlo.binary main_v162 main_v163 main_v164 (cmpf .oge : (⟨S16x2048x256, .f32⟩ : BufTy).Contents (Elt F) → (⟨S16x2048x256, .f32⟩ : BufTy).Contents (Elt F) → (⟨S16x2048x256, .i1⟩ : BufTy).Contents (Elt F)),
    StableHlo.nullary main_cst_35 (constant S_ .f32 0x3C23D70A#32),
    StableHlo.unary main_cst_35 main_v165 (broadcastInDim S16x2048x256 ![] bcast_S_S16x2048x256 : (⟨S_, .f32⟩ : BufTy).Contents (Elt F) → (⟨S16x2048x256, .f32⟩ : BufTy).Contents (Elt F)),
    StableHlo.binary main_v165 main_v162 main_v166 (mulf : (⟨S16x2048x256, .f32⟩ : BufTy).Contents (Elt F) → (⟨S16x2048x256, .f32⟩ : BufTy).Contents (Elt F) → (⟨S16x2048x256, .f32⟩ : BufTy).Contents (Elt F)),
    StableHlo.TRef.ternary (.of main_v164 : StableHlo.TRef sig ⟨S16x2048x256, .i1⟩) (.of main_v162 : StableHlo.TRef sig ⟨S16x2048x256, .f32⟩) (.of main_v166 : StableHlo.TRef sig ⟨S16x2048x256, .f32⟩) main_call5.v0 select,
    StableHlo.binary main_v167 main_arg10 main_v168 ((fun l r => Host.dotGeneral dot_S16x2048x256_S256x64_S16x2048x64_2_0_01_1_n_n none l r) : (⟨S16x2048x256, .f32⟩ : BufTy).Contents (Elt F) → (⟨S256x64, .f32⟩ : BufTy).Contents (Elt F) → (⟨S16x2048x64, .f32⟩ : BufTy).Contents (Elt F)),
    StableHlo.nullary main_c_36 (constantI S_ 32 0#32),
    StableHlo.unary main_c_36 main_v169 (broadcastInDim S12288 ![] bcast_S_S12288 : (⟨S_, .i32⟩ : BufTy).Contents (Elt F) → (⟨S12288, .i32⟩ : BufTy).Contents (Elt F)),
    StableHlo.binary main_v1 main_v169 main_v170 (cmpi .slt : (⟨S12288, .i32⟩ : BufTy).Contents (Elt F) → (⟨S12288, .i32⟩ : BufTy).Contents (Elt F) → (⟨S12288, .i1⟩ : BufTy).Contents (Elt F)),
    StableHlo.nullary main_c_37 (constantI S_ 32 2048#32),
    StableHlo.unary main_c_37 main_v171 (broadcastInDim S12288 ![] bcast_S_S12288 : (⟨S_, .i32⟩ : BufTy).Contents (Elt F) → (⟨S12288, .i32⟩ : BufTy).Contents (Elt F)),
    StableHlo.binary main_v1 main_v171 main_v172 (addi : (⟨S12288, .i32⟩ : BufTy).Contents (Elt F) → (⟨S12288, .i32⟩ : BufTy).Contents (Elt F) → (⟨S12288, .i32⟩ : BufTy).Contents (Elt F)),
    StableHlo.ternary main_v170 main_v172 main_v1 main_v173 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)),
    StableHlo.unary main_v173 main_v174 (broadcastInDim S12288x1 ![0] bcast_S12288_S12288x1_0 : (⟨S12288, .i32⟩ : BufTy).Contents (Elt F) → (⟨S12288x1, .i32⟩ : BufTy).Contents (Elt F)),
    StableHlo.binary main_v15 main_v174 main_v175 ((fun x i => Host.gather gather_S2048_S12288x1_S12288_n_0_n_n_0_1_1 x i) : (⟨S2048, .f32⟩ : BufTy).Contents (Elt F) → (⟨S12288x1, .i32⟩ : BufTy).Contents (Elt F) → (⟨S12288, .f32⟩ : BufTy).Contents (Elt F)),
    StableHlo.nullary main_c_38 (constantI S_ 32 0#32),
    StableHlo.unary main_c_38 main_v176 (broadcastInDim S12288 ![] bcast_S_S12288 : (⟨S_, .i32⟩ : BufTy).Contents (Elt F) → (⟨S12288, .i32⟩ : BufTy).Contents (Elt F)),
    StableHlo.binary main_v3 main_v176 main_v177 (cmpi .slt : (⟨S12288, .i32⟩ : BufTy).Contents (Elt F) → (⟨S12288, .i32⟩ : BufTy).Contents (Elt F) → (⟨S12288, .i1⟩ : BufTy).Contents (Elt F)),
    StableHlo.nullary main_c_39 (constantI S_ 32 2048#32),
    StableHlo.unary main_c_39 main_v178 (broadcastInDim S12288 ![] bcast_S_S12288 : (⟨S_, .i32⟩ : BufTy).Contents (Elt F) → (⟨S12288, .i32⟩ : BufTy).Contents (Elt F)),
    StableHlo.binary main_v3 main_v178 main_v179 (addi : (⟨S12288, .i32⟩ : BufTy).Contents (Elt F) → (⟨S12288, .i32⟩ : BufTy).Contents (Elt F) → (⟨S12288, .i32⟩ : BufTy).Contents (Elt F)),
    StableHlo.ternary main_v177 main_v179 main_v3 main_v180 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)),
    StableHlo.unary main_v180 main_v181 (broadcastInDim S12288x1 ![0] bcast_S12288_S12288x1_0 : (⟨S12288, .i32⟩ : BufTy).Contents (Elt F) → (⟨S12288x1, .i32⟩ : BufTy).Contents (Elt F)),
    StableHlo.binary main_v15 main_v181 main_v182 ((fun x i => Host.gather gather_S2048_S12288x1_S12288_n_0_n_n_0_1_1 x i) : (⟨S2048, .f32⟩ : BufTy).Contents (Elt F) → (⟨S12288x1, .i32⟩ : BufTy).Contents (Elt F) → (⟨S12288, .f32⟩ : BufTy).Contents (Elt F)),
    StableHlo.binary main_v175 main_v182 main_v183 (mulf : (⟨S12288, .f32⟩ : BufTy).Contents (Elt F) → (⟨S12288, .f32⟩ : BufTy).Contents (Elt F) → (⟨S12288, .f32⟩ : BufTy).Contents (Elt F)),
    StableHlo.TRef.nullary main_call6.c (constantI S_ 32 0#32),
    StableHlo.TRef.unary main_call6.c main_call6.v0 (broadcastInDim S12288 ![] bcast_S_S12288),
    StableHlo.TRef.binary (.of main_v1 : StableHlo.TRef sig ⟨S12288, .i32⟩) main_call6.v0 main_call6.v1 (cmpi .slt),
    StableHlo.TRef.nullary main_call6.c_0 (constantI S_ 32 2048#32),
    StableHlo.TRef.unary main_call6.c_0 main_call6.v2 (broadcastInDim S12288 ![] bcast_S_S12288),
    StableHlo.TRef.binary (.of main_v1 : StableHlo.TRef sig ⟨S12288, .i32⟩) main_call6.v2 main_call6.v3 addi,
    StableHlo.TRef.ternary main_call6.v1 main_call6.v3 (.of main_v1 : StableHlo.TRef sig ⟨S12288, .i32⟩) main_call6.call0.v0 select,
    StableHlo.TRef.unary main_call6.call0.v0 main_call6.v5 (broadcastInDim S12288x1 ![0] bcast_S12288_S12288x1_0),
    StableHlo.TRef.nullary main_call6.c_1 (constantI S1 32 2047#32),
    StableHlo.TRef.nullary main_call6.c_2 (constantI S_ 32 0#32),
    StableHlo.TRef.unary main_call6.c_2 main_call6.v6 (broadcastInDim S12288x1 ![] bcast_S_S12288x1),
    StableHlo.TRef.binary main_call6.v5 main_call6.v6 main_call6.v7 (cmpi .sge),
    StableHlo.TRef.unary main_call6.c_1 main_call6.v8 (broadcastInDim S1x1 ![1] bcast_S1_S1x1_1),
    StableHlo.TRef.unary main_call6.v8 main_call6.v9 (broadcastInDim S12288x1 ![0, 1] bcast_S1x1_S12288x1_0_1),
    StableHlo.TRef.binary main_call6.v5 main_call6.v9 main_call6.v10 (cmpi .sle),
    StableHlo.TRef.binary main_call6.v7 main_call6.v10 main_call6.v11 andi,
    StableHlo.TRef.nullary main_call6.c_3 (constantI S_ 1 1#1),
    StableHlo.TRef.binary main_call6.v11 main_call6.c_3 main_call6.v12 (fun x v => Host.reduce IntOp.andi x v reducesTo_S12288x1_S12288_d1 h_S_),
    StableHlo.TRef.binary (.of main_v168 : StableHlo.TRef sig ⟨S16x2048x64, .f32⟩) main_call6.v5 main_call6.v13 (fun x i => Host.gather gather_S16x2048x64_S12288x1_S16x12288x64_02_1_n_n_1_1_16164 x i),
    StableHlo.TRef.unary main_call6.v12 main_call6.v14 (broadcastInDim S16x12288x64 ![1] bcast_S12288_S16x12288x64_1),
    StableHlo.TRef.nullary main_call6.cst (constant S_ .f32 0x7FC00000#32),
    StableHlo.TRef.unary main_call6.cst main_call6.v15 (broadcastInDim S16x12288x64 ![] bcast_S_S16x12288x64),
    StableHlo.TRef.ternary main_call6.v14 main_call6.v13 main_call6.v15 main_call6.v16 select,
    StableHlo.unary main_v183 main_v185 (broadcastInDim S1x12288x1 ![1] bcast_S12288_S1x12288x1_1 : (⟨S12288, .f32⟩ : BufTy).Contents (Elt F) → (⟨S1x12288x1, .f32⟩ : BufTy).Contents (Elt F)),
    StableHlo.unary main_v185 main_v186 (broadcastInDim S16x12288x64 ![0, 1, 2] bcast_S1x12288x1_S16x12288x64_0_1_2 : (⟨S1x12288x1, .f32⟩ : BufTy).Contents (Elt F) → (⟨S16x12288x64, .f32⟩ : BufTy).Contents (Elt F)),
    StableHlo.binary main_v184 main_v186 main_v187 (mulf : (⟨S16x12288x64, .f32⟩ : BufTy).Contents (Elt F) → (⟨S16x12288x64, .f32⟩ : BufTy).Contents (Elt F) → (⟨S16x12288x64, .f32⟩ : BufTy).Contents (Elt F)),
    StableHlo.nullary main_cst_40 (constant S_ .f32 0x00000000#32),
    StableHlo.unary main_cst_40 main_v188 (broadcastInDim S16x2048x64 ![] bcast_S_S16x2048x64 : (⟨S_, .f32⟩ : BufTy).Contents (Elt F) → (⟨S16x2048x64, .f32⟩ : BufTy).Contents (Elt F)),
    StableHlo.nullary main_c_41 (constantI S_ 32 0#32),
    StableHlo.unary main_c_41 main_v189 (broadcastInDim S12288 ![] bcast_S_S12288 : (⟨S_, .i32⟩ : BufTy).Contents (Elt F) → (⟨S12288, .i32⟩ : BufTy).Contents (Elt F)),
    StableHlo.binary main_v3 main_v189 main_v190 (cmpi .slt : (⟨S12288, .i32⟩ : BufTy).Contents (Elt F) → (⟨S12288, .i32⟩ : BufTy).Contents (Elt F) → (⟨S12288, .i1⟩ : BufTy).Contents (Elt F)),
    StableHlo.nullary main_c_42 (constantI S_ 32 2048#32),
    StableHlo.unary main_c_42 main_v191 (broadcastInDim S12288 ![] bcast_S_S12288 : (⟨S_, .i32⟩ : BufTy).Contents (Elt F) → (⟨S12288, .i32⟩ : BufTy).Contents (Elt F)),
    StableHlo.binary main_v3 main_v191 main_v192 (addi : (⟨S12288, .i32⟩ : BufTy).Contents (Elt F) → (⟨S12288, .i32⟩ : BufTy).Contents (Elt F) → (⟨S12288, .i32⟩ : BufTy).Contents (Elt F)),
    StableHlo.ternary main_v190 main_v192 main_v3 main_v193 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)),
    StableHlo.unary main_v193 main_v194 (broadcastInDim S12288x1 ![0] bcast_S12288_S12288x1_0 : (⟨S12288, .i32⟩ : BufTy).Contents (Elt F) → (⟨S12288x1, .i32⟩ : BufTy).Contents (Elt F)) ]

set_option maxRecDepth 8192 in
/-- Every operation of the window touches TensorCore references only: each builder's own fact, in order. -/
theorem ops3_sub : (ops3 : List (HloOp τ sig (Elt F))).Forall fun op => op.bufs ⊆ tcRefs τ sig :=
  ⟨binary_bufs_sub .., nullary_bufs_sub .., unary_bufs_sub .., nullary_bufs_sub .., unary_bufs_sub .., binary_bufs_sub ..,
   nullary_bufs_sub .., unary_bufs_sub .., binary_bufs_sub .., ternary_bufs_sub .., unary_bufs_sub .., ternary_bufs_sub ..,
   unary_bufs_sub .., unary_bufs_sub .., binary_bufs_sub .., binary_bufs_sub .., unary_bufs_sub .., unary_bufs_sub ..,
   binary_bufs_sub .., nullary_bufs_sub .., unary_bufs_sub .., binary_bufs_sub .., nullary_bufs_sub .., unary_bufs_sub ..,
   binary_bufs_sub .., ternary_bufs_sub .., binary_bufs_sub .., nullary_bufs_sub .., unary_bufs_sub .., binary_bufs_sub ..,
   nullary_bufs_sub .., unary_bufs_sub .., binary_bufs_sub .., ternary_bufs_sub .., unary_bufs_sub .., binary_bufs_sub ..,
   nullary_bufs_sub .., unary_bufs_sub .., binary_bufs_sub .., nullary_bufs_sub .., unary_bufs_sub .., binary_bufs_sub ..,
   ternary_bufs_sub .., unary_bufs_sub .., binary_bufs_sub .., binary_bufs_sub .., nullary_bufs_sub .., unary_bufs_sub ..,
   binary_bufs_sub .., nullary_bufs_sub .., unary_bufs_sub .., binary_bufs_sub .., ternary_bufs_sub .., unary_bufs_sub ..,
   nullary_bufs_sub .., nullary_bufs_sub .., unary_bufs_sub .., binary_bufs_sub .., unary_bufs_sub .., unary_bufs_sub ..,
   binary_bufs_sub .., binary_bufs_sub .., nullary_bufs_sub .., binary_bufs_sub .., binary_bufs_sub .., unary_bufs_sub ..,
   nullary_bufs_sub .., unary_bufs_sub .., ternary_bufs_sub .., unary_bufs_sub .., unary_bufs_sub .., binary_bufs_sub ..,
   nullary_bufs_sub .., unary_bufs_sub .., nullary_bufs_sub .., unary_bufs_sub .., binary_bufs_sub .., nullary_bufs_sub ..,
   unary_bufs_sub .., binary_bufs_sub .., ternary_bufs_sub .., unary_bufs_sub ..⟩

end Cert.ReferenceIdeal.Hand

end
-- ==== Proof.Ref.Eq3.lean ====
/- Window 3 of the reference program's @main as a straight line: it IS the sequence of its 82 operations, none of
   which leaves a buffer undetermined and none of which writes an argument. -/
import proofs.«421025_j30305289241172_1_alg».proof.Proof.Ref.Ops3
import proofs.«421025_j30305289241172_1_alg».proof.Proof.Ref.Lemmas

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The window is the straight line of its operations. Both sides are chains of single-operation steps: the window's
    is the printed one with two calls among its statements (the elementwise select @_where_2, record main_call5, and the gather of rows @_take_3, record main_call6), a call being the callee's
    body applied to the operands and the call's record, which unfolds to the callee's steps in the call's place (a
    gather of rows itself calls a select of indices, unfolded the same way); sequencing of such chains re-associates by
    computation, so the two chains are the same term. -/
theorem main_part3_eq (c : Dev nD) : main_part3 (F := F) c = seq ops3 := rfl

/-- Every operation of the window determines all it writes: each is one of the builders of a StableHLO line, whose
    set of undetermined buffers is empty by definition. -/
theorem ops3_fresh : (ops3 : List (HloOp τ sig (Elt F))).Forall fun op => op.fresh = ∅ := by
  each_op rfl

/-- No operation of the window writes an argument: each writes exactly its result's buffer, a value of the program,
    whose index among the references is at least sixteen. -/
theorem ops3_keep : (ops3 : List (HloOp τ sig (Elt F))).Forall fun op =>
    ∀ r : Ref sig .tc, r.idx.val < 16 → (Proc.devRef .tc r : DevRef τ sig) ∉ op.writes := by
  each_op (keeps_of_writes _ (by decide) rfl)

end Cert.ReferenceIdeal.Hand

end
-- ==== Proof.Ref.Ops4.lean ====
import proofs.«421025_j30305289241172_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 82 operations of @main's window 4 in program order, a called function's operations standing in its call's place over that call's record; of them 23 of @_take_4 over main_call7 (from position 28), 1 of @_where_5 over main_call8 (from position 78). -/
abbrev ops4 : List (HloOp τ sig (Elt F)) :=
  [ StableHlo.ternary main_v188 main_v194 main_v187 main_v195 ((fun x i u => Host.scatterAdd scatter_S16x2048x64_S12288x1_S16x12288x64_02_1_1_1 x i u) : (⟨S16x2048x64, .f32⟩ : BufTy).Contents (Elt F) → (⟨S12288x1, .i32⟩ : BufTy).Contents (Elt F) → (⟨S16x12288x64, .f32⟩ : BufTy).Contents (Elt F) → (⟨S16x2048x64, .f32⟩ : BufTy).Contents (Elt F)),
    StableHlo.unary main_v17 main_v196 (broadcastInDim S1x2048x1 ![1] bcast_S2048_S1x2048x1_1 : (⟨S2048, .f32⟩ : BufTy).Contents (Elt F) → (⟨S1x2048x1, .f32⟩ : BufTy).Contents (Elt F)),
    StableHlo.unary main_v196 main_v197 (broadcastInDim S16x2048x64 ![0, 1, 2] bcast_S1x2048x1_S16x2048x64_0_1_2 : (⟨S1x2048x1, .f32⟩ : BufTy).Contents (Elt F) → (⟨S16x2048x64, .f32⟩ : BufTy).Contents (Elt F)),
    StableHlo.binary main_v168 main_v197 main_v198 (mulf : (⟨S16x2048x64, .f32⟩ : BufTy).Contents (Elt F) → (⟨S16x2048x64, .f32⟩ : BufTy).Contents (Elt F) → (⟨S16x2048x64, .f32⟩ : BufTy).Contents (Elt F)),
    StableHlo.binary main_v195 main_v198 main_v199 (addf : (⟨S16x2048x64, .f32⟩ : BufTy).Contents (Elt F) → (⟨S16x2048x64, .f32⟩ : BufTy).Contents (Elt F) → (⟨S16x2048x64, .f32⟩ : BufTy).Contents (Elt F)),
    StableHlo.unary main_arg11 main_v200 (broadcastInDim S1x1x64 ![2] bcast_S64_S1x1x64_2 : (⟨S64, .f32⟩ : BufTy).Contents (Elt F) → (⟨S1x1x64, .f32⟩ : BufTy).Contents (Elt F)),
    StableHlo.unary main_v200 main_v201 (broadcastInDim S16x2048x64 ![0, 1, 2] bcast_S1x1x64_S16x2048x64_0_1_2 : (⟨S1x1x64, .f32⟩ : BufTy).Contents (Elt F) → (⟨S16x2048x64, .f32⟩ : BufTy).Contents (Elt F)),
    StableHlo.binary main_v199 main_v201 main_v202 (addf : (⟨S16x2048x64, .f32⟩ : BufTy).Contents (Elt F) → (⟨S16x2048x64, .f32⟩ : BufTy).Contents (Elt F) → (⟨S16x2048x64, .f32⟩ : BufTy).Contents (Elt F)),
    StableHlo.binary main_v202 main_arg12 main_v203 ((fun l r => Host.dotGeneral dot_S16x2048x64_S64x3_S16x2048x3_2_0_01_1_n_n none l r) : (⟨S16x2048x64, .f32⟩ : BufTy).Contents (Elt F) → (⟨S64x3, .f32⟩ : BufTy).Contents (Elt F) → (⟨S16x2048x3, .f32⟩ : BufTy).Contents (Elt F)),
    StableHlo.nullary main_c_43 (constantI S_ 32 0#32),
    StableHlo.unary main_c_43 main_v204 (broadcastInDim S12288 ![] bcast_S_S12288 : (⟨S_, .i32⟩ : BufTy).Contents (Elt F) → (⟨S12288, .i32⟩ : BufTy).Contents (Elt F)),
    StableHlo.binary main_v1 main_v204 main_v205 (cmpi .slt : (⟨S12288, .i32⟩ : BufTy).Contents (Elt F) → (⟨S12288, .i32⟩ : BufTy).Contents (Elt F) → (⟨S12288, .i1⟩ : BufTy).Contents (Elt F)),
    StableHlo.nullary main_c_44 (constantI S_ 32 2048#32),
    StableHlo.unary main_c_44 main_v206 (broadcastInDim S12288 ![] bcast_S_S12288 : (⟨S_, .i32⟩ : BufTy).Contents (Elt F) → (⟨S12288, .i32⟩ : BufTy).Contents (Elt F)),
    StableHlo.binary main_v1 main_v206 main_v207 (addi : (⟨S12288, .i32⟩ : BufTy).Contents (Elt F) → (⟨S12288, .i32⟩ : BufTy).Contents (Elt F) → (⟨S12288, .i32⟩ : BufTy).Contents (Elt F)),
    StableHlo.ternary main_v205 main_v207 main_v1 main_v208 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)),
    StableHlo.unary main_v208 main_v209 (broadcastInDim S12288x1 ![0] bcast_S12288_S12288x1_0 : (⟨S12288, .i32⟩ : BufTy).Contents (Elt F) → (⟨S12288x1, .i32⟩ : BufTy).Contents (Elt F)),
    StableHlo.binary main_v15 main_v209 main_v210 ((fun x i => Host.gather gather_S2048_S12288x1_S12288_n_0_n_n_0_1_1 x i) : (⟨S2048, .f32⟩ : BufTy).Contents (Elt F) → (⟨S12288x1, .i32⟩ : BufTy).Contents (Elt F) → (⟨S12288, .f32⟩ : BufTy).Contents (Elt F)),
    StableHlo.nullary main_c_45 (constantI S_ 32 0#32),
    StableHlo.unary main_c_45 main_v211 (broadcastInDim S12288 ![] bcast_S_S12288 : (⟨S_, .i32⟩ : BufTy).Contents (Elt F) → (⟨S12288, .i32⟩ : BufTy).Contents (Elt F)),
    StableHlo.binary main_v3 main_v211 main_v212 (cmpi .slt : (⟨S12288, .i32⟩ : BufTy).Contents (Elt F) → (⟨S12288, .i32⟩ : BufTy).Contents (Elt F) → (⟨S12288, .i1⟩ : BufTy).Contents (Elt F)),
    StableHlo.nullary main_c_46 (constantI S_ 32 2048#32),
    StableHlo.unary main_c_46 main_v213 (broadcastInDim S12288 ![] bcast_S_S12288 : (⟨S_, .i32⟩ : BufTy).Contents (Elt F) → (⟨S12288, .i32⟩ : BufTy).Contents (Elt F)),
    StableHlo.binary main_v3 main_v213 main_v214 (addi : (⟨S12288, .i32⟩ : BufTy).Contents (Elt F) → (⟨S12288, .i32⟩ : BufTy).Contents (Elt F) → (⟨S12288, .i32⟩ : BufTy).Contents (Elt F)),
    StableHlo.ternary main_v212 main_v214 main_v3 main_v215 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)),
    StableHlo.unary main_v215 main_v216 (broadcastInDim S12288x1 ![0] bcast_S12288_S12288x1_0 : (⟨S12288, .i32⟩ : BufTy).Contents (Elt F) → (⟨S12288x1, .i32⟩ : BufTy).Contents (Elt F)),
    StableHlo.binary main_v15 main_v216 main_v217 ((fun x i => Host.gather gather_S2048_S12288x1_S12288_n_0_n_n_0_1_1 x i) : (⟨S2048, .f32⟩ : BufTy).Contents (Elt F) → (⟨S12288x1, .i32⟩ : BufTy).Contents (Elt F) → (⟨S12288, .f32⟩ : BufTy).Contents (Elt F)),
    StableHlo.binary main_v210 main_v217 main_v218 (mulf : (⟨S12288, .f32⟩ : BufTy).Contents (Elt F) → (⟨S12288, .f32⟩ : BufTy).Contents (Elt F) → (⟨S12288, .f32⟩ : BufTy).Contents (Elt F)),
    StableHlo.TRef.nullary main_call7.c (constantI S_ 32 0#32),
    StableHlo.TRef.unary main_call7.c main_call7.v0 (broadcastInDim S12288 ![] bcast_S_S12288),
    StableHlo.TRef.binary (.of main_v1 : StableHlo.TRef sig ⟨S12288, .i32⟩) main_call7.v0 main_call7.v1 (cmpi .slt),
    StableHlo.TRef.nullary main_call7.c_0 (constantI S_ 32 2048#32),
    StableHlo.TRef.unary main_call7.c_0 main_call7.v2 (broadcastInDim S12288 ![] bcast_S_S12288),
    StableHlo.TRef.binary (.of main_v1 : StableHlo.TRef sig ⟨S12288, .i32⟩) main_call7.v2 main_call7.v3 addi,
    StableHlo.TRef.ternary main_call7.v1 main_call7.v3 (.of main_v1 : StableHlo.TRef sig ⟨S12288, .i32⟩) main_call7.call0.v0 select,
    StableHlo.TRef.unary main_call7.call0.v0 main_call7.v5 (broadcastInDim S12288x1 ![0] bcast_S12288_S12288x1_0),
    StableHlo.TRef.nullary main_call7.c_1 (constantI S1 32 2047#32),
    StableHlo.TRef.nullary main_call7.c_2 (constantI S_ 32 0#32),
    StableHlo.TRef.unary main_call7.c_2 main_call7.v6 (broadcastInDim S12288x1 ![] bcast_S_S12288x1),
    StableHlo.TRef.binary main_call7.v5 main_call7.v6 main_call7.v7 (cmpi .sge),
    StableHlo.TRef.unary main_call7.c_1 main_call7.v8 (broadcastInDim S1x1 ![1] bcast_S1_S1x1_1),
    StableHlo.TRef.unary main_call7.v8 main_call7.v9 (broadcastInDim S12288x1 ![0, 1] bcast_S1x1_S12288x1_0_1),
    StableHlo.TRef.binary main_call7.v5 main_call7.v9 main_call7.v10 (cmpi .sle),
    StableHlo.TRef.binary main_call7.v7 main_call7.v10 main_call7.v11 andi,
    StableHlo.TRef.nullary main_call7.c_3 (constantI S_ 1 1#1),
    StableHlo.TRef.binary main_call7.v11 main_call7.c_3 main_call7.v12 (fun x v => Host.reduce IntOp.andi x v reducesTo_S12288x1_S12288_d1 h_S_),
    StableHlo.TRef.binary (.of main_v203 : StableHlo.TRef sig ⟨S16x2048x3, .f32⟩) main_call7.v5 main_call7.v13 (fun x i => Host.gather gather_S16x2048x3_S12288x1_S16x12288x3_02_1_n_n_1_1_1613 x i),
    StableHlo.TRef.unary main_call7.v12 main_call7.v14 (broadcastInDim S16x12288x3 ![1] bcast_S12288_S16x12288x3_1),
    StableHlo.TRef.nullary main_call7.cst (constant S_ .f32 0x7FC00000#32),
    StableHlo.TRef.unary main_call7.cst main_call7.v15 (broadcastInDim S16x12288x3 ![] bcast_S_S16x12288x3),
    StableHlo.TRef.ternary main_call7.v14 main_call7.v13 main_call7.v15 main_call7.v16 select,
    StableHlo.unary main_v218 main_v220 (broadcastInDim S1x12288x1 ![1] bcast_S12288_S1x12288x1_1 : (⟨S12288, .f32⟩ : BufTy).Contents (Elt F) → (⟨S1x12288x1, .f32⟩ : BufTy).Contents (Elt F)),
    StableHlo.unary main_v220 main_v221 (broadcastInDim S16x12288x3 ![0, 1, 2] bcast_S1x12288x1_S16x12288x3_0_1_2 : (⟨S1x12288x1, .f32⟩ : BufTy).Contents (Elt F) → (⟨S16x12288x3, .f32⟩ : BufTy).Contents (Elt F)),
    StableHlo.binary main_v219 main_v221 main_v222 (mulf : (⟨S16x12288x3, .f32⟩ : BufTy).Contents (Elt F) → (⟨S16x12288x3, .f32⟩ : BufTy).Contents (Elt F) → (⟨S16x12288x3, .f32⟩ : BufTy).Contents (Elt F)),
    StableHlo.nullary main_cst_47 (constant S_ .f32 0x00000000#32),
    StableHlo.unary main_cst_47 main_v223 (broadcastInDim S16x2048x3 ![] bcast_S_S16x2048x3 : (⟨S_, .f32⟩ : BufTy).Contents (Elt F) → (⟨S16x2048x3, .f32⟩ : BufTy).Contents (Elt F)),
    StableHlo.nullary main_c_48 (constantI S_ 32 0#32),
    StableHlo.unary main_c_48 main_v224 (broadcastInDim S12288 ![] bcast_S_S12288 : (⟨S_, .i32⟩ : BufTy).Contents (Elt F) → (⟨S12288, .i32⟩ : BufTy).Contents (Elt F)),
    StableHlo.binary main_v3 main_v224 main_v225 (cmpi .slt : (⟨S12288, .i32⟩ : BufTy).Contents (Elt F) → (⟨S12288, .i32⟩ : BufTy).Contents (Elt F) → (⟨S12288, .i1⟩ : BufTy).Contents (Elt F)),
    StableHlo.nullary main_c_49 (constantI S_ 32 2048#32),
    StableHlo.unary main_c_49 main_v226 (broadcastInDim S12288 ![] bcast_S_S12288 : (⟨S_, .i32⟩ : BufTy).Contents (Elt F) → (⟨S12288, .i32⟩ : BufTy).Contents (Elt F)),
    StableHlo.binary main_v3 main_v226 main_v227 (addi : (⟨S12288, .i32⟩ : BufTy).Contents (Elt F) → (⟨S12288, .i32⟩ : BufTy).Contents (Elt F) → (⟨S12288, .i32⟩ : BufTy).Contents (Elt F)),
    StableHlo.ternary main_v225 main_v227 main_v3 main_v228 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)),
    StableHlo.unary main_v228 main_v229 (broadcastInDim S12288x1 ![0] bcast_S12288_S12288x1_0 : (⟨S12288, .i32⟩ : BufTy).Contents (Elt F) → (⟨S12288x1, .i32⟩ : BufTy).Contents (Elt F)),
    StableHlo.ternary main_v223 main_v229 main_v222 main_v230 ((fun x i u => Host.scatterAdd scatter_S16x2048x3_S12288x1_S16x12288x3_02_1_1_1 x i u) : (⟨S16x2048x3, .f32⟩ : BufTy).Contents (Elt F) → (⟨S12288x1, .i32⟩ : BufTy).Contents (Elt F) → (⟨S16x12288x3, .f32⟩ : BufTy).Contents (Elt F) → (⟨S16x2048x3, .f32⟩ : BufTy).Contents (Elt F)),
    StableHlo.unary main_v17 main_v231 (broadcastInDim S1x2048x1 ![1] bcast_S2048_S1x2048x1_1 : (⟨S2048, .f32⟩ : BufTy).Contents (Elt F) → (⟨S1x2048x1, .f32⟩ : BufTy).Contents (Elt F)),
    StableHlo.unary main_v231 main_v232 (broadcastInDim S16x2048x3 ![0, 1, 2] bcast_S1x2048x1_S16x2048x3_0_1_2 : (⟨S1x2048x1, .f32⟩ : BufTy).Contents (Elt F) → (⟨S16x2048x3, .f32⟩ : BufTy).Contents (Elt F)),
    StableHlo.binary main_v203 main_v232 main_v233 (mulf : (⟨S16x2048x3, .f32⟩ : BufTy).Contents (Elt F) → (⟨S16x2048x3, .f32⟩ : BufTy).Contents (Elt F) → (⟨S16x2048x3, .f32⟩ : BufTy).Contents (Elt F)),
    StableHlo.binary main_v230 main_v233 main_v234 (addf : (⟨S16x2048x3, .f32⟩ : BufTy).Contents (Elt F) → (⟨S16x2048x3, .f32⟩ : BufTy).Contents (Elt F) → (⟨S16x2048x3, .f32⟩ : BufTy).Contents (Elt F)),
    StableHlo.unary main_arg13 main_v235 (broadcastInDim S1x1x3 ![2] bcast_S3_S1x1x3_2 : (⟨S3, .f32⟩ : BufTy).Contents (Elt F) → (⟨S1x1x3, .f32⟩ : BufTy).Contents (Elt F)),
    StableHlo.unary main_v235 main_v236 (broadcastInDim S16x2048x3 ![0, 1, 2] bcast_S1x1x3_S16x2048x3_0_1_2 : (⟨S1x1x3, .f32⟩ : BufTy).Contents (Elt F) → (⟨S16x2048x3, .f32⟩ : BufTy).Contents (Elt F)),
    StableHlo.binary main_v234 main_v236 main_v237 (addf : (⟨S16x2048x3, .f32⟩ : BufTy).Contents (Elt F) → (⟨S16x2048x3, .f32⟩ : BufTy).Contents (Elt F) → (⟨S16x2048x3, .f32⟩ : BufTy).Contents (Elt F)),
    StableHlo.nullary main_cst_50 (constant S_ .f32 0x00000000#32),
    StableHlo.unary main_cst_50 main_v238 (broadcastInDim S16x2048x3 ![] bcast_S_S16x2048x3 : (⟨S_, .f32⟩ : BufTy).Contents (Elt F) → (⟨S16x2048x3, .f32⟩ : BufTy).Contents (Elt F)),
    StableHlo.binary main_v237 main_v238 main_v239 (cmpf .oge : (⟨S16x2048x3, .f32⟩ : BufTy).Contents (Elt F) → (⟨S16x2048x3, .f32⟩ : BufTy).Contents (Elt F) → (⟨S16x2048x3, .i1⟩ : BufTy).Contents (Elt F)),
    StableHlo.nullary main_cst_51 (constant S_ .f32 0x3C23D70A#32),
    StableHlo.unary main_cst_51 main_v240 (broadcastInDim S16x2048x3 ![] bcast_S_S16x2048x3 : (⟨S_, .f32⟩ : BufTy).Contents (Elt F) → (⟨S16x2048x3, .f32⟩ : BufTy).Contents (Elt F)),
    StableHlo.binary main_v240 main_v237 main_v241 (mulf : (⟨S16x2048x3, .f32⟩ : BufTy).Contents (Elt F) → (⟨S16x2048x3, .f32⟩ : BufTy).Contents (Elt F) → (⟨S16x2048x3, .f32⟩ : BufTy).Contents (Elt F)),
    StableHlo.TRef.ternary (.of main_v239 : StableHlo.TRef sig ⟨S16x2048x3, .i1⟩) (.of main_v237 : StableHlo.TRef sig ⟨S16x2048x3, .f32⟩) (.of main_v241 : StableHlo.TRef sig ⟨S16x2048x3, .f32⟩) main_call8.v0 select,
    StableHlo.reshape main_v242 main_v243 rfl shapeCasts_S16x2048x3_S16x6144,
    StableHlo.binary main_v243 main_arg14 main_v244 ((fun l r => Host.dotGeneral dot_S16x6144_S6144x6144_S16x6144_1_0_0_1_n_n none l r) : (⟨S16x6144, .f32⟩ : BufTy).Contents (Elt F) → (⟨S6144x6144, .f32⟩ : BufTy).Contents (Elt F) → (⟨S16x6144, .f32⟩ : BufTy).Contents (Elt F)),
    StableHlo.unary main_arg15 main_v245 (broadcastInDim S1x6144 ![1] bcast_S6144_S1x6144_1 : (⟨S6144, .f32⟩ : BufTy).Contents (Elt F) → (⟨S1x6144, .f32⟩ : BufTy).Contents (Elt F)) ]

set_option maxRecDepth 8192 in
/-- Every operation of the window touches TensorCore references only: each builder's own fact, in order. -/
theorem ops4_sub : (ops4 : List (HloOp τ sig (Elt F))).Forall fun op => op.bufs ⊆ tcRefs τ sig :=
  ⟨ternary_bufs_sub .., unary_bufs_sub .., unary_bufs_sub .., binary_bufs_sub .., binary_bufs_sub .., unary_bufs_sub ..,
   unary_bufs_sub .., binary_bufs_sub .., binary_bufs_sub .., nullary_bufs_sub .., unary_bufs_sub .., binary_bufs_sub ..,
   nullary_bufs_sub .., unary_bufs_sub .., binary_bufs_sub .., ternary_bufs_sub .., unary_bufs_sub .., binary_bufs_sub ..,
   nullary_bufs_sub .., unary_bufs_sub .., binary_bufs_sub .., nullary_bufs_sub .., unary_bufs_sub .., binary_bufs_sub ..,
   ternary_bufs_sub .., unary_bufs_sub .., binary_bufs_sub .., binary_bufs_sub .., nullary_bufs_sub .., unary_bufs_sub ..,
   binary_bufs_sub .., nullary_bufs_sub .., unary_bufs_sub .., binary_bufs_sub .., ternary_bufs_sub .., unary_bufs_sub ..,
   nullary_bufs_sub .., nullary_bufs_sub .., unary_bufs_sub .., binary_bufs_sub .., unary_bufs_sub .., unary_bufs_sub ..,
   binary_bufs_sub .., binary_bufs_sub .., nullary_bufs_sub .., binary_bufs_sub .., binary_bufs_sub .., unary_bufs_sub ..,
   nullary_bufs_sub .., unary_bufs_sub .., ternary_bufs_sub .., unary_bufs_sub .., unary_bufs_sub .., binary_bufs_sub ..,
   nullary_bufs_sub .., unary_bufs_sub .., nullary_bufs_sub .., unary_bufs_sub .., binary_bufs_sub .., nullary_bufs_sub ..,
   unary_bufs_sub .., binary_bufs_sub .., ternary_bufs_sub .., unary_bufs_sub .., ternary_bufs_sub .., unary_bufs_sub ..,
   unary_bufs_sub .., binary_bufs_sub .., binary_bufs_sub .., unary_bufs_sub .., unary_bufs_sub .., binary_bufs_sub ..,
   nullary_bufs_sub .., unary_bufs_sub .., binary_bufs_sub .., nullary_bufs_sub .., unary_bufs_sub .., binary_bufs_sub ..,
   ternary_bufs_sub .., reshape_bufs_sub .., binary_bufs_sub .., unary_bufs_sub ..⟩

end Cert.ReferenceIdeal.Hand

end
-- ==== Proof.Ref.Eq4.lean ====
/- Window 4 of the reference program's @main as a straight line: it IS the sequence of its 82 operations, none of
   which leaves a buffer undetermined and none of which writes an argument. -/
import proofs.«421025_j30305289241172_1_alg».proof.Proof.Ref.Ops4
import proofs.«421025_j30305289241172_1_alg».proof.Proof.Ref.Lemmas

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The window is the straight line of its operations. Both sides are chains of single-operation steps: the window's
    is the printed one with two calls among its statements (the gather of rows @_take_4, record main_call7, and the elementwise select @_where_5, record main_call8), a call being the callee's
    body applied to the operands and the call's record, which unfolds to the callee's steps in the call's place (a
    gather of rows itself calls a select of indices, unfolded the same way); sequencing of such chains re-associates by
    computation, so the two chains are the same term. -/
theorem main_part4_eq (c : Dev nD) : main_part4 (F := F) c = seq ops4 := rfl

/-- Every operation of the window determines all it writes: each is one of the builders of a StableHLO line, whose
    set of undetermined buffers is empty by definition. -/
theorem ops4_fresh : (ops4 : List (HloOp τ sig (Elt F))).Forall fun op => op.fresh = ∅ := by
  each_op rfl

/-- No operation of the window writes an argument: each writes exactly its result's buffer, a value of the program,
    whose index among the references is at least sixteen. -/
theorem ops4_keep : (ops4 : List (HloOp τ sig (Elt F))).Forall fun op =>
    ∀ r : Ref sig .tc, r.idx.val < 16 → (Proc.devRef .tc r : DevRef τ sig) ∉ op.writes := by
  each_op (keeps_of_writes _ (by decide) rfl)

end Cert.ReferenceIdeal.Hand

end
-- ==== Proof.Ref.Ops5.lean ====
import proofs.«421025_j30305289241172_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The 7 operations of @main's window 5 in program order (the window makes no call). -/
abbrev ops5 : List (HloOp τ sig (Elt F)) :=
  [ StableHlo.unary main_v245 main_v246 (broadcastInDim S16x6144 ![0, 1] bcast_S1x6144_S16x6144_0_1 : (⟨S1x6144, .f32⟩ : BufTy).Contents (Elt F) → (⟨S16x6144, .f32⟩ : BufTy).Contents (Elt F)),
    StableHlo.binary main_v244 main_v246 main_v247 (addf : (⟨S16x6144, .f32⟩ : BufTy).Contents (Elt F) → (⟨S16x6144, .f32⟩ : BufTy).Contents (Elt F) → (⟨S16x6144, .f32⟩ : BufTy).Contents (Elt F)),
    StableHlo.unary main_v247 main_v248 (Host.tanh : (⟨S16x6144, .f32⟩ : BufTy).Contents (Elt F) → (⟨S16x6144, .f32⟩ : BufTy).Contents (Elt F)),
    StableHlo.reshape main_v248 main_v249 rfl shapeCasts_S16x6144_S16x2048x3,
    StableHlo.nullary main_cst_52 (constant S_ .f32 0x3DCCCCCD#32),
    StableHlo.unary main_cst_52 main_v250 (broadcastInDim S16x2048x3 ![] bcast_S_S16x2048x3 : (⟨S_, .f32⟩ : BufTy).Contents (Elt F) → (⟨S16x2048x3, .f32⟩ : BufTy).Contents (Elt F)),
    StableHlo.binary main_v249 main_v250 main_v251 (mulf : (⟨S16x2048x3, .f32⟩ : BufTy).Contents (Elt F) → (⟨S16x2048x3, .f32⟩ : BufTy).Contents (Elt F) → (⟨S16x2048x3, .f32⟩ : BufTy).Contents (Elt F)) ]

set_option maxRecDepth 8192 in
/-- Every operation of the window touches TensorCore references only: each builder's own fact, in order. -/
theorem ops5_sub : (ops5 : List (HloOp τ sig (Elt F))).Forall fun op => op.bufs ⊆ tcRefs τ sig :=
  ⟨unary_bufs_sub .., binary_bufs_sub .., unary_bufs_sub .., reshape_bufs_sub .., nullary_bufs_sub .., unary_bufs_sub ..,
   binary_bufs_sub ..⟩

end Cert.ReferenceIdeal.Hand

end
-- ==== Proof.Ref.Eq5.lean ====
/- Window 5 of the reference program's @main as a straight line: it IS the sequence of its 7 operations, none of
   which leaves a buffer undetermined and none of which writes an argument. -/
import proofs.«421025_j30305289241172_1_alg».proof.Proof.Ref.Ops5
import proofs.«421025_j30305289241172_1_alg».proof.Proof.Ref.Lemmas

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The window is the straight line of its operations. Both sides are chains of single-operation steps: the window's
    is the printed one, which makes no call; the last step's return and the line's end are the same by computation. -/
theorem main_part5_eq (c : Dev nD) : main_part5 (F := F) c = seq ops5 := rfl

/-- Every operation of the window determines all it writes: each is one of the builders of a StableHLO line, whose
    set of undetermined buffers is empty by definition. -/
theorem ops5_fresh : (ops5 : List (HloOp τ sig (Elt F))).Forall fun op => op.fresh = ∅ := by
  each_op rfl

/-- No operation of the window writes an argument: each writes exactly its result's buffer, a value of the program,
    whose index among the references is at least sixteen. -/
theorem ops5_keep : (ops5 : List (HloOp τ sig (Elt F))).Forall fun op =>
    ∀ r : Ref sig .tc, r.idx.val < 16 → (Proc.devRef .tc r : DevRef τ sig) ∉ op.writes := by
  each_op (keeps_of_writes _ (by decide) rfl)

end Cert.ReferenceIdeal.Hand

end
-- ==== Proof.Ref.Run.lean ====
/- The reference program's run. @main is a straight line of 439 StableHLO operations on each device's TensorCore (its
   six windows in order, the nine calls unfolded); a straight line over buffers none of which is scoped terminates
   from any memory with zero counters, every buffer ending at the fold of the operations' results over what the
   launch gave it. Read at the result's buffer that is the claim about the result; read at an argument's buffer it is
   what the launch gave, since no operation writes an argument. -/
import proofs.«421025_j30305289241172_1_alg».proof.Proof.Ref.Eq0
import proofs.«421025_j30305289241172_1_alg».proof.Proof.Ref.Eq1
import proofs.«421025_j30305289241172_1_alg».proof.Proof.Ref.Eq2
import proofs.«421025_j30305289241172_1_alg».proof.Proof.Ref.Eq3
import proofs.«421025_j30305289241172_1_alg».proof.Proof.Ref.Eq4
import proofs.«421025_j30305289241172_1_alg».proof.Proof.Ref.Eq5

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 439 operations: its six windows' lists, in order. -/
abbrev ops : List (HloOp τ sig (Elt F)) := ops0 ++ (ops1 ++ (ops2 ++ (ops3 ++ (ops4 ++ ops5))))

/-- @main is the straight line of its operations: it runs its six windows in order, each the line of its own list,
    and lines run one after the other are the line of the lists' concatenation. -/
theorem main_eq (c : Dev nD) : main (F := F) c = seq ops := by
  simp only [ops, seq_append, ← main_part0_eq c, ← main_part1_eq c, ← main_part2_eq c, ← main_part3_eq c,
    ← main_part4_eq c, ← main_part5_eq c]
  rfl

/-- The signature scopes no TensorCore buffer: its scope table is false at every buffer, each being a tensor value's,
    live through the whole program. -/
theorem scopedRefs_eq : (Finset.univ.filter fun b : Ref sig .tc => b.isScoped) = ∅ := by decide
/-- No semaphore is scoped on the TensorCore: the program declares none (its counts of regular and of DMA semaphores
    are both zero), and the check runs over whatever semaphore locations the signature has. -/
theorem scopedSems_eq : (Finset.univ.filter fun sm : SemLoc sig => sm.isScoped .tc) = ∅ := by decide

/-- Every operation touches TensorCore references only: window by window. -/
theorem ops_sub : (ops : List (HloOp τ sig (Elt F))).Forall fun op => op.bufs ⊆ tcRefs τ sig :=
  List.forall_append.mpr ⟨ops0_sub, List.forall_append.mpr ⟨ops1_sub, List.forall_append.mpr ⟨ops2_sub,
    List.forall_append.mpr ⟨ops3_sub, List.forall_append.mpr ⟨ops4_sub, ops5_sub⟩⟩⟩⟩⟩

/-- Every operation determines all it writes: window by window. -/
theorem ops_fresh : ∀ op ∈ (ops : List (HloOp τ sig (Elt F))), op.fresh = ∅ :=
  List.forall_iff_forall_mem.mp (List.forall_append.mpr ⟨ops0_fresh, List.forall_append.mpr ⟨ops1_fresh, List.forall_append.mpr ⟨ops2_fresh,
    List.forall_append.mpr ⟨ops3_fresh, List.forall_append.mpr ⟨ops4_fresh, ops5_fresh⟩⟩⟩⟩⟩)

/-- No operation writes an argument: window by window. -/
theorem ops_keep : ∀ op ∈ (ops : List (HloOp τ sig (Elt F))),
    ∀ r : Ref sig .tc, r.idx.val < 16 → (Proc.devRef .tc r : DevRef τ sig) ∉ op.writes :=
  List.forall_iff_forall_mem.mp (List.forall_append.mpr ⟨ops0_keep, List.forall_append.mpr ⟨ops1_keep, List.forall_append.mpr ⟨ops2_keep,
    List.forall_append.mpr ⟨ops3_keep, List.forall_append.mpr ⟨ops4_keep, ops5_keep⟩⟩⟩⟩⟩)

/-- An argument's buffer holds after the whole line what it held before it: a buffer no operation writes keeps its
    contents through the fold. -/
theorem after_arg (r : Ref sig .tc) (hr : r.idx.val < 16) (V : Valuation τ sig (Elt F)) :
    after ops V (Proc.devRef .tc r) = V (Proc.devRef .tc r) :=
  after_of_forall_not_mem ops V fun op h => ops_keep op h r hr

/-- On every device, for any float values, from any memory with zero counters: every weakly fair execution of @main
    terminates with every TensorCore buffer at the fold of the 439 operations' results over the launch's contents. -/
theorem run_all (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq (fun _ => ops_sub) m ρ (fun _ => ops_fresh)

/-- The same read at the seventeen buffers a claim about the reference names: the result at the fold, each of the
    sixteen arguments at what the launch gave it. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v251) = StableHlo.after ops (fun b => m (c, b)) (Proc.devRef .tc main_v251)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨h c main_v251,
      (h c main_arg0).trans (after_arg main_arg0 (by decide) _),
      (h c main_arg1).trans (after_arg main_arg1 (by decide) _),
      (h c main_arg2).trans (after_arg main_arg2 (by decide) _),
      (h c main_arg3).trans (after_arg main_arg3 (by decide) _),
      (h c main_arg4).trans (after_arg main_arg4 (by decide) _),
      (h c main_arg5).trans (after_arg main_arg5 (by decide) _),
      (h c main_arg6).trans (after_arg main_arg6 (by decide) _),
      (h c main_arg7).trans (after_arg main_arg7 (by decide) _),
      (h c main_arg8).trans (after_arg main_arg8 (by decide) _),
      (h c main_arg9).trans (after_arg main_arg9 (by decide) _),
      (h c main_arg10).trans (after_arg main_arg10 (by decide) _),
      (h c main_arg11).trans (after_arg main_arg11 (by decide) _),
      (h c main_arg12).trans (after_arg main_arg12 (by decide) _),
      (h c main_arg13).trans (after_arg main_arg13 (by decide) _),
      (h c main_arg14).trans (after_arg main_arg14 (by decide) _),
      (h c main_arg15).trans (after_arg main_arg15 (by decide) _)⟩)
    (run_all m ρ)

end Cert.ReferenceIdeal.Hand

end
-- ==== Proof.Ref.StageKit.lean ====
/- Stage equations of a straight line of operations in single assignment.

   The line's operations write pairwise distinct buffers, in the order of the buffers' indices: the operation at
   place j writes only buffers of index n + j. Then a buffer of index below n is never written; the buffer of
   index n + i holds, after the whole line, the result of the operation at place i; and every buffer of smaller index
   already held its final contents when that operation ran. So the operation's equation between its result and its
   operands, which the operation's own rule states over the contents just before it, holds over the FINAL contents. -/
import Idealize.ShloMosaic.Lib.StableHlo.Run

namespace Cert.ReferenceIdeal.Hand

open Idealize.ShloMosaic Idealize.ShloMosaic.StableHlo

variable {τ : Topo} {sig : RefSig} {Val : EltTy → Type}

/-- Running two lines one after the other is running their concatenation. -/
theorem after_app : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

/-- The operation at place j of the line writes only buffers of index n + j. -/
def InOrder : ℕ → List (HloOp τ sig Val) → Prop
  | _, [] => True
  | n, op :: ops => (∀ b ∈ op.writes, b.idx.val = n) ∧ InOrder (n + 1) ops

namespace InOrder

theorem nil (n : ℕ) : InOrder n ([] : List (HloOp τ sig Val)) := trivial

/-- One more operation in front: it writes exactly the buffer of a reference of index n. -/
theorem cons {n : ℕ} {op : HloOp τ sig Val} {ops : List (HloOp τ sig Val)} (y : Ref sig .tc)
    (hw : op.writes = {Proc.devRef .tc y}) (hk : y.idx.val = n) (h : InOrder (n + 1) ops) : InOrder n (op :: ops) :=
  ⟨fun b hb => by rw [hw, Finset.mem_singleton] at hb; subst hb; exact hk, h⟩

/-- Two lines in order, the second starting where the first ends, are in order as one. -/
theorem append : ∀ {n : ℕ} {l₁ l₂ : List (HloOp τ sig Val)}, InOrder n l₁ → InOrder (n + l₁.length) l₂ →
    InOrder n (l₁ ++ l₂)
  | _, [], _, _, h₂ => h₂
  | n, _ :: l₁, l₂, h₁, h₂ =>
    ⟨h₁.1, append h₁.2 (by
      have e : n + 1 + l₁.length = n + (l₁.length + 1) := by omega
      rw [e]; exact h₂)⟩

/-- A buffer of index below the line's first is not written: it keeps its contents. -/
theorem after_lt : ∀ {n : ℕ} {ops : List (HloOp τ sig Val)}, InOrder n ops → ∀ (V : Valuation τ sig Val)
    {b : DevRef τ sig}, b.idx.val < n → after ops V b = V b
  | _, [], _, _, _, _ => rfl
  | n, op :: ops, h, V, b, hb => by
    rw [after_cons, after_lt h.2 _ (Nat.lt_succ_of_lt hb),
      op.result_of_not_mem V (fun hm => by have := h.1 b hm; omega)]

/-- The operation at place i: there are contents W (those just before it) such that the buffers of index n + i end
    at the operation's result from W, and every buffer of smaller index ends at what it holds in W. -/
theorem stage : ∀ {n : ℕ} {ops : List (HloOp τ sig Val)}, InOrder n ops → ∀ (V : Valuation τ sig Val) {i : ℕ}
    {op : HloOp τ sig Val}, ops[i]? = some op →
    ∃ W : Valuation τ sig Val, (∀ b : DevRef τ sig, b.idx.val = n + i → after ops V b = op.result W b) ∧
      (∀ b : DevRef τ sig, b.idx.val < n + i → after ops V b = W b)
  | _, [], _, _, _, _, hop => by simp at hop
  | n, o :: ops, h, V, 0, op, hop => by
    have e : o = op := by simpa using hop
    subst e
    refine ⟨V, fun b hb => ?_, fun b hb => ?_⟩
    · rw [after_cons, h.2.after_lt _ (by omega)]
    · rw [after_cons, h.2.after_lt _ (by omega), o.result_of_not_mem V (fun hm => by have := h.1 b hm; omega)]
  | n, o :: ops, h, V, i + 1, op, hop => by
    have hop' : ops[i]? = some op := by simpa using hop
    obtain ⟨W, h1, h2⟩ := stage h.2 (o.result V) hop'
    exact ⟨W, fun b hb => by rw [after_cons]; exact h1 b (by omega),
      fun b hb => by rw [after_cons]; exact h2 b (by omega)⟩

end InOrder

/-! ## One equation per kind of operation

Vf is the line's final contents from any start W; the operation at place i is given as the list's entry;
its result's index is n + i and its operands' indices are smaller. -/

section Kinds

variable {n : ℕ} {l : List (HloOp τ sig Val)} (h : InOrder n l) {Vf W : Valuation τ sig Val} (hV : Vf = after l W)
  (i : ℕ)
include h hV

theorem stage_nullary (y : Ref sig .tc) (v : y.ty.Contents Val) {hy}
    (hop : l[i]? = some (nullary y v hy)) (ky : y.idx.val = n + i) :
    Vf (Proc.devRef .tc y) = v := by
  subst hV
  obtain ⟨W', h1, _⟩ := h.stage W hop
  rw [h1 _ ky, nullary_result]

theorem stage_unary (x y : Ref sig .tc) (f : x.ty.Contents Val → y.ty.Contents Val) {hx hy}
    (hop : l[i]? = some (unary x y f hx hy)) (ky : y.idx.val = n + i) (kx : x.idx.val < n + i) :
    Vf (Proc.devRef .tc y) = f (Vf (Proc.devRef .tc x)) := by
  subst hV
  obtain ⟨W', h1, h2⟩ := h.stage W hop
  rw [h1 _ ky, unary_result, h2 _ kx]

theorem stage_binary (a b y : Ref sig .tc) (f : a.ty.Contents Val → b.ty.Contents Val → y.ty.Contents Val) {ha hb hy}
    (hop : l[i]? = some (binary a b y f ha hb hy)) (ky : y.idx.val = n + i) (ka : a.idx.val < n + i)
    (kb : b.idx.val < n + i) :
    Vf (Proc.devRef .tc y) = f (Vf (Proc.devRef .tc a)) (Vf (Proc.devRef .tc b)) := by
  subst hV
  obtain ⟨W', h1, h2⟩ := h.stage W hop
  rw [h1 _ ky, binary_result, h2 _ ka, h2 _ kb]

theorem stage_ternary (c a b y : Ref sig .tc)
    (f : c.ty.Contents Val → a.ty.Contents Val → b.ty.Contents Val → y.ty.Contents Val) {hc ha hb hy}
    (hop : l[i]? = some (ternary c a b y f hc ha hb hy)) (ky : y.idx.val = n + i) (kc : c.idx.val < n + i)
    (ka : a.idx.val < n + i) (kb : b.idx.val < n + i) :
    Vf (Proc.devRef .tc y) = f (Vf (Proc.devRef .tc c)) (Vf (Proc.devRef .tc a)) (Vf (Proc.devRef .tc b)) := by
  subst hV
  obtain ⟨W', h1, h2⟩ := h.stage W hop
  rw [h1 _ ky, ternary_result, h2 _ kc, h2 _ ka, h2 _ kb]

theorem stage_reshape (x y : Ref sig .tc) (he : x.ty.elt = y.ty.elt) (hn : x.ty.shape.ShapeCasts y.ty.shape) {hx hy}
    (hop : l[i]? = some (reshape x y he hn hx hy)) (ky : y.idx.val = n + i) (kx : x.idx.val < n + i) :
    Vf (Proc.devRef .tc y) = fun j => he ▸ shapeCast y.ty.shape (Vf (Proc.devRef .tc x)) hn j := by
  subst hV
  obtain ⟨W', h1, h2⟩ := h.stage W hop
  rw [h1 _ ky, reshape_result, h2 _ kx]

end Kinds

/-! ## The same for an operation of a called function

A called function's operation names its buffers by typed references; its function is stated at the references' types
and reaches the buffers' own types by a transport that is the identity at literal references. The equation is the
operation's function over the final contents read at the typed references' types. -/

section TKinds

variable {n : ℕ} {l : List (HloOp τ sig Val)} (h : InOrder n l) {Vf W : Valuation τ sig Val} (hV : Vf = after l W)
  (i : ℕ) {Tx Ta Tb Tc Ty : BufTy}
include h hV

theorem stage_tnullary (y : TRef sig Ty) (v : Ty.Contents Val)
    (hop : l[i]? = some (TRef.nullary y v)) (ky : y.ref.idx.val = n + i) :
    y.ofBuf (Vf (Proc.devRef .tc y.ref)) = v := by
  rw [stage_nullary h hV i y.ref (y.toBuf v) hop ky]
  simp only [TRef.ofBuf, TRef.toBuf, cast_cast, cast_eq]

theorem stage_tunary (x : TRef sig Tx) (y : TRef sig Ty) (f : Tx.Contents Val → Ty.Contents Val)
    (hop : l[i]? = some (TRef.unary x y f)) (ky : y.ref.idx.val = n + i) (kx : x.ref.idx.val < n + i) :
    y.ofBuf (Vf (Proc.devRef .tc y.ref)) = f (x.ofBuf (Vf (Proc.devRef .tc x.ref))) := by
  rw [stage_unary h hV i x.ref y.ref _ hop ky kx]
  simp only [TRef.ofBuf, TRef.toBuf, cast_cast, cast_eq]

theorem stage_tbinary (a : TRef sig Ta) (b : TRef sig Tb) (y : TRef sig Ty)
    (f : Ta.Contents Val → Tb.Contents Val → Ty.Contents Val)
    (hop : l[i]? = some (TRef.binary a b y f)) (ky : y.ref.idx.val = n + i) (ka : a.ref.idx.val < n + i)
    (kb : b.ref.idx.val < n + i) :
    y.ofBuf (Vf (Proc.devRef .tc y.ref))
      = f (a.ofBuf (Vf (Proc.devRef .tc a.ref))) (b.ofBuf (Vf (Proc.devRef .tc b.ref))) := by
  rw [stage_binary h hV i a.ref b.ref y.ref _ hop ky ka kb]
  simp only [TRef.ofBuf, TRef.toBuf, cast_cast, cast_eq]

theorem stage_tternary (c : TRef sig Tc) (a : TRef sig Ta) (b : TRef sig Tb) (y : TRef sig Ty)
    (f : Tc.Contents Val → Ta.Contents Val → Tb.Contents Val → Ty.Contents Val)
    (hop : l[i]? = some (TRef.ternary c a b y f)) (ky : y.ref.idx.val = n + i) (kc : c.ref.idx.val < n + i)
    (ka : a.ref.idx.val < n + i) (kb : b.ref.idx.val < n + i) :
    y.ofBuf (Vf (Proc.devRef .tc y.ref))
      = f (c.ofBuf (Vf (Proc.devRef .tc c.ref))) (a.ofBuf (Vf (Proc.devRef .tc a.ref)))
          (b.ofBuf (Vf (Proc.devRef .tc b.ref))) := by
  rw [stage_ternary h hV i c.ref a.ref b.ref y.ref _ hop ky kc ka kb]
  simp only [TRef.ofBuf, TRef.toBuf, cast_cast, cast_eq]

end TKinds

end Cert.ReferenceIdeal.Hand
-- ==== Proof.Ref.Order0.lean ====
import proofs.«421025_j30305289241172_1_alg».proof.Proof.Ref.Ops0
import proofs.«421025_j30305289241172_1_alg».proof.Proof.Ref.StageKit

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Window 0's operation at place j writes exactly the buffer of index 16 + j. -/
theorem ops0_inOrder : InOrder 16 (ops0 : List (HloOp τ sig (Elt F))) := by
  refine .cons main_v0 rfl rfl ?_
  refine .cons main_v1 rfl rfl ?_
  refine .cons main_v2 rfl rfl ?_
  refine .cons main_v3 rfl rfl ?_
  refine .cons main_cst rfl rfl ?_
  refine .cons main_v4 rfl rfl ?_
  refine .cons main_c rfl rfl ?_
  refine .cons main_v5 rfl rfl ?_
  refine .cons main_v6 rfl rfl ?_
  refine .cons main_c_0 rfl rfl ?_
  refine .cons main_v7 rfl rfl ?_
  refine .cons main_v8 rfl rfl ?_
  refine .cons main_v9 rfl rfl ?_
  refine .cons main_v10 rfl rfl ?_
  refine .cons main_cst_1 rfl rfl ?_
  refine .cons main_v11 rfl rfl ?_
  refine .cons main_v12 rfl rfl ?_
  refine .cons main_cst_2 rfl rfl ?_
  refine .cons main_v13 rfl rfl ?_
  refine .cons main_v14 rfl rfl ?_
  refine .cons main_v15 rfl rfl ?_
  refine .cons main_cst_3 rfl rfl ?_
  refine .cons main_v16 rfl rfl ?_
  refine .cons main_v17 rfl rfl ?_
  refine .cons main_v18 rfl rfl ?_
  refine .cons main_c_4 rfl rfl ?_
  refine .cons main_v19 rfl rfl ?_
  refine .cons main_v20 rfl rfl ?_
  refine .cons main_c_5 rfl rfl ?_
  refine .cons main_v21 rfl rfl ?_
  refine .cons main_v22 rfl rfl ?_
  refine .cons main_v23 rfl rfl ?_
  refine .cons main_v24 rfl rfl ?_
  refine .cons main_v25 rfl rfl ?_
  refine .cons main_c_6 rfl rfl ?_
  refine .cons main_v26 rfl rfl ?_
  refine .cons main_v27 rfl rfl ?_
  refine .cons main_c_7 rfl rfl ?_
  refine .cons main_v28 rfl rfl ?_
  refine .cons main_v29 rfl rfl ?_
  refine .cons main_v30 rfl rfl ?_
  refine .cons main_v31 rfl rfl ?_
  refine .cons main_v32 rfl rfl ?_
  refine .cons main_v33 rfl rfl ?_
  refine .cons main_call0_c rfl rfl ?_
  refine .cons main_call0_v0 rfl rfl ?_
  refine .cons main_call0_v1 rfl rfl ?_
  refine .cons main_call0_c_0 rfl rfl ?_
  refine .cons main_call0_v2 rfl rfl ?_
  refine .cons main_call0_v3 rfl rfl ?_
  refine .cons main_call0_v4 rfl rfl ?_
  refine .cons main_call0_v5 rfl rfl ?_
  refine .cons main_call0_c_1 rfl rfl ?_
  refine .cons main_call0_c_2 rfl rfl ?_
  refine .cons main_call0_v6 rfl rfl ?_
  refine .cons main_call0_v7 rfl rfl ?_
  refine .cons main_call0_v8 rfl rfl ?_
  refine .cons main_call0_v9 rfl rfl ?_
  refine .cons main_call0_v10 rfl rfl ?_
  refine .cons main_call0_v11 rfl rfl ?_
  refine .cons main_call0_c_3 rfl rfl ?_
  refine .cons main_call0_v12 rfl rfl ?_
  refine .cons main_call0_v13 rfl rfl ?_
  refine .cons main_call0_v14 rfl rfl ?_
  refine .cons main_call0_cst rfl rfl ?_
  refine .cons main_call0_v15 rfl rfl ?_
  refine .cons main_v34 rfl rfl ?_
  refine .cons main_v35 rfl rfl ?_
  refine .cons main_v36 rfl rfl ?_
  refine .cons main_v37 rfl rfl ?_
  refine .cons main_cst_8 rfl rfl ?_
  refine .cons main_v38 rfl rfl ?_
  refine .cons main_c_9 rfl rfl ?_
  refine .cons main_v39 rfl rfl ?_
  refine .cons main_v40 rfl rfl ?_
  refine .cons main_c_10 rfl rfl ?_
  refine .cons main_v41 rfl rfl ?_
  refine .cons main_v42 rfl rfl ?_
  refine .cons main_v43 rfl rfl ?_
  refine .cons main_v44 rfl rfl ?_
  refine .cons main_v45 rfl rfl ?_
  refine .cons main_v46 rfl rfl ?_
  exact .nil _

end Cert.ReferenceIdeal.Hand

end
-- ==== Proof.Ref.Order1.lean ====
import proofs.«421025_j30305289241172_1_alg».proof.Proof.Ref.Ops1
import proofs.«421025_j30305289241172_1_alg».proof.Proof.Ref.StageKit

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Window 1's operation at place j writes exactly the buffer of index 98 + j. -/
theorem ops1_inOrder : InOrder 98 (ops1 : List (HloOp τ sig (Elt F))) := by
  refine .cons main_v47 rfl rfl ?_
  refine .cons main_v48 rfl rfl ?_
  refine .cons main_v49 rfl rfl ?_
  refine .cons main_v50 rfl rfl ?_
  refine .cons main_v51 rfl rfl ?_
  refine .cons main_v52 rfl rfl ?_
  refine .cons main_v53 rfl rfl ?_
  refine .cons main_c_11 rfl rfl ?_
  refine .cons main_v54 rfl rfl ?_
  refine .cons main_v55 rfl rfl ?_
  refine .cons main_c_12 rfl rfl ?_
  refine .cons main_v56 rfl rfl ?_
  refine .cons main_v57 rfl rfl ?_
  refine .cons main_v58 rfl rfl ?_
  refine .cons main_v59 rfl rfl ?_
  refine .cons main_v60 rfl rfl ?_
  refine .cons main_c_13 rfl rfl ?_
  refine .cons main_v61 rfl rfl ?_
  refine .cons main_v62 rfl rfl ?_
  refine .cons main_c_14 rfl rfl ?_
  refine .cons main_v63 rfl rfl ?_
  refine .cons main_v64 rfl rfl ?_
  refine .cons main_v65 rfl rfl ?_
  refine .cons main_v66 rfl rfl ?_
  refine .cons main_v67 rfl rfl ?_
  refine .cons main_v68 rfl rfl ?_
  refine .cons main_call1_c rfl rfl ?_
  refine .cons main_call1_v0 rfl rfl ?_
  refine .cons main_call1_v1 rfl rfl ?_
  refine .cons main_call1_c_0 rfl rfl ?_
  refine .cons main_call1_v2 rfl rfl ?_
  refine .cons main_call1_v3 rfl rfl ?_
  refine .cons main_call1_v4 rfl rfl ?_
  refine .cons main_call1_v5 rfl rfl ?_
  refine .cons main_call1_c_1 rfl rfl ?_
  refine .cons main_call1_c_2 rfl rfl ?_
  refine .cons main_call1_v6 rfl rfl ?_
  refine .cons main_call1_v7 rfl rfl ?_
  refine .cons main_call1_v8 rfl rfl ?_
  refine .cons main_call1_v9 rfl rfl ?_
  refine .cons main_call1_v10 rfl rfl ?_
  refine .cons main_call1_v11 rfl rfl ?_
  refine .cons main_call1_c_3 rfl rfl ?_
  refine .cons main_call1_v12 rfl rfl ?_
  refine .cons main_call1_v13 rfl rfl ?_
  refine .cons main_call1_v14 rfl rfl ?_
  refine .cons main_call1_cst rfl rfl ?_
  refine .cons main_call1_v15 rfl rfl ?_
  refine .cons main_v69 rfl rfl ?_
  refine .cons main_v70 rfl rfl ?_
  refine .cons main_v71 rfl rfl ?_
  refine .cons main_v72 rfl rfl ?_
  refine .cons main_cst_15 rfl rfl ?_
  refine .cons main_v73 rfl rfl ?_
  refine .cons main_c_16 rfl rfl ?_
  refine .cons main_v74 rfl rfl ?_
  refine .cons main_v75 rfl rfl ?_
  refine .cons main_c_17 rfl rfl ?_
  refine .cons main_v76 rfl rfl ?_
  refine .cons main_v77 rfl rfl ?_
  refine .cons main_v78 rfl rfl ?_
  refine .cons main_v79 rfl rfl ?_
  refine .cons main_v80 rfl rfl ?_
  refine .cons main_v81 rfl rfl ?_
  refine .cons main_v82 rfl rfl ?_
  refine .cons main_v83 rfl rfl ?_
  refine .cons main_v84 rfl rfl ?_
  refine .cons main_v85 rfl rfl ?_
  refine .cons main_v86 rfl rfl ?_
  refine .cons main_v87 rfl rfl ?_
  refine .cons main_cst_18 rfl rfl ?_
  refine .cons main_v88 rfl rfl ?_
  refine .cons main_v89 rfl rfl ?_
  refine .cons main_cst_19 rfl rfl ?_
  refine .cons main_v90 rfl rfl ?_
  refine .cons main_v91 rfl rfl ?_
  refine .cons main_v92 rfl rfl ?_
  refine .cons main_v93 rfl rfl ?_
  refine .cons main_c_20 rfl rfl ?_
  refine .cons main_v94 rfl rfl ?_
  refine .cons main_v95 rfl rfl ?_
  refine .cons main_c_21 rfl rfl ?_
  exact .nil _

end Cert.ReferenceIdeal.Hand

end
-- ==== Proof.Ref.Order2.lean ====
import proofs.«421025_j30305289241172_1_alg».proof.Proof.Ref.Ops2
import proofs.«421025_j30305289241172_1_alg».proof.Proof.Ref.StageKit

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Window 2's operation at place j writes exactly the buffer of index 180 + j. -/
theorem ops2_inOrder : InOrder 180 (ops2 : List (HloOp τ sig (Elt F))) := by
  refine .cons main_v96 rfl rfl ?_
  refine .cons main_v97 rfl rfl ?_
  refine .cons main_v98 rfl rfl ?_
  refine .cons main_v99 rfl rfl ?_
  refine .cons main_v100 rfl rfl ?_
  refine .cons main_c_22 rfl rfl ?_
  refine .cons main_v101 rfl rfl ?_
  refine .cons main_v102 rfl rfl ?_
  refine .cons main_c_23 rfl rfl ?_
  refine .cons main_v103 rfl rfl ?_
  refine .cons main_v104 rfl rfl ?_
  refine .cons main_v105 rfl rfl ?_
  refine .cons main_v106 rfl rfl ?_
  refine .cons main_v107 rfl rfl ?_
  refine .cons main_v108 rfl rfl ?_
  refine .cons main_call3_c rfl rfl ?_
  refine .cons main_call3_v0 rfl rfl ?_
  refine .cons main_call3_v1 rfl rfl ?_
  refine .cons main_call3_c_0 rfl rfl ?_
  refine .cons main_call3_v2 rfl rfl ?_
  refine .cons main_call3_v3 rfl rfl ?_
  refine .cons main_call3_v4 rfl rfl ?_
  refine .cons main_call3_v5 rfl rfl ?_
  refine .cons main_call3_c_1 rfl rfl ?_
  refine .cons main_call3_c_2 rfl rfl ?_
  refine .cons main_call3_v6 rfl rfl ?_
  refine .cons main_call3_v7 rfl rfl ?_
  refine .cons main_call3_v8 rfl rfl ?_
  refine .cons main_call3_v9 rfl rfl ?_
  refine .cons main_call3_v10 rfl rfl ?_
  refine .cons main_call3_v11 rfl rfl ?_
  refine .cons main_call3_c_3 rfl rfl ?_
  refine .cons main_call3_v12 rfl rfl ?_
  refine .cons main_call3_v13 rfl rfl ?_
  refine .cons main_call3_v14 rfl rfl ?_
  refine .cons main_call3_cst rfl rfl ?_
  refine .cons main_call3_v15 rfl rfl ?_
  refine .cons main_v109 rfl rfl ?_
  refine .cons main_v110 rfl rfl ?_
  refine .cons main_v111 rfl rfl ?_
  refine .cons main_v112 rfl rfl ?_
  refine .cons main_cst_24 rfl rfl ?_
  refine .cons main_v113 rfl rfl ?_
  refine .cons main_c_25 rfl rfl ?_
  refine .cons main_v114 rfl rfl ?_
  refine .cons main_v115 rfl rfl ?_
  refine .cons main_c_26 rfl rfl ?_
  refine .cons main_v116 rfl rfl ?_
  refine .cons main_v117 rfl rfl ?_
  refine .cons main_v118 rfl rfl ?_
  refine .cons main_v119 rfl rfl ?_
  refine .cons main_v120 rfl rfl ?_
  refine .cons main_v121 rfl rfl ?_
  refine .cons main_v122 rfl rfl ?_
  refine .cons main_v123 rfl rfl ?_
  refine .cons main_v124 rfl rfl ?_
  refine .cons main_v125 rfl rfl ?_
  refine .cons main_v126 rfl rfl ?_
  refine .cons main_v127 rfl rfl ?_
  refine .cons main_v128 rfl rfl ?_
  refine .cons main_c_27 rfl rfl ?_
  refine .cons main_v129 rfl rfl ?_
  refine .cons main_v130 rfl rfl ?_
  refine .cons main_c_28 rfl rfl ?_
  refine .cons main_v131 rfl rfl ?_
  refine .cons main_v132 rfl rfl ?_
  refine .cons main_v133 rfl rfl ?_
  refine .cons main_v134 rfl rfl ?_
  refine .cons main_v135 rfl rfl ?_
  refine .cons main_c_29 rfl rfl ?_
  refine .cons main_v136 rfl rfl ?_
  refine .cons main_v137 rfl rfl ?_
  refine .cons main_c_30 rfl rfl ?_
  refine .cons main_v138 rfl rfl ?_
  refine .cons main_v139 rfl rfl ?_
  refine .cons main_v140 rfl rfl ?_
  refine .cons main_v141 rfl rfl ?_
  refine .cons main_v142 rfl rfl ?_
  refine .cons main_v143 rfl rfl ?_
  refine .cons main_call4_c rfl rfl ?_
  refine .cons main_call4_v0 rfl rfl ?_
  refine .cons main_call4_v1 rfl rfl ?_
  refine .cons main_call4_c_0 rfl rfl ?_
  refine .cons main_call4_v2 rfl rfl ?_
  refine .cons main_call4_v3 rfl rfl ?_
  refine .cons main_call4_v4 rfl rfl ?_
  refine .cons main_call4_v5 rfl rfl ?_
  refine .cons main_call4_c_1 rfl rfl ?_
  refine .cons main_call4_c_2 rfl rfl ?_
  refine .cons main_call4_v6 rfl rfl ?_
  refine .cons main_call4_v7 rfl rfl ?_
  refine .cons main_call4_v8 rfl rfl ?_
  refine .cons main_call4_v9 rfl rfl ?_
  refine .cons main_call4_v10 rfl rfl ?_
  refine .cons main_call4_v11 rfl rfl ?_
  refine .cons main_call4_c_3 rfl rfl ?_
  refine .cons main_call4_v12 rfl rfl ?_
  refine .cons main_call4_v13 rfl rfl ?_
  refine .cons main_call4_v14 rfl rfl ?_
  refine .cons main_call4_cst rfl rfl ?_
  refine .cons main_call4_v15 rfl rfl ?_
  refine .cons main_v144 rfl rfl ?_
  refine .cons main_v145 rfl rfl ?_
  refine .cons main_v146 rfl rfl ?_
  exact .nil _

end Cert.ReferenceIdeal.Hand

end
-- ==== Proof.Ref.Order3.lean ====
import proofs.«421025_j30305289241172_1_alg».proof.Proof.Ref.Ops3
import proofs.«421025_j30305289241172_1_alg».proof.Proof.Ref.StageKit

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Window 3's operation at place j writes exactly the buffer of index 284 + j. -/
theorem ops3_inOrder : InOrder 284 (ops3 : List (HloOp τ sig (Elt F))) := by
  refine .cons main_v147 rfl rfl ?_
  refine .cons main_cst_31 rfl rfl ?_
  refine .cons main_v148 rfl rfl ?_
  refine .cons main_c_32 rfl rfl ?_
  refine .cons main_v149 rfl rfl ?_
  refine .cons main_v150 rfl rfl ?_
  refine .cons main_c_33 rfl rfl ?_
  refine .cons main_v151 rfl rfl ?_
  refine .cons main_v152 rfl rfl ?_
  refine .cons main_v153 rfl rfl ?_
  refine .cons main_v154 rfl rfl ?_
  refine .cons main_v155 rfl rfl ?_
  refine .cons main_v156 rfl rfl ?_
  refine .cons main_v157 rfl rfl ?_
  refine .cons main_v158 rfl rfl ?_
  refine .cons main_v159 rfl rfl ?_
  refine .cons main_v160 rfl rfl ?_
  refine .cons main_v161 rfl rfl ?_
  refine .cons main_v162 rfl rfl ?_
  refine .cons main_cst_34 rfl rfl ?_
  refine .cons main_v163 rfl rfl ?_
  refine .cons main_v164 rfl rfl ?_
  refine .cons main_cst_35 rfl rfl ?_
  refine .cons main_v165 rfl rfl ?_
  refine .cons main_v166 rfl rfl ?_
  refine .cons main_v167 rfl rfl ?_
  refine .cons main_v168 rfl rfl ?_
  refine .cons main_c_36 rfl rfl ?_
  refine .cons main_v169 rfl rfl ?_
  refine .cons main_v170 rfl rfl ?_
  refine .cons main_c_37 rfl rfl ?_
  refine .cons main_v171 rfl rfl ?_
  refine .cons main_v172 rfl rfl ?_
  refine .cons main_v173 rfl rfl ?_
  refine .cons main_v174 rfl rfl ?_
  refine .cons main_v175 rfl rfl ?_
  refine .cons main_c_38 rfl rfl ?_
  refine .cons main_v176 rfl rfl ?_
  refine .cons main_v177 rfl rfl ?_
  refine .cons main_c_39 rfl rfl ?_
  refine .cons main_v178 rfl rfl ?_
  refine .cons main_v179 rfl rfl ?_
  refine .cons main_v180 rfl rfl ?_
  refine .cons main_v181 rfl rfl ?_
  refine .cons main_v182 rfl rfl ?_
  refine .cons main_v183 rfl rfl ?_
  refine .cons main_call6_c rfl rfl ?_
  refine .cons main_call6_v0 rfl rfl ?_
  refine .cons main_call6_v1 rfl rfl ?_
  refine .cons main_call6_c_0 rfl rfl ?_
  refine .cons main_call6_v2 rfl rfl ?_
  refine .cons main_call6_v3 rfl rfl ?_
  refine .cons main_call6_v4 rfl rfl ?_
  refine .cons main_call6_v5 rfl rfl ?_
  refine .cons main_call6_c_1 rfl rfl ?_
  refine .cons main_call6_c_2 rfl rfl ?_
  refine .cons main_call6_v6 rfl rfl ?_
  refine .cons main_call6_v7 rfl rfl ?_
  refine .cons main_call6_v8 rfl rfl ?_
  refine .cons main_call6_v9 rfl rfl ?_
  refine .cons main_call6_v10 rfl rfl ?_
  refine .cons main_call6_v11 rfl rfl ?_
  refine .cons main_call6_c_3 rfl rfl ?_
  refine .cons main_call6_v12 rfl rfl ?_
  refine .cons main_call6_v13 rfl rfl ?_
  refine .cons main_call6_v14 rfl rfl ?_
  refine .cons main_call6_cst rfl rfl ?_
  refine .cons main_call6_v15 rfl rfl ?_
  refine .cons main_v184 rfl rfl ?_
  refine .cons main_v185 rfl rfl ?_
  refine .cons main_v186 rfl rfl ?_
  refine .cons main_v187 rfl rfl ?_
  refine .cons main_cst_40 rfl rfl ?_
  refine .cons main_v188 rfl rfl ?_
  refine .cons main_c_41 rfl rfl ?_
  refine .cons main_v189 rfl rfl ?_
  refine .cons main_v190 rfl rfl ?_
  refine .cons main_c_42 rfl rfl ?_
  refine .cons main_v191 rfl rfl ?_
  refine .cons main_v192 rfl rfl ?_
  refine .cons main_v193 rfl rfl ?_
  refine .cons main_v194 rfl rfl ?_
  exact .nil _

end Cert.ReferenceIdeal.Hand

end
-- ==== Proof.Ref.Order4.lean ====
import proofs.«421025_j30305289241172_1_alg».proof.Proof.Ref.Ops4
import proofs.«421025_j30305289241172_1_alg».proof.Proof.Ref.StageKit

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Window 4's operation at place j writes exactly the buffer of index 366 + j. -/
theorem ops4_inOrder : InOrder 366 (ops4 : List (HloOp τ sig (Elt F))) := by
  refine .cons main_v195 rfl rfl ?_
  refine .cons main_v196 rfl rfl ?_
  refine .cons main_v197 rfl rfl ?_
  refine .cons main_v198 rfl rfl ?_
  refine .cons main_v199 rfl rfl ?_
  refine .cons main_v200 rfl rfl ?_
  refine .cons main_v201 rfl rfl ?_
  refine .cons main_v202 rfl rfl ?_
  refine .cons main_v203 rfl rfl ?_
  refine .cons main_c_43 rfl rfl ?_
  refine .cons main_v204 rfl rfl ?_
  refine .cons main_v205 rfl rfl ?_
  refine .cons main_c_44 rfl rfl ?_
  refine .cons main_v206 rfl rfl ?_
  refine .cons main_v207 rfl rfl ?_
  refine .cons main_v208 rfl rfl ?_
  refine .cons main_v209 rfl rfl ?_
  refine .cons main_v210 rfl rfl ?_
  refine .cons main_c_45 rfl rfl ?_
  refine .cons main_v211 rfl rfl ?_
  refine .cons main_v212 rfl rfl ?_
  refine .cons main_c_46 rfl rfl ?_
  refine .cons main_v213 rfl rfl ?_
  refine .cons main_v214 rfl rfl ?_
  refine .cons main_v215 rfl rfl ?_
  refine .cons main_v216 rfl rfl ?_
  refine .cons main_v217 rfl rfl ?_
  refine .cons main_v218 rfl rfl ?_
  refine .cons main_call7_c rfl rfl ?_
  refine .cons main_call7_v0 rfl rfl ?_
  refine .cons main_call7_v1 rfl rfl ?_
  refine .cons main_call7_c_0 rfl rfl ?_
  refine .cons main_call7_v2 rfl rfl ?_
  refine .cons main_call7_v3 rfl rfl ?_
  refine .cons main_call7_v4 rfl rfl ?_
  refine .cons main_call7_v5 rfl rfl ?_
  refine .cons main_call7_c_1 rfl rfl ?_
  refine .cons main_call7_c_2 rfl rfl ?_
  refine .cons main_call7_v6 rfl rfl ?_
  refine .cons main_call7_v7 rfl rfl ?_
  refine .cons main_call7_v8 rfl rfl ?_
  refine .cons main_call7_v9 rfl rfl ?_
  refine .cons main_call7_v10 rfl rfl ?_
  refine .cons main_call7_v11 rfl rfl ?_
  refine .cons main_call7_c_3 rfl rfl ?_
  refine .cons main_call7_v12 rfl rfl ?_
  refine .cons main_call7_v13 rfl rfl ?_
  refine .cons main_call7_v14 rfl rfl ?_
  refine .cons main_call7_cst rfl rfl ?_
  refine .cons main_call7_v15 rfl rfl ?_
  refine .cons main_v219 rfl rfl ?_
  refine .cons main_v220 rfl rfl ?_
  refine .cons main_v221 rfl rfl ?_
  refine .cons main_v222 rfl rfl ?_
  refine .cons main_cst_47 rfl rfl ?_
  refine .cons main_v223 rfl rfl ?_
  refine .cons main_c_48 rfl rfl ?_
  refine .cons main_v224 rfl rfl ?_
  refine .cons main_v225 rfl rfl ?_
  refine .cons main_c_49 rfl rfl ?_
  refine .cons main_v226 rfl rfl ?_
  refine .cons main_v227 rfl rfl ?_
  refine .cons main_v228 rfl rfl ?_
  refine .cons main_v229 rfl rfl ?_
  refine .cons main_v230 rfl rfl ?_
  refine .cons main_v231 rfl rfl ?_
  refine .cons main_v232 rfl rfl ?_
  refine .cons main_v233 rfl rfl ?_
  refine .cons main_v234 rfl rfl ?_
  refine .cons main_v235 rfl rfl ?_
  refine .cons main_v236 rfl rfl ?_
  refine .cons main_v237 rfl rfl ?_
  refine .cons main_cst_50 rfl rfl ?_
  refine .cons main_v238 rfl rfl ?_
  refine .cons main_v239 rfl rfl ?_
  refine .cons main_cst_51 rfl rfl ?_
  refine .cons main_v240 rfl rfl ?_
  refine .cons main_v241 rfl rfl ?_
  refine .cons main_v242 rfl rfl ?_
  refine .cons main_v243 rfl rfl ?_
  refine .cons main_v244 rfl rfl ?_
  refine .cons main_v245 rfl rfl ?_
  exact .nil _

end Cert.ReferenceIdeal.Hand

end
-- ==== Proof.Ref.Order5.lean ====
import proofs.«421025_j30305289241172_1_alg».proof.Proof.Ref.Ops5
import proofs.«421025_j30305289241172_1_alg».proof.Proof.Ref.StageKit

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Window 5's operation at place j writes exactly the buffer of index 448 + j. -/
theorem ops5_inOrder : InOrder 448 (ops5 : List (HloOp τ sig (Elt F))) := by
  refine .cons main_v246 rfl rfl ?_
  refine .cons main_v247 rfl rfl ?_
  refine .cons main_v248 rfl rfl ?_
  refine .cons main_v249 rfl rfl ?_
  refine .cons main_cst_52 rfl rfl ?_
  refine .cons main_v250 rfl rfl ?_
  refine .cons main_v251 rfl rfl ?_
  exact .nil _

end Cert.ReferenceIdeal.Hand

end
-- ==== Proof.Ref.StageBase.lean ====
/- The reference's line read window by window. Its 439 operations are its six windows' lists in order, and each value
   of the program has a buffer of its own whose index is its place in the program: window J's first operation writes
   the buffer of index 16, 98, 180, 284, 366, 448 for J = 0 … 5. So the line from window J on is in order from that
   index (the window's own order, then the rest's), and the line's final contents are that rest of the line run from
   what the windows before J leave: the two facts the stage equations of window J are read off. No operation writes
   a buffer of index below 16: the sixteen arguments end at what the launch gave them. -/
import proofs.«421025_j30305289241172_1_alg».proof.Proof.Ref.Run
import proofs.«421025_j30305289241172_1_alg».proof.Proof.Ref.Order0
import proofs.«421025_j30305289241172_1_alg».proof.Proof.Ref.Order1
import proofs.«421025_j30305289241172_1_alg».proof.Proof.Ref.Order2
import proofs.«421025_j30305289241172_1_alg».proof.Proof.Ref.Order3
import proofs.«421025_j30305289241172_1_alg».proof.Proof.Ref.Order4
import proofs.«421025_j30305289241172_1_alg».proof.Proof.Ref.Order5

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The line from window 5 on is in order from index 448. -/
theorem tail5_inOrder : InOrder 448 (ops5 : List (HloOp τ sig (Elt F))) := ops5_inOrder

/-- The line from window 4 on is in order from index 366: the window's 82 operations, then the rest from index 448. -/
theorem tail4_inOrder : InOrder 366 (ops4 ++ ops5 : List (HloOp τ sig (Elt F))) :=
  ops4_inOrder.append (tail5_inOrder (F := F))

/-- The line from window 3 on is in order from index 284: the window's 82 operations, then the rest from index 366. -/
theorem tail3_inOrder : InOrder 284 (ops3 ++ (ops4 ++ ops5) : List (HloOp τ sig (Elt F))) :=
  ops3_inOrder.append (tail4_inOrder (F := F))

/-- The line from window 2 on is in order from index 180: the window's 104 operations, then the rest from index 284. -/
theorem tail2_inOrder : InOrder 180 (ops2 ++ (ops3 ++ (ops4 ++ ops5)) : List (HloOp τ sig (Elt F))) :=
  ops2_inOrder.append (tail3_inOrder (F := F))

/-- The line from window 1 on is in order from index 98: the window's 82 operations, then the rest from index 180. -/
theorem tail1_inOrder : InOrder 98 (ops1 ++ (ops2 ++ (ops3 ++ (ops4 ++ ops5))) : List (HloOp τ sig (Elt F))) :=
  ops1_inOrder.append (tail2_inOrder (F := F))

/-- The line from window 0 on is in order from index 16: the window's 82 operations, then the rest from index 98. -/
theorem tail0_inOrder : InOrder 16 (ops0 ++ (ops1 ++ (ops2 ++ (ops3 ++ (ops4 ++ ops5)))) : List (HloOp τ sig (Elt F))) :=
  ops0_inOrder.append (tail1_inOrder (F := F))

variable (V0 : Valuation τ sig (Elt F))

/-- What the device's buffers hold after the reference's whole line, from contents V0. -/
abbrev Vfin : Valuation τ sig (Elt F) := StableHlo.after ops V0

theorem Vfin_eq0 : Vfin V0 = after (ops0 ++ (ops1 ++ (ops2 ++ (ops3 ++ (ops4 ++ ops5))))) V0 := rfl
theorem Vfin_eq1 : Vfin V0 = after (ops1 ++ (ops2 ++ (ops3 ++ (ops4 ++ ops5)))) (after ops0 V0) := by
  rw [Vfin_eq0, after_app]
theorem Vfin_eq2 : Vfin V0 = after (ops2 ++ (ops3 ++ (ops4 ++ ops5))) (after ops1 (after ops0 V0)) := by
  rw [Vfin_eq1, after_app]
theorem Vfin_eq3 : Vfin V0 = after (ops3 ++ (ops4 ++ ops5)) (after ops2 (after ops1 (after ops0 V0))) := by
  rw [Vfin_eq2, after_app]
theorem Vfin_eq4 : Vfin V0 = after (ops4 ++ ops5) (after ops3 (after ops2 (after ops1 (after ops0 V0)))) := by
  rw [Vfin_eq3, after_app]
theorem Vfin_eq5 : Vfin V0 = after (ops5) (after ops4 (after ops3 (after ops2 (after ops1 (after ops0 V0))))) := by
  rw [Vfin_eq4, after_app]

/-! No operation writes an argument: an argument's buffer ends at what the launch gave it. -/
theorem st_main_arg0 : Vfin V0 (Proc.devRef .tc main_arg0) = V0 (Proc.devRef .tc main_arg0) :=
  (tail0_inOrder (F := F)).after_lt V0 (by decide)
theorem st_main_arg1 : Vfin V0 (Proc.devRef .tc main_arg1) = V0 (Proc.devRef .tc main_arg1) :=
  (tail0_inOrder (F := F)).after_lt V0 (by decide)
theorem st_main_arg2 : Vfin V0 (Proc.devRef .tc main_arg2) = V0 (Proc.devRef .tc main_arg2) :=
  (tail0_inOrder (F := F)).after_lt V0 (by decide)
theorem st_main_arg3 : Vfin V0 (Proc.devRef .tc main_arg3) = V0 (Proc.devRef .tc main_arg3) :=
  (tail0_inOrder (F := F)).after_lt V0 (by decide)
theorem st_main_arg4 : Vfin V0 (Proc.devRef .tc main_arg4) = V0 (Proc.devRef .tc main_arg4) :=
  (tail0_inOrder (F := F)).after_lt V0 (by decide)
theorem st_main_arg5 : Vfin V0 (Proc.devRef .tc main_arg5) = V0 (Proc.devRef .tc main_arg5) :=
  (tail0_inOrder (F := F)).after_lt V0 (by decide)
theorem st_main_arg6 : Vfin V0 (Proc.devRef .tc main_arg6) = V0 (Proc.devRef .tc main_arg6) :=
  (tail0_inOrder (F := F)).after_lt V0 (by decide)
theorem st_main_arg7 : Vfin V0 (Proc.devRef .tc main_arg7) = V0 (Proc.devRef .tc main_arg7) :=
  (tail0_inOrder (F := F)).after_lt V0 (by decide)
theorem st_main_arg8 : Vfin V0 (Proc.devRef .tc main_arg8) = V0 (Proc.devRef .tc main_arg8) :=
  (tail0_inOrder (F := F)).after_lt V0 (by decide)
theorem st_main_arg9 : Vfin V0 (Proc.devRef .tc main_arg9) = V0 (Proc.devRef .tc main_arg9) :=
  (tail0_inOrder (F := F)).after_lt V0 (by decide)
theorem st_main_arg10 : Vfin V0 (Proc.devRef .tc main_arg10) = V0 (Proc.devRef .tc main_arg10) :=
  (tail0_inOrder (F := F)).after_lt V0 (by decide)
theorem st_main_arg11 : Vfin V0 (Proc.devRef .tc main_arg11) = V0 (Proc.devRef .tc main_arg11) :=
  (tail0_inOrder (F := F)).after_lt V0 (by decide)
theorem st_main_arg12 : Vfin V0 (Proc.devRef .tc main_arg12) = V0 (Proc.devRef .tc main_arg12) :=
  (tail0_inOrder (F := F)).after_lt V0 (by decide)
theorem st_main_arg13 : Vfin V0 (Proc.devRef .tc main_arg13) = V0 (Proc.devRef .tc main_arg13) :=
  (tail0_inOrder (F := F)).after_lt V0 (by decide)
theorem st_main_arg14 : Vfin V0 (Proc.devRef .tc main_arg14) = V0 (Proc.devRef .tc main_arg14) :=
  (tail0_inOrder (F := F)).after_lt V0 (by decide)
theorem st_main_arg15 : Vfin V0 (Proc.devRef .tc main_arg15) = V0 (Proc.devRef .tc main_arg15) :=
  (tail0_inOrder (F := F)).after_lt V0 (by decide)

end Cert.ReferenceIdeal.Hand

end
-- ==== Proof.Ref.Stages0.lean ====
import proofs.«421025_j30305289241172_1_alg».proof.Proof.Ref.StageBase

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F] (V0 : Valuation τ sig (Elt F))

theorem st_main_v0 : Vfin V0 (Proc.devRef .tc main_v0) = ((extractStridedSlice S1x12288 ![0, 0] · slices_S2x12288_S1x12288_0_0) : (⟨S2x12288, .i32⟩ : BufTy).Contents (Elt F) → (⟨S1x12288, .i32⟩ : BufTy).Contents (Elt F)) (Vfin V0 (Proc.devRef .tc main_arg1)) :=
  stage_unary (tail0_inOrder (F := F)) (Vfin_eq0 V0) 0 main_arg1 main_v0 ((extractStridedSlice S1x12288 ![0, 0] · slices_S2x12288_S1x12288_0_0) : (⟨S2x12288, .i32⟩ : BufTy).Contents (Elt F) → (⟨S1x12288, .i32⟩ : BufTy).Contents (Elt F)) rfl (by decide) (by decide)

theorem st_main_v1 : Vfin V0 (Proc.devRef .tc main_v1) = shapeCast S12288 (Vfin V0 (Proc.devRef .tc main_v0)) shapeCasts_S1x12288_S12288 :=
  stage_reshape (tail0_inOrder (F := F)) (Vfin_eq0 V0) 1 main_v0 main_v1 rfl shapeCasts_S1x12288_S12288 rfl (by decide) (by decide)

theorem st_main_v2 : Vfin V0 (Proc.devRef .tc main_v2) = ((extractStridedSlice S1x12288 ![1, 0] · slices_S2x12288_S1x12288_1_0) : (⟨S2x12288, .i32⟩ : BufTy).Contents (Elt F) → (⟨S1x12288, .i32⟩ : BufTy).Contents (Elt F)) (Vfin V0 (Proc.devRef .tc main_arg1)) :=
  stage_unary (tail0_inOrder (F := F)) (Vfin_eq0 V0) 2 main_arg1 main_v2 ((extractStridedSlice S1x12288 ![1, 0] · slices_S2x12288_S1x12288_1_0) : (⟨S2x12288, .i32⟩ : BufTy).Contents (Elt F) → (⟨S1x12288, .i32⟩ : BufTy).Contents (Elt F)) rfl (by decide) (by decide)

theorem st_main_v3 : Vfin V0 (Proc.devRef .tc main_v3) = shapeCast S12288 (Vfin V0 (Proc.devRef .tc main_v2)) shapeCasts_S1x12288_S12288 :=
  stage_reshape (tail0_inOrder (F := F)) (Vfin_eq0 V0) 3 main_v2 main_v3 rfl shapeCasts_S1x12288_S12288 rfl (by decide) (by decide)

theorem st_main_cst : Vfin V0 (Proc.devRef .tc main_cst) = ((constant S_ .f32 0x00000000#32) : (⟨S_, .f32⟩ : BufTy).Contents (Elt F)) :=
  stage_nullary (tail0_inOrder (F := F)) (Vfin_eq0 V0) 4 main_cst ((constant S_ .f32 0x00000000#32) : (⟨S_, .f32⟩ : BufTy).Contents (Elt F)) rfl (by decide)

theorem st_main_v4 : Vfin V0 (Proc.devRef .tc main_v4) = (broadcastInDim S2048 ![] bcast_S_S2048 : (⟨S_, .f32⟩ : BufTy).Contents (Elt F) → (⟨S2048, .f32⟩ : BufTy).Contents (Elt F)) (Vfin V0 (Proc.devRef .tc main_cst)) :=
  stage_unary (tail0_inOrder (F := F)) (Vfin_eq0 V0) 5 main_cst main_v4 (broadcastInDim S2048 ![] bcast_S_S2048 : (⟨S_, .f32⟩ : BufTy).Contents (Elt F) → (⟨S2048, .f32⟩ : BufTy).Contents (Elt F)) rfl (by decide) (by decide)

theorem st_main_c : Vfin V0 (Proc.devRef .tc main_c) = ((constantI S_ 32 0#32) : (⟨S_, .i32⟩ : BufTy).Contents (Elt F)) :=
  stage_nullary (tail0_inOrder (F := F)) (Vfin_eq0 V0) 6 main_c ((constantI S_ 32 0#32) : (⟨S_, .i32⟩ : BufTy).Contents (Elt F)) rfl (by decide)

theorem st_main_v5 : Vfin V0 (Proc.devRef .tc main_v5) = (broadcastInDim S12288 ![] bcast_S_S12288 : (⟨S_, .i32⟩ : BufTy).Contents (Elt F) → (⟨S12288, .i32⟩ : BufTy).Contents (Elt F)) (Vfin V0 (Proc.devRef .tc main_c)) :=
  stage_unary (tail0_inOrder (F := F)) (Vfin_eq0 V0) 7 main_c main_v5 (broadcastInDim S12288 ![] bcast_S_S12288 : (⟨S_, .i32⟩ : BufTy).Contents (Elt F) → (⟨S12288, .i32⟩ : BufTy).Contents (Elt F)) rfl (by decide) (by decide)

theorem st_main_v6 : Vfin V0 (Proc.devRef .tc main_v6) = (cmpi .slt : (⟨S12288, .i32⟩ : BufTy).Contents (Elt F) → (⟨S12288, .i32⟩ : BufTy).Contents (Elt F) → (⟨S12288, .i1⟩ : BufTy).Contents (Elt F)) (Vfin V0 (Proc.devRef .tc main_v3)) (Vfin V0 (Proc.devRef .tc main_v5)) :=
  stage_binary (tail0_inOrder (F := F)) (Vfin_eq0 V0) 8 main_v3 main_v5 main_v6 (cmpi .slt : (⟨S12288, .i32⟩ : BufTy).Contents (Elt F) → (⟨S12288, .i32⟩ : BufTy).Contents (Elt F) → (⟨S12288, .i1⟩ : BufTy).Contents (Elt F)) rfl (by decide) (by decide) (by decide)

theorem st_main_c_0 : Vfin V0 (Proc.devRef .tc main_c_0) = ((constantI S_ 32 2048#32) : (⟨S_, .i32⟩ : BufTy).Contents (Elt F)) :=
  stage_nullary (tail0_inOrder (F := F)) (Vfin_eq0 V0) 9 main_c_0 ((constantI S_ 32 2048#32) : (⟨S_, .i32⟩ : BufTy).Contents (Elt F)) rfl (by decide)

theorem st_main_v7 : Vfin V0 (Proc.devRef .tc main_v7) = (broadcastInDim S12288 ![] bcast_S_S12288 : (⟨S_, .i32⟩ : BufTy).Contents (Elt F) → (⟨S12288, .i32⟩ : BufTy).Contents (Elt F)) (Vfin V0 (Proc.devRef .tc main_c_0)) :=
  stage_unary (tail0_inOrder (F := F)) (Vfin_eq0 V0) 10 main_c_0 main_v7 (broadcastInDim S12288 ![] bcast_S_S12288 : (⟨S_, .i32⟩ : BufTy).Contents (Elt F) → (⟨S12288, .i32⟩ : BufTy).Contents (Elt F)) rfl (by decide) (by decide)

theorem st_main_v8 : Vfin V0 (Proc.devRef .tc main_v8) = (addi : (⟨S12288, .i32⟩ : BufTy).Contents (Elt F) → (⟨S12288, .i32⟩ : BufTy).Contents (Elt F) → (⟨S12288, .i32⟩ : BufTy).Contents (Elt F)) (Vfin V0 (Proc.devRef .tc main_v3)) (Vfin V0 (Proc.devRef .tc main_v7)) :=
  stage_binary (tail0_inOrder (F := F)) (Vfin_eq0 V0) 11 main_v3 main_v7 main_v8 (addi : (⟨S12288, .i32⟩ : BufTy).Contents (Elt F) → (⟨S12288, .i32⟩ : BufTy).Contents (Elt F) → (⟨S12288, .i32⟩ : BufTy).Contents (Elt F)) rfl (by decide) (by decide) (by decide)

theorem st_main_v9 : Vfin V0 (Proc.devRef .tc main_v9) = (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) (Vfin V0 (Proc.devRef .tc main_v6)) (Vfin V0 (Proc.devRef .tc main_v8)) (Vfin V0 (Proc.devRef .tc main_v3)) :=
  stage_ternary (tail0_inOrder (F := F)) (Vfin_eq0 V0) 12 main_v6 main_v8 main_v3 main_v9 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) rfl (by decide) (by decide) (by decide) (by decide)

theorem st_main_v10 : Vfin V0 (Proc.devRef .tc main_v10) = (broadcastInDim S12288x1 ![0] bcast_S12288_S12288x1_0 : (⟨S12288, .i32⟩ : BufTy).Contents (Elt F) → (⟨S12288x1, .i32⟩ : BufTy).Contents (Elt F)) (Vfin V0 (Proc.devRef .tc main_v9)) :=
  stage_unary (tail0_inOrder (F := F)) (Vfin_eq0 V0) 13 main_v9 main_v10 (broadcastInDim S12288x1 ![0] bcast_S12288_S12288x1_0 : (⟨S12288, .i32⟩ : BufTy).Contents (Elt F) → (⟨S12288x1, .i32⟩ : BufTy).Contents (Elt F)) rfl (by decide) (by decide)

theorem st_main_cst_1 : Vfin V0 (Proc.devRef .tc main_cst_1) = ((constant S_ .f32 0x3F800000#32) : (⟨S_, .f32⟩ : BufTy).Contents (Elt F)) :=
  stage_nullary (tail0_inOrder (F := F)) (Vfin_eq0 V0) 14 main_cst_1 ((constant S_ .f32 0x3F800000#32) : (⟨S_, .f32⟩ : BufTy).Contents (Elt F)) rfl (by decide)

theorem st_main_v11 : Vfin V0 (Proc.devRef .tc main_v11) = (broadcastInDim S12288 ![] bcast_S_S12288 : (⟨S_, .f32⟩ : BufTy).Contents (Elt F) → (⟨S12288, .f32⟩ : BufTy).Contents (Elt F)) (Vfin V0 (Proc.devRef .tc main_cst_1)) :=
  stage_unary (tail0_inOrder (F := F)) (Vfin_eq0 V0) 15 main_cst_1 main_v11 (broadcastInDim S12288 ![] bcast_S_S12288 : (⟨S_, .f32⟩ : BufTy).Contents (Elt F) → (⟨S12288, .f32⟩ : BufTy).Contents (Elt F)) rfl (by decide) (by decide)

theorem st_main_v12 : Vfin V0 (Proc.devRef .tc main_v12) = ((fun x i u => Host.scatterAdd scatter_S2048_S12288x1_S12288_n_0_0_1 x i u) : (⟨S2048, .f32⟩ : BufTy).Contents (Elt F) → (⟨S12288x1, .i32⟩ : BufTy).Contents (Elt F) → (⟨S12288, .f32⟩ : BufTy).Contents (Elt F) → (⟨S2048, .f32⟩ : BufTy).Contents (Elt F)) (Vfin V0 (Proc.devRef .tc main_v4)) (Vfin V0 (Proc.devRef .tc main_v10)) (Vfin V0 (Proc.devRef .tc main_v11)) :=
  stage_ternary (tail0_inOrder (F := F)) (Vfin_eq0 V0) 16 main_v4 main_v10 main_v11 main_v12 ((fun x i u => Host.scatterAdd scatter_S2048_S12288x1_S12288_n_0_0_1 x i u) : (⟨S2048, .f32⟩ : BufTy).Contents (Elt F) → (⟨S12288x1, .i32⟩ : BufTy).Contents (Elt F) → (⟨S12288, .f32⟩ : BufTy).Contents (Elt F) → (⟨S2048, .f32⟩ : BufTy).Contents (Elt F)) rfl (by decide) (by decide) (by decide) (by decide)

theorem st_main_cst_2 : Vfin V0 (Proc.devRef .tc main_cst_2) = ((constant S_ .f32 0x3F800000#32) : (⟨S_, .f32⟩ : BufTy).Contents (Elt F)) :=
  stage_nullary (tail0_inOrder (F := F)) (Vfin_eq0 V0) 17 main_cst_2 ((constant S_ .f32 0x3F800000#32) : (⟨S_, .f32⟩ : BufTy).Contents (Elt F)) rfl (by decide)

theorem st_main_v13 : Vfin V0 (Proc.devRef .tc main_v13) = (broadcastInDim S2048 ![] bcast_S_S2048 : (⟨S_, .f32⟩ : BufTy).Contents (Elt F) → (⟨S2048, .f32⟩ : BufTy).Contents (Elt F)) (Vfin V0 (Proc.devRef .tc main_cst_2)) :=
  stage_unary (tail0_inOrder (F := F)) (Vfin_eq0 V0) 18 main_cst_2 main_v13 (broadcastInDim S2048 ![] bcast_S_S2048 : (⟨S_, .f32⟩ : BufTy).Contents (Elt F) → (⟨S2048, .f32⟩ : BufTy).Contents (Elt F)) rfl (by decide) (by decide)

theorem st_main_v14 : Vfin V0 (Proc.devRef .tc main_v14) = (addf : (⟨S2048, .f32⟩ : BufTy).Contents (Elt F) → (⟨S2048, .f32⟩ : BufTy).Contents (Elt F) → (⟨S2048, .f32⟩ : BufTy).Contents (Elt F)) (Vfin V0 (Proc.devRef .tc main_v12)) (Vfin V0 (Proc.devRef .tc main_v13)) :=
  stage_binary (tail0_inOrder (F := F)) (Vfin_eq0 V0) 19 main_v12 main_v13 main_v14 (addf : (⟨S2048, .f32⟩ : BufTy).Contents (Elt F) → (⟨S2048, .f32⟩ : BufTy).Contents (Elt F) → (⟨S2048, .f32⟩ : BufTy).Contents (Elt F)) rfl (by decide) (by decide) (by decide)

theorem st_main_v15 : Vfin V0 (Proc.devRef .tc main_v15) = (Host.rsqrt : (⟨S2048, .f32⟩ : BufTy).Contents (Elt F) → (⟨S2048, .f32⟩ : BufTy).Contents (Elt F)) (Vfin V0 (Proc.devRef .tc main_v14)) :=
  stage_unary (tail0_inOrder (F := F)) (Vfin_eq0 V0) 20 main_v14 main_v15 (Host.rsqrt : (⟨S2048, .f32⟩ : BufTy).Contents (Elt F) → (⟨S2048, .f32⟩ : BufTy).Contents (Elt F)) rfl (by decide) (by decide)

theorem st_main_cst_3 : Vfin V0 (Proc.devRef .tc main_cst_3) = ((constant S_ .f32 0x3F800000#32) : (⟨S_, .f32⟩ : BufTy).Contents (Elt F)) :=
  stage_nullary (tail0_inOrder (F := F)) (Vfin_eq0 V0) 21 main_cst_3 ((constant S_ .f32 0x3F800000#32) : (⟨S_, .f32⟩ : BufTy).Contents (Elt F)) rfl (by decide)

theorem st_main_v16 : Vfin V0 (Proc.devRef .tc main_v16) = (broadcastInDim S2048 ![] bcast_S_S2048 : (⟨S_, .f32⟩ : BufTy).Contents (Elt F) → (⟨S2048, .f32⟩ : BufTy).Contents (Elt F)) (Vfin V0 (Proc.devRef .tc main_cst_3)) :=
  stage_unary (tail0_inOrder (F := F)) (Vfin_eq0 V0) 22 main_cst_3 main_v16 (broadcastInDim S2048 ![] bcast_S_S2048 : (⟨S_, .f32⟩ : BufTy).Contents (Elt F) → (⟨S2048, .f32⟩ : BufTy).Contents (Elt F)) rfl (by decide) (by decide)

theorem st_main_v17 : Vfin V0 (Proc.devRef .tc main_v17) = (Host.divf : (⟨S2048, .f32⟩ : BufTy).Contents (Elt F) → (⟨S2048, .f32⟩ : BufTy).Contents (Elt F) → (⟨S2048, .f32⟩ : BufTy).Contents (Elt F)) (Vfin V0 (Proc.devRef .tc main_v16)) (Vfin V0 (Proc.devRef .tc main_v14)) :=
  stage_binary (tail0_inOrder (F := F)) (Vfin_eq0 V0) 23 main_v16 main_v14 main_v17 (Host.divf : (⟨S2048, .f32⟩ : BufTy).Contents (Elt F) → (⟨S2048, .f32⟩ : BufTy).Contents (Elt F) → (⟨S2048, .f32⟩ : BufTy).Contents (Elt F)) rfl (by decide) (by decide) (by decide)

theorem st_main_v18 : Vfin V0 (Proc.devRef .tc main_v18) = ((fun l r => Host.dotGeneral dot_S16x2048x1475_S1475x512_S16x2048x512_2_0_01_1_n_n none l r) : (⟨S16x2048x1475, .f32⟩ : BufTy).Contents (Elt F) → (⟨S1475x512, .f32⟩ : BufTy).Contents (Elt F) → (⟨S16x2048x512, .f32⟩ : BufTy).Contents (Elt F)) (Vfin V0 (Proc.devRef .tc main_arg0)) (Vfin V0 (Proc.devRef .tc main_arg2)) :=
  stage_binary (tail0_inOrder (F := F)) (Vfin_eq0 V0) 24 main_arg0 main_arg2 main_v18 ((fun l r => Host.dotGeneral dot_S16x2048x1475_S1475x512_S16x2048x512_2_0_01_1_n_n none l r) : (⟨S16x2048x1475, .f32⟩ : BufTy).Contents (Elt F) → (⟨S1475x512, .f32⟩ : BufTy).Contents (Elt F) → (⟨S16x2048x512, .f32⟩ : BufTy).Contents (Elt F)) rfl (by decide) (by decide) (by decide)

theorem st_main_c_4 : Vfin V0 (Proc.devRef .tc main_c_4) = ((constantI S_ 32 0#32) : (⟨S_, .i32⟩ : BufTy).Contents (Elt F)) :=
  stage_nullary (tail0_inOrder (F := F)) (Vfin_eq0 V0) 25 main_c_4 ((constantI S_ 32 0#32) : (⟨S_, .i32⟩ : BufTy).Contents (Elt F)) rfl (by decide)

theorem st_main_v19 : Vfin V0 (Proc.devRef .tc main_v19) = (broadcastInDim S12288 ![] bcast_S_S12288 : (⟨S_, .i32⟩ : BufTy).Contents (Elt F) → (⟨S12288, .i32⟩ : BufTy).Contents (Elt F)) (Vfin V0 (Proc.devRef .tc main_c_4)) :=
  stage_unary (tail0_inOrder (F := F)) (Vfin_eq0 V0) 26 main_c_4 main_v19 (broadcastInDim S12288 ![] bcast_S_S12288 : (⟨S_, .i32⟩ : BufTy).Contents (Elt F) → (⟨S12288, .i32⟩ : BufTy).Contents (Elt F)) rfl (by decide) (by decide)

theorem st_main_v20 : Vfin V0 (Proc.devRef .tc main_v20) = (cmpi .slt : (⟨S12288, .i32⟩ : BufTy).Contents (Elt F) → (⟨S12288, .i32⟩ : BufTy).Contents (Elt F) → (⟨S12288, .i1⟩ : BufTy).Contents (Elt F)) (Vfin V0 (Proc.devRef .tc main_v1)) (Vfin V0 (Proc.devRef .tc main_v19)) :=
  stage_binary (tail0_inOrder (F := F)) (Vfin_eq0 V0) 27 main_v1 main_v19 main_v20 (cmpi .slt : (⟨S12288, .i32⟩ : BufTy).Contents (Elt F) → (⟨S12288, .i32⟩ : BufTy).Contents (Elt F) → (⟨S12288, .i1⟩ : BufTy).Contents (Elt F)) rfl (by decide) (by decide) (by decide)

theorem st_main_c_5 : Vfin V0 (Proc.devRef .tc main_c_5) = ((constantI S_ 32 2048#32) : (⟨S_, .i32⟩ : BufTy).Contents (Elt F)) :=
  stage_nullary (tail0_inOrder (F := F)) (Vfin_eq0 V0) 28 main_c_5 ((constantI S_ 32 2048#32) : (⟨S_, .i32⟩ : BufTy).Contents (Elt F)) rfl (by decide)

theorem st_main_v21 : Vfin V0 (Proc.devRef .tc main_v21) = (broadcastInDim S12288 ![] bcast_S_S12288 : (⟨S_, .i32⟩ : BufTy).Contents (Elt F) → (⟨S12288, .i32⟩ : BufTy).Contents (Elt F)) (Vfin V0 (Proc.devRef .tc main_c_5)) :=
  stage_unary (tail0_inOrder (F := F)) (Vfin_eq0 V0) 29 main_c_5 main_v21 (broadcastInDim S12288 ![] bcast_S_S12288 : (⟨S_, .i32⟩ : BufTy).Contents (Elt F) → (⟨S12288, .i32⟩ : BufTy).Contents (Elt F)) rfl (by decide) (by decide)

theorem st_main_v22 : Vfin V0 (Proc.devRef .tc main_v22) = (addi : (⟨S12288, .i32⟩ : BufTy).Contents (Elt F) → (⟨S12288, .i32⟩ : BufTy).Contents (Elt F) → (⟨S12288, .i32⟩ : BufTy).Contents (Elt F)) (Vfin V0 (Proc.devRef .tc main_v1)) (Vfin V0 (Proc.devRef .tc main_v21)) :=
  stage_binary (tail0_inOrder (F := F)) (Vfin_eq0 V0) 30 main_v1 main_v21 main_v22 (addi : (⟨S12288, .i32⟩ : BufTy).Contents (Elt F) → (⟨S12288, .i32⟩ : BufTy).Contents (Elt F) → (⟨S12288, .i32⟩ : BufTy).Contents (Elt F)) rfl (by decide) (by decide) (by decide)

theorem st_main_v23 : Vfin V0 (Proc.devRef .tc main_v23) = (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) (Vfin V0 (Proc.devRef .tc main_v20)) (Vfin V0 (Proc.devRef .tc main_v22)) (Vfin V0 (Proc.devRef .tc main_v1)) :=
  stage_ternary (tail0_inOrder (F := F)) (Vfin_eq0 V0) 31 main_v20 main_v22 main_v1 main_v23 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) rfl (by decide) (by decide) (by decide) (by decide)

theorem st_main_v24 : Vfin V0 (Proc.devRef .tc main_v24) = (broadcastInDim S12288x1 ![0] bcast_S12288_S12288x1_0 : (⟨S12288, .i32⟩ : BufTy).Contents (Elt F) → (⟨S12288x1, .i32⟩ : BufTy).Contents (Elt F)) (Vfin V0 (Proc.devRef .tc main_v23)) :=
  stage_unary (tail0_inOrder (F := F)) (Vfin_eq0 V0) 32 main_v23 main_v24 (broadcastInDim S12288x1 ![0] bcast_S12288_S12288x1_0 : (⟨S12288, .i32⟩ : BufTy).Contents (Elt F) → (⟨S12288x1, .i32⟩ : BufTy).Contents (Elt F)) rfl (by decide) (by decide)

theorem st_main_v25 : Vfin V0 (Proc.devRef .tc main_v25) = ((fun x i => Host.gather gather_S2048_S12288x1_S12288_n_0_n_n_0_1_1 x i) : (⟨S2048, .f32⟩ : BufTy).Contents (Elt F) → (⟨S12288x1, .i32⟩ : BufTy).Contents (Elt F) → (⟨S12288, .f32⟩ : BufTy).Contents (Elt F)) (Vfin V0 (Proc.devRef .tc main_v15)) (Vfin V0 (Proc.devRef .tc main_v24)) :=
  stage_binary (tail0_inOrder (F := F)) (Vfin_eq0 V0) 33 main_v15 main_v24 main_v25 ((fun x i => Host.gather gather_S2048_S12288x1_S12288_n_0_n_n_0_1_1 x i) : (⟨S2048, .f32⟩ : BufTy).Contents (Elt F) → (⟨S12288x1, .i32⟩ : BufTy).Contents (Elt F) → (⟨S12288, .f32⟩ : BufTy).Contents (Elt F)) rfl (by decide) (by decide) (by decide)

theorem st_main_c_6 : Vfin V0 (Proc.devRef .tc main_c_6) = ((constantI S_ 32 0#32) : (⟨S_, .i32⟩ : BufTy).Contents (Elt F)) :=
  stage_nullary (tail0_inOrder (F := F)) (Vfin_eq0 V0) 34 main_c_6 ((constantI S_ 32 0#32) : (⟨S_, .i32⟩ : BufTy).Contents (Elt F)) rfl (by decide)

theorem st_main_v26 : Vfin V0 (Proc.devRef .tc main_v26) = (broadcastInDim S12288 ![] bcast_S_S12288 : (⟨S_, .i32⟩ : BufTy).Contents (Elt F) → (⟨S12288, .i32⟩ : BufTy).Contents (Elt F)) (Vfin V0 (Proc.devRef .tc main_c_6)) :=
  stage_unary (tail0_inOrder (F := F)) (Vfin_eq0 V0) 35 main_c_6 main_v26 (broadcastInDim S12288 ![] bcast_S_S12288 : (⟨S_, .i32⟩ : BufTy).Contents (Elt F) → (⟨S12288, .i32⟩ : BufTy).Contents (Elt F)) rfl (by decide) (by decide)

theorem st_main_v27 : Vfin V0 (Proc.devRef .tc main_v27) = (cmpi .slt : (⟨S12288, .i32⟩ : BufTy).Contents (Elt F) → (⟨S12288, .i32⟩ : BufTy).Contents (Elt F) → (⟨S12288, .i1⟩ : BufTy).Contents (Elt F)) (Vfin V0 (Proc.devRef .tc main_v3)) (Vfin V0 (Proc.devRef .tc main_v26)) :=
  stage_binary (tail0_inOrder (F := F)) (Vfin_eq0 V0) 36 main_v3 main_v26 main_v27 (cmpi .slt : (⟨S12288, .i32⟩ : BufTy).Contents (Elt F) → (⟨S12288, .i32⟩ : BufTy).Contents (Elt F) → (⟨S12288, .i1⟩ : BufTy).Contents (Elt F)) rfl (by decide) (by decide) (by decide)

theorem st_main_c_7 : Vfin V0 (Proc.devRef .tc main_c_7) = ((constantI S_ 32 2048#32) : (⟨S_, .i32⟩ : BufTy).Contents (Elt F)) :=
  stage_nullary (tail0_inOrder (F := F)) (Vfin_eq0 V0) 37 main_c_7 ((constantI S_ 32 2048#32) : (⟨S_, .i32⟩ : BufTy).Contents (Elt F)) rfl (by decide)

theorem st_main_v28 : Vfin V0 (Proc.devRef .tc main_v28) = (broadcastInDim S12288 ![] bcast_S_S12288 : (⟨S_, .i32⟩ : BufTy).Contents (Elt F) → (⟨S12288, .i32⟩ : BufTy).Contents (Elt F)) (Vfin V0 (Proc.devRef .tc main_c_7)) :=
  stage_unary (tail0_inOrder (F := F)) (Vfin_eq0 V0) 38 main_c_7 main_v28 (broadcastInDim S12288 ![] bcast_S_S12288 : (⟨S_, .i32⟩ : BufTy).Contents (Elt F) → (⟨S12288, .i32⟩ : BufTy).Contents (Elt F)) rfl (by decide) (by decide)

theorem st_main_v29 : Vfin V0 (Proc.devRef .tc main_v29) = (addi : (⟨S12288, .i32⟩ : BufTy).Contents (Elt F) → (⟨S12288, .i32⟩ : BufTy).Contents (Elt F) → (⟨S12288, .i32⟩ : BufTy).Contents (Elt F)) (Vfin V0 (Proc.devRef .tc main_v3)) (Vfin V0 (Proc.devRef .tc main_v28)) :=
  stage_binary (tail0_inOrder (F := F)) (Vfin_eq0 V0) 39 main_v3 main_v28 main_v29 (addi : (⟨S12288, .i32⟩ : BufTy).Contents (Elt F) → (⟨S12288, .i32⟩ : BufTy).Contents (Elt F) → (⟨S12288, .i32⟩ : BufTy).Contents (Elt F)) rfl (by decide) (by decide) (by decide)

theorem st_main_v30 : Vfin V0 (Proc.devRef .tc main_v30) = (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) (Vfin V0 (Proc.devRef .tc main_v27)) (Vfin V0 (Proc.devRef .tc main_v29)) (Vfin V0 (Proc.devRef .tc main_v3)) :=
  stage_ternary (tail0_inOrder (F := F)) (Vfin_eq0 V0) 40 main_v27 main_v29 main_v3 main_v30 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) rfl (by decide) (by decide) (by decide) (by decide)

theorem st_main_v31 : Vfin V0 (Proc.devRef .tc main_v31) = (broadcastInDim S12288x1 ![0] bcast_S12288_S12288x1_0 : (⟨S12288, .i32⟩ : BufTy).Contents (Elt F) → (⟨S12288x1, .i32⟩ : BufTy).Contents (Elt F)) (Vfin V0 (Proc.devRef .tc main_v30)) :=
  stage_unary (tail0_inOrder (F := F)) (Vfin_eq0 V0) 41 main_v30 main_v31 (broadcastInDim S12288x1 ![0] bcast_S12288_S12288x1_0 : (⟨S12288, .i32⟩ : BufTy).Contents (Elt F) → (⟨S12288x1, .i32⟩ : BufTy).Contents (Elt F)) rfl (by decide) (by decide)

theorem st_main_v32 : Vfin V0 (Proc.devRef .tc main_v32) = ((fun x i => Host.gather gather_S2048_S12288x1_S12288_n_0_n_n_0_1_1 x i) : (⟨S2048, .f32⟩ : BufTy).Contents (Elt F) → (⟨S12288x1, .i32⟩ : BufTy).Contents (Elt F) → (⟨S12288, .f32⟩ : BufTy).Contents (Elt F)) (Vfin V0 (Proc.devRef .tc main_v15)) (Vfin V0 (Proc.devRef .tc main_v31)) :=
  stage_binary (tail0_inOrder (F := F)) (Vfin_eq0 V0) 42 main_v15 main_v31 main_v32 ((fun x i => Host.gather gather_S2048_S12288x1_S12288_n_0_n_n_0_1_1 x i) : (⟨S2048, .f32⟩ : BufTy).Contents (Elt F) → (⟨S12288x1, .i32⟩ : BufTy).Contents (Elt F) → (⟨S12288, .f32⟩ : BufTy).Contents (Elt F)) rfl (by decide) (by decide) (by decide)

theorem st_main_v33 : Vfin V0 (Proc.devRef .tc main_v33) = (mulf : (⟨S12288, .f32⟩ : BufTy).Contents (Elt F) → (⟨S12288, .f32⟩ : BufTy).Contents (Elt F) → (⟨S12288, .f32⟩ : BufTy).Contents (Elt F)) (Vfin V0 (Proc.devRef .tc main_v25)) (Vfin V0 (Proc.devRef .tc main_v32)) :=
  stage_binary (tail0_inOrder (F := F)) (Vfin_eq0 V0) 43 main_v25 main_v32 main_v33 (mulf : (⟨S12288, .f32⟩ : BufTy).Contents (Elt F) → (⟨S12288, .f32⟩ : BufTy).Contents (Elt F) → (⟨S12288, .f32⟩ : BufTy).Contents (Elt F)) rfl (by decide) (by decide) (by decide)

theorem st_main_call0_c : Vfin V0 (Proc.devRef .tc main_call0_c) = ((constantI S_ 32 0#32) : (⟨S_, .i32⟩ : BufTy).Contents (Elt F)) :=
  stage_tnullary (tail0_inOrder (F := F)) (Vfin_eq0 V0) 44 (.of main_call0_c : StableHlo.TRef sig ⟨S_, .i32⟩) (constantI S_ 32 0#32) rfl (by decide)

theorem st_main_call0_v0 : Vfin V0 (Proc.devRef .tc main_call0_v0) = ((broadcastInDim S12288 ![] bcast_S_S12288) : (⟨S_, .i32⟩ : BufTy).Contents (Elt F) → (⟨S12288, .i32⟩ : BufTy).Contents (Elt F)) (Vfin V0 (Proc.devRef .tc main_call0_c)) :=
  stage_tunary (tail0_inOrder (F := F)) (Vfin_eq0 V0) 45 (.of main_call0_c : StableHlo.TRef sig ⟨S_, .i32⟩) (.of main_call0_v0 : StableHlo.TRef sig ⟨S12288, .i32⟩) (broadcastInDim S12288 ![] bcast_S_S12288) rfl (by decide) (by decide)

theorem st_main_call0_v1 : Vfin V0 (Proc.devRef .tc main_call0_v1) = ((cmpi .slt) : (⟨S12288, .i32⟩ : BufTy).Contents (Elt F) → (⟨S12288, .i32⟩ : BufTy).Contents (Elt F) → (⟨S12288, .i1⟩ : BufTy).Contents (Elt F)) (Vfin V0 (Proc.devRef .tc main_v1)) (Vfin V0 (Proc.devRef .tc main_call0_v0)) :=
  stage_tbinary (tail0_inOrder (F := F)) (Vfin_eq0 V0) 46 (.of main_v1 : StableHlo.TRef sig ⟨S12288, .i32⟩) (.of main_call0_v0 : StableHlo.TRef sig ⟨S12288, .i32⟩) (.of main_call0_v1 : StableHlo.TRef sig ⟨S12288, .i1⟩) (cmpi .slt) rfl (by decide) (by decide) (by decide)

theorem st_main_call0_c_0 : Vfin V0 (Proc.devRef .tc main_call0_c_0) = ((constantI S_ 32 2048#32) : (⟨S_, .i32⟩ : BufTy).Contents (Elt F)) :=
  stage_tnullary (tail0_inOrder (F := F)) (Vfin_eq0 V0) 47 (.of main_call0_c_0 : StableHlo.TRef sig ⟨S_, .i32⟩) (constantI S_ 32 2048#32) rfl (by decide)

theorem st_main_call0_v2 : Vfin V0 (Proc.devRef .tc main_call0_v2) = ((broadcastInDim S12288 ![] bcast_S_S12288) : (⟨S_, .i32⟩ : BufTy).Contents (Elt F) → (⟨S12288, .i32⟩ : BufTy).Contents (Elt F)) (Vfin V0 (Proc.devRef .tc main_call0_c_0)) :=
  stage_tunary (tail0_inOrder (F := F)) (Vfin_eq0 V0) 48 (.of main_call0_c_0 : StableHlo.TRef sig ⟨S_, .i32⟩) (.of main_call0_v2 : StableHlo.TRef sig ⟨S12288, .i32⟩) (broadcastInDim S12288 ![] bcast_S_S12288) rfl (by decide) (by decide)

theorem st_main_call0_v3 : Vfin V0 (Proc.devRef .tc main_call0_v3) = (addi : (⟨S12288, .i32⟩ : BufTy).Contents (Elt F) → (⟨S12288, .i32⟩ : BufTy).Contents (Elt F) → (⟨S12288, .i32⟩ : BufTy).Contents (Elt F)) (Vfin V0 (Proc.devRef .tc main_v1)) (Vfin V0 (Proc.devRef .tc main_call0_v2)) :=
  stage_tbinary (tail0_inOrder (F := F)) (Vfin_eq0 V0) 49 (.of main_v1 : StableHlo.TRef sig ⟨S12288, .i32⟩) (.of main_call0_v2 : StableHlo.TRef sig ⟨S12288, .i32⟩) (.of main_call0_v3 : StableHlo.TRef sig ⟨S12288, .i32⟩) addi rfl (by decide) (by decide) (by decide)

theorem st_main_call0_v4 : Vfin V0 (Proc.devRef .tc main_call0_v4) = (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) (Vfin V0 (Proc.devRef .tc main_call0_v1)) (Vfin V0 (Proc.devRef .tc main_call0_v3)) (Vfin V0 (Proc.devRef .tc main_v1)) :=
  stage_tternary (tail0_inOrder (F := F)) (Vfin_eq0 V0) 50 (.of main_call0_v1 : StableHlo.TRef sig ⟨S12288, .i1⟩) (.of main_call0_v3 : StableHlo.TRef sig ⟨S12288, .i32⟩) (.of main_v1 : StableHlo.TRef sig ⟨S12288, .i32⟩) (.of main_call0_v4 : StableHlo.TRef sig ⟨S12288, .i32⟩) select rfl (by decide) (by decide) (by decide) (by decide)

theorem st_main_call0_v5 : Vfin V0 (Proc.devRef .tc main_call0_v5) = ((broadcastInDim S12288x1 ![0] bcast_S12288_S12288x1_0) : (⟨S12288, .i32⟩ : BufTy).Contents (Elt F) → (⟨S12288x1, .i32⟩ : BufTy).Contents (Elt F)) (Vfin V0 (Proc.devRef .tc main_call0_v4)) :=
  stage_tunary (tail0_inOrder (F := F)) (Vfin_eq0 V0) 51 (.of main_call0_v4 : StableHlo.TRef sig ⟨S12288, .i32⟩) (.of main_call0_v5 : StableHlo.TRef sig ⟨S12288x1, .i32⟩) (broadcastInDim S12288x1 ![0] bcast_S12288_S12288x1_0) rfl (by decide) (by decide)

theorem st_main_call0_c_1 : Vfin V0 (Proc.devRef .tc main_call0_c_1) = ((constantI S1 32 2047#32) : (⟨S1, .i32⟩ : BufTy).Contents (Elt F)) :=
  stage_tnullary (tail0_inOrder (F := F)) (Vfin_eq0 V0) 52 (.of main_call0_c_1 : StableHlo.TRef sig ⟨S1, .i32⟩) (constantI S1 32 2047#32) rfl (by decide)

theorem st_main_call0_c_2 : Vfin V0 (Proc.devRef .tc main_call0_c_2) = ((constantI S_ 32 0#32) : (⟨S_, .i32⟩ : BufTy).Contents (Elt F)) :=
  stage_tnullary (tail0_inOrder (F := F)) (Vfin_eq0 V0) 53 (.of main_call0_c_2 : StableHlo.TRef sig ⟨S_, .i32⟩) (constantI S_ 32 0#32) rfl (by decide)

theorem st_main_call0_v6 : Vfin V0 (Proc.devRef .tc main_call0_v6) = ((broadcastInDim S12288x1 ![] bcast_S_S12288x1) : (⟨S_, .i32⟩ : BufTy).Contents (Elt F) → (⟨S12288x1, .i32⟩ : BufTy).Contents (Elt F)) (Vfin V0 (Proc.devRef .tc main_call0_c_2)) :=
  stage_tunary (tail0_inOrder (F := F)) (Vfin_eq0 V0) 54 (.of main_call0_c_2 : StableHlo.TRef sig ⟨S_, .i32⟩) (.of main_call0_v6 : StableHlo.TRef sig ⟨S12288x1, .i32⟩) (broadcastInDim S12288x1 ![] bcast_S_S12288x1) rfl (by decide) (by decide)

theorem st_main_call0_v7 : Vfin V0 (Proc.devRef .tc main_call0_v7) = ((cmpi .sge) : (⟨S12288x1, .i32⟩ : BufTy).Contents (Elt F) → (⟨S12288x1, .i32⟩ : BufTy).Contents (Elt F) → (⟨S12288x1, .i1⟩ : BufTy).Contents (Elt F)) (Vfin V0 (Proc.devRef .tc main_call0_v5)) (Vfin V0 (Proc.devRef .tc main_call0_v6)) :=
  stage_tbinary (tail0_inOrder (F := F)) (Vfin_eq0 V0) 55 (.of main_call0_v5 : StableHlo.TRef sig ⟨S12288x1, .i32⟩) (.of main_call0_v6 : StableHlo.TRef sig ⟨S12288x1, .i32⟩) (.of main_call0_v7 : StableHlo.TRef sig ⟨S12288x1, .i1⟩) (cmpi .sge) rfl (by decide) (by decide) (by decide)

theorem st_main_call0_v8 : Vfin V0 (Proc.devRef .tc main_call0_v8) = ((broadcastInDim S1x1 ![1] bcast_S1_S1x1_1) : (⟨S1, .i32⟩ : BufTy).Contents (Elt F) → (⟨S1x1, .i32⟩ : BufTy).Contents (Elt F)) (Vfin V0 (Proc.devRef .tc main_call0_c_1)) :=
  stage_tunary (tail0_inOrder (F := F)) (Vfin_eq0 V0) 56 (.of main_call0_c_1 : StableHlo.TRef sig ⟨S1, .i32⟩) (.of main_call0_v8 : StableHlo.TRef sig ⟨S1x1, .i32⟩) (broadcastInDim S1x1 ![1] bcast_S1_S1x1_1) rfl (by decide) (by decide)

theorem st_main_call0_v9 : Vfin V0 (Proc.devRef .tc main_call0_v9) = ((broadcastInDim S12288x1 ![0, 1] bcast_S1x1_S12288x1_0_1) : (⟨S1x1, .i32⟩ : BufTy).Contents (Elt F) → (⟨S12288x1, .i32⟩ : BufTy).Contents (Elt F)) (Vfin V0 (Proc.devRef .tc main_call0_v8)) :=
  stage_tunary (tail0_inOrder (F := F)) (Vfin_eq0 V0) 57 (.of main_call0_v8 : StableHlo.TRef sig ⟨S1x1, .i32⟩) (.of main_call0_v9 : StableHlo.TRef sig ⟨S12288x1, .i32⟩) (broadcastInDim S12288x1 ![0, 1] bcast_S1x1_S12288x1_0_1) rfl (by decide) (by decide)

theorem st_main_call0_v10 : Vfin V0 (Proc.devRef .tc main_call0_v10) = ((cmpi .sle) : (⟨S12288x1, .i32⟩ : BufTy).Contents (Elt F) → (⟨S12288x1, .i32⟩ : BufTy).Contents (Elt F) → (⟨S12288x1, .i1⟩ : BufTy).Contents (Elt F)) (Vfin V0 (Proc.devRef .tc main_call0_v5)) (Vfin V0 (Proc.devRef .tc main_call0_v9)) :=
  stage_tbinary (tail0_inOrder (F := F)) (Vfin_eq0 V0) 58 (.of main_call0_v5 : StableHlo.TRef sig ⟨S12288x1, .i32⟩) (.of main_call0_v9 : StableHlo.TRef sig ⟨S12288x1, .i32⟩) (.of main_call0_v10 : StableHlo.TRef sig ⟨S12288x1, .i1⟩) (cmpi .sle) rfl (by decide) (by decide) (by decide)

theorem st_main_call0_v11 : Vfin V0 (Proc.devRef .tc main_call0_v11) = (andi : (⟨S12288x1, .i1⟩ : BufTy).Contents (Elt F) → (⟨S12288x1, .i1⟩ : BufTy).Contents (Elt F) → (⟨S12288x1, .i1⟩ : BufTy).Contents (Elt F)) (Vfin V0 (Proc.devRef .tc main_call0_v7)) (Vfin V0 (Proc.devRef .tc main_call0_v10)) :=
  stage_tbinary (tail0_inOrder (F := F)) (Vfin_eq0 V0) 59 (.of main_call0_v7 : StableHlo.TRef sig ⟨S12288x1, .i1⟩) (.of main_call0_v10 : StableHlo.TRef sig ⟨S12288x1, .i1⟩) (.of main_call0_v11 : StableHlo.TRef sig ⟨S12288x1, .i1⟩) andi rfl (by decide) (by decide) (by decide)

theorem st_main_call0_c_3 : Vfin V0 (Proc.devRef .tc main_call0_c_3) = ((constantI S_ 1 1#1) : (⟨S_, .i1⟩ : BufTy).Contents (Elt F)) :=
  stage_tnullary (tail0_inOrder (F := F)) (Vfin_eq0 V0) 60 (.of main_call0_c_3 : StableHlo.TRef sig ⟨S_, .i1⟩) (constantI S_ 1 1#1) rfl (by decide)

theorem st_main_call0_v12 : Vfin V0 (Proc.devRef .tc main_call0_v12) = ((fun x v => Host.reduce IntOp.andi x v reducesTo_S12288x1_S12288_d1 h_S_) : (⟨S12288x1, .i1⟩ : BufTy).Contents (Elt F) → (⟨S_, .i1⟩ : BufTy).Contents (Elt F) → (⟨S12288, .i1⟩ : BufTy).Contents (Elt F)) (Vfin V0 (Proc.devRef .tc main_call0_v11)) (Vfin V0 (Proc.devRef .tc main_call0_c_3)) :=
  stage_tbinary (tail0_inOrder (F := F)) (Vfin_eq0 V0) 61 (.of main_call0_v11 : StableHlo.TRef sig ⟨S12288x1, .i1⟩) (.of main_call0_c_3 : StableHlo.TRef sig ⟨S_, .i1⟩) (.of main_call0_v12 : StableHlo.TRef sig ⟨S12288, .i1⟩) (fun x v => Host.reduce IntOp.andi x v reducesTo_S12288x1_S12288_d1 h_S_) rfl (by decide) (by decide) (by decide)

theorem st_main_call0_v13 : Vfin V0 (Proc.devRef .tc main_call0_v13) = ((fun x i => Host.gather gather_S16x2048x512_S12288x1_S16x12288x512_02_1_n_n_1_1_161512 x i) : (⟨S16x2048x512, .f32⟩ : BufTy).Contents (Elt F) → (⟨S12288x1, .i32⟩ : BufTy).Contents (Elt F) → (⟨S16x12288x512, .f32⟩ : BufTy).Contents (Elt F)) (Vfin V0 (Proc.devRef .tc main_v18)) (Vfin V0 (Proc.devRef .tc main_call0_v5)) :=
  stage_tbinary (tail0_inOrder (F := F)) (Vfin_eq0 V0) 62 (.of main_v18 : StableHlo.TRef sig ⟨S16x2048x512, .f32⟩) (.of main_call0_v5 : StableHlo.TRef sig ⟨S12288x1, .i32⟩) (.of main_call0_v13 : StableHlo.TRef sig ⟨S16x12288x512, .f32⟩) (fun x i => Host.gather gather_S16x2048x512_S12288x1_S16x12288x512_02_1_n_n_1_1_161512 x i) rfl (by decide) (by decide) (by decide)

theorem st_main_call0_v14 : Vfin V0 (Proc.devRef .tc main_call0_v14) = ((broadcastInDim S16x12288x512 ![1] bcast_S12288_S16x12288x512_1) : (⟨S12288, .i1⟩ : BufTy).Contents (Elt F) → (⟨S16x12288x512, .i1⟩ : BufTy).Contents (Elt F)) (Vfin V0 (Proc.devRef .tc main_call0_v12)) :=
  stage_tunary (tail0_inOrder (F := F)) (Vfin_eq0 V0) 63 (.of main_call0_v12 : StableHlo.TRef sig ⟨S12288, .i1⟩) (.of main_call0_v14 : StableHlo.TRef sig ⟨S16x12288x512, .i1⟩) (broadcastInDim S16x12288x512 ![1] bcast_S12288_S16x12288x512_1) rfl (by decide) (by decide)

theorem st_main_call0_cst : Vfin V0 (Proc.devRef .tc main_call0_cst) = ((constant S_ .f32 0x7FC00000#32) : (⟨S_, .f32⟩ : BufTy).Contents (Elt F)) :=
  stage_tnullary (tail0_inOrder (F := F)) (Vfin_eq0 V0) 64 (.of main_call0_cst : StableHlo.TRef sig ⟨S_, .f32⟩) (constant S_ .f32 0x7FC00000#32) rfl (by decide)

theorem st_main_call0_v15 : Vfin V0 (Proc.devRef .tc main_call0_v15) = ((broadcastInDim S16x12288x512 ![] bcast_S_S16x12288x512) : (⟨S_, .f32⟩ : BufTy).Contents (Elt F) → (⟨S16x12288x512, .f32⟩ : BufTy).Contents (Elt F)) (Vfin V0 (Proc.devRef .tc main_call0_cst)) :=
  stage_tunary (tail0_inOrder (F := F)) (Vfin_eq0 V0) 65 (.of main_call0_cst : StableHlo.TRef sig ⟨S_, .f32⟩) (.of main_call0_v15 : StableHlo.TRef sig ⟨S16x12288x512, .f32⟩) (broadcastInDim S16x12288x512 ![] bcast_S_S16x12288x512) rfl (by decide) (by decide)

theorem st_main_v34 : Vfin V0 (Proc.devRef .tc main_v34) = (select : (⟨S16x12288x512, .i1⟩ : BufTy).Contents (Elt F) → (⟨S16x12288x512, .f32⟩ : BufTy).Contents (Elt F) → (⟨S16x12288x512, .f32⟩ : BufTy).Contents (Elt F) → (⟨S16x12288x512, .f32⟩ : BufTy).Contents (Elt F)) (Vfin V0 (Proc.devRef .tc main_call0_v14)) (Vfin V0 (Proc.devRef .tc main_call0_v13)) (Vfin V0 (Proc.devRef .tc main_call0_v15)) :=
  stage_tternary (tail0_inOrder (F := F)) (Vfin_eq0 V0) 66 (.of main_call0_v14 : StableHlo.TRef sig ⟨S16x12288x512, .i1⟩) (.of main_call0_v13 : StableHlo.TRef sig ⟨S16x12288x512, .f32⟩) (.of main_call0_v15 : StableHlo.TRef sig ⟨S16x12288x512, .f32⟩) (.of main_v34 : StableHlo.TRef sig ⟨S16x12288x512, .f32⟩) select rfl (by decide) (by decide) (by decide) (by decide)

theorem st_main_v35 : Vfin V0 (Proc.devRef .tc main_v35) = (broadcastInDim S1x12288x1 ![1] bcast_S12288_S1x12288x1_1 : (⟨S12288, .f32⟩ : BufTy).Contents (Elt F) → (⟨S1x12288x1, .f32⟩ : BufTy).Contents (Elt F)) (Vfin V0 (Proc.devRef .tc main_v33)) :=
  stage_unary (tail0_inOrder (F := F)) (Vfin_eq0 V0) 67 main_v33 main_v35 (broadcastInDim S1x12288x1 ![1] bcast_S12288_S1x12288x1_1 : (⟨S12288, .f32⟩ : BufTy).Contents (Elt F) → (⟨S1x12288x1, .f32⟩ : BufTy).Contents (Elt F)) rfl (by decide) (by decide)

theorem st_main_v36 : Vfin V0 (Proc.devRef .tc main_v36) = (broadcastInDim S16x12288x512 ![0, 1, 2] bcast_S1x12288x1_S16x12288x512_0_1_2 : (⟨S1x12288x1, .f32⟩ : BufTy).Contents (Elt F) → (⟨S16x12288x512, .f32⟩ : BufTy).Contents (Elt F)) (Vfin V0 (Proc.devRef .tc main_v35)) :=
  stage_unary (tail0_inOrder (F := F)) (Vfin_eq0 V0) 68 main_v35 main_v36 (broadcastInDim S16x12288x512 ![0, 1, 2] bcast_S1x12288x1_S16x12288x512_0_1_2 : (⟨S1x12288x1, .f32⟩ : BufTy).Contents (Elt F) → (⟨S16x12288x512, .f32⟩ : BufTy).Contents (Elt F)) rfl (by decide) (by decide)

theorem st_main_v37 : Vfin V0 (Proc.devRef .tc main_v37) = (mulf : (⟨S16x12288x512, .f32⟩ : BufTy).Contents (Elt F) → (⟨S16x12288x512, .f32⟩ : BufTy).Contents (Elt F) → (⟨S16x12288x512, .f32⟩ : BufTy).Contents (Elt F)) (Vfin V0 (Proc.devRef .tc main_v34)) (Vfin V0 (Proc.devRef .tc main_v36)) :=
  stage_binary (tail0_inOrder (F := F)) (Vfin_eq0 V0) 69 main_v34 main_v36 main_v37 (mulf : (⟨S16x12288x512, .f32⟩ : BufTy).Contents (Elt F) → (⟨S16x12288x512, .f32⟩ : BufTy).Contents (Elt F) → (⟨S16x12288x512, .f32⟩ : BufTy).Contents (Elt F)) rfl (by decide) (by decide) (by decide)

theorem st_main_cst_8 : Vfin V0 (Proc.devRef .tc main_cst_8) = ((constant S_ .f32 0x00000000#32) : (⟨S_, .f32⟩ : BufTy).Contents (Elt F)) :=
  stage_nullary (tail0_inOrder (F := F)) (Vfin_eq0 V0) 70 main_cst_8 ((constant S_ .f32 0x00000000#32) : (⟨S_, .f32⟩ : BufTy).Contents (Elt F)) rfl (by decide)

theorem st_main_v38 : Vfin V0 (Proc.devRef .tc main_v38) = (broadcastInDim S16x2048x512 ![] bcast_S_S16x2048x512 : (⟨S_, .f32⟩ : BufTy).Contents (Elt F) → (⟨S16x2048x512, .f32⟩ : BufTy).Contents (Elt F)) (Vfin V0 (Proc.devRef .tc main_cst_8)) :=
  stage_unary (tail0_inOrder (F := F)) (Vfin_eq0 V0) 71 main_cst_8 main_v38 (broadcastInDim S16x2048x512 ![] bcast_S_S16x2048x512 : (⟨S_, .f32⟩ : BufTy).Contents (Elt F) → (⟨S16x2048x512, .f32⟩ : BufTy).Contents (Elt F)) rfl (by decide) (by decide)

theorem st_main_c_9 : Vfin V0 (Proc.devRef .tc main_c_9) = ((constantI S_ 32 0#32) : (⟨S_, .i32⟩ : BufTy).Contents (Elt F)) :=
  stage_nullary (tail0_inOrder (F := F)) (Vfin_eq0 V0) 72 main_c_9 ((constantI S_ 32 0#32) : (⟨S_, .i32⟩ : BufTy).Contents (Elt F)) rfl (by decide)

theorem st_main_v39 : Vfin V0 (Proc.devRef .tc main_v39) = (broadcastInDim S12288 ![] bcast_S_S12288 : (⟨S_, .i32⟩ : BufTy).Contents (Elt F) → (⟨S12288, .i32⟩ : BufTy).Contents (Elt F)) (Vfin V0 (Proc.devRef .tc main_c_9)) :=
  stage_unary (tail0_inOrder (F := F)) (Vfin_eq0 V0) 73 main_c_9 main_v39 (broadcastInDim S12288 ![] bcast_S_S12288 : (⟨S_, .i32⟩ : BufTy).Contents (Elt F) → (⟨S12288, .i32⟩ : BufTy).Contents (Elt F)) rfl (by decide) (by decide)

theorem st_main_v40 : Vfin V0 (Proc.devRef .tc main_v40) = (cmpi .slt : (⟨S12288, .i32⟩ : BufTy).Contents (Elt F) → (⟨S12288, .i32⟩ : BufTy).Contents (Elt F) → (⟨S12288, .i1⟩ : BufTy).Contents (Elt F)) (Vfin V0 (Proc.devRef .tc main_v3)) (Vfin V0 (Proc.devRef .tc main_v39)) :=
  stage_binary (tail0_inOrder (F := F)) (Vfin_eq0 V0) 74 main_v3 main_v39 main_v40 (cmpi .slt : (⟨S12288, .i32⟩ : BufTy).Contents (Elt F) → (⟨S12288, .i32⟩ : BufTy).Contents (Elt F) → (⟨S12288, .i1⟩ : BufTy).Contents (Elt F)) rfl (by decide) (by decide) (by decide)

theorem st_main_c_10 : Vfin V0 (Proc.devRef .tc main_c_10) = ((constantI S_ 32 2048#32) : (⟨S_, .i32⟩ : BufTy).Contents (Elt F)) :=
  stage_nullary (tail0_inOrder (F := F)) (Vfin_eq0 V0) 75 main_c_10 ((constantI S_ 32 2048#32) : (⟨S_, .i32⟩ : BufTy).Contents (Elt F)) rfl (by decide)

theorem st_main_v41 : Vfin V0 (Proc.devRef .tc main_v41) = (broadcastInDim S12288 ![] bcast_S_S12288 : (⟨S_, .i32⟩ : BufTy).Contents (Elt F) → (⟨S12288, .i32⟩ : BufTy).Contents (Elt F)) (Vfin V0 (Proc.devRef .tc main_c_10)) :=
  stage_unary (tail0_inOrder (F := F)) (Vfin_eq0 V0) 76 main_c_10 main_v41 (broadcastInDim S12288 ![] bcast_S_S12288 : (⟨S_, .i32⟩ : BufTy).Contents (Elt F) → (⟨S12288, .i32⟩ : BufTy).Contents (Elt F)) rfl (by decide) (by decide)

theorem st_main_v42 : Vfin V0 (Proc.devRef .tc main_v42) = (addi : (⟨S12288, .i32⟩ : BufTy).Contents (Elt F) → (⟨S12288, .i32⟩ : BufTy).Contents (Elt F) → (⟨S12288, .i32⟩ : BufTy).Contents (Elt F)) (Vfin V0 (Proc.devRef .tc main_v3)) (Vfin V0 (Proc.devRef .tc main_v41)) :=
  stage_binary (tail0_inOrder (F := F)) (Vfin_eq0 V0) 77 main_v3 main_v41 main_v42 (addi : (⟨S12288, .i32⟩ : BufTy).Contents (Elt F) → (⟨S12288, .i32⟩ : BufTy).Contents (Elt F) → (⟨S12288, .i32⟩ : BufTy).Contents (Elt F)) rfl (by decide) (by decide) (by decide)

theorem st_main_v43 : Vfin V0 (Proc.devRef .tc main_v43) = (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) (Vfin V0 (Proc.devRef .tc main_v40)) (Vfin V0 (Proc.devRef .tc main_v42)) (Vfin V0 (Proc.devRef .tc main_v3)) :=
  stage_ternary (tail0_inOrder (F := F)) (Vfin_eq0 V0) 78 main_v40 main_v42 main_v3 main_v43 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) rfl (by decide) (by decide) (by decide) (by decide)

theorem st_main_v44 : Vfin V0 (Proc.devRef .tc main_v44) = (broadcastInDim S12288x1 ![0] bcast_S12288_S12288x1_0 : (⟨S12288, .i32⟩ : BufTy).Contents (Elt F) → (⟨S12288x1, .i32⟩ : BufTy).Contents (Elt F)) (Vfin V0 (Proc.devRef .tc main_v43)) :=
  stage_unary (tail0_inOrder (F := F)) (Vfin_eq0 V0) 79 main_v43 main_v44 (broadcastInDim S12288x1 ![0] bcast_S12288_S12288x1_0 : (⟨S12288, .i32⟩ : BufTy).Contents (Elt F) → (⟨S12288x1, .i32⟩ : BufTy).Contents (Elt F)) rfl (by decide) (by decide)

theorem st_main_v45 : Vfin V0 (Proc.devRef .tc main_v45) = ((fun x i u => Host.scatterAdd scatter_S16x2048x512_S12288x1_S16x12288x512_02_1_1_1 x i u) : (⟨S16x2048x512, .f32⟩ : BufTy).Contents (Elt F) → (⟨S12288x1, .i32⟩ : BufTy).Contents (Elt F) → (⟨S16x12288x512, .f32⟩ : BufTy).Contents (Elt F) → (⟨S16x2048x512, .f32⟩ : BufTy).Contents (Elt F)) (Vfin V0 (Proc.devRef .tc main_v38)) (Vfin V0 (Proc.devRef .tc main_v44)) (Vfin V0 (Proc.devRef .tc main_v37)) :=
  stage_ternary (tail0_inOrder (F := F)) (Vfin_eq0 V0) 80 main_v38 main_v44 main_v37 main_v45 ((fun x i u => Host.scatterAdd scatter_S16x2048x512_S12288x1_S16x12288x512_02_1_1_1 x i u) : (⟨S16x2048x512, .f32⟩ : BufTy).Contents (Elt F) → (⟨S12288x1, .i32⟩ : BufTy).Contents (Elt F) → (⟨S16x12288x512, .f32⟩ : BufTy).Contents (Elt F) → (⟨S16x2048x512, .f32⟩ : BufTy).Contents (Elt F)) rfl (by decide) (by decide) (by decide) (by decide)

theorem st_main_v46 : Vfin V0 (Proc.devRef .tc main_v46) = (broadcastInDim S1x2048x1 ![1] bcast_S2048_S1x2048x1_1 : (⟨S2048, .f32⟩ : BufTy).Contents (Elt F) → (⟨S1x2048x1, .f32⟩ : BufTy).Contents (Elt F)) (Vfin V0 (Proc.devRef .tc main_v17)) :=
  stage_unary (tail0_inOrder (F := F)) (Vfin_eq0 V0) 81 main_v17 main_v46 (broadcastInDim S1x2048x1 ![1] bcast_S2048_S1x2048x1_1 : (⟨S2048, .f32⟩ : BufTy).Contents (Elt F) → (⟨S1x2048x1, .f32⟩ : BufTy).Contents (Elt F)) rfl (by decide) (by decide)

end Cert.ReferenceIdeal.Hand

end
-- ==== Proof.Ref.Stages1.lean ====
import proofs.«421025_j30305289241172_1_alg».proof.Proof.Ref.StageBase

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F] (V0 : Valuation τ sig (Elt F))

theorem st_main_v47 : Vfin V0 (Proc.devRef .tc main_v47) = (broadcastInDim S16x2048x512 ![0, 1, 2] bcast_S1x2048x1_S16x2048x512_0_1_2 : (⟨S1x2048x1, .f32⟩ : BufTy).Contents (Elt F) → (⟨S16x2048x512, .f32⟩ : BufTy).Contents (Elt F)) (Vfin V0 (Proc.devRef .tc main_v46)) :=
  stage_unary (tail1_inOrder (F := F)) (Vfin_eq1 V0) 0 main_v46 main_v47 (broadcastInDim S16x2048x512 ![0, 1, 2] bcast_S1x2048x1_S16x2048x512_0_1_2 : (⟨S1x2048x1, .f32⟩ : BufTy).Contents (Elt F) → (⟨S16x2048x512, .f32⟩ : BufTy).Contents (Elt F)) rfl (by decide) (by decide)

theorem st_main_v48 : Vfin V0 (Proc.devRef .tc main_v48) = (mulf : (⟨S16x2048x512, .f32⟩ : BufTy).Contents (Elt F) → (⟨S16x2048x512, .f32⟩ : BufTy).Contents (Elt F) → (⟨S16x2048x512, .f32⟩ : BufTy).Contents (Elt F)) (Vfin V0 (Proc.devRef .tc main_v18)) (Vfin V0 (Proc.devRef .tc main_v47)) :=
  stage_binary (tail1_inOrder (F := F)) (Vfin_eq1 V0) 1 main_v18 main_v47 main_v48 (mulf : (⟨S16x2048x512, .f32⟩ : BufTy).Contents (Elt F) → (⟨S16x2048x512, .f32⟩ : BufTy).Contents (Elt F) → (⟨S16x2048x512, .f32⟩ : BufTy).Contents (Elt F)) rfl (by decide) (by decide) (by decide)

theorem st_main_v49 : Vfin V0 (Proc.devRef .tc main_v49) = (addf : (⟨S16x2048x512, .f32⟩ : BufTy).Contents (Elt F) → (⟨S16x2048x512, .f32⟩ : BufTy).Contents (Elt F) → (⟨S16x2048x512, .f32⟩ : BufTy).Contents (Elt F)) (Vfin V0 (Proc.devRef .tc main_v45)) (Vfin V0 (Proc.devRef .tc main_v48)) :=
  stage_binary (tail1_inOrder (F := F)) (Vfin_eq1 V0) 2 main_v45 main_v48 main_v49 (addf : (⟨S16x2048x512, .f32⟩ : BufTy).Contents (Elt F) → (⟨S16x2048x512, .f32⟩ : BufTy).Contents (Elt F) → (⟨S16x2048x512, .f32⟩ : BufTy).Contents (Elt F)) rfl (by decide) (by decide) (by decide)

theorem st_main_v50 : Vfin V0 (Proc.devRef .tc main_v50) = (broadcastInDim S1x1x512 ![2] bcast_S512_S1x1x512_2 : (⟨S512, .f32⟩ : BufTy).Contents (Elt F) → (⟨S1x1x512, .f32⟩ : BufTy).Contents (Elt F)) (Vfin V0 (Proc.devRef .tc main_arg3)) :=
  stage_unary (tail1_inOrder (F := F)) (Vfin_eq1 V0) 3 main_arg3 main_v50 (broadcastInDim S1x1x512 ![2] bcast_S512_S1x1x512_2 : (⟨S512, .f32⟩ : BufTy).Contents (Elt F) → (⟨S1x1x512, .f32⟩ : BufTy).Contents (Elt F)) rfl (by decide) (by decide)

theorem st_main_v51 : Vfin V0 (Proc.devRef .tc main_v51) = (broadcastInDim S16x2048x512 ![0, 1, 2] bcast_S1x1x512_S16x2048x512_0_1_2 : (⟨S1x1x512, .f32⟩ : BufTy).Contents (Elt F) → (⟨S16x2048x512, .f32⟩ : BufTy).Contents (Elt F)) (Vfin V0 (Proc.devRef .tc main_v50)) :=
  stage_unary (tail1_inOrder (F := F)) (Vfin_eq1 V0) 4 main_v50 main_v51 (broadcastInDim S16x2048x512 ![0, 1, 2] bcast_S1x1x512_S16x2048x512_0_1_2 : (⟨S1x1x512, .f32⟩ : BufTy).Contents (Elt F) → (⟨S16x2048x512, .f32⟩ : BufTy).Contents (Elt F)) rfl (by decide) (by decide)

theorem st_main_v52 : Vfin V0 (Proc.devRef .tc main_v52) = (addf : (⟨S16x2048x512, .f32⟩ : BufTy).Contents (Elt F) → (⟨S16x2048x512, .f32⟩ : BufTy).Contents (Elt F) → (⟨S16x2048x512, .f32⟩ : BufTy).Contents (Elt F)) (Vfin V0 (Proc.devRef .tc main_v49)) (Vfin V0 (Proc.devRef .tc main_v51)) :=
  stage_binary (tail1_inOrder (F := F)) (Vfin_eq1 V0) 5 main_v49 main_v51 main_v52 (addf : (⟨S16x2048x512, .f32⟩ : BufTy).Contents (Elt F) → (⟨S16x2048x512, .f32⟩ : BufTy).Contents (Elt F) → (⟨S16x2048x512, .f32⟩ : BufTy).Contents (Elt F)) rfl (by decide) (by decide) (by decide)

theorem st_main_v53 : Vfin V0 (Proc.devRef .tc main_v53) = ((fun l r => Host.dotGeneral dot_S16x2048x512_S512x512_S16x2048x512_2_0_01_1_n_n none l r) : (⟨S16x2048x512, .f32⟩ : BufTy).Contents (Elt F) → (⟨S512x512, .f32⟩ : BufTy).Contents (Elt F) → (⟨S16x2048x512, .f32⟩ : BufTy).Contents (Elt F)) (Vfin V0 (Proc.devRef .tc main_v52)) (Vfin V0 (Proc.devRef .tc main_arg4)) :=
  stage_binary (tail1_inOrder (F := F)) (Vfin_eq1 V0) 6 main_v52 main_arg4 main_v53 ((fun l r => Host.dotGeneral dot_S16x2048x512_S512x512_S16x2048x512_2_0_01_1_n_n none l r) : (⟨S16x2048x512, .f32⟩ : BufTy).Contents (Elt F) → (⟨S512x512, .f32⟩ : BufTy).Contents (Elt F) → (⟨S16x2048x512, .f32⟩ : BufTy).Contents (Elt F)) rfl (by decide) (by decide) (by decide)

theorem st_main_c_11 : Vfin V0 (Proc.devRef .tc main_c_11) = ((constantI S_ 32 0#32) : (⟨S_, .i32⟩ : BufTy).Contents (Elt F)) :=
  stage_nullary (tail1_inOrder (F := F)) (Vfin_eq1 V0) 7 main_c_11 ((constantI S_ 32 0#32) : (⟨S_, .i32⟩ : BufTy).Contents (Elt F)) rfl (by decide)

theorem st_main_v54 : Vfin V0 (Proc.devRef .tc main_v54) = (broadcastInDim S12288 ![] bcast_S_S12288 : (⟨S_, .i32⟩ : BufTy).Contents (Elt F) → (⟨S12288, .i32⟩ : BufTy).Contents (Elt F)) (Vfin V0 (Proc.devRef .tc main_c_11)) :=
  stage_unary (tail1_inOrder (F := F)) (Vfin_eq1 V0) 8 main_c_11 main_v54 (broadcastInDim S12288 ![] bcast_S_S12288 : (⟨S_, .i32⟩ : BufTy).Contents (Elt F) → (⟨S12288, .i32⟩ : BufTy).Contents (Elt F)) rfl (by decide) (by decide)

theorem st_main_v55 : Vfin V0 (Proc.devRef .tc main_v55) = (cmpi .slt : (⟨S12288, .i32⟩ : BufTy).Contents (Elt F) → (⟨S12288, .i32⟩ : BufTy).Contents (Elt F) → (⟨S12288, .i1⟩ : BufTy).Contents (Elt F)) (Vfin V0 (Proc.devRef .tc main_v1)) (Vfin V0 (Proc.devRef .tc main_v54)) :=
  stage_binary (tail1_inOrder (F := F)) (Vfin_eq1 V0) 9 main_v1 main_v54 main_v55 (cmpi .slt : (⟨S12288, .i32⟩ : BufTy).Contents (Elt F) → (⟨S12288, .i32⟩ : BufTy).Contents (Elt F) → (⟨S12288, .i1⟩ : BufTy).Contents (Elt F)) rfl (by decide) (by decide) (by decide)

theorem st_main_c_12 : Vfin V0 (Proc.devRef .tc main_c_12) = ((constantI S_ 32 2048#32) : (⟨S_, .i32⟩ : BufTy).Contents (Elt F)) :=
  stage_nullary (tail1_inOrder (F := F)) (Vfin_eq1 V0) 10 main_c_12 ((constantI S_ 32 2048#32) : (⟨S_, .i32⟩ : BufTy).Contents (Elt F)) rfl (by decide)

theorem st_main_v56 : Vfin V0 (Proc.devRef .tc main_v56) = (broadcastInDim S12288 ![] bcast_S_S12288 : (⟨S_, .i32⟩ : BufTy).Contents (Elt F) → (⟨S12288, .i32⟩ : BufTy).Contents (Elt F)) (Vfin V0 (Proc.devRef .tc main_c_12)) :=
  stage_unary (tail1_inOrder (F := F)) (Vfin_eq1 V0) 11 main_c_12 main_v56 (broadcastInDim S12288 ![] bcast_S_S12288 : (⟨S_, .i32⟩ : BufTy).Contents (Elt F) → (⟨S12288, .i32⟩ : BufTy).Contents (Elt F)) rfl (by decide) (by decide)

theorem st_main_v57 : Vfin V0 (Proc.devRef .tc main_v57) = (addi : (⟨S12288, .i32⟩ : BufTy).Contents (Elt F) → (⟨S12288, .i32⟩ : BufTy).Contents (Elt F) → (⟨S12288, .i32⟩ : BufTy).Contents (Elt F)) (Vfin V0 (Proc.devRef .tc main_v1)) (Vfin V0 (Proc.devRef .tc main_v56)) :=
  stage_binary (tail1_inOrder (F := F)) (Vfin_eq1 V0) 12 main_v1 main_v56 main_v57 (addi : (⟨S12288, .i32⟩ : BufTy).Contents (Elt F) → (⟨S12288, .i32⟩ : BufTy).Contents (Elt F) → (⟨S12288, .i32⟩ : BufTy).Contents (Elt F)) rfl (by decide) (by decide) (by decide)

theorem st_main_v58 : Vfin V0 (Proc.devRef .tc main_v58) = (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) (Vfin V0 (Proc.devRef .tc main_v55)) (Vfin V0 (Proc.devRef .tc main_v57)) (Vfin V0 (Proc.devRef .tc main_v1)) :=
  stage_ternary (tail1_inOrder (F := F)) (Vfin_eq1 V0) 13 main_v55 main_v57 main_v1 main_v58 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) rfl (by decide) (by decide) (by decide) (by decide)

theorem st_main_v59 : Vfin V0 (Proc.devRef .tc main_v59) = (broadcastInDim S12288x1 ![0] bcast_S12288_S12288x1_0 : (⟨S12288, .i32⟩ : BufTy).Contents (Elt F) → (⟨S12288x1, .i32⟩ : BufTy).Contents (Elt F)) (Vfin V0 (Proc.devRef .tc main_v58)) :=
  stage_unary (tail1_inOrder (F := F)) (Vfin_eq1 V0) 14 main_v58 main_v59 (broadcastInDim S12288x1 ![0] bcast_S12288_S12288x1_0 : (⟨S12288, .i32⟩ : BufTy).Contents (Elt F) → (⟨S12288x1, .i32⟩ : BufTy).Contents (Elt F)) rfl (by decide) (by decide)

theorem st_main_v60 : Vfin V0 (Proc.devRef .tc main_v60) = ((fun x i => Host.gather gather_S2048_S12288x1_S12288_n_0_n_n_0_1_1 x i) : (⟨S2048, .f32⟩ : BufTy).Contents (Elt F) → (⟨S12288x1, .i32⟩ : BufTy).Contents (Elt F) → (⟨S12288, .f32⟩ : BufTy).Contents (Elt F)) (Vfin V0 (Proc.devRef .tc main_v15)) (Vfin V0 (Proc.devRef .tc main_v59)) :=
  stage_binary (tail1_inOrder (F := F)) (Vfin_eq1 V0) 15 main_v15 main_v59 main_v60 ((fun x i => Host.gather gather_S2048_S12288x1_S12288_n_0_n_n_0_1_1 x i) : (⟨S2048, .f32⟩ : BufTy).Contents (Elt F) → (⟨S12288x1, .i32⟩ : BufTy).Contents (Elt F) → (⟨S12288, .f32⟩ : BufTy).Contents (Elt F)) rfl (by decide) (by decide) (by decide)

theorem st_main_c_13 : Vfin V0 (Proc.devRef .tc main_c_13) = ((constantI S_ 32 0#32) : (⟨S_, .i32⟩ : BufTy).Contents (Elt F)) :=
  stage_nullary (tail1_inOrder (F := F)) (Vfin_eq1 V0) 16 main_c_13 ((constantI S_ 32 0#32) : (⟨S_, .i32⟩ : BufTy).Contents (Elt F)) rfl (by decide)

theorem st_main_v61 : Vfin V0 (Proc.devRef .tc main_v61) = (broadcastInDim S12288 ![] bcast_S_S12288 : (⟨S_, .i32⟩ : BufTy).Contents (Elt F) → (⟨S12288, .i32⟩ : BufTy).Contents (Elt F)) (Vfin V0 (Proc.devRef .tc main_c_13)) :=
  stage_unary (tail1_inOrder (F := F)) (Vfin_eq1 V0) 17 main_c_13 main_v61 (broadcastInDim S12288 ![] bcast_S_S12288 : (⟨S_, .i32⟩ : BufTy).Contents (Elt F) → (⟨S12288, .i32⟩ : BufTy).Contents (Elt F)) rfl (by decide) (by decide)

theorem st_main_v62 : Vfin V0 (Proc.devRef .tc main_v62) = (cmpi .slt : (⟨S12288, .i32⟩ : BufTy).Contents (Elt F) → (⟨S12288, .i32⟩ : BufTy).Contents (Elt F) → (⟨S12288, .i1⟩ : BufTy).Contents (Elt F)) (Vfin V0 (Proc.devRef .tc main_v3)) (Vfin V0 (Proc.devRef .tc main_v61)) :=
  stage_binary (tail1_inOrder (F := F)) (Vfin_eq1 V0) 18 main_v3 main_v61 main_v62 (cmpi .slt : (⟨S12288, .i32⟩ : BufTy).Contents (Elt F) → (⟨S12288, .i32⟩ : BufTy).Contents (Elt F) → (⟨S12288, .i1⟩ : BufTy).Contents (Elt F)) rfl (by decide) (by decide) (by decide)

theorem st_main_c_14 : Vfin V0 (Proc.devRef .tc main_c_14) = ((constantI S_ 32 2048#32) : (⟨S_, .i32⟩ : BufTy).Contents (Elt F)) :=
  stage_nullary (tail1_inOrder (F := F)) (Vfin_eq1 V0) 19 main_c_14 ((constantI S_ 32 2048#32) : (⟨S_, .i32⟩ : BufTy).Contents (Elt F)) rfl (by decide)

theorem st_main_v63 : Vfin V0 (Proc.devRef .tc main_v63) = (broadcastInDim S12288 ![] bcast_S_S12288 : (⟨S_, .i32⟩ : BufTy).Contents (Elt F) → (⟨S12288, .i32⟩ : BufTy).Contents (Elt F)) (Vfin V0 (Proc.devRef .tc main_c_14)) :=
  stage_unary (tail1_inOrder (F := F)) (Vfin_eq1 V0) 20 main_c_14 main_v63 (broadcastInDim S12288 ![] bcast_S_S12288 : (⟨S_, .i32⟩ : BufTy).Contents (Elt F) → (⟨S12288, .i32⟩ : BufTy).Contents (Elt F)) rfl (by decide) (by decide)

theorem st_main_v64 : Vfin V0 (Proc.devRef .tc main_v64) = (addi : (⟨S12288, .i32⟩ : BufTy).Contents (Elt F) → (⟨S12288, .i32⟩ : BufTy).Contents (Elt F) → (⟨S12288, .i32⟩ : BufTy).Contents (Elt F)) (Vfin V0 (Proc.devRef .tc main_v3)) (Vfin V0 (Proc.devRef .tc main_v63)) :=
  stage_binary (tail1_inOrder (F := F)) (Vfin_eq1 V0) 21 main_v3 main_v63 main_v64 (addi : (⟨S12288, .i32⟩ : BufTy).Contents (Elt F) → (⟨S12288, .i32⟩ : BufTy).Contents (Elt F) → (⟨S12288, .i32⟩ : BufTy).Contents (Elt F)) rfl (by decide) (by decide) (by decide)

theorem st_main_v65 : Vfin V0 (Proc.devRef .tc main_v65) = (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) (Vfin V0 (Proc.devRef .tc main_v62)) (Vfin V0 (Proc.devRef .tc main_v64)) (Vfin V0 (Proc.devRef .tc main_v3)) :=
  stage_ternary (tail1_inOrder (F := F)) (Vfin_eq1 V0) 22 main_v62 main_v64 main_v3 main_v65 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) rfl (by decide) (by decide) (by decide) (by decide)

theorem st_main_v66 : Vfin V0 (Proc.devRef .tc main_v66) = (broadcastInDim S12288x1 ![0] bcast_S12288_S12288x1_0 : (⟨S12288, .i32⟩ : BufTy).Contents (Elt F) → (⟨S12288x1, .i32⟩ : BufTy).Contents (Elt F)) (Vfin V0 (Proc.devRef .tc main_v65)) :=
  stage_unary (tail1_inOrder (F := F)) (Vfin_eq1 V0) 23 main_v65 main_v66 (broadcastInDim S12288x1 ![0] bcast_S12288_S12288x1_0 : (⟨S12288, .i32⟩ : BufTy).Contents (Elt F) → (⟨S12288x1, .i32⟩ : BufTy).Contents (Elt F)) rfl (by decide) (by decide)

theorem st_main_v67 : Vfin V0 (Proc.devRef .tc main_v67) = ((fun x i => Host.gather gather_S2048_S12288x1_S12288_n_0_n_n_0_1_1 x i) : (⟨S2048, .f32⟩ : BufTy).Contents (Elt F) → (⟨S12288x1, .i32⟩ : BufTy).Contents (Elt F) → (⟨S12288, .f32⟩ : BufTy).Contents (Elt F)) (Vfin V0 (Proc.devRef .tc main_v15)) (Vfin V0 (Proc.devRef .tc main_v66)) :=
  stage_binary (tail1_inOrder (F := F)) (Vfin_eq1 V0) 24 main_v15 main_v66 main_v67 ((fun x i => Host.gather gather_S2048_S12288x1_S12288_n_0_n_n_0_1_1 x i) : (⟨S2048, .f32⟩ : BufTy).Contents (Elt F) → (⟨S12288x1, .i32⟩ : BufTy).Contents (Elt F) → (⟨S12288, .f32⟩ : BufTy).Contents (Elt F)) rfl (by decide) (by decide) (by decide)

theorem st_main_v68 : Vfin V0 (Proc.devRef .tc main_v68) = (mulf : (⟨S12288, .f32⟩ : BufTy).Contents (Elt F) → (⟨S12288, .f32⟩ : BufTy).Contents (Elt F) → (⟨S12288, .f32⟩ : BufTy).Contents (Elt F)) (Vfin V0 (Proc.devRef .tc main_v60)) (Vfin V0 (Proc.devRef .tc main_v67)) :=
  stage_binary (tail1_inOrder (F := F)) (Vfin_eq1 V0) 25 main_v60 main_v67 main_v68 (mulf : (⟨S12288, .f32⟩ : BufTy).Contents (Elt F) → (⟨S12288, .f32⟩ : BufTy).Contents (Elt F) → (⟨S12288, .f32⟩ : BufTy).Contents (Elt F)) rfl (by decide) (by decide) (by decide)

theorem st_main_call1_c : Vfin V0 (Proc.devRef .tc main_call1_c) = ((constantI S_ 32 0#32) : (⟨S_, .i32⟩ : BufTy).Contents (Elt F)) :=
  stage_tnullary (tail1_inOrder (F := F)) (Vfin_eq1 V0) 26 (.of main_call1_c : StableHlo.TRef sig ⟨S_, .i32⟩) (constantI S_ 32 0#32) rfl (by decide)

theorem st_main_call1_v0 : Vfin V0 (Proc.devRef .tc main_call1_v0) = ((broadcastInDim S12288 ![] bcast_S_S12288) : (⟨S_, .i32⟩ : BufTy).Contents (Elt F) → (⟨S12288, .i32⟩ : BufTy).Contents (Elt F)) (Vfin V0 (Proc.devRef .tc main_call1_c)) :=
  stage_tunary (tail1_inOrder (F := F)) (Vfin_eq1 V0) 27 (.of main_call1_c : StableHlo.TRef sig ⟨S_, .i32⟩) (.of main_call1_v0 : StableHlo.TRef sig ⟨S12288, .i32⟩) (broadcastInDim S12288 ![] bcast_S_S12288) rfl (by decide) (by decide)

theorem st_main_call1_v1 : Vfin V0 (Proc.devRef .tc main_call1_v1) = ((cmpi .slt) : (⟨S12288, .i32⟩ : BufTy).Contents (Elt F) → (⟨S12288, .i32⟩ : BufTy).Contents (Elt F) → (⟨S12288, .i1⟩ : BufTy).Contents (Elt F)) (Vfin V0 (Proc.devRef .tc main_v1)) (Vfin V0 (Proc.devRef .tc main_call1_v0)) :=
  stage_tbinary (tail1_inOrder (F := F)) (Vfin_eq1 V0) 28 (.of main_v1 : StableHlo.TRef sig ⟨S12288, .i32⟩) (.of main_call1_v0 : StableHlo.TRef sig ⟨S12288, .i32⟩) (.of main_call1_v1 : StableHlo.TRef sig ⟨S12288, .i1⟩) (cmpi .slt) rfl (by decide) (by decide) (by decide)

theorem st_main_call1_c_0 : Vfin V0 (Proc.devRef .tc main_call1_c_0) = ((constantI S_ 32 2048#32) : (⟨S_, .i32⟩ : BufTy).Contents (Elt F)) :=
  stage_tnullary (tail1_inOrder (F := F)) (Vfin_eq1 V0) 29 (.of main_call1_c_0 : StableHlo.TRef sig ⟨S_, .i32⟩) (constantI S_ 32 2048#32) rfl (by decide)

theorem st_main_call1_v2 : Vfin V0 (Proc.devRef .tc main_call1_v2) = ((broadcastInDim S12288 ![] bcast_S_S12288) : (⟨S_, .i32⟩ : BufTy).Contents (Elt F) → (⟨S12288, .i32⟩ : BufTy).Contents (Elt F)) (Vfin V0 (Proc.devRef .tc main_call1_c_0)) :=
  stage_tunary (tail1_inOrder (F := F)) (Vfin_eq1 V0) 30 (.of main_call1_c_0 : StableHlo.TRef sig ⟨S_, .i32⟩) (.of main_call1_v2 : StableHlo.TRef sig ⟨S12288, .i32⟩) (broadcastInDim S12288 ![] bcast_S_S12288) rfl (by decide) (by decide)

theorem st_main_call1_v3 : Vfin V0 (Proc.devRef .tc main_call1_v3) = (addi : (⟨S12288, .i32⟩ : BufTy).Contents (Elt F) → (⟨S12288, .i32⟩ : BufTy).Contents (Elt F) → (⟨S12288, .i32⟩ : BufTy).Contents (Elt F)) (Vfin V0 (Proc.devRef .tc main_v1)) (Vfin V0 (Proc.devRef .tc main_call1_v2)) :=
  stage_tbinary (tail1_inOrder (F := F)) (Vfin_eq1 V0) 31 (.of main_v1 : StableHlo.TRef sig ⟨S12288, .i32⟩) (.of main_call1_v2 : StableHlo.TRef sig ⟨S12288, .i32⟩) (.of main_call1_v3 : StableHlo.TRef sig ⟨S12288, .i32⟩) addi rfl (by decide) (by decide) (by decide)

theorem st_main_call1_v4 : Vfin V0 (Proc.devRef .tc main_call1_v4) = (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) (Vfin V0 (Proc.devRef .tc main_call1_v1)) (Vfin V0 (Proc.devRef .tc main_call1_v3)) (Vfin V0 (Proc.devRef .tc main_v1)) :=
  stage_tternary (tail1_inOrder (F := F)) (Vfin_eq1 V0) 32 (.of main_call1_v1 : StableHlo.TRef sig ⟨S12288, .i1⟩) (.of main_call1_v3 : StableHlo.TRef sig ⟨S12288, .i32⟩) (.of main_v1 : StableHlo.TRef sig ⟨S12288, .i32⟩) (.of main_call1_v4 : StableHlo.TRef sig ⟨S12288, .i32⟩) select rfl (by decide) (by decide) (by decide) (by decide)

theorem st_main_call1_v5 : Vfin V0 (Proc.devRef .tc main_call1_v5) = ((broadcastInDim S12288x1 ![0] bcast_S12288_S12288x1_0) : (⟨S12288, .i32⟩ : BufTy).Contents (Elt F) → (⟨S12288x1, .i32⟩ : BufTy).Contents (Elt F)) (Vfin V0 (Proc.devRef .tc main_call1_v4)) :=
  stage_tunary (tail1_inOrder (F := F)) (Vfin_eq1 V0) 33 (.of main_call1_v4 : StableHlo.TRef sig ⟨S12288, .i32⟩) (.of main_call1_v5 : StableHlo.TRef sig ⟨S12288x1, .i32⟩) (broadcastInDim S12288x1 ![0] bcast_S12288_S12288x1_0) rfl (by decide) (by decide)

theorem st_main_call1_c_1 : Vfin V0 (Proc.devRef .tc main_call1_c_1) = ((constantI S1 32 2047#32) : (⟨S1, .i32⟩ : BufTy).Contents (Elt F)) :=
  stage_tnullary (tail1_inOrder (F := F)) (Vfin_eq1 V0) 34 (.of main_call1_c_1 : StableHlo.TRef sig ⟨S1, .i32⟩) (constantI S1 32 2047#32) rfl (by decide)

theorem st_main_call1_c_2 : Vfin V0 (Proc.devRef .tc main_call1_c_2) = ((constantI S_ 32 0#32) : (⟨S_, .i32⟩ : BufTy).Contents (Elt F)) :=
  stage_tnullary (tail1_inOrder (F := F)) (Vfin_eq1 V0) 35 (.of main_call1_c_2 : StableHlo.TRef sig ⟨S_, .i32⟩) (constantI S_ 32 0#32) rfl (by decide)

theorem st_main_call1_v6 : Vfin V0 (Proc.devRef .tc main_call1_v6) = ((broadcastInDim S12288x1 ![] bcast_S_S12288x1) : (⟨S_, .i32⟩ : BufTy).Contents (Elt F) → (⟨S12288x1, .i32⟩ : BufTy).Contents (Elt F)) (Vfin V0 (Proc.devRef .tc main_call1_c_2)) :=
  stage_tunary (tail1_inOrder (F := F)) (Vfin_eq1 V0) 36 (.of main_call1_c_2 : StableHlo.TRef sig ⟨S_, .i32⟩) (.of main_call1_v6 : StableHlo.TRef sig ⟨S12288x1, .i32⟩) (broadcastInDim S12288x1 ![] bcast_S_S12288x1) rfl (by decide) (by decide)

theorem st_main_call1_v7 : Vfin V0 (Proc.devRef .tc main_call1_v7) = ((cmpi .sge) : (⟨S12288x1, .i32⟩ : BufTy).Contents (Elt F) → (⟨S12288x1, .i32⟩ : BufTy).Contents (Elt F) → (⟨S12288x1, .i1⟩ : BufTy).Contents (Elt F)) (Vfin V0 (Proc.devRef .tc main_call1_v5)) (Vfin V0 (Proc.devRef .tc main_call1_v6)) :=
  stage_tbinary (tail1_inOrder (F := F)) (Vfin_eq1 V0) 37 (.of main_call1_v5 : StableHlo.TRef sig ⟨S12288x1, .i32⟩) (.of main_call1_v6 : StableHlo.TRef sig ⟨S12288x1, .i32⟩) (.of main_call1_v7 : StableHlo.TRef sig ⟨S12288x1, .i1⟩) (cmpi .sge) rfl (by decide) (by decide) (by decide)

theorem st_main_call1_v8 : Vfin V0 (Proc.devRef .tc main_call1_v8) = ((broadcastInDim S1x1 ![1] bcast_S1_S1x1_1) : (⟨S1, .i32⟩ : BufTy).Contents (Elt F) → (⟨S1x1, .i32⟩ : BufTy).Contents (Elt F)) (Vfin V0 (Proc.devRef .tc main_call1_c_1)) :=
  stage_tunary (tail1_inOrder (F := F)) (Vfin_eq1 V0) 38 (.of main_call1_c_1 : StableHlo.TRef sig ⟨S1, .i32⟩) (.of main_call1_v8 : StableHlo.TRef sig ⟨S1x1, .i32⟩) (broadcastInDim S1x1 ![1] bcast_S1_S1x1_1) rfl (by decide) (by decide)

theorem st_main_call1_v9 : Vfin V0 (Proc.devRef .tc main_call1_v9) = ((broadcastInDim S12288x1 ![0, 1] bcast_S1x1_S12288x1_0_1) : (⟨S1x1, .i32⟩ : BufTy).Contents (Elt F) → (⟨S12288x1, .i32⟩ : BufTy).Contents (Elt F)) (Vfin V0 (Proc.devRef .tc main_call1_v8)) :=
  stage_tunary (tail1_inOrder (F := F)) (Vfin_eq1 V0) 39 (.of main_call1_v8 : StableHlo.TRef sig ⟨S1x1, .i32⟩) (.of main_call1_v9 : StableHlo.TRef sig ⟨S12288x1, .i32⟩) (broadcastInDim S12288x1 ![0, 1] bcast_S1x1_S12288x1_0_1) rfl (by decide) (by decide)

theorem st_main_call1_v10 : Vfin V0 (Proc.devRef .tc main_call1_v10) = ((cmpi .sle) : (⟨S12288x1, .i32⟩ : BufTy).Contents (Elt F) → (⟨S12288x1, .i32⟩ : BufTy).Contents (Elt F) → (⟨S12288x1, .i1⟩ : BufTy).Contents (Elt F)) (Vfin V0 (Proc.devRef .tc main_call1_v5)) (Vfin V0 (Proc.devRef .tc main_call1_v9)) :=
  stage_tbinary (tail1_inOrder (F := F)) (Vfin_eq1 V0) 40 (.of main_call1_v5 : StableHlo.TRef sig ⟨S12288x1, .i32⟩) (.of main_call1_v9 : StableHlo.TRef sig ⟨S12288x1, .i32⟩) (.of main_call1_v10 : StableHlo.TRef sig ⟨S12288x1, .i1⟩) (cmpi .sle) rfl (by decide) (by decide) (by decide)

theorem st_main_call1_v11 : Vfin V0 (Proc.devRef .tc main_call1_v11) = (andi : (⟨S12288x1, .i1⟩ : BufTy).Contents (Elt F) → (⟨S12288x1, .i1⟩ : BufTy).Contents (Elt F) → (⟨S12288x1, .i1⟩ : BufTy).Contents (Elt F)) (Vfin V0 (Proc.devRef .tc main_call1_v7)) (Vfin V0 (Proc.devRef .tc main_call1_v10)) :=
  stage_tbinary (tail1_inOrder (F := F)) (Vfin_eq1 V0) 41 (.of main_call1_v7 : StableHlo.TRef sig ⟨S12288x1, .i1⟩) (.of main_call1_v10 : StableHlo.TRef sig ⟨S12288x1, .i1⟩) (.of main_call1_v11 : StableHlo.TRef sig ⟨S12288x1, .i1⟩) andi rfl (by decide) (by decide) (by decide)

theorem st_main_call1_c_3 : Vfin V0 (Proc.devRef .tc main_call1_c_3) = ((constantI S_ 1 1#1) : (⟨S_, .i1⟩ : BufTy).Contents (Elt F)) :=
  stage_tnullary (tail1_inOrder (F := F)) (Vfin_eq1 V0) 42 (.of main_call1_c_3 : StableHlo.TRef sig ⟨S_, .i1⟩) (constantI S_ 1 1#1) rfl (by decide)

theorem st_main_call1_v12 : Vfin V0 (Proc.devRef .tc main_call1_v12) = ((fun x v => Host.reduce IntOp.andi x v reducesTo_S12288x1_S12288_d1 h_S_) : (⟨S12288x1, .i1⟩ : BufTy).Contents (Elt F) → (⟨S_, .i1⟩ : BufTy).Contents (Elt F) → (⟨S12288, .i1⟩ : BufTy).Contents (Elt F)) (Vfin V0 (Proc.devRef .tc main_call1_v11)) (Vfin V0 (Proc.devRef .tc main_call1_c_3)) :=
  stage_tbinary (tail1_inOrder (F := F)) (Vfin_eq1 V0) 43 (.of main_call1_v11 : StableHlo.TRef sig ⟨S12288x1, .i1⟩) (.of main_call1_c_3 : StableHlo.TRef sig ⟨S_, .i1⟩) (.of main_call1_v12 : StableHlo.TRef sig ⟨S12288, .i1⟩) (fun x v => Host.reduce IntOp.andi x v reducesTo_S12288x1_S12288_d1 h_S_) rfl (by decide) (by decide) (by decide)

theorem st_main_call1_v13 : Vfin V0 (Proc.devRef .tc main_call1_v13) = ((fun x i => Host.gather gather_S16x2048x512_S12288x1_S16x12288x512_02_1_n_n_1_1_161512 x i) : (⟨S16x2048x512, .f32⟩ : BufTy).Contents (Elt F) → (⟨S12288x1, .i32⟩ : BufTy).Contents (Elt F) → (⟨S16x12288x512, .f32⟩ : BufTy).Contents (Elt F)) (Vfin V0 (Proc.devRef .tc main_v53)) (Vfin V0 (Proc.devRef .tc main_call1_v5)) :=
  stage_tbinary (tail1_inOrder (F := F)) (Vfin_eq1 V0) 44 (.of main_v53 : StableHlo.TRef sig ⟨S16x2048x512, .f32⟩) (.of main_call1_v5 : StableHlo.TRef sig ⟨S12288x1, .i32⟩) (.of main_call1_v13 : StableHlo.TRef sig ⟨S16x12288x512, .f32⟩) (fun x i => Host.gather gather_S16x2048x512_S12288x1_S16x12288x512_02_1_n_n_1_1_161512 x i) rfl (by decide) (by decide) (by decide)

theorem st_main_call1_v14 : Vfin V0 (Proc.devRef .tc main_call1_v14) = ((broadcastInDim S16x12288x512 ![1] bcast_S12288_S16x12288x512_1) : (⟨S12288, .i1⟩ : BufTy).Contents (Elt F) → (⟨S16x12288x512, .i1⟩ : BufTy).Contents (Elt F)) (Vfin V0 (Proc.devRef .tc main_call1_v12)) :=
  stage_tunary (tail1_inOrder (F := F)) (Vfin_eq1 V0) 45 (.of main_call1_v12 : StableHlo.TRef sig ⟨S12288, .i1⟩) (.of main_call1_v14 : StableHlo.TRef sig ⟨S16x12288x512, .i1⟩) (broadcastInDim S16x12288x512 ![1] bcast_S12288_S16x12288x512_1) rfl (by decide) (by decide)

theorem st_main_call1_cst : Vfin V0 (Proc.devRef .tc main_call1_cst) = ((constant S_ .f32 0x7FC00000#32) : (⟨S_, .f32⟩ : BufTy).Contents (Elt F)) :=
  stage_tnullary (tail1_inOrder (F := F)) (Vfin_eq1 V0) 46 (.of main_call1_cst : StableHlo.TRef sig ⟨S_, .f32⟩) (constant S_ .f32 0x7FC00000#32) rfl (by decide)

theorem st_main_call1_v15 : Vfin V0 (Proc.devRef .tc main_call1_v15) = ((broadcastInDim S16x12288x512 ![] bcast_S_S16x12288x512) : (⟨S_, .f32⟩ : BufTy).Contents (Elt F) → (⟨S16x12288x512, .f32⟩ : BufTy).Contents (Elt F)) (Vfin V0 (Proc.devRef .tc main_call1_cst)) :=
  stage_tunary (tail1_inOrder (F := F)) (Vfin_eq1 V0) 47 (.of main_call1_cst : StableHlo.TRef sig ⟨S_, .f32⟩) (.of main_call1_v15 : StableHlo.TRef sig ⟨S16x12288x512, .f32⟩) (broadcastInDim S16x12288x512 ![] bcast_S_S16x12288x512) rfl (by decide) (by decide)

theorem st_main_v69 : Vfin V0 (Proc.devRef .tc main_v69) = (select : (⟨S16x12288x512, .i1⟩ : BufTy).Contents (Elt F) → (⟨S16x12288x512, .f32⟩ : BufTy).Contents (Elt F) → (⟨S16x12288x512, .f32⟩ : BufTy).Contents (Elt F) → (⟨S16x12288x512, .f32⟩ : BufTy).Contents (Elt F)) (Vfin V0 (Proc.devRef .tc main_call1_v14)) (Vfin V0 (Proc.devRef .tc main_call1_v13)) (Vfin V0 (Proc.devRef .tc main_call1_v15)) :=
  stage_tternary (tail1_inOrder (F := F)) (Vfin_eq1 V0) 48 (.of main_call1_v14 : StableHlo.TRef sig ⟨S16x12288x512, .i1⟩) (.of main_call1_v13 : StableHlo.TRef sig ⟨S16x12288x512, .f32⟩) (.of main_call1_v15 : StableHlo.TRef sig ⟨S16x12288x512, .f32⟩) (.of main_v69 : StableHlo.TRef sig ⟨S16x12288x512, .f32⟩) select rfl (by decide) (by decide) (by decide) (by decide)

theorem st_main_v70 : Vfin V0 (Proc.devRef .tc main_v70) = (broadcastInDim S1x12288x1 ![1] bcast_S12288_S1x12288x1_1 : (⟨S12288, .f32⟩ : BufTy).Contents (Elt F) → (⟨S1x12288x1, .f32⟩ : BufTy).Contents (Elt F)) (Vfin V0 (Proc.devRef .tc main_v68)) :=
  stage_unary (tail1_inOrder (F := F)) (Vfin_eq1 V0) 49 main_v68 main_v70 (broadcastInDim S1x12288x1 ![1] bcast_S12288_S1x12288x1_1 : (⟨S12288, .f32⟩ : BufTy).Contents (Elt F) → (⟨S1x12288x1, .f32⟩ : BufTy).Contents (Elt F)) rfl (by decide) (by decide)

theorem st_main_v71 : Vfin V0 (Proc.devRef .tc main_v71) = (broadcastInDim S16x12288x512 ![0, 1, 2] bcast_S1x12288x1_S16x12288x512_0_1_2 : (⟨S1x12288x1, .f32⟩ : BufTy).Contents (Elt F) → (⟨S16x12288x512, .f32⟩ : BufTy).Contents (Elt F)) (Vfin V0 (Proc.devRef .tc main_v70)) :=
  stage_unary (tail1_inOrder (F := F)) (Vfin_eq1 V0) 50 main_v70 main_v71 (broadcastInDim S16x12288x512 ![0, 1, 2] bcast_S1x12288x1_S16x12288x512_0_1_2 : (⟨S1x12288x1, .f32⟩ : BufTy).Contents (Elt F) → (⟨S16x12288x512, .f32⟩ : BufTy).Contents (Elt F)) rfl (by decide) (by decide)

theorem st_main_v72 : Vfin V0 (Proc.devRef .tc main_v72) = (mulf : (⟨S16x12288x512, .f32⟩ : BufTy).Contents (Elt F) → (⟨S16x12288x512, .f32⟩ : BufTy).Contents (Elt F) → (⟨S16x12288x512, .f32⟩ : BufTy).Contents (Elt F)) (Vfin V0 (Proc.devRef .tc main_v69)) (Vfin V0 (Proc.devRef .tc main_v71)) :=
  stage_binary (tail1_inOrder (F := F)) (Vfin_eq1 V0) 51 main_v69 main_v71 main_v72 (mulf : (⟨S16x12288x512, .f32⟩ : BufTy).Contents (Elt F) → (⟨S16x12288x512, .f32⟩ : BufTy).Contents (Elt F) → (⟨S16x12288x512, .f32⟩ : BufTy).Contents (Elt F)) rfl (by decide) (by decide) (by decide)

theorem st_main_cst_15 : Vfin V0 (Proc.devRef .tc main_cst_15) = ((constant S_ .f32 0x00000000#32) : (⟨S_, .f32⟩ : BufTy).Contents (Elt F)) :=
  stage_nullary (tail1_inOrder (F := F)) (Vfin_eq1 V0) 52 main_cst_15 ((constant S_ .f32 0x00000000#32) : (⟨S_, .f32⟩ : BufTy).Contents (Elt F)) rfl (by decide)

theorem st_main_v73 : Vfin V0 (Proc.devRef .tc main_v73) = (broadcastInDim S16x2048x512 ![] bcast_S_S16x2048x512 : (⟨S_, .f32⟩ : BufTy).Contents (Elt F) → (⟨S16x2048x512, .f32⟩ : BufTy).Contents (Elt F)) (Vfin V0 (Proc.devRef .tc main_cst_15)) :=
  stage_unary (tail1_inOrder (F := F)) (Vfin_eq1 V0) 53 main_cst_15 main_v73 (broadcastInDim S16x2048x512 ![] bcast_S_S16x2048x512 : (⟨S_, .f32⟩ : BufTy).Contents (Elt F) → (⟨S16x2048x512, .f32⟩ : BufTy).Contents (Elt F)) rfl (by decide) (by decide)

theorem st_main_c_16 : Vfin V0 (Proc.devRef .tc main_c_16) = ((constantI S_ 32 0#32) : (⟨S_, .i32⟩ : BufTy).Contents (Elt F)) :=
  stage_nullary (tail1_inOrder (F := F)) (Vfin_eq1 V0) 54 main_c_16 ((constantI S_ 32 0#32) : (⟨S_, .i32⟩ : BufTy).Contents (Elt F)) rfl (by decide)

theorem st_main_v74 : Vfin V0 (Proc.devRef .tc main_v74) = (broadcastInDim S12288 ![] bcast_S_S12288 : (⟨S_, .i32⟩ : BufTy).Contents (Elt F) → (⟨S12288, .i32⟩ : BufTy).Contents (Elt F)) (Vfin V0 (Proc.devRef .tc main_c_16)) :=
  stage_unary (tail1_inOrder (F := F)) (Vfin_eq1 V0) 55 main_c_16 main_v74 (broadcastInDim S12288 ![] bcast_S_S12288 : (⟨S_, .i32⟩ : BufTy).Contents (Elt F) → (⟨S12288, .i32⟩ : BufTy).Contents (Elt F)) rfl (by decide) (by decide)

theorem st_main_v75 : Vfin V0 (Proc.devRef .tc main_v75) = (cmpi .slt : (⟨S12288, .i32⟩ : BufTy).Contents (Elt F) → (⟨S12288, .i32⟩ : BufTy).Contents (Elt F) → (⟨S12288, .i1⟩ : BufTy).Contents (Elt F)) (Vfin V0 (Proc.devRef .tc main_v3)) (Vfin V0 (Proc.devRef .tc main_v74)) :=
  stage_binary (tail1_inOrder (F := F)) (Vfin_eq1 V0) 56 main_v3 main_v74 main_v75 (cmpi .slt : (⟨S12288, .i32⟩ : BufTy).Contents (Elt F) → (⟨S12288, .i32⟩ : BufTy).Contents (Elt F) → (⟨S12288, .i1⟩ : BufTy).Contents (Elt F)) rfl (by decide) (by decide) (by decide)

theorem st_main_c_17 : Vfin V0 (Proc.devRef .tc main_c_17) = ((constantI S_ 32 2048#32) : (⟨S_, .i32⟩ : BufTy).Contents (Elt F)) :=
  stage_nullary (tail1_inOrder (F := F)) (Vfin_eq1 V0) 57 main_c_17 ((constantI S_ 32 2048#32) : (⟨S_, .i32⟩ : BufTy).Contents (Elt F)) rfl (by decide)

theorem st_main_v76 : Vfin V0 (Proc.devRef .tc main_v76) = (broadcastInDim S12288 ![] bcast_S_S12288 : (⟨S_, .i32⟩ : BufTy).Contents (Elt F) → (⟨S12288, .i32⟩ : BufTy).Contents (Elt F)) (Vfin V0 (Proc.devRef .tc main_c_17)) :=
  stage_unary (tail1_inOrder (F := F)) (Vfin_eq1 V0) 58 main_c_17 main_v76 (broadcastInDim S12288 ![] bcast_S_S12288 : (⟨S_, .i32⟩ : BufTy).Contents (Elt F) → (⟨S12288, .i32⟩ : BufTy).Contents (Elt F)) rfl (by decide) (by decide)

theorem st_main_v77 : Vfin V0 (Proc.devRef .tc main_v77) = (addi : (⟨S12288, .i32⟩ : BufTy).Contents (Elt F) → (⟨S12288, .i32⟩ : BufTy).Contents (Elt F) → (⟨S12288, .i32⟩ : BufTy).Contents (Elt F)) (Vfin V0 (Proc.devRef .tc main_v3)) (Vfin V0 (Proc.devRef .tc main_v76)) :=
  stage_binary (tail1_inOrder (F := F)) (Vfin_eq1 V0) 59 main_v3 main_v76 main_v77 (addi : (⟨S12288, .i32⟩ : BufTy).Contents (Elt F) → (⟨S12288, .i32⟩ : BufTy).Contents (Elt F) → (⟨S12288, .i32⟩ : BufTy).Contents (Elt F)) rfl (by decide) (by decide) (by decide)

theorem st_main_v78 : Vfin V0 (Proc.devRef .tc main_v78) = (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) (Vfin V0 (Proc.devRef .tc main_v75)) (Vfin V0 (Proc.devRef .tc main_v77)) (Vfin V0 (Proc.devRef .tc main_v3)) :=
  stage_ternary (tail1_inOrder (F := F)) (Vfin_eq1 V0) 60 main_v75 main_v77 main_v3 main_v78 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) rfl (by decide) (by decide) (by decide) (by decide)

theorem st_main_v79 : Vfin V0 (Proc.devRef .tc main_v79) = (broadcastInDim S12288x1 ![0] bcast_S12288_S12288x1_0 : (⟨S12288, .i32⟩ : BufTy).Contents (Elt F) → (⟨S12288x1, .i32⟩ : BufTy).Contents (Elt F)) (Vfin V0 (Proc.devRef .tc main_v78)) :=
  stage_unary (tail1_inOrder (F := F)) (Vfin_eq1 V0) 61 main_v78 main_v79 (broadcastInDim S12288x1 ![0] bcast_S12288_S12288x1_0 : (⟨S12288, .i32⟩ : BufTy).Contents (Elt F) → (⟨S12288x1, .i32⟩ : BufTy).Contents (Elt F)) rfl (by decide) (by decide)

theorem st_main_v80 : Vfin V0 (Proc.devRef .tc main_v80) = ((fun x i u => Host.scatterAdd scatter_S16x2048x512_S12288x1_S16x12288x512_02_1_1_1 x i u) : (⟨S16x2048x512, .f32⟩ : BufTy).Contents (Elt F) → (⟨S12288x1, .i32⟩ : BufTy).Contents (Elt F) → (⟨S16x12288x512, .f32⟩ : BufTy).Contents (Elt F) → (⟨S16x2048x512, .f32⟩ : BufTy).Contents (Elt F)) (Vfin V0 (Proc.devRef .tc main_v73)) (Vfin V0 (Proc.devRef .tc main_v79)) (Vfin V0 (Proc.devRef .tc main_v72)) :=
  stage_ternary (tail1_inOrder (F := F)) (Vfin_eq1 V0) 62 main_v73 main_v79 main_v72 main_v80 ((fun x i u => Host.scatterAdd scatter_S16x2048x512_S12288x1_S16x12288x512_02_1_1_1 x i u) : (⟨S16x2048x512, .f32⟩ : BufTy).Contents (Elt F) → (⟨S12288x1, .i32⟩ : BufTy).Contents (Elt F) → (⟨S16x12288x512, .f32⟩ : BufTy).Contents (Elt F) → (⟨S16x2048x512, .f32⟩ : BufTy).Contents (Elt F)) rfl (by decide) (by decide) (by decide) (by decide)

theorem st_main_v81 : Vfin V0 (Proc.devRef .tc main_v81) = (broadcastInDim S1x2048x1 ![1] bcast_S2048_S1x2048x1_1 : (⟨S2048, .f32⟩ : BufTy).Contents (Elt F) → (⟨S1x2048x1, .f32⟩ : BufTy).Contents (Elt F)) (Vfin V0 (Proc.devRef .tc main_v17)) :=
  stage_unary (tail1_inOrder (F := F)) (Vfin_eq1 V0) 63 main_v17 main_v81 (broadcastInDim S1x2048x1 ![1] bcast_S2048_S1x2048x1_1 : (⟨S2048, .f32⟩ : BufTy).Contents (Elt F) → (⟨S1x2048x1, .f32⟩ : BufTy).Contents (Elt F)) rfl (by decide) (by decide)

theorem st_main_v82 : Vfin V0 (Proc.devRef .tc main_v82) = (broadcastInDim S16x2048x512 ![0, 1, 2] bcast_S1x2048x1_S16x2048x512_0_1_2 : (⟨S1x2048x1, .f32⟩ : BufTy).Contents (Elt F) → (⟨S16x2048x512, .f32⟩ : BufTy).Contents (Elt F)) (Vfin V0 (Proc.devRef .tc main_v81)) :=
  stage_unary (tail1_inOrder (F := F)) (Vfin_eq1 V0) 64 main_v81 main_v82 (broadcastInDim S16x2048x512 ![0, 1, 2] bcast_S1x2048x1_S16x2048x512_0_1_2 : (⟨S1x2048x1, .f32⟩ : BufTy).Contents (Elt F) → (⟨S16x2048x512, .f32⟩ : BufTy).Contents (Elt F)) rfl (by decide) (by decide)

theorem st_main_v83 : Vfin V0 (Proc.devRef .tc main_v83) = (mulf : (⟨S16x2048x512, .f32⟩ : BufTy).Contents (Elt F) → (⟨S16x2048x512, .f32⟩ : BufTy).Contents (Elt F) → (⟨S16x2048x512, .f32⟩ : BufTy).Contents (Elt F)) (Vfin V0 (Proc.devRef .tc main_v53)) (Vfin V0 (Proc.devRef .tc main_v82)) :=
  stage_binary (tail1_inOrder (F := F)) (Vfin_eq1 V0) 65 main_v53 main_v82 main_v83 (mulf : (⟨S16x2048x512, .f32⟩ : BufTy).Contents (Elt F) → (⟨S16x2048x512, .f32⟩ : BufTy).Contents (Elt F) → (⟨S16x2048x512, .f32⟩ : BufTy).Contents (Elt F)) rfl (by decide) (by decide) (by decide)

theorem st_main_v84 : Vfin V0 (Proc.devRef .tc main_v84) = (addf : (⟨S16x2048x512, .f32⟩ : BufTy).Contents (Elt F) → (⟨S16x2048x512, .f32⟩ : BufTy).Contents (Elt F) → (⟨S16x2048x512, .f32⟩ : BufTy).Contents (Elt F)) (Vfin V0 (Proc.devRef .tc main_v80)) (Vfin V0 (Proc.devRef .tc main_v83)) :=
  stage_binary (tail1_inOrder (F := F)) (Vfin_eq1 V0) 66 main_v80 main_v83 main_v84 (addf : (⟨S16x2048x512, .f32⟩ : BufTy).Contents (Elt F) → (⟨S16x2048x512, .f32⟩ : BufTy).Contents (Elt F) → (⟨S16x2048x512, .f32⟩ : BufTy).Contents (Elt F)) rfl (by decide) (by decide) (by decide)

theorem st_main_v85 : Vfin V0 (Proc.devRef .tc main_v85) = (broadcastInDim S1x1x512 ![2] bcast_S512_S1x1x512_2 : (⟨S512, .f32⟩ : BufTy).Contents (Elt F) → (⟨S1x1x512, .f32⟩ : BufTy).Contents (Elt F)) (Vfin V0 (Proc.devRef .tc main_arg5)) :=
  stage_unary (tail1_inOrder (F := F)) (Vfin_eq1 V0) 67 main_arg5 main_v85 (broadcastInDim S1x1x512 ![2] bcast_S512_S1x1x512_2 : (⟨S512, .f32⟩ : BufTy).Contents (Elt F) → (⟨S1x1x512, .f32⟩ : BufTy).Contents (Elt F)) rfl (by decide) (by decide)

theorem st_main_v86 : Vfin V0 (Proc.devRef .tc main_v86) = (broadcastInDim S16x2048x512 ![0, 1, 2] bcast_S1x1x512_S16x2048x512_0_1_2 : (⟨S1x1x512, .f32⟩ : BufTy).Contents (Elt F) → (⟨S16x2048x512, .f32⟩ : BufTy).Contents (Elt F)) (Vfin V0 (Proc.devRef .tc main_v85)) :=
  stage_unary (tail1_inOrder (F := F)) (Vfin_eq1 V0) 68 main_v85 main_v86 (broadcastInDim S16x2048x512 ![0, 1, 2] bcast_S1x1x512_S16x2048x512_0_1_2 : (⟨S1x1x512, .f32⟩ : BufTy).Contents (Elt F) → (⟨S16x2048x512, .f32⟩ : BufTy).Contents (Elt F)) rfl (by decide) (by decide)

theorem st_main_v87 : Vfin V0 (Proc.devRef .tc main_v87) = (addf : (⟨S16x2048x512, .f32⟩ : BufTy).Contents (Elt F) → (⟨S16x2048x512, .f32⟩ : BufTy).Contents (Elt F) → (⟨S16x2048x512, .f32⟩ : BufTy).Contents (Elt F)) (Vfin V0 (Proc.devRef .tc main_v84)) (Vfin V0 (Proc.devRef .tc main_v86)) :=
  stage_binary (tail1_inOrder (F := F)) (Vfin_eq1 V0) 69 main_v84 main_v86 main_v87 (addf : (⟨S16x2048x512, .f32⟩ : BufTy).Contents (Elt F) → (⟨S16x2048x512, .f32⟩ : BufTy).Contents (Elt F) → (⟨S16x2048x512, .f32⟩ : BufTy).Contents (Elt F)) rfl (by decide) (by decide) (by decide)

theorem st_main_cst_18 : Vfin V0 (Proc.devRef .tc main_cst_18) = ((constant S_ .f32 0x00000000#32) : (⟨S_, .f32⟩ : BufTy).Contents (Elt F)) :=
  stage_nullary (tail1_inOrder (F := F)) (Vfin_eq1 V0) 70 main_cst_18 ((constant S_ .f32 0x00000000#32) : (⟨S_, .f32⟩ : BufTy).Contents (Elt F)) rfl (by decide)

theorem st_main_v88 : Vfin V0 (Proc.devRef .tc main_v88) = (broadcastInDim S16x2048x512 ![] bcast_S_S16x2048x512 : (⟨S_, .f32⟩ : BufTy).Contents (Elt F) → (⟨S16x2048x512, .f32⟩ : BufTy).Contents (Elt F)) (Vfin V0 (Proc.devRef .tc main_cst_18)) :=
  stage_unary (tail1_inOrder (F := F)) (Vfin_eq1 V0) 71 main_cst_18 main_v88 (broadcastInDim S16x2048x512 ![] bcast_S_S16x2048x512 : (⟨S_, .f32⟩ : BufTy).Contents (Elt F) → (⟨S16x2048x512, .f32⟩ : BufTy).Contents (Elt F)) rfl (by decide) (by decide)

theorem st_main_v89 : Vfin V0 (Proc.devRef .tc main_v89) = (cmpf .oge : (⟨S16x2048x512, .f32⟩ : BufTy).Contents (Elt F) → (⟨S16x2048x512, .f32⟩ : BufTy).Contents (Elt F) → (⟨S16x2048x512, .i1⟩ : BufTy).Contents (Elt F)) (Vfin V0 (Proc.devRef .tc main_v87)) (Vfin V0 (Proc.devRef .tc main_v88)) :=
  stage_binary (tail1_inOrder (F := F)) (Vfin_eq1 V0) 72 main_v87 main_v88 main_v89 (cmpf .oge : (⟨S16x2048x512, .f32⟩ : BufTy).Contents (Elt F) → (⟨S16x2048x512, .f32⟩ : BufTy).Contents (Elt F) → (⟨S16x2048x512, .i1⟩ : BufTy).Contents (Elt F)) rfl (by decide) (by decide) (by decide)

theorem st_main_cst_19 : Vfin V0 (Proc.devRef .tc main_cst_19) = ((constant S_ .f32 0x3C23D70A#32) : (⟨S_, .f32⟩ : BufTy).Contents (Elt F)) :=
  stage_nullary (tail1_inOrder (F := F)) (Vfin_eq1 V0) 73 main_cst_19 ((constant S_ .f32 0x3C23D70A#32) : (⟨S_, .f32⟩ : BufTy).Contents (Elt F)) rfl (by decide)

theorem st_main_v90 : Vfin V0 (Proc.devRef .tc main_v90) = (broadcastInDim S16x2048x512 ![] bcast_S_S16x2048x512 : (⟨S_, .f32⟩ : BufTy).Contents (Elt F) → (⟨S16x2048x512, .f32⟩ : BufTy).Contents (Elt F)) (Vfin V0 (Proc.devRef .tc main_cst_19)) :=
  stage_unary (tail1_inOrder (F := F)) (Vfin_eq1 V0) 74 main_cst_19 main_v90 (broadcastInDim S16x2048x512 ![] bcast_S_S16x2048x512 : (⟨S_, .f32⟩ : BufTy).Contents (Elt F) → (⟨S16x2048x512, .f32⟩ : BufTy).Contents (Elt F)) rfl (by decide) (by decide)

theorem st_main_v91 : Vfin V0 (Proc.devRef .tc main_v91) = (mulf : (⟨S16x2048x512, .f32⟩ : BufTy).Contents (Elt F) → (⟨S16x2048x512, .f32⟩ : BufTy).Contents (Elt F) → (⟨S16x2048x512, .f32⟩ : BufTy).Contents (Elt F)) (Vfin V0 (Proc.devRef .tc main_v90)) (Vfin V0 (Proc.devRef .tc main_v87)) :=
  stage_binary (tail1_inOrder (F := F)) (Vfin_eq1 V0) 75 main_v90 main_v87 main_v91 (mulf : (⟨S16x2048x512, .f32⟩ : BufTy).Contents (Elt F) → (⟨S16x2048x512, .f32⟩ : BufTy).Contents (Elt F) → (⟨S16x2048x512, .f32⟩ : BufTy).Contents (Elt F)) rfl (by decide) (by decide) (by decide)

theorem st_main_v92 : Vfin V0 (Proc.devRef .tc main_v92) = (select : (⟨S16x2048x512, .i1⟩ : BufTy).Contents (Elt F) → (⟨S16x2048x512, .f32⟩ : BufTy).Contents (Elt F) → (⟨S16x2048x512, .f32⟩ : BufTy).Contents (Elt F) → (⟨S16x2048x512, .f32⟩ : BufTy).Contents (Elt F)) (Vfin V0 (Proc.devRef .tc main_v89)) (Vfin V0 (Proc.devRef .tc main_v87)) (Vfin V0 (Proc.devRef .tc main_v91)) :=
  stage_tternary (tail1_inOrder (F := F)) (Vfin_eq1 V0) 76 (.of main_v89 : StableHlo.TRef sig ⟨S16x2048x512, .i1⟩) (.of main_v87 : StableHlo.TRef sig ⟨S16x2048x512, .f32⟩) (.of main_v91 : StableHlo.TRef sig ⟨S16x2048x512, .f32⟩) (.of main_v92 : StableHlo.TRef sig ⟨S16x2048x512, .f32⟩) select rfl (by decide) (by decide) (by decide) (by decide)

theorem st_main_v93 : Vfin V0 (Proc.devRef .tc main_v93) = ((fun l r => Host.dotGeneral dot_S16x2048x512_S512x256_S16x2048x256_2_0_01_1_n_n none l r) : (⟨S16x2048x512, .f32⟩ : BufTy).Contents (Elt F) → (⟨S512x256, .f32⟩ : BufTy).Contents (Elt F) → (⟨S16x2048x256, .f32⟩ : BufTy).Contents (Elt F)) (Vfin V0 (Proc.devRef .tc main_v92)) (Vfin V0 (Proc.devRef .tc main_arg6)) :=
  stage_binary (tail1_inOrder (F := F)) (Vfin_eq1 V0) 77 main_v92 main_arg6 main_v93 ((fun l r => Host.dotGeneral dot_S16x2048x512_S512x256_S16x2048x256_2_0_01_1_n_n none l r) : (⟨S16x2048x512, .f32⟩ : BufTy).Contents (Elt F) → (⟨S512x256, .f32⟩ : BufTy).Contents (Elt F) → (⟨S16x2048x256, .f32⟩ : BufTy).Contents (Elt F)) rfl (by decide) (by decide) (by decide)

theorem st_main_c_20 : Vfin V0 (Proc.devRef .tc main_c_20) = ((constantI S_ 32 0#32) : (⟨S_, .i32⟩ : BufTy).Contents (Elt F)) :=
  stage_nullary (tail1_inOrder (F := F)) (Vfin_eq1 V0) 78 main_c_20 ((constantI S_ 32 0#32) : (⟨S_, .i32⟩ : BufTy).Contents (Elt F)) rfl (by decide)

theorem st_main_v94 : Vfin V0 (Proc.devRef .tc main_v94) = (broadcastInDim S12288 ![] bcast_S_S12288 : (⟨S_, .i32⟩ : BufTy).Contents (Elt F) → (⟨S12288, .i32⟩ : BufTy).Contents (Elt F)) (Vfin V0 (Proc.devRef .tc main_c_20)) :=
  stage_unary (tail1_inOrder (F := F)) (Vfin_eq1 V0) 79 main_c_20 main_v94 (broadcastInDim S12288 ![] bcast_S_S12288 : (⟨S_, .i32⟩ : BufTy).Contents (Elt F) → (⟨S12288, .i32⟩ : BufTy).Contents (Elt F)) rfl (by decide) (by decide)

theorem st_main_v95 : Vfin V0 (Proc.devRef .tc main_v95) = (cmpi .slt : (⟨S12288, .i32⟩ : BufTy).Contents (Elt F) → (⟨S12288, .i32⟩ : BufTy).Contents (Elt F) → (⟨S12288, .i1⟩ : BufTy).Contents (Elt F)) (Vfin V0 (Proc.devRef .tc main_v1)) (Vfin V0 (Proc.devRef .tc main_v94)) :=
  stage_binary (tail1_inOrder (F := F)) (Vfin_eq1 V0) 80 main_v1 main_v94 main_v95 (cmpi .slt : (⟨S12288, .i32⟩ : BufTy).Contents (Elt F) → (⟨S12288, .i32⟩ : BufTy).Contents (Elt F) → (⟨S12288, .i1⟩ : BufTy).Contents (Elt F)) rfl (by decide) (by decide) (by decide)

theorem st_main_c_21 : Vfin V0 (Proc.devRef .tc main_c_21) = ((constantI S_ 32 2048#32) : (⟨S_, .i32⟩ : BufTy).Contents (Elt F)) :=
  stage_nullary (tail1_inOrder (F := F)) (Vfin_eq1 V0) 81 main_c_21 ((constantI S_ 32 2048#32) : (⟨S_, .i32⟩ : BufTy).Contents (Elt F)) rfl (by decide)

end Cert.ReferenceIdeal.Hand

end
-- ==== Proof.Ref.Stages2.lean ====
import proofs.«421025_j30305289241172_1_alg».proof.Proof.Ref.StageBase

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F] (V0 : Valuation τ sig (Elt F))

theorem st_main_v96 : Vfin V0 (Proc.devRef .tc main_v96) = (broadcastInDim S12288 ![] bcast_S_S12288 : (⟨S_, .i32⟩ : BufTy).Contents (Elt F) → (⟨S12288, .i32⟩ : BufTy).Contents (Elt F)) (Vfin V0 (Proc.devRef .tc main_c_21)) :=
  stage_unary (tail2_inOrder (F := F)) (Vfin_eq2 V0) 0 main_c_21 main_v96 (broadcastInDim S12288 ![] bcast_S_S12288 : (⟨S_, .i32⟩ : BufTy).Contents (Elt F) → (⟨S12288, .i32⟩ : BufTy).Contents (Elt F)) rfl (by decide) (by decide)

theorem st_main_v97 : Vfin V0 (Proc.devRef .tc main_v97) = (addi : (⟨S12288, .i32⟩ : BufTy).Contents (Elt F) → (⟨S12288, .i32⟩ : BufTy).Contents (Elt F) → (⟨S12288, .i32⟩ : BufTy).Contents (Elt F)) (Vfin V0 (Proc.devRef .tc main_v1)) (Vfin V0 (Proc.devRef .tc main_v96)) :=
  stage_binary (tail2_inOrder (F := F)) (Vfin_eq2 V0) 1 main_v1 main_v96 main_v97 (addi : (⟨S12288, .i32⟩ : BufTy).Contents (Elt F) → (⟨S12288, .i32⟩ : BufTy).Contents (Elt F) → (⟨S12288, .i32⟩ : BufTy).Contents (Elt F)) rfl (by decide) (by decide) (by decide)

theorem st_main_v98 : Vfin V0 (Proc.devRef .tc main_v98) = (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) (Vfin V0 (Proc.devRef .tc main_v95)) (Vfin V0 (Proc.devRef .tc main_v97)) (Vfin V0 (Proc.devRef .tc main_v1)) :=
  stage_ternary (tail2_inOrder (F := F)) (Vfin_eq2 V0) 2 main_v95 main_v97 main_v1 main_v98 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) rfl (by decide) (by decide) (by decide) (by decide)

theorem st_main_v99 : Vfin V0 (Proc.devRef .tc main_v99) = (broadcastInDim S12288x1 ![0] bcast_S12288_S12288x1_0 : (⟨S12288, .i32⟩ : BufTy).Contents (Elt F) → (⟨S12288x1, .i32⟩ : BufTy).Contents (Elt F)) (Vfin V0 (Proc.devRef .tc main_v98)) :=
  stage_unary (tail2_inOrder (F := F)) (Vfin_eq2 V0) 3 main_v98 main_v99 (broadcastInDim S12288x1 ![0] bcast_S12288_S12288x1_0 : (⟨S12288, .i32⟩ : BufTy).Contents (Elt F) → (⟨S12288x1, .i32⟩ : BufTy).Contents (Elt F)) rfl (by decide) (by decide)

theorem st_main_v100 : Vfin V0 (Proc.devRef .tc main_v100) = ((fun x i => Host.gather gather_S2048_S12288x1_S12288_n_0_n_n_0_1_1 x i) : (⟨S2048, .f32⟩ : BufTy).Contents (Elt F) → (⟨S12288x1, .i32⟩ : BufTy).Contents (Elt F) → (⟨S12288, .f32⟩ : BufTy).Contents (Elt F)) (Vfin V0 (Proc.devRef .tc main_v15)) (Vfin V0 (Proc.devRef .tc main_v99)) :=
  stage_binary (tail2_inOrder (F := F)) (Vfin_eq2 V0) 4 main_v15 main_v99 main_v100 ((fun x i => Host.gather gather_S2048_S12288x1_S12288_n_0_n_n_0_1_1 x i) : (⟨S2048, .f32⟩ : BufTy).Contents (Elt F) → (⟨S12288x1, .i32⟩ : BufTy).Contents (Elt F) → (⟨S12288, .f32⟩ : BufTy).Contents (Elt F)) rfl (by decide) (by decide) (by decide)

theorem st_main_c_22 : Vfin V0 (Proc.devRef .tc main_c_22) = ((constantI S_ 32 0#32) : (⟨S_, .i32⟩ : BufTy).Contents (Elt F)) :=
  stage_nullary (tail2_inOrder (F := F)) (Vfin_eq2 V0) 5 main_c_22 ((constantI S_ 32 0#32) : (⟨S_, .i32⟩ : BufTy).Contents (Elt F)) rfl (by decide)

theorem st_main_v101 : Vfin V0 (Proc.devRef .tc main_v101) = (broadcastInDim S12288 ![] bcast_S_S12288 : (⟨S_, .i32⟩ : BufTy).Contents (Elt F) → (⟨S12288, .i32⟩ : BufTy).Contents (Elt F)) (Vfin V0 (Proc.devRef .tc main_c_22)) :=
  stage_unary (tail2_inOrder (F := F)) (Vfin_eq2 V0) 6 main_c_22 main_v101 (broadcastInDim S12288 ![] bcast_S_S12288 : (⟨S_, .i32⟩ : BufTy).Contents (Elt F) → (⟨S12288, .i32⟩ : BufTy).Contents (Elt F)) rfl (by decide) (by decide)

theorem st_main_v102 : Vfin V0 (Proc.devRef .tc main_v102) = (cmpi .slt : (⟨S12288, .i32⟩ : BufTy).Contents (Elt F) → (⟨S12288, .i32⟩ : BufTy).Contents (Elt F) → (⟨S12288, .i1⟩ : BufTy).Contents (Elt F)) (Vfin V0 (Proc.devRef .tc main_v3)) (Vfin V0 (Proc.devRef .tc main_v101)) :=
  stage_binary (tail2_inOrder (F := F)) (Vfin_eq2 V0) 7 main_v3 main_v101 main_v102 (cmpi .slt : (⟨S12288, .i32⟩ : BufTy).Contents (Elt F) → (⟨S12288, .i32⟩ : BufTy).Contents (Elt F) → (⟨S12288, .i1⟩ : BufTy).Contents (Elt F)) rfl (by decide) (by decide) (by decide)

theorem st_main_c_23 : Vfin V0 (Proc.devRef .tc main_c_23) = ((constantI S_ 32 2048#32) : (⟨S_, .i32⟩ : BufTy).Contents (Elt F)) :=
  stage_nullary (tail2_inOrder (F := F)) (Vfin_eq2 V0) 8 main_c_23 ((constantI S_ 32 2048#32) : (⟨S_, .i32⟩ : BufTy).Contents (Elt F)) rfl (by decide)

theorem st_main_v103 : Vfin V0 (Proc.devRef .tc main_v103) = (broadcastInDim S12288 ![] bcast_S_S12288 : (⟨S_, .i32⟩ : BufTy).Contents (Elt F) → (⟨S12288, .i32⟩ : BufTy).Contents (Elt F)) (Vfin V0 (Proc.devRef .tc main_c_23)) :=
  stage_unary (tail2_inOrder (F := F)) (Vfin_eq2 V0) 9 main_c_23 main_v103 (broadcastInDim S12288 ![] bcast_S_S12288 : (⟨S_, .i32⟩ : BufTy).Contents (Elt F) → (⟨S12288, .i32⟩ : BufTy).Contents (Elt F)) rfl (by decide) (by decide)

theorem st_main_v104 : Vfin V0 (Proc.devRef .tc main_v104) = (addi : (⟨S12288, .i32⟩ : BufTy).Contents (Elt F) → (⟨S12288, .i32⟩ : BufTy).Contents (Elt F) → (⟨S12288, .i32⟩ : BufTy).Contents (Elt F)) (Vfin V0 (Proc.devRef .tc main_v3)) (Vfin V0 (Proc.devRef .tc main_v103)) :=
  stage_binary (tail2_inOrder (F := F)) (Vfin_eq2 V0) 10 main_v3 main_v103 main_v104 (addi : (⟨S12288, .i32⟩ : BufTy).Contents (Elt F) → (⟨S12288, .i32⟩ : BufTy).Contents (Elt F) → (⟨S12288, .i32⟩ : BufTy).Contents (Elt F)) rfl (by decide) (by decide) (by decide)

theorem st_main_v105 : Vfin V0 (Proc.devRef .tc main_v105) = (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) (Vfin V0 (Proc.devRef .tc main_v102)) (Vfin V0 (Proc.devRef .tc main_v104)) (Vfin V0 (Proc.devRef .tc main_v3)) :=
  stage_ternary (tail2_inOrder (F := F)) (Vfin_eq2 V0) 11 main_v102 main_v104 main_v3 main_v105 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) rfl (by decide) (by decide) (by decide) (by decide)

theorem st_main_v106 : Vfin V0 (Proc.devRef .tc main_v106) = (broadcastInDim S12288x1 ![0] bcast_S12288_S12288x1_0 : (⟨S12288, .i32⟩ : BufTy).Contents (Elt F) → (⟨S12288x1, .i32⟩ : BufTy).Contents (Elt F)) (Vfin V0 (Proc.devRef .tc main_v105)) :=
  stage_unary (tail2_inOrder (F := F)) (Vfin_eq2 V0) 12 main_v105 main_v106 (broadcastInDim S12288x1 ![0] bcast_S12288_S12288x1_0 : (⟨S12288, .i32⟩ : BufTy).Contents (Elt F) → (⟨S12288x1, .i32⟩ : BufTy).Contents (Elt F)) rfl (by decide) (by decide)

theorem st_main_v107 : Vfin V0 (Proc.devRef .tc main_v107) = ((fun x i => Host.gather gather_S2048_S12288x1_S12288_n_0_n_n_0_1_1 x i) : (⟨S2048, .f32⟩ : BufTy).Contents (Elt F) → (⟨S12288x1, .i32⟩ : BufTy).Contents (Elt F) → (⟨S12288, .f32⟩ : BufTy).Contents (Elt F)) (Vfin V0 (Proc.devRef .tc main_v15)) (Vfin V0 (Proc.devRef .tc main_v106)) :=
  stage_binary (tail2_inOrder (F := F)) (Vfin_eq2 V0) 13 main_v15 main_v106 main_v107 ((fun x i => Host.gather gather_S2048_S12288x1_S12288_n_0_n_n_0_1_1 x i) : (⟨S2048, .f32⟩ : BufTy).Contents (Elt F) → (⟨S12288x1, .i32⟩ : BufTy).Contents (Elt F) → (⟨S12288, .f32⟩ : BufTy).Contents (Elt F)) rfl (by decide) (by decide) (by decide)

theorem st_main_v108 : Vfin V0 (Proc.devRef .tc main_v108) = (mulf : (⟨S12288, .f32⟩ : BufTy).Contents (Elt F) → (⟨S12288, .f32⟩ : BufTy).Contents (Elt F) → (⟨S12288, .f32⟩ : BufTy).Contents (Elt F)) (Vfin V0 (Proc.devRef .tc main_v100)) (Vfin V0 (Proc.devRef .tc main_v107)) :=
  stage_binary (tail2_inOrder (F := F)) (Vfin_eq2 V0) 14 main_v100 main_v107 main_v108 (mulf : (⟨S12288, .f32⟩ : BufTy).Contents (Elt F) → (⟨S12288, .f32⟩ : BufTy).Contents (Elt F) → (⟨S12288, .f32⟩ : BufTy).Contents (Elt F)) rfl (by decide) (by decide) (by decide)

theorem st_main_call3_c : Vfin V0 (Proc.devRef .tc main_call3_c) = ((constantI S_ 32 0#32) : (⟨S_, .i32⟩ : BufTy).Contents (Elt F)) :=
  stage_tnullary (tail2_inOrder (F := F)) (Vfin_eq2 V0) 15 (.of main_call3_c : StableHlo.TRef sig ⟨S_, .i32⟩) (constantI S_ 32 0#32) rfl (by decide)

theorem st_main_call3_v0 : Vfin V0 (Proc.devRef .tc main_call3_v0) = ((broadcastInDim S12288 ![] bcast_S_S12288) : (⟨S_, .i32⟩ : BufTy).Contents (Elt F) → (⟨S12288, .i32⟩ : BufTy).Contents (Elt F)) (Vfin V0 (Proc.devRef .tc main_call3_c)) :=
  stage_tunary (tail2_inOrder (F := F)) (Vfin_eq2 V0) 16 (.of main_call3_c : StableHlo.TRef sig ⟨S_, .i32⟩) (.of main_call3_v0 : StableHlo.TRef sig ⟨S12288, .i32⟩) (broadcastInDim S12288 ![] bcast_S_S12288) rfl (by decide) (by decide)

theorem st_main_call3_v1 : Vfin V0 (Proc.devRef .tc main_call3_v1) = ((cmpi .slt) : (⟨S12288, .i32⟩ : BufTy).Contents (Elt F) → (⟨S12288, .i32⟩ : BufTy).Contents (Elt F) → (⟨S12288, .i1⟩ : BufTy).Contents (Elt F)) (Vfin V0 (Proc.devRef .tc main_v1)) (Vfin V0 (Proc.devRef .tc main_call3_v0)) :=
  stage_tbinary (tail2_inOrder (F := F)) (Vfin_eq2 V0) 17 (.of main_v1 : StableHlo.TRef sig ⟨S12288, .i32⟩) (.of main_call3_v0 : StableHlo.TRef sig ⟨S12288, .i32⟩) (.of main_call3_v1 : StableHlo.TRef sig ⟨S12288, .i1⟩) (cmpi .slt) rfl (by decide) (by decide) (by decide)

theorem st_main_call3_c_0 : Vfin V0 (Proc.devRef .tc main_call3_c_0) = ((constantI S_ 32 2048#32) : (⟨S_, .i32⟩ : BufTy).Contents (Elt F)) :=
  stage_tnullary (tail2_inOrder (F := F)) (Vfin_eq2 V0) 18 (.of main_call3_c_0 : StableHlo.TRef sig ⟨S_, .i32⟩) (constantI S_ 32 2048#32) rfl (by decide)

theorem st_main_call3_v2 : Vfin V0 (Proc.devRef .tc main_call3_v2) = ((broadcastInDim S12288 ![] bcast_S_S12288) : (⟨S_, .i32⟩ : BufTy).Contents (Elt F) → (⟨S12288, .i32⟩ : BufTy).Contents (Elt F)) (Vfin V0 (Proc.devRef .tc main_call3_c_0)) :=
  stage_tunary (tail2_inOrder (F := F)) (Vfin_eq2 V0) 19 (.of main_call3_c_0 : StableHlo.TRef sig ⟨S_, .i32⟩) (.of main_call3_v2 : StableHlo.TRef sig ⟨S12288, .i32⟩) (broadcastInDim S12288 ![] bcast_S_S12288) rfl (by decide) (by decide)

theorem st_main_call3_v3 : Vfin V0 (Proc.devRef .tc main_call3_v3) = (addi : (⟨S12288, .i32⟩ : BufTy).Contents (Elt F) → (⟨S12288, .i32⟩ : BufTy).Contents (Elt F) → (⟨S12288, .i32⟩ : BufTy).Contents (Elt F)) (Vfin V0 (Proc.devRef .tc main_v1)) (Vfin V0 (Proc.devRef .tc main_call3_v2)) :=
  stage_tbinary (tail2_inOrder (F := F)) (Vfin_eq2 V0) 20 (.of main_v1 : StableHlo.TRef sig ⟨S12288, .i32⟩) (.of main_call3_v2 : StableHlo.TRef sig ⟨S12288, .i32⟩) (.of main_call3_v3 : StableHlo.TRef sig ⟨S12288, .i32⟩) addi rfl (by decide) (by decide) (by decide)

theorem st_main_call3_v4 : Vfin V0 (Proc.devRef .tc main_call3_v4) = (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) (Vfin V0 (Proc.devRef .tc main_call3_v1)) (Vfin V0 (Proc.devRef .tc main_call3_v3)) (Vfin V0 (Proc.devRef .tc main_v1)) :=
  stage_tternary (tail2_inOrder (F := F)) (Vfin_eq2 V0) 21 (.of main_call3_v1 : StableHlo.TRef sig ⟨S12288, .i1⟩) (.of main_call3_v3 : StableHlo.TRef sig ⟨S12288, .i32⟩) (.of main_v1 : StableHlo.TRef sig ⟨S12288, .i32⟩) (.of main_call3_v4 : StableHlo.TRef sig ⟨S12288, .i32⟩) select rfl (by decide) (by decide) (by decide) (by decide)

theorem st_main_call3_v5 : Vfin V0 (Proc.devRef .tc main_call3_v5) = ((broadcastInDim S12288x1 ![0] bcast_S12288_S12288x1_0) : (⟨S12288, .i32⟩ : BufTy).Contents (Elt F) → (⟨S12288x1, .i32⟩ : BufTy).Contents (Elt F)) (Vfin V0 (Proc.devRef .tc main_call3_v4)) :=
  stage_tunary (tail2_inOrder (F := F)) (Vfin_eq2 V0) 22 (.of main_call3_v4 : StableHlo.TRef sig ⟨S12288, .i32⟩) (.of main_call3_v5 : StableHlo.TRef sig ⟨S12288x1, .i32⟩) (broadcastInDim S12288x1 ![0] bcast_S12288_S12288x1_0) rfl (by decide) (by decide)

theorem st_main_call3_c_1 : Vfin V0 (Proc.devRef .tc main_call3_c_1) = ((constantI S1 32 2047#32) : (⟨S1, .i32⟩ : BufTy).Contents (Elt F)) :=
  stage_tnullary (tail2_inOrder (F := F)) (Vfin_eq2 V0) 23 (.of main_call3_c_1 : StableHlo.TRef sig ⟨S1, .i32⟩) (constantI S1 32 2047#32) rfl (by decide)

theorem st_main_call3_c_2 : Vfin V0 (Proc.devRef .tc main_call3_c_2) = ((constantI S_ 32 0#32) : (⟨S_, .i32⟩ : BufTy).Contents (Elt F)) :=
  stage_tnullary (tail2_inOrder (F := F)) (Vfin_eq2 V0) 24 (.of main_call3_c_2 : StableHlo.TRef sig ⟨S_, .i32⟩) (constantI S_ 32 0#32) rfl (by decide)

theorem st_main_call3_v6 : Vfin V0 (Proc.devRef .tc main_call3_v6) = ((broadcastInDim S12288x1 ![] bcast_S_S12288x1) : (⟨S_, .i32⟩ : BufTy).Contents (Elt F) → (⟨S12288x1, .i32⟩ : BufTy).Contents (Elt F)) (Vfin V0 (Proc.devRef .tc main_call3_c_2)) :=
  stage_tunary (tail2_inOrder (F := F)) (Vfin_eq2 V0) 25 (.of main_call3_c_2 : StableHlo.TRef sig ⟨S_, .i32⟩) (.of main_call3_v6 : StableHlo.TRef sig ⟨S12288x1, .i32⟩) (broadcastInDim S12288x1 ![] bcast_S_S12288x1) rfl (by decide) (by decide)

theorem st_main_call3_v7 : Vfin V0 (Proc.devRef .tc main_call3_v7) = ((cmpi .sge) : (⟨S12288x1, .i32⟩ : BufTy).Contents (Elt F) → (⟨S12288x1, .i32⟩ : BufTy).Contents (Elt F) → (⟨S12288x1, .i1⟩ : BufTy).Contents (Elt F)) (Vfin V0 (Proc.devRef .tc main_call3_v5)) (Vfin V0 (Proc.devRef .tc main_call3_v6)) :=
  stage_tbinary (tail2_inOrder (F := F)) (Vfin_eq2 V0) 26 (.of main_call3_v5 : StableHlo.TRef sig ⟨S12288x1, .i32⟩) (.of main_call3_v6 : StableHlo.TRef sig ⟨S12288x1, .i32⟩) (.of main_call3_v7 : StableHlo.TRef sig ⟨S12288x1, .i1⟩) (cmpi .sge) rfl (by decide) (by decide) (by decide)

theorem st_main_call3_v8 : Vfin V0 (Proc.devRef .tc main_call3_v8) = ((broadcastInDim S1x1 ![1] bcast_S1_S1x1_1) : (⟨S1, .i32⟩ : BufTy).Contents (Elt F) → (⟨S1x1, .i32⟩ : BufTy).Contents (Elt F)) (Vfin V0 (Proc.devRef .tc main_call3_c_1)) :=
  stage_tunary (tail2_inOrder (F := F)) (Vfin_eq2 V0) 27 (.of main_call3_c_1 : StableHlo.TRef sig ⟨S1, .i32⟩) (.of main_call3_v8 : StableHlo.TRef sig ⟨S1x1, .i32⟩) (broadcastInDim S1x1 ![1] bcast_S1_S1x1_1) rfl (by decide) (by decide)

theorem st_main_call3_v9 : Vfin V0 (Proc.devRef .tc main_call3_v9) = ((broadcastInDim S12288x1 ![0, 1] bcast_S1x1_S12288x1_0_1) : (⟨S1x1, .i32⟩ : BufTy).Contents (Elt F) → (⟨S12288x1, .i32⟩ : BufTy).Contents (Elt F)) (Vfin V0 (Proc.devRef .tc main_call3_v8)) :=
  stage_tunary (tail2_inOrder (F := F)) (Vfin_eq2 V0) 28 (.of main_call3_v8 : StableHlo.TRef sig ⟨S1x1, .i32⟩) (.of main_call3_v9 : StableHlo.TRef sig ⟨S12288x1, .i32⟩) (broadcastInDim S12288x1 ![0, 1] bcast_S1x1_S12288x1_0_1) rfl (by decide) (by decide)

theorem st_main_call3_v10 : Vfin V0 (Proc.devRef .tc main_call3_v10) = ((cmpi .sle) : (⟨S12288x1, .i32⟩ : BufTy).Contents (Elt F) → (⟨S12288x1, .i32⟩ : BufTy).Contents (Elt F) → (⟨S12288x1, .i1⟩ : BufTy).Contents (Elt F)) (Vfin V0 (Proc.devRef .tc main_call3_v5)) (Vfin V0 (Proc.devRef .tc main_call3_v9)) :=
  stage_tbinary (tail2_inOrder (F := F)) (Vfin_eq2 V0) 29 (.of main_call3_v5 : StableHlo.TRef sig ⟨S12288x1, .i32⟩) (.of main_call3_v9 : StableHlo.TRef sig ⟨S12288x1, .i32⟩) (.of main_call3_v10 : StableHlo.TRef sig ⟨S12288x1, .i1⟩) (cmpi .sle) rfl (by decide) (by decide) (by decide)

theorem st_main_call3_v11 : Vfin V0 (Proc.devRef .tc main_call3_v11) = (andi : (⟨S12288x1, .i1⟩ : BufTy).Contents (Elt F) → (⟨S12288x1, .i1⟩ : BufTy).Contents (Elt F) → (⟨S12288x1, .i1⟩ : BufTy).Contents (Elt F)) (Vfin V0 (Proc.devRef .tc main_call3_v7)) (Vfin V0 (Proc.devRef .tc main_call3_v10)) :=
  stage_tbinary (tail2_inOrder (F := F)) (Vfin_eq2 V0) 30 (.of main_call3_v7 : StableHlo.TRef sig ⟨S12288x1, .i1⟩) (.of main_call3_v10 : StableHlo.TRef sig ⟨S12288x1, .i1⟩) (.of main_call3_v11 : StableHlo.TRef sig ⟨S12288x1, .i1⟩) andi rfl (by decide) (by decide) (by decide)

theorem st_main_call3_c_3 : Vfin V0 (Proc.devRef .tc main_call3_c_3) = ((constantI S_ 1 1#1) : (⟨S_, .i1⟩ : BufTy).Contents (Elt F)) :=
  stage_tnullary (tail2_inOrder (F := F)) (Vfin_eq2 V0) 31 (.of main_call3_c_3 : StableHlo.TRef sig ⟨S_, .i1⟩) (constantI S_ 1 1#1) rfl (by decide)

theorem st_main_call3_v12 : Vfin V0 (Proc.devRef .tc main_call3_v12) = ((fun x v => Host.reduce IntOp.andi x v reducesTo_S12288x1_S12288_d1 h_S_) : (⟨S12288x1, .i1⟩ : BufTy).Contents (Elt F) → (⟨S_, .i1⟩ : BufTy).Contents (Elt F) → (⟨S12288, .i1⟩ : BufTy).Contents (Elt F)) (Vfin V0 (Proc.devRef .tc main_call3_v11)) (Vfin V0 (Proc.devRef .tc main_call3_c_3)) :=
  stage_tbinary (tail2_inOrder (F := F)) (Vfin_eq2 V0) 32 (.of main_call3_v11 : StableHlo.TRef sig ⟨S12288x1, .i1⟩) (.of main_call3_c_3 : StableHlo.TRef sig ⟨S_, .i1⟩) (.of main_call3_v12 : StableHlo.TRef sig ⟨S12288, .i1⟩) (fun x v => Host.reduce IntOp.andi x v reducesTo_S12288x1_S12288_d1 h_S_) rfl (by decide) (by decide) (by decide)

theorem st_main_call3_v13 : Vfin V0 (Proc.devRef .tc main_call3_v13) = ((fun x i => Host.gather gather_S16x2048x256_S12288x1_S16x12288x256_02_1_n_n_1_1_161256 x i) : (⟨S16x2048x256, .f32⟩ : BufTy).Contents (Elt F) → (⟨S12288x1, .i32⟩ : BufTy).Contents (Elt F) → (⟨S16x12288x256, .f32⟩ : BufTy).Contents (Elt F)) (Vfin V0 (Proc.devRef .tc main_v93)) (Vfin V0 (Proc.devRef .tc main_call3_v5)) :=
  stage_tbinary (tail2_inOrder (F := F)) (Vfin_eq2 V0) 33 (.of main_v93 : StableHlo.TRef sig ⟨S16x2048x256, .f32⟩) (.of main_call3_v5 : StableHlo.TRef sig ⟨S12288x1, .i32⟩) (.of main_call3_v13 : StableHlo.TRef sig ⟨S16x12288x256, .f32⟩) (fun x i => Host.gather gather_S16x2048x256_S12288x1_S16x12288x256_02_1_n_n_1_1_161256 x i) rfl (by decide) (by decide) (by decide)

theorem st_main_call3_v14 : Vfin V0 (Proc.devRef .tc main_call3_v14) = ((broadcastInDim S16x12288x256 ![1] bcast_S12288_S16x12288x256_1) : (⟨S12288, .i1⟩ : BufTy).Contents (Elt F) → (⟨S16x12288x256, .i1⟩ : BufTy).Contents (Elt F)) (Vfin V0 (Proc.devRef .tc main_call3_v12)) :=
  stage_tunary (tail2_inOrder (F := F)) (Vfin_eq2 V0) 34 (.of main_call3_v12 : StableHlo.TRef sig ⟨S12288, .i1⟩) (.of main_call3_v14 : StableHlo.TRef sig ⟨S16x12288x256, .i1⟩) (broadcastInDim S16x12288x256 ![1] bcast_S12288_S16x12288x256_1) rfl (by decide) (by decide)

theorem st_main_call3_cst : Vfin V0 (Proc.devRef .tc main_call3_cst) = ((constant S_ .f32 0x7FC00000#32) : (⟨S_, .f32⟩ : BufTy).Contents (Elt F)) :=
  stage_tnullary (tail2_inOrder (F := F)) (Vfin_eq2 V0) 35 (.of main_call3_cst : StableHlo.TRef sig ⟨S_, .f32⟩) (constant S_ .f32 0x7FC00000#32) rfl (by decide)

theorem st_main_call3_v15 : Vfin V0 (Proc.devRef .tc main_call3_v15) = ((broadcastInDim S16x12288x256 ![] bcast_S_S16x12288x256) : (⟨S_, .f32⟩ : BufTy).Contents (Elt F) → (⟨S16x12288x256, .f32⟩ : BufTy).Contents (Elt F)) (Vfin V0 (Proc.devRef .tc main_call3_cst)) :=
  stage_tunary (tail2_inOrder (F := F)) (Vfin_eq2 V0) 36 (.of main_call3_cst : StableHlo.TRef sig ⟨S_, .f32⟩) (.of main_call3_v15 : StableHlo.TRef sig ⟨S16x12288x256, .f32⟩) (broadcastInDim S16x12288x256 ![] bcast_S_S16x12288x256) rfl (by decide) (by decide)

theorem st_main_v109 : Vfin V0 (Proc.devRef .tc main_v109) = (select : (⟨S16x12288x256, .i1⟩ : BufTy).Contents (Elt F) → (⟨S16x12288x256, .f32⟩ : BufTy).Contents (Elt F) → (⟨S16x12288x256, .f32⟩ : BufTy).Contents (Elt F) → (⟨S16x12288x256, .f32⟩ : BufTy).Contents (Elt F)) (Vfin V0 (Proc.devRef .tc main_call3_v14)) (Vfin V0 (Proc.devRef .tc main_call3_v13)) (Vfin V0 (Proc.devRef .tc main_call3_v15)) :=
  stage_tternary (tail2_inOrder (F := F)) (Vfin_eq2 V0) 37 (.of main_call3_v14 : StableHlo.TRef sig ⟨S16x12288x256, .i1⟩) (.of main_call3_v13 : StableHlo.TRef sig ⟨S16x12288x256, .f32⟩) (.of main_call3_v15 : StableHlo.TRef sig ⟨S16x12288x256, .f32⟩) (.of main_v109 : StableHlo.TRef sig ⟨S16x12288x256, .f32⟩) select rfl (by decide) (by decide) (by decide) (by decide)

theorem st_main_v110 : Vfin V0 (Proc.devRef .tc main_v110) = (broadcastInDim S1x12288x1 ![1] bcast_S12288_S1x12288x1_1 : (⟨S12288, .f32⟩ : BufTy).Contents (Elt F) → (⟨S1x12288x1, .f32⟩ : BufTy).Contents (Elt F)) (Vfin V0 (Proc.devRef .tc main_v108)) :=
  stage_unary (tail2_inOrder (F := F)) (Vfin_eq2 V0) 38 main_v108 main_v110 (broadcastInDim S1x12288x1 ![1] bcast_S12288_S1x12288x1_1 : (⟨S12288, .f32⟩ : BufTy).Contents (Elt F) → (⟨S1x12288x1, .f32⟩ : BufTy).Contents (Elt F)) rfl (by decide) (by decide)

theorem st_main_v111 : Vfin V0 (Proc.devRef .tc main_v111) = (broadcastInDim S16x12288x256 ![0, 1, 2] bcast_S1x12288x1_S16x12288x256_0_1_2 : (⟨S1x12288x1, .f32⟩ : BufTy).Contents (Elt F) → (⟨S16x12288x256, .f32⟩ : BufTy).Contents (Elt F)) (Vfin V0 (Proc.devRef .tc main_v110)) :=
  stage_unary (tail2_inOrder (F := F)) (Vfin_eq2 V0) 39 main_v110 main_v111 (broadcastInDim S16x12288x256 ![0, 1, 2] bcast_S1x12288x1_S16x12288x256_0_1_2 : (⟨S1x12288x1, .f32⟩ : BufTy).Contents (Elt F) → (⟨S16x12288x256, .f32⟩ : BufTy).Contents (Elt F)) rfl (by decide) (by decide)

theorem st_main_v112 : Vfin V0 (Proc.devRef .tc main_v112) = (mulf : (⟨S16x12288x256, .f32⟩ : BufTy).Contents (Elt F) → (⟨S16x12288x256, .f32⟩ : BufTy).Contents (Elt F) → (⟨S16x12288x256, .f32⟩ : BufTy).Contents (Elt F)) (Vfin V0 (Proc.devRef .tc main_v109)) (Vfin V0 (Proc.devRef .tc main_v111)) :=
  stage_binary (tail2_inOrder (F := F)) (Vfin_eq2 V0) 40 main_v109 main_v111 main_v112 (mulf : (⟨S16x12288x256, .f32⟩ : BufTy).Contents (Elt F) → (⟨S16x12288x256, .f32⟩ : BufTy).Contents (Elt F) → (⟨S16x12288x256, .f32⟩ : BufTy).Contents (Elt F)) rfl (by decide) (by decide) (by decide)

theorem st_main_cst_24 : Vfin V0 (Proc.devRef .tc main_cst_24) = ((constant S_ .f32 0x00000000#32) : (⟨S_, .f32⟩ : BufTy).Contents (Elt F)) :=
  stage_nullary (tail2_inOrder (F := F)) (Vfin_eq2 V0) 41 main_cst_24 ((constant S_ .f32 0x00000000#32) : (⟨S_, .f32⟩ : BufTy).Contents (Elt F)) rfl (by decide)

theorem st_main_v113 : Vfin V0 (Proc.devRef .tc main_v113) = (broadcastInDim S16x2048x256 ![] bcast_S_S16x2048x256 : (⟨S_, .f32⟩ : BufTy).Contents (Elt F) → (⟨S16x2048x256, .f32⟩ : BufTy).Contents (Elt F)) (Vfin V0 (Proc.devRef .tc main_cst_24)) :=
  stage_unary (tail2_inOrder (F := F)) (Vfin_eq2 V0) 42 main_cst_24 main_v113 (broadcastInDim S16x2048x256 ![] bcast_S_S16x2048x256 : (⟨S_, .f32⟩ : BufTy).Contents (Elt F) → (⟨S16x2048x256, .f32⟩ : BufTy).Contents (Elt F)) rfl (by decide) (by decide)

theorem st_main_c_25 : Vfin V0 (Proc.devRef .tc main_c_25) = ((constantI S_ 32 0#32) : (⟨S_, .i32⟩ : BufTy).Contents (Elt F)) :=
  stage_nullary (tail2_inOrder (F := F)) (Vfin_eq2 V0) 43 main_c_25 ((constantI S_ 32 0#32) : (⟨S_, .i32⟩ : BufTy).Contents (Elt F)) rfl (by decide)

theorem st_main_v114 : Vfin V0 (Proc.devRef .tc main_v114) = (broadcastInDim S12288 ![] bcast_S_S12288 : (⟨S_, .i32⟩ : BufTy).Contents (Elt F) → (⟨S12288, .i32⟩ : BufTy).Contents (Elt F)) (Vfin V0 (Proc.devRef .tc main_c_25)) :=
  stage_unary (tail2_inOrder (F := F)) (Vfin_eq2 V0) 44 main_c_25 main_v114 (broadcastInDim S12288 ![] bcast_S_S12288 : (⟨S_, .i32⟩ : BufTy).Contents (Elt F) → (⟨S12288, .i32⟩ : BufTy).Contents (Elt F)) rfl (by decide) (by decide)

theorem st_main_v115 : Vfin V0 (Proc.devRef .tc main_v115) = (cmpi .slt : (⟨S12288, .i32⟩ : BufTy).Contents (Elt F) → (⟨S12288, .i32⟩ : BufTy).Contents (Elt F) → (⟨S12288, .i1⟩ : BufTy).Contents (Elt F)) (Vfin V0 (Proc.devRef .tc main_v3)) (Vfin V0 (Proc.devRef .tc main_v114)) :=
  stage_binary (tail2_inOrder (F := F)) (Vfin_eq2 V0) 45 main_v3 main_v114 main_v115 (cmpi .slt : (⟨S12288, .i32⟩ : BufTy).Contents (Elt F) → (⟨S12288, .i32⟩ : BufTy).Contents (Elt F) → (⟨S12288, .i1⟩ : BufTy).Contents (Elt F)) rfl (by decide) (by decide) (by decide)

theorem st_main_c_26 : Vfin V0 (Proc.devRef .tc main_c_26) = ((constantI S_ 32 2048#32) : (⟨S_, .i32⟩ : BufTy).Contents (Elt F)) :=
  stage_nullary (tail2_inOrder (F := F)) (Vfin_eq2 V0) 46 main_c_26 ((constantI S_ 32 2048#32) : (⟨S_, .i32⟩ : BufTy).Contents (Elt F)) rfl (by decide)

theorem st_main_v116 : Vfin V0 (Proc.devRef .tc main_v116) = (broadcastInDim S12288 ![] bcast_S_S12288 : (⟨S_, .i32⟩ : BufTy).Contents (Elt F) → (⟨S12288, .i32⟩ : BufTy).Contents (Elt F)) (Vfin V0 (Proc.devRef .tc main_c_26)) :=
  stage_unary (tail2_inOrder (F := F)) (Vfin_eq2 V0) 47 main_c_26 main_v116 (broadcastInDim S12288 ![] bcast_S_S12288 : (⟨S_, .i32⟩ : BufTy).Contents (Elt F) → (⟨S12288, .i32⟩ : BufTy).Contents (Elt F)) rfl (by decide) (by decide)

theorem st_main_v117 : Vfin V0 (Proc.devRef .tc main_v117) = (addi : (⟨S12288, .i32⟩ : BufTy).Contents (Elt F) → (⟨S12288, .i32⟩ : BufTy).Contents (Elt F) → (⟨S12288, .i32⟩ : BufTy).Contents (Elt F)) (Vfin V0 (Proc.devRef .tc main_v3)) (Vfin V0 (Proc.devRef .tc main_v116)) :=
  stage_binary (tail2_inOrder (F := F)) (Vfin_eq2 V0) 48 main_v3 main_v116 main_v117 (addi : (⟨S12288, .i32⟩ : BufTy).Contents (Elt F) → (⟨S12288, .i32⟩ : BufTy).Contents (Elt F) → (⟨S12288, .i32⟩ : BufTy).Contents (Elt F)) rfl (by decide) (by decide) (by decide)

theorem st_main_v118 : Vfin V0 (Proc.devRef .tc main_v118) = (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) (Vfin V0 (Proc.devRef .tc main_v115)) (Vfin V0 (Proc.devRef .tc main_v117)) (Vfin V0 (Proc.devRef .tc main_v3)) :=
  stage_ternary (tail2_inOrder (F := F)) (Vfin_eq2 V0) 49 main_v115 main_v117 main_v3 main_v118 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) rfl (by decide) (by decide) (by decide) (by decide)

theorem st_main_v119 : Vfin V0 (Proc.devRef .tc main_v119) = (broadcastInDim S12288x1 ![0] bcast_S12288_S12288x1_0 : (⟨S12288, .i32⟩ : BufTy).Contents (Elt F) → (⟨S12288x1, .i32⟩ : BufTy).Contents (Elt F)) (Vfin V0 (Proc.devRef .tc main_v118)) :=
  stage_unary (tail2_inOrder (F := F)) (Vfin_eq2 V0) 50 main_v118 main_v119 (broadcastInDim S12288x1 ![0] bcast_S12288_S12288x1_0 : (⟨S12288, .i32⟩ : BufTy).Contents (Elt F) → (⟨S12288x1, .i32⟩ : BufTy).Contents (Elt F)) rfl (by decide) (by decide)

theorem st_main_v120 : Vfin V0 (Proc.devRef .tc main_v120) = ((fun x i u => Host.scatterAdd scatter_S16x2048x256_S12288x1_S16x12288x256_02_1_1_1 x i u) : (⟨S16x2048x256, .f32⟩ : BufTy).Contents (Elt F) → (⟨S12288x1, .i32⟩ : BufTy).Contents (Elt F) → (⟨S16x12288x256, .f32⟩ : BufTy).Contents (Elt F) → (⟨S16x2048x256, .f32⟩ : BufTy).Contents (Elt F)) (Vfin V0 (Proc.devRef .tc main_v113)) (Vfin V0 (Proc.devRef .tc main_v119)) (Vfin V0 (Proc.devRef .tc main_v112)) :=
  stage_ternary (tail2_inOrder (F := F)) (Vfin_eq2 V0) 51 main_v113 main_v119 main_v112 main_v120 ((fun x i u => Host.scatterAdd scatter_S16x2048x256_S12288x1_S16x12288x256_02_1_1_1 x i u) : (⟨S16x2048x256, .f32⟩ : BufTy).Contents (Elt F) → (⟨S12288x1, .i32⟩ : BufTy).Contents (Elt F) → (⟨S16x12288x256, .f32⟩ : BufTy).Contents (Elt F) → (⟨S16x2048x256, .f32⟩ : BufTy).Contents (Elt F)) rfl (by decide) (by decide) (by decide) (by decide)

theorem st_main_v121 : Vfin V0 (Proc.devRef .tc main_v121) = (broadcastInDim S1x2048x1 ![1] bcast_S2048_S1x2048x1_1 : (⟨S2048, .f32⟩ : BufTy).Contents (Elt F) → (⟨S1x2048x1, .f32⟩ : BufTy).Contents (Elt F)) (Vfin V0 (Proc.devRef .tc main_v17)) :=
  stage_unary (tail2_inOrder (F := F)) (Vfin_eq2 V0) 52 main_v17 main_v121 (broadcastInDim S1x2048x1 ![1] bcast_S2048_S1x2048x1_1 : (⟨S2048, .f32⟩ : BufTy).Contents (Elt F) → (⟨S1x2048x1, .f32⟩ : BufTy).Contents (Elt F)) rfl (by decide) (by decide)

theorem st_main_v122 : Vfin V0 (Proc.devRef .tc main_v122) = (broadcastInDim S16x2048x256 ![0, 1, 2] bcast_S1x2048x1_S16x2048x256_0_1_2 : (⟨S1x2048x1, .f32⟩ : BufTy).Contents (Elt F) → (⟨S16x2048x256, .f32⟩ : BufTy).Contents (Elt F)) (Vfin V0 (Proc.devRef .tc main_v121)) :=
  stage_unary (tail2_inOrder (F := F)) (Vfin_eq2 V0) 53 main_v121 main_v122 (broadcastInDim S16x2048x256 ![0, 1, 2] bcast_S1x2048x1_S16x2048x256_0_1_2 : (⟨S1x2048x1, .f32⟩ : BufTy).Contents (Elt F) → (⟨S16x2048x256, .f32⟩ : BufTy).Contents (Elt F)) rfl (by decide) (by decide)

theorem st_main_v123 : Vfin V0 (Proc.devRef .tc main_v123) = (mulf : (⟨S16x2048x256, .f32⟩ : BufTy).Contents (Elt F) → (⟨S16x2048x256, .f32⟩ : BufTy).Contents (Elt F) → (⟨S16x2048x256, .f32⟩ : BufTy).Contents (Elt F)) (Vfin V0 (Proc.devRef .tc main_v93)) (Vfin V0 (Proc.devRef .tc main_v122)) :=
  stage_binary (tail2_inOrder (F := F)) (Vfin_eq2 V0) 54 main_v93 main_v122 main_v123 (mulf : (⟨S16x2048x256, .f32⟩ : BufTy).Contents (Elt F) → (⟨S16x2048x256, .f32⟩ : BufTy).Contents (Elt F) → (⟨S16x2048x256, .f32⟩ : BufTy).Contents (Elt F)) rfl (by decide) (by decide) (by decide)

theorem st_main_v124 : Vfin V0 (Proc.devRef .tc main_v124) = (addf : (⟨S16x2048x256, .f32⟩ : BufTy).Contents (Elt F) → (⟨S16x2048x256, .f32⟩ : BufTy).Contents (Elt F) → (⟨S16x2048x256, .f32⟩ : BufTy).Contents (Elt F)) (Vfin V0 (Proc.devRef .tc main_v120)) (Vfin V0 (Proc.devRef .tc main_v123)) :=
  stage_binary (tail2_inOrder (F := F)) (Vfin_eq2 V0) 55 main_v120 main_v123 main_v124 (addf : (⟨S16x2048x256, .f32⟩ : BufTy).Contents (Elt F) → (⟨S16x2048x256, .f32⟩ : BufTy).Contents (Elt F) → (⟨S16x2048x256, .f32⟩ : BufTy).Contents (Elt F)) rfl (by decide) (by decide) (by decide)

theorem st_main_v125 : Vfin V0 (Proc.devRef .tc main_v125) = (broadcastInDim S1x1x256 ![2] bcast_S256_S1x1x256_2 : (⟨S256, .f32⟩ : BufTy).Contents (Elt F) → (⟨S1x1x256, .f32⟩ : BufTy).Contents (Elt F)) (Vfin V0 (Proc.devRef .tc main_arg7)) :=
  stage_unary (tail2_inOrder (F := F)) (Vfin_eq2 V0) 56 main_arg7 main_v125 (broadcastInDim S1x1x256 ![2] bcast_S256_S1x1x256_2 : (⟨S256, .f32⟩ : BufTy).Contents (Elt F) → (⟨S1x1x256, .f32⟩ : BufTy).Contents (Elt F)) rfl (by decide) (by decide)

theorem st_main_v126 : Vfin V0 (Proc.devRef .tc main_v126) = (broadcastInDim S16x2048x256 ![0, 1, 2] bcast_S1x1x256_S16x2048x256_0_1_2 : (⟨S1x1x256, .f32⟩ : BufTy).Contents (Elt F) → (⟨S16x2048x256, .f32⟩ : BufTy).Contents (Elt F)) (Vfin V0 (Proc.devRef .tc main_v125)) :=
  stage_unary (tail2_inOrder (F := F)) (Vfin_eq2 V0) 57 main_v125 main_v126 (broadcastInDim S16x2048x256 ![0, 1, 2] bcast_S1x1x256_S16x2048x256_0_1_2 : (⟨S1x1x256, .f32⟩ : BufTy).Contents (Elt F) → (⟨S16x2048x256, .f32⟩ : BufTy).Contents (Elt F)) rfl (by decide) (by decide)

theorem st_main_v127 : Vfin V0 (Proc.devRef .tc main_v127) = (addf : (⟨S16x2048x256, .f32⟩ : BufTy).Contents (Elt F) → (⟨S16x2048x256, .f32⟩ : BufTy).Contents (Elt F) → (⟨S16x2048x256, .f32⟩ : BufTy).Contents (Elt F)) (Vfin V0 (Proc.devRef .tc main_v124)) (Vfin V0 (Proc.devRef .tc main_v126)) :=
  stage_binary (tail2_inOrder (F := F)) (Vfin_eq2 V0) 58 main_v124 main_v126 main_v127 (addf : (⟨S16x2048x256, .f32⟩ : BufTy).Contents (Elt F) → (⟨S16x2048x256, .f32⟩ : BufTy).Contents (Elt F) → (⟨S16x2048x256, .f32⟩ : BufTy).Contents (Elt F)) rfl (by decide) (by decide) (by decide)

theorem st_main_v128 : Vfin V0 (Proc.devRef .tc main_v128) = ((fun l r => Host.dotGeneral dot_S16x2048x256_S256x256_S16x2048x256_2_0_01_1_n_n none l r) : (⟨S16x2048x256, .f32⟩ : BufTy).Contents (Elt F) → (⟨S256x256, .f32⟩ : BufTy).Contents (Elt F) → (⟨S16x2048x256, .f32⟩ : BufTy).Contents (Elt F)) (Vfin V0 (Proc.devRef .tc main_v127)) (Vfin V0 (Proc.devRef .tc main_arg8)) :=
  stage_binary (tail2_inOrder (F := F)) (Vfin_eq2 V0) 59 main_v127 main_arg8 main_v128 ((fun l r => Host.dotGeneral dot_S16x2048x256_S256x256_S16x2048x256_2_0_01_1_n_n none l r) : (⟨S16x2048x256, .f32⟩ : BufTy).Contents (Elt F) → (⟨S256x256, .f32⟩ : BufTy).Contents (Elt F) → (⟨S16x2048x256, .f32⟩ : BufTy).Contents (Elt F)) rfl (by decide) (by decide) (by decide)

theorem st_main_c_27 : Vfin V0 (Proc.devRef .tc main_c_27) = ((constantI S_ 32 0#32) : (⟨S_, .i32⟩ : BufTy).Contents (Elt F)) :=
  stage_nullary (tail2_inOrder (F := F)) (Vfin_eq2 V0) 60 main_c_27 ((constantI S_ 32 0#32) : (⟨S_, .i32⟩ : BufTy).Contents (Elt F)) rfl (by decide)

theorem st_main_v129 : Vfin V0 (Proc.devRef .tc main_v129) = (broadcastInDim S12288 ![] bcast_S_S12288 : (⟨S_, .i32⟩ : BufTy).Contents (Elt F) → (⟨S12288, .i32⟩ : BufTy).Contents (Elt F)) (Vfin V0 (Proc.devRef .tc main_c_27)) :=
  stage_unary (tail2_inOrder (F := F)) (Vfin_eq2 V0) 61 main_c_27 main_v129 (broadcastInDim S12288 ![] bcast_S_S12288 : (⟨S_, .i32⟩ : BufTy).Contents (Elt F) → (⟨S12288, .i32⟩ : BufTy).Contents (Elt F)) rfl (by decide) (by decide)

theorem st_main_v130 : Vfin V0 (Proc.devRef .tc main_v130) = (cmpi .slt : (⟨S12288, .i32⟩ : BufTy).Contents (Elt F) → (⟨S12288, .i32⟩ : BufTy).Contents (Elt F) → (⟨S12288, .i1⟩ : BufTy).Contents (Elt F)) (Vfin V0 (Proc.devRef .tc main_v1)) (Vfin V0 (Proc.devRef .tc main_v129)) :=
  stage_binary (tail2_inOrder (F := F)) (Vfin_eq2 V0) 62 main_v1 main_v129 main_v130 (cmpi .slt : (⟨S12288, .i32⟩ : BufTy).Contents (Elt F) → (⟨S12288, .i32⟩ : BufTy).Contents (Elt F) → (⟨S12288, .i1⟩ : BufTy).Contents (Elt F)) rfl (by decide) (by decide) (by decide)

theorem st_main_c_28 : Vfin V0 (Proc.devRef .tc main_c_28) = ((constantI S_ 32 2048#32) : (⟨S_, .i32⟩ : BufTy).Contents (Elt F)) :=
  stage_nullary (tail2_inOrder (F := F)) (Vfin_eq2 V0) 63 main_c_28 ((constantI S_ 32 2048#32) : (⟨S_, .i32⟩ : BufTy).Contents (Elt F)) rfl (by decide)

theorem st_main_v131 : Vfin V0 (Proc.devRef .tc main_v131) = (broadcastInDim S12288 ![] bcast_S_S12288 : (⟨S_, .i32⟩ : BufTy).Contents (Elt F) → (⟨S12288, .i32⟩ : BufTy).Contents (Elt F)) (Vfin V0 (Proc.devRef .tc main_c_28)) :=
  stage_unary (tail2_inOrder (F := F)) (Vfin_eq2 V0) 64 main_c_28 main_v131 (broadcastInDim S12288 ![] bcast_S_S12288 : (⟨S_, .i32⟩ : BufTy).Contents (Elt F) → (⟨S12288, .i32⟩ : BufTy).Contents (Elt F)) rfl (by decide) (by decide)

theorem st_main_v132 : Vfin V0 (Proc.devRef .tc main_v132) = (addi : (⟨S12288, .i32⟩ : BufTy).Contents (Elt F) → (⟨S12288, .i32⟩ : BufTy).Contents (Elt F) → (⟨S12288, .i32⟩ : BufTy).Contents (Elt F)) (Vfin V0 (Proc.devRef .tc main_v1)) (Vfin V0 (Proc.devRef .tc main_v131)) :=
  stage_binary (tail2_inOrder (F := F)) (Vfin_eq2 V0) 65 main_v1 main_v131 main_v132 (addi : (⟨S12288, .i32⟩ : BufTy).Contents (Elt F) → (⟨S12288, .i32⟩ : BufTy).Contents (Elt F) → (⟨S12288, .i32⟩ : BufTy).Contents (Elt F)) rfl (by decide) (by decide) (by decide)

theorem st_main_v133 : Vfin V0 (Proc.devRef .tc main_v133) = (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) (Vfin V0 (Proc.devRef .tc main_v130)) (Vfin V0 (Proc.devRef .tc main_v132)) (Vfin V0 (Proc.devRef .tc main_v1)) :=
  stage_ternary (tail2_inOrder (F := F)) (Vfin_eq2 V0) 66 main_v130 main_v132 main_v1 main_v133 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) rfl (by decide) (by decide) (by decide) (by decide)

theorem st_main_v134 : Vfin V0 (Proc.devRef .tc main_v134) = (broadcastInDim S12288x1 ![0] bcast_S12288_S12288x1_0 : (⟨S12288, .i32⟩ : BufTy).Contents (Elt F) → (⟨S12288x1, .i32⟩ : BufTy).Contents (Elt F)) (Vfin V0 (Proc.devRef .tc main_v133)) :=
  stage_unary (tail2_inOrder (F := F)) (Vfin_eq2 V0) 67 main_v133 main_v134 (broadcastInDim S12288x1 ![0] bcast_S12288_S12288x1_0 : (⟨S12288, .i32⟩ : BufTy).Contents (Elt F) → (⟨S12288x1, .i32⟩ : BufTy).Contents (Elt F)) rfl (by decide) (by decide)

theorem st_main_v135 : Vfin V0 (Proc.devRef .tc main_v135) = ((fun x i => Host.gather gather_S2048_S12288x1_S12288_n_0_n_n_0_1_1 x i) : (⟨S2048, .f32⟩ : BufTy).Contents (Elt F) → (⟨S12288x1, .i32⟩ : BufTy).Contents (Elt F) → (⟨S12288, .f32⟩ : BufTy).Contents (Elt F)) (Vfin V0 (Proc.devRef .tc main_v15)) (Vfin V0 (Proc.devRef .tc main_v134)) :=
  stage_binary (tail2_inOrder (F := F)) (Vfin_eq2 V0) 68 main_v15 main_v134 main_v135 ((fun x i => Host.gather gather_S2048_S12288x1_S12288_n_0_n_n_0_1_1 x i) : (⟨S2048, .f32⟩ : BufTy).Contents (Elt F) → (⟨S12288x1, .i32⟩ : BufTy).Contents (Elt F) → (⟨S12288, .f32⟩ : BufTy).Contents (Elt F)) rfl (by decide) (by decide) (by decide)

theorem st_main_c_29 : Vfin V0 (Proc.devRef .tc main_c_29) = ((constantI S_ 32 0#32) : (⟨S_, .i32⟩ : BufTy).Contents (Elt F)) :=
  stage_nullary (tail2_inOrder (F := F)) (Vfin_eq2 V0) 69 main_c_29 ((constantI S_ 32 0#32) : (⟨S_, .i32⟩ : BufTy).Contents (Elt F)) rfl (by decide)

theorem st_main_v136 : Vfin V0 (Proc.devRef .tc main_v136) = (broadcastInDim S12288 ![] bcast_S_S12288 : (⟨S_, .i32⟩ : BufTy).Contents (Elt F) → (⟨S12288, .i32⟩ : BufTy).Contents (Elt F)) (Vfin V0 (Proc.devRef .tc main_c_29)) :=
  stage_unary (tail2_inOrder (F := F)) (Vfin_eq2 V0) 70 main_c_29 main_v136 (broadcastInDim S12288 ![] bcast_S_S12288 : (⟨S_, .i32⟩ : BufTy).Contents (Elt F) → (⟨S12288, .i32⟩ : BufTy).Contents (Elt F)) rfl (by decide) (by decide)

theorem st_main_v137 : Vfin V0 (Proc.devRef .tc main_v137) = (cmpi .slt : (⟨S12288, .i32⟩ : BufTy).Contents (Elt F) → (⟨S12288, .i32⟩ : BufTy).Contents (Elt F) → (⟨S12288, .i1⟩ : BufTy).Contents (Elt F)) (Vfin V0 (Proc.devRef .tc main_v3)) (Vfin V0 (Proc.devRef .tc main_v136)) :=
  stage_binary (tail2_inOrder (F := F)) (Vfin_eq2 V0) 71 main_v3 main_v136 main_v137 (cmpi .slt : (⟨S12288, .i32⟩ : BufTy).Contents (Elt F) → (⟨S12288, .i32⟩ : BufTy).Contents (Elt F) → (⟨S12288, .i1⟩ : BufTy).Contents (Elt F)) rfl (by decide) (by decide) (by decide)

theorem st_main_c_30 : Vfin V0 (Proc.devRef .tc main_c_30) = ((constantI S_ 32 2048#32) : (⟨S_, .i32⟩ : BufTy).Contents (Elt F)) :=
  stage_nullary (tail2_inOrder (F := F)) (Vfin_eq2 V0) 72 main_c_30 ((constantI S_ 32 2048#32) : (⟨S_, .i32⟩ : BufTy).Contents (Elt F)) rfl (by decide)

theorem st_main_v138 : Vfin V0 (Proc.devRef .tc main_v138) = (broadcastInDim S12288 ![] bcast_S_S12288 : (⟨S_, .i32⟩ : BufTy).Contents (Elt F) → (⟨S12288, .i32⟩ : BufTy).Contents (Elt F)) (Vfin V0 (Proc.devRef .tc main_c_30)) :=
  stage_unary (tail2_inOrder (F := F)) (Vfin_eq2 V0) 73 main_c_30 main_v138 (broadcastInDim S12288 ![] bcast_S_S12288 : (⟨S_, .i32⟩ : BufTy).Contents (Elt F) → (⟨S12288, .i32⟩ : BufTy).Contents (Elt F)) rfl (by decide) (by decide)

theorem st_main_v139 : Vfin V0 (Proc.devRef .tc main_v139) = (addi : (⟨S12288, .i32⟩ : BufTy).Contents (Elt F) → (⟨S12288, .i32⟩ : BufTy).Contents (Elt F) → (⟨S12288, .i32⟩ : BufTy).Contents (Elt F)) (Vfin V0 (Proc.devRef .tc main_v3)) (Vfin V0 (Proc.devRef .tc main_v138)) :=
  stage_binary (tail2_inOrder (F := F)) (Vfin_eq2 V0) 74 main_v3 main_v138 main_v139 (addi : (⟨S12288, .i32⟩ : BufTy).Contents (Elt F) → (⟨S12288, .i32⟩ : BufTy).Contents (Elt F) → (⟨S12288, .i32⟩ : BufTy).Contents (Elt F)) rfl (by decide) (by decide) (by decide)

theorem st_main_v140 : Vfin V0 (Proc.devRef .tc main_v140) = (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) (Vfin V0 (Proc.devRef .tc main_v137)) (Vfin V0 (Proc.devRef .tc main_v139)) (Vfin V0 (Proc.devRef .tc main_v3)) :=
  stage_ternary (tail2_inOrder (F := F)) (Vfin_eq2 V0) 75 main_v137 main_v139 main_v3 main_v140 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) rfl (by decide) (by decide) (by decide) (by decide)

theorem st_main_v141 : Vfin V0 (Proc.devRef .tc main_v141) = (broadcastInDim S12288x1 ![0] bcast_S12288_S12288x1_0 : (⟨S12288, .i32⟩ : BufTy).Contents (Elt F) → (⟨S12288x1, .i32⟩ : BufTy).Contents (Elt F)) (Vfin V0 (Proc.devRef .tc main_v140)) :=
  stage_unary (tail2_inOrder (F := F)) (Vfin_eq2 V0) 76 main_v140 main_v141 (broadcastInDim S12288x1 ![0] bcast_S12288_S12288x1_0 : (⟨S12288, .i32⟩ : BufTy).Contents (Elt F) → (⟨S12288x1, .i32⟩ : BufTy).Contents (Elt F)) rfl (by decide) (by decide)

theorem st_main_v142 : Vfin V0 (Proc.devRef .tc main_v142) = ((fun x i => Host.gather gather_S2048_S12288x1_S12288_n_0_n_n_0_1_1 x i) : (⟨S2048, .f32⟩ : BufTy).Contents (Elt F) → (⟨S12288x1, .i32⟩ : BufTy).Contents (Elt F) → (⟨S12288, .f32⟩ : BufTy).Contents (Elt F)) (Vfin V0 (Proc.devRef .tc main_v15)) (Vfin V0 (Proc.devRef .tc main_v141)) :=
  stage_binary (tail2_inOrder (F := F)) (Vfin_eq2 V0) 77 main_v15 main_v141 main_v142 ((fun x i => Host.gather gather_S2048_S12288x1_S12288_n_0_n_n_0_1_1 x i) : (⟨S2048, .f32⟩ : BufTy).Contents (Elt F) → (⟨S12288x1, .i32⟩ : BufTy).Contents (Elt F) → (⟨S12288, .f32⟩ : BufTy).Contents (Elt F)) rfl (by decide) (by decide) (by decide)

theorem st_main_v143 : Vfin V0 (Proc.devRef .tc main_v143) = (mulf : (⟨S12288, .f32⟩ : BufTy).Contents (Elt F) → (⟨S12288, .f32⟩ : BufTy).Contents (Elt F) → (⟨S12288, .f32⟩ : BufTy).Contents (Elt F)) (Vfin V0 (Proc.devRef .tc main_v135)) (Vfin V0 (Proc.devRef .tc main_v142)) :=
  stage_binary (tail2_inOrder (F := F)) (Vfin_eq2 V0) 78 main_v135 main_v142 main_v143 (mulf : (⟨S12288, .f32⟩ : BufTy).Contents (Elt F) → (⟨S12288, .f32⟩ : BufTy).Contents (Elt F) → (⟨S12288, .f32⟩ : BufTy).Contents (Elt F)) rfl (by decide) (by decide) (by decide)

theorem st_main_call4_c : Vfin V0 (Proc.devRef .tc main_call4_c) = ((constantI S_ 32 0#32) : (⟨S_, .i32⟩ : BufTy).Contents (Elt F)) :=
  stage_tnullary (tail2_inOrder (F := F)) (Vfin_eq2 V0) 79 (.of main_call4_c : StableHlo.TRef sig ⟨S_, .i32⟩) (constantI S_ 32 0#32) rfl (by decide)

theorem st_main_call4_v0 : Vfin V0 (Proc.devRef .tc main_call4_v0) = ((broadcastInDim S12288 ![] bcast_S_S12288) : (⟨S_, .i32⟩ : BufTy).Contents (Elt F) → (⟨S12288, .i32⟩ : BufTy).Contents (Elt F)) (Vfin V0 (Proc.devRef .tc main_call4_c)) :=
  stage_tunary (tail2_inOrder (F := F)) (Vfin_eq2 V0) 80 (.of main_call4_c : StableHlo.TRef sig ⟨S_, .i32⟩) (.of main_call4_v0 : StableHlo.TRef sig ⟨S12288, .i32⟩) (broadcastInDim S12288 ![] bcast_S_S12288) rfl (by decide) (by decide)

theorem st_main_call4_v1 : Vfin V0 (Proc.devRef .tc main_call4_v1) = ((cmpi .slt) : (⟨S12288, .i32⟩ : BufTy).Contents (Elt F) → (⟨S12288, .i32⟩ : BufTy).Contents (Elt F) → (⟨S12288, .i1⟩ : BufTy).Contents (Elt F)) (Vfin V0 (Proc.devRef .tc main_v1)) (Vfin V0 (Proc.devRef .tc main_call4_v0)) :=
  stage_tbinary (tail2_inOrder (F := F)) (Vfin_eq2 V0) 81 (.of main_v1 : StableHlo.TRef sig ⟨S12288, .i32⟩) (.of main_call4_v0 : StableHlo.TRef sig ⟨S12288, .i32⟩) (.of main_call4_v1 : StableHlo.TRef sig ⟨S12288, .i1⟩) (cmpi .slt) rfl (by decide) (by decide) (by decide)

theorem st_main_call4_c_0 : Vfin V0 (Proc.devRef .tc main_call4_c_0) = ((constantI S_ 32 2048#32) : (⟨S_, .i32⟩ : BufTy).Contents (Elt F)) :=
  stage_tnullary (tail2_inOrder (F := F)) (Vfin_eq2 V0) 82 (.of main_call4_c_0 : StableHlo.TRef sig ⟨S_, .i32⟩) (constantI S_ 32 2048#32) rfl (by decide)

theorem st_main_call4_v2 : Vfin V0 (Proc.devRef .tc main_call4_v2) = ((broadcastInDim S12288 ![] bcast_S_S12288) : (⟨S_, .i32⟩ : BufTy).Contents (Elt F) → (⟨S12288, .i32⟩ : BufTy).Contents (Elt F)) (Vfin V0 (Proc.devRef .tc main_call4_c_0)) :=
  stage_tunary (tail2_inOrder (F := F)) (Vfin_eq2 V0) 83 (.of main_call4_c_0 : StableHlo.TRef sig ⟨S_, .i32⟩) (.of main_call4_v2 : StableHlo.TRef sig ⟨S12288, .i32⟩) (broadcastInDim S12288 ![] bcast_S_S12288) rfl (by decide) (by decide)

theorem st_main_call4_v3 : Vfin V0 (Proc.devRef .tc main_call4_v3) = (addi : (⟨S12288, .i32⟩ : BufTy).Contents (Elt F) → (⟨S12288, .i32⟩ : BufTy).Contents (Elt F) → (⟨S12288, .i32⟩ : BufTy).Contents (Elt F)) (Vfin V0 (Proc.devRef .tc main_v1)) (Vfin V0 (Proc.devRef .tc main_call4_v2)) :=
  stage_tbinary (tail2_inOrder (F := F)) (Vfin_eq2 V0) 84 (.of main_v1 : StableHlo.TRef sig ⟨S12288, .i32⟩) (.of main_call4_v2 : StableHlo.TRef sig ⟨S12288, .i32⟩) (.of main_call4_v3 : StableHlo.TRef sig ⟨S12288, .i32⟩) addi rfl (by decide) (by decide) (by decide)

theorem st_main_call4_v4 : Vfin V0 (Proc.devRef .tc main_call4_v4) = (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) (Vfin V0 (Proc.devRef .tc main_call4_v1)) (Vfin V0 (Proc.devRef .tc main_call4_v3)) (Vfin V0 (Proc.devRef .tc main_v1)) :=
  stage_tternary (tail2_inOrder (F := F)) (Vfin_eq2 V0) 85 (.of main_call4_v1 : StableHlo.TRef sig ⟨S12288, .i1⟩) (.of main_call4_v3 : StableHlo.TRef sig ⟨S12288, .i32⟩) (.of main_v1 : StableHlo.TRef sig ⟨S12288, .i32⟩) (.of main_call4_v4 : StableHlo.TRef sig ⟨S12288, .i32⟩) select rfl (by decide) (by decide) (by decide) (by decide)

theorem st_main_call4_v5 : Vfin V0 (Proc.devRef .tc main_call4_v5) = ((broadcastInDim S12288x1 ![0] bcast_S12288_S12288x1_0) : (⟨S12288, .i32⟩ : BufTy).Contents (Elt F) → (⟨S12288x1, .i32⟩ : BufTy).Contents (Elt F)) (Vfin V0 (Proc.devRef .tc main_call4_v4)) :=
  stage_tunary (tail2_inOrder (F := F)) (Vfin_eq2 V0) 86 (.of main_call4_v4 : StableHlo.TRef sig ⟨S12288, .i32⟩) (.of main_call4_v5 : StableHlo.TRef sig ⟨S12288x1, .i32⟩) (broadcastInDim S12288x1 ![0] bcast_S12288_S12288x1_0) rfl (by decide) (by decide)

theorem st_main_call4_c_1 : Vfin V0 (Proc.devRef .tc main_call4_c_1) = ((constantI S1 32 2047#32) : (⟨S1, .i32⟩ : BufTy).Contents (Elt F)) :=
  stage_tnullary (tail2_inOrder (F := F)) (Vfin_eq2 V0) 87 (.of main_call4_c_1 : StableHlo.TRef sig ⟨S1, .i32⟩) (constantI S1 32 2047#32) rfl (by decide)

theorem st_main_call4_c_2 : Vfin V0 (Proc.devRef .tc main_call4_c_2) = ((constantI S_ 32 0#32) : (⟨S_, .i32⟩ : BufTy).Contents (Elt F)) :=
  stage_tnullary (tail2_inOrder (F := F)) (Vfin_eq2 V0) 88 (.of main_call4_c_2 : StableHlo.TRef sig ⟨S_, .i32⟩) (constantI S_ 32 0#32) rfl (by decide)

theorem st_main_call4_v6 : Vfin V0 (Proc.devRef .tc main_call4_v6) = ((broadcastInDim S12288x1 ![] bcast_S_S12288x1) : (⟨S_, .i32⟩ : BufTy).Contents (Elt F) → (⟨S12288x1, .i32⟩ : BufTy).Contents (Elt F)) (Vfin V0 (Proc.devRef .tc main_call4_c_2)) :=
  stage_tunary (tail2_inOrder (F := F)) (Vfin_eq2 V0) 89 (.of main_call4_c_2 : StableHlo.TRef sig ⟨S_, .i32⟩) (.of main_call4_v6 : StableHlo.TRef sig ⟨S12288x1, .i32⟩) (broadcastInDim S12288x1 ![] bcast_S_S12288x1) rfl (by decide) (by decide)

theorem st_main_call4_v7 : Vfin V0 (Proc.devRef .tc main_call4_v7) = ((cmpi .sge) : (⟨S12288x1, .i32⟩ : BufTy).Contents (Elt F) → (⟨S12288x1, .i32⟩ : BufTy).Contents (Elt F) → (⟨S12288x1, .i1⟩ : BufTy).Contents (Elt F)) (Vfin V0 (Proc.devRef .tc main_call4_v5)) (Vfin V0 (Proc.devRef .tc main_call4_v6)) :=
  stage_tbinary (tail2_inOrder (F := F)) (Vfin_eq2 V0) 90 (.of main_call4_v5 : StableHlo.TRef sig ⟨S12288x1, .i32⟩) (.of main_call4_v6 : StableHlo.TRef sig ⟨S12288x1, .i32⟩) (.of main_call4_v7 : StableHlo.TRef sig ⟨S12288x1, .i1⟩) (cmpi .sge) rfl (by decide) (by decide) (by decide)

theorem st_main_call4_v8 : Vfin V0 (Proc.devRef .tc main_call4_v8) = ((broadcastInDim S1x1 ![1] bcast_S1_S1x1_1) : (⟨S1, .i32⟩ : BufTy).Contents (Elt F) → (⟨S1x1, .i32⟩ : BufTy).Contents (Elt F)) (Vfin V0 (Proc.devRef .tc main_call4_c_1)) :=
  stage_tunary (tail2_inOrder (F := F)) (Vfin_eq2 V0) 91 (.of main_call4_c_1 : StableHlo.TRef sig ⟨S1, .i32⟩) (.of main_call4_v8 : StableHlo.TRef sig ⟨S1x1, .i32⟩) (broadcastInDim S1x1 ![1] bcast_S1_S1x1_1) rfl (by decide) (by decide)

theorem st_main_call4_v9 : Vfin V0 (Proc.devRef .tc main_call4_v9) = ((broadcastInDim S12288x1 ![0, 1] bcast_S1x1_S12288x1_0_1) : (⟨S1x1, .i32⟩ : BufTy).Contents (Elt F) → (⟨S12288x1, .i32⟩ : BufTy).Contents (Elt F)) (Vfin V0 (Proc.devRef .tc main_call4_v8)) :=
  stage_tunary (tail2_inOrder (F := F)) (Vfin_eq2 V0) 92 (.of main_call4_v8 : StableHlo.TRef sig ⟨S1x1, .i32⟩) (.of main_call4_v9 : StableHlo.TRef sig ⟨S12288x1, .i32⟩) (broadcastInDim S12288x1 ![0, 1] bcast_S1x1_S12288x1_0_1) rfl (by decide) (by decide)

theorem st_main_call4_v10 : Vfin V0 (Proc.devRef .tc main_call4_v10) = ((cmpi .sle) : (⟨S12288x1, .i32⟩ : BufTy).Contents (Elt F) → (⟨S12288x1, .i32⟩ : BufTy).Contents (Elt F) → (⟨S12288x1, .i1⟩ : BufTy).Contents (Elt F)) (Vfin V0 (Proc.devRef .tc main_call4_v5)) (Vfin V0 (Proc.devRef .tc main_call4_v9)) :=
  stage_tbinary (tail2_inOrder (F := F)) (Vfin_eq2 V0) 93 (.of main_call4_v5 : StableHlo.TRef sig ⟨S12288x1, .i32⟩) (.of main_call4_v9 : StableHlo.TRef sig ⟨S12288x1, .i32⟩) (.of main_call4_v10 : StableHlo.TRef sig ⟨S12288x1, .i1⟩) (cmpi .sle) rfl (by decide) (by decide) (by decide)

theorem st_main_call4_v11 : Vfin V0 (Proc.devRef .tc main_call4_v11) = (andi : (⟨S12288x1, .i1⟩ : BufTy).Contents (Elt F) → (⟨S12288x1, .i1⟩ : BufTy).Contents (Elt F) → (⟨S12288x1, .i1⟩ : BufTy).Contents (Elt F)) (Vfin V0 (Proc.devRef .tc main_call4_v7)) (Vfin V0 (Proc.devRef .tc main_call4_v10)) :=
  stage_tbinary (tail2_inOrder (F := F)) (Vfin_eq2 V0) 94 (.of main_call4_v7 : StableHlo.TRef sig ⟨S12288x1, .i1⟩) (.of main_call4_v10 : StableHlo.TRef sig ⟨S12288x1, .i1⟩) (.of main_call4_v11 : StableHlo.TRef sig ⟨S12288x1, .i1⟩) andi rfl (by decide) (by decide) (by decide)

theorem st_main_call4_c_3 : Vfin V0 (Proc.devRef .tc main_call4_c_3) = ((constantI S_ 1 1#1) : (⟨S_, .i1⟩ : BufTy).Contents (Elt F)) :=
  stage_tnullary (tail2_inOrder (F := F)) (Vfin_eq2 V0) 95 (.of main_call4_c_3 : StableHlo.TRef sig ⟨S_, .i1⟩) (constantI S_ 1 1#1) rfl (by decide)

theorem st_main_call4_v12 : Vfin V0 (Proc.devRef .tc main_call4_v12) = ((fun x v => Host.reduce IntOp.andi x v reducesTo_S12288x1_S12288_d1 h_S_) : (⟨S12288x1, .i1⟩ : BufTy).Contents (Elt F) → (⟨S_, .i1⟩ : BufTy).Contents (Elt F) → (⟨S12288, .i1⟩ : BufTy).Contents (Elt F)) (Vfin V0 (Proc.devRef .tc main_call4_v11)) (Vfin V0 (Proc.devRef .tc main_call4_c_3)) :=
  stage_tbinary (tail2_inOrder (F := F)) (Vfin_eq2 V0) 96 (.of main_call4_v11 : StableHlo.TRef sig ⟨S12288x1, .i1⟩) (.of main_call4_c_3 : StableHlo.TRef sig ⟨S_, .i1⟩) (.of main_call4_v12 : StableHlo.TRef sig ⟨S12288, .i1⟩) (fun x v => Host.reduce IntOp.andi x v reducesTo_S12288x1_S12288_d1 h_S_) rfl (by decide) (by decide) (by decide)

theorem st_main_call4_v13 : Vfin V0 (Proc.devRef .tc main_call4_v13) = ((fun x i => Host.gather gather_S16x2048x256_S12288x1_S16x12288x256_02_1_n_n_1_1_161256 x i) : (⟨S16x2048x256, .f32⟩ : BufTy).Contents (Elt F) → (⟨S12288x1, .i32⟩ : BufTy).Contents (Elt F) → (⟨S16x12288x256, .f32⟩ : BufTy).Contents (Elt F)) (Vfin V0 (Proc.devRef .tc main_v128)) (Vfin V0 (Proc.devRef .tc main_call4_v5)) :=
  stage_tbinary (tail2_inOrder (F := F)) (Vfin_eq2 V0) 97 (.of main_v128 : StableHlo.TRef sig ⟨S16x2048x256, .f32⟩) (.of main_call4_v5 : StableHlo.TRef sig ⟨S12288x1, .i32⟩) (.of main_call4_v13 : StableHlo.TRef sig ⟨S16x12288x256, .f32⟩) (fun x i => Host.gather gather_S16x2048x256_S12288x1_S16x12288x256_02_1_n_n_1_1_161256 x i) rfl (by decide) (by decide) (by decide)

theorem st_main_call4_v14 : Vfin V0 (Proc.devRef .tc main_call4_v14) = ((broadcastInDim S16x12288x256 ![1] bcast_S12288_S16x12288x256_1) : (⟨S12288, .i1⟩ : BufTy).Contents (Elt F) → (⟨S16x12288x256, .i1⟩ : BufTy).Contents (Elt F)) (Vfin V0 (Proc.devRef .tc main_call4_v12)) :=
  stage_tunary (tail2_inOrder (F := F)) (Vfin_eq2 V0) 98 (.of main_call4_v12 : StableHlo.TRef sig ⟨S12288, .i1⟩) (.of main_call4_v14 : StableHlo.TRef sig ⟨S16x12288x256, .i1⟩) (broadcastInDim S16x12288x256 ![1] bcast_S12288_S16x12288x256_1) rfl (by decide) (by decide)

theorem st_main_call4_cst : Vfin V0 (Proc.devRef .tc main_call4_cst) = ((constant S_ .f32 0x7FC00000#32) : (⟨S_, .f32⟩ : BufTy).Contents (Elt F)) :=
  stage_tnullary (tail2_inOrder (F := F)) (Vfin_eq2 V0) 99 (.of main_call4_cst : StableHlo.TRef sig ⟨S_, .f32⟩) (constant S_ .f32 0x7FC00000#32) rfl (by decide)

theorem st_main_call4_v15 : Vfin V0 (Proc.devRef .tc main_call4_v15) = ((broadcastInDim S16x12288x256 ![] bcast_S_S16x12288x256) : (⟨S_, .f32⟩ : BufTy).Contents (Elt F) → (⟨S16x12288x256, .f32⟩ : BufTy).Contents (Elt F)) (Vfin V0 (Proc.devRef .tc main_call4_cst)) :=
  stage_tunary (tail2_inOrder (F := F)) (Vfin_eq2 V0) 100 (.of main_call4_cst : StableHlo.TRef sig ⟨S_, .f32⟩) (.of main_call4_v15 : StableHlo.TRef sig ⟨S16x12288x256, .f32⟩) (broadcastInDim S16x12288x256 ![] bcast_S_S16x12288x256) rfl (by decide) (by decide)

theorem st_main_v144 : Vfin V0 (Proc.devRef .tc main_v144) = (select : (⟨S16x12288x256, .i1⟩ : BufTy).Contents (Elt F) → (⟨S16x12288x256, .f32⟩ : BufTy).Contents (Elt F) → (⟨S16x12288x256, .f32⟩ : BufTy).Contents (Elt F) → (⟨S16x12288x256, .f32⟩ : BufTy).Contents (Elt F)) (Vfin V0 (Proc.devRef .tc main_call4_v14)) (Vfin V0 (Proc.devRef .tc main_call4_v13)) (Vfin V0 (Proc.devRef .tc main_call4_v15)) :=
  stage_tternary (tail2_inOrder (F := F)) (Vfin_eq2 V0) 101 (.of main_call4_v14 : StableHlo.TRef sig ⟨S16x12288x256, .i1⟩) (.of main_call4_v13 : StableHlo.TRef sig ⟨S16x12288x256, .f32⟩) (.of main_call4_v15 : StableHlo.TRef sig ⟨S16x12288x256, .f32⟩) (.of main_v144 : StableHlo.TRef sig ⟨S16x12288x256, .f32⟩) select rfl (by decide) (by decide) (by decide) (by decide)

theorem st_main_v145 : Vfin V0 (Proc.devRef .tc main_v145) = (broadcastInDim S1x12288x1 ![1] bcast_S12288_S1x12288x1_1 : (⟨S12288, .f32⟩ : BufTy).Contents (Elt F) → (⟨S1x12288x1, .f32⟩ : BufTy).Contents (Elt F)) (Vfin V0 (Proc.devRef .tc main_v143)) :=
  stage_unary (tail2_inOrder (F := F)) (Vfin_eq2 V0) 102 main_v143 main_v145 (broadcastInDim S1x12288x1 ![1] bcast_S12288_S1x12288x1_1 : (⟨S12288, .f32⟩ : BufTy).Contents (Elt F) → (⟨S1x12288x1, .f32⟩ : BufTy).Contents (Elt F)) rfl (by decide) (by decide)

theorem st_main_v146 : Vfin V0 (Proc.devRef .tc main_v146) = (broadcastInDim S16x12288x256 ![0, 1, 2] bcast_S1x12288x1_S16x12288x256_0_1_2 : (⟨S1x12288x1, .f32⟩ : BufTy).Contents (Elt F) → (⟨S16x12288x256, .f32⟩ : BufTy).Contents (Elt F)) (Vfin V0 (Proc.devRef .tc main_v145)) :=
  stage_unary (tail2_inOrder (F := F)) (Vfin_eq2 V0) 103 main_v145 main_v146 (broadcastInDim S16x12288x256 ![0, 1, 2] bcast_S1x12288x1_S16x12288x256_0_1_2 : (⟨S1x12288x1, .f32⟩ : BufTy).Contents (Elt F) → (⟨S16x12288x256, .f32⟩ : BufTy).Contents (Elt F)) rfl (by decide) (by decide)

end Cert.ReferenceIdeal.Hand

end
-- ==== Proof.Ref.Stages3.lean ====
import proofs.«421025_j30305289241172_1_alg».proof.Proof.Ref.StageBase

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F] (V0 : Valuation τ sig (Elt F))

theorem st_main_v147 : Vfin V0 (Proc.devRef .tc main_v147) = (mulf : (⟨S16x12288x256, .f32⟩ : BufTy).Contents (Elt F) → (⟨S16x12288x256, .f32⟩ : BufTy).Contents (Elt F) → (⟨S16x12288x256, .f32⟩ : BufTy).Contents (Elt F)) (Vfin V0 (Proc.devRef .tc main_v144)) (Vfin V0 (Proc.devRef .tc main_v146)) :=
  stage_binary (tail3_inOrder (F := F)) (Vfin_eq3 V0) 0 main_v144 main_v146 main_v147 (mulf : (⟨S16x12288x256, .f32⟩ : BufTy).Contents (Elt F) → (⟨S16x12288x256, .f32⟩ : BufTy).Contents (Elt F) → (⟨S16x12288x256, .f32⟩ : BufTy).Contents (Elt F)) rfl (by decide) (by decide) (by decide)

theorem st_main_cst_31 : Vfin V0 (Proc.devRef .tc main_cst_31) = ((constant S_ .f32 0x00000000#32) : (⟨S_, .f32⟩ : BufTy).Contents (Elt F)) :=
  stage_nullary (tail3_inOrder (F := F)) (Vfin_eq3 V0) 1 main_cst_31 ((constant S_ .f32 0x00000000#32) : (⟨S_, .f32⟩ : BufTy).Contents (Elt F)) rfl (by decide)

theorem st_main_v148 : Vfin V0 (Proc.devRef .tc main_v148) = (broadcastInDim S16x2048x256 ![] bcast_S_S16x2048x256 : (⟨S_, .f32⟩ : BufTy).Contents (Elt F) → (⟨S16x2048x256, .f32⟩ : BufTy).Contents (Elt F)) (Vfin V0 (Proc.devRef .tc main_cst_31)) :=
  stage_unary (tail3_inOrder (F := F)) (Vfin_eq3 V0) 2 main_cst_31 main_v148 (broadcastInDim S16x2048x256 ![] bcast_S_S16x2048x256 : (⟨S_, .f32⟩ : BufTy).Contents (Elt F) → (⟨S16x2048x256, .f32⟩ : BufTy).Contents (Elt F)) rfl (by decide) (by decide)

theorem st_main_c_32 : Vfin V0 (Proc.devRef .tc main_c_32) = ((constantI S_ 32 0#32) : (⟨S_, .i32⟩ : BufTy).Contents (Elt F)) :=
  stage_nullary (tail3_inOrder (F := F)) (Vfin_eq3 V0) 3 main_c_32 ((constantI S_ 32 0#32) : (⟨S_, .i32⟩ : BufTy).Contents (Elt F)) rfl (by decide)

theorem st_main_v149 : Vfin V0 (Proc.devRef .tc main_v149) = (broadcastInDim S12288 ![] bcast_S_S12288 : (⟨S_, .i32⟩ : BufTy).Contents (Elt F) → (⟨S12288, .i32⟩ : BufTy).Contents (Elt F)) (Vfin V0 (Proc.devRef .tc main_c_32)) :=
  stage_unary (tail3_inOrder (F := F)) (Vfin_eq3 V0) 4 main_c_32 main_v149 (broadcastInDim S12288 ![] bcast_S_S12288 : (⟨S_, .i32⟩ : BufTy).Contents (Elt F) → (⟨S12288, .i32⟩ : BufTy).Contents (Elt F)) rfl (by decide) (by decide)

theorem st_main_v150 : Vfin V0 (Proc.devRef .tc main_v150) = (cmpi .slt : (⟨S12288, .i32⟩ : BufTy).Contents (Elt F) → (⟨S12288, .i32⟩ : BufTy).Contents (Elt F) → (⟨S12288, .i1⟩ : BufTy).Contents (Elt F)) (Vfin V0 (Proc.devRef .tc main_v3)) (Vfin V0 (Proc.devRef .tc main_v149)) :=
  stage_binary (tail3_inOrder (F := F)) (Vfin_eq3 V0) 5 main_v3 main_v149 main_v150 (cmpi .slt : (⟨S12288, .i32⟩ : BufTy).Contents (Elt F) → (⟨S12288, .i32⟩ : BufTy).Contents (Elt F) → (⟨S12288, .i1⟩ : BufTy).Contents (Elt F)) rfl (by decide) (by decide) (by decide)

theorem st_main_c_33 : Vfin V0 (Proc.devRef .tc main_c_33) = ((constantI S_ 32 2048#32) : (⟨S_, .i32⟩ : BufTy).Contents (Elt F)) :=
  stage_nullary (tail3_inOrder (F := F)) (Vfin_eq3 V0) 6 main_c_33 ((constantI S_ 32 2048#32) : (⟨S_, .i32⟩ : BufTy).Contents (Elt F)) rfl (by decide)

theorem st_main_v151 : Vfin V0 (Proc.devRef .tc main_v151) = (broadcastInDim S12288 ![] bcast_S_S12288 : (⟨S_, .i32⟩ : BufTy).Contents (Elt F) → (⟨S12288, .i32⟩ : BufTy).Contents (Elt F)) (Vfin V0 (Proc.devRef .tc main_c_33)) :=
  stage_unary (tail3_inOrder (F := F)) (Vfin_eq3 V0) 7 main_c_33 main_v151 (broadcastInDim S12288 ![] bcast_S_S12288 : (⟨S_, .i32⟩ : BufTy).Contents (Elt F) → (⟨S12288, .i32⟩ : BufTy).Contents (Elt F)) rfl (by decide) (by decide)

theorem st_main_v152 : Vfin V0 (Proc.devRef .tc main_v152) = (addi : (⟨S12288, .i32⟩ : BufTy).Contents (Elt F) → (⟨S12288, .i32⟩ : BufTy).Contents (Elt F) → (⟨S12288, .i32⟩ : BufTy).Contents (Elt F)) (Vfin V0 (Proc.devRef .tc main_v3)) (Vfin V0 (Proc.devRef .tc main_v151)) :=
  stage_binary (tail3_inOrder (F := F)) (Vfin_eq3 V0) 8 main_v3 main_v151 main_v152 (addi : (⟨S12288, .i32⟩ : BufTy).Contents (Elt F) → (⟨S12288, .i32⟩ : BufTy).Contents (Elt F) → (⟨S12288, .i32⟩ : BufTy).Contents (Elt F)) rfl (by decide) (by decide) (by decide)

theorem st_main_v153 : Vfin V0 (Proc.devRef .tc main_v153) = (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) (Vfin V0 (Proc.devRef .tc main_v150)) (Vfin V0 (Proc.devRef .tc main_v152)) (Vfin V0 (Proc.devRef .tc main_v3)) :=
  stage_ternary (tail3_inOrder (F := F)) (Vfin_eq3 V0) 9 main_v150 main_v152 main_v3 main_v153 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) rfl (by decide) (by decide) (by decide) (by decide)

theorem st_main_v154 : Vfin V0 (Proc.devRef .tc main_v154) = (broadcastInDim S12288x1 ![0] bcast_S12288_S12288x1_0 : (⟨S12288, .i32⟩ : BufTy).Contents (Elt F) → (⟨S12288x1, .i32⟩ : BufTy).Contents (Elt F)) (Vfin V0 (Proc.devRef .tc main_v153)) :=
  stage_unary (tail3_inOrder (F := F)) (Vfin_eq3 V0) 10 main_v153 main_v154 (broadcastInDim S12288x1 ![0] bcast_S12288_S12288x1_0 : (⟨S12288, .i32⟩ : BufTy).Contents (Elt F) → (⟨S12288x1, .i32⟩ : BufTy).Contents (Elt F)) rfl (by decide) (by decide)

theorem st_main_v155 : Vfin V0 (Proc.devRef .tc main_v155) = ((fun x i u => Host.scatterAdd scatter_S16x2048x256_S12288x1_S16x12288x256_02_1_1_1 x i u) : (⟨S16x2048x256, .f32⟩ : BufTy).Contents (Elt F) → (⟨S12288x1, .i32⟩ : BufTy).Contents (Elt F) → (⟨S16x12288x256, .f32⟩ : BufTy).Contents (Elt F) → (⟨S16x2048x256, .f32⟩ : BufTy).Contents (Elt F)) (Vfin V0 (Proc.devRef .tc main_v148)) (Vfin V0 (Proc.devRef .tc main_v154)) (Vfin V0 (Proc.devRef .tc main_v147)) :=
  stage_ternary (tail3_inOrder (F := F)) (Vfin_eq3 V0) 11 main_v148 main_v154 main_v147 main_v155 ((fun x i u => Host.scatterAdd scatter_S16x2048x256_S12288x1_S16x12288x256_02_1_1_1 x i u) : (⟨S16x2048x256, .f32⟩ : BufTy).Contents (Elt F) → (⟨S12288x1, .i32⟩ : BufTy).Contents (Elt F) → (⟨S16x12288x256, .f32⟩ : BufTy).Contents (Elt F) → (⟨S16x2048x256, .f32⟩ : BufTy).Contents (Elt F)) rfl (by decide) (by decide) (by decide) (by decide)

theorem st_main_v156 : Vfin V0 (Proc.devRef .tc main_v156) = (broadcastInDim S1x2048x1 ![1] bcast_S2048_S1x2048x1_1 : (⟨S2048, .f32⟩ : BufTy).Contents (Elt F) → (⟨S1x2048x1, .f32⟩ : BufTy).Contents (Elt F)) (Vfin V0 (Proc.devRef .tc main_v17)) :=
  stage_unary (tail3_inOrder (F := F)) (Vfin_eq3 V0) 12 main_v17 main_v156 (broadcastInDim S1x2048x1 ![1] bcast_S2048_S1x2048x1_1 : (⟨S2048, .f32⟩ : BufTy).Contents (Elt F) → (⟨S1x2048x1, .f32⟩ : BufTy).Contents (Elt F)) rfl (by decide) (by decide)

theorem st_main_v157 : Vfin V0 (Proc.devRef .tc main_v157) = (broadcastInDim S16x2048x256 ![0, 1, 2] bcast_S1x2048x1_S16x2048x256_0_1_2 : (⟨S1x2048x1, .f32⟩ : BufTy).Contents (Elt F) → (⟨S16x2048x256, .f32⟩ : BufTy).Contents (Elt F)) (Vfin V0 (Proc.devRef .tc main_v156)) :=
  stage_unary (tail3_inOrder (F := F)) (Vfin_eq3 V0) 13 main_v156 main_v157 (broadcastInDim S16x2048x256 ![0, 1, 2] bcast_S1x2048x1_S16x2048x256_0_1_2 : (⟨S1x2048x1, .f32⟩ : BufTy).Contents (Elt F) → (⟨S16x2048x256, .f32⟩ : BufTy).Contents (Elt F)) rfl (by decide) (by decide)

theorem st_main_v158 : Vfin V0 (Proc.devRef .tc main_v158) = (mulf : (⟨S16x2048x256, .f32⟩ : BufTy).Contents (Elt F) → (⟨S16x2048x256, .f32⟩ : BufTy).Contents (Elt F) → (⟨S16x2048x256, .f32⟩ : BufTy).Contents (Elt F)) (Vfin V0 (Proc.devRef .tc main_v128)) (Vfin V0 (Proc.devRef .tc main_v157)) :=
  stage_binary (tail3_inOrder (F := F)) (Vfin_eq3 V0) 14 main_v128 main_v157 main_v158 (mulf : (⟨S16x2048x256, .f32⟩ : BufTy).Contents (Elt F) → (⟨S16x2048x256, .f32⟩ : BufTy).Contents (Elt F) → (⟨S16x2048x256, .f32⟩ : BufTy).Contents (Elt F)) rfl (by decide) (by decide) (by decide)

theorem st_main_v159 : Vfin V0 (Proc.devRef .tc main_v159) = (addf : (⟨S16x2048x256, .f32⟩ : BufTy).Contents (Elt F) → (⟨S16x2048x256, .f32⟩ : BufTy).Contents (Elt F) → (⟨S16x2048x256, .f32⟩ : BufTy).Contents (Elt F)) (Vfin V0 (Proc.devRef .tc main_v155)) (Vfin V0 (Proc.devRef .tc main_v158)) :=
  stage_binary (tail3_inOrder (F := F)) (Vfin_eq3 V0) 15 main_v155 main_v158 main_v159 (addf : (⟨S16x2048x256, .f32⟩ : BufTy).Contents (Elt F) → (⟨S16x2048x256, .f32⟩ : BufTy).Contents (Elt F) → (⟨S16x2048x256, .f32⟩ : BufTy).Contents (Elt F)) rfl (by decide) (by decide) (by decide)

theorem st_main_v160 : Vfin V0 (Proc.devRef .tc main_v160) = (broadcastInDim S1x1x256 ![2] bcast_S256_S1x1x256_2 : (⟨S256, .f32⟩ : BufTy).Contents (Elt F) → (⟨S1x1x256, .f32⟩ : BufTy).Contents (Elt F)) (Vfin V0 (Proc.devRef .tc main_arg9)) :=
  stage_unary (tail3_inOrder (F := F)) (Vfin_eq3 V0) 16 main_arg9 main_v160 (broadcastInDim S1x1x256 ![2] bcast_S256_S1x1x256_2 : (⟨S256, .f32⟩ : BufTy).Contents (Elt F) → (⟨S1x1x256, .f32⟩ : BufTy).Contents (Elt F)) rfl (by decide) (by decide)

theorem st_main_v161 : Vfin V0 (Proc.devRef .tc main_v161) = (broadcastInDim S16x2048x256 ![0, 1, 2] bcast_S1x1x256_S16x2048x256_0_1_2 : (⟨S1x1x256, .f32⟩ : BufTy).Contents (Elt F) → (⟨S16x2048x256, .f32⟩ : BufTy).Contents (Elt F)) (Vfin V0 (Proc.devRef .tc main_v160)) :=
  stage_unary (tail3_inOrder (F := F)) (Vfin_eq3 V0) 17 main_v160 main_v161 (broadcastInDim S16x2048x256 ![0, 1, 2] bcast_S1x1x256_S16x2048x256_0_1_2 : (⟨S1x1x256, .f32⟩ : BufTy).Contents (Elt F) → (⟨S16x2048x256, .f32⟩ : BufTy).Contents (Elt F)) rfl (by decide) (by decide)

theorem st_main_v162 : Vfin V0 (Proc.devRef .tc main_v162) = (addf : (⟨S16x2048x256, .f32⟩ : BufTy).Contents (Elt F) → (⟨S16x2048x256, .f32⟩ : BufTy).Contents (Elt F) → (⟨S16x2048x256, .f32⟩ : BufTy).Contents (Elt F)) (Vfin V0 (Proc.devRef .tc main_v159)) (Vfin V0 (Proc.devRef .tc main_v161)) :=
  stage_binary (tail3_inOrder (F := F)) (Vfin_eq3 V0) 18 main_v159 main_v161 main_v162 (addf : (⟨S16x2048x256, .f32⟩ : BufTy).Contents (Elt F) → (⟨S16x2048x256, .f32⟩ : BufTy).Contents (Elt F) → (⟨S16x2048x256, .f32⟩ : BufTy).Contents (Elt F)) rfl (by decide) (by decide) (by decide)

theorem st_main_cst_34 : Vfin V0 (Proc.devRef .tc main_cst_34) = ((constant S_ .f32 0x00000000#32) : (⟨S_, .f32⟩ : BufTy).Contents (Elt F)) :=
  stage_nullary (tail3_inOrder (F := F)) (Vfin_eq3 V0) 19 main_cst_34 ((constant S_ .f32 0x00000000#32) : (⟨S_, .f32⟩ : BufTy).Contents (Elt F)) rfl (by decide)

theorem st_main_v163 : Vfin V0 (Proc.devRef .tc main_v163) = (broadcastInDim S16x2048x256 ![] bcast_S_S16x2048x256 : (⟨S_, .f32⟩ : BufTy).Contents (Elt F) → (⟨S16x2048x256, .f32⟩ : BufTy).Contents (Elt F)) (Vfin V0 (Proc.devRef .tc main_cst_34)) :=
  stage_unary (tail3_inOrder (F := F)) (Vfin_eq3 V0) 20 main_cst_34 main_v163 (broadcastInDim S16x2048x256 ![] bcast_S_S16x2048x256 : (⟨S_, .f32⟩ : BufTy).Contents (Elt F) → (⟨S16x2048x256, .f32⟩ : BufTy).Contents (Elt F)) rfl (by decide) (by decide)

theorem st_main_v164 : Vfin V0 (Proc.devRef .tc main_v164) = (cmpf .oge : (⟨S16x2048x256, .f32⟩ : BufTy).Contents (Elt F) → (⟨S16x2048x256, .f32⟩ : BufTy).Contents (Elt F) → (⟨S16x2048x256, .i1⟩ : BufTy).Contents (Elt F)) (Vfin V0 (Proc.devRef .tc main_v162)) (Vfin V0 (Proc.devRef .tc main_v163)) :=
  stage_binary (tail3_inOrder (F := F)) (Vfin_eq3 V0) 21 main_v162 main_v163 main_v164 (cmpf .oge : (⟨S16x2048x256, .f32⟩ : BufTy).Contents (Elt F) → (⟨S16x2048x256, .f32⟩ : BufTy).Contents (Elt F) → (⟨S16x2048x256, .i1⟩ : BufTy).Contents (Elt F)) rfl (by decide) (by decide) (by decide)

theorem st_main_cst_35 : Vfin V0 (Proc.devRef .tc main_cst_35) = ((constant S_ .f32 0x3C23D70A#32) : (⟨S_, .f32⟩ : BufTy).Contents (Elt F)) :=
  stage_nullary (tail3_inOrder (F := F)) (Vfin_eq3 V0) 22 main_cst_35 ((constant S_ .f32 0x3C23D70A#32) : (⟨S_, .f32⟩ : BufTy).Contents (Elt F)) rfl (by decide)

theorem st_main_v165 : Vfin V0 (Proc.devRef .tc main_v165) = (broadcastInDim S16x2048x256 ![] bcast_S_S16x2048x256 : (⟨S_, .f32⟩ : BufTy).Contents (Elt F) → (⟨S16x2048x256, .f32⟩ : BufTy).Contents (Elt F)) (Vfin V0 (Proc.devRef .tc main_cst_35)) :=
  stage_unary (tail3_inOrder (F := F)) (Vfin_eq3 V0) 23 main_cst_35 main_v165 (broadcastInDim S16x2048x256 ![] bcast_S_S16x2048x256 : (⟨S_, .f32⟩ : BufTy).Contents (Elt F) → (⟨S16x2048x256, .f32⟩ : BufTy).Contents (Elt F)) rfl (by decide) (by decide)

theorem st_main_v166 : Vfin V0 (Proc.devRef .tc main_v166) = (mulf : (⟨S16x2048x256, .f32⟩ : BufTy).Contents (Elt F) → (⟨S16x2048x256, .f32⟩ : BufTy).Contents (Elt F) → (⟨S16x2048x256, .f32⟩ : BufTy).Contents (Elt F)) (Vfin V0 (Proc.devRef .tc main_v165)) (Vfin V0 (Proc.devRef .tc main_v162)) :=
  stage_binary (tail3_inOrder (F := F)) (Vfin_eq3 V0) 24 main_v165 main_v162 main_v166 (mulf : (⟨S16x2048x256, .f32⟩ : BufTy).Contents (Elt F) → (⟨S16x2048x256, .f32⟩ : BufTy).Contents (Elt F) → (⟨S16x2048x256, .f32⟩ : BufTy).Contents (Elt F)) rfl (by decide) (by decide) (by decide)

theorem st_main_v167 : Vfin V0 (Proc.devRef .tc main_v167) = (select : (⟨S16x2048x256, .i1⟩ : BufTy).Contents (Elt F) → (⟨S16x2048x256, .f32⟩ : BufTy).Contents (Elt F) → (⟨S16x2048x256, .f32⟩ : BufTy).Contents (Elt F) → (⟨S16x2048x256, .f32⟩ : BufTy).Contents (Elt F)) (Vfin V0 (Proc.devRef .tc main_v164)) (Vfin V0 (Proc.devRef .tc main_v162)) (Vfin V0 (Proc.devRef .tc main_v166)) :=
  stage_tternary (tail3_inOrder (F := F)) (Vfin_eq3 V0) 25 (.of main_v164 : StableHlo.TRef sig ⟨S16x2048x256, .i1⟩) (.of main_v162 : StableHlo.TRef sig ⟨S16x2048x256, .f32⟩) (.of main_v166 : StableHlo.TRef sig ⟨S16x2048x256, .f32⟩) (.of main_v167 : StableHlo.TRef sig ⟨S16x2048x256, .f32⟩) select rfl (by decide) (by decide) (by decide) (by decide)

theorem st_main_v168 : Vfin V0 (Proc.devRef .tc main_v168) = ((fun l r => Host.dotGeneral dot_S16x2048x256_S256x64_S16x2048x64_2_0_01_1_n_n none l r) : (⟨S16x2048x256, .f32⟩ : BufTy).Contents (Elt F) → (⟨S256x64, .f32⟩ : BufTy).Contents (Elt F) → (⟨S16x2048x64, .f32⟩ : BufTy).Contents (Elt F)) (Vfin V0 (Proc.devRef .tc main_v167)) (Vfin V0 (Proc.devRef .tc main_arg10)) :=
  stage_binary (tail3_inOrder (F := F)) (Vfin_eq3 V0) 26 main_v167 main_arg10 main_v168 ((fun l r => Host.dotGeneral dot_S16x2048x256_S256x64_S16x2048x64_2_0_01_1_n_n none l r) : (⟨S16x2048x256, .f32⟩ : BufTy).Contents (Elt F) → (⟨S256x64, .f32⟩ : BufTy).Contents (Elt F) → (⟨S16x2048x64, .f32⟩ : BufTy).Contents (Elt F)) rfl (by decide) (by decide) (by decide)

theorem st_main_c_36 : Vfin V0 (Proc.devRef .tc main_c_36) = ((constantI S_ 32 0#32) : (⟨S_, .i32⟩ : BufTy).Contents (Elt F)) :=
  stage_nullary (tail3_inOrder (F := F)) (Vfin_eq3 V0) 27 main_c_36 ((constantI S_ 32 0#32) : (⟨S_, .i32⟩ : BufTy).Contents (Elt F)) rfl (by decide)

theorem st_main_v169 : Vfin V0 (Proc.devRef .tc main_v169) = (broadcastInDim S12288 ![] bcast_S_S12288 : (⟨S_, .i32⟩ : BufTy).Contents (Elt F) → (⟨S12288, .i32⟩ : BufTy).Contents (Elt F)) (Vfin V0 (Proc.devRef .tc main_c_36)) :=
  stage_unary (tail3_inOrder (F := F)) (Vfin_eq3 V0) 28 main_c_36 main_v169 (broadcastInDim S12288 ![] bcast_S_S12288 : (⟨S_, .i32⟩ : BufTy).Contents (Elt F) → (⟨S12288, .i32⟩ : BufTy).Contents (Elt F)) rfl (by decide) (by decide)

theorem st_main_v170 : Vfin V0 (Proc.devRef .tc main_v170) = (cmpi .slt : (⟨S12288, .i32⟩ : BufTy).Contents (Elt F) → (⟨S12288, .i32⟩ : BufTy).Contents (Elt F) → (⟨S12288, .i1⟩ : BufTy).Contents (Elt F)) (Vfin V0 (Proc.devRef .tc main_v1)) (Vfin V0 (Proc.devRef .tc main_v169)) :=
  stage_binary (tail3_inOrder (F := F)) (Vfin_eq3 V0) 29 main_v1 main_v169 main_v170 (cmpi .slt : (⟨S12288, .i32⟩ : BufTy).Contents (Elt F) → (⟨S12288, .i32⟩ : BufTy).Contents (Elt F) → (⟨S12288, .i1⟩ : BufTy).Contents (Elt F)) rfl (by decide) (by decide) (by decide)

theorem st_main_c_37 : Vfin V0 (Proc.devRef .tc main_c_37) = ((constantI S_ 32 2048#32) : (⟨S_, .i32⟩ : BufTy).Contents (Elt F)) :=
  stage_nullary (tail3_inOrder (F := F)) (Vfin_eq3 V0) 30 main_c_37 ((constantI S_ 32 2048#32) : (⟨S_, .i32⟩ : BufTy).Contents (Elt F)) rfl (by decide)

theorem st_main_v171 : Vfin V0 (Proc.devRef .tc main_v171) = (broadcastInDim S12288 ![] bcast_S_S12288 : (⟨S_, .i32⟩ : BufTy).Contents (Elt F) → (⟨S12288, .i32⟩ : BufTy).Contents (Elt F)) (Vfin V0 (Proc.devRef .tc main_c_37)) :=
  stage_unary (tail3_inOrder (F := F)) (Vfin_eq3 V0) 31 main_c_37 main_v171 (broadcastInDim S12288 ![] bcast_S_S12288 : (⟨S_, .i32⟩ : BufTy).Contents (Elt F) → (⟨S12288, .i32⟩ : BufTy).Contents (Elt F)) rfl (by decide) (by decide)

theorem st_main_v172 : Vfin V0 (Proc.devRef .tc main_v172) = (addi : (⟨S12288, .i32⟩ : BufTy).Contents (Elt F) → (⟨S12288, .i32⟩ : BufTy).Contents (Elt F) → (⟨S12288, .i32⟩ : BufTy).Contents (Elt F)) (Vfin V0 (Proc.devRef .tc main_v1)) (Vfin V0 (Proc.devRef .tc main_v171)) :=
  stage_binary (tail3_inOrder (F := F)) (Vfin_eq3 V0) 32 main_v1 main_v171 main_v172 (addi : (⟨S12288, .i32⟩ : BufTy).Contents (Elt F) → (⟨S12288, .i32⟩ : BufTy).Contents (Elt F) → (⟨S12288, .i32⟩ : BufTy).Contents (Elt F)) rfl (by decide) (by decide) (by decide)

theorem st_main_v173 : Vfin V0 (Proc.devRef .tc main_v173) = (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) (Vfin V0 (Proc.devRef .tc main_v170)) (Vfin V0 (Proc.devRef .tc main_v172)) (Vfin V0 (Proc.devRef .tc main_v1)) :=
  stage_ternary (tail3_inOrder (F := F)) (Vfin_eq3 V0) 33 main_v170 main_v172 main_v1 main_v173 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) rfl (by decide) (by decide) (by decide) (by decide)

theorem st_main_v174 : Vfin V0 (Proc.devRef .tc main_v174) = (broadcastInDim S12288x1 ![0] bcast_S12288_S12288x1_0 : (⟨S12288, .i32⟩ : BufTy).Contents (Elt F) → (⟨S12288x1, .i32⟩ : BufTy).Contents (Elt F)) (Vfin V0 (Proc.devRef .tc main_v173)) :=
  stage_unary (tail3_inOrder (F := F)) (Vfin_eq3 V0) 34 main_v173 main_v174 (broadcastInDim S12288x1 ![0] bcast_S12288_S12288x1_0 : (⟨S12288, .i32⟩ : BufTy).Contents (Elt F) → (⟨S12288x1, .i32⟩ : BufTy).Contents (Elt F)) rfl (by decide) (by decide)

theorem st_main_v175 : Vfin V0 (Proc.devRef .tc main_v175) = ((fun x i => Host.gather gather_S2048_S12288x1_S12288_n_0_n_n_0_1_1 x i) : (⟨S2048, .f32⟩ : BufTy).Contents (Elt F) → (⟨S12288x1, .i32⟩ : BufTy).Contents (Elt F) → (⟨S12288, .f32⟩ : BufTy).Contents (Elt F)) (Vfin V0 (Proc.devRef .tc main_v15)) (Vfin V0 (Proc.devRef .tc main_v174)) :=
  stage_binary (tail3_inOrder (F := F)) (Vfin_eq3 V0) 35 main_v15 main_v174 main_v175 ((fun x i => Host.gather gather_S2048_S12288x1_S12288_n_0_n_n_0_1_1 x i) : (⟨S2048, .f32⟩ : BufTy).Contents (Elt F) → (⟨S12288x1, .i32⟩ : BufTy).Contents (Elt F) → (⟨S12288, .f32⟩ : BufTy).Contents (Elt F)) rfl (by decide) (by decide) (by decide)

theorem st_main_c_38 : Vfin V0 (Proc.devRef .tc main_c_38) = ((constantI S_ 32 0#32) : (⟨S_, .i32⟩ : BufTy).Contents (Elt F)) :=
  stage_nullary (tail3_inOrder (F := F)) (Vfin_eq3 V0) 36 main_c_38 ((constantI S_ 32 0#32) : (⟨S_, .i32⟩ : BufTy).Contents (Elt F)) rfl (by decide)

theorem st_main_v176 : Vfin V0 (Proc.devRef .tc main_v176) = (broadcastInDim S12288 ![] bcast_S_S12288 : (⟨S_, .i32⟩ : BufTy).Contents (Elt F) → (⟨S12288, .i32⟩ : BufTy).Contents (Elt F)) (Vfin V0 (Proc.devRef .tc main_c_38)) :=
  stage_unary (tail3_inOrder (F := F)) (Vfin_eq3 V0) 37 main_c_38 main_v176 (broadcastInDim S12288 ![] bcast_S_S12288 : (⟨S_, .i32⟩ : BufTy).Contents (Elt F) → (⟨S12288, .i32⟩ : BufTy).Contents (Elt F)) rfl (by decide) (by decide)

theorem st_main_v177 : Vfin V0 (Proc.devRef .tc main_v177) = (cmpi .slt : (⟨S12288, .i32⟩ : BufTy).Contents (Elt F) → (⟨S12288, .i32⟩ : BufTy).Contents (Elt F) → (⟨S12288, .i1⟩ : BufTy).Contents (Elt F)) (Vfin V0 (Proc.devRef .tc main_v3)) (Vfin V0 (Proc.devRef .tc main_v176)) :=
  stage_binary (tail3_inOrder (F := F)) (Vfin_eq3 V0) 38 main_v3 main_v176 main_v177 (cmpi .slt : (⟨S12288, .i32⟩ : BufTy).Contents (Elt F) → (⟨S12288, .i32⟩ : BufTy).Contents (Elt F) → (⟨S12288, .i1⟩ : BufTy).Contents (Elt F)) rfl (by decide) (by decide) (by decide)

theorem st_main_c_39 : Vfin V0 (Proc.devRef .tc main_c_39) = ((constantI S_ 32 2048#32) : (⟨S_, .i32⟩ : BufTy).Contents (Elt F)) :=
  stage_nullary (tail3_inOrder (F := F)) (Vfin_eq3 V0) 39 main_c_39 ((constantI S_ 32 2048#32) : (⟨S_, .i32⟩ : BufTy).Contents (Elt F)) rfl (by decide)

theorem st_main_v178 : Vfin V0 (Proc.devRef .tc main_v178) = (broadcastInDim S12288 ![] bcast_S_S12288 : (⟨S_, .i32⟩ : BufTy).Contents (Elt F) → (⟨S12288, .i32⟩ : BufTy).Contents (Elt F)) (Vfin V0 (Proc.devRef .tc main_c_39)) :=
  stage_unary (tail3_inOrder (F := F)) (Vfin_eq3 V0) 40 main_c_39 main_v178 (broadcastInDim S12288 ![] bcast_S_S12288 : (⟨S_, .i32⟩ : BufTy).Contents (Elt F) → (⟨S12288, .i32⟩ : BufTy).Contents (Elt F)) rfl (by decide) (by decide)

theorem st_main_v179 : Vfin V0 (Proc.devRef .tc main_v179) = (addi : (⟨S12288, .i32⟩ : BufTy).Contents (Elt F) → (⟨S12288, .i32⟩ : BufTy).Contents (Elt F) → (⟨S12288, .i32⟩ : BufTy).Contents (Elt F)) (Vfin V0 (Proc.devRef .tc main_v3)) (Vfin V0 (Proc.devRef .tc main_v178)) :=
  stage_binary (tail3_inOrder (F := F)) (Vfin_eq3 V0) 41 main_v3 main_v178 main_v179 (addi : (⟨S12288, .i32⟩ : BufTy).Contents (Elt F) → (⟨S12288, .i32⟩ : BufTy).Contents (Elt F) → (⟨S12288, .i32⟩ : BufTy).Contents (Elt F)) rfl (by decide) (by decide) (by decide)

theorem st_main_v180 : Vfin V0 (Proc.devRef .tc main_v180) = (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) (Vfin V0 (Proc.devRef .tc main_v177)) (Vfin V0 (Proc.devRef .tc main_v179)) (Vfin V0 (Proc.devRef .tc main_v3)) :=
  stage_ternary (tail3_inOrder (F := F)) (Vfin_eq3 V0) 42 main_v177 main_v179 main_v3 main_v180 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) rfl (by decide) (by decide) (by decide) (by decide)

theorem st_main_v181 : Vfin V0 (Proc.devRef .tc main_v181) = (broadcastInDim S12288x1 ![0] bcast_S12288_S12288x1_0 : (⟨S12288, .i32⟩ : BufTy).Contents (Elt F) → (⟨S12288x1, .i32⟩ : BufTy).Contents (Elt F)) (Vfin V0 (Proc.devRef .tc main_v180)) :=
  stage_unary (tail3_inOrder (F := F)) (Vfin_eq3 V0) 43 main_v180 main_v181 (broadcastInDim S12288x1 ![0] bcast_S12288_S12288x1_0 : (⟨S12288, .i32⟩ : BufTy).Contents (Elt F) → (⟨S12288x1, .i32⟩ : BufTy).Contents (Elt F)) rfl (by decide) (by decide)

theorem st_main_v182 : Vfin V0 (Proc.devRef .tc main_v182) = ((fun x i => Host.gather gather_S2048_S12288x1_S12288_n_0_n_n_0_1_1 x i) : (⟨S2048, .f32⟩ : BufTy).Contents (Elt F) → (⟨S12288x1, .i32⟩ : BufTy).Contents (Elt F) → (⟨S12288, .f32⟩ : BufTy).Contents (Elt F)) (Vfin V0 (Proc.devRef .tc main_v15)) (Vfin V0 (Proc.devRef .tc main_v181)) :=
  stage_binary (tail3_inOrder (F := F)) (Vfin_eq3 V0) 44 main_v15 main_v181 main_v182 ((fun x i => Host.gather gather_S2048_S12288x1_S12288_n_0_n_n_0_1_1 x i) : (⟨S2048, .f32⟩ : BufTy).Contents (Elt F) → (⟨S12288x1, .i32⟩ : BufTy).Contents (Elt F) → (⟨S12288, .f32⟩ : BufTy).Contents (Elt F)) rfl (by decide) (by decide) (by decide)

theorem st_main_v183 : Vfin V0 (Proc.devRef .tc main_v183) = (mulf : (⟨S12288, .f32⟩ : BufTy).Contents (Elt F) → (⟨S12288, .f32⟩ : BufTy).Contents (Elt F) → (⟨S12288, .f32⟩ : BufTy).Contents (Elt F)) (Vfin V0 (Proc.devRef .tc main_v175)) (Vfin V0 (Proc.devRef .tc main_v182)) :=
  stage_binary (tail3_inOrder (F := F)) (Vfin_eq3 V0) 45 main_v175 main_v182 main_v183 (mulf : (⟨S12288, .f32⟩ : BufTy).Contents (Elt F) → (⟨S12288, .f32⟩ : BufTy).Contents (Elt F) → (⟨S12288, .f32⟩ : BufTy).Contents (Elt F)) rfl (by decide) (by decide) (by decide)

theorem st_main_call6_c : Vfin V0 (Proc.devRef .tc main_call6_c) = ((constantI S_ 32 0#32) : (⟨S_, .i32⟩ : BufTy).Contents (Elt F)) :=
  stage_tnullary (tail3_inOrder (F := F)) (Vfin_eq3 V0) 46 (.of main_call6_c : StableHlo.TRef sig ⟨S_, .i32⟩) (constantI S_ 32 0#32) rfl (by decide)

theorem st_main_call6_v0 : Vfin V0 (Proc.devRef .tc main_call6_v0) = ((broadcastInDim S12288 ![] bcast_S_S12288) : (⟨S_, .i32⟩ : BufTy).Contents (Elt F) → (⟨S12288, .i32⟩ : BufTy).Contents (Elt F)) (Vfin V0 (Proc.devRef .tc main_call6_c)) :=
  stage_tunary (tail3_inOrder (F := F)) (Vfin_eq3 V0) 47 (.of main_call6_c : StableHlo.TRef sig ⟨S_, .i32⟩) (.of main_call6_v0 : StableHlo.TRef sig ⟨S12288, .i32⟩) (broadcastInDim S12288 ![] bcast_S_S12288) rfl (by decide) (by decide)

theorem st_main_call6_v1 : Vfin V0 (Proc.devRef .tc main_call6_v1) = ((cmpi .slt) : (⟨S12288, .i32⟩ : BufTy).Contents (Elt F) → (⟨S12288, .i32⟩ : BufTy).Contents (Elt F) → (⟨S12288, .i1⟩ : BufTy).Contents (Elt F)) (Vfin V0 (Proc.devRef .tc main_v1)) (Vfin V0 (Proc.devRef .tc main_call6_v0)) :=
  stage_tbinary (tail3_inOrder (F := F)) (Vfin_eq3 V0) 48 (.of main_v1 : StableHlo.TRef sig ⟨S12288, .i32⟩) (.of main_call6_v0 : StableHlo.TRef sig ⟨S12288, .i32⟩) (.of main_call6_v1 : StableHlo.TRef sig ⟨S12288, .i1⟩) (cmpi .slt) rfl (by decide) (by decide) (by decide)

theorem st_main_call6_c_0 : Vfin V0 (Proc.devRef .tc main_call6_c_0) = ((constantI S_ 32 2048#32) : (⟨S_, .i32⟩ : BufTy).Contents (Elt F)) :=
  stage_tnullary (tail3_inOrder (F := F)) (Vfin_eq3 V0) 49 (.of main_call6_c_0 : StableHlo.TRef sig ⟨S_, .i32⟩) (constantI S_ 32 2048#32) rfl (by decide)

theorem st_main_call6_v2 : Vfin V0 (Proc.devRef .tc main_call6_v2) = ((broadcastInDim S12288 ![] bcast_S_S12288) : (⟨S_, .i32⟩ : BufTy).Contents (Elt F) → (⟨S12288, .i32⟩ : BufTy).Contents (Elt F)) (Vfin V0 (Proc.devRef .tc main_call6_c_0)) :=
  stage_tunary (tail3_inOrder (F := F)) (Vfin_eq3 V0) 50 (.of main_call6_c_0 : StableHlo.TRef sig ⟨S_, .i32⟩) (.of main_call6_v2 : StableHlo.TRef sig ⟨S12288, .i32⟩) (broadcastInDim S12288 ![] bcast_S_S12288) rfl (by decide) (by decide)

theorem st_main_call6_v3 : Vfin V0 (Proc.devRef .tc main_call6_v3) = (addi : (⟨S12288, .i32⟩ : BufTy).Contents (Elt F) → (⟨S12288, .i32⟩ : BufTy).Contents (Elt F) → (⟨S12288, .i32⟩ : BufTy).Contents (Elt F)) (Vfin V0 (Proc.devRef .tc main_v1)) (Vfin V0 (Proc.devRef .tc main_call6_v2)) :=
  stage_tbinary (tail3_inOrder (F := F)) (Vfin_eq3 V0) 51 (.of main_v1 : StableHlo.TRef sig ⟨S12288, .i32⟩) (.of main_call6_v2 : StableHlo.TRef sig ⟨S12288, .i32⟩) (.of main_call6_v3 : StableHlo.TRef sig ⟨S12288, .i32⟩) addi rfl (by decide) (by decide) (by decide)

theorem st_main_call6_v4 : Vfin V0 (Proc.devRef .tc main_call6_v4) = (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) (Vfin V0 (Proc.devRef .tc main_call6_v1)) (Vfin V0 (Proc.devRef .tc main_call6_v3)) (Vfin V0 (Proc.devRef .tc main_v1)) :=
  stage_tternary (tail3_inOrder (F := F)) (Vfin_eq3 V0) 52 (.of main_call6_v1 : StableHlo.TRef sig ⟨S12288, .i1⟩) (.of main_call6_v3 : StableHlo.TRef sig ⟨S12288, .i32⟩) (.of main_v1 : StableHlo.TRef sig ⟨S12288, .i32⟩) (.of main_call6_v4 : StableHlo.TRef sig ⟨S12288, .i32⟩) select rfl (by decide) (by decide) (by decide) (by decide)

theorem st_main_call6_v5 : Vfin V0 (Proc.devRef .tc main_call6_v5) = ((broadcastInDim S12288x1 ![0] bcast_S12288_S12288x1_0) : (⟨S12288, .i32⟩ : BufTy).Contents (Elt F) → (⟨S12288x1, .i32⟩ : BufTy).Contents (Elt F)) (Vfin V0 (Proc.devRef .tc main_call6_v4)) :=
  stage_tunary (tail3_inOrder (F := F)) (Vfin_eq3 V0) 53 (.of main_call6_v4 : StableHlo.TRef sig ⟨S12288, .i32⟩) (.of main_call6_v5 : StableHlo.TRef sig ⟨S12288x1, .i32⟩) (broadcastInDim S12288x1 ![0] bcast_S12288_S12288x1_0) rfl (by decide) (by decide)

theorem st_main_call6_c_1 : Vfin V0 (Proc.devRef .tc main_call6_c_1) = ((constantI S1 32 2047#32) : (⟨S1, .i32⟩ : BufTy).Contents (Elt F)) :=
  stage_tnullary (tail3_inOrder (F := F)) (Vfin_eq3 V0) 54 (.of main_call6_c_1 : StableHlo.TRef sig ⟨S1, .i32⟩) (constantI S1 32 2047#32) rfl (by decide)

theorem st_main_call6_c_2 : Vfin V0 (Proc.devRef .tc main_call6_c_2) = ((constantI S_ 32 0#32) : (⟨S_, .i32⟩ : BufTy).Contents (Elt F)) :=
  stage_tnullary (tail3_inOrder (F := F)) (Vfin_eq3 V0) 55 (.of main_call6_c_2 : StableHlo.TRef sig ⟨S_, .i32⟩) (constantI S_ 32 0#32) rfl (by decide)

theorem st_main_call6_v6 : Vfin V0 (Proc.devRef .tc main_call6_v6) = ((broadcastInDim S12288x1 ![] bcast_S_S12288x1) : (⟨S_, .i32⟩ : BufTy).Contents (Elt F) → (⟨S12288x1, .i32⟩ : BufTy).Contents (Elt F)) (Vfin V0 (Proc.devRef .tc main_call6_c_2)) :=
  stage_tunary (tail3_inOrder (F := F)) (Vfin_eq3 V0) 56 (.of main_call6_c_2 : StableHlo.TRef sig ⟨S_, .i32⟩) (.of main_call6_v6 : StableHlo.TRef sig ⟨S12288x1, .i32⟩) (broadcastInDim S12288x1 ![] bcast_S_S12288x1) rfl (by decide) (by decide)

theorem st_main_call6_v7 : Vfin V0 (Proc.devRef .tc main_call6_v7) = ((cmpi .sge) : (⟨S12288x1, .i32⟩ : BufTy).Contents (Elt F) → (⟨S12288x1, .i32⟩ : BufTy).Contents (Elt F) → (⟨S12288x1, .i1⟩ : BufTy).Contents (Elt F)) (Vfin V0 (Proc.devRef .tc main_call6_v5)) (Vfin V0 (Proc.devRef .tc main_call6_v6)) :=
  stage_tbinary (tail3_inOrder (F := F)) (Vfin_eq3 V0) 57 (.of main_call6_v5 : StableHlo.TRef sig ⟨S12288x1, .i32⟩) (.of main_call6_v6 : StableHlo.TRef sig ⟨S12288x1, .i32⟩) (.of main_call6_v7 : StableHlo.TRef sig ⟨S12288x1, .i1⟩) (cmpi .sge) rfl (by decide) (by decide) (by decide)

theorem st_main_call6_v8 : Vfin V0 (Proc.devRef .tc main_call6_v8) = ((broadcastInDim S1x1 ![1] bcast_S1_S1x1_1) : (⟨S1, .i32⟩ : BufTy).Contents (Elt F) → (⟨S1x1, .i32⟩ : BufTy).Contents (Elt F)) (Vfin V0 (Proc.devRef .tc main_call6_c_1)) :=
  stage_tunary (tail3_inOrder (F := F)) (Vfin_eq3 V0) 58 (.of main_call6_c_1 : StableHlo.TRef sig ⟨S1, .i32⟩) (.of main_call6_v8 : StableHlo.TRef sig ⟨S1x1, .i32⟩) (broadcastInDim S1x1 ![1] bcast_S1_S1x1_1) rfl (by decide) (by decide)

theorem st_main_call6_v9 : Vfin V0 (Proc.devRef .tc main_call6_v9) = ((broadcastInDim S12288x1 ![0, 1] bcast_S1x1_S12288x1_0_1) : (⟨S1x1, .i32⟩ : BufTy).Contents (Elt F) → (⟨S12288x1, .i32⟩ : BufTy).Contents (Elt F)) (Vfin V0 (Proc.devRef .tc main_call6_v8)) :=
  stage_tunary (tail3_inOrder (F := F)) (Vfin_eq3 V0) 59 (.of main_call6_v8 : StableHlo.TRef sig ⟨S1x1, .i32⟩) (.of main_call6_v9 : StableHlo.TRef sig ⟨S12288x1, .i32⟩) (broadcastInDim S12288x1 ![0, 1] bcast_S1x1_S12288x1_0_1) rfl (by decide) (by decide)

theorem st_main_call6_v10 : Vfin V0 (Proc.devRef .tc main_call6_v10) = ((cmpi .sle) : (⟨S12288x1, .i32⟩ : BufTy).Contents (Elt F) → (⟨S12288x1, .i32⟩ : BufTy).Contents (Elt F) → (⟨S12288x1, .i1⟩ : BufTy).Contents (Elt F)) (Vfin V0 (Proc.devRef .tc main_call6_v5)) (Vfin V0 (Proc.devRef .tc main_call6_v9)) :=
  stage_tbinary (tail3_inOrder (F := F)) (Vfin_eq3 V0) 60 (.of main_call6_v5 : StableHlo.TRef sig ⟨S12288x1, .i32⟩) (.of main_call6_v9 : StableHlo.TRef sig ⟨S12288x1, .i32⟩) (.of main_call6_v10 : StableHlo.TRef sig ⟨S12288x1, .i1⟩) (cmpi .sle) rfl (by decide) (by decide) (by decide)

theorem st_main_call6_v11 : Vfin V0 (Proc.devRef .tc main_call6_v11) = (andi : (⟨S12288x1, .i1⟩ : BufTy).Contents (Elt F) → (⟨S12288x1, .i1⟩ : BufTy).Contents (Elt F) → (⟨S12288x1, .i1⟩ : BufTy).Contents (Elt F)) (Vfin V0 (Proc.devRef .tc main_call6_v7)) (Vfin V0 (Proc.devRef .tc main_call6_v10)) :=
  stage_tbinary (tail3_inOrder (F := F)) (Vfin_eq3 V0) 61 (.of main_call6_v7 : StableHlo.TRef sig ⟨S12288x1, .i1⟩) (.of main_call6_v10 : StableHlo.TRef sig ⟨S12288x1, .i1⟩) (.of main_call6_v11 : StableHlo.TRef sig ⟨S12288x1, .i1⟩) andi rfl (by decide) (by decide) (by decide)

theorem st_main_call6_c_3 : Vfin V0 (Proc.devRef .tc main_call6_c_3) = ((constantI S_ 1 1#1) : (⟨S_, .i1⟩ : BufTy).Contents (Elt F)) :=
  stage_tnullary (tail3_inOrder (F := F)) (Vfin_eq3 V0) 62 (.of main_call6_c_3 : StableHlo.TRef sig ⟨S_, .i1⟩) (constantI S_ 1 1#1) rfl (by decide)

theorem st_main_call6_v12 : Vfin V0 (Proc.devRef .tc main_call6_v12) = ((fun x v => Host.reduce IntOp.andi x v reducesTo_S12288x1_S12288_d1 h_S_) : (⟨S12288x1, .i1⟩ : BufTy).Contents (Elt F) → (⟨S_, .i1⟩ : BufTy).Contents (Elt F) → (⟨S12288, .i1⟩ : BufTy).Contents (Elt F)) (Vfin V0 (Proc.devRef .tc main_call6_v11)) (Vfin V0 (Proc.devRef .tc main_call6_c_3)) :=
  stage_tbinary (tail3_inOrder (F := F)) (Vfin_eq3 V0) 63 (.of main_call6_v11 : StableHlo.TRef sig ⟨S12288x1, .i1⟩) (.of main_call6_c_3 : StableHlo.TRef sig ⟨S_, .i1⟩) (.of main_call6_v12 : StableHlo.TRef sig ⟨S12288, .i1⟩) (fun x v => Host.reduce IntOp.andi x v reducesTo_S12288x1_S12288_d1 h_S_) rfl (by decide) (by decide) (by decide)

theorem st_main_call6_v13 : Vfin V0 (Proc.devRef .tc main_call6_v13) = ((fun x i => Host.gather gather_S16x2048x64_S12288x1_S16x12288x64_02_1_n_n_1_1_16164 x i) : (⟨S16x2048x64, .f32⟩ : BufTy).Contents (Elt F) → (⟨S12288x1, .i32⟩ : BufTy).Contents (Elt F) → (⟨S16x12288x64, .f32⟩ : BufTy).Contents (Elt F)) (Vfin V0 (Proc.devRef .tc main_v168)) (Vfin V0 (Proc.devRef .tc main_call6_v5)) :=
  stage_tbinary (tail3_inOrder (F := F)) (Vfin_eq3 V0) 64 (.of main_v168 : StableHlo.TRef sig ⟨S16x2048x64, .f32⟩) (.of main_call6_v5 : StableHlo.TRef sig ⟨S12288x1, .i32⟩) (.of main_call6_v13 : StableHlo.TRef sig ⟨S16x12288x64, .f32⟩) (fun x i => Host.gather gather_S16x2048x64_S12288x1_S16x12288x64_02_1_n_n_1_1_16164 x i) rfl (by decide) (by decide) (by decide)

theorem st_main_call6_v14 : Vfin V0 (Proc.devRef .tc main_call6_v14) = ((broadcastInDim S16x12288x64 ![1] bcast_S12288_S16x12288x64_1) : (⟨S12288, .i1⟩ : BufTy).Contents (Elt F) → (⟨S16x12288x64, .i1⟩ : BufTy).Contents (Elt F)) (Vfin V0 (Proc.devRef .tc main_call6_v12)) :=
  stage_tunary (tail3_inOrder (F := F)) (Vfin_eq3 V0) 65 (.of main_call6_v12 : StableHlo.TRef sig ⟨S12288, .i1⟩) (.of main_call6_v14 : StableHlo.TRef sig ⟨S16x12288x64, .i1⟩) (broadcastInDim S16x12288x64 ![1] bcast_S12288_S16x12288x64_1) rfl (by decide) (by decide)

theorem st_main_call6_cst : Vfin V0 (Proc.devRef .tc main_call6_cst) = ((constant S_ .f32 0x7FC00000#32) : (⟨S_, .f32⟩ : BufTy).Contents (Elt F)) :=
  stage_tnullary (tail3_inOrder (F := F)) (Vfin_eq3 V0) 66 (.of main_call6_cst : StableHlo.TRef sig ⟨S_, .f32⟩) (constant S_ .f32 0x7FC00000#32) rfl (by decide)

theorem st_main_call6_v15 : Vfin V0 (Proc.devRef .tc main_call6_v15) = ((broadcastInDim S16x12288x64 ![] bcast_S_S16x12288x64) : (⟨S_, .f32⟩ : BufTy).Contents (Elt F) → (⟨S16x12288x64, .f32⟩ : BufTy).Contents (Elt F)) (Vfin V0 (Proc.devRef .tc main_call6_cst)) :=
  stage_tunary (tail3_inOrder (F := F)) (Vfin_eq3 V0) 67 (.of main_call6_cst : StableHlo.TRef sig ⟨S_, .f32⟩) (.of main_call6_v15 : StableHlo.TRef sig ⟨S16x12288x64, .f32⟩) (broadcastInDim S16x12288x64 ![] bcast_S_S16x12288x64) rfl (by decide) (by decide)

theorem st_main_v184 : Vfin V0 (Proc.devRef .tc main_v184) = (select : (⟨S16x12288x64, .i1⟩ : BufTy).Contents (Elt F) → (⟨S16x12288x64, .f32⟩ : BufTy).Contents (Elt F) → (⟨S16x12288x64, .f32⟩ : BufTy).Contents (Elt F) → (⟨S16x12288x64, .f32⟩ : BufTy).Contents (Elt F)) (Vfin V0 (Proc.devRef .tc main_call6_v14)) (Vfin V0 (Proc.devRef .tc main_call6_v13)) (Vfin V0 (Proc.devRef .tc main_call6_v15)) :=
  stage_tternary (tail3_inOrder (F := F)) (Vfin_eq3 V0) 68 (.of main_call6_v14 : StableHlo.TRef sig ⟨S16x12288x64, .i1⟩) (.of main_call6_v13 : StableHlo.TRef sig ⟨S16x12288x64, .f32⟩) (.of main_call6_v15 : StableHlo.TRef sig ⟨S16x12288x64, .f32⟩) (.of main_v184 : StableHlo.TRef sig ⟨S16x12288x64, .f32⟩) select rfl (by decide) (by decide) (by decide) (by decide)

theorem st_main_v185 : Vfin V0 (Proc.devRef .tc main_v185) = (broadcastInDim S1x12288x1 ![1] bcast_S12288_S1x12288x1_1 : (⟨S12288, .f32⟩ : BufTy).Contents (Elt F) → (⟨S1x12288x1, .f32⟩ : BufTy).Contents (Elt F)) (Vfin V0 (Proc.devRef .tc main_v183)) :=
  stage_unary (tail3_inOrder (F := F)) (Vfin_eq3 V0) 69 main_v183 main_v185 (broadcastInDim S1x12288x1 ![1] bcast_S12288_S1x12288x1_1 : (⟨S12288, .f32⟩ : BufTy).Contents (Elt F) → (⟨S1x12288x1, .f32⟩ : BufTy).Contents (Elt F)) rfl (by decide) (by decide)

theorem st_main_v186 : Vfin V0 (Proc.devRef .tc main_v186) = (broadcastInDim S16x12288x64 ![0, 1, 2] bcast_S1x12288x1_S16x12288x64_0_1_2 : (⟨S1x12288x1, .f32⟩ : BufTy).Contents (Elt F) → (⟨S16x12288x64, .f32⟩ : BufTy).Contents (Elt F)) (Vfin V0 (Proc.devRef .tc main_v185)) :=
  stage_unary (tail3_inOrder (F := F)) (Vfin_eq3 V0) 70 main_v185 main_v186 (broadcastInDim S16x12288x64 ![0, 1, 2] bcast_S1x12288x1_S16x12288x64_0_1_2 : (⟨S1x12288x1, .f32⟩ : BufTy).Contents (Elt F) → (⟨S16x12288x64, .f32⟩ : BufTy).Contents (Elt F)) rfl (by decide) (by decide)

theorem st_main_v187 : Vfin V0 (Proc.devRef .tc main_v187) = (mulf : (⟨S16x12288x64, .f32⟩ : BufTy).Contents (Elt F) → (⟨S16x12288x64, .f32⟩ : BufTy).Contents (Elt F) → (⟨S16x12288x64, .f32⟩ : BufTy).Contents (Elt F)) (Vfin V0 (Proc.devRef .tc main_v184)) (Vfin V0 (Proc.devRef .tc main_v186)) :=
  stage_binary (tail3_inOrder (F := F)) (Vfin_eq3 V0) 71 main_v184 main_v186 main_v187 (mulf : (⟨S16x12288x64, .f32⟩ : BufTy).Contents (Elt F) → (⟨S16x12288x64, .f32⟩ : BufTy).Contents (Elt F) → (⟨S16x12288x64, .f32⟩ : BufTy).Contents (Elt F)) rfl (by decide) (by decide) (by decide)

theorem st_main_cst_40 : Vfin V0 (Proc.devRef .tc main_cst_40) = ((constant S_ .f32 0x00000000#32) : (⟨S_, .f32⟩ : BufTy).Contents (Elt F)) :=
  stage_nullary (tail3_inOrder (F := F)) (Vfin_eq3 V0) 72 main_cst_40 ((constant S_ .f32 0x00000000#32) : (⟨S_, .f32⟩ : BufTy).Contents (Elt F)) rfl (by decide)

theorem st_main_v188 : Vfin V0 (Proc.devRef .tc main_v188) = (broadcastInDim S16x2048x64 ![] bcast_S_S16x2048x64 : (⟨S_, .f32⟩ : BufTy).Contents (Elt F) → (⟨S16x2048x64, .f32⟩ : BufTy).Contents (Elt F)) (Vfin V0 (Proc.devRef .tc main_cst_40)) :=
  stage_unary (tail3_inOrder (F := F)) (Vfin_eq3 V0) 73 main_cst_40 main_v188 (broadcastInDim S16x2048x64 ![] bcast_S_S16x2048x64 : (⟨S_, .f32⟩ : BufTy).Contents (Elt F) → (⟨S16x2048x64, .f32⟩ : BufTy).Contents (Elt F)) rfl (by decide) (by decide)

theorem st_main_c_41 : Vfin V0 (Proc.devRef .tc main_c_41) = ((constantI S_ 32 0#32) : (⟨S_, .i32⟩ : BufTy).Contents (Elt F)) :=
  stage_nullary (tail3_inOrder (F := F)) (Vfin_eq3 V0) 74 main_c_41 ((constantI S_ 32 0#32) : (⟨S_, .i32⟩ : BufTy).Contents (Elt F)) rfl (by decide)

theorem st_main_v189 : Vfin V0 (Proc.devRef .tc main_v189) = (broadcastInDim S12288 ![] bcast_S_S12288 : (⟨S_, .i32⟩ : BufTy).Contents (Elt F) → (⟨S12288, .i32⟩ : BufTy).Contents (Elt F)) (Vfin V0 (Proc.devRef .tc main_c_41)) :=
  stage_unary (tail3_inOrder (F := F)) (Vfin_eq3 V0) 75 main_c_41 main_v189 (broadcastInDim S12288 ![] bcast_S_S12288 : (⟨S_, .i32⟩ : BufTy).Contents (Elt F) → (⟨S12288, .i32⟩ : BufTy).Contents (Elt F)) rfl (by decide) (by decide)

theorem st_main_v190 : Vfin V0 (Proc.devRef .tc main_v190) = (cmpi .slt : (⟨S12288, .i32⟩ : BufTy).Contents (Elt F) → (⟨S12288, .i32⟩ : BufTy).Contents (Elt F) → (⟨S12288, .i1⟩ : BufTy).Contents (Elt F)) (Vfin V0 (Proc.devRef .tc main_v3)) (Vfin V0 (Proc.devRef .tc main_v189)) :=
  stage_binary (tail3_inOrder (F := F)) (Vfin_eq3 V0) 76 main_v3 main_v189 main_v190 (cmpi .slt : (⟨S12288, .i32⟩ : BufTy).Contents (Elt F) → (⟨S12288, .i32⟩ : BufTy).Contents (Elt F) → (⟨S12288, .i1⟩ : BufTy).Contents (Elt F)) rfl (by decide) (by decide) (by decide)

theorem st_main_c_42 : Vfin V0 (Proc.devRef .tc main_c_42) = ((constantI S_ 32 2048#32) : (⟨S_, .i32⟩ : BufTy).Contents (Elt F)) :=
  stage_nullary (tail3_inOrder (F := F)) (Vfin_eq3 V0) 77 main_c_42 ((constantI S_ 32 2048#32) : (⟨S_, .i32⟩ : BufTy).Contents (Elt F)) rfl (by decide)

theorem st_main_v191 : Vfin V0 (Proc.devRef .tc main_v191) = (broadcastInDim S12288 ![] bcast_S_S12288 : (⟨S_, .i32⟩ : BufTy).Contents (Elt F) → (⟨S12288, .i32⟩ : BufTy).Contents (Elt F)) (Vfin V0 (Proc.devRef .tc main_c_42)) :=
  stage_unary (tail3_inOrder (F := F)) (Vfin_eq3 V0) 78 main_c_42 main_v191 (broadcastInDim S12288 ![] bcast_S_S12288 : (⟨S_, .i32⟩ : BufTy).Contents (Elt F) → (⟨S12288, .i32⟩ : BufTy).Contents (Elt F)) rfl (by decide) (by decide)

theorem st_main_v192 : Vfin V0 (Proc.devRef .tc main_v192) = (addi : (⟨S12288, .i32⟩ : BufTy).Contents (Elt F) → (⟨S12288, .i32⟩ : BufTy).Contents (Elt F) → (⟨S12288, .i32⟩ : BufTy).Contents (Elt F)) (Vfin V0 (Proc.devRef .tc main_v3)) (Vfin V0 (Proc.devRef .tc main_v191)) :=
  stage_binary (tail3_inOrder (F := F)) (Vfin_eq3 V0) 79 main_v3 main_v191 main_v192 (addi : (⟨S12288, .i32⟩ : BufTy).Contents (Elt F) → (⟨S12288, .i32⟩ : BufTy).Contents (Elt F) → (⟨S12288, .i32⟩ : BufTy).Contents (Elt F)) rfl (by decide) (by decide) (by decide)

theorem st_main_v193 : Vfin V0 (Proc.devRef .tc main_v193) = (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) (Vfin V0 (Proc.devRef .tc main_v190)) (Vfin V0 (Proc.devRef .tc main_v192)) (Vfin V0 (Proc.devRef .tc main_v3)) :=
  stage_ternary (tail3_inOrder (F := F)) (Vfin_eq3 V0) 80 main_v190 main_v192 main_v3 main_v193 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) rfl (by decide) (by decide) (by decide) (by decide)

theorem st_main_v194 : Vfin V0 (Proc.devRef .tc main_v194) = (broadcastInDim S12288x1 ![0] bcast_S12288_S12288x1_0 : (⟨S12288, .i32⟩ : BufTy).Contents (Elt F) → (⟨S12288x1, .i32⟩ : BufTy).Contents (Elt F)) (Vfin V0 (Proc.devRef .tc main_v193)) :=
  stage_unary (tail3_inOrder (F := F)) (Vfin_eq3 V0) 81 main_v193 main_v194 (broadcastInDim S12288x1 ![0] bcast_S12288_S12288x1_0 : (⟨S12288, .i32⟩ : BufTy).Contents (Elt F) → (⟨S12288x1, .i32⟩ : BufTy).Contents (Elt F)) rfl (by decide) (by decide)

end Cert.ReferenceIdeal.Hand

end
-- ==== Proof.Ref.Stages4.lean ====
import proofs.«421025_j30305289241172_1_alg».proof.Proof.Ref.StageBase

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F] (V0 : Valuation τ sig (Elt F))

theorem st_main_v195 : Vfin V0 (Proc.devRef .tc main_v195) = ((fun x i u => Host.scatterAdd scatter_S16x2048x64_S12288x1_S16x12288x64_02_1_1_1 x i u) : (⟨S16x2048x64, .f32⟩ : BufTy).Contents (Elt F) → (⟨S12288x1, .i32⟩ : BufTy).Contents (Elt F) → (⟨S16x12288x64, .f32⟩ : BufTy).Contents (Elt F) → (⟨S16x2048x64, .f32⟩ : BufTy).Contents (Elt F)) (Vfin V0 (Proc.devRef .tc main_v188)) (Vfin V0 (Proc.devRef .tc main_v194)) (Vfin V0 (Proc.devRef .tc main_v187)) :=
  stage_ternary (tail4_inOrder (F := F)) (Vfin_eq4 V0) 0 main_v188 main_v194 main_v187 main_v195 ((fun x i u => Host.scatterAdd scatter_S16x2048x64_S12288x1_S16x12288x64_02_1_1_1 x i u) : (⟨S16x2048x64, .f32⟩ : BufTy).Contents (Elt F) → (⟨S12288x1, .i32⟩ : BufTy).Contents (Elt F) → (⟨S16x12288x64, .f32⟩ : BufTy).Contents (Elt F) → (⟨S16x2048x64, .f32⟩ : BufTy).Contents (Elt F)) rfl (by decide) (by decide) (by decide) (by decide)

theorem st_main_v196 : Vfin V0 (Proc.devRef .tc main_v196) = (broadcastInDim S1x2048x1 ![1] bcast_S2048_S1x2048x1_1 : (⟨S2048, .f32⟩ : BufTy).Contents (Elt F) → (⟨S1x2048x1, .f32⟩ : BufTy).Contents (Elt F)) (Vfin V0 (Proc.devRef .tc main_v17)) :=
  stage_unary (tail4_inOrder (F := F)) (Vfin_eq4 V0) 1 main_v17 main_v196 (broadcastInDim S1x2048x1 ![1] bcast_S2048_S1x2048x1_1 : (⟨S2048, .f32⟩ : BufTy).Contents (Elt F) → (⟨S1x2048x1, .f32⟩ : BufTy).Contents (Elt F)) rfl (by decide) (by decide)

theorem st_main_v197 : Vfin V0 (Proc.devRef .tc main_v197) = (broadcastInDim S16x2048x64 ![0, 1, 2] bcast_S1x2048x1_S16x2048x64_0_1_2 : (⟨S1x2048x1, .f32⟩ : BufTy).Contents (Elt F) → (⟨S16x2048x64, .f32⟩ : BufTy).Contents (Elt F)) (Vfin V0 (Proc.devRef .tc main_v196)) :=
  stage_unary (tail4_inOrder (F := F)) (Vfin_eq4 V0) 2 main_v196 main_v197 (broadcastInDim S16x2048x64 ![0, 1, 2] bcast_S1x2048x1_S16x2048x64_0_1_2 : (⟨S1x2048x1, .f32⟩ : BufTy).Contents (Elt F) → (⟨S16x2048x64, .f32⟩ : BufTy).Contents (Elt F)) rfl (by decide) (by decide)

theorem st_main_v198 : Vfin V0 (Proc.devRef .tc main_v198) = (mulf : (⟨S16x2048x64, .f32⟩ : BufTy).Contents (Elt F) → (⟨S16x2048x64, .f32⟩ : BufTy).Contents (Elt F) → (⟨S16x2048x64, .f32⟩ : BufTy).Contents (Elt F)) (Vfin V0 (Proc.devRef .tc main_v168)) (Vfin V0 (Proc.devRef .tc main_v197)) :=
  stage_binary (tail4_inOrder (F := F)) (Vfin_eq4 V0) 3 main_v168 main_v197 main_v198 (mulf : (⟨S16x2048x64, .f32⟩ : BufTy).Contents (Elt F) → (⟨S16x2048x64, .f32⟩ : BufTy).Contents (Elt F) → (⟨S16x2048x64, .f32⟩ : BufTy).Contents (Elt F)) rfl (by decide) (by decide) (by decide)

theorem st_main_v199 : Vfin V0 (Proc.devRef .tc main_v199) = (addf : (⟨S16x2048x64, .f32⟩ : BufTy).Contents (Elt F) → (⟨S16x2048x64, .f32⟩ : BufTy).Contents (Elt F) → (⟨S16x2048x64, .f32⟩ : BufTy).Contents (Elt F)) (Vfin V0 (Proc.devRef .tc main_v195)) (Vfin V0 (Proc.devRef .tc main_v198)) :=
  stage_binary (tail4_inOrder (F := F)) (Vfin_eq4 V0) 4 main_v195 main_v198 main_v199 (addf : (⟨S16x2048x64, .f32⟩ : BufTy).Contents (Elt F) → (⟨S16x2048x64, .f32⟩ : BufTy).Contents (Elt F) → (⟨S16x2048x64, .f32⟩ : BufTy).Contents (Elt F)) rfl (by decide) (by decide) (by decide)

theorem st_main_v200 : Vfin V0 (Proc.devRef .tc main_v200) = (broadcastInDim S1x1x64 ![2] bcast_S64_S1x1x64_2 : (⟨S64, .f32⟩ : BufTy).Contents (Elt F) → (⟨S1x1x64, .f32⟩ : BufTy).Contents (Elt F)) (Vfin V0 (Proc.devRef .tc main_arg11)) :=
  stage_unary (tail4_inOrder (F := F)) (Vfin_eq4 V0) 5 main_arg11 main_v200 (broadcastInDim S1x1x64 ![2] bcast_S64_S1x1x64_2 : (⟨S64, .f32⟩ : BufTy).Contents (Elt F) → (⟨S1x1x64, .f32⟩ : BufTy).Contents (Elt F)) rfl (by decide) (by decide)

theorem st_main_v201 : Vfin V0 (Proc.devRef .tc main_v201) = (broadcastInDim S16x2048x64 ![0, 1, 2] bcast_S1x1x64_S16x2048x64_0_1_2 : (⟨S1x1x64, .f32⟩ : BufTy).Contents (Elt F) → (⟨S16x2048x64, .f32⟩ : BufTy).Contents (Elt F)) (Vfin V0 (Proc.devRef .tc main_v200)) :=
  stage_unary (tail4_inOrder (F := F)) (Vfin_eq4 V0) 6 main_v200 main_v201 (broadcastInDim S16x2048x64 ![0, 1, 2] bcast_S1x1x64_S16x2048x64_0_1_2 : (⟨S1x1x64, .f32⟩ : BufTy).Contents (Elt F) → (⟨S16x2048x64, .f32⟩ : BufTy).Contents (Elt F)) rfl (by decide) (by decide)

theorem st_main_v202 : Vfin V0 (Proc.devRef .tc main_v202) = (addf : (⟨S16x2048x64, .f32⟩ : BufTy).Contents (Elt F) → (⟨S16x2048x64, .f32⟩ : BufTy).Contents (Elt F) → (⟨S16x2048x64, .f32⟩ : BufTy).Contents (Elt F)) (Vfin V0 (Proc.devRef .tc main_v199)) (Vfin V0 (Proc.devRef .tc main_v201)) :=
  stage_binary (tail4_inOrder (F := F)) (Vfin_eq4 V0) 7 main_v199 main_v201 main_v202 (addf : (⟨S16x2048x64, .f32⟩ : BufTy).Contents (Elt F) → (⟨S16x2048x64, .f32⟩ : BufTy).Contents (Elt F) → (⟨S16x2048x64, .f32⟩ : BufTy).Contents (Elt F)) rfl (by decide) (by decide) (by decide)

theorem st_main_v203 : Vfin V0 (Proc.devRef .tc main_v203) = ((fun l r => Host.dotGeneral dot_S16x2048x64_S64x3_S16x2048x3_2_0_01_1_n_n none l r) : (⟨S16x2048x64, .f32⟩ : BufTy).Contents (Elt F) → (⟨S64x3, .f32⟩ : BufTy).Contents (Elt F) → (⟨S16x2048x3, .f32⟩ : BufTy).Contents (Elt F)) (Vfin V0 (Proc.devRef .tc main_v202)) (Vfin V0 (Proc.devRef .tc main_arg12)) :=
  stage_binary (tail4_inOrder (F := F)) (Vfin_eq4 V0) 8 main_v202 main_arg12 main_v203 ((fun l r => Host.dotGeneral dot_S16x2048x64_S64x3_S16x2048x3_2_0_01_1_n_n none l r) : (⟨S16x2048x64, .f32⟩ : BufTy).Contents (Elt F) → (⟨S64x3, .f32⟩ : BufTy).Contents (Elt F) → (⟨S16x2048x3, .f32⟩ : BufTy).Contents (Elt F)) rfl (by decide) (by decide) (by decide)

theorem st_main_c_43 : Vfin V0 (Proc.devRef .tc main_c_43) = ((constantI S_ 32 0#32) : (⟨S_, .i32⟩ : BufTy).Contents (Elt F)) :=
  stage_nullary (tail4_inOrder (F := F)) (Vfin_eq4 V0) 9 main_c_43 ((constantI S_ 32 0#32) : (⟨S_, .i32⟩ : BufTy).Contents (Elt F)) rfl (by decide)

theorem st_main_v204 : Vfin V0 (Proc.devRef .tc main_v204) = (broadcastInDim S12288 ![] bcast_S_S12288 : (⟨S_, .i32⟩ : BufTy).Contents (Elt F) → (⟨S12288, .i32⟩ : BufTy).Contents (Elt F)) (Vfin V0 (Proc.devRef .tc main_c_43)) :=
  stage_unary (tail4_inOrder (F := F)) (Vfin_eq4 V0) 10 main_c_43 main_v204 (broadcastInDim S12288 ![] bcast_S_S12288 : (⟨S_, .i32⟩ : BufTy).Contents (Elt F) → (⟨S12288, .i32⟩ : BufTy).Contents (Elt F)) rfl (by decide) (by decide)

theorem st_main_v205 : Vfin V0 (Proc.devRef .tc main_v205) = (cmpi .slt : (⟨S12288, .i32⟩ : BufTy).Contents (Elt F) → (⟨S12288, .i32⟩ : BufTy).Contents (Elt F) → (⟨S12288, .i1⟩ : BufTy).Contents (Elt F)) (Vfin V0 (Proc.devRef .tc main_v1)) (Vfin V0 (Proc.devRef .tc main_v204)) :=
  stage_binary (tail4_inOrder (F := F)) (Vfin_eq4 V0) 11 main_v1 main_v204 main_v205 (cmpi .slt : (⟨S12288, .i32⟩ : BufTy).Contents (Elt F) → (⟨S12288, .i32⟩ : BufTy).Contents (Elt F) → (⟨S12288, .i1⟩ : BufTy).Contents (Elt F)) rfl (by decide) (by decide) (by decide)

theorem st_main_c_44 : Vfin V0 (Proc.devRef .tc main_c_44) = ((constantI S_ 32 2048#32) : (⟨S_, .i32⟩ : BufTy).Contents (Elt F)) :=
  stage_nullary (tail4_inOrder (F := F)) (Vfin_eq4 V0) 12 main_c_44 ((constantI S_ 32 2048#32) : (⟨S_, .i32⟩ : BufTy).Contents (Elt F)) rfl (by decide)

theorem st_main_v206 : Vfin V0 (Proc.devRef .tc main_v206) = (broadcastInDim S12288 ![] bcast_S_S12288 : (⟨S_, .i32⟩ : BufTy).Contents (Elt F) → (⟨S12288, .i32⟩ : BufTy).Contents (Elt F)) (Vfin V0 (Proc.devRef .tc main_c_44)) :=
  stage_unary (tail4_inOrder (F := F)) (Vfin_eq4 V0) 13 main_c_44 main_v206 (broadcastInDim S12288 ![] bcast_S_S12288 : (⟨S_, .i32⟩ : BufTy).Contents (Elt F) → (⟨S12288, .i32⟩ : BufTy).Contents (Elt F)) rfl (by decide) (by decide)

theorem st_main_v207 : Vfin V0 (Proc.devRef .tc main_v207) = (addi : (⟨S12288, .i32⟩ : BufTy).Contents (Elt F) → (⟨S12288, .i32⟩ : BufTy).Contents (Elt F) → (⟨S12288, .i32⟩ : BufTy).Contents (Elt F)) (Vfin V0 (Proc.devRef .tc main_v1)) (Vfin V0 (Proc.devRef .tc main_v206)) :=
  stage_binary (tail4_inOrder (F := F)) (Vfin_eq4 V0) 14 main_v1 main_v206 main_v207 (addi : (⟨S12288, .i32⟩ : BufTy).Contents (Elt F) → (⟨S12288, .i32⟩ : BufTy).Contents (Elt F) → (⟨S12288, .i32⟩ : BufTy).Contents (Elt F)) rfl (by decide) (by decide) (by decide)

theorem st_main_v208 : Vfin V0 (Proc.devRef .tc main_v208) = (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) (Vfin V0 (Proc.devRef .tc main_v205)) (Vfin V0 (Proc.devRef .tc main_v207)) (Vfin V0 (Proc.devRef .tc main_v1)) :=
  stage_ternary (tail4_inOrder (F := F)) (Vfin_eq4 V0) 15 main_v205 main_v207 main_v1 main_v208 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) rfl (by decide) (by decide) (by decide) (by decide)

theorem st_main_v209 : Vfin V0 (Proc.devRef .tc main_v209) = (broadcastInDim S12288x1 ![0] bcast_S12288_S12288x1_0 : (⟨S12288, .i32⟩ : BufTy).Contents (Elt F) → (⟨S12288x1, .i32⟩ : BufTy).Contents (Elt F)) (Vfin V0 (Proc.devRef .tc main_v208)) :=
  stage_unary (tail4_inOrder (F := F)) (Vfin_eq4 V0) 16 main_v208 main_v209 (broadcastInDim S12288x1 ![0] bcast_S12288_S12288x1_0 : (⟨S12288, .i32⟩ : BufTy).Contents (Elt F) → (⟨S12288x1, .i32⟩ : BufTy).Contents (Elt F)) rfl (by decide) (by decide)

theorem st_main_v210 : Vfin V0 (Proc.devRef .tc main_v210) = ((fun x i => Host.gather gather_S2048_S12288x1_S12288_n_0_n_n_0_1_1 x i) : (⟨S2048, .f32⟩ : BufTy).Contents (Elt F) → (⟨S12288x1, .i32⟩ : BufTy).Contents (Elt F) → (⟨S12288, .f32⟩ : BufTy).Contents (Elt F)) (Vfin V0 (Proc.devRef .tc main_v15)) (Vfin V0 (Proc.devRef .tc main_v209)) :=
  stage_binary (tail4_inOrder (F := F)) (Vfin_eq4 V0) 17 main_v15 main_v209 main_v210 ((fun x i => Host.gather gather_S2048_S12288x1_S12288_n_0_n_n_0_1_1 x i) : (⟨S2048, .f32⟩ : BufTy).Contents (Elt F) → (⟨S12288x1, .i32⟩ : BufTy).Contents (Elt F) → (⟨S12288, .f32⟩ : BufTy).Contents (Elt F)) rfl (by decide) (by decide) (by decide)

theorem st_main_c_45 : Vfin V0 (Proc.devRef .tc main_c_45) = ((constantI S_ 32 0#32) : (⟨S_, .i32⟩ : BufTy).Contents (Elt F)) :=
  stage_nullary (tail4_inOrder (F := F)) (Vfin_eq4 V0) 18 main_c_45 ((constantI S_ 32 0#32) : (⟨S_, .i32⟩ : BufTy).Contents (Elt F)) rfl (by decide)

theorem st_main_v211 : Vfin V0 (Proc.devRef .tc main_v211) = (broadcastInDim S12288 ![] bcast_S_S12288 : (⟨S_, .i32⟩ : BufTy).Contents (Elt F) → (⟨S12288, .i32⟩ : BufTy).Contents (Elt F)) (Vfin V0 (Proc.devRef .tc main_c_45)) :=
  stage_unary (tail4_inOrder (F := F)) (Vfin_eq4 V0) 19 main_c_45 main_v211 (broadcastInDim S12288 ![] bcast_S_S12288 : (⟨S_, .i32⟩ : BufTy).Contents (Elt F) → (⟨S12288, .i32⟩ : BufTy).Contents (Elt F)) rfl (by decide) (by decide)

theorem st_main_v212 : Vfin V0 (Proc.devRef .tc main_v212) = (cmpi .slt : (⟨S12288, .i32⟩ : BufTy).Contents (Elt F) → (⟨S12288, .i32⟩ : BufTy).Contents (Elt F) → (⟨S12288, .i1⟩ : BufTy).Contents (Elt F)) (Vfin V0 (Proc.devRef .tc main_v3)) (Vfin V0 (Proc.devRef .tc main_v211)) :=
  stage_binary (tail4_inOrder (F := F)) (Vfin_eq4 V0) 20 main_v3 main_v211 main_v212 (cmpi .slt : (⟨S12288, .i32⟩ : BufTy).Contents (Elt F) → (⟨S12288, .i32⟩ : BufTy).Contents (Elt F) → (⟨S12288, .i1⟩ : BufTy).Contents (Elt F)) rfl (by decide) (by decide) (by decide)

theorem st_main_c_46 : Vfin V0 (Proc.devRef .tc main_c_46) = ((constantI S_ 32 2048#32) : (⟨S_, .i32⟩ : BufTy).Contents (Elt F)) :=
  stage_nullary (tail4_inOrder (F := F)) (Vfin_eq4 V0) 21 main_c_46 ((constantI S_ 32 2048#32) : (⟨S_, .i32⟩ : BufTy).Contents (Elt F)) rfl (by decide)

theorem st_main_v213 : Vfin V0 (Proc.devRef .tc main_v213) = (broadcastInDim S12288 ![] bcast_S_S12288 : (⟨S_, .i32⟩ : BufTy).Contents (Elt F) → (⟨S12288, .i32⟩ : BufTy).Contents (Elt F)) (Vfin V0 (Proc.devRef .tc main_c_46)) :=
  stage_unary (tail4_inOrder (F := F)) (Vfin_eq4 V0) 22 main_c_46 main_v213 (broadcastInDim S12288 ![] bcast_S_S12288 : (⟨S_, .i32⟩ : BufTy).Contents (Elt F) → (⟨S12288, .i32⟩ : BufTy).Contents (Elt F)) rfl (by decide) (by decide)

theorem st_main_v214 : Vfin V0 (Proc.devRef .tc main_v214) = (addi : (⟨S12288, .i32⟩ : BufTy).Contents (Elt F) → (⟨S12288, .i32⟩ : BufTy).Contents (Elt F) → (⟨S12288, .i32⟩ : BufTy).Contents (Elt F)) (Vfin V0 (Proc.devRef .tc main_v3)) (Vfin V0 (Proc.devRef .tc main_v213)) :=
  stage_binary (tail4_inOrder (F := F)) (Vfin_eq4 V0) 23 main_v3 main_v213 main_v214 (addi : (⟨S12288, .i32⟩ : BufTy).Contents (Elt F) → (⟨S12288, .i32⟩ : BufTy).Contents (Elt F) → (⟨S12288, .i32⟩ : BufTy).Contents (Elt F)) rfl (by decide) (by decide) (by decide)

theorem st_main_v215 : Vfin V0 (Proc.devRef .tc main_v215) = (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) (Vfin V0 (Proc.devRef .tc main_v212)) (Vfin V0 (Proc.devRef .tc main_v214)) (Vfin V0 (Proc.devRef .tc main_v3)) :=
  stage_ternary (tail4_inOrder (F := F)) (Vfin_eq4 V0) 24 main_v212 main_v214 main_v3 main_v215 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) rfl (by decide) (by decide) (by decide) (by decide)

theorem st_main_v216 : Vfin V0 (Proc.devRef .tc main_v216) = (broadcastInDim S12288x1 ![0] bcast_S12288_S12288x1_0 : (⟨S12288, .i32⟩ : BufTy).Contents (Elt F) → (⟨S12288x1, .i32⟩ : BufTy).Contents (Elt F)) (Vfin V0 (Proc.devRef .tc main_v215)) :=
  stage_unary (tail4_inOrder (F := F)) (Vfin_eq4 V0) 25 main_v215 main_v216 (broadcastInDim S12288x1 ![0] bcast_S12288_S12288x1_0 : (⟨S12288, .i32⟩ : BufTy).Contents (Elt F) → (⟨S12288x1, .i32⟩ : BufTy).Contents (Elt F)) rfl (by decide) (by decide)

theorem st_main_v217 : Vfin V0 (Proc.devRef .tc main_v217) = ((fun x i => Host.gather gather_S2048_S12288x1_S12288_n_0_n_n_0_1_1 x i) : (⟨S2048, .f32⟩ : BufTy).Contents (Elt F) → (⟨S12288x1, .i32⟩ : BufTy).Contents (Elt F) → (⟨S12288, .f32⟩ : BufTy).Contents (Elt F)) (Vfin V0 (Proc.devRef .tc main_v15)) (Vfin V0 (Proc.devRef .tc main_v216)) :=
  stage_binary (tail4_inOrder (F := F)) (Vfin_eq4 V0) 26 main_v15 main_v216 main_v217 ((fun x i => Host.gather gather_S2048_S12288x1_S12288_n_0_n_n_0_1_1 x i) : (⟨S2048, .f32⟩ : BufTy).Contents (Elt F) → (⟨S12288x1, .i32⟩ : BufTy).Contents (Elt F) → (⟨S12288, .f32⟩ : BufTy).Contents (Elt F)) rfl (by decide) (by decide) (by decide)

theorem st_main_v218 : Vfin V0 (Proc.devRef .tc main_v218) = (mulf : (⟨S12288, .f32⟩ : BufTy).Contents (Elt F) → (⟨S12288, .f32⟩ : BufTy).Contents (Elt F) → (⟨S12288, .f32⟩ : BufTy).Contents (Elt F)) (Vfin V0 (Proc.devRef .tc main_v210)) (Vfin V0 (Proc.devRef .tc main_v217)) :=
  stage_binary (tail4_inOrder (F := F)) (Vfin_eq4 V0) 27 main_v210 main_v217 main_v218 (mulf : (⟨S12288, .f32⟩ : BufTy).Contents (Elt F) → (⟨S12288, .f32⟩ : BufTy).Contents (Elt F) → (⟨S12288, .f32⟩ : BufTy).Contents (Elt F)) rfl (by decide) (by decide) (by decide)

theorem st_main_call7_c : Vfin V0 (Proc.devRef .tc main_call7_c) = ((constantI S_ 32 0#32) : (⟨S_, .i32⟩ : BufTy).Contents (Elt F)) :=
  stage_tnullary (tail4_inOrder (F := F)) (Vfin_eq4 V0) 28 (.of main_call7_c : StableHlo.TRef sig ⟨S_, .i32⟩) (constantI S_ 32 0#32) rfl (by decide)

theorem st_main_call7_v0 : Vfin V0 (Proc.devRef .tc main_call7_v0) = ((broadcastInDim S12288 ![] bcast_S_S12288) : (⟨S_, .i32⟩ : BufTy).Contents (Elt F) → (⟨S12288, .i32⟩ : BufTy).Contents (Elt F)) (Vfin V0 (Proc.devRef .tc main_call7_c)) :=
  stage_tunary (tail4_inOrder (F := F)) (Vfin_eq4 V0) 29 (.of main_call7_c : StableHlo.TRef sig ⟨S_, .i32⟩) (.of main_call7_v0 : StableHlo.TRef sig ⟨S12288, .i32⟩) (broadcastInDim S12288 ![] bcast_S_S12288) rfl (by decide) (by decide)

theorem st_main_call7_v1 : Vfin V0 (Proc.devRef .tc main_call7_v1) = ((cmpi .slt) : (⟨S12288, .i32⟩ : BufTy).Contents (Elt F) → (⟨S12288, .i32⟩ : BufTy).Contents (Elt F) → (⟨S12288, .i1⟩ : BufTy).Contents (Elt F)) (Vfin V0 (Proc.devRef .tc main_v1)) (Vfin V0 (Proc.devRef .tc main_call7_v0)) :=
  stage_tbinary (tail4_inOrder (F := F)) (Vfin_eq4 V0) 30 (.of main_v1 : StableHlo.TRef sig ⟨S12288, .i32⟩) (.of main_call7_v0 : StableHlo.TRef sig ⟨S12288, .i32⟩) (.of main_call7_v1 : StableHlo.TRef sig ⟨S12288, .i1⟩) (cmpi .slt) rfl (by decide) (by decide) (by decide)

theorem st_main_call7_c_0 : Vfin V0 (Proc.devRef .tc main_call7_c_0) = ((constantI S_ 32 2048#32) : (⟨S_, .i32⟩ : BufTy).Contents (Elt F)) :=
  stage_tnullary (tail4_inOrder (F := F)) (Vfin_eq4 V0) 31 (.of main_call7_c_0 : StableHlo.TRef sig ⟨S_, .i32⟩) (constantI S_ 32 2048#32) rfl (by decide)

theorem st_main_call7_v2 : Vfin V0 (Proc.devRef .tc main_call7_v2) = ((broadcastInDim S12288 ![] bcast_S_S12288) : (⟨S_, .i32⟩ : BufTy).Contents (Elt F) → (⟨S12288, .i32⟩ : BufTy).Contents (Elt F)) (Vfin V0 (Proc.devRef .tc main_call7_c_0)) :=
  stage_tunary (tail4_inOrder (F := F)) (Vfin_eq4 V0) 32 (.of main_call7_c_0 : StableHlo.TRef sig ⟨S_, .i32⟩) (.of main_call7_v2 : StableHlo.TRef sig ⟨S12288, .i32⟩) (broadcastInDim S12288 ![] bcast_S_S12288) rfl (by decide) (by decide)

theorem st_main_call7_v3 : Vfin V0 (Proc.devRef .tc main_call7_v3) = (addi : (⟨S12288, .i32⟩ : BufTy).Contents (Elt F) → (⟨S12288, .i32⟩ : BufTy).Contents (Elt F) → (⟨S12288, .i32⟩ : BufTy).Contents (Elt F)) (Vfin V0 (Proc.devRef .tc main_v1)) (Vfin V0 (Proc.devRef .tc main_call7_v2)) :=
  stage_tbinary (tail4_inOrder (F := F)) (Vfin_eq4 V0) 33 (.of main_v1 : StableHlo.TRef sig ⟨S12288, .i32⟩) (.of main_call7_v2 : StableHlo.TRef sig ⟨S12288, .i32⟩) (.of main_call7_v3 : StableHlo.TRef sig ⟨S12288, .i32⟩) addi rfl (by decide) (by decide) (by decide)

theorem st_main_call7_v4 : Vfin V0 (Proc.devRef .tc main_call7_v4) = (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) (Vfin V0 (Proc.devRef .tc main_call7_v1)) (Vfin V0 (Proc.devRef .tc main_call7_v3)) (Vfin V0 (Proc.devRef .tc main_v1)) :=
  stage_tternary (tail4_inOrder (F := F)) (Vfin_eq4 V0) 34 (.of main_call7_v1 : StableHlo.TRef sig ⟨S12288, .i1⟩) (.of main_call7_v3 : StableHlo.TRef sig ⟨S12288, .i32⟩) (.of main_v1 : StableHlo.TRef sig ⟨S12288, .i32⟩) (.of main_call7_v4 : StableHlo.TRef sig ⟨S12288, .i32⟩) select rfl (by decide) (by decide) (by decide) (by decide)

theorem st_main_call7_v5 : Vfin V0 (Proc.devRef .tc main_call7_v5) = ((broadcastInDim S12288x1 ![0] bcast_S12288_S12288x1_0) : (⟨S12288, .i32⟩ : BufTy).Contents (Elt F) → (⟨S12288x1, .i32⟩ : BufTy).Contents (Elt F)) (Vfin V0 (Proc.devRef .tc main_call7_v4)) :=
  stage_tunary (tail4_inOrder (F := F)) (Vfin_eq4 V0) 35 (.of main_call7_v4 : StableHlo.TRef sig ⟨S12288, .i32⟩) (.of main_call7_v5 : StableHlo.TRef sig ⟨S12288x1, .i32⟩) (broadcastInDim S12288x1 ![0] bcast_S12288_S12288x1_0) rfl (by decide) (by decide)

theorem st_main_call7_c_1 : Vfin V0 (Proc.devRef .tc main_call7_c_1) = ((constantI S1 32 2047#32) : (⟨S1, .i32⟩ : BufTy).Contents (Elt F)) :=
  stage_tnullary (tail4_inOrder (F := F)) (Vfin_eq4 V0) 36 (.of main_call7_c_1 : StableHlo.TRef sig ⟨S1, .i32⟩) (constantI S1 32 2047#32) rfl (by decide)

theorem st_main_call7_c_2 : Vfin V0 (Proc.devRef .tc main_call7_c_2) = ((constantI S_ 32 0#32) : (⟨S_, .i32⟩ : BufTy).Contents (Elt F)) :=
  stage_tnullary (tail4_inOrder (F := F)) (Vfin_eq4 V0) 37 (.of main_call7_c_2 : StableHlo.TRef sig ⟨S_, .i32⟩) (constantI S_ 32 0#32) rfl (by decide)

theorem st_main_call7_v6 : Vfin V0 (Proc.devRef .tc main_call7_v6) = ((broadcastInDim S12288x1 ![] bcast_S_S12288x1) : (⟨S_, .i32⟩ : BufTy).Contents (Elt F) → (⟨S12288x1, .i32⟩ : BufTy).Contents (Elt F)) (Vfin V0 (Proc.devRef .tc main_call7_c_2)) :=
  stage_tunary (tail4_inOrder (F := F)) (Vfin_eq4 V0) 38 (.of main_call7_c_2 : StableHlo.TRef sig ⟨S_, .i32⟩) (.of main_call7_v6 : StableHlo.TRef sig ⟨S12288x1, .i32⟩) (broadcastInDim S12288x1 ![] bcast_S_S12288x1) rfl (by decide) (by decide)

theorem st_main_call7_v7 : Vfin V0 (Proc.devRef .tc main_call7_v7) = ((cmpi .sge) : (⟨S12288x1, .i32⟩ : BufTy).Contents (Elt F) → (⟨S12288x1, .i32⟩ : BufTy).Contents (Elt F) → (⟨S12288x1, .i1⟩ : BufTy).Contents (Elt F)) (Vfin V0 (Proc.devRef .tc main_call7_v5)) (Vfin V0 (Proc.devRef .tc main_call7_v6)) :=
  stage_tbinary (tail4_inOrder (F := F)) (Vfin_eq4 V0) 39 (.of main_call7_v5 : StableHlo.TRef sig ⟨S12288x1, .i32⟩) (.of main_call7_v6 : StableHlo.TRef sig ⟨S12288x1, .i32⟩) (.of main_call7_v7 : StableHlo.TRef sig ⟨S12288x1, .i1⟩) (cmpi .sge) rfl (by decide) (by decide) (by decide)

theorem st_main_call7_v8 : Vfin V0 (Proc.devRef .tc main_call7_v8) = ((broadcastInDim S1x1 ![1] bcast_S1_S1x1_1) : (⟨S1, .i32⟩ : BufTy).Contents (Elt F) → (⟨S1x1, .i32⟩ : BufTy).Contents (Elt F)) (Vfin V0 (Proc.devRef .tc main_call7_c_1)) :=
  stage_tunary (tail4_inOrder (F := F)) (Vfin_eq4 V0) 40 (.of main_call7_c_1 : StableHlo.TRef sig ⟨S1, .i32⟩) (.of main_call7_v8 : StableHlo.TRef sig ⟨S1x1, .i32⟩) (broadcastInDim S1x1 ![1] bcast_S1_S1x1_1) rfl (by decide) (by decide)

theorem st_main_call7_v9 : Vfin V0 (Proc.devRef .tc main_call7_v9) = ((broadcastInDim S12288x1 ![0, 1] bcast_S1x1_S12288x1_0_1) : (⟨S1x1, .i32⟩ : BufTy).Contents (Elt F) → (⟨S12288x1, .i32⟩ : BufTy).Contents (Elt F)) (Vfin V0 (Proc.devRef .tc main_call7_v8)) :=
  stage_tunary (tail4_inOrder (F := F)) (Vfin_eq4 V0) 41 (.of main_call7_v8 : StableHlo.TRef sig ⟨S1x1, .i32⟩) (.of main_call7_v9 : StableHlo.TRef sig ⟨S12288x1, .i32⟩) (broadcastInDim S12288x1 ![0, 1] bcast_S1x1_S12288x1_0_1) rfl (by decide) (by decide)

theorem st_main_call7_v10 : Vfin V0 (Proc.devRef .tc main_call7_v10) = ((cmpi .sle) : (⟨S12288x1, .i32⟩ : BufTy).Contents (Elt F) → (⟨S12288x1, .i32⟩ : BufTy).Contents (Elt F) → (⟨S12288x1, .i1⟩ : BufTy).Contents (Elt F)) (Vfin V0 (Proc.devRef .tc main_call7_v5)) (Vfin V0 (Proc.devRef .tc main_call7_v9)) :=
  stage_tbinary (tail4_inOrder (F := F)) (Vfin_eq4 V0) 42 (.of main_call7_v5 : StableHlo.TRef sig ⟨S12288x1, .i32⟩) (.of main_call7_v9 : StableHlo.TRef sig ⟨S12288x1, .i32⟩) (.of main_call7_v10 : StableHlo.TRef sig ⟨S12288x1, .i1⟩) (cmpi .sle) rfl (by decide) (by decide) (by decide)

theorem st_main_call7_v11 : Vfin V0 (Proc.devRef .tc main_call7_v11) = (andi : (⟨S12288x1, .i1⟩ : BufTy).Contents (Elt F) → (⟨S12288x1, .i1⟩ : BufTy).Contents (Elt F) → (⟨S12288x1, .i1⟩ : BufTy).Contents (Elt F)) (Vfin V0 (Proc.devRef .tc main_call7_v7)) (Vfin V0 (Proc.devRef .tc main_call7_v10)) :=
  stage_tbinary (tail4_inOrder (F := F)) (Vfin_eq4 V0) 43 (.of main_call7_v7 : StableHlo.TRef sig ⟨S12288x1, .i1⟩) (.of main_call7_v10 : StableHlo.TRef sig ⟨S12288x1, .i1⟩) (.of main_call7_v11 : StableHlo.TRef sig ⟨S12288x1, .i1⟩) andi rfl (by decide) (by decide) (by decide)

theorem st_main_call7_c_3 : Vfin V0 (Proc.devRef .tc main_call7_c_3) = ((constantI S_ 1 1#1) : (⟨S_, .i1⟩ : BufTy).Contents (Elt F)) :=
  stage_tnullary (tail4_inOrder (F := F)) (Vfin_eq4 V0) 44 (.of main_call7_c_3 : StableHlo.TRef sig ⟨S_, .i1⟩) (constantI S_ 1 1#1) rfl (by decide)

theorem st_main_call7_v12 : Vfin V0 (Proc.devRef .tc main_call7_v12) = ((fun x v => Host.reduce IntOp.andi x v reducesTo_S12288x1_S12288_d1 h_S_) : (⟨S12288x1, .i1⟩ : BufTy).Contents (Elt F) → (⟨S_, .i1⟩ : BufTy).Contents (Elt F) → (⟨S12288, .i1⟩ : BufTy).Contents (Elt F)) (Vfin V0 (Proc.devRef .tc main_call7_v11)) (Vfin V0 (Proc.devRef .tc main_call7_c_3)) :=
  stage_tbinary (tail4_inOrder (F := F)) (Vfin_eq4 V0) 45 (.of main_call7_v11 : StableHlo.TRef sig ⟨S12288x1, .i1⟩) (.of main_call7_c_3 : StableHlo.TRef sig ⟨S_, .i1⟩) (.of main_call7_v12 : StableHlo.TRef sig ⟨S12288, .i1⟩) (fun x v => Host.reduce IntOp.andi x v reducesTo_S12288x1_S12288_d1 h_S_) rfl (by decide) (by decide) (by decide)

theorem st_main_call7_v13 : Vfin V0 (Proc.devRef .tc main_call7_v13) = ((fun x i => Host.gather gather_S16x2048x3_S12288x1_S16x12288x3_02_1_n_n_1_1_1613 x i) : (⟨S16x2048x3, .f32⟩ : BufTy).Contents (Elt F) → (⟨S12288x1, .i32⟩ : BufTy).Contents (Elt F) → (⟨S16x12288x3, .f32⟩ : BufTy).Contents (Elt F)) (Vfin V0 (Proc.devRef .tc main_v203)) (Vfin V0 (Proc.devRef .tc main_call7_v5)) :=
  stage_tbinary (tail4_inOrder (F := F)) (Vfin_eq4 V0) 46 (.of main_v203 : StableHlo.TRef sig ⟨S16x2048x3, .f32⟩) (.of main_call7_v5 : StableHlo.TRef sig ⟨S12288x1, .i32⟩) (.of main_call7_v13 : StableHlo.TRef sig ⟨S16x12288x3, .f32⟩) (fun x i => Host.gather gather_S16x2048x3_S12288x1_S16x12288x3_02_1_n_n_1_1_1613 x i) rfl (by decide) (by decide) (by decide)

theorem st_main_call7_v14 : Vfin V0 (Proc.devRef .tc main_call7_v14) = ((broadcastInDim S16x12288x3 ![1] bcast_S12288_S16x12288x3_1) : (⟨S12288, .i1⟩ : BufTy).Contents (Elt F) → (⟨S16x12288x3, .i1⟩ : BufTy).Contents (Elt F)) (Vfin V0 (Proc.devRef .tc main_call7_v12)) :=
  stage_tunary (tail4_inOrder (F := F)) (Vfin_eq4 V0) 47 (.of main_call7_v12 : StableHlo.TRef sig ⟨S12288, .i1⟩) (.of main_call7_v14 : StableHlo.TRef sig ⟨S16x12288x3, .i1⟩) (broadcastInDim S16x12288x3 ![1] bcast_S12288_S16x12288x3_1) rfl (by decide) (by decide)

theorem st_main_call7_cst : Vfin V0 (Proc.devRef .tc main_call7_cst) = ((constant S_ .f32 0x7FC00000#32) : (⟨S_, .f32⟩ : BufTy).Contents (Elt F)) :=
  stage_tnullary (tail4_inOrder (F := F)) (Vfin_eq4 V0) 48 (.of main_call7_cst : StableHlo.TRef sig ⟨S_, .f32⟩) (constant S_ .f32 0x7FC00000#32) rfl (by decide)

theorem st_main_call7_v15 : Vfin V0 (Proc.devRef .tc main_call7_v15) = ((broadcastInDim S16x12288x3 ![] bcast_S_S16x12288x3) : (⟨S_, .f32⟩ : BufTy).Contents (Elt F) → (⟨S16x12288x3, .f32⟩ : BufTy).Contents (Elt F)) (Vfin V0 (Proc.devRef .tc main_call7_cst)) :=
  stage_tunary (tail4_inOrder (F := F)) (Vfin_eq4 V0) 49 (.of main_call7_cst : StableHlo.TRef sig ⟨S_, .f32⟩) (.of main_call7_v15 : StableHlo.TRef sig ⟨S16x12288x3, .f32⟩) (broadcastInDim S16x12288x3 ![] bcast_S_S16x12288x3) rfl (by decide) (by decide)

theorem st_main_v219 : Vfin V0 (Proc.devRef .tc main_v219) = (select : (⟨S16x12288x3, .i1⟩ : BufTy).Contents (Elt F) → (⟨S16x12288x3, .f32⟩ : BufTy).Contents (Elt F) → (⟨S16x12288x3, .f32⟩ : BufTy).Contents (Elt F) → (⟨S16x12288x3, .f32⟩ : BufTy).Contents (Elt F)) (Vfin V0 (Proc.devRef .tc main_call7_v14)) (Vfin V0 (Proc.devRef .tc main_call7_v13)) (Vfin V0 (Proc.devRef .tc main_call7_v15)) :=
  stage_tternary (tail4_inOrder (F := F)) (Vfin_eq4 V0) 50 (.of main_call7_v14 : StableHlo.TRef sig ⟨S16x12288x3, .i1⟩) (.of main_call7_v13 : StableHlo.TRef sig ⟨S16x12288x3, .f32⟩) (.of main_call7_v15 : StableHlo.TRef sig ⟨S16x12288x3, .f32⟩) (.of main_v219 : StableHlo.TRef sig ⟨S16x12288x3, .f32⟩) select rfl (by decide) (by decide) (by decide) (by decide)

theorem st_main_v220 : Vfin V0 (Proc.devRef .tc main_v220) = (broadcastInDim S1x12288x1 ![1] bcast_S12288_S1x12288x1_1 : (⟨S12288, .f32⟩ : BufTy).Contents (Elt F) → (⟨S1x12288x1, .f32⟩ : BufTy).Contents (Elt F)) (Vfin V0 (Proc.devRef .tc main_v218)) :=
  stage_unary (tail4_inOrder (F := F)) (Vfin_eq4 V0) 51 main_v218 main_v220 (broadcastInDim S1x12288x1 ![1] bcast_S12288_S1x12288x1_1 : (⟨S12288, .f32⟩ : BufTy).Contents (Elt F) → (⟨S1x12288x1, .f32⟩ : BufTy).Contents (Elt F)) rfl (by decide) (by decide)

theorem st_main_v221 : Vfin V0 (Proc.devRef .tc main_v221) = (broadcastInDim S16x12288x3 ![0, 1, 2] bcast_S1x12288x1_S16x12288x3_0_1_2 : (⟨S1x12288x1, .f32⟩ : BufTy).Contents (Elt F) → (⟨S16x12288x3, .f32⟩ : BufTy).Contents (Elt F)) (Vfin V0 (Proc.devRef .tc main_v220)) :=
  stage_unary (tail4_inOrder (F := F)) (Vfin_eq4 V0) 52 main_v220 main_v221 (broadcastInDim S16x12288x3 ![0, 1, 2] bcast_S1x12288x1_S16x12288x3_0_1_2 : (⟨S1x12288x1, .f32⟩ : BufTy).Contents (Elt F) → (⟨S16x12288x3, .f32⟩ : BufTy).Contents (Elt F)) rfl (by decide) (by decide)

theorem st_main_v222 : Vfin V0 (Proc.devRef .tc main_v222) = (mulf : (⟨S16x12288x3, .f32⟩ : BufTy).Contents (Elt F) → (⟨S16x12288x3, .f32⟩ : BufTy).Contents (Elt F) → (⟨S16x12288x3, .f32⟩ : BufTy).Contents (Elt F)) (Vfin V0 (Proc.devRef .tc main_v219)) (Vfin V0 (Proc.devRef .tc main_v221)) :=
  stage_binary (tail4_inOrder (F := F)) (Vfin_eq4 V0) 53 main_v219 main_v221 main_v222 (mulf : (⟨S16x12288x3, .f32⟩ : BufTy).Contents (Elt F) → (⟨S16x12288x3, .f32⟩ : BufTy).Contents (Elt F) → (⟨S16x12288x3, .f32⟩ : BufTy).Contents (Elt F)) rfl (by decide) (by decide) (by decide)

theorem st_main_cst_47 : Vfin V0 (Proc.devRef .tc main_cst_47) = ((constant S_ .f32 0x00000000#32) : (⟨S_, .f32⟩ : BufTy).Contents (Elt F)) :=
  stage_nullary (tail4_inOrder (F := F)) (Vfin_eq4 V0) 54 main_cst_47 ((constant S_ .f32 0x00000000#32) : (⟨S_, .f32⟩ : BufTy).Contents (Elt F)) rfl (by decide)

theorem st_main_v223 : Vfin V0 (Proc.devRef .tc main_v223) = (broadcastInDim S16x2048x3 ![] bcast_S_S16x2048x3 : (⟨S_, .f32⟩ : BufTy).Contents (Elt F) → (⟨S16x2048x3, .f32⟩ : BufTy).Contents (Elt F)) (Vfin V0 (Proc.devRef .tc main_cst_47)) :=
  stage_unary (tail4_inOrder (F := F)) (Vfin_eq4 V0) 55 main_cst_47 main_v223 (broadcastInDim S16x2048x3 ![] bcast_S_S16x2048x3 : (⟨S_, .f32⟩ : BufTy).Contents (Elt F) → (⟨S16x2048x3, .f32⟩ : BufTy).Contents (Elt F)) rfl (by decide) (by decide)

theorem st_main_c_48 : Vfin V0 (Proc.devRef .tc main_c_48) = ((constantI S_ 32 0#32) : (⟨S_, .i32⟩ : BufTy).Contents (Elt F)) :=
  stage_nullary (tail4_inOrder (F := F)) (Vfin_eq4 V0) 56 main_c_48 ((constantI S_ 32 0#32) : (⟨S_, .i32⟩ : BufTy).Contents (Elt F)) rfl (by decide)

theorem st_main_v224 : Vfin V0 (Proc.devRef .tc main_v224) = (broadcastInDim S12288 ![] bcast_S_S12288 : (⟨S_, .i32⟩ : BufTy).Contents (Elt F) → (⟨S12288, .i32⟩ : BufTy).Contents (Elt F)) (Vfin V0 (Proc.devRef .tc main_c_48)) :=
  stage_unary (tail4_inOrder (F := F)) (Vfin_eq4 V0) 57 main_c_48 main_v224 (broadcastInDim S12288 ![] bcast_S_S12288 : (⟨S_, .i32⟩ : BufTy).Contents (Elt F) → (⟨S12288, .i32⟩ : BufTy).Contents (Elt F)) rfl (by decide) (by decide)

theorem st_main_v225 : Vfin V0 (Proc.devRef .tc main_v225) = (cmpi .slt : (⟨S12288, .i32⟩ : BufTy).Contents (Elt F) → (⟨S12288, .i32⟩ : BufTy).Contents (Elt F) → (⟨S12288, .i1⟩ : BufTy).Contents (Elt F)) (Vfin V0 (Proc.devRef .tc main_v3)) (Vfin V0 (Proc.devRef .tc main_v224)) :=
  stage_binary (tail4_inOrder (F := F)) (Vfin_eq4 V0) 58 main_v3 main_v224 main_v225 (cmpi .slt : (⟨S12288, .i32⟩ : BufTy).Contents (Elt F) → (⟨S12288, .i32⟩ : BufTy).Contents (Elt F) → (⟨S12288, .i1⟩ : BufTy).Contents (Elt F)) rfl (by decide) (by decide) (by decide)

theorem st_main_c_49 : Vfin V0 (Proc.devRef .tc main_c_49) = ((constantI S_ 32 2048#32) : (⟨S_, .i32⟩ : BufTy).Contents (Elt F)) :=
  stage_nullary (tail4_inOrder (F := F)) (Vfin_eq4 V0) 59 main_c_49 ((constantI S_ 32 2048#32) : (⟨S_, .i32⟩ : BufTy).Contents (Elt F)) rfl (by decide)

theorem st_main_v226 : Vfin V0 (Proc.devRef .tc main_v226) = (broadcastInDim S12288 ![] bcast_S_S12288 : (⟨S_, .i32⟩ : BufTy).Contents (Elt F) → (⟨S12288, .i32⟩ : BufTy).Contents (Elt F)) (Vfin V0 (Proc.devRef .tc main_c_49)) :=
  stage_unary (tail4_inOrder (F := F)) (Vfin_eq4 V0) 60 main_c_49 main_v226 (broadcastInDim S12288 ![] bcast_S_S12288 : (⟨S_, .i32⟩ : BufTy).Contents (Elt F) → (⟨S12288, .i32⟩ : BufTy).Contents (Elt F)) rfl (by decide) (by decide)

theorem st_main_v227 : Vfin V0 (Proc.devRef .tc main_v227) = (addi : (⟨S12288, .i32⟩ : BufTy).Contents (Elt F) → (⟨S12288, .i32⟩ : BufTy).Contents (Elt F) → (⟨S12288, .i32⟩ : BufTy).Contents (Elt F)) (Vfin V0 (Proc.devRef .tc main_v3)) (Vfin V0 (Proc.devRef .tc main_v226)) :=
  stage_binary (tail4_inOrder (F := F)) (Vfin_eq4 V0) 61 main_v3 main_v226 main_v227 (addi : (⟨S12288, .i32⟩ : BufTy).Contents (Elt F) → (⟨S12288, .i32⟩ : BufTy).Contents (Elt F) → (⟨S12288, .i32⟩ : BufTy).Contents (Elt F)) rfl (by decide) (by decide) (by decide)

theorem st_main_v228 : Vfin V0 (Proc.devRef .tc main_v228) = (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) (Vfin V0 (Proc.devRef .tc main_v225)) (Vfin V0 (Proc.devRef .tc main_v227)) (Vfin V0 (Proc.devRef .tc main_v3)) :=
  stage_ternary (tail4_inOrder (F := F)) (Vfin_eq4 V0) 62 main_v225 main_v227 main_v3 main_v228 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)) rfl (by decide) (by decide) (by decide) (by decide)

theorem st_main_v229 : Vfin V0 (Proc.devRef .tc main_v229) = (broadcastInDim S12288x1 ![0] bcast_S12288_S12288x1_0 : (⟨S12288, .i32⟩ : BufTy).Contents (Elt F) → (⟨S12288x1, .i32⟩ : BufTy).Contents (Elt F)) (Vfin V0 (Proc.devRef .tc main_v228)) :=
  stage_unary (tail4_inOrder (F := F)) (Vfin_eq4 V0) 63 main_v228 main_v229 (broadcastInDim S12288x1 ![0] bcast_S12288_S12288x1_0 : (⟨S12288, .i32⟩ : BufTy).Contents (Elt F) → (⟨S12288x1, .i32⟩ : BufTy).Contents (Elt F)) rfl (by decide) (by decide)

theorem st_main_v230 : Vfin V0 (Proc.devRef .tc main_v230) = ((fun x i u => Host.scatterAdd scatter_S16x2048x3_S12288x1_S16x12288x3_02_1_1_1 x i u) : (⟨S16x2048x3, .f32⟩ : BufTy).Contents (Elt F) → (⟨S12288x1, .i32⟩ : BufTy).Contents (Elt F) → (⟨S16x12288x3, .f32⟩ : BufTy).Contents (Elt F) → (⟨S16x2048x3, .f32⟩ : BufTy).Contents (Elt F)) (Vfin V0 (Proc.devRef .tc main_v223)) (Vfin V0 (Proc.devRef .tc main_v229)) (Vfin V0 (Proc.devRef .tc main_v222)) :=
  stage_ternary (tail4_inOrder (F := F)) (Vfin_eq4 V0) 64 main_v223 main_v229 main_v222 main_v230 ((fun x i u => Host.scatterAdd scatter_S16x2048x3_S12288x1_S16x12288x3_02_1_1_1 x i u) : (⟨S16x2048x3, .f32⟩ : BufTy).Contents (Elt F) → (⟨S12288x1, .i32⟩ : BufTy).Contents (Elt F) → (⟨S16x12288x3, .f32⟩ : BufTy).Contents (Elt F) → (⟨S16x2048x3, .f32⟩ : BufTy).Contents (Elt F)) rfl (by decide) (by decide) (by decide) (by decide)

theorem st_main_v231 : Vfin V0 (Proc.devRef .tc main_v231) = (broadcastInDim S1x2048x1 ![1] bcast_S2048_S1x2048x1_1 : (⟨S2048, .f32⟩ : BufTy).Contents (Elt F) → (⟨S1x2048x1, .f32⟩ : BufTy).Contents (Elt F)) (Vfin V0 (Proc.devRef .tc main_v17)) :=
  stage_unary (tail4_inOrder (F := F)) (Vfin_eq4 V0) 65 main_v17 main_v231 (broadcastInDim S1x2048x1 ![1] bcast_S2048_S1x2048x1_1 : (⟨S2048, .f32⟩ : BufTy).Contents (Elt F) → (⟨S1x2048x1, .f32⟩ : BufTy).Contents (Elt F)) rfl (by decide) (by decide)

theorem st_main_v232 : Vfin V0 (Proc.devRef .tc main_v232) = (broadcastInDim S16x2048x3 ![0, 1, 2] bcast_S1x2048x1_S16x2048x3_0_1_2 : (⟨S1x2048x1, .f32⟩ : BufTy).Contents (Elt F) → (⟨S16x2048x3, .f32⟩ : BufTy).Contents (Elt F)) (Vfin V0 (Proc.devRef .tc main_v231)) :=
  stage_unary (tail4_inOrder (F := F)) (Vfin_eq4 V0) 66 main_v231 main_v232 (broadcastInDim S16x2048x3 ![0, 1, 2] bcast_S1x2048x1_S16x2048x3_0_1_2 : (⟨S1x2048x1, .f32⟩ : BufTy).Contents (Elt F) → (⟨S16x2048x3, .f32⟩ : BufTy).Contents (Elt F)) rfl (by decide) (by decide)

theorem st_main_v233 : Vfin V0 (Proc.devRef .tc main_v233) = (mulf : (⟨S16x2048x3, .f32⟩ : BufTy).Contents (Elt F) → (⟨S16x2048x3, .f32⟩ : BufTy).Contents (Elt F) → (⟨S16x2048x3, .f32⟩ : BufTy).Contents (Elt F)) (Vfin V0 (Proc.devRef .tc main_v203)) (Vfin V0 (Proc.devRef .tc main_v232)) :=
  stage_binary (tail4_inOrder (F := F)) (Vfin_eq4 V0) 67 main_v203 main_v232 main_v233 (mulf : (⟨S16x2048x3, .f32⟩ : BufTy).Contents (Elt F) → (⟨S16x2048x3, .f32⟩ : BufTy).Contents (Elt F) → (⟨S16x2048x3, .f32⟩ : BufTy).Contents (Elt F)) rfl (by decide) (by decide) (by decide)

theorem st_main_v234 : Vfin V0 (Proc.devRef .tc main_v234) = (addf : (⟨S16x2048x3, .f32⟩ : BufTy).Contents (Elt F) → (⟨S16x2048x3, .f32⟩ : BufTy).Contents (Elt F) → (⟨S16x2048x3, .f32⟩ : BufTy).Contents (Elt F)) (Vfin V0 (Proc.devRef .tc main_v230)) (Vfin V0 (Proc.devRef .tc main_v233)) :=
  stage_binary (tail4_inOrder (F := F)) (Vfin_eq4 V0) 68 main_v230 main_v233 main_v234 (addf : (⟨S16x2048x3, .f32⟩ : BufTy).Contents (Elt F) → (⟨S16x2048x3, .f32⟩ : BufTy).Contents (Elt F) → (⟨S16x2048x3, .f32⟩ : BufTy).Contents (Elt F)) rfl (by decide) (by decide) (by decide)

theorem st_main_v235 : Vfin V0 (Proc.devRef .tc main_v235) = (broadcastInDim S1x1x3 ![2] bcast_S3_S1x1x3_2 : (⟨S3, .f32⟩ : BufTy).Contents (Elt F) → (⟨S1x1x3, .f32⟩ : BufTy).Contents (Elt F)) (Vfin V0 (Proc.devRef .tc main_arg13)) :=
  stage_unary (tail4_inOrder (F := F)) (Vfin_eq4 V0) 69 main_arg13 main_v235 (broadcastInDim S1x1x3 ![2] bcast_S3_S1x1x3_2 : (⟨S3, .f32⟩ : BufTy).Contents (Elt F) → (⟨S1x1x3, .f32⟩ : BufTy).Contents (Elt F)) rfl (by decide) (by decide)

theorem st_main_v236 : Vfin V0 (Proc.devRef .tc main_v236) = (broadcastInDim S16x2048x3 ![0, 1, 2] bcast_S1x1x3_S16x2048x3_0_1_2 : (⟨S1x1x3, .f32⟩ : BufTy).Contents (Elt F) → (⟨S16x2048x3, .f32⟩ : BufTy).Contents (Elt F)) (Vfin V0 (Proc.devRef .tc main_v235)) :=
  stage_unary (tail4_inOrder (F := F)) (Vfin_eq4 V0) 70 main_v235 main_v236 (broadcastInDim S16x2048x3 ![0, 1, 2] bcast_S1x1x3_S16x2048x3_0_1_2 : (⟨S1x1x3, .f32⟩ : BufTy).Contents (Elt F) → (⟨S16x2048x3, .f32⟩ : BufTy).Contents (Elt F)) rfl (by decide) (by decide)

theorem st_main_v237 : Vfin V0 (Proc.devRef .tc main_v237) = (addf : (⟨S16x2048x3, .f32⟩ : BufTy).Contents (Elt F) → (⟨S16x2048x3, .f32⟩ : BufTy).Contents (Elt F) → (⟨S16x2048x3, .f32⟩ : BufTy).Contents (Elt F)) (Vfin V0 (Proc.devRef .tc main_v234)) (Vfin V0 (Proc.devRef .tc main_v236)) :=
  stage_binary (tail4_inOrder (F := F)) (Vfin_eq4 V0) 71 main_v234 main_v236 main_v237 (addf : (⟨S16x2048x3, .f32⟩ : BufTy).Contents (Elt F) → (⟨S16x2048x3, .f32⟩ : BufTy).Contents (Elt F) → (⟨S16x2048x3, .f32⟩ : BufTy).Contents (Elt F)) rfl (by decide) (by decide) (by decide)

theorem st_main_cst_50 : Vfin V0 (Proc.devRef .tc main_cst_50) = ((constant S_ .f32 0x00000000#32) : (⟨S_, .f32⟩ : BufTy).Contents (Elt F)) :=
  stage_nullary (tail4_inOrder (F := F)) (Vfin_eq4 V0) 72 main_cst_50 ((constant S_ .f32 0x00000000#32) : (⟨S_, .f32⟩ : BufTy).Contents (Elt F)) rfl (by decide)

theorem st_main_v238 : Vfin V0 (Proc.devRef .tc main_v238) = (broadcastInDim S16x2048x3 ![] bcast_S_S16x2048x3 : (⟨S_, .f32⟩ : BufTy).Contents (Elt F) → (⟨S16x2048x3, .f32⟩ : BufTy).Contents (Elt F)) (Vfin V0 (Proc.devRef .tc main_cst_50)) :=
  stage_unary (tail4_inOrder (F := F)) (Vfin_eq4 V0) 73 main_cst_50 main_v238 (broadcastInDim S16x2048x3 ![] bcast_S_S16x2048x3 : (⟨S_, .f32⟩ : BufTy).Contents (Elt F) → (⟨S16x2048x3, .f32⟩ : BufTy).Contents (Elt F)) rfl (by decide) (by decide)

theorem st_main_v239 : Vfin V0 (Proc.devRef .tc main_v239) = (cmpf .oge : (⟨S16x2048x3, .f32⟩ : BufTy).Contents (Elt F) → (⟨S16x2048x3, .f32⟩ : BufTy).Contents (Elt F) → (⟨S16x2048x3, .i1⟩ : BufTy).Contents (Elt F)) (Vfin V0 (Proc.devRef .tc main_v237)) (Vfin V0 (Proc.devRef .tc main_v238)) :=
  stage_binary (tail4_inOrder (F := F)) (Vfin_eq4 V0) 74 main_v237 main_v238 main_v239 (cmpf .oge : (⟨S16x2048x3, .f32⟩ : BufTy).Contents (Elt F) → (⟨S16x2048x3, .f32⟩ : BufTy).Contents (Elt F) → (⟨S16x2048x3, .i1⟩ : BufTy).Contents (Elt F)) rfl (by decide) (by decide) (by decide)

theorem st_main_cst_51 : Vfin V0 (Proc.devRef .tc main_cst_51) = ((constant S_ .f32 0x3C23D70A#32) : (⟨S_, .f32⟩ : BufTy).Contents (Elt F)) :=
  stage_nullary (tail4_inOrder (F := F)) (Vfin_eq4 V0) 75 main_cst_51 ((constant S_ .f32 0x3C23D70A#32) : (⟨S_, .f32⟩ : BufTy).Contents (Elt F)) rfl (by decide)

theorem st_main_v240 : Vfin V0 (Proc.devRef .tc main_v240) = (broadcastInDim S16x2048x3 ![] bcast_S_S16x2048x3 : (⟨S_, .f32⟩ : BufTy).Contents (Elt F) → (⟨S16x2048x3, .f32⟩ : BufTy).Contents (Elt F)) (Vfin V0 (Proc.devRef .tc main_cst_51)) :=
  stage_unary (tail4_inOrder (F := F)) (Vfin_eq4 V0) 76 main_cst_51 main_v240 (broadcastInDim S16x2048x3 ![] bcast_S_S16x2048x3 : (⟨S_, .f32⟩ : BufTy).Contents (Elt F) → (⟨S16x2048x3, .f32⟩ : BufTy).Contents (Elt F)) rfl (by decide) (by decide)

theorem st_main_v241 : Vfin V0 (Proc.devRef .tc main_v241) = (mulf : (⟨S16x2048x3, .f32⟩ : BufTy).Contents (Elt F) → (⟨S16x2048x3, .f32⟩ : BufTy).Contents (Elt F) → (⟨S16x2048x3, .f32⟩ : BufTy).Contents (Elt F)) (Vfin V0 (Proc.devRef .tc main_v240)) (Vfin V0 (Proc.devRef .tc main_v237)) :=
  stage_binary (tail4_inOrder (F := F)) (Vfin_eq4 V0) 77 main_v240 main_v237 main_v241 (mulf : (⟨S16x2048x3, .f32⟩ : BufTy).Contents (Elt F) → (⟨S16x2048x3, .f32⟩ : BufTy).Contents (Elt F) → (⟨S16x2048x3, .f32⟩ : BufTy).Contents (Elt F)) rfl (by decide) (by decide) (by decide)

theorem st_main_v242 : Vfin V0 (Proc.devRef .tc main_v242) = (select : (⟨S16x2048x3, .i1⟩ : BufTy).Contents (Elt F) → (⟨S16x2048x3, .f32⟩ : BufTy).Contents (Elt F) → (⟨S16x2048x3, .f32⟩ : BufTy).Contents (Elt F) → (⟨S16x2048x3, .f32⟩ : BufTy).Contents (Elt F)) (Vfin V0 (Proc.devRef .tc main_v239)) (Vfin V0 (Proc.devRef .tc main_v237)) (Vfin V0 (Proc.devRef .tc main_v241)) :=
  stage_tternary (tail4_inOrder (F := F)) (Vfin_eq4 V0) 78 (.of main_v239 : StableHlo.TRef sig ⟨S16x2048x3, .i1⟩) (.of main_v237 : StableHlo.TRef sig ⟨S16x2048x3, .f32⟩) (.of main_v241 : StableHlo.TRef sig ⟨S16x2048x3, .f32⟩) (.of main_v242 : StableHlo.TRef sig ⟨S16x2048x3, .f32⟩) select rfl (by decide) (by decide) (by decide) (by decide)

theorem st_main_v243 : Vfin V0 (Proc.devRef .tc main_v243) = shapeCast S16x6144 (Vfin V0 (Proc.devRef .tc main_v242)) shapeCasts_S16x2048x3_S16x6144 :=
  stage_reshape (tail4_inOrder (F := F)) (Vfin_eq4 V0) 79 main_v242 main_v243 rfl shapeCasts_S16x2048x3_S16x6144 rfl (by decide) (by decide)

theorem st_main_v244 : Vfin V0 (Proc.devRef .tc main_v244) = ((fun l r => Host.dotGeneral dot_S16x6144_S6144x6144_S16x6144_1_0_0_1_n_n none l r) : (⟨S16x6144, .f32⟩ : BufTy).Contents (Elt F) → (⟨S6144x6144, .f32⟩ : BufTy).Contents (Elt F) → (⟨S16x6144, .f32⟩ : BufTy).Contents (Elt F)) (Vfin V0 (Proc.devRef .tc main_v243)) (Vfin V0 (Proc.devRef .tc main_arg14)) :=
  stage_binary (tail4_inOrder (F := F)) (Vfin_eq4 V0) 80 main_v243 main_arg14 main_v244 ((fun l r => Host.dotGeneral dot_S16x6144_S6144x6144_S16x6144_1_0_0_1_n_n none l r) : (⟨S16x6144, .f32⟩ : BufTy).Contents (Elt F) → (⟨S6144x6144, .f32⟩ : BufTy).Contents (Elt F) → (⟨S16x6144, .f32⟩ : BufTy).Contents (Elt F)) rfl (by decide) (by decide) (by decide)

theorem st_main_v245 : Vfin V0 (Proc.devRef .tc main_v245) = (broadcastInDim S1x6144 ![1] bcast_S6144_S1x6144_1 : (⟨S6144, .f32⟩ : BufTy).Contents (Elt F) → (⟨S1x6144, .f32⟩ : BufTy).Contents (Elt F)) (Vfin V0 (Proc.devRef .tc main_arg15)) :=
  stage_unary (tail4_inOrder (F := F)) (Vfin_eq4 V0) 81 main_arg15 main_v245 (broadcastInDim S1x6144 ![1] bcast_S6144_S1x6144_1 : (⟨S6144, .f32⟩ : BufTy).Contents (Elt F) → (⟨S1x6144, .f32⟩ : BufTy).Contents (Elt F)) rfl (by decide) (by decide)

end Cert.ReferenceIdeal.Hand

end
-- ==== Proof.Ref.Stages5.lean ====
import proofs.«421025_j30305289241172_1_alg».proof.Proof.Ref.StageBase

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F] (V0 : Valuation τ sig (Elt F))

theorem st_main_v246 : Vfin V0 (Proc.devRef .tc main_v246) = (broadcastInDim S16x6144 ![0, 1] bcast_S1x6144_S16x6144_0_1 : (⟨S1x6144, .f32⟩ : BufTy).Contents (Elt F) → (⟨S16x6144, .f32⟩ : BufTy).Contents (Elt F)) (Vfin V0 (Proc.devRef .tc main_v245)) :=
  stage_unary (tail5_inOrder (F := F)) (Vfin_eq5 V0) 0 main_v245 main_v246 (broadcastInDim S16x6144 ![0, 1] bcast_S1x6144_S16x6144_0_1 : (⟨S1x6144, .f32⟩ : BufTy).Contents (Elt F) → (⟨S16x6144, .f32⟩ : BufTy).Contents (Elt F)) rfl (by decide) (by decide)

theorem st_main_v247 : Vfin V0 (Proc.devRef .tc main_v247) = (addf : (⟨S16x6144, .f32⟩ : BufTy).Contents (Elt F) → (⟨S16x6144, .f32⟩ : BufTy).Contents (Elt F) → (⟨S16x6144, .f32⟩ : BufTy).Contents (Elt F)) (Vfin V0 (Proc.devRef .tc main_v244)) (Vfin V0 (Proc.devRef .tc main_v246)) :=
  stage_binary (tail5_inOrder (F := F)) (Vfin_eq5 V0) 1 main_v244 main_v246 main_v247 (addf : (⟨S16x6144, .f32⟩ : BufTy).Contents (Elt F) → (⟨S16x6144, .f32⟩ : BufTy).Contents (Elt F) → (⟨S16x6144, .f32⟩ : BufTy).Contents (Elt F)) rfl (by decide) (by decide) (by decide)

theorem st_main_v248 : Vfin V0 (Proc.devRef .tc main_v248) = (Host.tanh : (⟨S16x6144, .f32⟩ : BufTy).Contents (Elt F) → (⟨S16x6144, .f32⟩ : BufTy).Contents (Elt F)) (Vfin V0 (Proc.devRef .tc main_v247)) :=
  stage_unary (tail5_inOrder (F := F)) (Vfin_eq5 V0) 2 main_v247 main_v248 (Host.tanh : (⟨S16x6144, .f32⟩ : BufTy).Contents (Elt F) → (⟨S16x6144, .f32⟩ : BufTy).Contents (Elt F)) rfl (by decide) (by decide)

theorem st_main_v249 : Vfin V0 (Proc.devRef .tc main_v249) = shapeCast S16x2048x3 (Vfin V0 (Proc.devRef .tc main_v248)) shapeCasts_S16x6144_S16x2048x3 :=
  stage_reshape (tail5_inOrder (F := F)) (Vfin_eq5 V0) 3 main_v248 main_v249 rfl shapeCasts_S16x6144_S16x2048x3 rfl (by decide) (by decide)

theorem st_main_cst_52 : Vfin V0 (Proc.devRef .tc main_cst_52) = ((constant S_ .f32 0x3DCCCCCD#32) : (⟨S_, .f32⟩ : BufTy).Contents (Elt F)) :=
  stage_nullary (tail5_inOrder (F := F)) (Vfin_eq5 V0) 4 main_cst_52 ((constant S_ .f32 0x3DCCCCCD#32) : (⟨S_, .f32⟩ : BufTy).Contents (Elt F)) rfl (by decide)

theorem st_main_v250 : Vfin V0 (Proc.devRef .tc main_v250) = (broadcastInDim S16x2048x3 ![] bcast_S_S16x2048x3 : (⟨S_, .f32⟩ : BufTy).Contents (Elt F) → (⟨S16x2048x3, .f32⟩ : BufTy).Contents (Elt F)) (Vfin V0 (Proc.devRef .tc main_cst_52)) :=
  stage_unary (tail5_inOrder (F := F)) (Vfin_eq5 V0) 5 main_cst_52 main_v250 (broadcastInDim S16x2048x3 ![] bcast_S_S16x2048x3 : (⟨S_, .f32⟩ : BufTy).Contents (Elt F) → (⟨S16x2048x3, .f32⟩ : BufTy).Contents (Elt F)) rfl (by decide) (by decide)

theorem st_main_v251 : Vfin V0 (Proc.devRef .tc main_v251) = (mulf : (⟨S16x2048x3, .f32⟩ : BufTy).Contents (Elt F) → (⟨S16x2048x3, .f32⟩ : BufTy).Contents (Elt F) → (⟨S16x2048x3, .f32⟩ : BufTy).Contents (Elt F)) (Vfin V0 (Proc.devRef .tc main_v249)) (Vfin V0 (Proc.devRef .tc main_v250)) :=
  stage_binary (tail5_inOrder (F := F)) (Vfin_eq5 V0) 6 main_v249 main_v250 main_v251 (mulf : (⟨S16x2048x3, .f32⟩ : BufTy).Contents (Elt F) → (⟨S16x2048x3, .f32⟩ : BufTy).Contents (Elt F) → (⟨S16x2048x3, .f32⟩ : BufTy).Contents (Elt F)) rfl (by decide) (by decide) (by decide)

end Cert.ReferenceIdeal.Hand

end
-- ==== Proof.Ref.Stages.lean ====
import proofs.«421025_j30305289241172_1_alg».proof.Proof.Ref.Stages0
import proofs.«421025_j30305289241172_1_alg».proof.Proof.Ref.Stages1
import proofs.«421025_j30305289241172_1_alg».proof.Proof.Ref.Stages2
import proofs.«421025_j30305289241172_1_alg».proof.Proof.Ref.Stages3
import proofs.«421025_j30305289241172_1_alg».proof.Proof.Ref.Stages4
import proofs.«421025_j30305289241172_1_alg».proof.Proof.Ref.Stages5

noncomputable section

namespace Cert.ReferenceIdeal.Hand

open Cert.ReferenceIdeal Cert.ReferenceIdeal.Gen Idealize.ShloMosaic Idealize.ShloMosaic.TcCoe Idealize.SL.Sem Idealize.ShloMosaic.StableHlo

end Cert.ReferenceIdeal.Hand

end
-- ==== Proof.Ref.LayerIdx.lean ====
/-
  The reference program's operations read at one element, under the hypothesis that every word of an index vector is a
  node number (below 2048): the wrap of a possibly negative index is the identity, a take along the node axis reads the
  node the word names, the in-range mask is all ones, and a scatter-add along the node axis is the sum over the edges
  that end at the node. Stated over any channel count, so that the six layers are instances.
-/
import proofs.«421025_j30305289241172_1_alg».proof.Proof.Spec
import Idealize.ShloMosaic.Lib.ValueIdx
import Idealize.ShloMosaic.Lib.ValueIdxCoords
import Idealize.ShloMosaic.Lib.Pipeline.Value
import Idealize.ShloMosaic.Lib.ValueLayout
import Idealize.ShloMosaic.Lib.StableHlo.Predicate
import Idealize.ShloMosaic.Lib.IdealHost
import Idealize.ShloMosaic.PureOps.Ideal.Laws

noncomputable section

open scoped BigOperators

namespace Cert.ReferenceIdeal.Hand

open Idealize.ShloMosaic Idealize.ShloMosaic.ValueIdx Idealize.ShloMosaic.StableHlo.Predicate Cert.Spec

/-! ## Words that are node numbers -/

/-- A word below 2048 is not negative: the wrap `select (w < 0) (w + 2048) w` leaves it. -/
theorem wrap_word (w : BitVec 32) (hw : w.toNat < 2048) :
    Scalar.select (IntOp.cmpi .slt w 0#32) (IntOp.addi w 2048#32) w = w := by
  have h0 : ¬ IntOp.cmpi .slt w 0#32 = 1#1 := by
    rw [slt_iff_toNat (by omega) (by decide)]; simp
  rw [eq_zero_of_ne_one h0, select_zero]

/-- Such a word read signed and clamped into the node range is itself. -/
theorem clamp_word (w : BitVec 32) (hw : w.toNat < 2048) : min w.toInt.toNat (2048 - 1) = w.toNat := by
  rw [toInt_eq_toNat_of_lt (by omega)]
  simp only [Int.toNat_natCast]
  omega

/-- It passes the bounds test `0 ≤ w ∧ w ≤ 2047`. -/
theorem inb_word (w : BitVec 32) (hw : w.toNat < 2048) :
    IntOp.andi (IntOp.cmpi .sge w 0#32) (IntOp.cmpi .sle w 2047#32) = 1#1 := by
  have h1 : IntOp.cmpi .sge w 0#32 = 1#1 := (sge_iff_toNat (by omega) (by decide)).mpr (by simp)
  have h2 : IntOp.cmpi .sle w 2047#32 = 1#1 := (sle_iff_toNat (by omega) (by decide)).mpr (by simp; omega)
  rw [h1, h2]; rfl

/-! ## Index vectors -/

/-- The rank-0 shape of a scalar. -/
abbrev S0 : Shape := ⟨0, ![]⟩

/-- The wrap of an index vector of node numbers, kept as a column: row `j` holds the word `v j`. -/
theorem wrap_col {hz hz' : S0.BroadcastsInDim (Sh1 12288) ![]} {hc : (Sh1 12288).BroadcastsInDim (Sh2 12288 1) ![0]}
    {v : IVec (Sh1 12288) 32} {c0 c1 : IVec S0 32} {z t a w : IVec (Sh1 12288) 32} {m : IVec (Sh1 12288) 1}
    {col : IVec (Sh2 12288 1) 32}
    (e0 : c0 = constantI S0 32 0#32) (ez : z = broadcastInDim (Sh1 12288) ![] hz c0) (em : m = cmpi .slt v z)
    (e1 : c1 = constantI S0 32 2048#32) (et : t = broadcastInDim (Sh1 12288) ![] hz' c1) (ea : a = addi v t)
    (ew : w = select m a v) (ecol : col = broadcastInDim (Sh2 12288 1) ![0] hc w)
    (hv : ∀ j, (v (ix1 j)).toNat < 2048) (j : Fin 12288) : col (ix2 j 0) = v (ix1 j) := by
  subst e0 ez em e1 et ea ew ecol
  rw [broadcastInDim_apply _ hc _ (ix2 j 0) (ix1 j) (fun a => by
    match a with
    | ⟨0, _⟩ => exact (if_neg (show ¬ (12288 : ℕ) = 1 by decide)).symm)]
  show Scalar.select (IntOp.cmpi .slt (v (ix1 j)) _) (IntOp.addi (v (ix1 j)) _) (v (ix1 j)) = _
  rw [broadcastInDim_scalar_apply, broadcastInDim_scalar_apply]
  exact wrap_word _ (hv j)

/-- A rank-1 index by its coordinate, in the two spellings the library uses. -/
theorem ofFin_eq_ix1 {n : Nat} (p : Fin n) : (Shape.Idx.ofFin p : (Sh1 n).Idx) = ix1 p := by
  funext a
  obtain rfl : a = 0 := Subsingleton.elim _ _
  rfl
theorem ixP_eq_ix2 {n : Nat} (p : Fin n) : (ixP p : (Sh2 n 1).Idx) = ix2 p 0 := by
  funext a
  match a with
  | ⟨0, _⟩ => rfl
  | ⟨1, _⟩ => rfl

/-- A take from a table over the nodes at a column of node numbers reads the table at the word. -/
theorem gather_node {α : Type} {d : GatherDims (Sh1 2048) (Sh2 12288 1) (Sh1 12288)}
    (hcoll : d.collapsedSliceDims = [0]) (hob : d.operandBatchingDims = []) (hsim : d.startIndexMap = [0])
    (hivd : d.indexVectorDim = 1)
    (x : (Sh1 2048).Idx → α) (col : IVec (Sh2 12288 1) 32) (j : Fin 12288) (hr : (col (ix2 j 0)).toNat < 2048) :
    Host.gather d x col (ix1 j) = x (ix1 ⟨(col (ix2 j 0)).toNat, hr⟩) := by
  have h := gather_take d hcoll hob hsim hivd x col j (by decide)
  have h' : Host.gather d x col (ix1 j) = Host.gather d x col (Shape.Idx.ofFin j) := by rw [ofFin_eq_ix1]
  rw [h', h, ofFin_eq_ix1]
  congr 2
  refine Fin.ext ?_
  show min (col (ixP j)).toInt.toNat (2048 - 1) = _
  rw [ixP_eq_ix2]
  exact clamp_word _ hr

/-! ## The take along the node axis -/

/-- The dimension numbers of a take along axis 1 of a `[16, 2048, C]` array at a column of 12288 start indices. -/
abbrev takeNodeDims (C : Nat)
    (wf : GatherDims.WF (Sh3 16 2048 C) (Sh2 12288 1) (Sh3 16 12288 C) [0, 2] [1] [] [1] [] 1 ![16, 1, C]) :
    GatherDims (Sh3 16 2048 C) (Sh2 12288 1) (Sh3 16 12288 C) where
  offsetDims := [0, 2]
  collapsedSliceDims := [1]
  operandBatchingDims := []
  startIndicesBatchingDims := []
  startIndexMap := [1]
  indexVectorDim := 1
  sliceSizes := ![16, 1, C]
  wf := wf

section TakeNode
variable {C w : Nat}
  (wf : GatherDims.WF (Sh3 16 2048 C) (Sh2 12288 1) (Sh3 16 12288 C) [0, 2] [1] [] [1] [] 1 ![16, 1, C])
  (col : IVec (Sh2 12288 1) w) (b : Fin 16) (j : Fin 12288) (f : Fin C)

theorem take_node_coord0 : ((takeNodeDims C wf).operandIdx (ix3 b j f) col 0).val = b.val := by
  show (takeNodeDims C wf).start (ix3 b j f) col 0 + (takeNodeDims C wf).batchCoord (ix3 b j f) 0
    + (takeNodeDims C wf).offCoord (ix3 b j f) 0 = _
  rw [GatherDims.batchCoord_eq_zero _ _ _ List.not_mem_nil, Nat.add_zero]
  unfold GatherDims.start GatherDims.offCoord
  rw [dif_neg (by simp), dif_pos (by simp [GatherDims.sKept, Shape.kept]), Nat.zero_add]
  rfl

theorem take_node_coord2 : ((takeNodeDims C wf).operandIdx (ix3 b j f) col 2).val = f.val := by
  show (takeNodeDims C wf).start (ix3 b j f) col 2 + (takeNodeDims C wf).batchCoord (ix3 b j f) 2
    + (takeNodeDims C wf).offCoord (ix3 b j f) 2 = _
  rw [GatherDims.batchCoord_eq_zero _ _ _ List.not_mem_nil, Nat.add_zero]
  unfold GatherDims.start GatherDims.offCoord
  rw [dif_neg (by simp), dif_pos (by simp [GatherDims.sKept, Shape.kept]), Nat.zero_add]
  rfl

theorem take_node_coord1 : ((takeNodeDims C wf).operandIdx (ix3 b j f) col 1).val
    = min (col (ix2 j 0)).toInt.toNat (2048 - 1) := by
  show (takeNodeDims C wf).start (ix3 b j f) col 1 + (takeNodeDims C wf).batchCoord (ix3 b j f) 1
    + (takeNodeDims C wf).offCoord (ix3 b j f) 1 = _
  rw [GatherDims.batchCoord_eq_zero _ _ _ List.not_mem_nil, Nat.add_zero,
    GatherDims.offCoord_eq_zero _ _ _ (by simp [GatherDims.sKept, Shape.kept]), Nat.add_zero]
  unfold GatherDims.start
  rw [dif_pos (show (1 : Fin 3) ∈ (takeNodeDims C wf).startIndexMap from List.mem_singleton.mpr rfl)]
  have hsi : (takeNodeDims C wf).siIdx (ix3 b j f) ⟨List.idxOf (1 : Fin 3) (takeNodeDims C wf).startIndexMap,
      List.idxOf_lt_length_iff.2 (List.mem_singleton.mpr rfl)⟩ = ix2 j 0 := by
    funext a; refine Fin.ext ?_
    match a with
    | ⟨0, _⟩ => rfl
    | ⟨1, _⟩ => rfl
  rw [hsi]
  rfl

/-- The take read at `(b, j, f)`: the array at the node the `j`-th word names, read signed and clamped. -/
theorem take_node_apply {α : Type} (x : (Sh3 16 2048 C).Idx → α) :
    Host.gather (takeNodeDims C wf) x col (ix3 b j f)
      = x (ix3 b ⟨min (col (ix2 j 0)).toInt.toNat (2048 - 1), by omega⟩ f) := by
  unfold Host.gather
  refine congrArg x (funext fun a => Fin.ext ?_)
  match a with
  | ⟨0, _⟩ => exact take_node_coord0 wf col b j f
  | ⟨1, _⟩ => exact take_node_coord1 wf col b j f
  | ⟨2, _⟩ => exact take_node_coord2 wf col b j f

/-- At a word that is a node number: the array at that node. -/
theorem take_node {α : Type} (x : (Sh3 16 2048 C).Idx → α) (col32 : IVec (Sh2 12288 1) 32)
    (hr : (col32 (ix2 j 0)).toNat < 2048) :
    Host.gather (takeNodeDims C wf) x col32 (ix3 b j f) = x (ix3 b ⟨(col32 (ix2 j 0)).toNat, hr⟩ f) := by
  rw [take_node_apply]
  exact congrArg (fun p => x (ix3 b p f)) (Fin.ext (clamp_word _ hr))

end TakeNode

/-! ## The scatter-add along the node axis -/

/-- The dimension numbers of a scatter of `[16, 12288, C]` updates into axis 1 of a `[16, 2048, C]` array at a column
    of 12288 indices. -/
abbrev scatNodeDims (C : Nat)
    (wf : ScatterDims.WF (Sh3 16 2048 C) (Sh2 12288 1) (Sh3 16 12288 C) [0, 2] [1] [1] 1) :
    ScatterDims (Sh3 16 2048 C) (Sh2 12288 1) (Sh3 16 12288 C) where
  updateWindowDims := [0, 2]
  insertedWindowDims := [1]
  scatterDimsToOperandDims := [1]
  indexVectorDim := 1
  wf := wf

section ScatNode
variable {C w : Nat}
  (wf : ScatterDims.WF (Sh3 16 2048 C) (Sh2 12288 1) (Sh3 16 12288 C) [0, 2] [1] [1] 1)
  (col : IVec (Sh2 12288 1) w) (b : Fin 16) (j : Fin 12288) (f : Fin C)

theorem scat_node_start0 : (scatNodeDims C wf).start (ix3 b j f) col 0 = 0 := by
  unfold ScatterDims.start
  rw [dif_neg (by simp)]
theorem scat_node_start2 : (scatNodeDims C wf).start (ix3 b j f) col 2 = 0 := by
  unfold ScatterDims.start
  rw [dif_neg (by simp)]
theorem scat_node_start1 : (scatNodeDims C wf).start (ix3 b j f) col 1 = (col (ix2 j 0)).toInt := by
  unfold ScatterDims.start
  rw [dif_pos (show (1 : Fin 3) ∈ (scatNodeDims C wf).scatterDimsToOperandDims from List.mem_singleton.mpr rfl)]
  have hsi : (scatNodeDims C wf).siIdx (ix3 b j f) ⟨List.idxOf (1 : Fin 3) (scatNodeDims C wf).scatterDimsToOperandDims,
      List.idxOf_lt_length_iff.2 (List.mem_singleton.mpr rfl)⟩ = ix2 j 0 := by
    funext a; refine Fin.ext ?_
    match a with
    | ⟨0, _⟩ => rfl
    | ⟨1, _⟩ => rfl
  rw [hsi]
theorem scat_node_window0 : (scatNodeDims C wf).window (ix3 b j f) 0 = b.val := by
  unfold ScatterDims.window
  rw [dif_pos (by simp [ScatterDims.sKept, Shape.kept])]
  rfl
theorem scat_node_window2 : (scatNodeDims C wf).window (ix3 b j f) 2 = f.val := by
  unfold ScatterDims.window
  rw [dif_pos (by simp [ScatterDims.sKept, Shape.kept])]
  rfl
theorem scat_node_window1 : (scatNodeDims C wf).window (ix3 b j f) 1 = 0 := by
  unfold ScatterDims.window
  rw [dif_neg (by simp [ScatterDims.sKept, Shape.kept])]

/-- An update whose index word is a node number lands on that node, at its own batch and channel. -/
theorem scat_node_resultIdx (hr : (col (ix2 j 0)).toNat < 2048) (hw : w = 32) :
    (scatNodeDims C wf).resultIdx? (ix3 b j f) col = some (ix3 b ⟨(col (ix2 j 0)).toNat, hr⟩ f) := by
  subst hw
  have hi : (col (ix2 j 0)).toInt = ((col (ix2 j 0)).toNat : Int) := toInt_eq_toNat_of_lt (by omega)
  have e0 : (scatNodeDims C wf).start (ix3 b j f) col 0 + ((scatNodeDims C wf).window (ix3 b j f) 0 : Int) = (b.val : Int) := by
    rw [scat_node_start0, scat_node_window0, zero_add]
  have e1 : (scatNodeDims C wf).start (ix3 b j f) col 1 + ((scatNodeDims C wf).window (ix3 b j f) 1 : Int)
      = ((col (ix2 j 0)).toNat : Int) := by
    rw [scat_node_start1, scat_node_window1, hi]; simp
  have e2 : (scatNodeDims C wf).start (ix3 b j f) col 2 + ((scatNodeDims C wf).window (ix3 b j f) 2 : Int) = (f.val : Int) := by
    rw [scat_node_start2, scat_node_window2, zero_add]
  have hb := b.isLt
  have hf := f.isLt
  have a0 : 0 ≤ (scatNodeDims C wf).start (ix3 b j f) col 0 + ((scatNodeDims C wf).window (ix3 b j f) 0 : Int)
      ∧ (scatNodeDims C wf).start (ix3 b j f) col 0 + ((scatNodeDims C wf).window (ix3 b j f) 0 : Int) < ((16 : ℕ) : Int) := by
    rw [e0]; omega
  have a1 : 0 ≤ (scatNodeDims C wf).start (ix3 b j f) col 1 + ((scatNodeDims C wf).window (ix3 b j f) 1 : Int)
      ∧ (scatNodeDims C wf).start (ix3 b j f) col 1 + ((scatNodeDims C wf).window (ix3 b j f) 1 : Int) < ((2048 : ℕ) : Int) := by
    rw [e1]; omega
  have a2 : 0 ≤ (scatNodeDims C wf).start (ix3 b j f) col 2 + ((scatNodeDims C wf).window (ix3 b j f) 2 : Int)
      ∧ (scatNodeDims C wf).start (ix3 b j f) col 2 + ((scatNodeDims C wf).window (ix3 b j f) 2 : Int) < ((C : ℕ) : Int) := by
    rw [e2]; omega
  have n0 : ((scatNodeDims C wf).start (ix3 b j f) col 0 + ((scatNodeDims C wf).window (ix3 b j f) 0 : Int)).toNat = b.val := by
    rw [e0]; simp
  have n1 : ((scatNodeDims C wf).start (ix3 b j f) col 1 + ((scatNodeDims C wf).window (ix3 b j f) 1 : Int)).toNat
      = (col (ix2 j 0)).toNat := by
    rw [e1]; simp
  have n2 : ((scatNodeDims C wf).start (ix3 b j f) col 2 + ((scatNodeDims C wf).window (ix3 b j f) 2 : Int)).toNat = f.val := by
    rw [e2]; simp
  have hin : ∀ a, 0 ≤ (scatNodeDims C wf).start (ix3 b j f) col a + ((scatNodeDims C wf).window (ix3 b j f) a : Int)
      ∧ (scatNodeDims C wf).start (ix3 b j f) col a + ((scatNodeDims C wf).window (ix3 b j f) a : Int) < ((Sh3 16 2048 C).size a : Int) := fun a => by
    match a with
    | ⟨0, _⟩ => exact a0
    | ⟨1, _⟩ => exact a1
    | ⟨2, _⟩ => exact a2
  unfold ScatterDims.resultIdx?
  rw [dif_pos hin]
  congr 1
  funext a
  refine Fin.ext ?_
  match a with
  | ⟨0, _⟩ => exact n0
  | ⟨1, _⟩ => exact n1
  | ⟨2, _⟩ => exact n2

/-- The scatter-add read at a node: what the array held there plus the updates of the edges whose word names the node. -/
theorem scatter_node_apply (x : (Sh3 16 2048 C).Idx → EReal) (col32 : IVec (Sh2 12288 1) 32) (upd : (Sh3 16 12288 C).Idx → EReal)
    (hr : ∀ j, (col32 (ix2 j 0)).toNat < 2048) (n : Fin 2048) :
    Host.scatterAdd (F := Ideal) (φ := .f32) (scatNodeDims C wf) x col32 upd (ix3 b n f)
      = x (ix3 b n f) + ∑ j ∈ Finset.univ.filter (fun j => (⟨(col32 (ix2 j 0)).toNat, hr j⟩ : Fin 2048) = n), upd (ix3 b j f) := by
  show Ideal.hostScatterAdd (scatNodeDims C wf) x col32 upd (ix3 b n f) = _
  unfold Ideal.hostScatterAdd
  refine congrArg (x (ix3 b n f) + ·) (Eq.symm ?_)
  refine Finset.sum_bij (fun j _ => ix3 b j f) ?_ ?_ ?_ ?_
  · intro j hj
    rw [Finset.mem_filter] at hj ⊢
    refine ⟨Finset.mem_univ _, ?_⟩
    rw [scat_node_resultIdx wf col32 b j f (hr j) rfl, hj.2]
  · intro j₁ _ j₂ _ h
    exact congrFun h 1
  · intro u hu
    rw [Finset.mem_filter] at hu
    obtain ⟨b', j', f', rfl⟩ : ∃ b' j' f', u = ix3 b' j' f' := ⟨u 0, u 1, u 2, eq_ix3 u⟩
    rw [scat_node_resultIdx wf col32 b' j' f' (hr j') rfl] at hu
    have h := Option.some.inj hu.2
    have h0 : b' = b := congrFun h 0
    have h1 : (⟨(col32 (ix2 j' 0)).toNat, hr j'⟩ : Fin 2048) = n := congrFun h 1
    have h2 : f' = f := congrFun h 2
    subst h0 h2
    exact ⟨j', Finset.mem_filter.mpr ⟨Finset.mem_univ _, h1⟩, rfl⟩
  · intro j _
    rfl

end ScatNode

/-! ## The feature transform -/

/-- The dimension numbers of `[16, 2048, Cin] · [Cin, Cout]` contracted over the channel axis. -/
abbrev dotNodeDims (Cin Cout : Nat)
    (wf : DotDims.WF (Sh3 16 2048 Cin) (Sh2 Cin Cout) (Sh3 16 2048 Cout) [2] [0] [0, 1] [1] [] []) :
    DotDims (Sh3 16 2048 Cin) (Sh2 Cin Cout) (Sh3 16 2048 Cout) where
  lhsContracting := [2]
  rhsContracting := [0]
  lhsNonContracting := [0, 1]
  rhsNonContracting := [1]
  lhsBatch := []
  rhsBatch := []
  wf := wf

section DotNode
variable {Cin Cout : Nat}
  (wf : DotDims.WF (Sh3 16 2048 Cin) (Sh2 Cin Cout) (Sh3 16 2048 Cout) [2] [0] [0, 1] [1] [] [])

theorem dot_node_lhs0 (i : (Sh3 16 2048 Cout).Idx) (q : (dotNodeDims Cin Cout wf).contr.Idx) :
    ((dotNodeDims Cin Cout wf).lhsIdx i q 0).val = (i 0).val := by
  unfold DotDims.lhsIdx
  rw [dif_neg (by simp), dif_pos (by simp)]
  rfl
theorem dot_node_lhs1 (i : (Sh3 16 2048 Cout).Idx) (q : (dotNodeDims Cin Cout wf).contr.Idx) :
    ((dotNodeDims Cin Cout wf).lhsIdx i q 1).val = (i 1).val := by
  unfold DotDims.lhsIdx
  rw [dif_neg (by simp), dif_pos (by simp)]
  rfl
theorem dot_node_lhs2 (i : (Sh3 16 2048 Cout).Idx) (q : (dotNodeDims Cin Cout wf).contr.Idx) :
    ((dotNodeDims Cin Cout wf).lhsIdx i q 2).val = (q ⟨0, Nat.one_pos⟩).val :=
  (dotNodeDims Cin Cout wf).lhsIdx_val_of_single rfl i q
theorem dot_node_rhs0 (i : (Sh3 16 2048 Cout).Idx) (q : (dotNodeDims Cin Cout wf).contr.Idx) :
    ((dotNodeDims Cin Cout wf).rhsIdx i q 0).val = (q ⟨0, Nat.one_pos⟩).val :=
  (dotNodeDims Cin Cout wf).rhsIdx_val_of_single rfl i q
theorem dot_node_rhs1 (i : (Sh3 16 2048 Cout).Idx) (q : (dotNodeDims Cin Cout wf).contr.Idx) :
    ((dotNodeDims Cin Cout wf).rhsIdx i q 1).val = (i 2).val := by
  unfold DotDims.rhsIdx
  rw [dif_neg (by simp), dif_pos (by simp)]
  rfl

/-- The product read at `(b, n, f)`: the sum over the input channels. -/
theorem dot_node_apply (X : (Sh3 16 2048 Cin).Idx → EReal) (W : (Sh2 Cin Cout).Idx → EReal)
    (b : Fin 16) (n : Fin 2048) (f : Fin Cout) :
    Host.dotGeneral (F := Ideal) (φ₁ := .f32) (φ₂ := .f32) (dotNodeDims Cin Cout wf) none X W (ix3 b n f)
      = ∑ k : Fin Cin, X (ix3 b n k) * W (ix2 k f) := by
  simp only [Host.dotGeneral]
  rw [Ideal.dotGeneral_apply, ← Equiv.sum_comp (contrEquiv1 (dotNodeDims Cin Cout wf) Cin rfl rfl).symm]
  refine Finset.sum_congr rfl fun k _ => ?_
  have hk := contrEquiv1_symm_val (dotNodeDims Cin Cout wf) Cin rfl rfl k
  have el : (dotNodeDims Cin Cout wf).lhsIdx (ix3 b n f) ((contrEquiv1 (dotNodeDims Cin Cout wf) Cin rfl rfl).symm k)
      = ix3 b n k := funext fun a => Fin.ext (by
    match a with
    | ⟨0, _⟩ => exact dot_node_lhs0 wf _ _
    | ⟨1, _⟩ => exact dot_node_lhs1 wf _ _
    | ⟨2, _⟩ => exact (dot_node_lhs2 wf _ _).trans hk)
  have er : (dotNodeDims Cin Cout wf).rhsIdx (ix3 b n f) ((contrEquiv1 (dotNodeDims Cin Cout wf) Cin rfl rfl).symm k)
      = ix2 k f := funext fun a => Fin.ext (by
    match a with
    | ⟨0, _⟩ => exact (dot_node_rhs0 wf _ _).trans hk
    | ⟨1, _⟩ => exact dot_node_rhs1 wf _ _)
  rw [el, er]

end DotNode

/-! ## The head's dense product -/

/-- The dimension numbers of `[16, K] · [K, N]`. -/
abbrev dotFlatDims (K N : Nat) (wf : DotDims.WF (Sh2 16 K) (Sh2 K N) (Sh2 16 N) [1] [0] [0] [1] [] []) :
    DotDims (Sh2 16 K) (Sh2 K N) (Sh2 16 N) where
  lhsContracting := [1]
  rhsContracting := [0]
  lhsNonContracting := [0]
  rhsNonContracting := [1]
  lhsBatch := []
  rhsBatch := []
  wf := wf

section DotFlat
variable {K N : Nat} (wf : DotDims.WF (Sh2 16 K) (Sh2 K N) (Sh2 16 N) [1] [0] [0] [1] [] [])

theorem dot_flat_lhs0 (i : (Sh2 16 N).Idx) (q : (dotFlatDims K N wf).contr.Idx) :
    ((dotFlatDims K N wf).lhsIdx i q 0).val = (i 0).val := by
  unfold DotDims.lhsIdx
  rw [dif_neg (by simp), dif_pos (by simp)]
  rfl
theorem dot_flat_lhs1 (i : (Sh2 16 N).Idx) (q : (dotFlatDims K N wf).contr.Idx) :
    ((dotFlatDims K N wf).lhsIdx i q 1).val = (q ⟨0, Nat.one_pos⟩).val :=
  (dotFlatDims K N wf).lhsIdx_val_of_single rfl i q
theorem dot_flat_rhs0 (i : (Sh2 16 N).Idx) (q : (dotFlatDims K N wf).contr.Idx) :
    ((dotFlatDims K N wf).rhsIdx i q 0).val = (q ⟨0, Nat.one_pos⟩).val :=
  (dotFlatDims K N wf).rhsIdx_val_of_single rfl i q
theorem dot_flat_rhs1 (i : (Sh2 16 N).Idx) (q : (dotFlatDims K N wf).contr.Idx) :
    ((dotFlatDims K N wf).rhsIdx i q 1).val = (i 1).val := by
  unfold DotDims.rhsIdx
  rw [dif_neg (by simp), dif_pos (by simp)]
  rfl

theorem dot_flat_apply (X : (Sh2 16 K).Idx → EReal) (W : (Sh2 K N).Idx → EReal) (b : Fin 16) (c : Fin N) :
    Host.dotGeneral (F := Ideal) (φ₁ := .f32) (φ₂ := .f32) (dotFlatDims K N wf) none X W (ix2 b c)
      = ∑ k : Fin K, X (ix2 b k) * W (ix2 k c) := by
  simp only [Host.dotGeneral]
  rw [Ideal.dotGeneral_apply, ← Equiv.sum_comp (contrEquiv1 (dotFlatDims K N wf) K rfl rfl).symm]
  refine Finset.sum_congr rfl fun k _ => ?_
  have hk := contrEquiv1_symm_val (dotFlatDims K N wf) K rfl rfl k
  have el : (dotFlatDims K N wf).lhsIdx (ix2 b c) ((contrEquiv1 (dotFlatDims K N wf) K rfl rfl).symm k) = ix2 b k :=
    funext fun a => Fin.ext (by
      match a with
      | ⟨0, _⟩ => exact dot_flat_lhs0 wf _ _
      | ⟨1, _⟩ => exact (dot_flat_lhs1 wf _ _).trans hk)
  have er : (dotFlatDims K N wf).rhsIdx (ix2 b c) ((contrEquiv1 (dotFlatDims K N wf) K rfl rfl).symm k) = ix2 k c :=
    funext fun a => Fin.ext (by
      match a with
      | ⟨0, _⟩ => exact (dot_flat_rhs0 wf _ _).trans hk
      | ⟨1, _⟩ => exact dot_flat_rhs1 wf _ _)
  rw [el, er]

end DotFlat

/-! ## The in-range mask of a take -/

theorem foldl_andi_one {ι : Type} (g : ι → BitVec 1) (hg : ∀ i, g i = 1#1) :
    ∀ l : List ι, l.foldl (fun r i => IntOp.andi r (g i)) 1#1 = 1#1
  | [] => rfl
  | a :: l => by
    rw [List.foldl_cons, hg a, show IntOp.andi 1#1 1#1 = 1#1 by decide]
    exact foldl_andi_one g hg l

/-- The mask `0 ≤ w ≤ 2047` of a column of node numbers, reduced along the column's unit axis and laid along the
    edge axis of a `[16, 12288, C]` array, is one everywhere. -/
theorem mask_ones {C : Nat} {hb0 : S0.BroadcastsInDim (Sh2 12288 1) ![]} {hb1 : (Sh1 1).BroadcastsInDim (Sh2 1 1) ![1]}
    {hb2 : (Sh2 1 1).BroadcastsInDim (Sh2 12288 1) ![0, 1]} {hred : (Sh2 12288 1).ReducesTo [1] (Sh1 12288)}
    {hu : 0 < S0.numel} {hb3 : (Sh1 12288).BroadcastsInDim (Sh3 16 12288 C) ![1]}
    {col v6 v9 : IVec (Sh2 12288 1) 32} {c2 : IVec S0 32} {c1 : IVec (Sh1 1) 32} {v8 : IVec (Sh2 1 1) 32}
    {v7 v10 v11 : IVec (Sh2 12288 1) 1} {c3 : IVec S0 1} {v12 : IVec (Sh1 12288) 1} {v14 : IVec (Sh3 16 12288 C) 1}
    (e_c1 : c1 = constantI (Sh1 1) 32 2047#32) (e_c2 : c2 = constantI S0 32 0#32)
    (e6 : v6 = broadcastInDim (Sh2 12288 1) ![] hb0 c2) (e7 : v7 = cmpi .sge col v6)
    (e8 : v8 = broadcastInDim (Sh2 1 1) ![1] hb1 c1) (e9 : v9 = broadcastInDim (Sh2 12288 1) ![0, 1] hb2 v8)
    (e10 : v10 = cmpi .sle col v9) (e11 : v11 = andi v7 v10) (e_c3 : c3 = constantI S0 1 1#1)
    (e12 : v12 = Host.reduce IntOp.andi v11 c3 hred hu) (e14 : v14 = broadcastInDim (Sh3 16 12288 C) ![1] hb3 v12)
    (hr : ∀ j, (col (ix2 j 0)).toNat < 2048) (i : (Sh3 16 12288 C).Idx) : v14 i = 1#1 := by
  subst e_c1 e_c2 e6 e7 e8 e9 e10 e11 e_c3 e12 e14
  unfold broadcastInDim
  rw [Host.reduce_eq_foldl]
  refine foldl_andi_one _ (fun i' => ?_) _
  obtain ⟨p, q, rfl⟩ : ∃ p q, i' = ix2 p q := ⟨i' 0, i' 1, eq_ix2 i'⟩
  obtain rfl : q = 0 := Subsingleton.elim _ _
  exact inb_word _ (hr p)

/-! ## Broadcasts of a vector along one axis of a rank-3 array -/

/-- A vector laid along the middle axis: `[n] → [1, n, 1] → [16, n, C]` reads the vector at the middle coordinate. -/
theorem bcast_mid {α : Type} {n C : Nat} {h1 : (Sh1 n).BroadcastsInDim (Sh3 1 n 1) ![1]}
    {h2 : (Sh3 1 n 1).BroadcastsInDim (Sh3 16 n C) ![0, 1, 2]} (v : (Sh1 n).Idx → α) (b : Fin 16) (p : Fin n) (f : Fin C) :
    broadcastInDim (Sh3 16 n C) ![0, 1, 2] h2 (broadcastInDim (Sh3 1 n 1) ![1] h1 v) (ix3 b p f) = v (ix1 p) := by
  have hp := p.isLt
  rw [broadcastInDim_apply _ h2 _ (ix3 b p f) (ix3 0 p 0) (fun a => by
    match a with
    | ⟨0, _⟩ => exact (if_pos rfl).symm
    | ⟨1, _⟩ => show p.val = if n = 1 then 0 else p.val; split <;> omega
    | ⟨2, _⟩ => exact (if_pos rfl).symm)]
  rw [broadcastInDim_apply _ h1 _ (ix3 0 p 0) (ix1 p) (fun a => by
    match a with
    | ⟨0, _⟩ => show p.val = if n = 1 then 0 else p.val; split <;> omega)]

/-- A vector laid along the last axis: `[C] → [1, 1, C] → [16, n, C]` reads the vector at the last coordinate. -/
theorem bcast_last {α : Type} {n C : Nat} {h1 : (Sh1 C).BroadcastsInDim (Sh3 1 1 C) ![2]}
    {h2 : (Sh3 1 1 C).BroadcastsInDim (Sh3 16 n C) ![0, 1, 2]} (v : (Sh1 C).Idx → α) (b : Fin 16) (p : Fin n) (f : Fin C) :
    broadcastInDim (Sh3 16 n C) ![0, 1, 2] h2 (broadcastInDim (Sh3 1 1 C) ![2] h1 v) (ix3 b p f) = v (ix1 f) := by
  have hf := f.isLt
  rw [broadcastInDim_apply _ h2 _ (ix3 b p f) (ix3 0 0 f) (fun a => by
    match a with
    | ⟨0, _⟩ => exact (if_pos rfl).symm
    | ⟨1, _⟩ => exact (if_pos rfl).symm
    | ⟨2, _⟩ => show f.val = if C = 1 then 0 else f.val; split <;> omega)]
  rw [broadcastInDim_apply _ h1 _ (ix3 0 0 f) (ix1 f) (fun a => by
    match a with
    | ⟨0, _⟩ => show f.val = if C = 1 then 0 else f.val; split <;> omega)]

/-- The head's bias: `[N] → [1, N] → [16, N]` reads the vector at the column. -/
theorem bcast_row {α : Type} {N : Nat} {h1 : (Sh1 N).BroadcastsInDim (Sh2 1 N) ![1]}
    {h2 : (Sh2 1 N).BroadcastsInDim (Sh2 16 N) ![0, 1]} (v : (Sh1 N).Idx → α) (b : Fin 16) (c : Fin N) :
    broadcastInDim (Sh2 16 N) ![0, 1] h2 (broadcastInDim (Sh2 1 N) ![1] h1 v) (ix2 b c) = v (ix1 c) := by
  have hc := c.isLt
  rw [broadcastInDim_apply _ h2 _ (ix2 b c) (ix2 0 c) (fun a => by
    match a with
    | ⟨0, _⟩ => exact (if_pos rfl).symm
    | ⟨1, _⟩ => show c.val = if N = 1 then 0 else c.val; split <;> omega)]
  rw [broadcastInDim_apply _ h1 _ (ix2 0 c) (ix1 c) (fun a => by
    match a with
    | ⟨0, _⟩ => show c.val = if N = 1 then 0 else c.val; split <;> omega)]

/-! ## The leaky rectifier -/

/-- `select (y ≥ 0) y (0.01 · y)` at one element. -/
theorem leaky_word (y : EReal) :
    Scalar.select (Ideal.cmp .oge y (Ideal.ofBits .f32 0x00000000#32)) y (Ideal.ofBits .f32 0x3C23D70A#32 * y) = leaky y := by
  rw [Ideal.ofBits_zero_f32]
  unfold Ideal.cmp leaky
  by_cases h : (0 : EReal) ≤ y
  · rw [if_pos h]
    simp only [h, decide_true, BitVec.ofBool_true]
    exact select_one _ _
  · rw [if_neg h]
    simp only [h, decide_false, BitVec.ofBool_false]
    exact select_zero _ _

/-! ## The scatter-add of the degree count -/

/-- The dimension numbers of a scatter of 12288 scalars into a vector over the nodes at a column of indices. -/
abbrev scatDegDims (wf : ScatterDims.WF (Sh1 2048) (Sh2 12288 1) (Sh1 12288) [] [0] [0] 1) :
    ScatterDims (Sh1 2048) (Sh2 12288 1) (Sh1 12288) where
  updateWindowDims := []
  insertedWindowDims := [0]
  scatterDimsToOperandDims := [0]
  indexVectorDim := 1
  wf := wf

section ScatDeg
variable (wf : ScatterDims.WF (Sh1 2048) (Sh2 12288 1) (Sh1 12288) [] [0] [0] 1)
  (col : IVec (Sh2 12288 1) 32) (j : Fin 12288)

theorem scat_deg_start : (scatDegDims wf).start (ix1 j) col 0 = (col (ix2 j 0)).toInt := by
  unfold ScatterDims.start
  rw [dif_pos (show (0 : Fin 1) ∈ (scatDegDims wf).scatterDimsToOperandDims from List.mem_singleton.mpr rfl)]
  have hsi : (scatDegDims wf).siIdx (ix1 j) ⟨List.idxOf (0 : Fin 1) (scatDegDims wf).scatterDimsToOperandDims,
      List.idxOf_lt_length_iff.2 (List.mem_singleton.mpr rfl)⟩ = ix2 j 0 := by
    funext a; refine Fin.ext ?_
    match a with
    | ⟨0, _⟩ => rfl
    | ⟨1, _⟩ => rfl
  rw [hsi]
theorem scat_deg_window : (scatDegDims wf).window (ix1 j) 0 = 0 := by
  unfold ScatterDims.window
  rw [dif_neg (by simp [ScatterDims.sKept, Shape.kept])]

theorem scat_deg_resultIdx (hr : (col (ix2 j 0)).toNat < 2048) :
    (scatDegDims wf).resultIdx? (ix1 j) col = some (ix1 ⟨(col (ix2 j 0)).toNat, hr⟩) := by
  have hi : (col (ix2 j 0)).toInt = ((col (ix2 j 0)).toNat : Int) := toInt_eq_toNat_of_lt (by omega)
  have e0 : (scatDegDims wf).start (ix1 j) col 0 + ((scatDegDims wf).window (ix1 j) 0 : Int)
      = ((col (ix2 j 0)).toNat : Int) := by
    rw [scat_deg_start, scat_deg_window, hi]; simp
  have a0 : 0 ≤ (scatDegDims wf).start (ix1 j) col 0 + ((scatDegDims wf).window (ix1 j) 0 : Int)
      ∧ (scatDegDims wf).start (ix1 j) col 0 + ((scatDegDims wf).window (ix1 j) 0 : Int) < ((2048 : ℕ) : Int) := by
    rw [e0]; omega
  have n0 : ((scatDegDims wf).start (ix1 j) col 0 + ((scatDegDims wf).window (ix1 j) 0 : Int)).toNat
      = (col (ix2 j 0)).toNat := by
    rw [e0]; simp
  have hin : ∀ a, 0 ≤ (scatDegDims wf).start (ix1 j) col a + ((scatDegDims wf).window (ix1 j) a : Int)
      ∧ (scatDegDims wf).start (ix1 j) col a + ((scatDegDims wf).window (ix1 j) a : Int) < ((Sh1 2048).size a : Int) := fun a => by
    match a with
    | ⟨0, _⟩ => exact a0
  unfold ScatterDims.resultIdx?
  rw [dif_pos hin]
  refine congrArg some (funext fun a => Fin.ext ?_)
  match a with
  | ⟨0, _⟩ => exact n0

/-- The count read at a node: what the vector held there plus the updates of the edges whose word names the node. -/
theorem scatter_deg_apply (x : (Sh1 2048).Idx → EReal) (upd : (Sh1 12288).Idx → EReal)
    (hr : ∀ j, (col (ix2 j 0)).toNat < 2048) (n : Fin 2048) :
    Host.scatterAdd (F := Ideal) (φ := .f32) (scatDegDims wf) x col upd (ix1 n)
      = x (ix1 n) + ∑ j ∈ Finset.univ.filter (fun j => (⟨(col (ix2 j 0)).toNat, hr j⟩ : Fin 2048) = n), upd (ix1 j) := by
  show Ideal.hostScatterAdd (scatDegDims wf) x col upd (ix1 n) = _
  unfold Ideal.hostScatterAdd
  refine congrArg (x (ix1 n) + ·) (Eq.symm ?_)
  refine Finset.sum_bij (fun j _ => ix1 j) ?_ ?_ ?_ ?_
  · intro j hj
    rw [Finset.mem_filter] at hj ⊢
    refine ⟨Finset.mem_univ _, ?_⟩
    rw [scat_deg_resultIdx wf col j (hr j), hj.2]
  · intro j₁ _ j₂ _ h
    exact congrFun h 0
  · intro u hu
    rw [Finset.mem_filter] at hu
    obtain ⟨j', rfl⟩ : ∃ j', u = ix1 j' := ⟨u 0, eq_ix1 u⟩
    rw [scat_deg_resultIdx wf col j' (hr j')] at hu
    have h := Option.some.inj hu.2
    have h1 : (⟨(col (ix2 j' 0)).toNat, hr j'⟩ : Fin 2048) = n := congrFun h 0
    exact ⟨j', Finset.mem_filter.mpr ⟨Finset.mem_univ _, h1⟩, rfl⟩
  · intro j _
    rfl

end ScatDeg

end Cert.ReferenceIdeal.Hand

end
-- ==== Proof.Ref.Layer.lean ====
/-
  One graph-convolution layer of the reference, generic in its channel counts: from the equations that say what each
  operation of the layer computes from its operands, the layer's result buffer holds the specification's layer
  (the edge-list form) of the layer's input, weights and bias. The rectifier after the odd layers likewise.
-/
import proofs.«421025_j30305289241172_1_alg».proof.Proof.Ref.LayerIdx

noncomputable section

open scoped BigOperators

namespace Cert.ReferenceIdeal.Hand

open Idealize.ShloMosaic Idealize.ShloMosaic.ValueIdx Idealize.ShloMosaic.StableHlo.Predicate Cert.Spec

/-! ## Words of the edge array as nodes -/

section Edge
variable {e : (Sh2 2 12288).Idx → BitVec 32}

theorem node_src {j : Fin 12288} {c : BitVec 32} (hc : c = e (ix2 0 j)) (hr : c.toNat < 2048) :
    (⟨c.toNat, hr⟩ : Fin 2048) = srcOf e j := by
  subst hc
  exact Fin.ext (Nat.mod_eq_of_lt hr).symm

theorem node_dst {j : Fin 12288} {c : BitVec 32} (hc : c = e (ix2 1 j)) (hr : c.toNat < 2048) :
    (⟨c.toNat, hr⟩ : Fin 2048) = dstOf e j := by
  subst hc
  exact Fin.ext (Nat.mod_eq_of_lt hr).symm

/-- The wrap of a row of the edge array, kept as a column: row `j` holds the edge's word. -/
theorem wrap_col_edge {hz hz' : S0.BroadcastsInDim (Sh1 12288) ![]} {hc : (Sh1 12288).BroadcastsInDim (Sh2 12288 1) ![0]}
    {v : IVec (Sh1 12288) 32} {c0 c1 : IVec S0 32} {z t a w : IVec (Sh1 12288) 32} {m : IVec (Sh1 12288) 1}
    {col : IVec (Sh2 12288 1) 32} (he : InRange e) {r : Fin 2} (hv : ∀ j, v (ix1 j) = e (ix2 r j))
    (e0 : c0 = constantI S0 32 0#32) (ez : z = broadcastInDim (Sh1 12288) ![] hz c0) (em : m = cmpi .slt v z)
    (e1 : c1 = constantI S0 32 2048#32) (et : t = broadcastInDim (Sh1 12288) ![] hz' c1) (ea : a = addi v t)
    (ew : w = select m a v) (ecol : col = broadcastInDim (Sh2 12288 1) ![0] hc w) (j : Fin 12288) :
    col (ix2 j 0) = e (ix2 r j) :=
  (wrap_col e0 ez em e1 et ea ew ecol (fun j => by rw [hv j]; exact he _) j).trans (hv j)

end Edge

/-! ## One graph-convolution layer -/

section Layer
variable {Cin Cout : Nat}
  (wfD : DotDims.WF (Sh3 16 2048 Cin) (Sh2 Cin Cout) (Sh3 16 2048 Cout) [2] [0] [0, 1] [1] [] [])
  (wfG : GatherDims.WF (Sh3 16 2048 Cout) (Sh2 12288 1) (Sh3 16 12288 Cout) [0, 2] [1] [] [1] [] 1 ![16, 1, Cout])
  (wfS : ScatterDims.WF (Sh3 16 2048 Cout) (Sh2 12288 1) (Sh3 16 12288 Cout) [0, 2] [1] [1] 1)
  {dG : GatherDims (Sh1 2048) (Sh2 12288 1) (Sh1 12288)}
  (hcoll : dG.collapsedSliceDims = [0]) (hob : dG.operandBatchingDims = []) (hsim : dG.startIndexMap = [0])
  (hivd : dG.indexVectorDim = 1)
  {e : (Sh2 2 12288).Idx → BitVec 32} (he : InRange e)

include he hcoll hob hsim hivd in
/-- The edge weight: the product of the two endpoints' inverse square-root degrees. -/
theorem norm_value {v15 : (Sh1 2048).Idx → EReal} {v24 v31 : IVec (Sh2 12288 1) 32} {v25 v32 v33 : (Sh1 12288).Idx → EReal}
    (w24 : ∀ j, v24 (ix2 j 0) = e (ix2 0 j)) (w31 : ∀ j, v31 (ix2 j 0) = e (ix2 1 j))
    (e25 : v25 = Host.gather dG v15 v24) (e32 : v32 = Host.gather dG v15 v31)
    (e33 : v33 = mulf (F := Ideal) (φ := .f32) v25 v32) (h15 : v15 = arr1 (isd (dstOf e))) (j : Fin 12288) :
    v33 (ix1 j) = isd (dstOf e) (srcOf e j) * isd (dstOf e) (dstOf e j) := by
  subst e25 e32 e33 h15
  have r24 : (v24 (ix2 j 0)).toNat < 2048 := by rw [w24 j]; exact he _
  have r31 : (v31 (ix2 j 0)).toNat < 2048 := by rw [w31 j]; exact he _
  show Host.gather dG _ v24 (ix1 j) * Host.gather dG _ v31 (ix1 j) = _
  rw [gather_node hcoll hob hsim hivd _ v24 j r24, gather_node hcoll hob hsim hivd _ v31 j r31]
  show isd (dstOf e) ⟨(v24 (ix2 j 0)).toNat, r24⟩ * isd (dstOf e) ⟨(v31 (ix2 j 0)).toNat, r31⟩ = _
  rw [node_src (w24 j) r24, node_dst (w31 j) r31]

include he in
/-- The take of the transformed features at the sources: edge `j` reads its source node. -/
theorem take_value {v18 : (Sh3 16 2048 Cout).Idx → EReal} {col5 : IVec (Sh2 12288 1) 32}
    {v13 vnan v34 : (Sh3 16 12288 Cout).Idx → EReal} {v14 : IVec (Sh3 16 12288 Cout) 1}
    (w5 : ∀ j, col5 (ix2 j 0) = e (ix2 0 j)) (e13 : v13 = Host.gather (takeNodeDims Cout wfG) v18 col5)
    (m14 : ∀ i, v14 i = 1#1) (e34 : v34 = select v14 v13 vnan) (b : Fin 16) (j : Fin 12288) (f : Fin Cout) :
    v34 (ix3 b j f) = v18 (ix3 b (srcOf e j) f) := by
  subst e13 e34
  have r5 : (col5 (ix2 j 0)).toNat < 2048 := by rw [w5 j]; exact he _
  show Scalar.select (v14 _) (Host.gather _ v18 col5 (ix3 b j f)) _ = _
  rw [m14, select_one, take_node wfG b j f v18 col5 r5, node_src (w5 j) r5]

include he in
/-- The aggregation: at node `n` the sum, over the edges that end there, of the message times the edge weight. -/
theorem agg_value {h1n : (Sh1 12288).BroadcastsInDim (Sh3 1 12288 1) ![1]}
    {h2n : (Sh3 1 12288 1).BroadcastsInDim (Sh3 16 12288 Cout) ![0, 1, 2]} {hz : S0.BroadcastsInDim (Sh3 16 2048 Cout) ![]}
    {v33 : (Sh1 12288).Idx → EReal} {v34 v36 v37 : (Sh3 16 12288 Cout).Idx → EReal} {v35 : (Sh3 1 12288 1).Idx → EReal}
    {cst8 : S0.Idx → EReal} {v38 v45 : (Sh3 16 2048 Cout).Idx → EReal} {v44 : IVec (Sh2 12288 1) 32}
    (e35 : v35 = broadcastInDim (Sh3 1 12288 1) ![1] h1n v33)
    (e36 : v36 = broadcastInDim (Sh3 16 12288 Cout) ![0, 1, 2] h2n v35)
    (e37 : v37 = mulf (F := Ideal) (φ := .f32) v34 v36)
    (ec8 : cst8 = constant (F := Ideal) S0 .f32 0x00000000#32)
    (e38 : v38 = broadcastInDim (Sh3 16 2048 Cout) ![] hz cst8)
    (w44 : ∀ j, v44 (ix2 j 0) = e (ix2 1 j))
    (e45 : v45 = Host.scatterAdd (F := Ideal) (φ := .f32) (scatNodeDims Cout wfS) v38 v44 v37)
    (b : Fin 16) (n : Fin 2048) (f : Fin Cout) :
    v45 (ix3 b n f) = ∑ j ∈ Finset.univ.filter (fun j => dstOf e j = n), v34 (ix3 b j f) * v33 (ix1 j) := by
  subst e35 e36 e37 ec8 e38 e45
  have r44 : ∀ j, (v44 (ix2 j 0)).toNat < 2048 := fun j => by rw [w44 j]; exact he _
  rw [scatter_node_apply wfS b f _ v44 _ r44 n, broadcastInDim_scalar_apply]
  show Ideal.ofBits .f32 0x00000000#32 + _ = _
  rw [Ideal.ofBits_zero_f32, zero_add]
  have hset : Finset.univ.filter (fun j => (⟨(v44 (ix2 j 0)).toNat, r44 j⟩ : Fin 2048) = n)
      = Finset.univ.filter (fun j => dstOf e j = n) :=
    Finset.filter_congr (fun j _ => by rw [node_dst (w44 j) (r44 j)])
  rw [hset]
  refine Finset.sum_congr rfl fun j _ => ?_
  show v34 (ix3 b j f) * broadcastInDim _ _ h2n (broadcastInDim _ _ h1n v33) (ix3 b j f) = _
  rw [bcast_mid]

include he hcoll hob hsim hivd in
/-- A layer without the rectifier: its result buffer holds the specification's layer of its inputs. -/
theorem layer_value
    {h1n : (Sh1 12288).BroadcastsInDim (Sh3 1 12288 1) ![1]}
    {h2n : (Sh3 1 12288 1).BroadcastsInDim (Sh3 16 12288 Cout) ![0, 1, 2]} {hz : S0.BroadcastsInDim (Sh3 16 2048 Cout) ![]}
    {h1m : (Sh1 2048).BroadcastsInDim (Sh3 1 2048 1) ![1]}
    {h2m : (Sh3 1 2048 1).BroadcastsInDim (Sh3 16 2048 Cout) ![0, 1, 2]}
    {h1b : (Sh1 Cout).BroadcastsInDim (Sh3 1 1 Cout) ![2]}
    {h2b : (Sh3 1 1 Cout).BroadcastsInDim (Sh3 16 2048 Cout) ![0, 1, 2]}
    {Xb X : (Sh3 16 2048 Cin).Idx → EReal} {Wb W : (Sh2 Cin Cout).Idx → EReal} {bb bv : (Sh1 Cout).Idx → EReal}
    {v15 v17 : (Sh1 2048).Idx → EReal} {v18 : (Sh3 16 2048 Cout).Idx → EReal}
    {v24 v31 col5 v44 : IVec (Sh2 12288 1) 32} {v25 v32 v33 : (Sh1 12288).Idx → EReal}
    {v13 vnan v34 v36 v37 : (Sh3 16 12288 Cout).Idx → EReal} {v14 : IVec (Sh3 16 12288 Cout) 1}
    {v35 : (Sh3 1 12288 1).Idx → EReal} {cst8 : S0.Idx → EReal} {v38 v45 v47 v48 v49 v51 v52 : (Sh3 16 2048 Cout).Idx → EReal}
    {v46 : (Sh3 1 2048 1).Idx → EReal} {v50 : (Sh3 1 1 Cout).Idx → EReal}
    (hX : Xb = X) (hW : Wb = W) (hbv : bb = bv)
    (h15 : v15 = arr1 (isd (dstOf e))) (h17 : v17 = arr1 (invd (dstOf e)))
    (e18 : v18 = Host.dotGeneral (F := Ideal) (φ₁ := .f32) (φ₂ := .f32) (dotNodeDims Cin Cout wfD) none Xb Wb)
    (w24 : ∀ j, v24 (ix2 j 0) = e (ix2 0 j)) (e25 : v25 = Host.gather dG v15 v24)
    (w31 : ∀ j, v31 (ix2 j 0) = e (ix2 1 j)) (e32 : v32 = Host.gather dG v15 v31)
    (e33 : v33 = mulf (F := Ideal) (φ := .f32) v25 v32)
    (w5 : ∀ j, col5 (ix2 j 0) = e (ix2 0 j)) (e13 : v13 = Host.gather (takeNodeDims Cout wfG) v18 col5)
    (m14 : ∀ i, v14 i = 1#1) (e34 : v34 = select v14 v13 vnan)
    (e35 : v35 = broadcastInDim (Sh3 1 12288 1) ![1] h1n v33)
    (e36 : v36 = broadcastInDim (Sh3 16 12288 Cout) ![0, 1, 2] h2n v35)
    (e37 : v37 = mulf (F := Ideal) (φ := .f32) v34 v36)
    (ec8 : cst8 = constant (F := Ideal) S0 .f32 0x00000000#32)
    (e38 : v38 = broadcastInDim (Sh3 16 2048 Cout) ![] hz cst8)
    (w44 : ∀ j, v44 (ix2 j 0) = e (ix2 1 j))
    (e45 : v45 = Host.scatterAdd (F := Ideal) (φ := .f32) (scatNodeDims Cout wfS) v38 v44 v37)
    (e46 : v46 = broadcastInDim (Sh3 1 2048 1) ![1] h1m v17)
    (e47 : v47 = broadcastInDim (Sh3 16 2048 Cout) ![0, 1, 2] h2m v46)
    (e48 : v48 = mulf (F := Ideal) (φ := .f32) v18 v47) (e49 : v49 = addf (F := Ideal) (φ := .f32) v45 v48)
    (e50 : v50 = broadcastInDim (Sh3 1 1 Cout) ![2] h1b bb)
    (e51 : v51 = broadcastInDim (Sh3 16 2048 Cout) ![0, 1, 2] h2b v50)
    (e52 : v52 = addf (F := Ideal) (φ := .f32) v49 v51) :
    v52 = layer false e X W bv := by
  subst hX hW hbv
  funext i
  obtain ⟨b, n, f, rfl⟩ : ∃ b n f, i = ix3 b n f := ⟨i 0, i 1, i 2, eq_ix3 i⟩
  have hagg := agg_value wfS he e35 e36 e37 ec8 e38 w44 e45 b n f
  have hnorm := norm_value hcoll hob hsim hivd he w24 w31 e25 e32 e33 h15
  have htake := take_value wfG he w5 e13 m14 e34 b
  have hfeat : ∀ n', v18 (ix3 b n' f) = feat Xb Wb b n' f := fun n' => by
    rw [e18]; exact dot_node_apply wfD Xb Wb b n' f
  subst e46 e47 e48 e49 e50 e51 e52 h17
  show (v45 (ix3 b n f) + v18 (ix3 b n f) * broadcastInDim _ _ h2m (broadcastInDim _ _ h1m _) (ix3 b n f))
    + broadcastInDim _ _ h2b (broadcastInDim _ _ h1b bb) (ix3 b n f) = _
  rw [bcast_mid, bcast_last, hagg, hfeat n]
  show _ = ((∑ j ∈ Finset.univ.filter (fun j => dstOf e j = n),
      feat Xb Wb b (srcOf e j) f * (isd (dstOf e) (srcOf e j) * isd (dstOf e) (dstOf e j)))
    + feat Xb Wb b n f * invd (dstOf e) n) + bb (ix1 f)
  refine congrArg (fun s => (s + feat Xb Wb b n f * invd (dstOf e) n) + bb (ix1 f)) ?_
  refine Finset.sum_congr rfl fun j _ => ?_
  rw [htake j f, hnorm j, hfeat]

/-- The rectifier after a layer: the same layer with the rectifier. -/
theorem leaky_value {hz : S0.BroadcastsInDim (Sh3 16 2048 Cout) ![]} {hz' : S0.BroadcastsInDim (Sh3 16 2048 Cout) ![]}
    {X : (Sh3 16 2048 Cin).Idx → EReal} {W : (Sh2 Cin Cout).Idx → EReal} {bv : (Sh1 Cout).Idx → EReal}
    {c0 c1 : S0.Idx → EReal} {v87 v88 v90 v91 v92 : (Sh3 16 2048 Cout).Idx → EReal} {v89 : IVec (Sh3 16 2048 Cout) 1}
    (h87 : v87 = layer false e X W bv)
    (ec0 : c0 = constant (F := Ideal) S0 .f32 0x00000000#32) (e88 : v88 = broadcastInDim (Sh3 16 2048 Cout) ![] hz c0)
    (e89 : v89 = cmpf (F := Ideal) (φ := .f32) .oge v87 v88)
    (ec1 : c1 = constant (F := Ideal) S0 .f32 0x3C23D70A#32) (e90 : v90 = broadcastInDim (Sh3 16 2048 Cout) ![] hz' c1)
    (e91 : v91 = mulf (F := Ideal) (φ := .f32) v90 v87) (e92 : v92 = select v89 v87 v91) :
    v92 = layer true e X W bv := by
  subst ec0 e88 e89 ec1 e90 e91 e92
  funext i
  obtain ⟨b, n, f, rfl⟩ : ∃ b n f, i = ix3 b n f := ⟨i 0, i 1, i 2, eq_ix3 i⟩
  show Scalar.select (Ideal.cmp .oge (v87 (ix3 b n f)) (Ideal.ofBits .f32 0x00000000#32)) (v87 (ix3 b n f))
    (Ideal.ofBits .f32 0x3C23D70A#32 * v87 (ix3 b n f)) = _
  rw [leaky_word, h87]
  rfl

end Layer

end Cert.ReferenceIdeal.Hand

end
-- ==== Proof.Ref.Ends.lean ====
/-
  The two ends of the reference: the prelude (the edge rows, the degree with its self loop, its inverse square root and
  its inverse) and the head (flatten, dense product, bias, hyperbolic tangent, unflatten, scale), each from the
  equations that say what its operations compute from their operands.
-/
import proofs.«421025_j30305289241172_1_alg».proof.Proof.Ref.Layer

noncomputable section

open scoped BigOperators

namespace Cert.ReferenceIdeal.Hand

open Idealize.ShloMosaic Idealize.ShloMosaic.ValueIdx Idealize.ShloMosaic.StableHlo.Predicate Cert.Spec

/-! ## The prelude: the edge rows, the degree and its two inverses -/

section Prelude
variable {e : (Sh2 2 12288).Idx → BitVec 32}

/-- Row `r` of the edge array, sliced out and flattened to a vector. -/
theorem edge_row (r : Fin 2) {hs : (Sh2 2 12288).Slices ![r.val, 0] (Sh2 1 12288)}
    {hc : (Sh2 1 12288).ShapeCasts (Sh1 12288)}
    {eb : (Sh2 2 12288).Idx → BitVec 32} {v0 : IVec (Sh2 1 12288) 32} {v1 : IVec (Sh1 12288) 32}
    (harg : eb = e) (e0 : v0 = extractStridedSlice (Sh2 1 12288) ![r.val, 0] eb hs)
    (e1 : v1 = shapeCast (Sh1 12288) v0 hc) (j : Fin 12288) : v1 (ix1 j) = e (ix2 r j) := by
  subst harg e0 e1
  rw [shapeCast_apply _ hc (ix1 j) (ix2 0 j) (by rw [Shape.rowMajor_val_two, Shape.rowMajor_val_one]; simp)]
  rw [extractStridedSlice_apply _ _ hs (ix2 0 j) (ix2 r j) (fun a => by
    match a with
    | ⟨0, _⟩ => show r.val = r.val + 0; rfl
    | ⟨1, _⟩ => show j.val = 0 + j.val; exact (Nat.zero_add _).symm)]

/-- The degree with its self loop, then its inverse square root and its inverse. -/
theorem prelude_value (he : InRange e) (wfS1 : ScatterDims.WF (Sh1 2048) (Sh2 12288 1) (Sh1 12288) [] [0] [0] 1)
    {hzn hzn' hzn'' : S0.BroadcastsInDim (Sh1 2048) ![]} {hze : S0.BroadcastsInDim (Sh1 12288) ![]}
    {cst c1 c2 c3 : S0.Idx → EReal} {v4 v12 v13 v14 v15 v16 v17 : (Sh1 2048).Idx → EReal}
    {v10 : IVec (Sh2 12288 1) 32} {v11 : (Sh1 12288).Idx → EReal}
    (ecst : cst = constant (F := Ideal) S0 .f32 0x00000000#32) (e4 : v4 = broadcastInDim (Sh1 2048) ![] hzn cst)
    (w10 : ∀ j, v10 (ix2 j 0) = e (ix2 1 j))
    (ec1 : c1 = constant (F := Ideal) S0 .f32 0x3F800000#32) (e11 : v11 = broadcastInDim (Sh1 12288) ![] hze c1)
    (e12 : v12 = Host.scatterAdd (F := Ideal) (φ := .f32) (scatDegDims wfS1) v4 v10 v11)
    (ec2 : c2 = constant (F := Ideal) S0 .f32 0x3F800000#32) (e13 : v13 = broadcastInDim (Sh1 2048) ![] hzn' c2)
    (e14 : v14 = addf (F := Ideal) (φ := .f32) v12 v13)
    (e15 : v15 = Host.rsqrt (F := Ideal) (φ := .f32) v14)
    (ec3 : c3 = constant (F := Ideal) S0 .f32 0x3F800000#32) (e16 : v16 = broadcastInDim (Sh1 2048) ![] hzn'' c3)
    (e17 : v17 = Host.divf (F := Ideal) (φ := .f32) v16 v14) :
    v15 = arr1 (isd (dstOf e)) ∧ v17 = arr1 (invd (dstOf e)) := by
  have r10 : ∀ j, (v10 (ix2 j 0)).toNat < 2048 := fun j => by rw [w10 j]; exact he _
  have hdeg : ∀ n, v14 (ix1 n) = deg (dstOf e) n := fun n => by
    subst ecst e4 ec1 e11 e12 ec2 e13 e14
    show Host.scatterAdd (F := Ideal) (φ := .f32) (scatDegDims wfS1) _ v10 _ (ix1 n)
      + broadcastInDim (Sh1 2048) ![] hzn' (constant (F := Ideal) S0 .f32 0x3F800000#32) (ix1 n) = _
    rw [scatter_deg_apply wfS1 v10 _ _ r10 n, broadcastInDim_scalar_apply, broadcastInDim_scalar_apply]
    show (Ideal.ofBits .f32 0x00000000#32 + _) + Ideal.ofBits .f32 0x3F800000#32 = _
    rw [Ideal.ofBits_zero_f32, Ideal.ofBits_one_f32]
    have hset : Finset.univ.filter (fun j => (⟨(v10 (ix2 j 0)).toNat, r10 j⟩ : Fin 2048) = n)
        = Finset.univ.filter (fun j => dstOf e j = n) :=
      Finset.filter_congr (fun j _ => by rw [node_dst (w10 j) (r10 j)])
    rw [hset]
    unfold deg
    refine congrArg (fun s => ((0 : EReal) + s) + 1) (Finset.sum_congr rfl fun j _ => ?_)
    rw [broadcastInDim_scalar_apply]
    exact Ideal.ofBits_one_f32
  constructor
  · subst e15
    funext i
    obtain ⟨n, rfl⟩ : ∃ n, i = ix1 n := ⟨i 0, eq_ix1 i⟩
    show Ideal.rsqrt (v14 (ix1 n)) = _
    rw [hdeg n]
    rfl
  · subst ec3 e16 e17
    funext i
    obtain ⟨n, rfl⟩ : ∃ n, i = ix1 n := ⟨i 0, eq_ix1 i⟩
    show Ideal.div (broadcastInDim (Sh1 2048) ![] hzn'' (constant (F := Ideal) S0 .f32 0x3F800000#32) (ix1 n)) (v14 (ix1 n)) = _
    rw [hdeg n, broadcastInDim_scalar_apply]
    show Ideal.div (Ideal.ofBits .f32 0x3F800000#32) _ = _
    rw [Ideal.ofBits_one_f32]
    rfl

end Prelude

/-! ## The head: flatten, dense product, bias, hyperbolic tangent, unflatten, scale -/

theorem head_value (wfF : DotDims.WF (Sh2 16 6144) (Sh2 6144 6144) (Sh2 16 6144) [1] [0] [0] [1] [] [])
    {hc1 : (Sh3 16 2048 3).ShapeCasts (Sh2 16 6144)} {hc2 : (Sh2 16 6144).ShapeCasts (Sh3 16 2048 3)}
    {h1 : (Sh1 6144).BroadcastsInDim (Sh2 1 6144) ![1]} {h2 : (Sh2 1 6144).BroadcastsInDim (Sh2 16 6144) ![0, 1]}
    {hz : S0.BroadcastsInDim (Sh3 16 2048 3) ![]}
    {H v242 v249 v250 v251 : (Sh3 16 2048 3).Idx → EReal} {v243 v244 v246 v247 v248 : (Sh2 16 6144).Idx → EReal}
    {Wdb Wd : (Sh2 6144 6144).Idx → EReal} {bdb bd : (Sh1 6144).Idx → EReal} {v245 : (Sh2 1 6144).Idx → EReal}
    {c : S0.Idx → EReal}
    (h242 : v242 = H) (hWd : Wdb = Wd) (hbd : bdb = bd)
    (e243 : v243 = shapeCast (Sh2 16 6144) v242 hc1)
    (e244 : v244 = Host.dotGeneral (F := Ideal) (φ₁ := .f32) (φ₂ := .f32) (dotFlatDims 6144 6144 wfF) none v243 Wdb)
    (e245 : v245 = broadcastInDim (Sh2 1 6144) ![1] h1 bdb) (e246 : v246 = broadcastInDim (Sh2 16 6144) ![0, 1] h2 v245)
    (e247 : v247 = addf (F := Ideal) (φ := .f32) v244 v246) (e248 : v248 = Host.tanh (F := Ideal) (φ := .f32) v247)
    (e249 : v249 = shapeCast (Sh3 16 2048 3) v248 hc2)
    (ec : c = constant (F := Ideal) S0 .f32 0x3DCCCCCD#32) (e250 : v250 = broadcastInDim (Sh3 16 2048 3) ![] hz c)
    (e251 : v251 = mulf (F := Ideal) (φ := .f32) v249 v250) :
    v251 = unflat (dense (flat H) Wd (vec1 bd)) := by
  subst h242 hWd hbd
  have h243 : ∀ (b : Fin 16) (k : Fin 6144), v243 (ix2 b k) = flat v242 (ix2 b k) := fun b k => by
    have hk := k.isLt
    rw [e243]
    exact shapeCast_apply v242 hc1 (ix2 b k) (ix3 b ⟨k.val / 3, by omega⟩ ⟨k.val % 3, by omega⟩) (by
      rw [Shape.rowMajor_val_two, Shape.rowMajor_val_three]
      show (b.val * 2048 + k.val / 3) * 3 + k.val % 3 = b.val * 6144 + k.val
      omega)
  have h244 : ∀ (b : Fin 16) (c' : Fin 6144),
      v244 (ix2 b c') = ∑ k : Fin 6144, flat v242 (ix2 b k) * Wdb (ix2 k c') := fun b c' => by
    rw [e244, dot_flat_apply]
    exact Finset.sum_congr rfl fun k _ => by rw [h243]
  have h246 : ∀ (b : Fin 16) (c' : Fin 6144), v246 (ix2 b c') = bdb (ix1 c') := fun b c' => by
    rw [e246, e245, bcast_row]
  have h248 : ∀ (b : Fin 16) (c' : Fin 6144),
      v248 (ix2 b c') = Ideal.tanh ((∑ k : Fin 6144, flat v242 (ix2 b k) * Wdb (ix2 k c')) + bdb (ix1 c')) :=
    fun b c' => by
      rw [e248]
      show Ideal.tanh (v247 (ix2 b c')) = _
      rw [e247]
      show Ideal.tanh (v244 (ix2 b c') + v246 (ix2 b c')) = _
      rw [h244, h246]
  funext i
  obtain ⟨b, n, t, rfl⟩ : ∃ b n t, i = ix3 b n t := ⟨i 0, i 1, i 2, eq_ix3 i⟩
  have hn := n.isLt
  have ht := t.isLt
  have h249 : v249 (ix3 b n t) = v248 (ix2 b ⟨3 * n.val + t.val, by omega⟩) := by
    rw [e249]
    exact shapeCast_apply v248 hc2 (ix3 b n t) (ix2 b ⟨3 * n.val + t.val, by omega⟩) (by
      rw [Shape.rowMajor_val_two, Shape.rowMajor_val_three]
      show b.val * 6144 + (3 * n.val + t.val) = (b.val * 2048 + n.val) * 3 + t.val
      omega)
  rw [e251]
  show v249 (ix3 b n t) * v250 (ix3 b n t) = _
  rw [h249, h248, e250, broadcastInDim_scalar_apply, ec]
  rfl

end Cert.ReferenceIdeal.Hand

end
-- ==== Proof.Ref.Value.lean ====
import proofs.«421025_j30305289241172_1_alg».proof.Proof.Ref.Stages
import proofs.«421025_j30305289241172_1_alg».proof.Proof.Ref.Layer
import proofs.«421025_j30305289241172_1_alg».proof.Proof.Ref.Ends

noncomputable section

namespace Cert.ReferenceIdeal.Hand

open Cert.ReferenceIdeal Cert.ReferenceIdeal.Gen Idealize.ShloMosaic Idealize.ShloMosaic.TcCoe Idealize.SL.Sem Idealize.ShloMosaic.StableHlo
open Idealize.ShloMosaic.ValueIdx Cert.Spec

section
variable (V0 : Valuation τ sig (Elt Ideal)) (he : Cert.Spec.InRange (V0 (Proc.devRef .tc main_arg1)))

/-- The two rows of the edge array. -/
theorem val_src (j : Fin 12288) : Vfin V0 (Proc.devRef .tc main_v1) (ix1 j) = (V0 (Proc.devRef .tc main_arg1)) (ix2 0 j) :=
  edge_row 0 (st_main_arg1 V0) (st_main_v0 V0) (st_main_v1 V0) j
theorem val_dst (j : Fin 12288) : Vfin V0 (Proc.devRef .tc main_v3) (ix1 j) = (V0 (Proc.devRef .tc main_arg1)) (ix2 1 j) :=
  edge_row 1 (st_main_arg1 V0) (st_main_v2 V0) (st_main_v3 V0) j

include he in
/-- The degree's two inverses. -/
theorem val_prelude : Vfin V0 (Proc.devRef .tc main_v15) = arr1 (isd (dstOf (V0 (Proc.devRef .tc main_arg1))))
    ∧ Vfin V0 (Proc.devRef .tc main_v17) = arr1 (invd (dstOf (V0 (Proc.devRef .tc main_arg1)))) :=
  prelude_value he scatter_S2048_S12288x1_S12288_n_0_0_1_wf (st_main_cst V0) (st_main_v4 V0)
    (wrap_col_edge he (val_dst V0) (st_main_c V0) (st_main_v5 V0) (st_main_v6 V0) (st_main_c_0 V0) (st_main_v7 V0) (st_main_v8 V0) (st_main_v9 V0) (st_main_v10 V0))
    (st_main_cst_1 V0) (st_main_v11 V0) (st_main_v12 V0) (st_main_cst_2 V0) (st_main_v13 V0) (st_main_v14 V0) (st_main_v15 V0) (st_main_cst_3 V0) (st_main_v16 V0) (st_main_v17 V0)

include he in
/-- Layer 0: [1475] → [512]. -/
theorem val_layer0 : Vfin V0 (Proc.devRef .tc main_v52) = layer false (V0 (Proc.devRef .tc main_arg1)) (V0 (Proc.devRef .tc main_arg0)) (V0 (Proc.devRef .tc main_arg2)) (V0 (Proc.devRef .tc main_arg3)) := by
  have w5 := wrap_col_edge he (val_src V0) (st_main_call0_c V0) (st_main_call0_v0 V0) (st_main_call0_v1 V0) (st_main_call0_c_0 V0) (st_main_call0_v2 V0) (st_main_call0_v3 V0) (st_main_call0_v4 V0) (st_main_call0_v5 V0)
  exact layer_value (Cin := 1475) (Cout := 512)
    dot_S16x2048x1475_S1475x512_S16x2048x512_2_0_01_1_n_n_wf
    gather_S16x2048x512_S12288x1_S16x12288x512_02_1_n_n_1_1_161512_wf
    scatter_S16x2048x512_S12288x1_S16x12288x512_02_1_1_1_wf rfl rfl rfl rfl he
    (st_main_arg0 V0) (st_main_arg2 V0) (st_main_arg3 V0) (val_prelude V0 he).1 (val_prelude V0 he).2
    (st_main_v18 V0)
    (wrap_col_edge he (val_src V0) (st_main_c_4 V0) (st_main_v19 V0) (st_main_v20 V0) (st_main_c_5 V0) (st_main_v21 V0) (st_main_v22 V0) (st_main_v23 V0) (st_main_v24 V0))
    (st_main_v25 V0)
    (wrap_col_edge he (val_dst V0) (st_main_c_6 V0) (st_main_v26 V0) (st_main_v27 V0) (st_main_c_7 V0) (st_main_v28 V0) (st_main_v29 V0) (st_main_v30 V0) (st_main_v31 V0))
    (st_main_v32 V0) (st_main_v33 V0)
    w5 (st_main_call0_v13 V0)
    (mask_ones (st_main_call0_c_1 V0) (st_main_call0_c_2 V0) (st_main_call0_v6 V0) (st_main_call0_v7 V0) (st_main_call0_v8 V0) (st_main_call0_v9 V0) (st_main_call0_v10 V0) (st_main_call0_v11 V0) (st_main_call0_c_3 V0) (st_main_call0_v12 V0) (st_main_call0_v14 V0) (fun j => by rw [w5 j]; exact he _))
    (st_main_v34 V0)
    (st_main_v35 V0) (st_main_v36 V0) (st_main_v37 V0) (st_main_cst_8 V0) (st_main_v38 V0)
    (wrap_col_edge he (val_dst V0) (st_main_c_9 V0) (st_main_v39 V0) (st_main_v40 V0) (st_main_c_10 V0) (st_main_v41 V0) (st_main_v42 V0) (st_main_v43 V0) (st_main_v44 V0))
    (st_main_v45 V0) (st_main_v46 V0) (st_main_v47 V0) (st_main_v48 V0) (st_main_v49 V0) (st_main_v50 V0) (st_main_v51 V0) (st_main_v52 V0)

include he in
/-- Layer 1: [512] → [512], before its rectifier. -/
theorem val_layer1_pre : Vfin V0 (Proc.devRef .tc main_v87) = layer false (V0 (Proc.devRef .tc main_arg1)) (layer false (V0 (Proc.devRef .tc main_arg1)) (V0 (Proc.devRef .tc main_arg0)) (V0 (Proc.devRef .tc main_arg2)) (V0 (Proc.devRef .tc main_arg3))) (V0 (Proc.devRef .tc main_arg4)) (V0 (Proc.devRef .tc main_arg5)) := by
  have w5 := wrap_col_edge he (val_src V0) (st_main_call1_c V0) (st_main_call1_v0 V0) (st_main_call1_v1 V0) (st_main_call1_c_0 V0) (st_main_call1_v2 V0) (st_main_call1_v3 V0) (st_main_call1_v4 V0) (st_main_call1_v5 V0)
  exact layer_value (Cin := 512) (Cout := 512)
    dot_S16x2048x512_S512x512_S16x2048x512_2_0_01_1_n_n_wf
    gather_S16x2048x512_S12288x1_S16x12288x512_02_1_n_n_1_1_161512_wf
    scatter_S16x2048x512_S12288x1_S16x12288x512_02_1_1_1_wf rfl rfl rfl rfl he
    (val_layer0 V0 he) (st_main_arg4 V0) (st_main_arg5 V0) (val_prelude V0 he).1 (val_prelude V0 he).2
    (st_main_v53 V0)
    (wrap_col_edge he (val_src V0) (st_main_c_11 V0) (st_main_v54 V0) (st_main_v55 V0) (st_main_c_12 V0) (st_main_v56 V0) (st_main_v57 V0) (st_main_v58 V0) (st_main_v59 V0))
    (st_main_v60 V0)
    (wrap_col_edge he (val_dst V0) (st_main_c_13 V0) (st_main_v61 V0) (st_main_v62 V0) (st_main_c_14 V0) (st_main_v63 V0) (st_main_v64 V0) (st_main_v65 V0) (st_main_v66 V0))
    (st_main_v67 V0) (st_main_v68 V0)
    w5 (st_main_call1_v13 V0)
    (mask_ones (st_main_call1_c_1 V0) (st_main_call1_c_2 V0) (st_main_call1_v6 V0) (st_main_call1_v7 V0) (st_main_call1_v8 V0) (st_main_call1_v9 V0) (st_main_call1_v10 V0) (st_main_call1_v11 V0) (st_main_call1_c_3 V0) (st_main_call1_v12 V0) (st_main_call1_v14 V0) (fun j => by rw [w5 j]; exact he _))
    (st_main_v69 V0)
    (st_main_v70 V0) (st_main_v71 V0) (st_main_v72 V0) (st_main_cst_15 V0) (st_main_v73 V0)
    (wrap_col_edge he (val_dst V0) (st_main_c_16 V0) (st_main_v74 V0) (st_main_v75 V0) (st_main_c_17 V0) (st_main_v76 V0) (st_main_v77 V0) (st_main_v78 V0) (st_main_v79 V0))
    (st_main_v80 V0) (st_main_v81 V0) (st_main_v82 V0) (st_main_v83 V0) (st_main_v84 V0) (st_main_v85 V0) (st_main_v86 V0) (st_main_v87 V0)

include he in
/-- Layer 1 with its rectifier. -/
theorem val_layer1 : Vfin V0 (Proc.devRef .tc main_v92) = layer true (V0 (Proc.devRef .tc main_arg1)) (layer false (V0 (Proc.devRef .tc main_arg1)) (V0 (Proc.devRef .tc main_arg0)) (V0 (Proc.devRef .tc main_arg2)) (V0 (Proc.devRef .tc main_arg3))) (V0 (Proc.devRef .tc main_arg4)) (V0 (Proc.devRef .tc main_arg5)) :=
  leaky_value (val_layer1_pre V0 he) (st_main_cst_18 V0) (st_main_v88 V0) (st_main_v89 V0) (st_main_cst_19 V0) (st_main_v90 V0) (st_main_v91 V0) (st_main_v92 V0)

include he in
/-- Layer 2: [512] → [256]. -/
theorem val_layer2 : Vfin V0 (Proc.devRef .tc main_v127) = layer false (V0 (Proc.devRef .tc main_arg1)) (layer true (V0 (Proc.devRef .tc main_arg1)) (layer false (V0 (Proc.devRef .tc main_arg1)) (V0 (Proc.devRef .tc main_arg0)) (V0 (Proc.devRef .tc main_arg2)) (V0 (Proc.devRef .tc main_arg3))) (V0 (Proc.devRef .tc main_arg4)) (V0 (Proc.devRef .tc main_arg5))) (V0 (Proc.devRef .tc main_arg6)) (V0 (Proc.devRef .tc main_arg7)) := by
  have w5 := wrap_col_edge he (val_src V0) (st_main_call3_c V0) (st_main_call3_v0 V0) (st_main_call3_v1 V0) (st_main_call3_c_0 V0) (st_main_call3_v2 V0) (st_main_call3_v3 V0) (st_main_call3_v4 V0) (st_main_call3_v5 V0)
  exact layer_value (Cin := 512) (Cout := 256)
    dot_S16x2048x512_S512x256_S16x2048x256_2_0_01_1_n_n_wf
    gather_S16x2048x256_S12288x1_S16x12288x256_02_1_n_n_1_1_161256_wf
    scatter_S16x2048x256_S12288x1_S16x12288x256_02_1_1_1_wf rfl rfl rfl rfl he
    (val_layer1 V0 he) (st_main_arg6 V0) (st_main_arg7 V0) (val_prelude V0 he).1 (val_prelude V0 he).2
    (st_main_v93 V0)
    (wrap_col_edge he (val_src V0) (st_main_c_20 V0) (st_main_v94 V0) (st_main_v95 V0) (st_main_c_21 V0) (st_main_v96 V0) (st_main_v97 V0) (st_main_v98 V0) (st_main_v99 V0))
    (st_main_v100 V0)
    (wrap_col_edge he (val_dst V0) (st_main_c_22 V0) (st_main_v101 V0) (st_main_v102 V0) (st_main_c_23 V0) (st_main_v103 V0) (st_main_v104 V0) (st_main_v105 V0) (st_main_v106 V0))
    (st_main_v107 V0) (st_main_v108 V0)
    w5 (st_main_call3_v13 V0)
    (mask_ones (st_main_call3_c_1 V0) (st_main_call3_c_2 V0) (st_main_call3_v6 V0) (st_main_call3_v7 V0) (st_main_call3_v8 V0) (st_main_call3_v9 V0) (st_main_call3_v10 V0) (st_main_call3_v11 V0) (st_main_call3_c_3 V0) (st_main_call3_v12 V0) (st_main_call3_v14 V0) (fun j => by rw [w5 j]; exact he _))
    (st_main_v109 V0)
    (st_main_v110 V0) (st_main_v111 V0) (st_main_v112 V0) (st_main_cst_24 V0) (st_main_v113 V0)
    (wrap_col_edge he (val_dst V0) (st_main_c_25 V0) (st_main_v114 V0) (st_main_v115 V0) (st_main_c_26 V0) (st_main_v116 V0) (st_main_v117 V0) (st_main_v118 V0) (st_main_v119 V0))
    (st_main_v120 V0) (st_main_v121 V0) (st_main_v122 V0) (st_main_v123 V0) (st_main_v124 V0) (st_main_v125 V0) (st_main_v126 V0) (st_main_v127 V0)

include he in
/-- Layer 3: [256] → [256], before its rectifier. -/
theorem val_layer3_pre : Vfin V0 (Proc.devRef .tc main_v162) = layer false (V0 (Proc.devRef .tc main_arg1)) (layer false (V0 (Proc.devRef .tc main_arg1)) (layer true (V0 (Proc.devRef .tc main_arg1)) (layer false (V0 (Proc.devRef .tc main_arg1)) (V0 (Proc.devRef .tc main_arg0)) (V0 (Proc.devRef .tc main_arg2)) (V0 (Proc.devRef .tc main_arg3))) (V0 (Proc.devRef .tc main_arg4)) (V0 (Proc.devRef .tc main_arg5))) (V0 (Proc.devRef .tc main_arg6)) (V0 (Proc.devRef .tc main_arg7))) (V0 (Proc.devRef .tc main_arg8)) (V0 (Proc.devRef .tc main_arg9)) := by
  have w5 := wrap_col_edge he (val_src V0) (st_main_call4_c V0) (st_main_call4_v0 V0) (st_main_call4_v1 V0) (st_main_call4_c_0 V0) (st_main_call4_v2 V0) (st_main_call4_v3 V0) (st_main_call4_v4 V0) (st_main_call4_v5 V0)
  exact layer_value (Cin := 256) (Cout := 256)
    dot_S16x2048x256_S256x256_S16x2048x256_2_0_01_1_n_n_wf
    gather_S16x2048x256_S12288x1_S16x12288x256_02_1_n_n_1_1_161256_wf
    scatter_S16x2048x256_S12288x1_S16x12288x256_02_1_1_1_wf rfl rfl rfl rfl he
    (val_layer2 V0 he) (st_main_arg8 V0) (st_main_arg9 V0) (val_prelude V0 he).1 (val_prelude V0 he).2
    (st_main_v128 V0)
    (wrap_col_edge he (val_src V0) (st_main_c_27 V0) (st_main_v129 V0) (st_main_v130 V0) (st_main_c_28 V0) (st_main_v131 V0) (st_main_v132 V0) (st_main_v133 V0) (st_main_v134 V0))
    (st_main_v135 V0)
    (wrap_col_edge he (val_dst V0) (st_main_c_29 V0) (st_main_v136 V0) (st_main_v137 V0) (st_main_c_30 V0) (st_main_v138 V0) (st_main_v139 V0) (st_main_v140 V0) (st_main_v141 V0))
    (st_main_v142 V0) (st_main_v143 V0)
    w5 (st_main_call4_v13 V0)
    (mask_ones (st_main_call4_c_1 V0) (st_main_call4_c_2 V0) (st_main_call4_v6 V0) (st_main_call4_v7 V0) (st_main_call4_v8 V0) (st_main_call4_v9 V0) (st_main_call4_v10 V0) (st_main_call4_v11 V0) (st_main_call4_c_3 V0) (st_main_call4_v12 V0) (st_main_call4_v14 V0) (fun j => by rw [w5 j]; exact he _))
    (st_main_v144 V0)
    (st_main_v145 V0) (st_main_v146 V0) (st_main_v147 V0) (st_main_cst_31 V0) (st_main_v148 V0)
    (wrap_col_edge he (val_dst V0) (st_main_c_32 V0) (st_main_v149 V0) (st_main_v150 V0) (st_main_c_33 V0) (st_main_v151 V0) (st_main_v152 V0) (st_main_v153 V0) (st_main_v154 V0))
    (st_main_v155 V0) (st_main_v156 V0) (st_main_v157 V0) (st_main_v158 V0) (st_main_v159 V0) (st_main_v160 V0) (st_main_v161 V0) (st_main_v162 V0)

include he in
/-- Layer 3 with its rectifier. -/
theorem val_layer3 : Vfin V0 (Proc.devRef .tc main_v167) = layer true (V0 (Proc.devRef .tc main_arg1)) (layer false (V0 (Proc.devRef .tc main_arg1)) (layer true (V0 (Proc.devRef .tc main_arg1)) (layer false (V0 (Proc.devRef .tc main_arg1)) (V0 (Proc.devRef .tc main_arg0)) (V0 (Proc.devRef .tc main_arg2)) (V0 (Proc.devRef .tc main_arg3))) (V0 (Proc.devRef .tc main_arg4)) (V0 (Proc.devRef .tc main_arg5))) (V0 (Proc.devRef .tc main_arg6)) (V0 (Proc.devRef .tc main_arg7))) (V0 (Proc.devRef .tc main_arg8)) (V0 (Proc.devRef .tc main_arg9)) :=
  leaky_value (val_layer3_pre V0 he) (st_main_cst_34 V0) (st_main_v163 V0) (st_main_v164 V0) (st_main_cst_35 V0) (st_main_v165 V0) (st_main_v166 V0) (st_main_v167 V0)

include he in
/-- Layer 4: [256] → [64]. -/
theorem val_layer4 : Vfin V0 (Proc.devRef .tc main_v202) = layer false (V0 (Proc.devRef .tc main_arg1)) (layer true (V0 (Proc.devRef .tc main_arg1)) (layer false (V0 (Proc.devRef .tc main_arg1)) (layer true (V0 (Proc.devRef .tc main_arg1)) (layer false (V0 (Proc.devRef .tc main_arg1)) (V0 (Proc.devRef .tc main_arg0)) (V0 (Proc.devRef .tc main_arg2)) (V0 (Proc.devRef .tc main_arg3))) (V0 (Proc.devRef .tc main_arg4)) (V0 (Proc.devRef .tc main_arg5))) (V0 (Proc.devRef .tc main_arg6)) (V0 (Proc.devRef .tc main_arg7))) (V0 (Proc.devRef .tc main_arg8)) (V0 (Proc.devRef .tc main_arg9))) (V0 (Proc.devRef .tc main_arg10)) (V0 (Proc.devRef .tc main_arg11)) := by
  have w5 := wrap_col_edge he (val_src V0) (st_main_call6_c V0) (st_main_call6_v0 V0) (st_main_call6_v1 V0) (st_main_call6_c_0 V0) (st_main_call6_v2 V0) (st_main_call6_v3 V0) (st_main_call6_v4 V0) (st_main_call6_v5 V0)
  exact layer_value (Cin := 256) (Cout := 64)
    dot_S16x2048x256_S256x64_S16x2048x64_2_0_01_1_n_n_wf
    gather_S16x2048x64_S12288x1_S16x12288x64_02_1_n_n_1_1_16164_wf
    scatter_S16x2048x64_S12288x1_S16x12288x64_02_1_1_1_wf rfl rfl rfl rfl he
    (val_layer3 V0 he) (st_main_arg10 V0) (st_main_arg11 V0) (val_prelude V0 he).1 (val_prelude V0 he).2
    (st_main_v168 V0)
    (wrap_col_edge he (val_src V0) (st_main_c_36 V0) (st_main_v169 V0) (st_main_v170 V0) (st_main_c_37 V0) (st_main_v171 V0) (st_main_v172 V0) (st_main_v173 V0) (st_main_v174 V0))
    (st_main_v175 V0)
    (wrap_col_edge he (val_dst V0) (st_main_c_38 V0) (st_main_v176 V0) (st_main_v177 V0) (st_main_c_39 V0) (st_main_v178 V0) (st_main_v179 V0) (st_main_v180 V0) (st_main_v181 V0))
    (st_main_v182 V0) (st_main_v183 V0)
    w5 (st_main_call6_v13 V0)
    (mask_ones (st_main_call6_c_1 V0) (st_main_call6_c_2 V0) (st_main_call6_v6 V0) (st_main_call6_v7 V0) (st_main_call6_v8 V0) (st_main_call6_v9 V0) (st_main_call6_v10 V0) (st_main_call6_v11 V0) (st_main_call6_c_3 V0) (st_main_call6_v12 V0) (st_main_call6_v14 V0) (fun j => by rw [w5 j]; exact he _))
    (st_main_v184 V0)
    (st_main_v185 V0) (st_main_v186 V0) (st_main_v187 V0) (st_main_cst_40 V0) (st_main_v188 V0)
    (wrap_col_edge he (val_dst V0) (st_main_c_41 V0) (st_main_v189 V0) (st_main_v190 V0) (st_main_c_42 V0) (st_main_v191 V0) (st_main_v192 V0) (st_main_v193 V0) (st_main_v194 V0))
    (st_main_v195 V0) (st_main_v196 V0) (st_main_v197 V0) (st_main_v198 V0) (st_main_v199 V0) (st_main_v200 V0) (st_main_v201 V0) (st_main_v202 V0)

include he in
/-- Layer 5: [64] → [3], before its rectifier. -/
theorem val_layer5_pre : Vfin V0 (Proc.devRef .tc main_v237) = layer false (V0 (Proc.devRef .tc main_arg1)) (layer false (V0 (Proc.devRef .tc main_arg1)) (layer true (V0 (Proc.devRef .tc main_arg1)) (layer false (V0 (Proc.devRef .tc main_arg1)) (layer true (V0 (Proc.devRef .tc main_arg1)) (layer false (V0 (Proc.devRef .tc main_arg1)) (V0 (Proc.devRef .tc main_arg0)) (V0 (Proc.devRef .tc main_arg2)) (V0 (Proc.devRef .tc main_arg3))) (V0 (Proc.devRef .tc main_arg4)) (V0 (Proc.devRef .tc main_arg5))) (V0 (Proc.devRef .tc main_arg6)) (V0 (Proc.devRef .tc main_arg7))) (V0 (Proc.devRef .tc main_arg8)) (V0 (Proc.devRef .tc main_arg9))) (V0 (Proc.devRef .tc main_arg10)) (V0 (Proc.devRef .tc main_arg11))) (V0 (Proc.devRef .tc main_arg12)) (V0 (Proc.devRef .tc main_arg13)) := by
  have w5 := wrap_col_edge he (val_src V0) (st_main_call7_c V0) (st_main_call7_v0 V0) (st_main_call7_v1 V0) (st_main_call7_c_0 V0) (st_main_call7_v2 V0) (st_main_call7_v3 V0) (st_main_call7_v4 V0) (st_main_call7_v5 V0)
  exact layer_value (Cin := 64) (Cout := 3)
    dot_S16x2048x64_S64x3_S16x2048x3_2_0_01_1_n_n_wf
    gather_S16x2048x3_S12288x1_S16x12288x3_02_1_n_n_1_1_1613_wf
    scatter_S16x2048x3_S12288x1_S16x12288x3_02_1_1_1_wf rfl rfl rfl rfl he
    (val_layer4 V0 he) (st_main_arg12 V0) (st_main_arg13 V0) (val_prelude V0 he).1 (val_prelude V0 he).2
    (st_main_v203 V0)
    (wrap_col_edge he (val_src V0) (st_main_c_43 V0) (st_main_v204 V0) (st_main_v205 V0) (st_main_c_44 V0) (st_main_v206 V0) (st_main_v207 V0) (st_main_v208 V0) (st_main_v209 V0))
    (st_main_v210 V0)
    (wrap_col_edge he (val_dst V0) (st_main_c_45 V0) (st_main_v211 V0) (st_main_v212 V0) (st_main_c_46 V0) (st_main_v213 V0) (st_main_v214 V0) (st_main_v215 V0) (st_main_v216 V0))
    (st_main_v217 V0) (st_main_v218 V0)
    w5 (st_main_call7_v13 V0)
    (mask_ones (st_main_call7_c_1 V0) (st_main_call7_c_2 V0) (st_main_call7_v6 V0) (st_main_call7_v7 V0) (st_main_call7_v8 V0) (st_main_call7_v9 V0) (st_main_call7_v10 V0) (st_main_call7_v11 V0) (st_main_call7_c_3 V0) (st_main_call7_v12 V0) (st_main_call7_v14 V0) (fun j => by rw [w5 j]; exact he _))
    (st_main_v219 V0)
    (st_main_v220 V0) (st_main_v221 V0) (st_main_v222 V0) (st_main_cst_47 V0) (st_main_v223 V0)
    (wrap_col_edge he (val_dst V0) (st_main_c_48 V0) (st_main_v224 V0) (st_main_v225 V0) (st_main_c_49 V0) (st_main_v226 V0) (st_main_v227 V0) (st_main_v228 V0) (st_main_v229 V0))
    (st_main_v230 V0) (st_main_v231 V0) (st_main_v232 V0) (st_main_v233 V0) (st_main_v234 V0) (st_main_v235 V0) (st_main_v236 V0) (st_main_v237 V0)

include he in
/-- Layer 5 with its rectifier. -/
theorem val_layer5 : Vfin V0 (Proc.devRef .tc main_v242) = layer true (V0 (Proc.devRef .tc main_arg1)) (layer false (V0 (Proc.devRef .tc main_arg1)) (layer true (V0 (Proc.devRef .tc main_arg1)) (layer false (V0 (Proc.devRef .tc main_arg1)) (layer true (V0 (Proc.devRef .tc main_arg1)) (layer false (V0 (Proc.devRef .tc main_arg1)) (V0 (Proc.devRef .tc main_arg0)) (V0 (Proc.devRef .tc main_arg2)) (V0 (Proc.devRef .tc main_arg3))) (V0 (Proc.devRef .tc main_arg4)) (V0 (Proc.devRef .tc main_arg5))) (V0 (Proc.devRef .tc main_arg6)) (V0 (Proc.devRef .tc main_arg7))) (V0 (Proc.devRef .tc main_arg8)) (V0 (Proc.devRef .tc main_arg9))) (V0 (Proc.devRef .tc main_arg10)) (V0 (Proc.devRef .tc main_arg11))) (V0 (Proc.devRef .tc main_arg12)) (V0 (Proc.devRef .tc main_arg13)) :=
  leaky_value (val_layer5_pre V0 he) (st_main_cst_50 V0) (st_main_v238 V0) (st_main_v239 V0) (st_main_cst_51 V0) (st_main_v240 V0) (st_main_v241 V0) (st_main_v242 V0)

include he in
/-- THE REFERENCE'S VALUE: its result array is the network of its sixteen arguments. -/
theorem ref_value : Vfin V0 (Proc.devRef .tc main_v251)
    = Cert.Spec.net (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) :=
  head_value dot_S16x6144_S6144x6144_S16x6144_1_0_0_1_n_n_wf (val_layer5 V0 he) (st_main_arg14 V0) (st_main_arg15 V0)
    (st_main_v243 V0) (st_main_v244 V0) (st_main_v245 V0) (st_main_v246 V0) (st_main_v247 V0) (st_main_v248 V0) (st_main_v249 V0) (st_main_cst_52 V0) (st_main_v250 V0) (st_main_v251 V0)

end

end Cert.ReferenceIdeal.Hand

end
-- ==== Proof.PreRange.lean ====
/-
  The precondition read back: its last two conjuncts say that every word of the integer edge array, read signed,
  lies in [0, 2048); a word in that range reads the same unsigned, so it is a node number.
-/
import proofs.«421025_j30305289241172_1_alg».proof.Defs
import proofs.«421025_j30305289241172_1_alg».proof.Proof.Gen.Pre_finite_inputs
import proofs.«421025_j30305289241172_1_alg».proof.Proof.Spec
import Idealize.ShloMosaic.Lib.ReduceAll
import Idealize.ShloMosaic.Lib.StableHlo.Predicate

set_option maxRecDepth 16384

noncomputable section

namespace Cert.Hand

open Idealize.ShloMosaic Idealize.ShloMosaic.TcCoe Idealize.SL.Sem

/-- The rank-0 shape has one index. -/
instance : Subsingleton Cert.Pre_finite_inputs.S_.Idx := ⟨fun a b => funext fun d => d.elim0⟩

/-- A word that is at least 0 and below `n` signed is below `n` unsigned. -/
theorem toNat_lt_of_signed (w : BitVec 32) (n : Nat) (hn : n < 2 ^ 31) (h0 : IntOp.cmpi .sge w (0#32) = 1#1)
    (h1 : IntOp.cmpi .slt w (BitVec.ofNat 32 n) = 1#1) : w.toNat < n := by
  rw [IntOp.cmpi_sge] at h0
  rw [IntOp.cmpi_slt] at h1
  have z : (0#32 : BitVec 32).toInt = 0 := by decide
  have hN : (BitVec.ofNat 32 n).toInt = n := by
    rw [BitVec.toInt_ofNat']
    exact Int.bmod_eq_of_le (by omega) (by omega)
  rw [z] at h0
  rw [hN] at h1
  have h32 := w.isLt
  unfold BitVec.toInt at h0 h1
  split at h1 <;> omega

theorem inRange_of_pre (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.InRange (m ((c.tc : Thread Cert.KernelIdeal.nD Cert.KernelIdeal.τ).loc Cert.KernelIdeal.main_arg1)) := by
  intro i
  have e := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at e
  rw [andi, IntOp.andi_eq_one] at e
  obtain ⟨e1, hlt⟩ := e
  rw [andi, IntOp.andi_eq_one] at e1
  obtain ⟨-, hge⟩ := e1
  have a := Host.reduce_andi_all _ _ _ _ _ hge i
  have b := Host.reduce_andi_all _ _ _ _ _ hlt i
  exact toNat_lt_of_signed _ 2048 (by norm_num) a b

end Cert.Hand

end
-- ==== Proof.lean ====
/-
  The certificate of the graph-convolution network: a six-layer stack of normalised-adjacency convolutions and a dense
  hyperbolic-tangent head, computed by thirteen pipelined kernels (six feature transforms, six aggregations against a
  dense normalised adjacency matrix, one K-blocked dense head) against the edge-list reference (gather, scale,
  scatter-add). Over the extended reals the two are one function of the inputs once every edge endpoint is a node
  number: the adjacency matrix's entry (n, m) counts the edges from m to n and carries both endpoints' inverse
  square-root degrees, and a nonnegative finite factor distributes over any sum of extended reals, so the matrix
  product regroups into the reference's sum over the edges that end at n; the head's three accumulated blocks are one
  sum by associativity. The three frames are the runs with the result forgotten; nothing was rewritten by the ideal
  pass, so the idealization claim is trivial.
-/
import proofs.«421025_j30305289241172_1_alg».proof.Defs
import proofs.«421025_j30305289241172_1_alg».proof.Proof.Gen.Kernel
import proofs.«421025_j30305289241172_1_alg».proof.Proof.Gen.KernelIdeal
import proofs.«421025_j30305289241172_1_alg».proof.Proof.Gen.ReferenceIdeal
import proofs.«421025_j30305289241172_1_alg».proof.Proof.Gen.Pre_finite_inputs
import proofs.«421025_j30305289241172_1_alg».proof.Proof.K.Run
import proofs.«421025_j30305289241172_1_alg».proof.Proof.KI.Run
import proofs.«421025_j30305289241172_1_alg».proof.Proof.KI.Value
import proofs.«421025_j30305289241172_1_alg».proof.Proof.Ref.Run
import proofs.«421025_j30305289241172_1_alg».proof.Proof.Ref.Value
import proofs.«421025_j30305289241172_1_alg».proof.Proof.PreRange

noncomputable section

namespace Cert.Proof

open Idealize.ShloMosaic Idealize.SL.Sem

/-- The word-level program runs and keeps its arguments: its run, the result forgotten. -/
theorem frame_k : Cert.frame_Kernel := fun m ρ _ =>
  (θ_run Cert.Kernel.defs _ _).mono (fun _ h c => (h c).2) (Cert.Kernel.Hand.run (F := Bits) m ρ)

/-- The idealized program likewise. -/
theorem frame_ki : Cert.frame_KernelIdeal := fun m ρ _ =>
  (θ_run Cert.KernelIdeal.defs _ _).mono (fun _ h c => (h c).2) (Cert.KernelIdeal.Hand.run (F := Ideal) m ρ)

/-- The reference likewise. -/
theorem frame_ri : Cert.frame_ReferenceIdeal := fun m ρ _ =>
  (θ_run Cert.ReferenceIdeal.defs _ _).mono (fun _ h c => (h c).2) (Cert.ReferenceIdeal.Hand.run (F := Ideal) m ρ)

/-- The ideal pass rewrote nothing. -/
theorem preserves : Cert.preserves_Kernel_KernelIdeal := trivial

/-- The network's closed form respects equality of its sixteen arguments. -/
theorem net_congr {x' x : (Cert.Spec.Sh3 16 2048 1475).Idx → EReal} {e' e : (Cert.Spec.Sh2 2 12288).Idx → BitVec 32} {W0' W0 : (Cert.Spec.Sh2 1475 512).Idx → EReal} {b0' b0 : (Cert.Spec.Sh1 512).Idx → EReal} {W1' W1 : (Cert.Spec.Sh2 512 512).Idx → EReal} {b1' b1 : (Cert.Spec.Sh1 512).Idx → EReal} {W2' W2 : (Cert.Spec.Sh2 512 256).Idx → EReal} {b2' b2 : (Cert.Spec.Sh1 256).Idx → EReal} {W3' W3 : (Cert.Spec.Sh2 256 256).Idx → EReal} {b3' b3 : (Cert.Spec.Sh1 256).Idx → EReal} {W4' W4 : (Cert.Spec.Sh2 256 64).Idx → EReal} {b4' b4 : (Cert.Spec.Sh1 64).Idx → EReal} {W5' W5 : (Cert.Spec.Sh2 64 3).Idx → EReal} {b5' b5 : (Cert.Spec.Sh1 3).Idx → EReal} {Wd' Wd : (Cert.Spec.Sh2 6144 6144).Idx → EReal} {bd' bd : (Cert.Spec.Sh1 6144).Idx → EReal}
    (h0 : x' = x) (h1 : e' = e) (h2 : W0' = W0) (h3 : b0' = b0) (h4 : W1' = W1) (h5 : b1' = b1) (h6 : W2' = W2) (h7 : b2' = b2) (h8 : W3' = W3) (h9 : b3' = b3) (h10 : W4' = W4) (h11 : b4' = b4) (h12 : W5' = W5) (h13 : b5' = b5) (h14 : Wd' = Wd) (h15 : bd' = bd) :
    Cert.Spec.net x' e' W0' b0' W1' b1' W2' b2' W3' b3' W4' b4' W5' b5' Wd' bd' = Cert.Spec.net x e W0 b0 W1 b1 W2 b2 W3 b3 W4 b4 W5 b5 Wd bd := by
  subst h0 h1 h2 h3 h4 h5 h6 h7 h8 h9 h10 h11 h12 h13 h14 h15; rfl

set_option maxHeartbeats 4000000 in
/-- Both programs end at the network's closed form of arguments that agree: the reference's result is the closed form of
    its arguments, the kernel program's the closed form of its own, and the arguments agree. -/
theorem algebraic : Cert.algebraic_KernelIdeal_ReferenceIdeal := by
  intro m ρ m' ρ' hpre hagree
  refine ⟨fun c => Cert.KernelIdeal.Hand.W22 m ρ c (Proc.devRef .tc Cert.KernelIdeal.main_v68), Cert.KernelIdeal.Hand.run (F := Ideal) m ρ, ?_⟩
  refine (θ_run Cert.ReferenceIdeal.defs _ _).mono (fun r h c => ⟨?_, (h c).2⟩)
    (Cert.ReferenceIdeal.Hand.run (F := Ideal) m' ρ')
  have he := Cert.Hand.inRange_of_pre m hpre c
  obtain ⟨h0, h1, h2, h3, h4, h5, h6, h7, h8, h9, h10, h11, h12, h13, h14, h15⟩ := hagree c
  have he' : Cert.Spec.InRange (m' ((c.tc : Thread Cert.ReferenceIdeal.nD Cert.ReferenceIdeal.τ).loc Cert.ReferenceIdeal.main_arg1)) := by
    rw [h1]; exact he
  have hr := Cert.ReferenceIdeal.Hand.ref_value (fun b => m' (c, b)) he'
  have hk := Cert.KernelIdeal.Hand.kernel_value m ρ c he
  have hn := net_congr h0 h1 h2 h3 h4 h5 h6 h7 h8 h9 h10 h11 h12 h13 h14 h15
  exact (h c).1.trans (hr.trans (hn.trans hk.symm))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
